-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v325) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S128 .f32) (main_arg17 : FVec F S128x10 .f32) (main_arg18 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x10 .f32 := Host.absf main_arg17
  let main_cst_28 : FVec F S_ .f32 := constant S_ .f32 0x7F800000#32
  let main_v75 : FVec F S128x10 .f32 := broadcastInDim S128x10 ![] bcast_S_S128x10 main_cst_28
  let main_v76 : IVec S128x10 1 := cmpf .olt main_v74 main_v75
  let main_c_29 : IVec S_ 1 := constantI S_ 1 1#1
  let main_v77 : IVec S_ 1 := (fun x v => Host.reduce IntOp.andi x v reducesTo_S128x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S4x128 .f32) (main_arg14 : FVec F S4x128 .f32) (main_arg15 : FVec F S512x128 .f32) (main_arg16 : FVec F S128 .f32) (main_arg17 : FVec F S128x10 .f32) (main_arg18 : FVec F S10 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg14
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S512x128 .f32 := Host.absf main_arg15
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg16 main_arg17 main_arg18 main_v63 main_v67

def fn_part2 {F : FTy → Type} [FloatOps F] (main_arg9 : FVec F S4x128x128 .f32) (main_arg10 : FVec F S4x128 .f32) (main_arg11 : FVec F S4x128 .f32) (main_arg12 : FVec F S4x128 .f32) (main_arg13 : FVec F S4x128 .f32) (main_arg14 : FVec F S4x128 .f32) (main_arg15 : FVec F S512x128 .f32) (main_arg16 : FVec F S128 .f32) (main_arg17 : FVec F S128x10 .f32) (main_arg18 : FVec F S10 .f32) (main_v33 : IVec S_ 1) : IVec S_ 1 :=
  let main_v34 : FVec F S4x128x128 .f32 := Host.absf main_arg9
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_arg15 main_arg16 main_arg17 main_arg18 main_v48 main_v49 main_v50

def fn_part1 {F : FTy → Type} [FloatOps F] (main_arg6 : FVec F S4x128 .f32) (main_arg7 : FVec F S4x128 .f32) (main_arg8 : FVec F S4x128 .f32) (main_arg9 : FVec F S4x128x128 .f32) (main_arg10 : FVec F S4x128 .f32) (main_arg11 : FVec F S4x128 .f32) (main_arg12 : FVec F S4x128 .f32) (main_arg13 : FVec F S4x128 .f32) (main_arg14 : FVec F S4x128 .f32) (main_arg15 : FVec F S512x128 .f32) (main_arg16 : FVec F S128 .f32) (main_arg17 : FVec F S128x10 .f32) (main_arg18 : FVec F S10 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S4x128x128 .f32) (main_arg4 : FVec F S4x128 .f32) (main_arg5 : FVec F S4x128 .f32) (main_arg6 : FVec F S4x128 .f32) (main_arg7 : FVec F S4x128 .f32) (main_arg8 : FVec F S4x128 .f32) (main_arg9 : FVec F S4x128x128 .f32) (main_arg10 : FVec F S4x128 .f32) (main_arg11 : FVec F S4x128 .f32) (main_arg12 : FVec F S4x128 .f32) (main_arg13 : FVec F S4x128 .f32) (main_arg14 : FVec F S4x128 .f32) (main_arg15 : FVec F S512x128 .f32) (main_arg16 : FVec F S128 .f32) (main_arg17 : FVec F S128x10 .f32) (main_arg18 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S1000x128 : Shape := ⟨2, ![1000, 128]⟩
abbrev S1000x1 : Shape := ⟨2, ![1000, 1]⟩
abbrev S1000x512 : Shape := ⟨2, ![1000, 512]⟩
abbrev S512x512 : Shape := ⟨2, ![512, 512]⟩
abbrev S512x10 : Shape := ⟨2, ![512, 10]⟩
abbrev S1x10 : Shape := ⟨2, ![1, 10]⟩

abbrev nBuf : Space → Nat
  | .hbm => 182
  | .vmem => 90
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S4x128x128, .f32⟩
  | 10 => ⟨S4x128, .f32⟩
  | 11 => ⟨S4x128, .f32⟩
  | 12 => ⟨S4x128, .f32⟩
  | 13 => ⟨S4x128, .f32⟩
  | 14 => ⟨S4x128, .f32⟩
  | 15 => ⟨S512x128, .f32⟩
  | 16 => ⟨S128, .f32⟩
  | 17 => ⟨S128x10, .f32⟩
  | 18 => ⟨S10, .f32⟩
  | 19 => ⟨S1x800000, .i32⟩
  | 20 => ⟨S800000, .i32⟩
  | 21 => ⟨S1x800000, .i32⟩
  | 22 => ⟨S800000, .i32⟩
  | 23 => ⟨S50000x1, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S50000x128, .f32⟩
  | 62 => ⟨S512x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S128, .f32⟩
  | 100 => ⟨S50000x128, .f32⟩
  | 101 => ⟨S512x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128x128, .f32⟩
  | _ => ⟨S50000x128, .f32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S50000x128, .f32⟩
  | 12 => ⟨S512x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S128, .f32⟩
  | 48 => ⟨S1x128, .f32⟩
  | 49 => ⟨S128, .f32⟩
  | 50 => ⟨S50000x128, .f32⟩
  | 51 => ⟨S512x128, .f32⟩
  | 52 => ⟨S512x512, .f32⟩
  | 53 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x1, .i32⟩
  | .local _ .vmem, ⟨5, _⟩ => ⟨S1000x1, .i32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S1000x128, .f32⟩
  | .local _ .vmem, ⟨19, _⟩ => ⟨S1000x128, .f32⟩
  | .local _ .vmem, ⟨20, _⟩ => ⟨S512x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x1, .i32⟩
  | .local _ .vmem, ⟨26, _⟩ => ⟨S1000x1, .i32⟩
  | .local _ .vmem, ⟨27, _⟩ => ⟨S128x128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128, .f32⟩
  | .local _ .vmem, ⟨39, _⟩ => ⟨S1000x128, .f32⟩
  | .local _ .vmem, ⟨40, _⟩ => ⟨S1000x128, .f32⟩
  | .local _ .vmem, ⟨41, _⟩ => ⟨S512x128, .f32⟩
  | .local _ .vmem, ⟨42, _⟩ => ⟨S1000x128, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S1000x1, .i32⟩
  | .local _ .vmem, ⟨47, _⟩ => ⟨S1000x1, .i32⟩
  | .local _ .vmem, ⟨48, _⟩ => ⟨S128x128, .f32⟩
  | .local _ .vmem, ⟨49, _⟩ => ⟨S128, .f32⟩
  | .local _ .vmem, ⟨50, _⟩ => ⟨S128, .f32⟩
  | .local _ .vmem, ⟨51, _⟩ => ⟨S128, .f32⟩
  | .local _ .vmem, ⟨52, _⟩ => ⟨S128, .f32⟩
  | .local _ .vmem, ⟨53, _⟩ => ⟨S128, .f32⟩
  | .local _ .vmem, ⟨54, _⟩ => ⟨S128x128, .f32⟩
  | .local _ .vmem, ⟨55, _⟩ => ⟨S128, .f32⟩
  | .local _ .vmem, ⟨56, _⟩ => ⟨S128, .f32⟩
  | .local _ .vmem, ⟨57, _⟩ => ⟨S128, .f32⟩
  | .local _ .vmem, ⟨58, _⟩ => ⟨S128, .f32⟩
  | .local _ .vmem, ⟨59, _⟩ => ⟨S128, .f32⟩
  | .local _ .vmem, ⟨60, _⟩ => ⟨S1000x128, .f32⟩
  | .local _ .vmem, ⟨61, _⟩ => ⟨S1000x128, .f32⟩
  | .local _ .vmem, ⟨62, _⟩ => ⟨S512x128, .f32⟩
  | .local _ .vmem, ⟨63, _⟩ => ⟨S1000x128, .f32⟩
  | .local _ .vmem, ⟨64, _⟩ => ⟨S1000x128, .f32⟩
  | .local _ .vmem, ⟨65, _⟩ => ⟨S1000x128, .f32⟩
  | .local _ .vmem, ⟨66, _⟩ => ⟨S1000x128, .f32⟩
  | .local _ .vmem, ⟨67, _⟩ => ⟨S1000x1, .i32⟩
  | .local _ .vmem, ⟨68, _⟩ => ⟨S1000x1, .i32⟩
  | .local _ .vmem, ⟨69, _⟩ => ⟨S128x128, .f32⟩
  | .local _ .vmem, ⟨70, _⟩ => ⟨S128, .f32⟩
  | .local _ .vmem, ⟨71, _⟩ => ⟨S128, .f32⟩
  | .local _ .vmem, ⟨72, _⟩ => ⟨S128, .f32⟩
  | .local _ .vmem, ⟨73, _⟩ => ⟨S128, .f32⟩
  | .local _ .vmem, ⟨74, _⟩ => ⟨S128, .f32⟩
  | .local _ .vmem, ⟨75, _⟩ => ⟨S128x128, .f32⟩
  | .local _ .vmem, ⟨76, _⟩ => ⟨S128, .f32⟩
  | .local _ .vmem, ⟨77, _⟩ => ⟨S128, .f32⟩
  | .local _ .vmem, ⟨78, _⟩ => ⟨S128, .f32⟩
  | .local _ .vmem, ⟨79, _⟩ => ⟨S128, .f32⟩
  | .local _ .vmem, ⟨80, _⟩ => ⟨S128, .f32⟩
  | .local _ .vmem, ⟨81, _⟩ => ⟨S1000x128, .f32⟩
  | .local _ .vmem, ⟨82, _⟩ => ⟨S1000x128, .f32⟩
  | .local _ .vmem, ⟨83, _⟩ => ⟨S512x128, .f32⟩
  | .local _ .vmem, ⟨84, _⟩ => ⟨S512x512, .f32⟩
  | .local _ .vmem, ⟨85, _⟩ => ⟨S512x128, .f32⟩
  | .local _ .vmem, ⟨86, _⟩ => ⟨S128, .f32⟩
  | .local _ .vmem, ⟨87, _⟩ => ⟨S128x10, .f32⟩
  | .local _ .vmem, ⟨88, _⟩ => ⟨S10, .f32⟩
  | .local _ .vmem, ⟨89, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_c_1 : Ref sig .tc := ⟨.hbm, 63, rfl⟩
abbrev main_v40 : Ref sig .tc := ⟨.hbm, 64, rfl⟩
abbrev main_v41 : Ref sig .tc := ⟨.hbm, 65, rfl⟩
abbrev main_c_2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74_0 : Ref sig .tc := ⟨.hbm, 100, rfl⟩
abbrev main_v74_1 : Ref sig .tc := ⟨.hbm, 101, rfl⟩
abbrev main_c_4 : Ref sig .tc := ⟨.hbm, 102, rfl⟩
abbrev main_v75 : Ref sig .tc := ⟨.hbm, 103, rfl⟩
abbrev main_v76 : Ref sig .tc := ⟨.hbm, 104, rfl⟩
abbrev main_c_5 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_6 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109_0 : Ref sig .tc := ⟨.hbm, 139, rfl⟩
abbrev main_v109_1 : Ref sig .tc := ⟨.hbm, 140, rfl⟩
abbrev main_c_7 : Ref sig .tc := ⟨.hbm, 141, rfl⟩
abbrev main_v110 : Ref sig .tc := ⟨.hbm, 142, rfl⟩
abbrev main_v111 : Ref sig .tc := ⟨.hbm, 143, rfl⟩
abbrev main_c_8 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_9 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144_0 : Ref sig .tc := ⟨.hbm, 178, rfl⟩
abbrev main_v144_1 : Ref sig .tc := ⟨.hbm, 179, rfl⟩
abbrev main_v145 : Ref sig .tc := ⟨.hbm, 180, rfl⟩
abbrev main_v146 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg13_0 : Ref sig .tc := ⟨.vmem, 37, rfl⟩
abbrev cc1_stg14_0 : Ref sig .tc := ⟨.vmem, 38, rfl⟩
abbrev cc1_stg15_0 : Ref sig .tc := ⟨.vmem, 39, rfl⟩
abbrev cc1_stg15_1 : Ref sig .tc := ⟨.vmem, 40, rfl⟩
abbrev cc1_stg16_0 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg4_0 : Ref sig .tc := ⟨.vmem, 49, rfl⟩
abbrev cc2_stg5_0 : Ref sig .tc := ⟨.vmem, 50, rfl⟩
abbrev cc2_stg6_0 : Ref sig .tc := ⟨.vmem, 51, rfl⟩
abbrev cc2_stg7_0 : Ref sig .tc := ⟨.vmem, 52, rfl⟩
abbrev cc2_stg8_0 : Ref sig .tc := ⟨.vmem, 53, rfl⟩
abbrev cc2_stg9_0 : Ref sig .tc := ⟨.vmem, 54, rfl⟩
abbrev cc2_stg10_0 : Ref sig .tc := ⟨.vmem, 55, rfl⟩
abbrev cc2_stg11_0 : Ref sig .tc := ⟨.vmem, 56, rfl⟩
abbrev cc2_stg12_0 : Ref sig .tc := ⟨.vmem, 57, rfl⟩
abbrev cc2_stg13_0 : Ref sig .tc := ⟨.vmem, 58, rfl⟩
abbrev cc2_stg14_0 : Ref sig .tc := ⟨.vmem, 59, rfl⟩
abbrev cc2_stg15_0 : Ref sig .tc := ⟨.vmem, 60, rfl⟩
abbrev cc2_stg15_1 : Ref sig .tc := ⟨.vmem, 61, rfl⟩
abbrev cc2_stg16_0 : Ref sig .tc := ⟨.vmem, 62, rfl⟩
abbrev cc3_stg0_0 : Ref sig .tc := ⟨.vmem, 63, rfl⟩
abbrev cc3_stg0_1 : Ref sig .tc := ⟨.vmem, 64, rfl⟩
abbrev cc3_stg1_0 : Ref sig .tc := ⟨.vmem, 65, rfl⟩
abbrev cc3_stg1_1 : Ref sig .tc := ⟨.vmem, 66, rfl⟩
abbrev cc3_stg2_0 : Ref sig .tc := ⟨.vmem, 67, rfl⟩
abbrev cc3_stg2_1 : Ref sig .tc := ⟨.vmem, 68, rfl⟩
abbrev cc3_stg3_0 : Ref sig .tc := ⟨.vmem, 69, rfl⟩
abbrev cc3_stg4_0 : Ref sig .tc := ⟨.vmem, 70, rfl⟩
abbrev cc3_stg5_0 : Ref sig .tc := ⟨.vmem, 71, rfl⟩
abbrev cc3_stg6_0 : Ref sig .tc := ⟨.vmem, 72, rfl⟩
abbrev cc3_stg7_0 : Ref sig .tc := ⟨.vmem, 73, rfl⟩
abbrev cc3_stg8_0 : Ref sig .tc := ⟨.vmem, 74, rfl⟩
abbrev cc3_stg9_0 : Ref sig .tc := ⟨.vmem, 75, rfl⟩
abbrev cc3_stg10_0 : Ref sig .tc := ⟨.vmem, 76, rfl⟩
abbrev cc3_stg11_0 : Ref sig .tc := ⟨.vmem, 77, rfl⟩
abbrev cc3_stg12_0 : Ref sig .tc := ⟨.vmem, 78, rfl⟩
abbrev cc3_stg13_0 : Ref sig .tc := ⟨.vmem, 79, rfl⟩
abbrev cc3_stg14_0 : Ref sig .tc := ⟨.vmem, 80, rfl⟩
abbrev cc3_stg15_0 : Ref sig .tc := ⟨.vmem, 81, rfl⟩
abbrev cc3_stg15_1 : Ref sig .tc := ⟨.vmem, 82, rfl⟩
abbrev cc3_stg16_0 : Ref sig .tc := ⟨.vmem, 83, rfl⟩
abbrev cc4_stg0_0 : Ref sig .tc := ⟨.vmem, 84, rfl⟩
abbrev cc4_stg1_0 : Ref sig .tc := ⟨.vmem, 85, rfl⟩
abbrev cc4_stg2_0 : Ref sig .tc := ⟨.vmem, 86, rfl⟩
abbrev cc4_stg3_0 : Ref sig .tc := ⟨.vmem, 87, rfl⟩
abbrev cc4_stg4_0 : Ref sig .tc := ⟨.vmem, 88, rfl⟩
abbrev cc4_stg5_0 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem13_0 : DmaSem sig := 37
abbrev cc1_sem14_0 : DmaSem sig := 38
abbrev cc1_sem15_0 : DmaSem sig := 39
abbrev cc1_sem15_1 : DmaSem sig := 40
abbrev cc1_sem16_0 : DmaSem sig := 41
abbrev cc2_sem0_0 : DmaSem sig := 42
abbrev cc2_sem0_1 : DmaSem sig := 43
abbrev cc2_sem1_0 : DmaSem sig := 44
abbrev cc2_sem1_1 : DmaSem sig := 45
abbrev cc2_sem2_0 : DmaSem sig := 46
abbrev cc2_sem2_1 : DmaSem sig := 47
abbrev cc2_sem3_0 : DmaSem sig := 48
abbrev cc2_sem4_0 : DmaSem sig := 49
abbrev cc2_sem5_0 : DmaSem sig := 50
abbrev cc2_sem6_0 : DmaSem sig := 51
abbrev cc2_sem7_0 : DmaSem sig := 52
abbrev cc2_sem8_0 : DmaSem sig := 53
abbrev cc2_sem9_0 : DmaSem sig := 54
abbrev cc2_sem10_0 : DmaSem sig := 55
abbrev cc2_sem11_0 : DmaSem sig := 56
abbrev cc2_sem12_0 : DmaSem sig := 57
abbrev cc2_sem13_0 : DmaSem sig := 58
abbrev cc2_sem14_0 : DmaSem sig := 59
abbrev cc2_sem15_0 : DmaSem sig := 60
abbrev cc2_sem15_1 : DmaSem sig := 61
abbrev cc2_sem16_0 : DmaSem sig := 62
abbrev cc3_sem0_0 : DmaSem sig := 63
abbrev cc3_sem0_1 : DmaSem sig := 64
abbrev cc3_sem1_0 : DmaSem sig := 65
abbrev cc3_sem1_1 : DmaSem sig := 66
abbrev cc3_sem2_0 : DmaSem sig := 67
abbrev cc3_sem2_1 : DmaSem sig := 68
abbrev cc3_sem3_0 : DmaSem sig := 69
abbrev cc3_sem4_0 : DmaSem sig := 70
abbrev cc3_sem5_0 : DmaSem sig := 71
abbrev cc3_sem6_0 : DmaSem sig := 72
abbrev cc3_sem7_0 : DmaSem sig := 73
abbrev cc3_sem8_0 : DmaSem sig := 74
abbrev cc3_sem9_0 : DmaSem sig := 75
abbrev cc3_sem10_0 : DmaSem sig := 76
abbrev cc3_sem11_0 : DmaSem sig := 77
abbrev cc3_sem12_0 : DmaSem sig := 78
abbrev cc3_sem13_0 : DmaSem sig := 79
abbrev cc3_sem14_0 : DmaSem sig := 80
abbrev cc3_sem15_0 : DmaSem sig := 81
abbrev cc3_sem15_1 : DmaSem sig := 82
abbrev cc3_sem16_0 : DmaSem sig := 83
abbrev cc4_sem0_0 : DmaSem sig := 84
abbrev cc4_sem1_0 : DmaSem sig := 85
abbrev cc4_sem2_0 : DmaSem sig := 86
abbrev cc4_sem3_0 : DmaSem sig := 87
abbrev cc4_sem4_0 : DmaSem sig := 88
abbrev cc4_sem5_0 : DmaSem sig := 89

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S512x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S1000x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 1 → Memref sig .tc .vmem S512x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_14 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S1000x128 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 1 → Memref sig .tc .vmem S512x128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1000x128 : S1x128.Broadcasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  shapeCasts_S512x128_S512x128 : S512x128.ShapeCasts S512x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S512x128_S512x128_S512x128_S512x128_S512x512_d1 : Shape.Concatenates [S512x128, S512x128, S512x128, S512x128] S512x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  dot_S1000x512_S1000x128_S512x128_0_0_1_1_n_n_wf : DotDims.WF S1000x512 S1000x128 S512x128 [0] [0] [1] [1] [] []
  dot_S512x512_S512x128_S512x128_1_0_0_1_n_n_wf : DotDims.WF S512x512 S512x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .i32 = 32 ∨ (Rect.block (s := S50000x1) S1000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x128.size a ≤ S50000x128.size a
  hwx0_15 : ∀ i : grid0.Coords, EltTy.bits .f32 = 32 ∨ (Rect.block (s := S50000x128) S1000x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x128.size a ≤ S512x128.size a
  hwx0_16 : ∀ i : grid0.Coords, EltTy.bits .f32 = 32 ∨ (Rect.block (s := S512x128) S512x128.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .i32 = 32 ∨ (Rect.block (s := S50000x1) S1000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128.size a ≤ S128.size a
  hwx1_14 : ∀ i : grid1.Coords, EltTy.bits .f32 = 32 ∨ (Rect.block (s := S128) S128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1000x128.size a ≤ S50000x128.size a
  hwx1_15 : ∀ i : grid1.Coords, EltTy.bits .f32 = 32 ∨ (Rect.block (s := S50000x128) S1000x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S512x128.size a ≤ S512x128.size a
  hwx1_16 : ∀ i : grid1.Coords, EltTy.bits .f32 = 32 ∨ (Rect.block (s := S512x128) S512x128.size (cc1_transform_16 i) (hinb1_16 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .i32 = 32 ∨ (Rect.block (s := S50000x1) S1000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128.size a ≤ S128.size a
  hwx2_13 : ∀ i : grid2.Coords, EltTy.bits .f32 = 32 ∨ (Rect.block (s := S128) S128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128.size a ≤ S128.size a
  hwx2_14 : ∀ i : grid2.Coords, EltTy.bits .f32 = 32 ∨ (Rect.block (s := S128) S128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S1000x128.size a ≤ S50000x128.size a
  hwx2_15 : ∀ i : grid2.Coords, EltTy.bits .f32 = 32 ∨ (Rect.block (s := S50000x128) S1000x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S512x128.size a ≤ S512x128.size a
  hwx2_16 : ∀ i : grid2.Coords, EltTy.bits .f32 = 32 ∨ (Rect.block (s := S512x128) S512x128.size (cc2_transform_16 i) (hinb2_16 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S50000x1.size a
  hwx3_2 : ∀ i : grid3.Coords, EltTy.bits .i32 = 32 ∨ (Rect.block (s := S50000x1) S1000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128.size a ≤ S128.size a
  hwx3_10 : ∀ i : grid3.Coords, EltTy.bits .f32 = 32 ∨ (Rect.block (s := S128) S128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128.size a ≤ S128.size a
  hwx3_11 : ∀ i : grid3.Coords, EltTy.bits .f32 = 32 ∨ (Rect.block (s := S128) S128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S128.size a ≤ S128.size a
  hwx3_13 : ∀ i : grid3.Coords, EltTy.bits .f32 = 32 ∨ (Rect.block (s := S128) S128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S128.size a ≤ S128.size a
  hwx3_14 : ∀ i : grid3.Coords, EltTy.bits .f32 = 32 ∨ (Rect.block (s := S128) S128.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S1000x128.size a ≤ S50000x128.size a
  hwx3_15 : ∀ i : grid3.Coords, EltTy.bits .f32 = 32 ∨ (Rect.block (s := S50000x128) S1000x128.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S512x128.size a ≤ S512x128.size a
  hwx3_16 : ∀ i : grid3.Coords, EltTy.bits .f32 = 32 ∨ (Rect.block (s := S512x128) S512x128.size (cc3_transform_16 i) (hinb3_16 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S512x512.size a
  hwx4_0 : ∀ i : grid4.Coords, EltTy.bits .f32 = 32 ∨ (Rect.block (s := S512x512) S512x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .f32 = 32 ∨ (Rect.block (s := S512x128) S512x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S10.size a ≤ S10.size a
  hwx4_4 : ∀ i : grid4.Coords, EltTy.bits .f32 = 32 ∨ (Rect.block (s := S10) S10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x10.size a ≤ S512x10.size a
  hwx4_5 : ∀ i : grid4.Coords, EltTy.bits .f32 = 32 ∨ (Rect.block (s := S512x10) S512x10.size (cc4_transform_5 i) (hinb4_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x512_S1000x128_S512x128_0_0_1_1_n_n : DotDims S1000x512 S1000x128 S512x128 where
  lhsContracting := [0]
  rhsContracting := [0]
  lhsNonContracting := [1]
  rhsNonContracting := [1]
  lhsBatch := []
  rhsBatch := []
  wf := dot_S1000x512_S1000x128_S512x128_0_0_1_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v14) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v34) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v36) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39_0) S1000x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v39_1) S512x128.size cc0_transform_16 reads0_16 true true 1 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v49) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39_0) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v63) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v65) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v67) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v69) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v71) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v73) S128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v74_0) S1000x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v74_1) S512x128.size cc1_transform_16 reads1_16 true true 1 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_v84) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74_0) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v86) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v90) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v94) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v96) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v98) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v100) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v102) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v104) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v106) S128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v108) S128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v109_0) S1000x128.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v109_1) S512x128.size cc2_transform_16 reads2_16 true true 1 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_v119) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v109_0) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v121) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v123) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v125) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v127) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v129) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v131) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v133) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v135) S128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v137) S128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v139) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v141) S128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v143) S128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v144_0) S1000x128.size cc3_transform_15 reads3_15 true false 2 stage3_15 sem3_15
    hrank3 hreads3_15 hinb3_15 nbuf3_15 (Memref.isWhole_whole _) hwx3_15 hstage3_15

abbrev win3_16 : Pipeline.Window sig grid3 :=
  Pipeline.Window.ofSpec (Memref.whole main_v144_1) S512x128.size cc3_transform_16 reads3_16 true true 1 stage3_16 sem3_16
    hrank3 hreads3_16 hinb3_16 nbuf3_16 (Memref.isWhole_whole _) hwx3_16 hstage3_16

abbrev win3 : Fin 17 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | ⟨_ + 17, h⟩ => absurd h (Nat.not_lt.2 (Nat.le_add_left _ _))
abbrev spec3 : Fin 17 → Pipeline.WinSpec sig grid3.rank := fun w => (win3 w).toWinSpec

abbrev win4_0 : Pipeline.Window sig grid4 :=
  Pipeline.Window.ofSpec (Memref.whole main_v145) S512x512.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S128x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v146) S512x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S50000x1 : Shape := ⟨2, ![50000, 1]⟩
abbrev S512x512 : Shape := ⟨2, ![512, 512]⟩
abbrev S512x10 : Shape := ⟨2, ![512, 10]⟩
abbrev S1x10 : Shape := ⟨2, ![1, 10]⟩

abbrev nBuf : Space → Nat
  | .hbm => 387
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S4x128x128, .f32⟩
  | 10 => ⟨S4x128, .f32⟩
  | 11 => ⟨S4x128, .f32⟩
  | 12 => ⟨S4x128, .f32⟩
  | 13 => ⟨S4x128, .f32⟩
  | 14 => ⟨S4x128, .f32⟩
  | 15 => ⟨S512x128, .f32⟩
  | 16 => ⟨S128, .f32⟩
  | 17 => ⟨S128x10, .f32⟩
  | 18 => ⟨S10, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .f32⟩
  | 108 => ⟨S512x128, .f32⟩
  | 109 => ⟨S50000x1, .i32⟩
  | 110 => ⟨S512x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x128, .f32⟩
  | 125 => ⟨S1x128x128, .f32⟩
  | 126 => ⟨S128x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S_, .f32⟩
  | 17 => ⟨S128, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S_, .f32⟩
  | 68 => ⟨S512x128, .f32⟩
  | 69 => ⟨S50000x1, .i32⟩
  | 70 => ⟨S512x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S1x128x128, .f32⟩
  | 86 => ⟨S128x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S1x128x128, .f32⟩
  | 121 => ⟨S128x128, .f32⟩
  | 122 => ⟨S50000x128, .f32⟩
  | 123 => ⟨S1x128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S512x128, .f32⟩
  | 29 => ⟨S50000x1, .i32⟩
  | 30 => ⟨S512x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S512x128, .f32⟩
  | 117 => ⟨S50000x1, .i32⟩
  | 118 => ⟨S512x128, .f32⟩
  | 119 => ⟨S512x512, .f32⟩
  | 120 => ⟨S512x128, .f32⟩
  | 121 => ⟨S1x128, .f32⟩
  | 122 => ⟨S512x128, .f32⟩
  | 123 => ⟨S512x128, .f32⟩
  | 124 => ⟨S_, .f32⟩
  | 125 => ⟨S512x128, .f32⟩
  | 126 => ⟨S512x128, .f32⟩
  | 127 => ⟨S512x10, .f32⟩
  | _ => ⟨S50000x128, .f32⟩

abbrev hbmTy0_3 (i : Nat) : BufTy := match i % 128 with
  | 0 => ⟨S1x10, .f32⟩
  | 1 => ⟨S512x10, .f32⟩
  | 2 => ⟨S512x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_2 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call1_cst : Ref sig .tc := ⟨.hbm, 104, rfl⟩
abbrev main_call1_v0 : Ref sig .tc := ⟨.hbm, 105, rfl⟩
abbrev main_v78 : Ref sig .tc := ⟨.hbm, 106, rfl⟩
abbrev main_cst_3 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_4 : Ref sig .tc := ⟨.hbm, 111, rfl⟩
abbrev main_v82 : Ref sig .tc := ⟨.hbm, 112, rfl⟩
abbrev main_v83 : Ref sig .tc := ⟨.hbm, 113, rfl⟩
abbrev main_c_5 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_6 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_7 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_call2_cst : Ref sig .tc := ⟨.hbm, 157, rfl⟩
abbrev main_call2_v0 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_8 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_call3_cst : Ref sig .tc := ⟨.hbm, 192, rfl⟩
abbrev main_call3_v0 : Ref sig .tc := ⟨.hbm, 193, rfl⟩
abbrev main_v156 : Ref sig .tc := ⟨.hbm, 194, rfl⟩
abbrev main_cst_9 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_c_10 : Ref sig .tc := ⟨.hbm, 199, rfl⟩
abbrev main_v160 : Ref sig .tc := ⟨.hbm, 200, rfl⟩
abbrev main_v161 : Ref sig .tc := ⟨.hbm, 201, rfl⟩
abbrev main_c_11 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_12 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_cst_13 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_call4_cst : Ref sig .tc := ⟨.hbm, 245, rfl⟩
abbrev main_call4_v0 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_cst_14 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_call5_cst : Ref sig .tc := ⟨.hbm, 280, rfl⟩
abbrev main_call5_v0 : Ref sig .tc := ⟨.hbm, 281, rfl⟩
abbrev main_v234 : Ref sig .tc := ⟨.hbm, 282, rfl⟩
abbrev main_cst_15 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_c_16 : Ref sig .tc := ⟨.hbm, 287, rfl⟩
abbrev main_v238 : Ref sig .tc := ⟨.hbm, 288, rfl⟩
abbrev main_v239 : Ref sig .tc := ⟨.hbm, 289, rfl⟩
abbrev main_c_17 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_cst_18 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_cst_19 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_call6_cst : Ref sig .tc := ⟨.hbm, 333, rfl⟩
abbrev main_call6_v0 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_v296 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_cst_20 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_call7_cst : Ref sig .tc := ⟨.hbm, 368, rfl⟩
abbrev main_call7_v0 : Ref sig .tc := ⟨.hbm, 369, rfl⟩
abbrev main_v312 : Ref sig .tc := ⟨.hbm, 370, rfl⟩
abbrev main_cst_21 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_call8_cst : Ref sig .tc := ⟨.hbm, 380, rfl⟩
abbrev main_call8_v0 : Ref sig .tc := ⟨.hbm, 381, rfl⟩
abbrev main_v321 : Ref sig .tc := ⟨.hbm, 382, rfl⟩
abbrev main_v322 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S512x128 : S_.BroadcastsInDim S512x128 (![] : Fin 0 → Fin S512x128.rank)
  bcast_S50000_S50000x1_0 : S50000.BroadcastsInDim S50000x1 (![0] : Fin 1 → Fin S50000x1.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S512x128_S512x128_S512x128_S512x128_S512x512_d1 : Shape.Concatenates [S512x128, S512x128, S512x128, S512x128] S512x512 1
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x512_S512x128_S512x128_1_0_0_1_n_n_wf : DotDims.WF S512x512 S512x128 S512x128 [1] [0] [0] [1] [] []
  dot_S512x128_S128x10_S512x10_1_0_0_1_n_n_wf : DotDims.WF S512x128 S128x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.K.L0Runs.lean ====
/-
  Layer region 0, what the runs of its body share: each window's block as the region finds its array, that an
  input window's staging buffer holds its block at every point (fetched there or kept from the point before), the
  body's branch on the grid coordinate in closed form, and the staging memrefs the body is called with.
  `V` is the TensorCore's buffer contents when the region is entered.
-/
import proofs.«426741_j36421322670671_1_alg».proof.Proof.Gen.Kernel.Launch
import proofs.«426741_j36421322670671_1_alg».proof.Proof.Gen.Kernel.Skeleton
import proofs.«426741_j36421322670671_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it. -/
def iblkL0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point -/

/-- Input window 0: for any proof data whose array is the region-entry contents and whose body leaves the block in
    place, the current staging buffer holds the block at every point, fetched there or not. -/
theorem beforeL0_0_of (V : (c : Dev nD) → (b : Ref sig .tc) → Buf (Elt F) ((c : Thread nD τ).loc b)) {c : Dev nD} (dat : Dat τ (Elt F) Unit ℕ (UR sig nD τ) ℕ cfg0 c) (hA : dat.A 0 = V c (Pipeline.arrRef spec0 0))
    (hafter : ∀ t, dat.after 0 t = iblkL0 V c 0 t) (t : Fin cfg0.N) (d) : dat.before 0 t d = iblkL0 V c 0 t :=
  (dat.before_in_eq_fetched 0 rfl (fun _ => rfl) (fun _ _ _ => rfl) (fun t => by rw [hafter]; unfold Dat.blockOf iblkL0; rw [hA]; try rfl) t d).trans
    (by unfold Dat.fetched Dat.blockOf iblkL0; rw [hA]; try rfl)

/-- Input window 1: for any proof data whose array is the region-entry contents and whose body leaves the block in
    place, the current staging buffer holds the block at every point, fetched there or not. -/
theorem beforeL0_1_of (V : (c : Dev nD) → (b : Ref sig .tc) → Buf (Elt F) ((c : Thread nD τ).loc b)) {c : Dev nD} (dat : Dat τ (Elt F) Unit ℕ (UR sig nD τ) ℕ cfg0 c) (hA : dat.A 1 = V c (Pipeline.arrRef spec0 1))
    (hafter : ∀ t, dat.after 1 t = iblkL0 V c 1 t) (t : Fin cfg0.N) (d) : dat.before 1 t d = iblkL0 V c 1 t :=
  (dat.before_in_eq_fetched 1 rfl (fun _ => rfl) (fun _ _ _ => rfl) (fun t => by rw [hafter]; unfold Dat.blockOf iblkL0; rw [hA]; try rfl) t d).trans
    (by unfold Dat.fetched Dat.blockOf iblkL0; rw [hA]; try rfl)

/-- Input window 2: for any proof data whose array is the region-entry contents and whose body leaves the block in
    place, the current staging buffer holds the block at every point, fetched there or not. -/
theorem beforeL0_2_of (V : (c : Dev nD) → (b : Ref sig .tc) → Buf (Elt F) ((c : Thread nD τ).loc b)) {c : Dev nD} (dat : Dat τ (Elt F) Unit ℕ (UR sig nD τ) ℕ cfg0 c) (hA : dat.A 2 = V c (Pipeline.arrRef spec0 2))
    (hafter : ∀ t, dat.after 2 t = iblkL0 V c 2 t) (t : Fin cfg0.N) (d) : dat.before 2 t d = iblkL0 V c 2 t :=
  (dat.before_in_eq_fetched 2 rfl (fun _ => rfl) (fun _ _ _ => rfl) (fun t => by rw [hafter]; unfold Dat.blockOf iblkL0; rw [hA]; try rfl) t d).trans
    (by unfold Dat.fetched Dat.blockOf iblkL0; rw [hA]; try rfl)

/-- Input window 3: for any proof data whose array is the region-entry contents and whose body leaves the block in
    place, the current staging buffer holds the block at every point, fetched there or not. -/
theorem beforeL0_3_of (V : (c : Dev nD) → (b : Ref sig .tc) → Buf (Elt F) ((c : Thread nD τ).loc b)) {c : Dev nD} (dat : Dat τ (Elt F) Unit ℕ (UR sig nD τ) ℕ cfg0 c) (hA : dat.A 3 = V c (Pipeline.arrRef spec0 3))
    (hafter : ∀ t, dat.after 3 t = iblkL0 V c 3 t) (t : Fin cfg0.N) (d) : dat.before 3 t d = iblkL0 V c 3 t :=
  (dat.before_in_eq_fetched 3 rfl (fun _ => rfl) (fun _ _ _ => rfl) (fun t => by rw [hafter]; unfold Dat.blockOf iblkL0; rw [hA]; try rfl) t d).trans
    (by unfold Dat.fetched Dat.blockOf iblkL0; rw [hA]; try rfl)

/-- Input window 4: for any proof data whose array is the region-entry contents and whose body leaves the block in
    place, the current staging buffer holds the block at every point, fetched there or not. -/
theorem beforeL0_4_of (V : (c : Dev nD) → (b : Ref sig .tc) → Buf (Elt F) ((c : Thread nD τ).loc b)) {c : Dev nD} (dat : Dat τ (Elt F) Unit ℕ (UR sig nD τ) ℕ cfg0 c) (hA : dat.A 4 = V c (Pipeline.arrRef spec0 4))
    (hafter : ∀ t, dat.after 4 t = iblkL0 V c 4 t) (t : Fin cfg0.N) (d) : dat.before 4 t d = iblkL0 V c 4 t :=
  (dat.before_in_eq_fetched 4 rfl (fun _ => rfl) (fun _ _ _ => rfl) (fun t => by rw [hafter]; unfold Dat.blockOf iblkL0; rw [hA]; try rfl) t d).trans
    (by unfold Dat.fetched Dat.blockOf iblkL0; rw [hA]; try rfl)

/-- Input window 5: for any proof data whose array is the region-entry contents and whose body leaves the block in
    place, the current staging buffer holds the block at every point, fetched there or not. -/
theorem beforeL0_5_of (V : (c : Dev nD) → (b : Ref sig .tc) → Buf (Elt F) ((c : Thread nD τ).loc b)) {c : Dev nD} (dat : Dat τ (Elt F) Unit ℕ (UR sig nD τ) ℕ cfg0 c) (hA : dat.A 5 = V c (Pipeline.arrRef spec0 5))
    (hafter : ∀ t, dat.after 5 t = iblkL0 V c 5 t) (t : Fin cfg0.N) (d) : dat.before 5 t d = iblkL0 V c 5 t :=
  (dat.before_in_eq_fetched 5 rfl (fun _ => rfl) (fun _ _ _ => rfl) (fun t => by rw [hafter]; unfold Dat.blockOf iblkL0; rw [hA]; try rfl) t d).trans
    (by unfold Dat.fetched Dat.blockOf iblkL0; rw [hA]; try rfl)

/-- Input window 6: for any proof data whose array is the region-entry contents and whose body leaves the block in
    place, the current staging buffer holds the block at every point, fetched there or not. -/
theorem beforeL0_6_of (V : (c : Dev nD) → (b : Ref sig .tc) → Buf (Elt F) ((c : Thread nD τ).loc b)) {c : Dev nD} (dat : Dat τ (Elt F) Unit ℕ (UR sig nD τ) ℕ cfg0 c) (hA : dat.A 6 = V c (Pipeline.arrRef spec0 6))
    (hafter : ∀ t, dat.after 6 t = iblkL0 V c 6 t) (t : Fin cfg0.N) (d) : dat.before 6 t d = iblkL0 V c 6 t :=
  (dat.before_in_eq_fetched 6 rfl (fun _ => rfl) (fun _ _ _ => rfl) (fun t => by rw [hafter]; unfold Dat.blockOf iblkL0; rw [hA]; try rfl) t d).trans
    (by unfold Dat.fetched Dat.blockOf iblkL0; rw [hA]; try rfl)

/-- Input window 7: for any proof data whose array is the region-entry contents and whose body leaves the block in
    place, the current staging buffer holds the block at every point, fetched there or not. -/
theorem beforeL0_7_of (V : (c : Dev nD) → (b : Ref sig .tc) → Buf (Elt F) ((c : Thread nD τ).loc b)) {c : Dev nD} (dat : Dat τ (Elt F) Unit ℕ (UR sig nD τ) ℕ cfg0 c) (hA : dat.A 7 = V c (Pipeline.arrRef spec0 7))
    (hafter : ∀ t, dat.after 7 t = iblkL0 V c 7 t) (t : Fin cfg0.N) (d) : dat.before 7 t d = iblkL0 V c 7 t :=
  (dat.before_in_eq_fetched 7 rfl (fun _ => rfl) (fun _ _ _ => rfl) (fun t => by rw [hafter]; unfold Dat.blockOf iblkL0; rw [hA]; try rfl) t d).trans
    (by unfold Dat.fetched Dat.blockOf iblkL0; rw [hA]; try rfl)

/-- Input window 8: for any proof data whose array is the region-entry contents and whose body leaves the block in
    place, the current staging buffer holds the block at every point, fetched there or not. -/
theorem beforeL0_8_of (V : (c : Dev nD) → (b : Ref sig .tc) → Buf (Elt F) ((c : Thread nD τ).loc b)) {c : Dev nD} (dat : Dat τ (Elt F) Unit ℕ (UR sig nD τ) ℕ cfg0 c) (hA : dat.A 8 = V c (Pipeline.arrRef spec0 8))
    (hafter : ∀ t, dat.after 8 t = iblkL0 V c 8 t) (t : Fin cfg0.N) (d) : dat.before 8 t d = iblkL0 V c 8 t :=
  (dat.before_in_eq_fetched 8 rfl (fun _ => rfl) (fun _ _ _ => rfl) (fun t => by rw [hafter]; unfold Dat.blockOf iblkL0; rw [hA]; try rfl) t d).trans
    (by unfold Dat.fetched Dat.blockOf iblkL0; rw [hA]; try rfl)

/-- Input window 9: for any proof data whose array is the region-entry contents and whose body leaves the block in
    place, the current staging buffer holds the block at every point, fetched there or not. -/
theorem beforeL0_9_of (V : (c : Dev nD) → (b : Ref sig .tc) → Buf (Elt F) ((c : Thread nD τ).loc b)) {c : Dev nD} (dat : Dat τ (Elt F) Unit ℕ (UR sig nD τ) ℕ cfg0 c) (hA : dat.A 9 = V c (Pipeline.arrRef spec0 9))
    (hafter : ∀ t, dat.after 9 t = iblkL0 V c 9 t) (t : Fin cfg0.N) (d) : dat.before 9 t d = iblkL0 V c 9 t :=
  (dat.before_in_eq_fetched 9 rfl (fun _ => rfl) (fun _ _ _ => rfl) (fun t => by rw [hafter]; unfold Dat.blockOf iblkL0; rw [hA]; try rfl) t d).trans
    (by unfold Dat.fetched Dat.blockOf iblkL0; rw [hA]; try rfl)

/-- Input window 10: for any proof data whose array is the region-entry contents and whose body leaves the block in
    place, the current staging buffer holds the block at every point, fetched there or not. -/
theorem beforeL0_10_of (V : (c : Dev nD) → (b : Ref sig .tc) → Buf (Elt F) ((c : Thread nD τ).loc b)) {c : Dev nD} (dat : Dat τ (Elt F) Unit ℕ (UR sig nD τ) ℕ cfg0 c) (hA : dat.A 10 = V c (Pipeline.arrRef spec0 10))
    (hafter : ∀ t, dat.after 10 t = iblkL0 V c 10 t) (t : Fin cfg0.N) (d) : dat.before 10 t d = iblkL0 V c 10 t :=
  (dat.before_in_eq_fetched 10 rfl (fun _ => rfl) (fun _ _ _ => rfl) (fun t => by rw [hafter]; unfold Dat.blockOf iblkL0; rw [hA]; try rfl) t d).trans
    (by unfold Dat.fetched Dat.blockOf iblkL0; rw [hA]; try rfl)

/-- Input window 11: for any proof data whose array is the region-entry contents and whose body leaves the block in
    place, the current staging buffer holds the block at every point, fetched there or not. -/
theorem beforeL0_11_of (V : (c : Dev nD) → (b : Ref sig .tc) → Buf (Elt F) ((c : Thread nD τ).loc b)) {c : Dev nD} (dat : Dat τ (Elt F) Unit ℕ (UR sig nD τ) ℕ cfg0 c) (hA : dat.A 11 = V c (Pipeline.arrRef spec0 11))
    (hafter : ∀ t, dat.after 11 t = iblkL0 V c 11 t) (t : Fin cfg0.N) (d) : dat.before 11 t d = iblkL0 V c 11 t :=
  (dat.before_in_eq_fetched 11 rfl (fun _ => rfl) (fun _ _ _ => rfl) (fun t => by rw [hafter]; unfold Dat.blockOf iblkL0; rw [hA]; try rfl) t d).trans
    (by unfold Dat.fetched Dat.blockOf iblkL0; rw [hA]; try rfl)

/-- Input window 12: for any proof data whose array is the region-entry contents and whose body leaves the block in
    place, the current staging buffer holds the block at every point, fetched there or not. -/
theorem beforeL0_12_of (V : (c : Dev nD) → (b : Ref sig .tc) → Buf (Elt F) ((c : Thread nD τ).loc b)) {c : Dev nD} (dat : Dat τ (Elt F) Unit ℕ (UR sig nD τ) ℕ cfg0 c) (hA : dat.A 12 = V c (Pipeline.arrRef spec0 12))
    (hafter : ∀ t, dat.after 12 t = iblkL0 V c 12 t) (t : Fin cfg0.N) (d) : dat.before 12 t d = iblkL0 V c 12 t :=
  (dat.before_in_eq_fetched 12 rfl (fun _ => rfl) (fun _ _ _ => rfl) (fun t => by rw [hafter]; unfold Dat.blockOf iblkL0; rw [hA]; try rfl) t d).trans
    (by unfold Dat.fetched Dat.blockOf iblkL0; rw [hA]; try rfl)

/-- Input window 13: for any proof data whose array is the region-entry contents and whose body leaves the block in
    place, the current staging buffer holds the block at every point, fetched there or not. -/
theorem beforeL0_13_of (V : (c : Dev nD) → (b : Ref sig .tc) → Buf (Elt F) ((c : Thread nD τ).loc b)) {c : Dev nD} (dat : Dat τ (Elt F) Unit ℕ (UR sig nD τ) ℕ cfg0 c) (hA : dat.A 13 = V c (Pipeline.arrRef spec0 13))
    (hafter : ∀ t, dat.after 13 t = iblkL0 V c 13 t) (t : Fin cfg0.N) (d) : dat.before 13 t d = iblkL0 V c 13 t :=
  (dat.before_in_eq_fetched 13 rfl (fun _ => rfl) (fun _ _ _ => rfl) (fun t => by rw [hafter]; unfold Dat.blockOf iblkL0; rw [hA]; try rfl) t d).trans
    (by unfold Dat.fetched Dat.blockOf iblkL0; rw [hA]; try rfl)

/-- Input window 14: for any proof data whose array is the region-entry contents and whose body leaves the block in
    place, the current staging buffer holds the block at every point, fetched there or not. -/
theorem beforeL0_14_of (V : (c : Dev nD) → (b : Ref sig .tc) → Buf (Elt F) ((c : Thread nD τ).loc b)) {c : Dev nD} (dat : Dat τ (Elt F) Unit ℕ (UR sig nD τ) ℕ cfg0 c) (hA : dat.A 14 = V c (Pipeline.arrRef spec0 14))
    (hafter : ∀ t, dat.after 14 t = iblkL0 V c 14 t) (t : Fin cfg0.N) (d) : dat.before 14 t d = iblkL0 V c 14 t :=
  (dat.before_in_eq_fetched 14 rfl (fun _ => rfl) (fun _ _ _ => rfl) (fun t => by rw [hafter]; unfold Dat.blockOf iblkL0; rw [hA]; try rfl) t d).trans
    (by unfold Dat.fetched Dat.blockOf iblkL0; rw [hA]; try rfl)

/-! ## The body's branch -/

/-- The condition of the body's branch (`k0_h1`: the grid coordinate is zero), from the grid coordinates. -/
abbrev condL0_0 (i : grid0.Coords) : Prop := (Scalar.cmpi .ne (Scalar.extui (Scalar.cmpi .eq (BitVec.ofNat 32 (i 0).val) 0#32)) 0#32) = 1#1
/-- It holds at the first point only. -/
theorem hcondL0_0 : ∀ t : Fin cfg0.N, condL0_0 (grid0.coords t) ↔ t.val % 50 = 0 :=
  (by decide +kernel : ∀ t : Fin grid0.N, condL0_0 (grid0.coords t) ↔ t.val % 50 = 0)

/-! ## The staging memrefs -/

/-- One staging buffer of each output window, through which its contents are stated. -/
abbrev VOL0_15 : View sig .tc .vmem S1000x128 .f32 := (Memref.whole cc0_stg15_0 : Memref sig .tc .vmem S1000x128 .f32).view
abbrev VOL0_16 : View sig .tc .vmem S512x128 .f32 := (Memref.whole cc0_stg16_0 : Memref sig .tc .vmem S512x128 .f32).view

/-- Each window's current staging memref at point `t`, as the pipeline passes it to the body, and its wholeness. -/
abbrev msL0_0 (t : Fin cfg0.N) : Memref sig .tc .vmem S1000x128 .f32 := win0_0.stage (cfg0.slots t 0)
abbrev hsL0_0 (t : Fin cfg0.N) : (msL0_0 t).IsWhole := hstage0_0 ((cfg0.slots t 0).cast nbuf0_0)
abbrev msL0_1 (t : Fin cfg0.N) : Memref sig .tc .vmem S1000x128 .f32 := win0_1.stage (cfg0.slots t 1)
abbrev hsL0_1 (t : Fin cfg0.N) : (msL0_1 t).IsWhole := hstage0_1 ((cfg0.slots t 1).cast nbuf0_1)
abbrev msL0_2 (t : Fin cfg0.N) : Memref sig .tc .vmem S1000x1 .i32 := win0_2.stage (cfg0.slots t 2)
abbrev hsL0_2 (t : Fin cfg0.N) : (msL0_2 t).IsWhole := hstage0_2 ((cfg0.slots t 2).cast nbuf0_2)
abbrev msL0_3 (t : Fin cfg0.N) : Memref sig .tc .vmem S128x128 .f32 := win0_3.stage (cfg0.slots t 3)
abbrev hsL0_3 (t : Fin cfg0.N) : (msL0_3 t).IsWhole := hstage0_3 ((cfg0.slots t 3).cast nbuf0_3)
abbrev msL0_4 (t : Fin cfg0.N) : Memref sig .tc .vmem S128 .f32 := win0_4.stage (cfg0.slots t 4)
abbrev hsL0_4 (t : Fin cfg0.N) : (msL0_4 t).IsWhole := hstage0_4 ((cfg0.slots t 4).cast nbuf0_4)
abbrev msL0_5 (t : Fin cfg0.N) : Memref sig .tc .vmem S128 .f32 := win0_5.stage (cfg0.slots t 5)
abbrev hsL0_5 (t : Fin cfg0.N) : (msL0_5 t).IsWhole := hstage0_5 ((cfg0.slots t 5).cast nbuf0_5)
abbrev msL0_6 (t : Fin cfg0.N) : Memref sig .tc .vmem S128 .f32 := win0_6.stage (cfg0.slots t 6)
abbrev hsL0_6 (t : Fin cfg0.N) : (msL0_6 t).IsWhole := hstage0_6 ((cfg0.slots t 6).cast nbuf0_6)
abbrev msL0_7 (t : Fin cfg0.N) : Memref sig .tc .vmem S128 .f32 := win0_7.stage (cfg0.slots t 7)
abbrev hsL0_7 (t : Fin cfg0.N) : (msL0_7 t).IsWhole := hstage0_7 ((cfg0.slots t 7).cast nbuf0_7)
abbrev msL0_8 (t : Fin cfg0.N) : Memref sig .tc .vmem S128 .f32 := win0_8.stage (cfg0.slots t 8)
abbrev hsL0_8 (t : Fin cfg0.N) : (msL0_8 t).IsWhole := hstage0_8 ((cfg0.slots t 8).cast nbuf0_8)
abbrev msL0_9 (t : Fin cfg0.N) : Memref sig .tc .vmem S128x128 .f32 := win0_9.stage (cfg0.slots t 9)
abbrev hsL0_9 (t : Fin cfg0.N) : (msL0_9 t).IsWhole := hstage0_9 ((cfg0.slots t 9).cast nbuf0_9)
abbrev msL0_10 (t : Fin cfg0.N) : Memref sig .tc .vmem S128 .f32 := win0_10.stage (cfg0.slots t 10)
abbrev hsL0_10 (t : Fin cfg0.N) : (msL0_10 t).IsWhole := hstage0_10 ((cfg0.slots t 10).cast nbuf0_10)
abbrev msL0_11 (t : Fin cfg0.N) : Memref sig .tc .vmem S128 .f32 := win0_11.stage (cfg0.slots t 11)
abbrev hsL0_11 (t : Fin cfg0.N) : (msL0_11 t).IsWhole := hstage0_11 ((cfg0.slots t 11).cast nbuf0_11)
abbrev msL0_12 (t : Fin cfg0.N) : Memref sig .tc .vmem S128 .f32 := win0_12.stage (cfg0.slots t 12)
abbrev hsL0_12 (t : Fin cfg0.N) : (msL0_12 t).IsWhole := hstage0_12 ((cfg0.slots t 12).cast nbuf0_12)
abbrev msL0_13 (t : Fin cfg0.N) : Memref sig .tc .vmem S128 .f32 := win0_13.stage (cfg0.slots t 13)
abbrev hsL0_13 (t : Fin cfg0.N) : (msL0_13 t).IsWhole := hstage0_13 ((cfg0.slots t 13).cast nbuf0_13)
abbrev msL0_14 (t : Fin cfg0.N) : Memref sig .tc .vmem S128 .f32 := win0_14.stage (cfg0.slots t 14)
abbrev hsL0_14 (t : Fin cfg0.N) : (msL0_14 t).IsWhole := hstage0_14 ((cfg0.slots t 14).cast nbuf0_14)
abbrev msL0_15 (t : Fin cfg0.N) : Memref sig .tc .vmem S1000x128 .f32 := win0_15.stage (cfg0.slots t 15)
abbrev hsL0_15 (t : Fin cfg0.N) : (msL0_15 t).IsWhole := hstage0_15 ((cfg0.slots t 15).cast nbuf0_15)
abbrev msL0_16 (t : Fin cfg0.N) : Memref sig .tc .vmem S512x128 .f32 := win0_16.stage (cfg0.slots t 16)
abbrev hsL0_16 (t : Fin cfg0.N) : (msL0_16 t).IsWhole := hstage0_16 ((cfg0.slots t 16).cast nbuf0_16)

end Cert.Kernel.Hand

end
-- ==== Proof.K.L0RunA.lean ====
/-
  Layer region 0, the run of its body at the first grid point (the branch on the grid coordinate taken: the pool's
  buffer is zeroed before the tile is added): on whole staging memrefs, the inputs' at their contents and the outputs'
  at anything, the body runs to the continuation holding the inputs' as they were and each output's buffer with the
  stores the body made, listed last first.
-/
import proofs.«426741_j36421322670671_1_alg».proof.Proof.K.L0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at the first point, as pieces (last first),
    with the body's triple: the pieces are found by running the body. -/
noncomputable def kernelRunL0_A (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.Kernel.Hand

end
-- ==== Proof.K.L0RunB.lean ====
/-
  Layer region 0, the run of its body at a later grid point (the branch on the grid coordinate not taken: the tile is
  added to what the pool's buffer holds): on whole staging memrefs, the inputs' at their contents, the pool's at its
  running contents and the new features' at anything, the body runs to the continuation holding the inputs' as they
  were and each output's buffer with the stores the body made, listed last first.
-/
import proofs.«426741_j36421322670671_1_alg».proof.Proof.K.L0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at a later point, as pieces (last first),
    with the body's triple: the pieces are found by running the body. -/
noncomputable def kernelRunL0_B (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.Kernel.Hand

end
-- ==== Proof.K.L0Dat.lean ====
/-
  Layer region 0: what its pipeline's proof data say. Every input window's staging buffer holds its block of the
  array the region found; window 15's (the new node features) holds the block the body stores at the point;
  window 16's (the pool) holds the running sum the body carries from point to point.
  `V` is the TensorCore's buffer contents when the region is entered.
-/
import proofs.«426741_j36421322670671_1_alg».proof.Proof.K.L0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer, by the case of its branch -/

/-- The body's stores into window 15's buffer (the new node features) at the first point tile its block, so they cover it. -/
theorem coverL0_A_15 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S1000x128.Idx) :
    ∃ pc ∈ (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1000x128.size (by sl_kernel_rfl) y

/-- What the body leaves in window 15's staging buffer at the first point: its stores read back. -/
def outL0_A_15 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S1000x128 .f32 :=
  VOL0_15.read (Elt F) (VOL0_15.writes (Elt F) VOL0_15.junk (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- The body's stores into window 16's buffer (the pool) at the first point tile its block, so they cover it. -/
theorem coverL0_A_16 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S512x128.Idx) :
    ∃ pc ∈ (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x128.size (by sl_kernel_rfl) y

/-- What the body leaves in window 16's staging buffer at the first point: its stores read back. -/
def outL0_A_16 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S512x128 .f32 :=
  VOL0_16.read (Elt F) (VOL0_16.writes (Elt F) VOL0_16.junk (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- The body's stores into window 15's buffer (the new node features) at a later point tile its block, so they cover it. -/
theorem coverL0_B_15 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S1000x128.Idx) :
    ∃ pc ∈ (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1, y ∈ pc.1.set :=
  View.cover_of_tiledL (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1 S1000x128.size (by sl_kernel_rfl) y

/-- What the body leaves in window 15's staging buffer at a later point: its stores read back. -/
def outL0_B_15 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S1000x128 .f32 :=
  VOL0_15.read (Elt F) (VOL0_15.writes (Elt F) VOL0_15.junk (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1)

/-- The body's stores into window 16's buffer (the pool) at a later point tile its block, so they cover it. -/
theorem coverL0_B_16 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S512x128.Idx) :
    ∃ pc ∈ (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1, y ∈ pc.1.set :=
  View.cover_of_tiledL (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1 S512x128.size (by sl_kernel_rfl) y

/-- What the body leaves in window 16's staging buffer at a later point: its stores read back. -/
def outL0_B_16 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S512x128 .f32 :=
  VOL0_16.read (Elt F) (VOL0_16.writes (Elt F) VOL0_16.junk (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1)

/-! ## What the outputs hold after each point -/

/-- What the body leaves in window 16's staging buffer after point `n`: the pool summed over tiles `0 … n`. At the
    first point the buffer is zeroed and the tile added; at a later point the tile is added to what the point before
    left (the buffer is not written back between). -/
def poolAtL0 (V : (c : Dev nD) → (b : Ref sig .tc) → Buf (Elt F) ((c : Thread nD τ).loc b)) (c : Dev nD) : (n : ℕ) → n < cfg0.N → Vec F S512x128 .f32
  | 0, hn => outL0_A_16 c (grid0.coords ⟨0, hn⟩) (msL0_0 ⟨0, hn⟩) (hsL0_0 ⟨0, hn⟩) (msL0_1 ⟨0, hn⟩) (hsL0_1 ⟨0, hn⟩) (msL0_2 ⟨0, hn⟩) (hsL0_2 ⟨0, hn⟩) (msL0_3 ⟨0, hn⟩) (hsL0_3 ⟨0, hn⟩) (msL0_4 ⟨0, hn⟩) (hsL0_4 ⟨0, hn⟩) (msL0_5 ⟨0, hn⟩) (hsL0_5 ⟨0, hn⟩) (msL0_6 ⟨0, hn⟩) (hsL0_6 ⟨0, hn⟩) (msL0_7 ⟨0, hn⟩) (hsL0_7 ⟨0, hn⟩) (msL0_8 ⟨0, hn⟩) (hsL0_8 ⟨0, hn⟩) (msL0_9 ⟨0, hn⟩) (hsL0_9 ⟨0, hn⟩) (msL0_10 ⟨0, hn⟩) (hsL0_10 ⟨0, hn⟩) (msL0_11 ⟨0, hn⟩) (hsL0_11 ⟨0, hn⟩) (msL0_12 ⟨0, hn⟩) (hsL0_12 ⟨0, hn⟩) (msL0_13 ⟨0, hn⟩) (hsL0_13 ⟨0, hn⟩) (msL0_14 ⟨0, hn⟩) (hsL0_14 ⟨0, hn⟩) (msL0_15 ⟨0, hn⟩) (hsL0_15 ⟨0, hn⟩) (msL0_16 ⟨0, hn⟩) (hsL0_16 ⟨0, hn⟩) ((hcondL0_0 ⟨0, hn⟩).mpr (Nat.zero_mod _)) (iblkL0 V c 0 ⟨0, hn⟩) (iblkL0 V c 1 ⟨0, hn⟩) (iblkL0 V c 2 ⟨0, hn⟩) (iblkL0 V c 3 ⟨0, hn⟩) (iblkL0 V c 4 ⟨0, hn⟩) (iblkL0 V c 5 ⟨0, hn⟩) (iblkL0 V c 6 ⟨0, hn⟩) (iblkL0 V c 7 ⟨0, hn⟩) (iblkL0 V c 8 ⟨0, hn⟩) (iblkL0 V c 9 ⟨0, hn⟩) (iblkL0 V c 10 ⟨0, hn⟩) (iblkL0 V c 11 ⟨0, hn⟩) (iblkL0 V c 12 ⟨0, hn⟩) (iblkL0 V c 13 ⟨0, hn⟩) (iblkL0 V c 14 ⟨0, hn⟩)
  | n + 1, hn =>
    if h0 : (n + 1) % 50 = 0 then
      outL0_A_16 c (grid0.coords ⟨n + 1, hn⟩) (msL0_0 ⟨n + 1, hn⟩) (hsL0_0 ⟨n + 1, hn⟩) (msL0_1 ⟨n + 1, hn⟩) (hsL0_1 ⟨n + 1, hn⟩) (msL0_2 ⟨n + 1, hn⟩) (hsL0_2 ⟨n + 1, hn⟩) (msL0_3 ⟨n + 1, hn⟩) (hsL0_3 ⟨n + 1, hn⟩) (msL0_4 ⟨n + 1, hn⟩) (hsL0_4 ⟨n + 1, hn⟩) (msL0_5 ⟨n + 1, hn⟩) (hsL0_5 ⟨n + 1, hn⟩) (msL0_6 ⟨n + 1, hn⟩) (hsL0_6 ⟨n + 1, hn⟩) (msL0_7 ⟨n + 1, hn⟩) (hsL0_7 ⟨n + 1, hn⟩) (msL0_8 ⟨n + 1, hn⟩) (hsL0_8 ⟨n + 1, hn⟩) (msL0_9 ⟨n + 1, hn⟩) (hsL0_9 ⟨n + 1, hn⟩) (msL0_10 ⟨n + 1, hn⟩) (hsL0_10 ⟨n + 1, hn⟩) (msL0_11 ⟨n + 1, hn⟩) (hsL0_11 ⟨n + 1, hn⟩) (msL0_12 ⟨n + 1, hn⟩) (hsL0_12 ⟨n + 1, hn⟩) (msL0_13 ⟨n + 1, hn⟩) (hsL0_13 ⟨n + 1, hn⟩) (msL0_14 ⟨n + 1, hn⟩) (hsL0_14 ⟨n + 1, hn⟩) (msL0_15 ⟨n + 1, hn⟩) (hsL0_15 ⟨n + 1, hn⟩) (msL0_16 ⟨n + 1, hn⟩) (hsL0_16 ⟨n + 1, hn⟩) ((hcondL0_0 ⟨n + 1, hn⟩).mpr h0) (iblkL0 V c 0 ⟨n + 1, hn⟩) (iblkL0 V c 1 ⟨n + 1, hn⟩) (iblkL0 V c 2 ⟨n + 1, hn⟩) (iblkL0 V c 3 ⟨n + 1, hn⟩) (iblkL0 V c 4 ⟨n + 1, hn⟩) (iblkL0 V c 5 ⟨n + 1, hn⟩) (iblkL0 V c 6 ⟨n + 1, hn⟩) (iblkL0 V c 7 ⟨n + 1, hn⟩) (iblkL0 V c 8 ⟨n + 1, hn⟩) (iblkL0 V c 9 ⟨n + 1, hn⟩) (iblkL0 V c 10 ⟨n + 1, hn⟩) (iblkL0 V c 11 ⟨n + 1, hn⟩) (iblkL0 V c 12 ⟨n + 1, hn⟩) (iblkL0 V c 13 ⟨n + 1, hn⟩) (iblkL0 V c 14 ⟨n + 1, hn⟩)
    else
      outL0_B_16 c (grid0.coords ⟨n + 1, hn⟩) (msL0_0 ⟨n + 1, hn⟩) (hsL0_0 ⟨n + 1, hn⟩) (msL0_1 ⟨n + 1, hn⟩) (hsL0_1 ⟨n + 1, hn⟩) (msL0_2 ⟨n + 1, hn⟩) (hsL0_2 ⟨n + 1, hn⟩) (msL0_3 ⟨n + 1, hn⟩) (hsL0_3 ⟨n + 1, hn⟩) (msL0_4 ⟨n + 1, hn⟩) (hsL0_4 ⟨n + 1, hn⟩) (msL0_5 ⟨n + 1, hn⟩) (hsL0_5 ⟨n + 1, hn⟩) (msL0_6 ⟨n + 1, hn⟩) (hsL0_6 ⟨n + 1, hn⟩) (msL0_7 ⟨n + 1, hn⟩) (hsL0_7 ⟨n + 1, hn⟩) (msL0_8 ⟨n + 1, hn⟩) (hsL0_8 ⟨n + 1, hn⟩) (msL0_9 ⟨n + 1, hn⟩) (hsL0_9 ⟨n + 1, hn⟩) (msL0_10 ⟨n + 1, hn⟩) (hsL0_10 ⟨n + 1, hn⟩) (msL0_11 ⟨n + 1, hn⟩) (hsL0_11 ⟨n + 1, hn⟩) (msL0_12 ⟨n + 1, hn⟩) (hsL0_12 ⟨n + 1, hn⟩) (msL0_13 ⟨n + 1, hn⟩) (hsL0_13 ⟨n + 1, hn⟩) (msL0_14 ⟨n + 1, hn⟩) (hsL0_14 ⟨n + 1, hn⟩) (msL0_15 ⟨n + 1, hn⟩) (hsL0_15 ⟨n + 1, hn⟩) (msL0_16 ⟨n + 1, hn⟩) (hsL0_16 ⟨n + 1, hn⟩) (fun h => h0 ((hcondL0_0 ⟨n + 1, hn⟩).mp h)) (iblkL0 V c 0 ⟨n + 1, hn⟩) (iblkL0 V c 1 ⟨n + 1, hn⟩) (iblkL0 V c 2 ⟨n + 1, hn⟩) (iblkL0 V c 3 ⟨n + 1, hn⟩) (iblkL0 V c 4 ⟨n + 1, hn⟩) (iblkL0 V c 5 ⟨n + 1, hn⟩) (iblkL0 V c 6 ⟨n + 1, hn⟩) (iblkL0 V c 7 ⟨n + 1, hn⟩) (iblkL0 V c 8 ⟨n + 1, hn⟩) (iblkL0 V c 9 ⟨n + 1, hn⟩) (iblkL0 V c 10 ⟨n + 1, hn⟩) (iblkL0 V c 11 ⟨n + 1, hn⟩) (iblkL0 V c 12 ⟨n + 1, hn⟩) (iblkL0 V c 13 ⟨n + 1, hn⟩) (iblkL0 V c 14 ⟨n + 1, hn⟩) (poolAtL0 V c n (Nat.lt_of_succ_lt hn))

/-- The pool's buffer at the first point. -/
theorem poolAtL0_A (V : (c : Dev nD) → (b : Ref sig .tc) → Buf (Elt F) ((c : Thread nD τ).loc b)) (c : Dev nD) (t : Fin cfg0.N) (h0 : t.val % 50 = 0) :
    poolAtL0 V c t.val t.isLt = outL0_A_16 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) ((hcondL0_0 t).mpr h0) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) := by
  obtain ⟨n, hn⟩ := t
  cases n with
  | zero => exact rfl
  | succ n => exact (dif_pos h0).trans rfl

/-- The pool's buffer at a later point, over what the point before left. -/
theorem poolAtL0_B (V : (c : Dev nD) → (b : Ref sig .tc) → Buf (Elt F) ((c : Thread nD τ).loc b)) (c : Dev nD) (t : Fin cfg0.N) (h0 : ¬t.val % 50 = 0) :
    poolAtL0 V c t.val t.isLt = outL0_B_16 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) (fun h => h0 ((hcondL0_0 t).mp h)) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) (poolAtL0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the body leaves in window 15's staging buffer at point `t`: the tile's new node features. -/
def hOutL0 (V : (c : Dev nD) → (b : Ref sig .tc) → Buf (Elt F) ((c : Thread nD τ).loc b)) (c : Dev nD) (t : Fin cfg0.N) : Vec F S1000x128 .f32 :=
  if h0 : t.val % 50 = 0 then
    outL0_A_15 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) ((hcondL0_0 t).mpr h0) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t)
  else
    outL0_B_15 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) (fun h => h0 ((hcondL0_0 t).mp h)) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) (poolAtL0 V c (t.val - 1) (Nat.lt_of_le_of_lt (Nat.sub_le _ _) t.isLt))

theorem hOutL0_A (V : (c : Dev nD) → (b : Ref sig .tc) → Buf (Elt F) ((c : Thread nD τ).loc b)) (c : Dev nD) (t : Fin cfg0.N) (h0 : t.val % 50 = 0) :
    hOutL0 V c t = outL0_A_15 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) ((hcondL0_0 t).mpr h0) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) := dif_pos h0

theorem hOutL0_B (V : (c : Dev nD) → (b : Ref sig .tc) → Buf (Elt F) ((c : Thread nD τ).loc b)) (c : Dev nD) (t : Fin cfg0.N) (h0 : ¬t.val % 50 = 0) :
    hOutL0 V c t = outL0_B_15 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) (fun h => h0 ((hcondL0_0 t).mp h)) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) (poolAtL0 V c (t.val - 1) (Nat.lt_of_le_of_lt (Nat.sub_le _ _) t.isLt)) := dif_neg h0

/-! ## The pipeline's proof data -/

/-- The proof data of this region's pipeline on core `c`. -/
def datL0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblkL0 V c 0 t
    | ⟨1, _⟩ => iblkL0 V c 1 t
    | ⟨2, _⟩ => iblkL0 V c 2 t
    | ⟨3, _⟩ => iblkL0 V c 3 t
    | ⟨4, _⟩ => iblkL0 V c 4 t
    | ⟨5, _⟩ => iblkL0 V c 5 t
    | ⟨6, _⟩ => iblkL0 V c 6 t
    | ⟨7, _⟩ => iblkL0 V c 7 t
    | ⟨8, _⟩ => iblkL0 V c 8 t
    | ⟨9, _⟩ => iblkL0 V c 9 t
    | ⟨10, _⟩ => iblkL0 V c 10 t
    | ⟨11, _⟩ => iblkL0 V c 11 t
    | ⟨12, _⟩ => iblkL0 V c 12 t
    | ⟨13, _⟩ => iblkL0 V c 13 t
    | ⟨14, _⟩ => iblkL0 V c 14 t
    | ⟨15, _⟩ => hOutL0 V c t
    | ⟨16, _⟩ => poolAtL0 V c t.val t.isLt
    | ⟨_ + 17, h⟩ => absurd h (Nat.not_lt.2 (Nat.le_add_left _ _))
  Φ _ := Pipeline.ΦA spec0 c
  q _ := fullShare
  owed _ := 0

/-- The proof data's arrays are the region-entry contents. -/
theorem A_eqL0 (V : (c : Dev nD) → (b : Ref sig .tc) → Buf (Elt F) ((c : Thread nD τ).loc b)) (c : Dev nD) (w : Fin cfg0.W) : (datL0 V c).A w = V c (Pipeline.arrRef spec0 w) := by
  dsimp only [datL0]

/-- What the body leaves, window by window. -/
theorem after0_L0 (V : (c : Dev nD) → (b : Ref sig .tc) → Buf (Elt F) ((c : Thread nD τ).loc b)) (c : Dev nD) (t : Fin cfg0.N) : (datL0 V c).after 0 t = iblkL0 V c 0 t := by dsimp only [datL0]
theorem after1_L0 (V : (c : Dev nD) → (b : Ref sig .tc) → Buf (Elt F) ((c : Thread nD τ).loc b)) (c : Dev nD) (t : Fin cfg0.N) : (datL0 V c).after 1 t = iblkL0 V c 1 t := by dsimp only [datL0]
theorem after2_L0 (V : (c : Dev nD) → (b : Ref sig .tc) → Buf (Elt F) ((c : Thread nD τ).loc b)) (c : Dev nD) (t : Fin cfg0.N) : (datL0 V c).after 2 t = iblkL0 V c 2 t := by dsimp only [datL0]
theorem after3_L0 (V : (c : Dev nD) → (b : Ref sig .tc) → Buf (Elt F) ((c : Thread nD τ).loc b)) (c : Dev nD) (t : Fin cfg0.N) : (datL0 V c).after 3 t = iblkL0 V c 3 t := by dsimp only [datL0]
theorem after4_L0 (V : (c : Dev nD) → (b : Ref sig .tc) → Buf (Elt F) ((c : Thread nD τ).loc b)) (c : Dev nD) (t : Fin cfg0.N) : (datL0 V c).after 4 t = iblkL0 V c 4 t := by dsimp only [datL0]
theorem after5_L0 (V : (c : Dev nD) → (b : Ref sig .tc) → Buf (Elt F) ((c : Thread nD τ).loc b)) (c : Dev nD) (t : Fin cfg0.N) : (datL0 V c).after 5 t = iblkL0 V c 5 t := by dsimp only [datL0]
theorem after6_L0 (V : (c : Dev nD) → (b : Ref sig .tc) → Buf (Elt F) ((c : Thread nD τ).loc b)) (c : Dev nD) (t : Fin cfg0.N) : (datL0 V c).after 6 t = iblkL0 V c 6 t := by dsimp only [datL0]
theorem after7_L0 (V : (c : Dev nD) → (b : Ref sig .tc) → Buf (Elt F) ((c : Thread nD τ).loc b)) (c : Dev nD) (t : Fin cfg0.N) : (datL0 V c).after 7 t = iblkL0 V c 7 t := by dsimp only [datL0]
theorem after8_L0 (V : (c : Dev nD) → (b : Ref sig .tc) → Buf (Elt F) ((c : Thread nD τ).loc b)) (c : Dev nD) (t : Fin cfg0.N) : (datL0 V c).after 8 t = iblkL0 V c 8 t := by dsimp only [datL0]
theorem after9_L0 (V : (c : Dev nD) → (b : Ref sig .tc) → Buf (Elt F) ((c : Thread nD τ).loc b)) (c : Dev nD) (t : Fin cfg0.N) : (datL0 V c).after 9 t = iblkL0 V c 9 t := by dsimp only [datL0]
theorem after10_L0 (V : (c : Dev nD) → (b : Ref sig .tc) → Buf (Elt F) ((c : Thread nD τ).loc b)) (c : Dev nD) (t : Fin cfg0.N) : (datL0 V c).after 10 t = iblkL0 V c 10 t := by dsimp only [datL0]
theorem after11_L0 (V : (c : Dev nD) → (b : Ref sig .tc) → Buf (Elt F) ((c : Thread nD τ).loc b)) (c : Dev nD) (t : Fin cfg0.N) : (datL0 V c).after 11 t = iblkL0 V c 11 t := by dsimp only [datL0]
theorem after12_L0 (V : (c : Dev nD) → (b : Ref sig .tc) → Buf (Elt F) ((c : Thread nD τ).loc b)) (c : Dev nD) (t : Fin cfg0.N) : (datL0 V c).after 12 t = iblkL0 V c 12 t := by dsimp only [datL0]
theorem after13_L0 (V : (c : Dev nD) → (b : Ref sig .tc) → Buf (Elt F) ((c : Thread nD τ).loc b)) (c : Dev nD) (t : Fin cfg0.N) : (datL0 V c).after 13 t = iblkL0 V c 13 t := by dsimp only [datL0]
theorem after14_L0 (V : (c : Dev nD) → (b : Ref sig .tc) → Buf (Elt F) ((c : Thread nD τ).loc b)) (c : Dev nD) (t : Fin cfg0.N) : (datL0 V c).after 14 t = iblkL0 V c 14 t := by dsimp only [datL0]
theorem after15_L0 (V : (c : Dev nD) → (b : Ref sig .tc) → Buf (Elt F) ((c : Thread nD τ).loc b)) (c : Dev nD) (t : Fin cfg0.N) : (datL0 V c).after 15 t = hOutL0 V c t := by dsimp only [datL0]
theorem after16_L0 (V : (c : Dev nD) → (b : Ref sig .tc) → Buf (Elt F) ((c : Thread nD τ).loc b)) (c : Dev nD) (t : Fin cfg0.N) : (datL0 V c).after 16 t = poolAtL0 V c t.val t.isLt := by dsimp only [datL0]

/-- Each input's current staging buffer holds its block at every point, fetched there or not. -/
theorem beforeL0_0 (V : (c : Dev nD) → (b : Ref sig .tc) → Buf (Elt F) ((c : Thread nD τ).loc b)) (c : Dev nD) (t : Fin cfg0.N) (d) : (datL0 V c).before 0 t d = iblkL0 V c 0 t :=
  beforeL0_0_of V (datL0 V c) (A_eqL0 V c 0) (after0_L0 V c) t d
theorem beforeL0_1 (V : (c : Dev nD) → (b : Ref sig .tc) → Buf (Elt F) ((c : Thread nD τ).loc b)) (c : Dev nD) (t : Fin cfg0.N) (d) : (datL0 V c).before 1 t d = iblkL0 V c 1 t :=
  beforeL0_1_of V (datL0 V c) (A_eqL0 V c 1) (after1_L0 V c) t d
theorem beforeL0_2 (V : (c : Dev nD) → (b : Ref sig .tc) → Buf (Elt F) ((c : Thread nD τ).loc b)) (c : Dev nD) (t : Fin cfg0.N) (d) : (datL0 V c).before 2 t d = iblkL0 V c 2 t :=
  beforeL0_2_of V (datL0 V c) (A_eqL0 V c 2) (after2_L0 V c) t d
theorem beforeL0_3 (V : (c : Dev nD) → (b : Ref sig .tc) → Buf (Elt F) ((c : Thread nD τ).loc b)) (c : Dev nD) (t : Fin cfg0.N) (d) : (datL0 V c).before 3 t d = iblkL0 V c 3 t :=
  beforeL0_3_of V (datL0 V c) (A_eqL0 V c 3) (after3_L0 V c) t d
theorem beforeL0_4 (V : (c : Dev nD) → (b : Ref sig .tc) → Buf (Elt F) ((c : Thread nD τ).loc b)) (c : Dev nD) (t : Fin cfg0.N) (d) : (datL0 V c).before 4 t d = iblkL0 V c 4 t :=
  beforeL0_4_of V (datL0 V c) (A_eqL0 V c 4) (after4_L0 V c) t d
theorem beforeL0_5 (V : (c : Dev nD) → (b : Ref sig .tc) → Buf (Elt F) ((c : Thread nD τ).loc b)) (c : Dev nD) (t : Fin cfg0.N) (d) : (datL0 V c).before 5 t d = iblkL0 V c 5 t :=
  beforeL0_5_of V (datL0 V c) (A_eqL0 V c 5) (after5_L0 V c) t d
theorem beforeL0_6 (V : (c : Dev nD) → (b : Ref sig .tc) → Buf (Elt F) ((c : Thread nD τ).loc b)) (c : Dev nD) (t : Fin cfg0.N) (d) : (datL0 V c).before 6 t d = iblkL0 V c 6 t :=
  beforeL0_6_of V (datL0 V c) (A_eqL0 V c 6) (after6_L0 V c) t d
theorem beforeL0_7 (V : (c : Dev nD) → (b : Ref sig .tc) → Buf (Elt F) ((c : Thread nD τ).loc b)) (c : Dev nD) (t : Fin cfg0.N) (d) : (datL0 V c).before 7 t d = iblkL0 V c 7 t :=
  beforeL0_7_of V (datL0 V c) (A_eqL0 V c 7) (after7_L0 V c) t d
theorem beforeL0_8 (V : (c : Dev nD) → (b : Ref sig .tc) → Buf (Elt F) ((c : Thread nD τ).loc b)) (c : Dev nD) (t : Fin cfg0.N) (d) : (datL0 V c).before 8 t d = iblkL0 V c 8 t :=
  beforeL0_8_of V (datL0 V c) (A_eqL0 V c 8) (after8_L0 V c) t d
theorem beforeL0_9 (V : (c : Dev nD) → (b : Ref sig .tc) → Buf (Elt F) ((c : Thread nD τ).loc b)) (c : Dev nD) (t : Fin cfg0.N) (d) : (datL0 V c).before 9 t d = iblkL0 V c 9 t :=
  beforeL0_9_of V (datL0 V c) (A_eqL0 V c 9) (after9_L0 V c) t d
theorem beforeL0_10 (V : (c : Dev nD) → (b : Ref sig .tc) → Buf (Elt F) ((c : Thread nD τ).loc b)) (c : Dev nD) (t : Fin cfg0.N) (d) : (datL0 V c).before 10 t d = iblkL0 V c 10 t :=
  beforeL0_10_of V (datL0 V c) (A_eqL0 V c 10) (after10_L0 V c) t d
theorem beforeL0_11 (V : (c : Dev nD) → (b : Ref sig .tc) → Buf (Elt F) ((c : Thread nD τ).loc b)) (c : Dev nD) (t : Fin cfg0.N) (d) : (datL0 V c).before 11 t d = iblkL0 V c 11 t :=
  beforeL0_11_of V (datL0 V c) (A_eqL0 V c 11) (after11_L0 V c) t d
theorem beforeL0_12 (V : (c : Dev nD) → (b : Ref sig .tc) → Buf (Elt F) ((c : Thread nD τ).loc b)) (c : Dev nD) (t : Fin cfg0.N) (d) : (datL0 V c).before 12 t d = iblkL0 V c 12 t :=
  beforeL0_12_of V (datL0 V c) (A_eqL0 V c 12) (after12_L0 V c) t d
theorem beforeL0_13 (V : (c : Dev nD) → (b : Ref sig .tc) → Buf (Elt F) ((c : Thread nD τ).loc b)) (c : Dev nD) (t : Fin cfg0.N) (d) : (datL0 V c).before 13 t d = iblkL0 V c 13 t :=
  beforeL0_13_of V (datL0 V c) (A_eqL0 V c 13) (after13_L0 V c) t d
theorem beforeL0_14 (V : (c : Dev nD) → (b : Ref sig .tc) → Buf (Elt F) ((c : Thread nD τ).loc b)) (c : Dev nD) (t : Fin cfg0.N) (d) : (datL0 V c).before 14 t d = iblkL0 V c 14 t :=
  beforeL0_14_of V (datL0 V c) (A_eqL0 V c 14) (after14_L0 V c) t d

/-- At a later point the pool's current staging buffer holds what the body left at the point before: the window's block
    index is constant and the buffer is written back at the last point only. -/
theorem beforeL0_16_B (V : (c : Dev nD) → (b : Ref sig .tc) → Buf (Elt F) ((c : Thread nD τ).loc b)) (c : Dev nD) (t : Fin cfg0.N) (h0 : ¬t.val % 50 = 0) (d) :
    (datL0 V c).before 16 t d = poolAtL0 V c (t.val - 1) (Nat.lt_of_le_of_lt (Nat.sub_le _ _) t.isLt) := by
  have hN : t.val < 50 := lt_of_lt_of_eq t.isLt (show cfg0.N = 50 from N_0)
  rw [Dat.before_out_kept _ 16 rfl t (by omega) (Bool.eq_false_iff.mpr fun h => by have := (flush0_16 _).mp h; dsimp only at this; omega)
    (fun _ => rfl) (fun _ _ => rfl)]
  dsimp only [datL0]

/-! ## The body obligation, at a generic point -/

/-- What the body is called with at point `t`, the windows one by one, -/
def bodyPreL0 (V : (c : Dev nD) → (b : Ref sig .tc) → Buf (Elt F) ((c : Thread nD τ).loc b)) (c : Dev nD) (t : Fin cfg0.N) : sProp 𝕄 :=
  iprop((datL0 V c).Φ t.castSucc ∗ (datL0 V c).owesAt () t.castSucc
    ∗ (∃ d, owns (c : Thread nD τ) (msL0_0 t) fullShare ((datL0 V c).before 0 t d))
    ∗ (∃ d, owns (c : Thread nD τ) (msL0_1 t) fullShare ((datL0 V c).before 1 t d))
    ∗ (∃ d, owns (c : Thread nD τ) (msL0_2 t) fullShare ((datL0 V c).before 2 t d))
    ∗ (∃ d, owns (c : Thread nD τ) (msL0_3 t) fullShare ((datL0 V c).before 3 t d))
    ∗ (∃ d, owns (c : Thread nD τ) (msL0_4 t) fullShare ((datL0 V c).before 4 t d))
    ∗ (∃ d, owns (c : Thread nD τ) (msL0_5 t) fullShare ((datL0 V c).before 5 t d))
    ∗ (∃ d, owns (c : Thread nD τ) (msL0_6 t) fullShare ((datL0 V c).before 6 t d))
    ∗ (∃ d, owns (c : Thread nD τ) (msL0_7 t) fullShare ((datL0 V c).before 7 t d))
    ∗ (∃ d, owns (c : Thread nD τ) (msL0_8 t) fullShare ((datL0 V c).before 8 t d))
    ∗ (∃ d, owns (c : Thread nD τ) (msL0_9 t) fullShare ((datL0 V c).before 9 t d))
    ∗ (∃ d, owns (c : Thread nD τ) (msL0_10 t) fullShare ((datL0 V c).before 10 t d))
    ∗ (∃ d, owns (c : Thread nD τ) (msL0_11 t) fullShare ((datL0 V c).before 11 t d))
    ∗ (∃ d, owns (c : Thread nD τ) (msL0_12 t) fullShare ((datL0 V c).before 12 t d))
    ∗ (∃ d, owns (c : Thread nD τ) (msL0_13 t) fullShare ((datL0 V c).before 13 t d))
    ∗ (∃ d, owns (c : Thread nD τ) (msL0_14 t) fullShare ((datL0 V c).before 14 t d))
    ∗ (∃ d, owns (c : Thread nD τ) (msL0_15 t) fullShare ((datL0 V c).before 15 t d))
    ∗ (∃ d, owns (c : Thread nD τ) (msL0_16 t) fullShare ((datL0 V c).before 16 t d)))

/-- and what it returns. -/
def bodyPostL0 (V : (c : Dev nD) → (b : Ref sig .tc) → Buf (Elt F) ((c : Thread nD τ).loc b)) (c : Dev nD) (t : Fin cfg0.N) : sProp 𝕄 :=
  iprop((datL0 V c).Φ t.succ ∗ (datL0 V c).owesAt () t.succ
    ∗ owns (c : Thread nD τ) (msL0_0 t) fullShare ((datL0 V c).after 0 t)
    ∗ owns (c : Thread nD τ) (msL0_1 t) fullShare ((datL0 V c).after 1 t)
    ∗ owns (c : Thread nD τ) (msL0_2 t) fullShare ((datL0 V c).after 2 t)
    ∗ owns (c : Thread nD τ) (msL0_3 t) fullShare ((datL0 V c).after 3 t)
    ∗ owns (c : Thread nD τ) (msL0_4 t) fullShare ((datL0 V c).after 4 t)
    ∗ owns (c : Thread nD τ) (msL0_5 t) fullShare ((datL0 V c).after 5 t)
    ∗ owns (c : Thread nD τ) (msL0_6 t) fullShare ((datL0 V c).after 6 t)
    ∗ owns (c : Thread nD τ) (msL0_7 t) fullShare ((datL0 V c).after 7 t)
    ∗ owns (c : Thread nD τ) (msL0_8 t) fullShare ((datL0 V c).after 8 t)
    ∗ owns (c : Thread nD τ) (msL0_9 t) fullShare ((datL0 V c).after 9 t)
    ∗ owns (c : Thread nD τ) (msL0_10 t) fullShare ((datL0 V c).after 10 t)
    ∗ owns (c : Thread nD τ) (msL0_11 t) fullShare ((datL0 V c).after 11 t)
    ∗ owns (c : Thread nD τ) (msL0_12 t) fullShare ((datL0 V c).after 12 t)
    ∗ owns (c : Thread nD τ) (msL0_13 t) fullShare ((datL0 V c).after 13 t)
    ∗ owns (c : Thread nD τ) (msL0_14 t) fullShare ((datL0 V c).after 14 t)
    ∗ owns (c : Thread nD τ) (msL0_15 t) fullShare ((datL0 V c).after 15 t)
    ∗ owns (c : Thread nD τ) (msL0_16 t) fullShare ((datL0 V c).after 16 t))

set_option maxHeartbeats 4000000 in
/-- The body at any point: the inputs' memrefs hold their blocks; the point is the first or a later one, and at a later
    one the pool's buffer holds what the point before left; so the body's run applies; the invariant passes through
    unread; the core owes nothing throughout. -/
theorem sound_bodyL0 (V : (c : Dev nD) → (b : Ref sig .tc) → Buf (Elt F) ((c : Thread nD τ).loc b)) (c : Dev nD) (t : Fin cfg0.N) :
    bodyPreL0 V c t ⊢ wp frame (wpE (defs₀ (F := F)) Variants.none c none) Set.univ (bodyAt0 t) (fun _ => bodyPostL0 V c t) := by
  unfold bodyPreL0 bodyPostL0 bodyAt0
  simp only [beforeL0_0, beforeL0_1, beforeL0_2, beforeL0_3, beforeL0_4, beforeL0_5, beforeL0_6, beforeL0_7, beforeL0_8, beforeL0_9, beforeL0_10, beforeL0_11, beforeL0_12, beforeL0_13, beforeL0_14]
  rw [show (datL0 V c).Φ t.succ = (datL0 V c).Φ t.castSucc from rfl,
    show (datL0 V c).owesAt () t.succ = (datL0 V c).owesAt () t.castSucc from rfl,
    after0_L0, after1_L0, after2_L0, after3_L0, after4_L0, after5_L0, after6_L0, after7_L0, after8_L0, after9_L0, after10_L0, after11_L0, after12_L0, after13_L0, after14_L0, after15_L0, after16_L0]
  have hN : t.val < 50 := lt_of_lt_of_eq t.isLt (show cfg0.N = 50 from N_0)
  by_cases h0 : t.val % 50 = 0
  · rw [hOutL0_A V c t h0, poolAtL0_A V c t h0]
    unfold outL0_A_15 outL0_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL0_A c (grid0.coords t) _ _ _ _ _ _ _ _ _ _ _ _ _ _ _ _ _ _ _ _ _ _ _ _ _ _ _ _ _ _ _ _ _ _ ((hcondL0_0 t).mpr h0) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL0_A_15 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL0_A_16 c _ _ _ _ _ _ _ _ _ _ _ _ _ _ _ _ _ _ _ _ _ _ _ _ _ _ _ _ _ _ _ _ _ _ _ _ _ _ _ _ _ _ _ _ _ _ _ _ _ _ _)
  · rw [hOutL0_B V c t h0, poolAtL0_B V c t h0]
    simp only [beforeL0_16_B V c t h0]
    unfold outL0_B_15 outL0_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL0_B c (grid0.coords t) _ _ _ _ _ _ _ _ _ _ _ _ _ _ _ _ _ _ _ _ _ _ _ _ _ _ _ _ _ _ _ _ _ _ (fun h => h0 ((hcondL0_0 t).mp h)) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL0_B_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL0_B_16 c _ _ _ _ _ _ _ _ _ _ _ _ _ _ _ _ _ _ _ _ _ _ _ _ _ _ _ _ _ _ _ _ _ _ _ _ _ _ _ _ _ _ _ _ _ _ _ _ _ _ _ _)

/-- The body meets the pipeline's obligation at every point. -/
theorem body_obligationL0 (V : (c : Dev nD) → (b : Ref sig .tc) → Buf (Elt F) ((c : Thread nD τ).loc b)) (c : Dev nD) : BodyObligation (datL0 (F := F) V c) (defs₀ (F := F)) Variants.none () Set.univ := fun t => by
  rw [bigSep_W0, bigSep_W0]
  exact sound_bodyL0 V c t

end Cert.Kernel.Hand

end
-- ==== Proof.K.L1Runs.lean ====
/-
  Layer region 1, what the runs of its body share: each window's block as the region finds its array, that an
  input window's staging buffer holds its block at every point (fetched there or kept from the point before), the
  body's branch on the grid coordinate in closed form, and the staging memrefs the body is called with.
  `V` is the TensorCore's buffer contents when the region is entered.
-/
import proofs.«426741_j36421322670671_1_alg».proof.Proof.Gen.Kernel.Launch
import proofs.«426741_j36421322670671_1_alg».proof.Proof.Gen.Kernel.Skeleton
import proofs.«426741_j36421322670671_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it. -/
def iblkL1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's staging buffer holds its block at every point -/

/-- Input window 0: for any proof data whose array is the region-entry contents and whose body leaves the block in
    place, the current staging buffer holds the block at every point, fetched there or not. -/
theorem beforeL1_0_of (V : (c : Dev nD) → (b : Ref sig .tc) → Buf (Elt F) ((c : Thread nD τ).loc b)) {c : Dev nD} (dat : Dat τ (Elt F) Unit ℕ (UR sig nD τ) ℕ cfg1 c) (hA : dat.A 0 = V c (Pipeline.arrRef spec1 0))
    (hafter : ∀ t, dat.after 0 t = iblkL1 V c 0 t) (t : Fin cfg1.N) (d) : dat.before 0 t d = iblkL1 V c 0 t :=
  (dat.before_in_eq_fetched 0 rfl (fun _ => rfl) (fun _ _ _ => rfl) (fun t => by rw [hafter]; unfold Dat.blockOf iblkL1; rw [hA]; try rfl) t d).trans
    (by unfold Dat.fetched Dat.blockOf iblkL1; rw [hA]; try rfl)

/-- Input window 1: for any proof data whose array is the region-entry contents and whose body leaves the block in
    place, the current staging buffer holds the block at every point, fetched there or not. -/
theorem beforeL1_1_of (V : (c : Dev nD) → (b : Ref sig .tc) → Buf (Elt F) ((c : Thread nD τ).loc b)) {c : Dev nD} (dat : Dat τ (Elt F) Unit ℕ (UR sig nD τ) ℕ cfg1 c) (hA : dat.A 1 = V c (Pipeline.arrRef spec1 1))
    (hafter : ∀ t, dat.after 1 t = iblkL1 V c 1 t) (t : Fin cfg1.N) (d) : dat.before 1 t d = iblkL1 V c 1 t :=
  (dat.before_in_eq_fetched 1 rfl (fun _ => rfl) (fun _ _ _ => rfl) (fun t => by rw [hafter]; unfold Dat.blockOf iblkL1; rw [hA]; try rfl) t d).trans
    (by unfold Dat.fetched Dat.blockOf iblkL1; rw [hA]; try rfl)

/-- Input window 2: for any proof data whose array is the region-entry contents and whose body leaves the block in
    place, the current staging buffer holds the block at every point, fetched there or not. -/
theorem beforeL1_2_of (V : (c : Dev nD) → (b : Ref sig .tc) → Buf (Elt F) ((c : Thread nD τ).loc b)) {c : Dev nD} (dat : Dat τ (Elt F) Unit ℕ (UR sig nD τ) ℕ cfg1 c) (hA : dat.A 2 = V c (Pipeline.arrRef spec1 2))
    (hafter : ∀ t, dat.after 2 t = iblkL1 V c 2 t) (t : Fin cfg1.N) (d) : dat.before 2 t d = iblkL1 V c 2 t :=
  (dat.before_in_eq_fetched 2 rfl (fun _ => rfl) (fun _ _ _ => rfl) (fun t => by rw [hafter]; unfold Dat.blockOf iblkL1; rw [hA]; try rfl) t d).trans
    (by unfold Dat.fetched Dat.blockOf iblkL1; rw [hA]; try rfl)

/-- Input window 3: for any proof data whose array is the region-entry contents and whose body leaves the block in
    place, the current staging buffer holds the block at every point, fetched there or not. -/
theorem beforeL1_3_of (V : (c : Dev nD) → (b : Ref sig .tc) → Buf (Elt F) ((c : Thread nD τ).loc b)) {c : Dev nD} (dat : Dat τ (Elt F) Unit ℕ (UR sig nD τ) ℕ cfg1 c) (hA : dat.A 3 = V c (Pipeline.arrRef spec1 3))
    (hafter : ∀ t, dat.after 3 t = iblkL1 V c 3 t) (t : Fin cfg1.N) (d) : dat.before 3 t d = iblkL1 V c 3 t :=
  (dat.before_in_eq_fetched 3 rfl (fun _ => rfl) (fun _ _ _ => rfl) (fun t => by rw [hafter]; unfold Dat.blockOf iblkL1; rw [hA]; try rfl) t d).trans
    (by unfold Dat.fetched Dat.blockOf iblkL1; rw [hA]; try rfl)

/-- Input window 4: for any proof data whose array is the region-entry contents and whose body leaves the block in
    place, the current staging buffer holds the block at every point, fetched there or not. -/
theorem beforeL1_4_of (V : (c : Dev nD) → (b : Ref sig .tc) → Buf (Elt F) ((c : Thread nD τ).loc b)) {c : Dev nD} (dat : Dat τ (Elt F) Unit ℕ (UR sig nD τ) ℕ cfg1 c) (hA : dat.A 4 = V c (Pipeline.arrRef spec1 4))
    (hafter : ∀ t, dat.after 4 t = iblkL1 V c 4 t) (t : Fin cfg1.N) (d) : dat.before 4 t d = iblkL1 V c 4 t :=
  (dat.before_in_eq_fetched 4 rfl (fun _ => rfl) (fun _ _ _ => rfl) (fun t => by rw [hafter]; unfold Dat.blockOf iblkL1; rw [hA]; try rfl) t d).trans
    (by unfold Dat.fetched Dat.blockOf iblkL1; rw [hA]; try rfl)

/-- Input window 5: for any proof data whose array is the region-entry contents and whose body leaves the block in
    place, the current staging buffer holds the block at every point, fetched there or not. -/
theorem beforeL1_5_of (V : (c : Dev nD) → (b : Ref sig .tc) → Buf (Elt F) ((c : Thread nD τ).loc b)) {c : Dev nD} (dat : Dat τ (Elt F) Unit ℕ (UR sig nD τ) ℕ cfg1 c) (hA : dat.A 5 = V c (Pipeline.arrRef spec1 5))
    (hafter : ∀ t, dat.after 5 t = iblkL1 V c 5 t) (t : Fin cfg1.N) (d) : dat.before 5 t d = iblkL1 V c 5 t :=
  (dat.before_in_eq_fetched 5 rfl (fun _ => rfl) (fun _ _ _ => rfl) (fun t => by rw [hafter]; unfold Dat.blockOf iblkL1; rw [hA]; try rfl) t d).trans
    (by unfold Dat.fetched Dat.blockOf iblkL1; rw [hA]; try rfl)

/-- Input window 6: for any proof data whose array is the region-entry contents and whose body leaves the block in
    place, the current staging buffer holds the block at every point, fetched there or not. -/
theorem beforeL1_6_of (V : (c : Dev nD) → (b : Ref sig .tc) → Buf (Elt F) ((c : Thread nD τ).loc b)) {c : Dev nD} (dat : Dat τ (Elt F) Unit ℕ (UR sig nD τ) ℕ cfg1 c) (hA : dat.A 6 = V c (Pipeline.arrRef spec1 6))
    (hafter : ∀ t, dat.after 6 t = iblkL1 V c 6 t) (t : Fin cfg1.N) (d) : dat.before 6 t d = iblkL1 V c 6 t :=
  (dat.before_in_eq_fetched 6 rfl (fun _ => rfl) (fun _ _ _ => rfl) (fun t => by rw [hafter]; unfold Dat.blockOf iblkL1; rw [hA]; try rfl) t d).trans
    (by unfold Dat.fetched Dat.blockOf iblkL1; rw [hA]; try rfl)

/-- Input window 7: for any proof data whose array is the region-entry contents and whose body leaves the block in
    place, the current staging buffer holds the block at every point, fetched there or not. -/
theorem beforeL1_7_of (V : (c : Dev nD) → (b : Ref sig .tc) → Buf (Elt F) ((c : Thread nD τ).loc b)) {c : Dev nD} (dat : Dat τ (Elt F) Unit ℕ (UR sig nD τ) ℕ cfg1 c) (hA : dat.A 7 = V c (Pipeline.arrRef spec1 7))
    (hafter : ∀ t, dat.after 7 t = iblkL1 V c 7 t) (t : Fin cfg1.N) (d) : dat.before 7 t d = iblkL1 V c 7 t :=
  (dat.before_in_eq_fetched 7 rfl (fun _ => rfl) (fun _ _ _ => rfl) (fun t => by rw [hafter]; unfold Dat.blockOf iblkL1; rw [hA]; try rfl) t d).trans
    (by unfold Dat.fetched Dat.blockOf iblkL1; rw [hA]; try rfl)

/-- Input window 8: for any proof data whose array is the region-entry contents and whose body leaves the block in
    place, the current staging buffer holds the block at every point, fetched there or not. -/
theorem beforeL1_8_of (V : (c : Dev nD) → (b : Ref sig .tc) → Buf (Elt F) ((c : Thread nD τ).loc b)) {c : Dev nD} (dat : Dat τ (Elt F) Unit ℕ (UR sig nD τ) ℕ cfg1 c) (hA : dat.A 8 = V c (Pipeline.arrRef spec1 8))
    (hafter : ∀ t, dat.after 8 t = iblkL1 V c 8 t) (t : Fin cfg1.N) (d) : dat.before 8 t d = iblkL1 V c 8 t :=
  (dat.before_in_eq_fetched 8 rfl (fun _ => rfl) (fun _ _ _ => rfl) (fun t => by rw [hafter]; unfold Dat.blockOf iblkL1; rw [hA]; try rfl) t d).trans
    (by unfold Dat.fetched Dat.blockOf iblkL1; rw [hA]; try rfl)

/-- Input window 9: for any proof data whose array is the region-entry contents and whose body leaves the block in
    place, the current staging buffer holds the block at every point, fetched there or not. -/
theorem beforeL1_9_of (V : (c : Dev nD) → (b : Ref sig .tc) → Buf (Elt F) ((c : Thread nD τ).loc b)) {c : Dev nD} (dat : Dat τ (Elt F) Unit ℕ (UR sig nD τ) ℕ cfg1 c) (hA : dat.A 9 = V c (Pipeline.arrRef spec1 9))
    (hafter : ∀ t, dat.after 9 t = iblkL1 V c 9 t) (t : Fin cfg1.N) (d) : dat.before 9 t d = iblkL1 V c 9 t :=
  (dat.before_in_eq_fetched 9 rfl (fun _ => rfl) (fun _ _ _ => rfl) (fun t => by rw [hafter]; unfold Dat.blockOf iblkL1; rw [hA]; try rfl) t d).trans
    (by unfold Dat.fetched Dat.blockOf iblkL1; rw [hA]; try rfl)

/-- Input window 10: for any proof data whose array is the region-entry contents and whose body leaves the block in
    place, the current staging buffer holds the block at every point, fetched there or not. -/
theorem beforeL1_10_of (V : (c : Dev nD) → (b : Ref sig .tc) → Buf (Elt F) ((c : Thread nD τ).loc b)) {c : Dev nD} (dat : Dat τ (Elt F) Unit ℕ (UR sig nD τ) ℕ cfg1 c) (hA : dat.A 10 = V c (Pipeline.arrRef spec1 10))
    (hafter : ∀ t, dat.after 10 t = iblkL1 V c 10 t) (t : Fin cfg1.N) (d) : dat.before 10 t d = iblkL1 V c 10 t :=
  (dat.before_in_eq_fetched 10 rfl (fun _ => rfl) (fun _ _ _ => rfl) (fun t => by rw [hafter]; unfold Dat.blockOf iblkL1; rw [hA]; try rfl) t d).trans
    (by unfold Dat.fetched Dat.blockOf iblkL1; rw [hA]; try rfl)

/-- Input window 11: for any proof data whose array is the region-entry contents and whose body leaves the block in
    place, the current staging buffer holds the block at every point, fetched there or not. -/
theorem beforeL1_11_of (V : (c : Dev nD) → (b : Ref sig .tc) → Buf (Elt F) ((c : Thread nD τ).loc b)) {c : Dev nD} (dat : Dat τ (Elt F) Unit ℕ (UR sig nD τ) ℕ cfg1 c) (hA : dat.A 11 = V c (Pipeline.arrRef spec1 11))
    (hafter : ∀ t, dat.after 11 t = iblkL1 V c 11 t) (t : Fin cfg1.N) (d) : dat.before 11 t d = iblkL1 V c 11 t :=
  (dat.before_in_eq_fetched 11 rfl (fun _ => rfl) (fun _ _ _ => rfl) (fun t => by rw [hafter]; unfold Dat.blockOf iblkL1; rw [hA]; try rfl) t d).trans
    (by unfold Dat.fetched Dat.blockOf iblkL1; rw [hA]; try rfl)

/-- Input window 12: for any proof data whose array is the region-entry contents and whose body leaves the block in
    place, the current staging buffer holds the block at every point, fetched there or not. -/
theorem beforeL1_12_of (V : (c : Dev nD) → (b : Ref sig .tc) → Buf (Elt F) ((c : Thread nD τ).loc b)) {c : Dev nD} (dat : Dat τ (Elt F) Unit ℕ (UR sig nD τ) ℕ cfg1 c) (hA : dat.A 12 = V c (Pipeline.arrRef spec1 12))
    (hafter : ∀ t, dat.after 12 t = iblkL1 V c 12 t) (t : Fin cfg1.N) (d) : dat.before 12 t d = iblkL1 V c 12 t :=
  (dat.before_in_eq_fetched 12 rfl (fun _ => rfl) (fun _ _ _ => rfl) (fun t => by rw [hafter]; unfold Dat.blockOf iblkL1; rw [hA]; try rfl) t d).trans
    (by unfold Dat.fetched Dat.blockOf iblkL1; rw [hA]; try rfl)

/-- Input window 13: for any proof data whose array is the region-entry contents and whose body leaves the block in
    place, the current staging buffer holds the block at every point, fetched there or not. -/
theorem beforeL1_13_of (V : (c : Dev nD) → (b : Ref sig .tc) → Buf (Elt F) ((c : Thread nD τ).loc b)) {c : Dev nD} (dat : Dat τ (Elt F) Unit ℕ (UR sig nD τ) ℕ cfg1 c) (hA : dat.A 13 = V c (Pipeline.arrRef spec1 13))
    (hafter : ∀ t, dat.after 13 t = iblkL1 V c 13 t) (t : Fin cfg1.N) (d) : dat.before 13 t d = iblkL1 V c 13 t :=
  (dat.before_in_eq_fetched 13 rfl (fun _ => rfl) (fun _ _ _ => rfl) (fun t => by rw [hafter]; unfold Dat.blockOf iblkL1; rw [hA]; try rfl) t d).trans
    (by unfold Dat.fetched Dat.blockOf iblkL1; rw [hA]; try rfl)

/-- Input window 14: for any proof data whose array is the region-entry contents and whose body leaves the block in
    place, the current staging buffer holds the block at every point, fetched there or not. -/
theorem beforeL1_14_of (V : (c : Dev nD) → (b : Ref sig .tc) → Buf (Elt F) ((c : Thread nD τ).loc b)) {c : Dev nD} (dat : Dat τ (Elt F) Unit ℕ (UR sig nD τ) ℕ cfg1 c) (hA : dat.A 14 = V c (Pipeline.arrRef spec1 14))
    (hafter : ∀ t, dat.after 14 t = iblkL1 V c 14 t) (t : Fin cfg1.N) (d) : dat.before 14 t d = iblkL1 V c 14 t :=
  (dat.before_in_eq_fetched 14 rfl (fun _ => rfl) (fun _ _ _ => rfl) (fun t => by rw [hafter]; unfold Dat.blockOf iblkL1; rw [hA]; try rfl) t d).trans
    (by unfold Dat.fetched Dat.blockOf iblkL1; rw [hA]; try rfl)

/-! ## The body's branch -/

/-- The condition of the body's branch (`k1_h1`: the grid coordinate is zero), from the grid coordinates. -/
abbrev condL1_0 (i : grid1.Coords) : Prop := (Scalar.cmpi .ne (Scalar.extui (Scalar.cmpi .eq (BitVec.ofNat 32 (i 0).val) 0#32)) 0#32) = 1#1
/-- It holds at the first point only. -/
theorem hcondL1_0 : ∀ t : Fin cfg1.N, condL1_0 (grid1.coords t) ↔ t.val % 50 = 0 :=
  (by decide +kernel : ∀ t : Fin grid1.N, condL1_0 (grid1.coords t) ↔ t.val % 50 = 0)

/-! ## The staging memrefs -/

/-- One staging buffer of each output window, through which its contents are stated. -/
abbrev VOL1_15 : View sig .tc .vmem S1000x128 .f32 := (Memref.whole cc1_stg15_0 : Memref sig .tc .vmem S1000x128 .f32).view
abbrev VOL1_16 : View sig .tc .vmem S512x128 .f32 := (Memref.whole cc1_stg16_0 : Memref sig .tc .vmem S512x128 .f32).view

/-- Each window's current staging memref at point `t`, as the pipeline passes it to the body, and its wholeness. -/
abbrev msL1_0 (t : Fin cfg1.N) : Memref sig .tc .vmem S1000x128 .f32 := win1_0.stage (cfg1.slots t 0)
abbrev hsL1_0 (t : Fin cfg1.N) : (msL1_0 t).IsWhole := hstage1_0 ((cfg1.slots t 0).cast nbuf1_0)
abbrev msL1_1 (t : Fin cfg1.N) : Memref sig .tc .vmem S1000x128 .f32 := win1_1.stage (cfg1.slots t 1)
abbrev hsL1_1 (t : Fin cfg1.N) : (msL1_1 t).IsWhole := hstage1_1 ((cfg1.slots t 1).cast nbuf1_1)
abbrev msL1_2 (t : Fin cfg1.N) : Memref sig .tc .vmem S1000x1 .i32 := win1_2.stage (cfg1.slots t 2)
abbrev hsL1_2 (t : Fin cfg1.N) : (msL1_2 t).IsWhole := hstage1_2 ((cfg1.slots t 2).cast nbuf1_2)
abbrev msL1_3 (t : Fin cfg1.N) : Memref sig .tc .vmem S128x128 .f32 := win1_3.stage (cfg1.slots t 3)
abbrev hsL1_3 (t : Fin cfg1.N) : (msL1_3 t).IsWhole := hstage1_3 ((cfg1.slots t 3).cast nbuf1_3)
abbrev msL1_4 (t : Fin cfg1.N) : Memref sig .tc .vmem S128 .f32 := win1_4.stage (cfg1.slots t 4)
abbrev hsL1_4 (t : Fin cfg1.N) : (msL1_4 t).IsWhole := hstage1_4 ((cfg1.slots t 4).cast nbuf1_4)
abbrev msL1_5 (t : Fin cfg1.N) : Memref sig .tc .vmem S128 .f32 := win1_5.stage (cfg1.slots t 5)
abbrev hsL1_5 (t : Fin cfg1.N) : (msL1_5 t).IsWhole := hstage1_5 ((cfg1.slots t 5).cast nbuf1_5)
abbrev msL1_6 (t : Fin cfg1.N) : Memref sig .tc .vmem S128 .f32 := win1_6.stage (cfg1.slots t 6)
abbrev hsL1_6 (t : Fin cfg1.N) : (msL1_6 t).IsWhole := hstage1_6 ((cfg1.slots t 6).cast nbuf1_6)
abbrev msL1_7 (t : Fin cfg1.N) : Memref sig .tc .vmem S128 .f32 := win1_7.stage (cfg1.slots t 7)
abbrev hsL1_7 (t : Fin cfg1.N) : (msL1_7 t).IsWhole := hstage1_7 ((cfg1.slots t 7).cast nbuf1_7)
abbrev msL1_8 (t : Fin cfg1.N) : Memref sig .tc .vmem S128 .f32 := win1_8.stage (cfg1.slots t 8)
abbrev hsL1_8 (t : Fin cfg1.N) : (msL1_8 t).IsWhole := hstage1_8 ((cfg1.slots t 8).cast nbuf1_8)
abbrev msL1_9 (t : Fin cfg1.N) : Memref sig .tc .vmem S128x128 .f32 := win1_9.stage (cfg1.slots t 9)
abbrev hsL1_9 (t : Fin cfg1.N) : (msL1_9 t).IsWhole := hstage1_9 ((cfg1.slots t 9).cast nbuf1_9)
abbrev msL1_10 (t : Fin cfg1.N) : Memref sig .tc .vmem S128 .f32 := win1_10.stage (cfg1.slots t 10)
abbrev hsL1_10 (t : Fin cfg1.N) : (msL1_10 t).IsWhole := hstage1_10 ((cfg1.slots t 10).cast nbuf1_10)
abbrev msL1_11 (t : Fin cfg1.N) : Memref sig .tc .vmem S128 .f32 := win1_11.stage (cfg1.slots t 11)
abbrev hsL1_11 (t : Fin cfg1.N) : (msL1_11 t).IsWhole := hstage1_11 ((cfg1.slots t 11).cast nbuf1_11)
abbrev msL1_12 (t : Fin cfg1.N) : Memref sig .tc .vmem S128 .f32 := win1_12.stage (cfg1.slots t 12)
abbrev hsL1_12 (t : Fin cfg1.N) : (msL1_12 t).IsWhole := hstage1_12 ((cfg1.slots t 12).cast nbuf1_12)
abbrev msL1_13 (t : Fin cfg1.N) : Memref sig .tc .vmem S128 .f32 := win1_13.stage (cfg1.slots t 13)
abbrev hsL1_13 (t : Fin cfg1.N) : (msL1_13 t).IsWhole := hstage1_13 ((cfg1.slots t 13).cast nbuf1_13)
abbrev msL1_14 (t : Fin cfg1.N) : Memref sig .tc .vmem S128 .f32 := win1_14.stage (cfg1.slots t 14)
abbrev hsL1_14 (t : Fin cfg1.N) : (msL1_14 t).IsWhole := hstage1_14 ((cfg1.slots t 14).cast nbuf1_14)
abbrev msL1_15 (t : Fin cfg1.N) : Memref sig .tc .vmem S1000x128 .f32 := win1_15.stage (cfg1.slots t 15)
abbrev hsL1_15 (t : Fin cfg1.N) : (msL1_15 t).IsWhole := hstage1_15 ((cfg1.slots t 15).cast nbuf1_15)
abbrev msL1_16 (t : Fin cfg1.N) : Memref sig .tc .vmem S512x128 .f32 := win1_16.stage (cfg1.slots t 16)
abbrev hsL1_16 (t : Fin cfg1.N) : (msL1_16 t).IsWhole := hstage1_16 ((cfg1.slots t 16).cast nbuf1_16)

end Cert.Kernel.Hand

end
-- ==== Proof.K.L1RunA.lean ====
/-
  Layer region 1, the run of its body at the first grid point (the branch on the grid coordinate taken: the pool's
  buffer is zeroed before the tile is added): on whole staging memrefs, the inputs' at their contents and the outputs'
  at anything, the body runs to the continuation holding the inputs' as they were and each output's buffer with the
  stores the body made, listed last first.
-/
import proofs.«426741_j36421322670671_1_alg».proof.Proof.K.L1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at the first point, as pieces (last first),
    with the body's triple: the pieces are found by running the body. -/
noncomputable def kernelRunL1_A (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.Kernel.Hand

end
-- ==== Proof.K.L1RunB.lean ====
/-
  Layer region 1, the run of its body at a later grid point (the branch on the grid coordinate not taken: the tile is
  added to what the pool's buffer holds): on whole staging memrefs, the inputs' at their contents, the pool's at its
  running contents and the new features' at anything, the body runs to the continuation holding the inputs' as they
  were and each output's buffer with the stores the body made, listed last first.
-/
import proofs.«426741_j36421322670671_1_alg».proof.Proof.K.L1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at a later point, as pieces (last first),
    with the body's triple: the pieces are found by running the body. -/
noncomputable def kernelRunL1_B (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.Kernel.Hand

end
-- ==== Proof.K.L1Dat.lean ====
/-
  Layer region 1: what its pipeline's proof data say. Every input window's staging buffer holds its block of the
  array the region found; window 15's (the new node features) holds the block the body stores at the point;
  window 16's (the pool) holds the running sum the body carries from point to point.
  `V` is the TensorCore's buffer contents when the region is entered.
-/
import proofs.«426741_j36421322670671_1_alg».proof.Proof.K.L1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer, by the case of its branch -/

/-- The body's stores into window 15's buffer (the new node features) at the first point tile its block, so they cover it. -/
theorem coverL1_A_15 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S1000x128.Idx) :
    ∃ pc ∈ (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1000x128.size (by sl_kernel_rfl) y

/-- What the body leaves in window 15's staging buffer at the first point: its stores read back. -/
def outL1_A_15 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S1000x128 .f32 :=
  VOL1_15.read (Elt F) (VOL1_15.writes (Elt F) VOL1_15.junk (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- The body's stores into window 16's buffer (the pool) at the first point tile its block, so they cover it. -/
theorem coverL1_A_16 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S512x128.Idx) :
    ∃ pc ∈ (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x128.size (by sl_kernel_rfl) y

/-- What the body leaves in window 16's staging buffer at the first point: its stores read back. -/
def outL1_A_16 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S512x128 .f32 :=
  VOL1_16.read (Elt F) (VOL1_16.writes (Elt F) VOL1_16.junk (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- The body's stores into window 15's buffer (the new node features) at a later point tile its block, so they cover it. -/
theorem coverL1_B_15 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S1000x128.Idx) :
    ∃ pc ∈ (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1, y ∈ pc.1.set :=
  View.cover_of_tiledL (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1 S1000x128.size (by sl_kernel_rfl) y

/-- What the body leaves in window 15's staging buffer at a later point: its stores read back. -/
def outL1_B_15 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S1000x128 .f32 :=
  VOL1_15.read (Elt F) (VOL1_15.writes (Elt F) VOL1_15.junk (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1)

/-- The body's stores into window 16's buffer (the pool) at a later point tile its block, so they cover it. -/
theorem coverL1_B_16 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S512x128.Idx) :
    ∃ pc ∈ (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1, y ∈ pc.1.set :=
  View.cover_of_tiledL (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1 S512x128.size (by sl_kernel_rfl) y

/-- What the body leaves in window 16's staging buffer at a later point: its stores read back. -/
def outL1_B_16 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S512x128 .f32 :=
  VOL1_16.read (Elt F) (VOL1_16.writes (Elt F) VOL1_16.junk (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1)

/-! ## What the outputs hold after each point -/

/-- What the body leaves in window 16's staging buffer after point `n`: the pool summed over tiles `0 … n`. At the
    first point the buffer is zeroed and the tile added; at a later point the tile is added to what the point before
    left (the buffer is not written back between). -/
def poolAtL1 (V : (c : Dev nD) → (b : Ref sig .tc) → Buf (Elt F) ((c : Thread nD τ).loc b)) (c : Dev nD) : (n : ℕ) → n < cfg1.N → Vec F S512x128 .f32
  | 0, hn => outL1_A_16 c (grid1.coords ⟨0, hn⟩) (msL1_0 ⟨0, hn⟩) (hsL1_0 ⟨0, hn⟩) (msL1_1 ⟨0, hn⟩) (hsL1_1 ⟨0, hn⟩) (msL1_2 ⟨0, hn⟩) (hsL1_2 ⟨0, hn⟩) (msL1_3 ⟨0, hn⟩) (hsL1_3 ⟨0, hn⟩) (msL1_4 ⟨0, hn⟩) (hsL1_4 ⟨0, hn⟩) (msL1_5 ⟨0, hn⟩) (hsL1_5 ⟨0, hn⟩) (msL1_6 ⟨0, hn⟩) (hsL1_6 ⟨0, hn⟩) (msL1_7 ⟨0, hn⟩) (hsL1_7 ⟨0, hn⟩) (msL1_8 ⟨0, hn⟩) (hsL1_8 ⟨0, hn⟩) (msL1_9 ⟨0, hn⟩) (hsL1_9 ⟨0, hn⟩) (msL1_10 ⟨0, hn⟩) (hsL1_10 ⟨0, hn⟩) (msL1_11 ⟨0, hn⟩) (hsL1_11 ⟨0, hn⟩) (msL1_12 ⟨0, hn⟩) (hsL1_12 ⟨0, hn⟩) (msL1_13 ⟨0, hn⟩) (hsL1_13 ⟨0, hn⟩) (msL1_14 ⟨0, hn⟩) (hsL1_14 ⟨0, hn⟩) (msL1_15 ⟨0, hn⟩) (hsL1_15 ⟨0, hn⟩) (msL1_16 ⟨0, hn⟩) (hsL1_16 ⟨0, hn⟩) ((hcondL1_0 ⟨0, hn⟩).mpr (Nat.zero_mod _)) (iblkL1 V c 0 ⟨0, hn⟩) (iblkL1 V c 1 ⟨0, hn⟩) (iblkL1 V c 2 ⟨0, hn⟩) (iblkL1 V c 3 ⟨0, hn⟩) (iblkL1 V c 4 ⟨0, hn⟩) (iblkL1 V c 5 ⟨0, hn⟩) (iblkL1 V c 6 ⟨0, hn⟩) (iblkL1 V c 7 ⟨0, hn⟩) (iblkL1 V c 8 ⟨0, hn⟩) (iblkL1 V c 9 ⟨0, hn⟩) (iblkL1 V c 10 ⟨0, hn⟩) (iblkL1 V c 11 ⟨0, hn⟩) (iblkL1 V c 12 ⟨0, hn⟩) (iblkL1 V c 13 ⟨0, hn⟩) (iblkL1 V c 14 ⟨0, hn⟩)
  | n + 1, hn =>
    if h0 : (n + 1) % 50 = 0 then
      outL1_A_16 c (grid1.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) (msL1_5 ⟨n + 1, hn⟩) (hsL1_5 ⟨n + 1, hn⟩) (msL1_6 ⟨n + 1, hn⟩) (hsL1_6 ⟨n + 1, hn⟩) (msL1_7 ⟨n + 1, hn⟩) (hsL1_7 ⟨n + 1, hn⟩) (msL1_8 ⟨n + 1, hn⟩) (hsL1_8 ⟨n + 1, hn⟩) (msL1_9 ⟨n + 1, hn⟩) (hsL1_9 ⟨n + 1, hn⟩) (msL1_10 ⟨n + 1, hn⟩) (hsL1_10 ⟨n + 1, hn⟩) (msL1_11 ⟨n + 1, hn⟩) (hsL1_11 ⟨n + 1, hn⟩) (msL1_12 ⟨n + 1, hn⟩) (hsL1_12 ⟨n + 1, hn⟩) (msL1_13 ⟨n + 1, hn⟩) (hsL1_13 ⟨n + 1, hn⟩) (msL1_14 ⟨n + 1, hn⟩) (hsL1_14 ⟨n + 1, hn⟩) (msL1_15 ⟨n + 1, hn⟩) (hsL1_15 ⟨n + 1, hn⟩) (msL1_16 ⟨n + 1, hn⟩) (hsL1_16 ⟨n + 1, hn⟩) ((hcondL1_0 ⟨n + 1, hn⟩).mpr h0) (iblkL1 V c 0 ⟨n + 1, hn⟩) (iblkL1 V c 1 ⟨n + 1, hn⟩) (iblkL1 V c 2 ⟨n + 1, hn⟩) (iblkL1 V c 3 ⟨n + 1, hn⟩) (iblkL1 V c 4 ⟨n + 1, hn⟩) (iblkL1 V c 5 ⟨n + 1, hn⟩) (iblkL1 V c 6 ⟨n + 1, hn⟩) (iblkL1 V c 7 ⟨n + 1, hn⟩) (iblkL1 V c 8 ⟨n + 1, hn⟩) (iblkL1 V c 9 ⟨n + 1, hn⟩) (iblkL1 V c 10 ⟨n + 1, hn⟩) (iblkL1 V c 11 ⟨n + 1, hn⟩) (iblkL1 V c 12 ⟨n + 1, hn⟩) (iblkL1 V c 13 ⟨n + 1, hn⟩) (iblkL1 V c 14 ⟨n + 1, hn⟩)
    else
      outL1_B_16 c (grid1.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) (msL1_5 ⟨n + 1, hn⟩) (hsL1_5 ⟨n + 1, hn⟩) (msL1_6 ⟨n + 1, hn⟩) (hsL1_6 ⟨n + 1, hn⟩) (msL1_7 ⟨n + 1, hn⟩) (hsL1_7 ⟨n + 1, hn⟩) (msL1_8 ⟨n + 1, hn⟩) (hsL1_8 ⟨n + 1, hn⟩) (msL1_9 ⟨n + 1, hn⟩) (hsL1_9 ⟨n + 1, hn⟩) (msL1_10 ⟨n + 1, hn⟩) (hsL1_10 ⟨n + 1, hn⟩) (msL1_11 ⟨n + 1, hn⟩) (hsL1_11 ⟨n + 1, hn⟩) (msL1_12 ⟨n + 1, hn⟩) (hsL1_12 ⟨n + 1, hn⟩) (msL1_13 ⟨n + 1, hn⟩) (hsL1_13 ⟨n + 1, hn⟩) (msL1_14 ⟨n + 1, hn⟩) (hsL1_14 ⟨n + 1, hn⟩) (msL1_15 ⟨n + 1, hn⟩) (hsL1_15 ⟨n + 1, hn⟩) (msL1_16 ⟨n + 1, hn⟩) (hsL1_16 ⟨n + 1, hn⟩) (fun h => h0 ((hcondL1_0 ⟨n + 1, hn⟩).mp h)) (iblkL1 V c 0 ⟨n + 1, hn⟩) (iblkL1 V c 1 ⟨n + 1, hn⟩) (iblkL1 V c 2 ⟨n + 1, hn⟩) (iblkL1 V c 3 ⟨n + 1, hn⟩) (iblkL1 V c 4 ⟨n + 1, hn⟩) (iblkL1 V c 5 ⟨n + 1, hn⟩) (iblkL1 V c 6 ⟨n + 1, hn⟩) (iblkL1 V c 7 ⟨n + 1, hn⟩) (iblkL1 V c 8 ⟨n + 1, hn⟩) (iblkL1 V c 9 ⟨n + 1, hn⟩) (iblkL1 V c 10 ⟨n + 1, hn⟩) (iblkL1 V c 11 ⟨n + 1, hn⟩) (iblkL1 V c 12 ⟨n + 1, hn⟩) (iblkL1 V c 13 ⟨n + 1, hn⟩) (iblkL1 V c 14 ⟨n + 1, hn⟩) (poolAtL1 V c n (Nat.lt_of_succ_lt hn))

/-- The pool's buffer at the first point. -/
theorem poolAtL1_A (V : (c : Dev nD) → (b : Ref sig .tc) → Buf (Elt F) ((c : Thread nD τ).loc b)) (c : Dev nD) (t : Fin cfg1.N) (h0 : t.val % 50 = 0) :
    poolAtL1 V c t.val t.isLt = outL1_A_16 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) ((hcondL1_0 t).mpr h0) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) := by
  obtain ⟨n, hn⟩ := t
  cases n with
  | zero => exact rfl
  | succ n => exact (dif_pos h0).trans rfl

/-- The pool's buffer at a later point, over what the point before left. -/
theorem poolAtL1_B (V : (c : Dev nD) → (b : Ref sig .tc) → Buf (Elt F) ((c : Thread nD τ).loc b)) (c : Dev nD) (t : Fin cfg1.N) (h0 : ¬t.val % 50 = 0) :
    poolAtL1 V c t.val t.isLt = outL1_B_16 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) (fun h => h0 ((hcondL1_0 t).mp h)) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) (poolAtL1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the body leaves in window 15's staging buffer at point `t`: the tile's new node features. -/
def hOutL1 (V : (c : Dev nD) → (b : Ref sig .tc) → Buf (Elt F) ((c : Thread nD τ).loc b)) (c : Dev nD) (t : Fin cfg1.N) : Vec F S1000x128 .f32 :=
  if h0 : t.val % 50 = 0 then
    outL1_A_15 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) ((hcondL1_0 t).mpr h0) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t)
  else
    outL1_B_15 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) (fun h => h0 ((hcondL1_0 t).mp h)) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) (poolAtL1 V c (t.val - 1) (Nat.lt_of_le_of_lt (Nat.sub_le _ _) t.isLt))

theorem hOutL1_A (V : (c : Dev nD) → (b : Ref sig .tc) → Buf (Elt F) ((c : Thread nD τ).loc b)) (c : Dev nD) (t : Fin cfg1.N) (h0 : t.val % 50 = 0) :
    hOutL1 V c t = outL1_A_15 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) ((hcondL1_0 t).mpr h0) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) := dif_pos h0

theorem hOutL1_B (V : (c : Dev nD) → (b : Ref sig .tc) → Buf (Elt F) ((c : Thread nD τ).loc b)) (c : Dev nD) (t : Fin cfg1.N) (h0 : ¬t.val % 50 = 0) :
    hOutL1 V c t = outL1_B_15 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) (fun h => h0 ((hcondL1_0 t).mp h)) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) (poolAtL1 V c (t.val - 1) (Nat.lt_of_le_of_lt (Nat.sub_le _ _) t.isLt)) := dif_neg h0

/-! ## The pipeline's proof data -/

/-- The proof data of this region's pipeline on core `c`. -/
def datL1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblkL1 V c 0 t
    | ⟨1, _⟩ => iblkL1 V c 1 t
    | ⟨2, _⟩ => iblkL1 V c 2 t
    | ⟨3, _⟩ => iblkL1 V c 3 t
    | ⟨4, _⟩ => iblkL1 V c 4 t
    | ⟨5, _⟩ => iblkL1 V c 5 t
    | ⟨6, _⟩ => iblkL1 V c 6 t
    | ⟨7, _⟩ => iblkL1 V c 7 t
    | ⟨8, _⟩ => iblkL1 V c 8 t
    | ⟨9, _⟩ => iblkL1 V c 9 t
    | ⟨10, _⟩ => iblkL1 V c 10 t
    | ⟨11, _⟩ => iblkL1 V c 11 t
    | ⟨12, _⟩ => iblkL1 V c 12 t
    | ⟨13, _⟩ => iblkL1 V c 13 t
    | ⟨14, _⟩ => iblkL1 V c 14 t
    | ⟨15, _⟩ => hOutL1 V c t
    | ⟨16, _⟩ => poolAtL1 V c t.val t.isLt
    | ⟨_ + 17, h⟩ => absurd h (Nat.not_lt.2 (Nat.le_add_left _ _))
  Φ _ := Pipeline.ΦA spec1 c
  q _ := fullShare
  owed _ := 0

/-- The proof data's arrays are the region-entry contents. -/
theorem A_eqL1 (V : (c : Dev nD) → (b : Ref sig .tc) → Buf (Elt F) ((c : Thread nD τ).loc b)) (c : Dev nD) (w : Fin cfg1.W) : (datL1 V c).A w = V c (Pipeline.arrRef spec1 w) := by
  dsimp only [datL1]

/-- What the body leaves, window by window. -/
theorem after0_L1 (V : (c : Dev nD) → (b : Ref sig .tc) → Buf (Elt F) ((c : Thread nD τ).loc b)) (c : Dev nD) (t : Fin cfg1.N) : (datL1 V c).after 0 t = iblkL1 V c 0 t := by dsimp only [datL1]
theorem after1_L1 (V : (c : Dev nD) → (b : Ref sig .tc) → Buf (Elt F) ((c : Thread nD τ).loc b)) (c : Dev nD) (t : Fin cfg1.N) : (datL1 V c).after 1 t = iblkL1 V c 1 t := by dsimp only [datL1]
theorem after2_L1 (V : (c : Dev nD) → (b : Ref sig .tc) → Buf (Elt F) ((c : Thread nD τ).loc b)) (c : Dev nD) (t : Fin cfg1.N) : (datL1 V c).after 2 t = iblkL1 V c 2 t := by dsimp only [datL1]
theorem after3_L1 (V : (c : Dev nD) → (b : Ref sig .tc) → Buf (Elt F) ((c : Thread nD τ).loc b)) (c : Dev nD) (t : Fin cfg1.N) : (datL1 V c).after 3 t = iblkL1 V c 3 t := by dsimp only [datL1]
theorem after4_L1 (V : (c : Dev nD) → (b : Ref sig .tc) → Buf (Elt F) ((c : Thread nD τ).loc b)) (c : Dev nD) (t : Fin cfg1.N) : (datL1 V c).after 4 t = iblkL1 V c 4 t := by dsimp only [datL1]
theorem after5_L1 (V : (c : Dev nD) → (b : Ref sig .tc) → Buf (Elt F) ((c : Thread nD τ).loc b)) (c : Dev nD) (t : Fin cfg1.N) : (datL1 V c).after 5 t = iblkL1 V c 5 t := by dsimp only [datL1]
theorem after6_L1 (V : (c : Dev nD) → (b : Ref sig .tc) → Buf (Elt F) ((c : Thread nD τ).loc b)) (c : Dev nD) (t : Fin cfg1.N) : (datL1 V c).after 6 t = iblkL1 V c 6 t := by dsimp only [datL1]
theorem after7_L1 (V : (c : Dev nD) → (b : Ref sig .tc) → Buf (Elt F) ((c : Thread nD τ).loc b)) (c : Dev nD) (t : Fin cfg1.N) : (datL1 V c).after 7 t = iblkL1 V c 7 t := by dsimp only [datL1]
theorem after8_L1 (V : (c : Dev nD) → (b : Ref sig .tc) → Buf (Elt F) ((c : Thread nD τ).loc b)) (c : Dev nD) (t : Fin cfg1.N) : (datL1 V c).after 8 t = iblkL1 V c 8 t := by dsimp only [datL1]
theorem after9_L1 (V : (c : Dev nD) → (b : Ref sig .tc) → Buf (Elt F) ((c : Thread nD τ).loc b)) (c : Dev nD) (t : Fin cfg1.N) : (datL1 V c).after 9 t = iblkL1 V c 9 t := by dsimp only [datL1]
theorem after10_L1 (V : (c : Dev nD) → (b : Ref sig .tc) → Buf (Elt F) ((c : Thread nD τ).loc b)) (c : Dev nD) (t : Fin cfg1.N) : (datL1 V c).after 10 t = iblkL1 V c 10 t := by dsimp only [datL1]
theorem after11_L1 (V : (c : Dev nD) → (b : Ref sig .tc) → Buf (Elt F) ((c : Thread nD τ).loc b)) (c : Dev nD) (t : Fin cfg1.N) : (datL1 V c).after 11 t = iblkL1 V c 11 t := by dsimp only [datL1]
theorem after12_L1 (V : (c : Dev nD) → (b : Ref sig .tc) → Buf (Elt F) ((c : Thread nD τ).loc b)) (c : Dev nD) (t : Fin cfg1.N) : (datL1 V c).after 12 t = iblkL1 V c 12 t := by dsimp only [datL1]
theorem after13_L1 (V : (c : Dev nD) → (b : Ref sig .tc) → Buf (Elt F) ((c : Thread nD τ).loc b)) (c : Dev nD) (t : Fin cfg1.N) : (datL1 V c).after 13 t = iblkL1 V c 13 t := by dsimp only [datL1]
theorem after14_L1 (V : (c : Dev nD) → (b : Ref sig .tc) → Buf (Elt F) ((c : Thread nD τ).loc b)) (c : Dev nD) (t : Fin cfg1.N) : (datL1 V c).after 14 t = iblkL1 V c 14 t := by dsimp only [datL1]
theorem after15_L1 (V : (c : Dev nD) → (b : Ref sig .tc) → Buf (Elt F) ((c : Thread nD τ).loc b)) (c : Dev nD) (t : Fin cfg1.N) : (datL1 V c).after 15 t = hOutL1 V c t := by dsimp only [datL1]
theorem after16_L1 (V : (c : Dev nD) → (b : Ref sig .tc) → Buf (Elt F) ((c : Thread nD τ).loc b)) (c : Dev nD) (t : Fin cfg1.N) : (datL1 V c).after 16 t = poolAtL1 V c t.val t.isLt := by dsimp only [datL1]

/-- Each input's current staging buffer holds its block at every point, fetched there or not. -/
theorem beforeL1_0 (V : (c : Dev nD) → (b : Ref sig .tc) → Buf (Elt F) ((c : Thread nD τ).loc b)) (c : Dev nD) (t : Fin cfg1.N) (d) : (datL1 V c).before 0 t d = iblkL1 V c 0 t :=
  beforeL1_0_of V (datL1 V c) (A_eqL1 V c 0) (after0_L1 V c) t d
theorem beforeL1_1 (V : (c : Dev nD) → (b : Ref sig .tc) → Buf (Elt F) ((c : Thread nD τ).loc b)) (c : Dev nD) (t : Fin cfg1.N) (d) : (datL1 V c).before 1 t d = iblkL1 V c 1 t :=
  beforeL1_1_of V (datL1 V c) (A_eqL1 V c 1) (after1_L1 V c) t d
theorem beforeL1_2 (V : (c : Dev nD) → (b : Ref sig .tc) → Buf (Elt F) ((c : Thread nD τ).loc b)) (c : Dev nD) (t : Fin cfg1.N) (d) : (datL1 V c).before 2 t d = iblkL1 V c 2 t :=
  beforeL1_2_of V (datL1 V c) (A_eqL1 V c 2) (after2_L1 V c) t d
theorem beforeL1_3 (V : (c : Dev nD) → (b : Ref sig .tc) → Buf (Elt F) ((c : Thread nD τ).loc b)) (c : Dev nD) (t : Fin cfg1.N) (d) : (datL1 V c).before 3 t d = iblkL1 V c 3 t :=
  beforeL1_3_of V (datL1 V c) (A_eqL1 V c 3) (after3_L1 V c) t d
theorem beforeL1_4 (V : (c : Dev nD) → (b : Ref sig .tc) → Buf (Elt F) ((c : Thread nD τ).loc b)) (c : Dev nD) (t : Fin cfg1.N) (d) : (datL1 V c).before 4 t d = iblkL1 V c 4 t :=
  beforeL1_4_of V (datL1 V c) (A_eqL1 V c 4) (after4_L1 V c) t d
theorem beforeL1_5 (V : (c : Dev nD) → (b : Ref sig .tc) → Buf (Elt F) ((c : Thread nD τ).loc b)) (c : Dev nD) (t : Fin cfg1.N) (d) : (datL1 V c).before 5 t d = iblkL1 V c 5 t :=
  beforeL1_5_of V (datL1 V c) (A_eqL1 V c 5) (after5_L1 V c) t d
theorem beforeL1_6 (V : (c : Dev nD) → (b : Ref sig .tc) → Buf (Elt F) ((c : Thread nD τ).loc b)) (c : Dev nD) (t : Fin cfg1.N) (d) : (datL1 V c).before 6 t d = iblkL1 V c 6 t :=
  beforeL1_6_of V (datL1 V c) (A_eqL1 V c 6) (after6_L1 V c) t d
theorem beforeL1_7 (V : (c : Dev nD) → (b : Ref sig .tc) → Buf (Elt F) ((c : Thread nD τ).loc b)) (c : Dev nD) (t : Fin cfg1.N) (d) : (datL1 V c).before 7 t d = iblkL1 V c 7 t :=
  beforeL1_7_of V (datL1 V c) (A_eqL1 V c 7) (after7_L1 V c) t d
theorem beforeL1_8 (V : (c : Dev nD) → (b : Ref sig .tc) → Buf (Elt F) ((c : Thread nD τ).loc b)) (c : Dev nD) (t : Fin cfg1.N) (d) : (datL1 V c).before 8 t d = iblkL1 V c 8 t :=
  beforeL1_8_of V (datL1 V c) (A_eqL1 V c 8) (after8_L1 V c) t d
theorem beforeL1_9 (V : (c : Dev nD) → (b : Ref sig .tc) → Buf (Elt F) ((c : Thread nD τ).loc b)) (c : Dev nD) (t : Fin cfg1.N) (d) : (datL1 V c).before 9 t d = iblkL1 V c 9 t :=
  beforeL1_9_of V (datL1 V c) (A_eqL1 V c 9) (after9_L1 V c) t d
theorem beforeL1_10 (V : (c : Dev nD) → (b : Ref sig .tc) → Buf (Elt F) ((c : Thread nD τ).loc b)) (c : Dev nD) (t : Fin cfg1.N) (d) : (datL1 V c).before 10 t d = iblkL1 V c 10 t :=
  beforeL1_10_of V (datL1 V c) (A_eqL1 V c 10) (after10_L1 V c) t d
theorem beforeL1_11 (V : (c : Dev nD) → (b : Ref sig .tc) → Buf (Elt F) ((c : Thread nD τ).loc b)) (c : Dev nD) (t : Fin cfg1.N) (d) : (datL1 V c).before 11 t d = iblkL1 V c 11 t :=
  beforeL1_11_of V (datL1 V c) (A_eqL1 V c 11) (after11_L1 V c) t d
theorem beforeL1_12 (V : (c : Dev nD) → (b : Ref sig .tc) → Buf (Elt F) ((c : Thread nD τ).loc b)) (c : Dev nD) (t : Fin cfg1.N) (d) : (datL1 V c).before 12 t d = iblkL1 V c 12 t :=
  beforeL1_12_of V (datL1 V c) (A_eqL1 V c 12) (after12_L1 V c) t d
theorem beforeL1_13 (V : (c : Dev nD) → (b : Ref sig .tc) → Buf (Elt F) ((c : Thread nD τ).loc b)) (c : Dev nD) (t : Fin cfg1.N) (d) : (datL1 V c).before 13 t d = iblkL1 V c 13 t :=
  beforeL1_13_of V (datL1 V c) (A_eqL1 V c 13) (after13_L1 V c) t d
theorem beforeL1_14 (V : (c : Dev nD) → (b : Ref sig .tc) → Buf (Elt F) ((c : Thread nD τ).loc b)) (c : Dev nD) (t : Fin cfg1.N) (d) : (datL1 V c).before 14 t d = iblkL1 V c 14 t :=
  beforeL1_14_of V (datL1 V c) (A_eqL1 V c 14) (after14_L1 V c) t d

/-- At a later point the pool's current staging buffer holds what the body left at the point before: the window's block
    index is constant and the buffer is written back at the last point only. -/
theorem beforeL1_16_B (V : (c : Dev nD) → (b : Ref sig .tc) → Buf (Elt F) ((c : Thread nD τ).loc b)) (c : Dev nD) (t : Fin cfg1.N) (h0 : ¬t.val % 50 = 0) (d) :
    (datL1 V c).before 16 t d = poolAtL1 V c (t.val - 1) (Nat.lt_of_le_of_lt (Nat.sub_le _ _) t.isLt) := by
  have hN : t.val < 50 := lt_of_lt_of_eq t.isLt (show cfg1.N = 50 from N_1)
  rw [Dat.before_out_kept _ 16 rfl t (by omega) (Bool.eq_false_iff.mpr fun h => by have := (flush1_16 _).mp h; dsimp only at this; omega)
    (fun _ => rfl) (fun _ _ => rfl)]
  dsimp only [datL1]

/-! ## The body obligation, at a generic point -/

/-- What the body is called with at point `t`, the windows one by one, -/
def bodyPreL1 (V : (c : Dev nD) → (b : Ref sig .tc) → Buf (Elt F) ((c : Thread nD τ).loc b)) (c : Dev nD) (t : Fin cfg1.N) : sProp 𝕄 :=
  iprop((datL1 V c).Φ t.castSucc ∗ (datL1 V c).owesAt () t.castSucc
    ∗ (∃ d, owns (c : Thread nD τ) (msL1_0 t) fullShare ((datL1 V c).before 0 t d))
    ∗ (∃ d, owns (c : Thread nD τ) (msL1_1 t) fullShare ((datL1 V c).before 1 t d))
    ∗ (∃ d, owns (c : Thread nD τ) (msL1_2 t) fullShare ((datL1 V c).before 2 t d))
    ∗ (∃ d, owns (c : Thread nD τ) (msL1_3 t) fullShare ((datL1 V c).before 3 t d))
    ∗ (∃ d, owns (c : Thread nD τ) (msL1_4 t) fullShare ((datL1 V c).before 4 t d))
    ∗ (∃ d, owns (c : Thread nD τ) (msL1_5 t) fullShare ((datL1 V c).before 5 t d))
    ∗ (∃ d, owns (c : Thread nD τ) (msL1_6 t) fullShare ((datL1 V c).before 6 t d))
    ∗ (∃ d, owns (c : Thread nD τ) (msL1_7 t) fullShare ((datL1 V c).before 7 t d))
    ∗ (∃ d, owns (c : Thread nD τ) (msL1_8 t) fullShare ((datL1 V c).before 8 t d))
    ∗ (∃ d, owns (c : Thread nD τ) (msL1_9 t) fullShare ((datL1 V c).before 9 t d))
    ∗ (∃ d, owns (c : Thread nD τ) (msL1_10 t) fullShare ((datL1 V c).before 10 t d))
    ∗ (∃ d, owns (c : Thread nD τ) (msL1_11 t) fullShare ((datL1 V c).before 11 t d))
    ∗ (∃ d, owns (c : Thread nD τ) (msL1_12 t) fullShare ((datL1 V c).before 12 t d))
    ∗ (∃ d, owns (c : Thread nD τ) (msL1_13 t) fullShare ((datL1 V c).before 13 t d))
    ∗ (∃ d, owns (c : Thread nD τ) (msL1_14 t) fullShare ((datL1 V c).before 14 t d))
    ∗ (∃ d, owns (c : Thread nD τ) (msL1_15 t) fullShare ((datL1 V c).before 15 t d))
    ∗ (∃ d, owns (c : Thread nD τ) (msL1_16 t) fullShare ((datL1 V c).before 16 t d)))

/-- and what it returns. -/
def bodyPostL1 (V : (c : Dev nD) → (b : Ref sig .tc) → Buf (Elt F) ((c : Thread nD τ).loc b)) (c : Dev nD) (t : Fin cfg1.N) : sProp 𝕄 :=
  iprop((datL1 V c).Φ t.succ ∗ (datL1 V c).owesAt () t.succ
    ∗ owns (c : Thread nD τ) (msL1_0 t) fullShare ((datL1 V c).after 0 t)
    ∗ owns (c : Thread nD τ) (msL1_1 t) fullShare ((datL1 V c).after 1 t)
    ∗ owns (c : Thread nD τ) (msL1_2 t) fullShare ((datL1 V c).after 2 t)
    ∗ owns (c : Thread nD τ) (msL1_3 t) fullShare ((datL1 V c).after 3 t)
    ∗ owns (c : Thread nD τ) (msL1_4 t) fullShare ((datL1 V c).after 4 t)
    ∗ owns (c : Thread nD τ) (msL1_5 t) fullShare ((datL1 V c).after 5 t)
    ∗ owns (c : Thread nD τ) (msL1_6 t) fullShare ((datL1 V c).after 6 t)
    ∗ owns (c : Thread nD τ) (msL1_7 t) fullShare ((datL1 V c).after 7 t)
    ∗ owns (c : Thread nD τ) (msL1_8 t) fullShare ((datL1 V c).after 8 t)
    ∗ owns (c : Thread nD τ) (msL1_9 t) fullShare ((datL1 V c).after 9 t)
    ∗ owns (c : Thread nD τ) (msL1_10 t) fullShare ((datL1 V c).after 10 t)
    ∗ owns (c : Thread nD τ) (msL1_11 t) fullShare ((datL1 V c).after 11 t)
    ∗ owns (c : Thread nD τ) (msL1_12 t) fullShare ((datL1 V c).after 12 t)
    ∗ owns (c : Thread nD τ) (msL1_13 t) fullShare ((datL1 V c).after 13 t)
    ∗ owns (c : Thread nD τ) (msL1_14 t) fullShare ((datL1 V c).after 14 t)
    ∗ owns (c : Thread nD τ) (msL1_15 t) fullShare ((datL1 V c).after 15 t)
    ∗ owns (c : Thread nD τ) (msL1_16 t) fullShare ((datL1 V c).after 16 t))

set_option maxHeartbeats 4000000 in
/-- The body at any point: the inputs' memrefs hold their blocks; the point is the first or a later one, and at a later
    one the pool's buffer holds what the point before left; so the body's run applies; the invariant passes through
    unread; the core owes nothing throughout. -/
theorem sound_bodyL1 (V : (c : Dev nD) → (b : Ref sig .tc) → Buf (Elt F) ((c : Thread nD τ).loc b)) (c : Dev nD) (t : Fin cfg1.N) :
    bodyPreL1 V c t ⊢ wp frame (wpE (defs₀ (F := F)) Variants.none c none) Set.univ (bodyAt1 t) (fun _ => bodyPostL1 V c t) := by
  unfold bodyPreL1 bodyPostL1 bodyAt1
  simp only [beforeL1_0, beforeL1_1, beforeL1_2, beforeL1_3, beforeL1_4, beforeL1_5, beforeL1_6, beforeL1_7, beforeL1_8, beforeL1_9, beforeL1_10, beforeL1_11, beforeL1_12, beforeL1_13, beforeL1_14]
  rw [show (datL1 V c).Φ t.succ = (datL1 V c).Φ t.castSucc from rfl,
    show (datL1 V c).owesAt () t.succ = (datL1 V c).owesAt () t.castSucc from rfl,
    after0_L1, after1_L1, after2_L1, after3_L1, after4_L1, after5_L1, after6_L1, after7_L1, after8_L1, after9_L1, after10_L1, after11_L1, after12_L1, after13_L1, after14_L1, after15_L1, after16_L1]
  have hN : t.val < 50 := lt_of_lt_of_eq t.isLt (show cfg1.N = 50 from N_1)
  by_cases h0 : t.val % 50 = 0
  · rw [hOutL1_A V c t h0, poolAtL1_A V c t h0]
    unfold outL1_A_15 outL1_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL1_A c (grid1.coords t) _ _ _ _ _ _ _ _ _ _ _ _ _ _ _ _ _ _ _ _ _ _ _ _ _ _ _ _ _ _ _ _ _ _ ((hcondL1_0 t).mpr h0) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL1_A_15 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL1_A_16 c _ _ _ _ _ _ _ _ _ _ _ _ _ _ _ _ _ _ _ _ _ _ _ _ _ _ _ _ _ _ _ _ _ _ _ _ _ _ _ _ _ _ _ _ _ _ _ _ _ _ _)
  · rw [hOutL1_B V c t h0, poolAtL1_B V c t h0]
    simp only [beforeL1_16_B V c t h0]
    unfold outL1_B_15 outL1_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL1_B c (grid1.coords t) _ _ _ _ _ _ _ _ _ _ _ _ _ _ _ _ _ _ _ _ _ _ _ _ _ _ _ _ _ _ _ _ _ _ (fun h => h0 ((hcondL1_0 t).mp h)) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL1_B_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL1_B_16 c _ _ _ _ _ _ _ _ _ _ _ _ _ _ _ _ _ _ _ _ _ _ _ _ _ _ _ _ _ _ _ _ _ _ _ _ _ _ _ _ _ _ _ _ _ _ _ _ _ _ _ _)

/-- The body meets the pipeline's obligation at every point. -/
theorem body_obligationL1 (V : (c : Dev nD) → (b : Ref sig .tc) → Buf (Elt F) ((c : Thread nD τ).loc b)) (c : Dev nD) : BodyObligation (datL1 (F := F) V c) (defs₀ (F := F)) Variants.none () Set.univ := fun t => by
  rw [bigSep_W1, bigSep_W1]
  exact sound_bodyL1 V c t

end Cert.Kernel.Hand

end
-- ==== Proof.K.L2Runs.lean ====
/-
  Layer region 2, what the runs of its body share: each window's block as the region finds its array, that an
  input window's staging buffer holds its block at every point (fetched there or kept from the point before), the
  body's branch on the grid coordinate in closed form, and the staging memrefs the body is called with.
  `V` is the TensorCore's buffer contents when the region is entered.
-/
import proofs.«426741_j36421322670671_1_alg».proof.Proof.Gen.Kernel.Launch
import proofs.«426741_j36421322670671_1_alg».proof.Proof.Gen.Kernel.Skeleton
import proofs.«426741_j36421322670671_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it. -/
def iblkL2 (V : (c : Dev nD) → (b : Ref sig .tc) → Buf (Elt F) ((c : Thread nD τ).loc b)) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input window's staging buffer holds its block at every point -/

/-- Input window 0: for any proof data whose array is the region-entry contents and whose body leaves the block in
    place, the current staging buffer holds the block at every point, fetched there or not. -/
theorem beforeL2_0_of (V : (c : Dev nD) → (b : Ref sig .tc) → Buf (Elt F) ((c : Thread nD τ).loc b)) {c : Dev nD} (dat : Dat τ (Elt F) Unit ℕ (UR sig nD τ) ℕ cfg2 c) (hA : dat.A 0 = V c (Pipeline.arrRef spec2 0))
    (hafter : ∀ t, dat.after 0 t = iblkL2 V c 0 t) (t : Fin cfg2.N) (d) : dat.before 0 t d = iblkL2 V c 0 t :=
  (dat.before_in_eq_fetched 0 rfl (fun _ => rfl) (fun _ _ _ => rfl) (fun t => by rw [hafter]; unfold Dat.blockOf iblkL2; rw [hA]; try rfl) t d).trans
    (by unfold Dat.fetched Dat.blockOf iblkL2; rw [hA]; try rfl)

/-- Input window 1: for any proof data whose array is the region-entry contents and whose body leaves the block in
    place, the current staging buffer holds the block at every point, fetched there or not. -/
theorem beforeL2_1_of (V : (c : Dev nD) → (b : Ref sig .tc) → Buf (Elt F) ((c : Thread nD τ).loc b)) {c : Dev nD} (dat : Dat τ (Elt F) Unit ℕ (UR sig nD τ) ℕ cfg2 c) (hA : dat.A 1 = V c (Pipeline.arrRef spec2 1))
    (hafter : ∀ t, dat.after 1 t = iblkL2 V c 1 t) (t : Fin cfg2.N) (d) : dat.before 1 t d = iblkL2 V c 1 t :=
  (dat.before_in_eq_fetched 1 rfl (fun _ => rfl) (fun _ _ _ => rfl) (fun t => by rw [hafter]; unfold Dat.blockOf iblkL2; rw [hA]; try rfl) t d).trans
    (by unfold Dat.fetched Dat.blockOf iblkL2; rw [hA]; try rfl)

/-- Input window 2: for any proof data whose array is the region-entry contents and whose body leaves the block in
    place, the current staging buffer holds the block at every point, fetched there or not. -/
theorem beforeL2_2_of (V : (c : Dev nD) → (b : Ref sig .tc) → Buf (Elt F) ((c : Thread nD τ).loc b)) {c : Dev nD} (dat : Dat τ (Elt F) Unit ℕ (UR sig nD τ) ℕ cfg2 c) (hA : dat.A 2 = V c (Pipeline.arrRef spec2 2))
    (hafter : ∀ t, dat.after 2 t = iblkL2 V c 2 t) (t : Fin cfg2.N) (d) : dat.before 2 t d = iblkL2 V c 2 t :=
  (dat.before_in_eq_fetched 2 rfl (fun _ => rfl) (fun _ _ _ => rfl) (fun t => by rw [hafter]; unfold Dat.blockOf iblkL2; rw [hA]; try rfl) t d).trans
    (by unfold Dat.fetched Dat.blockOf iblkL2; rw [hA]; try rfl)

/-- Input window 3: for any proof data whose array is the region-entry contents and whose body leaves the block in
    place, the current staging buffer holds the block at every point, fetched there or not. -/
theorem beforeL2_3_of (V : (c : Dev nD) → (b : Ref sig .tc) → Buf (Elt F) ((c : Thread nD τ).loc b)) {c : Dev nD} (dat : Dat τ (Elt F) Unit ℕ (UR sig nD τ) ℕ cfg2 c) (hA : dat.A 3 = V c (Pipeline.arrRef spec2 3))
    (hafter : ∀ t, dat.after 3 t = iblkL2 V c 3 t) (t : Fin cfg2.N) (d) : dat.before 3 t d = iblkL2 V c 3 t :=
  (dat.before_in_eq_fetched 3 rfl (fun _ => rfl) (fun _ _ _ => rfl) (fun t => by rw [hafter]; unfold Dat.blockOf iblkL2; rw [hA]; try rfl) t d).trans
    (by unfold Dat.fetched Dat.blockOf iblkL2; rw [hA]; try rfl)

/-- Input window 4: for any proof data whose array is the region-entry contents and whose body leaves the block in
    place, the current staging buffer holds the block at every point, fetched there or not. -/
theorem beforeL2_4_of (V : (c : Dev nD) → (b : Ref sig .tc) → Buf (Elt F) ((c : Thread nD τ).loc b)) {c : Dev nD} (dat : Dat τ (Elt F) Unit ℕ (UR sig nD τ) ℕ cfg2 c) (hA : dat.A 4 = V c (Pipeline.arrRef spec2 4))
    (hafter : ∀ t, dat.after 4 t = iblkL2 V c 4 t) (t : Fin cfg2.N) (d) : dat.before 4 t d = iblkL2 V c 4 t :=
  (dat.before_in_eq_fetched 4 rfl (fun _ => rfl) (fun _ _ _ => rfl) (fun t => by rw [hafter]; unfold Dat.blockOf iblkL2; rw [hA]; try rfl) t d).trans
    (by unfold Dat.fetched Dat.blockOf iblkL2; rw [hA]; try rfl)

/-- Input window 5: for any proof data whose array is the region-entry contents and whose body leaves the block in
    place, the current staging buffer holds the block at every point, fetched there or not. -/
theorem beforeL2_5_of (V : (c : Dev nD) → (b : Ref sig .tc) → Buf (Elt F) ((c : Thread nD τ).loc b)) {c : Dev nD} (dat : Dat τ (Elt F) Unit ℕ (UR sig nD τ) ℕ cfg2 c) (hA : dat.A 5 = V c (Pipeline.arrRef spec2 5))
    (hafter : ∀ t, dat.after 5 t = iblkL2 V c 5 t) (t : Fin cfg2.N) (d) : dat.before 5 t d = iblkL2 V c 5 t :=
  (dat.before_in_eq_fetched 5 rfl (fun _ => rfl) (fun _ _ _ => rfl) (fun t => by rw [hafter]; unfold Dat.blockOf iblkL2; rw [hA]; try rfl) t d).trans
    (by unfold Dat.fetched Dat.blockOf iblkL2; rw [hA]; try rfl)

/-- Input window 6: for any proof data whose array is the region-entry contents and whose body leaves the block in
    place, the current staging buffer holds the block at every point, fetched there or not. -/
theorem beforeL2_6_of (V : (c : Dev nD) → (b : Ref sig .tc) → Buf (Elt F) ((c : Thread nD τ).loc b)) {c : Dev nD} (dat : Dat τ (Elt F) Unit ℕ (UR sig nD τ) ℕ cfg2 c) (hA : dat.A 6 = V c (Pipeline.arrRef spec2 6))
    (hafter : ∀ t, dat.after 6 t = iblkL2 V c 6 t) (t : Fin cfg2.N) (d) : dat.before 6 t d = iblkL2 V c 6 t :=
  (dat.before_in_eq_fetched 6 rfl (fun _ => rfl) (fun _ _ _ => rfl) (fun t => by rw [hafter]; unfold Dat.blockOf iblkL2; rw [hA]; try rfl) t d).trans
    (by unfold Dat.fetched Dat.blockOf iblkL2; rw [hA]; try rfl)

/-- Input window 7: for any proof data whose array is the region-entry contents and whose body leaves the block in
    place, the current staging buffer holds the block at every point, fetched there or not. -/
theorem beforeL2_7_of (V : (c : Dev nD) → (b : Ref sig .tc) → Buf (Elt F) ((c : Thread nD τ).loc b)) {c : Dev nD} (dat : Dat τ (Elt F) Unit ℕ (UR sig nD τ) ℕ cfg2 c) (hA : dat.A 7 = V c (Pipeline.arrRef spec2 7))
    (hafter : ∀ t, dat.after 7 t = iblkL2 V c 7 t) (t : Fin cfg2.N) (d) : dat.before 7 t d = iblkL2 V c 7 t :=
  (dat.before_in_eq_fetched 7 rfl (fun _ => rfl) (fun _ _ _ => rfl) (fun t => by rw [hafter]; unfold Dat.blockOf iblkL2; rw [hA]; try rfl) t d).trans
    (by unfold Dat.fetched Dat.blockOf iblkL2; rw [hA]; try rfl)

/-- Input window 8: for any proof data whose array is the region-entry contents and whose body leaves the block in
    place, the current staging buffer holds the block at every point, fetched there or not. -/
theorem beforeL2_8_of (V : (c : Dev nD) → (b : Ref sig .tc) → Buf (Elt F) ((c : Thread nD τ).loc b)) {c : Dev nD} (dat : Dat τ (Elt F) Unit ℕ (UR sig nD τ) ℕ cfg2 c) (hA : dat.A 8 = V c (Pipeline.arrRef spec2 8))
    (hafter : ∀ t, dat.after 8 t = iblkL2 V c 8 t) (t : Fin cfg2.N) (d) : dat.before 8 t d = iblkL2 V c 8 t :=
  (dat.before_in_eq_fetched 8 rfl (fun _ => rfl) (fun _ _ _ => rfl) (fun t => by rw [hafter]; unfold Dat.blockOf iblkL2; rw [hA]; try rfl) t d).trans
    (by unfold Dat.fetched Dat.blockOf iblkL2; rw [hA]; try rfl)

/-- Input window 9: for any proof data whose array is the region-entry contents and whose body leaves the block in
    place, the current staging buffer holds the block at every point, fetched there or not. -/
theorem beforeL2_9_of (V : (c : Dev nD) → (b : Ref sig .tc) → Buf (Elt F) ((c : Thread nD τ).loc b)) {c : Dev nD} (dat : Dat τ (Elt F) Unit ℕ (UR sig nD τ) ℕ cfg2 c) (hA : dat.A 9 = V c (Pipeline.arrRef spec2 9))
    (hafter : ∀ t, dat.after 9 t = iblkL2 V c 9 t) (t : Fin cfg2.N) (d) : dat.before 9 t d = iblkL2 V c 9 t :=
  (dat.before_in_eq_fetched 9 rfl (fun _ => rfl) (fun _ _ _ => rfl) (fun t => by rw [hafter]; unfold Dat.blockOf iblkL2; rw [hA]; try rfl) t d).trans
    (by unfold Dat.fetched Dat.blockOf iblkL2; rw [hA]; try rfl)

/-- Input window 10: for any proof data whose array is the region-entry contents and whose body leaves the block in
    place, the current staging buffer holds the block at every point, fetched there or not. -/
theorem beforeL2_10_of (V : (c : Dev nD) → (b : Ref sig .tc) → Buf (Elt F) ((c : Thread nD τ).loc b)) {c : Dev nD} (dat : Dat τ (Elt F) Unit ℕ (UR sig nD τ) ℕ cfg2 c) (hA : dat.A 10 = V c (Pipeline.arrRef spec2 10))
    (hafter : ∀ t, dat.after 10 t = iblkL2 V c 10 t) (t : Fin cfg2.N) (d) : dat.before 10 t d = iblkL2 V c 10 t :=
  (dat.before_in_eq_fetched 10 rfl (fun _ => rfl) (fun _ _ _ => rfl) (fun t => by rw [hafter]; unfold Dat.blockOf iblkL2; rw [hA]; try rfl) t d).trans
    (by unfold Dat.fetched Dat.blockOf iblkL2; rw [hA]; try rfl)

/-- Input window 11: for any proof data whose array is the region-entry contents and whose body leaves the block in
    place, the current staging buffer holds the block at every point, fetched there or not. -/
theorem beforeL2_11_of (V : (c : Dev nD) → (b : Ref sig .tc) → Buf (Elt F) ((c : Thread nD τ).loc b)) {c : Dev nD} (dat : Dat τ (Elt F) Unit ℕ (UR sig nD τ) ℕ cfg2 c) (hA : dat.A 11 = V c (Pipeline.arrRef spec2 11))
    (hafter : ∀ t, dat.after 11 t = iblkL2 V c 11 t) (t : Fin cfg2.N) (d) : dat.before 11 t d = iblkL2 V c 11 t :=
  (dat.before_in_eq_fetched 11 rfl (fun _ => rfl) (fun _ _ _ => rfl) (fun t => by rw [hafter]; unfold Dat.blockOf iblkL2; rw [hA]; try rfl) t d).trans
    (by unfold Dat.fetched Dat.blockOf iblkL2; rw [hA]; try rfl)

/-- Input window 12: for any proof data whose array is the region-entry contents and whose body leaves the block in
    place, the current staging buffer holds the block at every point, fetched there or not. -/
theorem beforeL2_12_of (V : (c : Dev nD) → (b : Ref sig .tc) → Buf (Elt F) ((c : Thread nD τ).loc b)) {c : Dev nD} (dat : Dat τ (Elt F) Unit ℕ (UR sig nD τ) ℕ cfg2 c) (hA : dat.A 12 = V c (Pipeline.arrRef spec2 12))
    (hafter : ∀ t, dat.after 12 t = iblkL2 V c 12 t) (t : Fin cfg2.N) (d) : dat.before 12 t d = iblkL2 V c 12 t :=
  (dat.before_in_eq_fetched 12 rfl (fun _ => rfl) (fun _ _ _ => rfl) (fun t => by rw [hafter]; unfold Dat.blockOf iblkL2; rw [hA]; try rfl) t d).trans
    (by unfold Dat.fetched Dat.blockOf iblkL2; rw [hA]; try rfl)

/-- Input window 13: for any proof data whose array is the region-entry contents and whose body leaves the block in
    place, the current staging buffer holds the block at every point, fetched there or not. -/
theorem beforeL2_13_of (V : (c : Dev nD) → (b : Ref sig .tc) → Buf (Elt F) ((c : Thread nD τ).loc b)) {c : Dev nD} (dat : Dat τ (Elt F) Unit ℕ (UR sig nD τ) ℕ cfg2 c) (hA : dat.A 13 = V c (Pipeline.arrRef spec2 13))
    (hafter : ∀ t, dat.after 13 t = iblkL2 V c 13 t) (t : Fin cfg2.N) (d) : dat.before 13 t d = iblkL2 V c 13 t :=
  (dat.before_in_eq_fetched 13 rfl (fun _ => rfl) (fun _ _ _ => rfl) (fun t => by rw [hafter]; unfold Dat.blockOf iblkL2; rw [hA]; try rfl) t d).trans
    (by unfold Dat.fetched Dat.blockOf iblkL2; rw [hA]; try rfl)

/-- Input window 14: for any proof data whose array is the region-entry contents and whose body leaves the block in
    place, the current staging buffer holds the block at every point, fetched there or not. -/
theorem beforeL2_14_of (V : (c : Dev nD) → (b : Ref sig .tc) → Buf (Elt F) ((c : Thread nD τ).loc b)) {c : Dev nD} (dat : Dat τ (Elt F) Unit ℕ (UR sig nD τ) ℕ cfg2 c) (hA : dat.A 14 = V c (Pipeline.arrRef spec2 14))
    (hafter : ∀ t, dat.after 14 t = iblkL2 V c 14 t) (t : Fin cfg2.N) (d) : dat.before 14 t d = iblkL2 V c 14 t :=
  (dat.before_in_eq_fetched 14 rfl (fun _ => rfl) (fun _ _ _ => rfl) (fun t => by rw [hafter]; unfold Dat.blockOf iblkL2; rw [hA]; try rfl) t d).trans
    (by unfold Dat.fetched Dat.blockOf iblkL2; rw [hA]; try rfl)

/-! ## The body's branch -/

/-- The condition of the body's branch (`k2_h1`: the grid coordinate is zero), from the grid coordinates. -/
abbrev condL2_0 (i : grid2.Coords) : Prop := (Scalar.cmpi .ne (Scalar.extui (Scalar.cmpi .eq (BitVec.ofNat 32 (i 0).val) 0#32)) 0#32) = 1#1
/-- It holds at the first point only. -/
theorem hcondL2_0 : ∀ t : Fin cfg2.N, condL2_0 (grid2.coords t) ↔ t.val % 50 = 0 :=
  (by decide +kernel : ∀ t : Fin grid2.N, condL2_0 (grid2.coords t) ↔ t.val % 50 = 0)

/-! ## The staging memrefs -/

/-- One staging buffer of each output window, through which its contents are stated. -/
abbrev VOL2_15 : View sig .tc .vmem S1000x128 .f32 := (Memref.whole cc2_stg15_0 : Memref sig .tc .vmem S1000x128 .f32).view
abbrev VOL2_16 : View sig .tc .vmem S512x128 .f32 := (Memref.whole cc2_stg16_0 : Memref sig .tc .vmem S512x128 .f32).view

/-- Each window's current staging memref at point `t`, as the pipeline passes it to the body, and its wholeness. -/
abbrev msL2_0 (t : Fin cfg2.N) : Memref sig .tc .vmem S1000x128 .f32 := win2_0.stage (cfg2.slots t 0)
abbrev hsL2_0 (t : Fin cfg2.N) : (msL2_0 t).IsWhole := hstage2_0 ((cfg2.slots t 0).cast nbuf2_0)
abbrev msL2_1 (t : Fin cfg2.N) : Memref sig .tc .vmem S1000x128 .f32 := win2_1.stage (cfg2.slots t 1)
abbrev hsL2_1 (t : Fin cfg2.N) : (msL2_1 t).IsWhole := hstage2_1 ((cfg2.slots t 1).cast nbuf2_1)
abbrev msL2_2 (t : Fin cfg2.N) : Memref sig .tc .vmem S1000x1 .i32 := win2_2.stage (cfg2.slots t 2)
abbrev hsL2_2 (t : Fin cfg2.N) : (msL2_2 t).IsWhole := hstage2_2 ((cfg2.slots t 2).cast nbuf2_2)
abbrev msL2_3 (t : Fin cfg2.N) : Memref sig .tc .vmem S128x128 .f32 := win2_3.stage (cfg2.slots t 3)
abbrev hsL2_3 (t : Fin cfg2.N) : (msL2_3 t).IsWhole := hstage2_3 ((cfg2.slots t 3).cast nbuf2_3)
abbrev msL2_4 (t : Fin cfg2.N) : Memref sig .tc .vmem S128 .f32 := win2_4.stage (cfg2.slots t 4)
abbrev hsL2_4 (t : Fin cfg2.N) : (msL2_4 t).IsWhole := hstage2_4 ((cfg2.slots t 4).cast nbuf2_4)
abbrev msL2_5 (t : Fin cfg2.N) : Memref sig .tc .vmem S128 .f32 := win2_5.stage (cfg2.slots t 5)
abbrev hsL2_5 (t : Fin cfg2.N) : (msL2_5 t).IsWhole := hstage2_5 ((cfg2.slots t 5).cast nbuf2_5)
abbrev msL2_6 (t : Fin cfg2.N) : Memref sig .tc .vmem S128 .f32 := win2_6.stage (cfg2.slots t 6)
abbrev hsL2_6 (t : Fin cfg2.N) : (msL2_6 t).IsWhole := hstage2_6 ((cfg2.slots t 6).cast nbuf2_6)
abbrev msL2_7 (t : Fin cfg2.N) : Memref sig .tc .vmem S128 .f32 := win2_7.stage (cfg2.slots t 7)
abbrev hsL2_7 (t : Fin cfg2.N) : (msL2_7 t).IsWhole := hstage2_7 ((cfg2.slots t 7).cast nbuf2_7)
abbrev msL2_8 (t : Fin cfg2.N) : Memref sig .tc .vmem S128 .f32 := win2_8.stage (cfg2.slots t 8)
abbrev hsL2_8 (t : Fin cfg2.N) : (msL2_8 t).IsWhole := hstage2_8 ((cfg2.slots t 8).cast nbuf2_8)
abbrev msL2_9 (t : Fin cfg2.N) : Memref sig .tc .vmem S128x128 .f32 := win2_9.stage (cfg2.slots t 9)
abbrev hsL2_9 (t : Fin cfg2.N) : (msL2_9 t).IsWhole := hstage2_9 ((cfg2.slots t 9).cast nbuf2_9)
abbrev msL2_10 (t : Fin cfg2.N) : Memref sig .tc .vmem S128 .f32 := win2_10.stage (cfg2.slots t 10)
abbrev hsL2_10 (t : Fin cfg2.N) : (msL2_10 t).IsWhole := hstage2_10 ((cfg2.slots t 10).cast nbuf2_10)
abbrev msL2_11 (t : Fin cfg2.N) : Memref sig .tc .vmem S128 .f32 := win2_11.stage (cfg2.slots t 11)
abbrev hsL2_11 (t : Fin cfg2.N) : (msL2_11 t).IsWhole := hstage2_11 ((cfg2.slots t 11).cast nbuf2_11)
abbrev msL2_12 (t : Fin cfg2.N) : Memref sig .tc .vmem S128 .f32 := win2_12.stage (cfg2.slots t 12)
abbrev hsL2_12 (t : Fin cfg2.N) : (msL2_12 t).IsWhole := hstage2_12 ((cfg2.slots t 12).cast nbuf2_12)
abbrev msL2_13 (t : Fin cfg2.N) : Memref sig .tc .vmem S128 .f32 := win2_13.stage (cfg2.slots t 13)
abbrev hsL2_13 (t : Fin cfg2.N) : (msL2_13 t).IsWhole := hstage2_13 ((cfg2.slots t 13).cast nbuf2_13)
abbrev msL2_14 (t : Fin cfg2.N) : Memref sig .tc .vmem S128 .f32 := win2_14.stage (cfg2.slots t 14)
abbrev hsL2_14 (t : Fin cfg2.N) : (msL2_14 t).IsWhole := hstage2_14 ((cfg2.slots t 14).cast nbuf2_14)
abbrev msL2_15 (t : Fin cfg2.N) : Memref sig .tc .vmem S1000x128 .f32 := win2_15.stage (cfg2.slots t 15)
abbrev hsL2_15 (t : Fin cfg2.N) : (msL2_15 t).IsWhole := hstage2_15 ((cfg2.slots t 15).cast nbuf2_15)
abbrev msL2_16 (t : Fin cfg2.N) : Memref sig .tc .vmem S512x128 .f32 := win2_16.stage (cfg2.slots t 16)
abbrev hsL2_16 (t : Fin cfg2.N) : (msL2_16 t).IsWhole := hstage2_16 ((cfg2.slots t 16).cast nbuf2_16)

end Cert.Kernel.Hand

end
-- ==== Proof.K.L2RunA.lean ====
/-
  Layer region 2, the run of its body at the first grid point (the branch on the grid coordinate taken: the pool's
  buffer is zeroed before the tile is added): on whole staging memrefs, the inputs' at their contents and the outputs'
  at anything, the body runs to the continuation holding the inputs' as they were and each output's buffer with the
  stores the body made, listed last first.
-/
import proofs.«426741_j36421322670671_1_alg».proof.Proof.K.L2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at the first point, as pieces (last first),
    with the body's triple: the pieces are found by running the body. -/
noncomputable def kernelRunL2_A (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc2__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.Kernel.Hand

end
-- ==== Proof.K.L2RunB.lean ====
/-
  Layer region 2, the run of its body at a later grid point (the branch on the grid coordinate not taken: the tile is
  added to what the pool's buffer holds): on whole staging memrefs, the inputs' at their contents, the pool's at its
  running contents and the new features' at anything, the body runs to the continuation holding the inputs' as they
  were and each output's buffer with the stores the body made, listed last first.
-/
import proofs.«426741_j36421322670671_1_alg».proof.Proof.K.L2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at a later point, as pieces (last first),
    with the body's triple: the pieces are found by running the body. -/
noncomputable def kernelRunL2_B (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc2__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.Kernel.Hand

end
-- ==== Proof.K.L2Dat.lean ====
/-
  Layer region 2: what its pipeline's proof data say. Every input window's staging buffer holds its block of the
  array the region found; window 15's (the new node features) holds the block the body stores at the point;
  window 16's (the pool) holds the running sum the body carries from point to point.
  `V` is the TensorCore's buffer contents when the region is entered.
-/
import proofs.«426741_j36421322670671_1_alg».proof.Proof.K.L2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer, by the case of its branch -/

/-- The body's stores into window 15's buffer (the new node features) at the first point tile its block, so they cover it. -/
theorem coverL2_A_15 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S1000x128.Idx) :
    ∃ pc ∈ (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1000x128.size (by sl_kernel_rfl) y

/-- What the body leaves in window 15's staging buffer at the first point: its stores read back. -/
def outL2_A_15 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S1000x128 .f32 :=
  VOL2_15.read (Elt F) (VOL2_15.writes (Elt F) VOL2_15.junk (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- The body's stores into window 16's buffer (the pool) at the first point tile its block, so they cover it. -/
theorem coverL2_A_16 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S512x128.Idx) :
    ∃ pc ∈ (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x128.size (by sl_kernel_rfl) y

/-- What the body leaves in window 16's staging buffer at the first point: its stores read back. -/
def outL2_A_16 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S512x128 .f32 :=
  VOL2_16.read (Elt F) (VOL2_16.writes (Elt F) VOL2_16.junk (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- The body's stores into window 15's buffer (the new node features) at a later point tile its block, so they cover it. -/
theorem coverL2_B_15 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S1000x128.Idx) :
    ∃ pc ∈ (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1, y ∈ pc.1.set :=
  View.cover_of_tiledL (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1 S1000x128.size (by sl_kernel_rfl) y

/-- What the body leaves in window 15's staging buffer at a later point: its stores read back. -/
def outL2_B_15 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S1000x128 .f32 :=
  VOL2_15.read (Elt F) (VOL2_15.writes (Elt F) VOL2_15.junk (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1)

/-- The body's stores into window 16's buffer (the pool) at a later point tile its block, so they cover it. -/
theorem coverL2_B_16 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S512x128.Idx) :
    ∃ pc ∈ (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1, y ∈ pc.1.set :=
  View.cover_of_tiledL (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1 S512x128.size (by sl_kernel_rfl) y

/-- What the body leaves in window 16's staging buffer at a later point: its stores read back. -/
def outL2_B_16 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S512x128 .f32 :=
  VOL2_16.read (Elt F) (VOL2_16.writes (Elt F) VOL2_16.junk (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1)

/-! ## What the outputs hold after each point -/

/-- What the body leaves in window 16's staging buffer after point `n`: the pool summed over tiles `0 … n`. At the
    first point the buffer is zeroed and the tile added; at a later point the tile is added to what the point before
    left (the buffer is not written back between). -/
def poolAtL2 (V : (c : Dev nD) → (b : Ref sig .tc) → Buf (Elt F) ((c : Thread nD τ).loc b)) (c : Dev nD) : (n : ℕ) → n < cfg2.N → Vec F S512x128 .f32
  | 0, hn => outL2_A_16 c (grid2.coords ⟨0, hn⟩) (msL2_0 ⟨0, hn⟩) (hsL2_0 ⟨0, hn⟩) (msL2_1 ⟨0, hn⟩) (hsL2_1 ⟨0, hn⟩) (msL2_2 ⟨0, hn⟩) (hsL2_2 ⟨0, hn⟩) (msL2_3 ⟨0, hn⟩) (hsL2_3 ⟨0, hn⟩) (msL2_4 ⟨0, hn⟩) (hsL2_4 ⟨0, hn⟩) (msL2_5 ⟨0, hn⟩) (hsL2_5 ⟨0, hn⟩) (msL2_6 ⟨0, hn⟩) (hsL2_6 ⟨0, hn⟩) (msL2_7 ⟨0, hn⟩) (hsL2_7 ⟨0, hn⟩) (msL2_8 ⟨0, hn⟩) (hsL2_8 ⟨0, hn⟩) (msL2_9 ⟨0, hn⟩) (hsL2_9 ⟨0, hn⟩) (msL2_10 ⟨0, hn⟩) (hsL2_10 ⟨0, hn⟩) (msL2_11 ⟨0, hn⟩) (hsL2_11 ⟨0, hn⟩) (msL2_12 ⟨0, hn⟩) (hsL2_12 ⟨0, hn⟩) (msL2_13 ⟨0, hn⟩) (hsL2_13 ⟨0, hn⟩) (msL2_14 ⟨0, hn⟩) (hsL2_14 ⟨0, hn⟩) (msL2_15 ⟨0, hn⟩) (hsL2_15 ⟨0, hn⟩) (msL2_16 ⟨0, hn⟩) (hsL2_16 ⟨0, hn⟩) ((hcondL2_0 ⟨0, hn⟩).mpr (Nat.zero_mod _)) (iblkL2 V c 0 ⟨0, hn⟩) (iblkL2 V c 1 ⟨0, hn⟩) (iblkL2 V c 2 ⟨0, hn⟩) (iblkL2 V c 3 ⟨0, hn⟩) (iblkL2 V c 4 ⟨0, hn⟩) (iblkL2 V c 5 ⟨0, hn⟩) (iblkL2 V c 6 ⟨0, hn⟩) (iblkL2 V c 7 ⟨0, hn⟩) (iblkL2 V c 8 ⟨0, hn⟩) (iblkL2 V c 9 ⟨0, hn⟩) (iblkL2 V c 10 ⟨0, hn⟩) (iblkL2 V c 11 ⟨0, hn⟩) (iblkL2 V c 12 ⟨0, hn⟩) (iblkL2 V c 13 ⟨0, hn⟩) (iblkL2 V c 14 ⟨0, hn⟩)
  | n + 1, hn =>
    if h0 : (n + 1) % 50 = 0 then
      outL2_A_16 c (grid2.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) (msL2_5 ⟨n + 1, hn⟩) (hsL2_5 ⟨n + 1, hn⟩) (msL2_6 ⟨n + 1, hn⟩) (hsL2_6 ⟨n + 1, hn⟩) (msL2_7 ⟨n + 1, hn⟩) (hsL2_7 ⟨n + 1, hn⟩) (msL2_8 ⟨n + 1, hn⟩) (hsL2_8 ⟨n + 1, hn⟩) (msL2_9 ⟨n + 1, hn⟩) (hsL2_9 ⟨n + 1, hn⟩) (msL2_10 ⟨n + 1, hn⟩) (hsL2_10 ⟨n + 1, hn⟩) (msL2_11 ⟨n + 1, hn⟩) (hsL2_11 ⟨n + 1, hn⟩) (msL2_12 ⟨n + 1, hn⟩) (hsL2_12 ⟨n + 1, hn⟩) (msL2_13 ⟨n + 1, hn⟩) (hsL2_13 ⟨n + 1, hn⟩) (msL2_14 ⟨n + 1, hn⟩) (hsL2_14 ⟨n + 1, hn⟩) (msL2_15 ⟨n + 1, hn⟩) (hsL2_15 ⟨n + 1, hn⟩) (msL2_16 ⟨n + 1, hn⟩) (hsL2_16 ⟨n + 1, hn⟩) ((hcondL2_0 ⟨n + 1, hn⟩).mpr h0) (iblkL2 V c 0 ⟨n + 1, hn⟩) (iblkL2 V c 1 ⟨n + 1, hn⟩) (iblkL2 V c 2 ⟨n + 1, hn⟩) (iblkL2 V c 3 ⟨n + 1, hn⟩) (iblkL2 V c 4 ⟨n + 1, hn⟩) (iblkL2 V c 5 ⟨n + 1, hn⟩) (iblkL2 V c 6 ⟨n + 1, hn⟩) (iblkL2 V c 7 ⟨n + 1, hn⟩) (iblkL2 V c 8 ⟨n + 1, hn⟩) (iblkL2 V c 9 ⟨n + 1, hn⟩) (iblkL2 V c 10 ⟨n + 1, hn⟩) (iblkL2 V c 11 ⟨n + 1, hn⟩) (iblkL2 V c 12 ⟨n + 1, hn⟩) (iblkL2 V c 13 ⟨n + 1, hn⟩) (iblkL2 V c 14 ⟨n + 1, hn⟩)
    else
      outL2_B_16 c (grid2.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) (msL2_5 ⟨n + 1, hn⟩) (hsL2_5 ⟨n + 1, hn⟩) (msL2_6 ⟨n + 1, hn⟩) (hsL2_6 ⟨n + 1, hn⟩) (msL2_7 ⟨n + 1, hn⟩) (hsL2_7 ⟨n + 1, hn⟩) (msL2_8 ⟨n + 1, hn⟩) (hsL2_8 ⟨n + 1, hn⟩) (msL2_9 ⟨n + 1, hn⟩) (hsL2_9 ⟨n + 1, hn⟩) (msL2_10 ⟨n + 1, hn⟩) (hsL2_10 ⟨n + 1, hn⟩) (msL2_11 ⟨n + 1, hn⟩) (hsL2_11 ⟨n + 1, hn⟩) (msL2_12 ⟨n + 1, hn⟩) (hsL2_12 ⟨n + 1, hn⟩) (msL2_13 ⟨n + 1, hn⟩) (hsL2_13 ⟨n + 1, hn⟩) (msL2_14 ⟨n + 1, hn⟩) (hsL2_14 ⟨n + 1, hn⟩) (msL2_15 ⟨n + 1, hn⟩) (hsL2_15 ⟨n + 1, hn⟩) (msL2_16 ⟨n + 1, hn⟩) (hsL2_16 ⟨n + 1, hn⟩) (fun h => h0 ((hcondL2_0 ⟨n + 1, hn⟩).mp h)) (iblkL2 V c 0 ⟨n + 1, hn⟩) (iblkL2 V c 1 ⟨n + 1, hn⟩) (iblkL2 V c 2 ⟨n + 1, hn⟩) (iblkL2 V c 3 ⟨n + 1, hn⟩) (iblkL2 V c 4 ⟨n + 1, hn⟩) (iblkL2 V c 5 ⟨n + 1, hn⟩) (iblkL2 V c 6 ⟨n + 1, hn⟩) (iblkL2 V c 7 ⟨n + 1, hn⟩) (iblkL2 V c 8 ⟨n + 1, hn⟩) (iblkL2 V c 9 ⟨n + 1, hn⟩) (iblkL2 V c 10 ⟨n + 1, hn⟩) (iblkL2 V c 11 ⟨n + 1, hn⟩) (iblkL2 V c 12 ⟨n + 1, hn⟩) (iblkL2 V c 13 ⟨n + 1, hn⟩) (iblkL2 V c 14 ⟨n + 1, hn⟩) (poolAtL2 V c n (Nat.lt_of_succ_lt hn))

/-- The pool's buffer at the first point. -/
theorem poolAtL2_A (V : (c : Dev nD) → (b : Ref sig .tc) → Buf (Elt F) ((c : Thread nD τ).loc b)) (c : Dev nD) (t : Fin cfg2.N) (h0 : t.val % 50 = 0) :
    poolAtL2 V c t.val t.isLt = outL2_A_16 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) ((hcondL2_0 t).mpr h0) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) := by
  obtain ⟨n, hn⟩ := t
  cases n with
  | zero => exact rfl
  | succ n => exact (dif_pos h0).trans rfl

/-- The pool's buffer at a later point, over what the point before left. -/
theorem poolAtL2_B (V : (c : Dev nD) → (b : Ref sig .tc) → Buf (Elt F) ((c : Thread nD τ).loc b)) (c : Dev nD) (t : Fin cfg2.N) (h0 : ¬t.val % 50 = 0) :
    poolAtL2 V c t.val t.isLt = outL2_B_16 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) (fun h => h0 ((hcondL2_0 t).mp h)) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) (poolAtL2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the body leaves in window 15's staging buffer at point `t`: the tile's new node features. -/
def hOutL2 (V : (c : Dev nD) → (b : Ref sig .tc) → Buf (Elt F) ((c : Thread nD τ).loc b)) (c : Dev nD) (t : Fin cfg2.N) : Vec F S1000x128 .f32 :=
  if h0 : t.val % 50 = 0 then
    outL2_A_15 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) ((hcondL2_0 t).mpr h0) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t)
  else
    outL2_B_15 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) (fun h => h0 ((hcondL2_0 t).mp h)) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) (poolAtL2 V c (t.val - 1) (Nat.lt_of_le_of_lt (Nat.sub_le _ _) t.isLt))

theorem hOutL2_A (V : (c : Dev nD) → (b : Ref sig .tc) → Buf (Elt F) ((c : Thread nD τ).loc b)) (c : Dev nD) (t : Fin cfg2.N) (h0 : t.val % 50 = 0) :
    hOutL2 V c t = outL2_A_15 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) ((hcondL2_0 t).mpr h0) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) := dif_pos h0

theorem hOutL2_B (V : (c : Dev nD) → (b : Ref sig .tc) → Buf (Elt F) ((c : Thread nD τ).loc b)) (c : Dev nD) (t : Fin cfg2.N) (h0 : ¬t.val % 50 = 0) :
    hOutL2 V c t = outL2_B_15 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) (fun h => h0 ((hcondL2_0 t).mp h)) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) (poolAtL2 V c (t.val - 1) (Nat.lt_of_le_of_lt (Nat.sub_le _ _) t.isLt)) := dif_neg h0

/-! ## The pipeline's proof data -/

/-- The proof data of this region's pipeline on core `c`. -/
def datL2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblkL2 V c 0 t
    | ⟨1, _⟩ => iblkL2 V c 1 t
    | ⟨2, _⟩ => iblkL2 V c 2 t
    | ⟨3, _⟩ => iblkL2 V c 3 t
    | ⟨4, _⟩ => iblkL2 V c 4 t
    | ⟨5, _⟩ => iblkL2 V c 5 t
    | ⟨6, _⟩ => iblkL2 V c 6 t
    | ⟨7, _⟩ => iblkL2 V c 7 t
    | ⟨8, _⟩ => iblkL2 V c 8 t
    | ⟨9, _⟩ => iblkL2 V c 9 t
    | ⟨10, _⟩ => iblkL2 V c 10 t
    | ⟨11, _⟩ => iblkL2 V c 11 t
    | ⟨12, _⟩ => iblkL2 V c 12 t
    | ⟨13, _⟩ => iblkL2 V c 13 t
    | ⟨14, _⟩ => iblkL2 V c 14 t
    | ⟨15, _⟩ => hOutL2 V c t
    | ⟨16, _⟩ => poolAtL2 V c t.val t.isLt
    | ⟨_ + 17, h⟩ => absurd h (Nat.not_lt.2 (Nat.le_add_left _ _))
  Φ _ := Pipeline.ΦA spec2 c
  q _ := fullShare
  owed _ := 0

/-- The proof data's arrays are the region-entry contents. -/
theorem A_eqL2 (V : (c : Dev nD) → (b : Ref sig .tc) → Buf (Elt F) ((c : Thread nD τ).loc b)) (c : Dev nD) (w : Fin cfg2.W) : (datL2 V c).A w = V c (Pipeline.arrRef spec2 w) := by
  dsimp only [datL2]

/-- What the body leaves, window by window. -/
theorem after0_L2 (V : (c : Dev nD) → (b : Ref sig .tc) → Buf (Elt F) ((c : Thread nD τ).loc b)) (c : Dev nD) (t : Fin cfg2.N) : (datL2 V c).after 0 t = iblkL2 V c 0 t := by dsimp only [datL2]
theorem after1_L2 (V : (c : Dev nD) → (b : Ref sig .tc) → Buf (Elt F) ((c : Thread nD τ).loc b)) (c : Dev nD) (t : Fin cfg2.N) : (datL2 V c).after 1 t = iblkL2 V c 1 t := by dsimp only [datL2]
theorem after2_L2 (V : (c : Dev nD) → (b : Ref sig .tc) → Buf (Elt F) ((c : Thread nD τ).loc b)) (c : Dev nD) (t : Fin cfg2.N) : (datL2 V c).after 2 t = iblkL2 V c 2 t := by dsimp only [datL2]
theorem after3_L2 (V : (c : Dev nD) → (b : Ref sig .tc) → Buf (Elt F) ((c : Thread nD τ).loc b)) (c : Dev nD) (t : Fin cfg2.N) : (datL2 V c).after 3 t = iblkL2 V c 3 t := by dsimp only [datL2]
theorem after4_L2 (V : (c : Dev nD) → (b : Ref sig .tc) → Buf (Elt F) ((c : Thread nD τ).loc b)) (c : Dev nD) (t : Fin cfg2.N) : (datL2 V c).after 4 t = iblkL2 V c 4 t := by dsimp only [datL2]
theorem after5_L2 (V : (c : Dev nD) → (b : Ref sig .tc) → Buf (Elt F) ((c : Thread nD τ).loc b)) (c : Dev nD) (t : Fin cfg2.N) : (datL2 V c).after 5 t = iblkL2 V c 5 t := by dsimp only [datL2]
theorem after6_L2 (V : (c : Dev nD) → (b : Ref sig .tc) → Buf (Elt F) ((c : Thread nD τ).loc b)) (c : Dev nD) (t : Fin cfg2.N) : (datL2 V c).after 6 t = iblkL2 V c 6 t := by dsimp only [datL2]
theorem after7_L2 (V : (c : Dev nD) → (b : Ref sig .tc) → Buf (Elt F) ((c : Thread nD τ).loc b)) (c : Dev nD) (t : Fin cfg2.N) : (datL2 V c).after 7 t = iblkL2 V c 7 t := by dsimp only [datL2]
theorem after8_L2 (V : (c : Dev nD) → (b : Ref sig .tc) → Buf (Elt F) ((c : Thread nD τ).loc b)) (c : Dev nD) (t : Fin cfg2.N) : (datL2 V c).after 8 t = iblkL2 V c 8 t := by dsimp only [datL2]
theorem after9_L2 (V : (c : Dev nD) → (b : Ref sig .tc) → Buf (Elt F) ((c : Thread nD τ).loc b)) (c : Dev nD) (t : Fin cfg2.N) : (datL2 V c).after 9 t = iblkL2 V c 9 t := by dsimp only [datL2]
theorem after10_L2 (V : (c : Dev nD) → (b : Ref sig .tc) → Buf (Elt F) ((c : Thread nD τ).loc b)) (c : Dev nD) (t : Fin cfg2.N) : (datL2 V c).after 10 t = iblkL2 V c 10 t := by dsimp only [datL2]
theorem after11_L2 (V : (c : Dev nD) → (b : Ref sig .tc) → Buf (Elt F) ((c : Thread nD τ).loc b)) (c : Dev nD) (t : Fin cfg2.N) : (datL2 V c).after 11 t = iblkL2 V c 11 t := by dsimp only [datL2]
theorem after12_L2 (V : (c : Dev nD) → (b : Ref sig .tc) → Buf (Elt F) ((c : Thread nD τ).loc b)) (c : Dev nD) (t : Fin cfg2.N) : (datL2 V c).after 12 t = iblkL2 V c 12 t := by dsimp only [datL2]
theorem after13_L2 (V : (c : Dev nD) → (b : Ref sig .tc) → Buf (Elt F) ((c : Thread nD τ).loc b)) (c : Dev nD) (t : Fin cfg2.N) : (datL2 V c).after 13 t = iblkL2 V c 13 t := by dsimp only [datL2]
theorem after14_L2 (V : (c : Dev nD) → (b : Ref sig .tc) → Buf (Elt F) ((c : Thread nD τ).loc b)) (c : Dev nD) (t : Fin cfg2.N) : (datL2 V c).after 14 t = iblkL2 V c 14 t := by dsimp only [datL2]
theorem after15_L2 (V : (c : Dev nD) → (b : Ref sig .tc) → Buf (Elt F) ((c : Thread nD τ).loc b)) (c : Dev nD) (t : Fin cfg2.N) : (datL2 V c).after 15 t = hOutL2 V c t := by dsimp only [datL2]
theorem after16_L2 (V : (c : Dev nD) → (b : Ref sig .tc) → Buf (Elt F) ((c : Thread nD τ).loc b)) (c : Dev nD) (t : Fin cfg2.N) : (datL2 V c).after 16 t = poolAtL2 V c t.val t.isLt := by dsimp only [datL2]

/-- Each input's current staging buffer holds its block at every point, fetched there or not. -/
theorem beforeL2_0 (V : (c : Dev nD) → (b : Ref sig .tc) → Buf (Elt F) ((c : Thread nD τ).loc b)) (c : Dev nD) (t : Fin cfg2.N) (d) : (datL2 V c).before 0 t d = iblkL2 V c 0 t :=
  beforeL2_0_of V (datL2 V c) (A_eqL2 V c 0) (after0_L2 V c) t d
theorem beforeL2_1 (V : (c : Dev nD) → (b : Ref sig .tc) → Buf (Elt F) ((c : Thread nD τ).loc b)) (c : Dev nD) (t : Fin cfg2.N) (d) : (datL2 V c).before 1 t d = iblkL2 V c 1 t :=
  beforeL2_1_of V (datL2 V c) (A_eqL2 V c 1) (after1_L2 V c) t d
theorem beforeL2_2 (V : (c : Dev nD) → (b : Ref sig .tc) → Buf (Elt F) ((c : Thread nD τ).loc b)) (c : Dev nD) (t : Fin cfg2.N) (d) : (datL2 V c).before 2 t d = iblkL2 V c 2 t :=
  beforeL2_2_of V (datL2 V c) (A_eqL2 V c 2) (after2_L2 V c) t d
theorem beforeL2_3 (V : (c : Dev nD) → (b : Ref sig .tc) → Buf (Elt F) ((c : Thread nD τ).loc b)) (c : Dev nD) (t : Fin cfg2.N) (d) : (datL2 V c).before 3 t d = iblkL2 V c 3 t :=
  beforeL2_3_of V (datL2 V c) (A_eqL2 V c 3) (after3_L2 V c) t d
theorem beforeL2_4 (V : (c : Dev nD) → (b : Ref sig .tc) → Buf (Elt F) ((c : Thread nD τ).loc b)) (c : Dev nD) (t : Fin cfg2.N) (d) : (datL2 V c).before 4 t d = iblkL2 V c 4 t :=
  beforeL2_4_of V (datL2 V c) (A_eqL2 V c 4) (after4_L2 V c) t d
theorem beforeL2_5 (V : (c : Dev nD) → (b : Ref sig .tc) → Buf (Elt F) ((c : Thread nD τ).loc b)) (c : Dev nD) (t : Fin cfg2.N) (d) : (datL2 V c).before 5 t d = iblkL2 V c 5 t :=
  beforeL2_5_of V (datL2 V c) (A_eqL2 V c 5) (after5_L2 V c) t d
theorem beforeL2_6 (V : (c : Dev nD) → (b : Ref sig .tc) → Buf (Elt F) ((c : Thread nD τ).loc b)) (c : Dev nD) (t : Fin cfg2.N) (d) : (datL2 V c).before 6 t d = iblkL2 V c 6 t :=
  beforeL2_6_of V (datL2 V c) (A_eqL2 V c 6) (after6_L2 V c) t d
theorem beforeL2_7 (V : (c : Dev nD) → (b : Ref sig .tc) → Buf (Elt F) ((c : Thread nD τ).loc b)) (c : Dev nD) (t : Fin cfg2.N) (d) : (datL2 V c).before 7 t d = iblkL2 V c 7 t :=
  beforeL2_7_of V (datL2 V c) (A_eqL2 V c 7) (after7_L2 V c) t d
theorem beforeL2_8 (V : (c : Dev nD) → (b : Ref sig .tc) → Buf (Elt F) ((c : Thread nD τ).loc b)) (c : Dev nD) (t : Fin cfg2.N) (d) : (datL2 V c).before 8 t d = iblkL2 V c 8 t :=
  beforeL2_8_of V (datL2 V c) (A_eqL2 V c 8) (after8_L2 V c) t d
theorem beforeL2_9 (V : (c : Dev nD) → (b : Ref sig .tc) → Buf (Elt F) ((c : Thread nD τ).loc b)) (c : Dev nD) (t : Fin cfg2.N) (d) : (datL2 V c).before 9 t d = iblkL2 V c 9 t :=
  beforeL2_9_of V (datL2 V c) (A_eqL2 V c 9) (after9_L2 V c) t d
theorem beforeL2_10 (V : (c : Dev nD) → (b : Ref sig .tc) → Buf (Elt F) ((c : Thread nD τ).loc b)) (c : Dev nD) (t : Fin cfg2.N) (d) : (datL2 V c).before 10 t d = iblkL2 V c 10 t :=
  beforeL2_10_of V (datL2 V c) (A_eqL2 V c 10) (after10_L2 V c) t d
theorem beforeL2_11 (V : (c : Dev nD) → (b : Ref sig .tc) → Buf (Elt F) ((c : Thread nD τ).loc b)) (c : Dev nD) (t : Fin cfg2.N) (d) : (datL2 V c).before 11 t d = iblkL2 V c 11 t :=
  beforeL2_11_of V (datL2 V c) (A_eqL2 V c 11) (after11_L2 V c) t d
theorem beforeL2_12 (V : (c : Dev nD) → (b : Ref sig .tc) → Buf (Elt F) ((c : Thread nD τ).loc b)) (c : Dev nD) (t : Fin cfg2.N) (d) : (datL2 V c).before 12 t d = iblkL2 V c 12 t :=
  beforeL2_12_of V (datL2 V c) (A_eqL2 V c 12) (after12_L2 V c) t d
theorem beforeL2_13 (V : (c : Dev nD) → (b : Ref sig .tc) → Buf (Elt F) ((c : Thread nD τ).loc b)) (c : Dev nD) (t : Fin cfg2.N) (d) : (datL2 V c).before 13 t d = iblkL2 V c 13 t :=
  beforeL2_13_of V (datL2 V c) (A_eqL2 V c 13) (after13_L2 V c) t d
theorem beforeL2_14 (V : (c : Dev nD) → (b : Ref sig .tc) → Buf (Elt F) ((c : Thread nD τ).loc b)) (c : Dev nD) (t : Fin cfg2.N) (d) : (datL2 V c).before 14 t d = iblkL2 V c 14 t :=
  beforeL2_14_of V (datL2 V c) (A_eqL2 V c 14) (after14_L2 V c) t d

/-- At a later point the pool's current staging buffer holds what the body left at the point before: the window's block
    index is constant and the buffer is written back at the last point only. -/
theorem beforeL2_16_B (V : (c : Dev nD) → (b : Ref sig .tc) → Buf (Elt F) ((c : Thread nD τ).loc b)) (c : Dev nD) (t : Fin cfg2.N) (h0 : ¬t.val % 50 = 0) (d) :
    (datL2 V c).before 16 t d = poolAtL2 V c (t.val - 1) (Nat.lt_of_le_of_lt (Nat.sub_le _ _) t.isLt) := by
  have hN : t.val < 50 := lt_of_lt_of_eq t.isLt (show cfg2.N = 50 from N_2)
  rw [Dat.before_out_kept _ 16 rfl t (by omega) (Bool.eq_false_iff.mpr fun h => by have := (flush2_16 _).mp h; dsimp only at this; omega)
    (fun _ => rfl) (fun _ _ => rfl)]
  dsimp only [datL2]

/-! ## The body obligation, at a generic point -/

/-- What the body is called with at point `t`, the windows one by one, -/
def bodyPreL2 (V : (c : Dev nD) → (b : Ref sig .tc) → Buf (Elt F) ((c : Thread nD τ).loc b)) (c : Dev nD) (t : Fin cfg2.N) : sProp 𝕄 :=
  iprop((datL2 V c).Φ t.castSucc ∗ (datL2 V c).owesAt () t.castSucc
    ∗ (∃ d, owns (c : Thread nD τ) (msL2_0 t) fullShare ((datL2 V c).before 0 t d))
    ∗ (∃ d, owns (c : Thread nD τ) (msL2_1 t) fullShare ((datL2 V c).before 1 t d))
    ∗ (∃ d, owns (c : Thread nD τ) (msL2_2 t) fullShare ((datL2 V c).before 2 t d))
    ∗ (∃ d, owns (c : Thread nD τ) (msL2_3 t) fullShare ((datL2 V c).before 3 t d))
    ∗ (∃ d, owns (c : Thread nD τ) (msL2_4 t) fullShare ((datL2 V c).before 4 t d))
    ∗ (∃ d, owns (c : Thread nD τ) (msL2_5 t) fullShare ((datL2 V c).before 5 t d))
    ∗ (∃ d, owns (c : Thread nD τ) (msL2_6 t) fullShare ((datL2 V c).before 6 t d))
    ∗ (∃ d, owns (c : Thread nD τ) (msL2_7 t) fullShare ((datL2 V c).before 7 t d))
    ∗ (∃ d, owns (c : Thread nD τ) (msL2_8 t) fullShare ((datL2 V c).before 8 t d))
    ∗ (∃ d, owns (c : Thread nD τ) (msL2_9 t) fullShare ((datL2 V c).before 9 t d))
    ∗ (∃ d, owns (c : Thread nD τ) (msL2_10 t) fullShare ((datL2 V c).before 10 t d))
    ∗ (∃ d, owns (c : Thread nD τ) (msL2_11 t) fullShare ((datL2 V c).before 11 t d))
    ∗ (∃ d, owns (c : Thread nD τ) (msL2_12 t) fullShare ((datL2 V c).before 12 t d))
    ∗ (∃ d, owns (c : Thread nD τ) (msL2_13 t) fullShare ((datL2 V c).before 13 t d))
    ∗ (∃ d, owns (c : Thread nD τ) (msL2_14 t) fullShare ((datL2 V c).before 14 t d))
    ∗ (∃ d, owns (c : Thread nD τ) (msL2_15 t) fullShare ((datL2 V c).before 15 t d))
    ∗ (∃ d, owns (c : Thread nD τ) (msL2_16 t) fullShare ((datL2 V c).before 16 t d)))

/-- and what it returns. -/
def bodyPostL2 (V : (c : Dev nD) → (b : Ref sig .tc) → Buf (Elt F) ((c : Thread nD τ).loc b)) (c : Dev nD) (t : Fin cfg2.N) : sProp 𝕄 :=
  iprop((datL2 V c).Φ t.succ ∗ (datL2 V c).owesAt () t.succ
    ∗ owns (c : Thread nD τ) (msL2_0 t) fullShare ((datL2 V c).after 0 t)
    ∗ owns (c : Thread nD τ) (msL2_1 t) fullShare ((datL2 V c).after 1 t)
    ∗ owns (c : Thread nD τ) (msL2_2 t) fullShare ((datL2 V c).after 2 t)
    ∗ owns (c : Thread nD τ) (msL2_3 t) fullShare ((datL2 V c).after 3 t)
    ∗ owns (c : Thread nD τ) (msL2_4 t) fullShare ((datL2 V c).after 4 t)
    ∗ owns (c : Thread nD τ) (msL2_5 t) fullShare ((datL2 V c).after 5 t)
    ∗ owns (c : Thread nD τ) (msL2_6 t) fullShare ((datL2 V c).after 6 t)
    ∗ owns (c : Thread nD τ) (msL2_7 t) fullShare ((datL2 V c).after 7 t)
    ∗ owns (c : Thread nD τ) (msL2_8 t) fullShare ((datL2 V c).after 8 t)
    ∗ owns (c : Thread nD τ) (msL2_9 t) fullShare ((datL2 V c).after 9 t)
    ∗ owns (c : Thread nD τ) (msL2_10 t) fullShare ((datL2 V c).after 10 t)
    ∗ owns (c : Thread nD τ) (msL2_11 t) fullShare ((datL2 V c).after 11 t)
    ∗ owns (c : Thread nD τ) (msL2_12 t) fullShare ((datL2 V c).after 12 t)
    ∗ owns (c : Thread nD τ) (msL2_13 t) fullShare ((datL2 V c).after 13 t)
    ∗ owns (c : Thread nD τ) (msL2_14 t) fullShare ((datL2 V c).after 14 t)
    ∗ owns (c : Thread nD τ) (msL2_15 t) fullShare ((datL2 V c).after 15 t)
    ∗ owns (c : Thread nD τ) (msL2_16 t) fullShare ((datL2 V c).after 16 t))

set_option maxHeartbeats 4000000 in
/-- The body at any point: the inputs' memrefs hold their blocks; the point is the first or a later one, and at a later
    one the pool's buffer holds what the point before left; so the body's run applies; the invariant passes through
    unread; the core owes nothing throughout. -/
theorem sound_bodyL2 (V : (c : Dev nD) → (b : Ref sig .tc) → Buf (Elt F) ((c : Thread nD τ).loc b)) (c : Dev nD) (t : Fin cfg2.N) :
    bodyPreL2 V c t ⊢ wp frame (wpE (defs₀ (F := F)) Variants.none c none) Set.univ (bodyAt2 t) (fun _ => bodyPostL2 V c t) := by
  unfold bodyPreL2 bodyPostL2 bodyAt2
  simp only [beforeL2_0, beforeL2_1, beforeL2_2, beforeL2_3, beforeL2_4, beforeL2_5, beforeL2_6, beforeL2_7, beforeL2_8, beforeL2_9, beforeL2_10, beforeL2_11, beforeL2_12, beforeL2_13, beforeL2_14]
  rw [show (datL2 V c).Φ t.succ = (datL2 V c).Φ t.castSucc from rfl,
    show (datL2 V c).owesAt () t.succ = (datL2 V c).owesAt () t.castSucc from rfl,
    after0_L2, after1_L2, after2_L2, after3_L2, after4_L2, after5_L2, after6_L2, after7_L2, after8_L2, after9_L2, after10_L2, after11_L2, after12_L2, after13_L2, after14_L2, after15_L2, after16_L2]
  have hN : t.val < 50 := lt_of_lt_of_eq t.isLt (show cfg2.N = 50 from N_2)
  by_cases h0 : t.val % 50 = 0
  · rw [hOutL2_A V c t h0, poolAtL2_A V c t h0]
    unfold outL2_A_15 outL2_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL2_A c (grid2.coords t) _ _ _ _ _ _ _ _ _ _ _ _ _ _ _ _ _ _ _ _ _ _ _ _ _ _ _ _ _ _ _ _ _ _ ((hcondL2_0 t).mpr h0) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL2_A_15 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL2_A_16 c _ _ _ _ _ _ _ _ _ _ _ _ _ _ _ _ _ _ _ _ _ _ _ _ _ _ _ _ _ _ _ _ _ _ _ _ _ _ _ _ _ _ _ _ _ _ _ _ _ _ _)
  · rw [hOutL2_B V c t h0, poolAtL2_B V c t h0]
    simp only [beforeL2_16_B V c t h0]
    unfold outL2_B_15 outL2_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL2_B c (grid2.coords t) _ _ _ _ _ _ _ _ _ _ _ _ _ _ _ _ _ _ _ _ _ _ _ _ _ _ _ _ _ _ _ _ _ _ (fun h => h0 ((hcondL2_0 t).mp h)) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL2_B_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL2_B_16 c _ _ _ _ _ _ _ _ _ _ _ _ _ _ _ _ _ _ _ _ _ _ _ _ _ _ _ _ _ _ _ _ _ _ _ _ _ _ _ _ _ _ _ _ _ _ _ _ _ _ _ _)

/-- The body meets the pipeline's obligation at every point. -/
theorem body_obligationL2 (V : (c : Dev nD) → (b : Ref sig .tc) → Buf (Elt F) ((c : Thread nD τ).loc b)) (c : Dev nD) : BodyObligation (datL2 (F := F) V c) (defs₀ (F := F)) Variants.none () Set.univ := fun t => by
  rw [bigSep_W2, bigSep_W2]
  exact sound_bodyL2 V c t

end Cert.Kernel.Hand

end
-- ==== Proof.K.L3Runs.lean ====
/-
  Layer region 3, what the runs of its body share: each window's block as the region finds its array, that an
  input window's staging buffer holds its block at every point (fetched there or kept from the point before), the
  body's branch on the grid coordinate in closed form, and the staging memrefs the body is called with.
  `V` is the TensorCore's buffer contents when the region is entered.
-/
import proofs.«426741_j36421322670671_1_alg».proof.Proof.Gen.Kernel.Launch
import proofs.«426741_j36421322670671_1_alg».proof.Proof.Gen.Kernel.Skeleton
import proofs.«426741_j36421322670671_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it. -/
def iblkL3 (V : (c : Dev nD) → (b : Ref sig .tc) → Buf (Elt F) ((c : Thread nD τ).loc b)) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input window's staging buffer holds its block at every point -/

/-- Input window 0: for any proof data whose array is the region-entry contents and whose body leaves the block in
    place, the current staging buffer holds the block at every point, fetched there or not. -/
theorem beforeL3_0_of (V : (c : Dev nD) → (b : Ref sig .tc) → Buf (Elt F) ((c : Thread nD τ).loc b)) {c : Dev nD} (dat : Dat τ (Elt F) Unit ℕ (UR sig nD τ) ℕ cfg3 c) (hA : dat.A 0 = V c (Pipeline.arrRef spec3 0))
    (hafter : ∀ t, dat.after 0 t = iblkL3 V c 0 t) (t : Fin cfg3.N) (d) : dat.before 0 t d = iblkL3 V c 0 t :=
  (dat.before_in_eq_fetched 0 rfl (fun _ => rfl) (fun _ _ _ => rfl) (fun t => by rw [hafter]; unfold Dat.blockOf iblkL3; rw [hA]; try rfl) t d).trans
    (by unfold Dat.fetched Dat.blockOf iblkL3; rw [hA]; try rfl)

/-- Input window 1: for any proof data whose array is the region-entry contents and whose body leaves the block in
    place, the current staging buffer holds the block at every point, fetched there or not. -/
theorem beforeL3_1_of (V : (c : Dev nD) → (b : Ref sig .tc) → Buf (Elt F) ((c : Thread nD τ).loc b)) {c : Dev nD} (dat : Dat τ (Elt F) Unit ℕ (UR sig nD τ) ℕ cfg3 c) (hA : dat.A 1 = V c (Pipeline.arrRef spec3 1))
    (hafter : ∀ t, dat.after 1 t = iblkL3 V c 1 t) (t : Fin cfg3.N) (d) : dat.before 1 t d = iblkL3 V c 1 t :=
  (dat.before_in_eq_fetched 1 rfl (fun _ => rfl) (fun _ _ _ => rfl) (fun t => by rw [hafter]; unfold Dat.blockOf iblkL3; rw [hA]; try rfl) t d).trans
    (by unfold Dat.fetched Dat.blockOf iblkL3; rw [hA]; try rfl)

/-- Input window 2: for any proof data whose array is the region-entry contents and whose body leaves the block in
    place, the current staging buffer holds the block at every point, fetched there or not. -/
theorem beforeL3_2_of (V : (c : Dev nD) → (b : Ref sig .tc) → Buf (Elt F) ((c : Thread nD τ).loc b)) {c : Dev nD} (dat : Dat τ (Elt F) Unit ℕ (UR sig nD τ) ℕ cfg3 c) (hA : dat.A 2 = V c (Pipeline.arrRef spec3 2))
    (hafter : ∀ t, dat.after 2 t = iblkL3 V c 2 t) (t : Fin cfg3.N) (d) : dat.before 2 t d = iblkL3 V c 2 t :=
  (dat.before_in_eq_fetched 2 rfl (fun _ => rfl) (fun _ _ _ => rfl) (fun t => by rw [hafter]; unfold Dat.blockOf iblkL3; rw [hA]; try rfl) t d).trans
    (by unfold Dat.fetched Dat.blockOf iblkL3; rw [hA]; try rfl)

/-- Input window 3: for any proof data whose array is the region-entry contents and whose body leaves the block in
    place, the current staging buffer holds the block at every point, fetched there or not. -/
theorem beforeL3_3_of (V : (c : Dev nD) → (b : Ref sig .tc) → Buf (Elt F) ((c : Thread nD τ).loc b)) {c : Dev nD} (dat : Dat τ (Elt F) Unit ℕ (UR sig nD τ) ℕ cfg3 c) (hA : dat.A 3 = V c (Pipeline.arrRef spec3 3))
    (hafter : ∀ t, dat.after 3 t = iblkL3 V c 3 t) (t : Fin cfg3.N) (d) : dat.before 3 t d = iblkL3 V c 3 t :=
  (dat.before_in_eq_fetched 3 rfl (fun _ => rfl) (fun _ _ _ => rfl) (fun t => by rw [hafter]; unfold Dat.blockOf iblkL3; rw [hA]; try rfl) t d).trans
    (by unfold Dat.fetched Dat.blockOf iblkL3; rw [hA]; try rfl)

/-- Input window 4: for any proof data whose array is the region-entry contents and whose body leaves the block in
    place, the current staging buffer holds the block at every point, fetched there or not. -/
theorem beforeL3_4_of (V : (c : Dev nD) → (b : Ref sig .tc) → Buf (Elt F) ((c : Thread nD τ).loc b)) {c : Dev nD} (dat : Dat τ (Elt F) Unit ℕ (UR sig nD τ) ℕ cfg3 c) (hA : dat.A 4 = V c (Pipeline.arrRef spec3 4))
    (hafter : ∀ t, dat.after 4 t = iblkL3 V c 4 t) (t : Fin cfg3.N) (d) : dat.before 4 t d = iblkL3 V c 4 t :=
  (dat.before_in_eq_fetched 4 rfl (fun _ => rfl) (fun _ _ _ => rfl) (fun t => by rw [hafter]; unfold Dat.blockOf iblkL3; rw [hA]; try rfl) t d).trans
    (by unfold Dat.fetched Dat.blockOf iblkL3; rw [hA]; try rfl)

/-- Input window 5: for any proof data whose array is the region-entry contents and whose body leaves the block in
    place, the current staging buffer holds the block at every point, fetched there or not. -/
theorem beforeL3_5_of (V : (c : Dev nD) → (b : Ref sig .tc) → Buf (Elt F) ((c : Thread nD τ).loc b)) {c : Dev nD} (dat : Dat τ (Elt F) Unit ℕ (UR sig nD τ) ℕ cfg3 c) (hA : dat.A 5 = V c (Pipeline.arrRef spec3 5))
    (hafter : ∀ t, dat.after 5 t = iblkL3 V c 5 t) (t : Fin cfg3.N) (d) : dat.before 5 t d = iblkL3 V c 5 t :=
  (dat.before_in_eq_fetched 5 rfl (fun _ => rfl) (fun _ _ _ => rfl) (fun t => by rw [hafter]; unfold Dat.blockOf iblkL3; rw [hA]; try rfl) t d).trans
    (by unfold Dat.fetched Dat.blockOf iblkL3; rw [hA]; try rfl)

/-- Input window 6: for any proof data whose array is the region-entry contents and whose body leaves the block in
    place, the current staging buffer holds the block at every point, fetched there or not. -/
theorem beforeL3_6_of (V : (c : Dev nD) → (b : Ref sig .tc) → Buf (Elt F) ((c : Thread nD τ).loc b)) {c : Dev nD} (dat : Dat τ (Elt F) Unit ℕ (UR sig nD τ) ℕ cfg3 c) (hA : dat.A 6 = V c (Pipeline.arrRef spec3 6))
    (hafter : ∀ t, dat.after 6 t = iblkL3 V c 6 t) (t : Fin cfg3.N) (d) : dat.before 6 t d = iblkL3 V c 6 t :=
  (dat.before_in_eq_fetched 6 rfl (fun _ => rfl) (fun _ _ _ => rfl) (fun t => by rw [hafter]; unfold Dat.blockOf iblkL3; rw [hA]; try rfl) t d).trans
    (by unfold Dat.fetched Dat.blockOf iblkL3; rw [hA]; try rfl)

/-- Input window 7: for any proof data whose array is the region-entry contents and whose body leaves the block in
    place, the current staging buffer holds the block at every point, fetched there or not. -/
theorem beforeL3_7_of (V : (c : Dev nD) → (b : Ref sig .tc) → Buf (Elt F) ((c : Thread nD τ).loc b)) {c : Dev nD} (dat : Dat τ (Elt F) Unit ℕ (UR sig nD τ) ℕ cfg3 c) (hA : dat.A 7 = V c (Pipeline.arrRef spec3 7))
    (hafter : ∀ t, dat.after 7 t = iblkL3 V c 7 t) (t : Fin cfg3.N) (d) : dat.before 7 t d = iblkL3 V c 7 t :=
  (dat.before_in_eq_fetched 7 rfl (fun _ => rfl) (fun _ _ _ => rfl) (fun t => by rw [hafter]; unfold Dat.blockOf iblkL3; rw [hA]; try rfl) t d).trans
    (by unfold Dat.fetched Dat.blockOf iblkL3; rw [hA]; try rfl)

/-- Input window 8: for any proof data whose array is the region-entry contents and whose body leaves the block in
    place, the current staging buffer holds the block at every point, fetched there or not. -/
theorem beforeL3_8_of (V : (c : Dev nD) → (b : Ref sig .tc) → Buf (Elt F) ((c : Thread nD τ).loc b)) {c : Dev nD} (dat : Dat τ (Elt F) Unit ℕ (UR sig nD τ) ℕ cfg3 c) (hA : dat.A 8 = V c (Pipeline.arrRef spec3 8))
    (hafter : ∀ t, dat.after 8 t = iblkL3 V c 8 t) (t : Fin cfg3.N) (d) : dat.before 8 t d = iblkL3 V c 8 t :=
  (dat.before_in_eq_fetched 8 rfl (fun _ => rfl) (fun _ _ _ => rfl) (fun t => by rw [hafter]; unfold Dat.blockOf iblkL3; rw [hA]; try rfl) t d).trans
    (by unfold Dat.fetched Dat.blockOf iblkL3; rw [hA]; try rfl)

/-- Input window 9: for any proof data whose array is the region-entry contents and whose body leaves the block in
    place, the current staging buffer holds the block at every point, fetched there or not. -/
theorem beforeL3_9_of (V : (c : Dev nD) → (b : Ref sig .tc) → Buf (Elt F) ((c : Thread nD τ).loc b)) {c : Dev nD} (dat : Dat τ (Elt F) Unit ℕ (UR sig nD τ) ℕ cfg3 c) (hA : dat.A 9 = V c (Pipeline.arrRef spec3 9))
    (hafter : ∀ t, dat.after 9 t = iblkL3 V c 9 t) (t : Fin cfg3.N) (d) : dat.before 9 t d = iblkL3 V c 9 t :=
  (dat.before_in_eq_fetched 9 rfl (fun _ => rfl) (fun _ _ _ => rfl) (fun t => by rw [hafter]; unfold Dat.blockOf iblkL3; rw [hA]; try rfl) t d).trans
    (by unfold Dat.fetched Dat.blockOf iblkL3; rw [hA]; try rfl)

/-- Input window 10: for any proof data whose array is the region-entry contents and whose body leaves the block in
    place, the current staging buffer holds the block at every point, fetched there or not. -/
theorem beforeL3_10_of (V : (c : Dev nD) → (b : Ref sig .tc) → Buf (Elt F) ((c : Thread nD τ).loc b)) {c : Dev nD} (dat : Dat τ (Elt F) Unit ℕ (UR sig nD τ) ℕ cfg3 c) (hA : dat.A 10 = V c (Pipeline.arrRef spec3 10))
    (hafter : ∀ t, dat.after 10 t = iblkL3 V c 10 t) (t : Fin cfg3.N) (d) : dat.before 10 t d = iblkL3 V c 10 t :=
  (dat.before_in_eq_fetched 10 rfl (fun _ => rfl) (fun _ _ _ => rfl) (fun t => by rw [hafter]; unfold Dat.blockOf iblkL3; rw [hA]; try rfl) t d).trans
    (by unfold Dat.fetched Dat.blockOf iblkL3; rw [hA]; try rfl)

/-- Input window 11: for any proof data whose array is the region-entry contents and whose body leaves the block in
    place, the current staging buffer holds the block at every point, fetched there or not. -/
theorem beforeL3_11_of (V : (c : Dev nD) → (b : Ref sig .tc) → Buf (Elt F) ((c : Thread nD τ).loc b)) {c : Dev nD} (dat : Dat τ (Elt F) Unit ℕ (UR sig nD τ) ℕ cfg3 c) (hA : dat.A 11 = V c (Pipeline.arrRef spec3 11))
    (hafter : ∀ t, dat.after 11 t = iblkL3 V c 11 t) (t : Fin cfg3.N) (d) : dat.before 11 t d = iblkL3 V c 11 t :=
  (dat.before_in_eq_fetched 11 rfl (fun _ => rfl) (fun _ _ _ => rfl) (fun t => by rw [hafter]; unfold Dat.blockOf iblkL3; rw [hA]; try rfl) t d).trans
    (by unfold Dat.fetched Dat.blockOf iblkL3; rw [hA]; try rfl)

/-- Input window 12: for any proof data whose array is the region-entry contents and whose body leaves the block in
    place, the current staging buffer holds the block at every point, fetched there or not. -/
theorem beforeL3_12_of (V : (c : Dev nD) → (b : Ref sig .tc) → Buf (Elt F) ((c : Thread nD τ).loc b)) {c : Dev nD} (dat : Dat τ (Elt F) Unit ℕ (UR sig nD τ) ℕ cfg3 c) (hA : dat.A 12 = V c (Pipeline.arrRef spec3 12))
    (hafter : ∀ t, dat.after 12 t = iblkL3 V c 12 t) (t : Fin cfg3.N) (d) : dat.before 12 t d = iblkL3 V c 12 t :=
  (dat.before_in_eq_fetched 12 rfl (fun _ => rfl) (fun _ _ _ => rfl) (fun t => by rw [hafter]; unfold Dat.blockOf iblkL3; rw [hA]; try rfl) t d).trans
    (by unfold Dat.fetched Dat.blockOf iblkL3; rw [hA]; try rfl)

/-- Input window 13: for any proof data whose array is the region-entry contents and whose body leaves the block in
    place, the current staging buffer holds the block at every point, fetched there or not. -/
theorem beforeL3_13_of (V : (c : Dev nD) → (b : Ref sig .tc) → Buf (Elt F) ((c : Thread nD τ).loc b)) {c : Dev nD} (dat : Dat τ (Elt F) Unit ℕ (UR sig nD τ) ℕ cfg3 c) (hA : dat.A 13 = V c (Pipeline.arrRef spec3 13))
    (hafter : ∀ t, dat.after 13 t = iblkL3 V c 13 t) (t : Fin cfg3.N) (d) : dat.before 13 t d = iblkL3 V c 13 t :=
  (dat.before_in_eq_fetched 13 rfl (fun _ => rfl) (fun _ _ _ => rfl) (fun t => by rw [hafter]; unfold Dat.blockOf iblkL3; rw [hA]; try rfl) t d).trans
    (by unfold Dat.fetched Dat.blockOf iblkL3; rw [hA]; try rfl)

/-- Input window 14: for any proof data whose array is the region-entry contents and whose body leaves the block in
    place, the current staging buffer holds the block at every point, fetched there or not. -/
theorem beforeL3_14_of (V : (c : Dev nD) → (b : Ref sig .tc) → Buf (Elt F) ((c : Thread nD τ).loc b)) {c : Dev nD} (dat : Dat τ (Elt F) Unit ℕ (UR sig nD τ) ℕ cfg3 c) (hA : dat.A 14 = V c (Pipeline.arrRef spec3 14))
    (hafter : ∀ t, dat.after 14 t = iblkL3 V c 14 t) (t : Fin cfg3.N) (d) : dat.before 14 t d = iblkL3 V c 14 t :=
  (dat.before_in_eq_fetched 14 rfl (fun _ => rfl) (fun _ _ _ => rfl) (fun t => by rw [hafter]; unfold Dat.blockOf iblkL3; rw [hA]; try rfl) t d).trans
    (by unfold Dat.fetched Dat.blockOf iblkL3; rw [hA]; try rfl)

/-! ## The body's branch -/

/-- The condition of the body's branch (`k3_h1`: the grid coordinate is zero), from the grid coordinates. -/
abbrev condL3_0 (i : grid3.Coords) : Prop := (Scalar.cmpi .ne (Scalar.extui (Scalar.cmpi .eq (BitVec.ofNat 32 (i 0).val) 0#32)) 0#32) = 1#1
/-- It holds at the first point only. -/
theorem hcondL3_0 : ∀ t : Fin cfg3.N, condL3_0 (grid3.coords t) ↔ t.val % 50 = 0 :=
  (by decide +kernel : ∀ t : Fin grid3.N, condL3_0 (grid3.coords t) ↔ t.val % 50 = 0)

/-! ## The staging memrefs -/

/-- One staging buffer of each output window, through which its contents are stated. -/
abbrev VOL3_15 : View sig .tc .vmem S1000x128 .f32 := (Memref.whole cc3_stg15_0 : Memref sig .tc .vmem S1000x128 .f32).view
abbrev VOL3_16 : View sig .tc .vmem S512x128 .f32 := (Memref.whole cc3_stg16_0 : Memref sig .tc .vmem S512x128 .f32).view

/-- Each window's current staging memref at point `t`, as the pipeline passes it to the body, and its wholeness. -/
abbrev msL3_0 (t : Fin cfg3.N) : Memref sig .tc .vmem S1000x128 .f32 := win3_0.stage (cfg3.slots t 0)
abbrev hsL3_0 (t : Fin cfg3.N) : (msL3_0 t).IsWhole := hstage3_0 ((cfg3.slots t 0).cast nbuf3_0)
abbrev msL3_1 (t : Fin cfg3.N) : Memref sig .tc .vmem S1000x128 .f32 := win3_1.stage (cfg3.slots t 1)
abbrev hsL3_1 (t : Fin cfg3.N) : (msL3_1 t).IsWhole := hstage3_1 ((cfg3.slots t 1).cast nbuf3_1)
abbrev msL3_2 (t : Fin cfg3.N) : Memref sig .tc .vmem S1000x1 .i32 := win3_2.stage (cfg3.slots t 2)
abbrev hsL3_2 (t : Fin cfg3.N) : (msL3_2 t).IsWhole := hstage3_2 ((cfg3.slots t 2).cast nbuf3_2)
abbrev msL3_3 (t : Fin cfg3.N) : Memref sig .tc .vmem S128x128 .f32 := win3_3.stage (cfg3.slots t 3)
abbrev hsL3_3 (t : Fin cfg3.N) : (msL3_3 t).IsWhole := hstage3_3 ((cfg3.slots t 3).cast nbuf3_3)
abbrev msL3_4 (t : Fin cfg3.N) : Memref sig .tc .vmem S128 .f32 := win3_4.stage (cfg3.slots t 4)
abbrev hsL3_4 (t : Fin cfg3.N) : (msL3_4 t).IsWhole := hstage3_4 ((cfg3.slots t 4).cast nbuf3_4)
abbrev msL3_5 (t : Fin cfg3.N) : Memref sig .tc .vmem S128 .f32 := win3_5.stage (cfg3.slots t 5)
abbrev hsL3_5 (t : Fin cfg3.N) : (msL3_5 t).IsWhole := hstage3_5 ((cfg3.slots t 5).cast nbuf3_5)
abbrev msL3_6 (t : Fin cfg3.N) : Memref sig .tc .vmem S128 .f32 := win3_6.stage (cfg3.slots t 6)
abbrev hsL3_6 (t : Fin cfg3.N) : (msL3_6 t).IsWhole := hstage3_6 ((cfg3.slots t 6).cast nbuf3_6)
abbrev msL3_7 (t : Fin cfg3.N) : Memref sig .tc .vmem S128 .f32 := win3_7.stage (cfg3.slots t 7)
abbrev hsL3_7 (t : Fin cfg3.N) : (msL3_7 t).IsWhole := hstage3_7 ((cfg3.slots t 7).cast nbuf3_7)
abbrev msL3_8 (t : Fin cfg3.N) : Memref sig .tc .vmem S128 .f32 := win3_8.stage (cfg3.slots t 8)
abbrev hsL3_8 (t : Fin cfg3.N) : (msL3_8 t).IsWhole := hstage3_8 ((cfg3.slots t 8).cast nbuf3_8)
abbrev msL3_9 (t : Fin cfg3.N) : Memref sig .tc .vmem S128x128 .f32 := win3_9.stage (cfg3.slots t 9)
abbrev hsL3_9 (t : Fin cfg3.N) : (msL3_9 t).IsWhole := hstage3_9 ((cfg3.slots t 9).cast nbuf3_9)
abbrev msL3_10 (t : Fin cfg3.N) : Memref sig .tc .vmem S128 .f32 := win3_10.stage (cfg3.slots t 10)
abbrev hsL3_10 (t : Fin cfg3.N) : (msL3_10 t).IsWhole := hstage3_10 ((cfg3.slots t 10).cast nbuf3_10)
abbrev msL3_11 (t : Fin cfg3.N) : Memref sig .tc .vmem S128 .f32 := win3_11.stage (cfg3.slots t 11)
abbrev hsL3_11 (t : Fin cfg3.N) : (msL3_11 t).IsWhole := hstage3_11 ((cfg3.slots t 11).cast nbuf3_11)
abbrev msL3_12 (t : Fin cfg3.N) : Memref sig .tc .vmem S128 .f32 := win3_12.stage (cfg3.slots t 12)
abbrev hsL3_12 (t : Fin cfg3.N) : (msL3_12 t).IsWhole := hstage3_12 ((cfg3.slots t 12).cast nbuf3_12)
abbrev msL3_13 (t : Fin cfg3.N) : Memref sig .tc .vmem S128 .f32 := win3_13.stage (cfg3.slots t 13)
abbrev hsL3_13 (t : Fin cfg3.N) : (msL3_13 t).IsWhole := hstage3_13 ((cfg3.slots t 13).cast nbuf3_13)
abbrev msL3_14 (t : Fin cfg3.N) : Memref sig .tc .vmem S128 .f32 := win3_14.stage (cfg3.slots t 14)
abbrev hsL3_14 (t : Fin cfg3.N) : (msL3_14 t).IsWhole := hstage3_14 ((cfg3.slots t 14).cast nbuf3_14)
abbrev msL3_15 (t : Fin cfg3.N) : Memref sig .tc .vmem S1000x128 .f32 := win3_15.stage (cfg3.slots t 15)
abbrev hsL3_15 (t : Fin cfg3.N) : (msL3_15 t).IsWhole := hstage3_15 ((cfg3.slots t 15).cast nbuf3_15)
abbrev msL3_16 (t : Fin cfg3.N) : Memref sig .tc .vmem S512x128 .f32 := win3_16.stage (cfg3.slots t 16)
abbrev hsL3_16 (t : Fin cfg3.N) : (msL3_16 t).IsWhole := hstage3_16 ((cfg3.slots t 16).cast nbuf3_16)

end Cert.Kernel.Hand

end
-- ==== Proof.K.L3RunA.lean ====
/-
  Layer region 3, the run of its body at the first grid point (the branch on the grid coordinate taken: the pool's
  buffer is zeroed before the tile is added): on whole staging memrefs, the inputs' at their contents and the outputs'
  at anything, the body runs to the continuation holding the inputs' as they were and each output's buffer with the
  stores the body made, listed last first.
-/
import proofs.«426741_j36421322670671_1_alg».proof.Proof.K.L3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at the first point, as pieces (last first),
    with the body's triple: the pieces are found by running the body. -/
noncomputable def kernelRunL3_A (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc3__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc3__layer_kernel_eq_skeleton]; unfold cc3__layer_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.Kernel.Hand

end
-- ==== Proof.K.L3RunB.lean ====
/-
  Layer region 3, the run of its body at a later grid point (the branch on the grid coordinate not taken: the tile is
  added to what the pool's buffer holds): on whole staging memrefs, the inputs' at their contents, the pool's at its
  running contents and the new features' at anything, the body runs to the continuation holding the inputs' as they
  were and each output's buffer with the stores the body made, listed last first.
-/
import proofs.«426741_j36421322670671_1_alg».proof.Proof.K.L3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at a later point, as pieces (last first),
    with the body's triple: the pieces are found by running the body. -/
noncomputable def kernelRunL3_B (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc3__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc3__layer_kernel_eq_skeleton]; unfold cc3__layer_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.Kernel.Hand

end
-- ==== Proof.K.L3Dat.lean ====
/-
  Layer region 3: what its pipeline's proof data say. Every input window's staging buffer holds its block of the
  array the region found; window 15's (the new node features) holds the block the body stores at the point;
  window 16's (the pool) holds the running sum the body carries from point to point.
  `V` is the TensorCore's buffer contents when the region is entered.
-/
import proofs.«426741_j36421322670671_1_alg».proof.Proof.K.L3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer, by the case of its branch -/

/-- The body's stores into window 15's buffer (the new node features) at the first point tile its block, so they cover it. -/
theorem coverL3_A_15 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S1000x128.Idx) :
    ∃ pc ∈ (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1000x128.size (by sl_kernel_rfl) y

/-- What the body leaves in window 15's staging buffer at the first point: its stores read back. -/
def outL3_A_15 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S1000x128 .f32 :=
  VOL3_15.read (Elt F) (VOL3_15.writes (Elt F) VOL3_15.junk (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- The body's stores into window 16's buffer (the pool) at the first point tile its block, so they cover it. -/
theorem coverL3_A_16 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S512x128.Idx) :
    ∃ pc ∈ (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x128.size (by sl_kernel_rfl) y

/-- What the body leaves in window 16's staging buffer at the first point: its stores read back. -/
def outL3_A_16 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S512x128 .f32 :=
  VOL3_16.read (Elt F) (VOL3_16.writes (Elt F) VOL3_16.junk (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- The body's stores into window 15's buffer (the new node features) at a later point tile its block, so they cover it. -/
theorem coverL3_B_15 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S1000x128.Idx) :
    ∃ pc ∈ (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1, y ∈ pc.1.set :=
  View.cover_of_tiledL (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1 S1000x128.size (by sl_kernel_rfl) y

/-- What the body leaves in window 15's staging buffer at a later point: its stores read back. -/
def outL3_B_15 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S1000x128 .f32 :=
  VOL3_15.read (Elt F) (VOL3_15.writes (Elt F) VOL3_15.junk (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1)

/-- The body's stores into window 16's buffer (the pool) at a later point tile its block, so they cover it. -/
theorem coverL3_B_16 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S512x128.Idx) :
    ∃ pc ∈ (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1, y ∈ pc.1.set :=
  View.cover_of_tiledL (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1 S512x128.size (by sl_kernel_rfl) y

/-- What the body leaves in window 16's staging buffer at a later point: its stores read back. -/
def outL3_B_16 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S512x128 .f32 :=
  VOL3_16.read (Elt F) (VOL3_16.writes (Elt F) VOL3_16.junk (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1)

/-! ## What the outputs hold after each point -/

/-- What the body leaves in window 16's staging buffer after point `n`: the pool summed over tiles `0 … n`. At the
    first point the buffer is zeroed and the tile added; at a later point the tile is added to what the point before
    left (the buffer is not written back between). -/
def poolAtL3 (V : (c : Dev nD) → (b : Ref sig .tc) → Buf (Elt F) ((c : Thread nD τ).loc b)) (c : Dev nD) : (n : ℕ) → n < cfg3.N → Vec F S512x128 .f32
  | 0, hn => outL3_A_16 c (grid3.coords ⟨0, hn⟩) (msL3_0 ⟨0, hn⟩) (hsL3_0 ⟨0, hn⟩) (msL3_1 ⟨0, hn⟩) (hsL3_1 ⟨0, hn⟩) (msL3_2 ⟨0, hn⟩) (hsL3_2 ⟨0, hn⟩) (msL3_3 ⟨0, hn⟩) (hsL3_3 ⟨0, hn⟩) (msL3_4 ⟨0, hn⟩) (hsL3_4 ⟨0, hn⟩) (msL3_5 ⟨0, hn⟩) (hsL3_5 ⟨0, hn⟩) (msL3_6 ⟨0, hn⟩) (hsL3_6 ⟨0, hn⟩) (msL3_7 ⟨0, hn⟩) (hsL3_7 ⟨0, hn⟩) (msL3_8 ⟨0, hn⟩) (hsL3_8 ⟨0, hn⟩) (msL3_9 ⟨0, hn⟩) (hsL3_9 ⟨0, hn⟩) (msL3_10 ⟨0, hn⟩) (hsL3_10 ⟨0, hn⟩) (msL3_11 ⟨0, hn⟩) (hsL3_11 ⟨0, hn⟩) (msL3_12 ⟨0, hn⟩) (hsL3_12 ⟨0, hn⟩) (msL3_13 ⟨0, hn⟩) (hsL3_13 ⟨0, hn⟩) (msL3_14 ⟨0, hn⟩) (hsL3_14 ⟨0, hn⟩) (msL3_15 ⟨0, hn⟩) (hsL3_15 ⟨0, hn⟩) (msL3_16 ⟨0, hn⟩) (hsL3_16 ⟨0, hn⟩) ((hcondL3_0 ⟨0, hn⟩).mpr (Nat.zero_mod _)) (iblkL3 V c 0 ⟨0, hn⟩) (iblkL3 V c 1 ⟨0, hn⟩) (iblkL3 V c 2 ⟨0, hn⟩) (iblkL3 V c 3 ⟨0, hn⟩) (iblkL3 V c 4 ⟨0, hn⟩) (iblkL3 V c 5 ⟨0, hn⟩) (iblkL3 V c 6 ⟨0, hn⟩) (iblkL3 V c 7 ⟨0, hn⟩) (iblkL3 V c 8 ⟨0, hn⟩) (iblkL3 V c 9 ⟨0, hn⟩) (iblkL3 V c 10 ⟨0, hn⟩) (iblkL3 V c 11 ⟨0, hn⟩) (iblkL3 V c 12 ⟨0, hn⟩) (iblkL3 V c 13 ⟨0, hn⟩) (iblkL3 V c 14 ⟨0, hn⟩)
  | n + 1, hn =>
    if h0 : (n + 1) % 50 = 0 then
      outL3_A_16 c (grid3.coords ⟨n + 1, hn⟩) (msL3_0 ⟨n + 1, hn⟩) (hsL3_0 ⟨n + 1, hn⟩) (msL3_1 ⟨n + 1, hn⟩) (hsL3_1 ⟨n + 1, hn⟩) (msL3_2 ⟨n + 1, hn⟩) (hsL3_2 ⟨n + 1, hn⟩) (msL3_3 ⟨n + 1, hn⟩) (hsL3_3 ⟨n + 1, hn⟩) (msL3_4 ⟨n + 1, hn⟩) (hsL3_4 ⟨n + 1, hn⟩) (msL3_5 ⟨n + 1, hn⟩) (hsL3_5 ⟨n + 1, hn⟩) (msL3_6 ⟨n + 1, hn⟩) (hsL3_6 ⟨n + 1, hn⟩) (msL3_7 ⟨n + 1, hn⟩) (hsL3_7 ⟨n + 1, hn⟩) (msL3_8 ⟨n + 1, hn⟩) (hsL3_8 ⟨n + 1, hn⟩) (msL3_9 ⟨n + 1, hn⟩) (hsL3_9 ⟨n + 1, hn⟩) (msL3_10 ⟨n + 1, hn⟩) (hsL3_10 ⟨n + 1, hn⟩) (msL3_11 ⟨n + 1, hn⟩) (hsL3_11 ⟨n + 1, hn⟩) (msL3_12 ⟨n + 1, hn⟩) (hsL3_12 ⟨n + 1, hn⟩) (msL3_13 ⟨n + 1, hn⟩) (hsL3_13 ⟨n + 1, hn⟩) (msL3_14 ⟨n + 1, hn⟩) (hsL3_14 ⟨n + 1, hn⟩) (msL3_15 ⟨n + 1, hn⟩) (hsL3_15 ⟨n + 1, hn⟩) (msL3_16 ⟨n + 1, hn⟩) (hsL3_16 ⟨n + 1, hn⟩) ((hcondL3_0 ⟨n + 1, hn⟩).mpr h0) (iblkL3 V c 0 ⟨n + 1, hn⟩) (iblkL3 V c 1 ⟨n + 1, hn⟩) (iblkL3 V c 2 ⟨n + 1, hn⟩) (iblkL3 V c 3 ⟨n + 1, hn⟩) (iblkL3 V c 4 ⟨n + 1, hn⟩) (iblkL3 V c 5 ⟨n + 1, hn⟩) (iblkL3 V c 6 ⟨n + 1, hn⟩) (iblkL3 V c 7 ⟨n + 1, hn⟩) (iblkL3 V c 8 ⟨n + 1, hn⟩) (iblkL3 V c 9 ⟨n + 1, hn⟩) (iblkL3 V c 10 ⟨n + 1, hn⟩) (iblkL3 V c 11 ⟨n + 1, hn⟩) (iblkL3 V c 12 ⟨n + 1, hn⟩) (iblkL3 V c 13 ⟨n + 1, hn⟩) (iblkL3 V c 14 ⟨n + 1, hn⟩)
    else
      outL3_B_16 c (grid3.coords ⟨n + 1, hn⟩) (msL3_0 ⟨n + 1, hn⟩) (hsL3_0 ⟨n + 1, hn⟩) (msL3_1 ⟨n + 1, hn⟩) (hsL3_1 ⟨n + 1, hn⟩) (msL3_2 ⟨n + 1, hn⟩) (hsL3_2 ⟨n + 1, hn⟩) (msL3_3 ⟨n + 1, hn⟩) (hsL3_3 ⟨n + 1, hn⟩) (msL3_4 ⟨n + 1, hn⟩) (hsL3_4 ⟨n + 1, hn⟩) (msL3_5 ⟨n + 1, hn⟩) (hsL3_5 ⟨n + 1, hn⟩) (msL3_6 ⟨n + 1, hn⟩) (hsL3_6 ⟨n + 1, hn⟩) (msL3_7 ⟨n + 1, hn⟩) (hsL3_7 ⟨n + 1, hn⟩) (msL3_8 ⟨n + 1, hn⟩) (hsL3_8 ⟨n + 1, hn⟩) (msL3_9 ⟨n + 1, hn⟩) (hsL3_9 ⟨n + 1, hn⟩) (msL3_10 ⟨n + 1, hn⟩) (hsL3_10 ⟨n + 1, hn⟩) (msL3_11 ⟨n + 1, hn⟩) (hsL3_11 ⟨n + 1, hn⟩) (msL3_12 ⟨n + 1, hn⟩) (hsL3_12 ⟨n + 1, hn⟩) (msL3_13 ⟨n + 1, hn⟩) (hsL3_13 ⟨n + 1, hn⟩) (msL3_14 ⟨n + 1, hn⟩) (hsL3_14 ⟨n + 1, hn⟩) (msL3_15 ⟨n + 1, hn⟩) (hsL3_15 ⟨n + 1, hn⟩) (msL3_16 ⟨n + 1, hn⟩) (hsL3_16 ⟨n + 1, hn⟩) (fun h => h0 ((hcondL3_0 ⟨n + 1, hn⟩).mp h)) (iblkL3 V c 0 ⟨n + 1, hn⟩) (iblkL3 V c 1 ⟨n + 1, hn⟩) (iblkL3 V c 2 ⟨n + 1, hn⟩) (iblkL3 V c 3 ⟨n + 1, hn⟩) (iblkL3 V c 4 ⟨n + 1, hn⟩) (iblkL3 V c 5 ⟨n + 1, hn⟩) (iblkL3 V c 6 ⟨n + 1, hn⟩) (iblkL3 V c 7 ⟨n + 1, hn⟩) (iblkL3 V c 8 ⟨n + 1, hn⟩) (iblkL3 V c 9 ⟨n + 1, hn⟩) (iblkL3 V c 10 ⟨n + 1, hn⟩) (iblkL3 V c 11 ⟨n + 1, hn⟩) (iblkL3 V c 12 ⟨n + 1, hn⟩) (iblkL3 V c 13 ⟨n + 1, hn⟩) (iblkL3 V c 14 ⟨n + 1, hn⟩) (poolAtL3 V c n (Nat.lt_of_succ_lt hn))

/-- The pool's buffer at the first point. -/
theorem poolAtL3_A (V : (c : Dev nD) → (b : Ref sig .tc) → Buf (Elt F) ((c : Thread nD τ).loc b)) (c : Dev nD) (t : Fin cfg3.N) (h0 : t.val % 50 = 0) :
    poolAtL3 V c t.val t.isLt = outL3_A_16 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) ((hcondL3_0 t).mpr h0) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) := by
  obtain ⟨n, hn⟩ := t
  cases n with
  | zero => exact rfl
  | succ n => exact (dif_pos h0).trans rfl

/-- The pool's buffer at a later point, over what the point before left. -/
theorem poolAtL3_B (V : (c : Dev nD) → (b : Ref sig .tc) → Buf (Elt F) ((c : Thread nD τ).loc b)) (c : Dev nD) (t : Fin cfg3.N) (h0 : ¬t.val % 50 = 0) :
    poolAtL3 V c t.val t.isLt = outL3_B_16 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) (fun h => h0 ((hcondL3_0 t).mp h)) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) (poolAtL3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the body leaves in window 15's staging buffer at point `t`: the tile's new node features. -/
def hOutL3 (V : (c : Dev nD) → (b : Ref sig .tc) → Buf (Elt F) ((c : Thread nD τ).loc b)) (c : Dev nD) (t : Fin cfg3.N) : Vec F S1000x128 .f32 :=
  if h0 : t.val % 50 = 0 then
    outL3_A_15 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) ((hcondL3_0 t).mpr h0) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t)
  else
    outL3_B_15 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) (fun h => h0 ((hcondL3_0 t).mp h)) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) (poolAtL3 V c (t.val - 1) (Nat.lt_of_le_of_lt (Nat.sub_le _ _) t.isLt))

theorem hOutL3_A (V : (c : Dev nD) → (b : Ref sig .tc) → Buf (Elt F) ((c : Thread nD τ).loc b)) (c : Dev nD) (t : Fin cfg3.N) (h0 : t.val % 50 = 0) :
    hOutL3 V c t = outL3_A_15 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) ((hcondL3_0 t).mpr h0) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) := dif_pos h0

theorem hOutL3_B (V : (c : Dev nD) → (b : Ref sig .tc) → Buf (Elt F) ((c : Thread nD τ).loc b)) (c : Dev nD) (t : Fin cfg3.N) (h0 : ¬t.val % 50 = 0) :
    hOutL3 V c t = outL3_B_15 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) (fun h => h0 ((hcondL3_0 t).mp h)) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) (poolAtL3 V c (t.val - 1) (Nat.lt_of_le_of_lt (Nat.sub_le _ _) t.isLt)) := dif_neg h0

/-! ## The pipeline's proof data -/

/-- The proof data of this region's pipeline on core `c`. -/
def datL3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblkL3 V c 0 t
    | ⟨1, _⟩ => iblkL3 V c 1 t
    | ⟨2, _⟩ => iblkL3 V c 2 t
    | ⟨3, _⟩ => iblkL3 V c 3 t
    | ⟨4, _⟩ => iblkL3 V c 4 t
    | ⟨5, _⟩ => iblkL3 V c 5 t
    | ⟨6, _⟩ => iblkL3 V c 6 t
    | ⟨7, _⟩ => iblkL3 V c 7 t
    | ⟨8, _⟩ => iblkL3 V c 8 t
    | ⟨9, _⟩ => iblkL3 V c 9 t
    | ⟨10, _⟩ => iblkL3 V c 10 t
    | ⟨11, _⟩ => iblkL3 V c 11 t
    | ⟨12, _⟩ => iblkL3 V c 12 t
    | ⟨13, _⟩ => iblkL3 V c 13 t
    | ⟨14, _⟩ => iblkL3 V c 14 t
    | ⟨15, _⟩ => hOutL3 V c t
    | ⟨16, _⟩ => poolAtL3 V c t.val t.isLt
    | ⟨_ + 17, h⟩ => absurd h (Nat.not_lt.2 (Nat.le_add_left _ _))
  Φ _ := Pipeline.ΦA spec3 c
  q _ := fullShare
  owed _ := 0

/-- The proof data's arrays are the region-entry contents. -/
theorem A_eqL3 (V : (c : Dev nD) → (b : Ref sig .tc) → Buf (Elt F) ((c : Thread nD τ).loc b)) (c : Dev nD) (w : Fin cfg3.W) : (datL3 V c).A w = V c (Pipeline.arrRef spec3 w) := by
  dsimp only [datL3]

/-- What the body leaves, window by window. -/
theorem after0_L3 (V : (c : Dev nD) → (b : Ref sig .tc) → Buf (Elt F) ((c : Thread nD τ).loc b)) (c : Dev nD) (t : Fin cfg3.N) : (datL3 V c).after 0 t = iblkL3 V c 0 t := by dsimp only [datL3]
theorem after1_L3 (V : (c : Dev nD) → (b : Ref sig .tc) → Buf (Elt F) ((c : Thread nD τ).loc b)) (c : Dev nD) (t : Fin cfg3.N) : (datL3 V c).after 1 t = iblkL3 V c 1 t := by dsimp only [datL3]
theorem after2_L3 (V : (c : Dev nD) → (b : Ref sig .tc) → Buf (Elt F) ((c : Thread nD τ).loc b)) (c : Dev nD) (t : Fin cfg3.N) : (datL3 V c).after 2 t = iblkL3 V c 2 t := by dsimp only [datL3]
theorem after3_L3 (V : (c : Dev nD) → (b : Ref sig .tc) → Buf (Elt F) ((c : Thread nD τ).loc b)) (c : Dev nD) (t : Fin cfg3.N) : (datL3 V c).after 3 t = iblkL3 V c 3 t := by dsimp only [datL3]
theorem after4_L3 (V : (c : Dev nD) → (b : Ref sig .tc) → Buf (Elt F) ((c : Thread nD τ).loc b)) (c : Dev nD) (t : Fin cfg3.N) : (datL3 V c).after 4 t = iblkL3 V c 4 t := by dsimp only [datL3]
theorem after5_L3 (V : (c : Dev nD) → (b : Ref sig .tc) → Buf (Elt F) ((c : Thread nD τ).loc b)) (c : Dev nD) (t : Fin cfg3.N) : (datL3 V c).after 5 t = iblkL3 V c 5 t := by dsimp only [datL3]
theorem after6_L3 (V : (c : Dev nD) → (b : Ref sig .tc) → Buf (Elt F) ((c : Thread nD τ).loc b)) (c : Dev nD) (t : Fin cfg3.N) : (datL3 V c).after 6 t = iblkL3 V c 6 t := by dsimp only [datL3]
theorem after7_L3 (V : (c : Dev nD) → (b : Ref sig .tc) → Buf (Elt F) ((c : Thread nD τ).loc b)) (c : Dev nD) (t : Fin cfg3.N) : (datL3 V c).after 7 t = iblkL3 V c 7 t := by dsimp only [datL3]
theorem after8_L3 (V : (c : Dev nD) → (b : Ref sig .tc) → Buf (Elt F) ((c : Thread nD τ).loc b)) (c : Dev nD) (t : Fin cfg3.N) : (datL3 V c).after 8 t = iblkL3 V c 8 t := by dsimp only [datL3]
theorem after9_L3 (V : (c : Dev nD) → (b : Ref sig .tc) → Buf (Elt F) ((c : Thread nD τ).loc b)) (c : Dev nD) (t : Fin cfg3.N) : (datL3 V c).after 9 t = iblkL3 V c 9 t := by dsimp only [datL3]
theorem after10_L3 (V : (c : Dev nD) → (b : Ref sig .tc) → Buf (Elt F) ((c : Thread nD τ).loc b)) (c : Dev nD) (t : Fin cfg3.N) : (datL3 V c).after 10 t = iblkL3 V c 10 t := by dsimp only [datL3]
theorem after11_L3 (V : (c : Dev nD) → (b : Ref sig .tc) → Buf (Elt F) ((c : Thread nD τ).loc b)) (c : Dev nD) (t : Fin cfg3.N) : (datL3 V c).after 11 t = iblkL3 V c 11 t := by dsimp only [datL3]
theorem after12_L3 (V : (c : Dev nD) → (b : Ref sig .tc) → Buf (Elt F) ((c : Thread nD τ).loc b)) (c : Dev nD) (t : Fin cfg3.N) : (datL3 V c).after 12 t = iblkL3 V c 12 t := by dsimp only [datL3]
theorem after13_L3 (V : (c : Dev nD) → (b : Ref sig .tc) → Buf (Elt F) ((c : Thread nD τ).loc b)) (c : Dev nD) (t : Fin cfg3.N) : (datL3 V c).after 13 t = iblkL3 V c 13 t := by dsimp only [datL3]
theorem after14_L3 (V : (c : Dev nD) → (b : Ref sig .tc) → Buf (Elt F) ((c : Thread nD τ).loc b)) (c : Dev nD) (t : Fin cfg3.N) : (datL3 V c).after 14 t = iblkL3 V c 14 t := by dsimp only [datL3]
theorem after15_L3 (V : (c : Dev nD) → (b : Ref sig .tc) → Buf (Elt F) ((c : Thread nD τ).loc b)) (c : Dev nD) (t : Fin cfg3.N) : (datL3 V c).after 15 t = hOutL3 V c t := by dsimp only [datL3]
theorem after16_L3 (V : (c : Dev nD) → (b : Ref sig .tc) → Buf (Elt F) ((c : Thread nD τ).loc b)) (c : Dev nD) (t : Fin cfg3.N) : (datL3 V c).after 16 t = poolAtL3 V c t.val t.isLt := by dsimp only [datL3]

/-- Each input's current staging buffer holds its block at every point, fetched there or not. -/
theorem beforeL3_0 (V : (c : Dev nD) → (b : Ref sig .tc) → Buf (Elt F) ((c : Thread nD τ).loc b)) (c : Dev nD) (t : Fin cfg3.N) (d) : (datL3 V c).before 0 t d = iblkL3 V c 0 t :=
  beforeL3_0_of V (datL3 V c) (A_eqL3 V c 0) (after0_L3 V c) t d
theorem beforeL3_1 (V : (c : Dev nD) → (b : Ref sig .tc) → Buf (Elt F) ((c : Thread nD τ).loc b)) (c : Dev nD) (t : Fin cfg3.N) (d) : (datL3 V c).before 1 t d = iblkL3 V c 1 t :=
  beforeL3_1_of V (datL3 V c) (A_eqL3 V c 1) (after1_L3 V c) t d
theorem beforeL3_2 (V : (c : Dev nD) → (b : Ref sig .tc) → Buf (Elt F) ((c : Thread nD τ).loc b)) (c : Dev nD) (t : Fin cfg3.N) (d) : (datL3 V c).before 2 t d = iblkL3 V c 2 t :=
  beforeL3_2_of V (datL3 V c) (A_eqL3 V c 2) (after2_L3 V c) t d
theorem beforeL3_3 (V : (c : Dev nD) → (b : Ref sig .tc) → Buf (Elt F) ((c : Thread nD τ).loc b)) (c : Dev nD) (t : Fin cfg3.N) (d) : (datL3 V c).before 3 t d = iblkL3 V c 3 t :=
  beforeL3_3_of V (datL3 V c) (A_eqL3 V c 3) (after3_L3 V c) t d
theorem beforeL3_4 (V : (c : Dev nD) → (b : Ref sig .tc) → Buf (Elt F) ((c : Thread nD τ).loc b)) (c : Dev nD) (t : Fin cfg3.N) (d) : (datL3 V c).before 4 t d = iblkL3 V c 4 t :=
  beforeL3_4_of V (datL3 V c) (A_eqL3 V c 4) (after4_L3 V c) t d
theorem beforeL3_5 (V : (c : Dev nD) → (b : Ref sig .tc) → Buf (Elt F) ((c : Thread nD τ).loc b)) (c : Dev nD) (t : Fin cfg3.N) (d) : (datL3 V c).before 5 t d = iblkL3 V c 5 t :=
  beforeL3_5_of V (datL3 V c) (A_eqL3 V c 5) (after5_L3 V c) t d
theorem beforeL3_6 (V : (c : Dev nD) → (b : Ref sig .tc) → Buf (Elt F) ((c : Thread nD τ).loc b)) (c : Dev nD) (t : Fin cfg3.N) (d) : (datL3 V c).before 6 t d = iblkL3 V c 6 t :=
  beforeL3_6_of V (datL3 V c) (A_eqL3 V c 6) (after6_L3 V c) t d
theorem beforeL3_7 (V : (c : Dev nD) → (b : Ref sig .tc) → Buf (Elt F) ((c : Thread nD τ).loc b)) (c : Dev nD) (t : Fin cfg3.N) (d) : (datL3 V c).before 7 t d = iblkL3 V c 7 t :=
  beforeL3_7_of V (datL3 V c) (A_eqL3 V c 7) (after7_L3 V c) t d
theorem beforeL3_8 (V : (c : Dev nD) → (b : Ref sig .tc) → Buf (Elt F) ((c : Thread nD τ).loc b)) (c : Dev nD) (t : Fin cfg3.N) (d) : (datL3 V c).before 8 t d = iblkL3 V c 8 t :=
  beforeL3_8_of V (datL3 V c) (A_eqL3 V c 8) (after8_L3 V c) t d
theorem beforeL3_9 (V : (c : Dev nD) → (b : Ref sig .tc) → Buf (Elt F) ((c : Thread nD τ).loc b)) (c : Dev nD) (t : Fin cfg3.N) (d) : (datL3 V c).before 9 t d = iblkL3 V c 9 t :=
  beforeL3_9_of V (datL3 V c) (A_eqL3 V c 9) (after9_L3 V c) t d
theorem beforeL3_10 (V : (c : Dev nD) → (b : Ref sig .tc) → Buf (Elt F) ((c : Thread nD τ).loc b)) (c : Dev nD) (t : Fin cfg3.N) (d) : (datL3 V c).before 10 t d = iblkL3 V c 10 t :=
  beforeL3_10_of V (datL3 V c) (A_eqL3 V c 10) (after10_L3 V c) t d
theorem beforeL3_11 (V : (c : Dev nD) → (b : Ref sig .tc) → Buf (Elt F) ((c : Thread nD τ).loc b)) (c : Dev nD) (t : Fin cfg3.N) (d) : (datL3 V c).before 11 t d = iblkL3 V c 11 t :=
  beforeL3_11_of V (datL3 V c) (A_eqL3 V c 11) (after11_L3 V c) t d
theorem beforeL3_12 (V : (c : Dev nD) → (b : Ref sig .tc) → Buf (Elt F) ((c : Thread nD τ).loc b)) (c : Dev nD) (t : Fin cfg3.N) (d) : (datL3 V c).before 12 t d = iblkL3 V c 12 t :=
  beforeL3_12_of V (datL3 V c) (A_eqL3 V c 12) (after12_L3 V c) t d
theorem beforeL3_13 (V : (c : Dev nD) → (b : Ref sig .tc) → Buf (Elt F) ((c : Thread nD τ).loc b)) (c : Dev nD) (t : Fin cfg3.N) (d) : (datL3 V c).before 13 t d = iblkL3 V c 13 t :=
  beforeL3_13_of V (datL3 V c) (A_eqL3 V c 13) (after13_L3 V c) t d
theorem beforeL3_14 (V : (c : Dev nD) → (b : Ref sig .tc) → Buf (Elt F) ((c : Thread nD τ).loc b)) (c : Dev nD) (t : Fin cfg3.N) (d) : (datL3 V c).before 14 t d = iblkL3 V c 14 t :=
  beforeL3_14_of V (datL3 V c) (A_eqL3 V c 14) (after14_L3 V c) t d

/-- At a later point the pool's current staging buffer holds what the body left at the point before: the window's block
    index is constant and the buffer is written back at the last point only. -/
theorem beforeL3_16_B (V : (c : Dev nD) → (b : Ref sig .tc) → Buf (Elt F) ((c : Thread nD τ).loc b)) (c : Dev nD) (t : Fin cfg3.N) (h0 : ¬t.val % 50 = 0) (d) :
    (datL3 V c).before 16 t d = poolAtL3 V c (t.val - 1) (Nat.lt_of_le_of_lt (Nat.sub_le _ _) t.isLt) := by
  have hN : t.val < 50 := lt_of_lt_of_eq t.isLt (show cfg3.N = 50 from N_3)
  rw [Dat.before_out_kept _ 16 rfl t (by omega) (Bool.eq_false_iff.mpr fun h => by have := (flush3_16 _).mp h; dsimp only at this; omega)
    (fun _ => rfl) (fun _ _ => rfl)]
  dsimp only [datL3]

/-! ## The body obligation, at a generic point -/

/-- What the body is called with at point `t`, the windows one by one, -/
def bodyPreL3 (V : (c : Dev nD) → (b : Ref sig .tc) → Buf (Elt F) ((c : Thread nD τ).loc b)) (c : Dev nD) (t : Fin cfg3.N) : sProp 𝕄 :=
  iprop((datL3 V c).Φ t.castSucc ∗ (datL3 V c).owesAt () t.castSucc
    ∗ (∃ d, owns (c : Thread nD τ) (msL3_0 t) fullShare ((datL3 V c).before 0 t d))
    ∗ (∃ d, owns (c : Thread nD τ) (msL3_1 t) fullShare ((datL3 V c).before 1 t d))
    ∗ (∃ d, owns (c : Thread nD τ) (msL3_2 t) fullShare ((datL3 V c).before 2 t d))
    ∗ (∃ d, owns (c : Thread nD τ) (msL3_3 t) fullShare ((datL3 V c).before 3 t d))
    ∗ (∃ d, owns (c : Thread nD τ) (msL3_4 t) fullShare ((datL3 V c).before 4 t d))
    ∗ (∃ d, owns (c : Thread nD τ) (msL3_5 t) fullShare ((datL3 V c).before 5 t d))
    ∗ (∃ d, owns (c : Thread nD τ) (msL3_6 t) fullShare ((datL3 V c).before 6 t d))
    ∗ (∃ d, owns (c : Thread nD τ) (msL3_7 t) fullShare ((datL3 V c).before 7 t d))
    ∗ (∃ d, owns (c : Thread nD τ) (msL3_8 t) fullShare ((datL3 V c).before 8 t d))
    ∗ (∃ d, owns (c : Thread nD τ) (msL3_9 t) fullShare ((datL3 V c).before 9 t d))
    ∗ (∃ d, owns (c : Thread nD τ) (msL3_10 t) fullShare ((datL3 V c).before 10 t d))
    ∗ (∃ d, owns (c : Thread nD τ) (msL3_11 t) fullShare ((datL3 V c).before 11 t d))
    ∗ (∃ d, owns (c : Thread nD τ) (msL3_12 t) fullShare ((datL3 V c).before 12 t d))
    ∗ (∃ d, owns (c : Thread nD τ) (msL3_13 t) fullShare ((datL3 V c).before 13 t d))
    ∗ (∃ d, owns (c : Thread nD τ) (msL3_14 t) fullShare ((datL3 V c).before 14 t d))
    ∗ (∃ d, owns (c : Thread nD τ) (msL3_15 t) fullShare ((datL3 V c).before 15 t d))
    ∗ (∃ d, owns (c : Thread nD τ) (msL3_16 t) fullShare ((datL3 V c).before 16 t d)))

/-- and what it returns. -/
def bodyPostL3 (V : (c : Dev nD) → (b : Ref sig .tc) → Buf (Elt F) ((c : Thread nD τ).loc b)) (c : Dev nD) (t : Fin cfg3.N) : sProp 𝕄 :=
  iprop((datL3 V c).Φ t.succ ∗ (datL3 V c).owesAt () t.succ
    ∗ owns (c : Thread nD τ) (msL3_0 t) fullShare ((datL3 V c).after 0 t)
    ∗ owns (c : Thread nD τ) (msL3_1 t) fullShare ((datL3 V c).after 1 t)
    ∗ owns (c : Thread nD τ) (msL3_2 t) fullShare ((datL3 V c).after 2 t)
    ∗ owns (c : Thread nD τ) (msL3_3 t) fullShare ((datL3 V c).after 3 t)
    ∗ owns (c : Thread nD τ) (msL3_4 t) fullShare ((datL3 V c).after 4 t)
    ∗ owns (c : Thread nD τ) (msL3_5 t) fullShare ((datL3 V c).after 5 t)
    ∗ owns (c : Thread nD τ) (msL3_6 t) fullShare ((datL3 V c).after 6 t)
    ∗ owns (c : Thread nD τ) (msL3_7 t) fullShare ((datL3 V c).after 7 t)
    ∗ owns (c : Thread nD τ) (msL3_8 t) fullShare ((datL3 V c).after 8 t)
    ∗ owns (c : Thread nD τ) (msL3_9 t) fullShare ((datL3 V c).after 9 t)
    ∗ owns (c : Thread nD τ) (msL3_10 t) fullShare ((datL3 V c).after 10 t)
    ∗ owns (c : Thread nD τ) (msL3_11 t) fullShare ((datL3 V c).after 11 t)
    ∗ owns (c : Thread nD τ) (msL3_12 t) fullShare ((datL3 V c).after 12 t)
    ∗ owns (c : Thread nD τ) (msL3_13 t) fullShare ((datL3 V c).after 13 t)
    ∗ owns (c : Thread nD τ) (msL3_14 t) fullShare ((datL3 V c).after 14 t)
    ∗ owns (c : Thread nD τ) (msL3_15 t) fullShare ((datL3 V c).after 15 t)
    ∗ owns (c : Thread nD τ) (msL3_16 t) fullShare ((datL3 V c).after 16 t))

set_option maxHeartbeats 4000000 in
/-- The body at any point: the inputs' memrefs hold their blocks; the point is the first or a later one, and at a later
    one the pool's buffer holds what the point before left; so the body's run applies; the invariant passes through
    unread; the core owes nothing throughout. -/
theorem sound_bodyL3 (V : (c : Dev nD) → (b : Ref sig .tc) → Buf (Elt F) ((c : Thread nD τ).loc b)) (c : Dev nD) (t : Fin cfg3.N) :
    bodyPreL3 V c t ⊢ wp frame (wpE (defs₀ (F := F)) Variants.none c none) Set.univ (bodyAt3 t) (fun _ => bodyPostL3 V c t) := by
  unfold bodyPreL3 bodyPostL3 bodyAt3
  simp only [beforeL3_0, beforeL3_1, beforeL3_2, beforeL3_3, beforeL3_4, beforeL3_5, beforeL3_6, beforeL3_7, beforeL3_8, beforeL3_9, beforeL3_10, beforeL3_11, beforeL3_12, beforeL3_13, beforeL3_14]
  rw [show (datL3 V c).Φ t.succ = (datL3 V c).Φ t.castSucc from rfl,
    show (datL3 V c).owesAt () t.succ = (datL3 V c).owesAt () t.castSucc from rfl,
    after0_L3, after1_L3, after2_L3, after3_L3, after4_L3, after5_L3, after6_L3, after7_L3, after8_L3, after9_L3, after10_L3, after11_L3, after12_L3, after13_L3, after14_L3, after15_L3, after16_L3]
  have hN : t.val < 50 := lt_of_lt_of_eq t.isLt (show cfg3.N = 50 from N_3)
  by_cases h0 : t.val % 50 = 0
  · rw [hOutL3_A V c t h0, poolAtL3_A V c t h0]
    unfold outL3_A_15 outL3_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL3_A c (grid3.coords t) _ _ _ _ _ _ _ _ _ _ _ _ _ _ _ _ _ _ _ _ _ _ _ _ _ _ _ _ _ _ _ _ _ _ ((hcondL3_0 t).mpr h0) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL3_A_15 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL3_A_16 c _ _ _ _ _ _ _ _ _ _ _ _ _ _ _ _ _ _ _ _ _ _ _ _ _ _ _ _ _ _ _ _ _ _ _ _ _ _ _ _ _ _ _ _ _ _ _ _ _ _ _)
  · rw [hOutL3_B V c t h0, poolAtL3_B V c t h0]
    simp only [beforeL3_16_B V c t h0]
    unfold outL3_B_15 outL3_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL3_B c (grid3.coords t) _ _ _ _ _ _ _ _ _ _ _ _ _ _ _ _ _ _ _ _ _ _ _ _ _ _ _ _ _ _ _ _ _ _ (fun h => h0 ((hcondL3_0 t).mp h)) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL3_B_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL3_B_16 c _ _ _ _ _ _ _ _ _ _ _ _ _ _ _ _ _ _ _ _ _ _ _ _ _ _ _ _ _ _ _ _ _ _ _ _ _ _ _ _ _ _ _ _ _ _ _ _ _ _ _ _)

/-- The body meets the pipeline's obligation at every point. -/
theorem body_obligationL3 (V : (c : Dev nD) → (b : Ref sig .tc) → Buf (Elt F) ((c : Thread nD τ).loc b)) (c : Dev nD) : BodyObligation (datL3 (F := F) V c) (defs₀ (F := F)) Variants.none () Set.univ := fun t => by
  rw [bigSep_W3, bigSep_W3]
  exact sound_bodyL3 V c t

end Cert.Kernel.Hand

end
-- ==== Proof.K.C4Dat.lean ====
/-
  The classifier region: one grid point, five input windows (the pooled features, two weight matrices, two biases)
  and one output window holding the scores the body stores.
  `V` is the TensorCore's buffer contents when the region is entered.
-/
import proofs.«426741_j36421322670671_1_alg».proof.Proof.Gen.Kernel.Launch
import proofs.«426741_j36421322670671_1_alg».proof.Proof.Gen.Kernel.Skeleton
import proofs.«426741_j36421322670671_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it. -/
def iblkC4 (V : (c : Dev nD) → (b : Ref sig .tc) → Buf (Elt F) ((c : Thread nD τ).loc b)) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at the point, for any proof data whose array is the
    entry contents and whose body leaves the block in place: the window is uncut and never idle. -/
theorem beforeC4_0_of (V : (c : Dev nD) → (b : Ref sig .tc) → Buf (Elt F) ((c : Thread nD τ).loc b)) {c : Dev nD} (dat : Dat τ (Elt F) Unit ℕ (UR sig nD τ) ℕ cfg4 c) (hA : dat.A 0 = V c (Pipeline.arrRef spec4 0))
    (hafter : ∀ t, dat.after 0 t = iblkC4 V c 0 t) (t : Fin cfg4.N) (d) : dat.before 0 t d = iblkC4 V c 0 t :=
  (dat.before_in_eq_fetched 0 rfl (fun _ => rfl) (fun _ _ _ => rfl) (fun t => by rw [hafter]; unfold Dat.blockOf iblkC4; rw [hA]; try rfl) t d).trans
    (by unfold Dat.fetched Dat.blockOf iblkC4; rw [hA]; try rfl)

/-- Input window 1's current staging buffer holds its block at the point, for any proof data whose array is the
    entry contents and whose body leaves the block in place: the window is uncut and never idle. -/
theorem beforeC4_1_of (V : (c : Dev nD) → (b : Ref sig .tc) → Buf (Elt F) ((c : Thread nD τ).loc b)) {c : Dev nD} (dat : Dat τ (Elt F) Unit ℕ (UR sig nD τ) ℕ cfg4 c) (hA : dat.A 1 = V c (Pipeline.arrRef spec4 1))
    (hafter : ∀ t, dat.after 1 t = iblkC4 V c 1 t) (t : Fin cfg4.N) (d) : dat.before 1 t d = iblkC4 V c 1 t :=
  (dat.before_in_eq_fetched 1 rfl (fun _ => rfl) (fun _ _ _ => rfl) (fun t => by rw [hafter]; unfold Dat.blockOf iblkC4; rw [hA]; try rfl) t d).trans
    (by unfold Dat.fetched Dat.blockOf iblkC4; rw [hA]; try rfl)

/-- Input window 2's current staging buffer holds its block at the point, for any proof data whose array is the
    entry contents and whose body leaves the block in place: the window is uncut and never idle. -/
theorem beforeC4_2_of (V : (c : Dev nD) → (b : Ref sig .tc) → Buf (Elt F) ((c : Thread nD τ).loc b)) {c : Dev nD} (dat : Dat τ (Elt F) Unit ℕ (UR sig nD τ) ℕ cfg4 c) (hA : dat.A 2 = V c (Pipeline.arrRef spec4 2))
    (hafter : ∀ t, dat.after 2 t = iblkC4 V c 2 t) (t : Fin cfg4.N) (d) : dat.before 2 t d = iblkC4 V c 2 t :=
  (dat.before_in_eq_fetched 2 rfl (fun _ => rfl) (fun _ _ _ => rfl) (fun t => by rw [hafter]; unfold Dat.blockOf iblkC4; rw [hA]; try rfl) t d).trans
    (by unfold Dat.fetched Dat.blockOf iblkC4; rw [hA]; try rfl)

/-- Input window 3's current staging buffer holds its block at the point, for any proof data whose array is the
    entry contents and whose body leaves the block in place: the window is uncut and never idle. -/
theorem beforeC4_3_of (V : (c : Dev nD) → (b : Ref sig .tc) → Buf (Elt F) ((c : Thread nD τ).loc b)) {c : Dev nD} (dat : Dat τ (Elt F) Unit ℕ (UR sig nD τ) ℕ cfg4 c) (hA : dat.A 3 = V c (Pipeline.arrRef spec4 3))
    (hafter : ∀ t, dat.after 3 t = iblkC4 V c 3 t) (t : Fin cfg4.N) (d) : dat.before 3 t d = iblkC4 V c 3 t :=
  (dat.before_in_eq_fetched 3 rfl (fun _ => rfl) (fun _ _ _ => rfl) (fun t => by rw [hafter]; unfold Dat.blockOf iblkC4; rw [hA]; try rfl) t d).trans
    (by unfold Dat.fetched Dat.blockOf iblkC4; rw [hA]; try rfl)

/-- Input window 4's current staging buffer holds its block at the point, for any proof data whose array is the
    entry contents and whose body leaves the block in place: the window is uncut and never idle. -/
theorem beforeC4_4_of (V : (c : Dev nD) → (b : Ref sig .tc) → Buf (Elt F) ((c : Thread nD τ).loc b)) {c : Dev nD} (dat : Dat τ (Elt F) Unit ℕ (UR sig nD τ) ℕ cfg4 c) (hA : dat.A 4 = V c (Pipeline.arrRef spec4 4))
    (hafter : ∀ t, dat.after 4 t = iblkC4 V c 4 t) (t : Fin cfg4.N) (d) : dat.before 4 t d = iblkC4 V c 4 t :=
  (dat.before_in_eq_fetched 4 rfl (fun _ => rfl) (fun _ _ _ => rfl) (fun t => by rw [hafter]; unfold Dat.blockOf iblkC4; rw [hA]; try rfl) t d).trans
    (by unfold Dat.fetched Dat.blockOf iblkC4; rw [hA]; try rfl)

/-! ## The body's accesses: every one through the whole of its buffer -/

abbrev rFeat : Rect S512x512 := Rect.unit (s := S512x512) ![0, 0] S512x512.size inb_S512x512_S512x512_0_0
abbrev rW1 : Rect S512x128 := Rect.unit (s := S512x128) ![0, 0] S512x128.size inb_S512x128_S512x128_0_0
abbrev rB1 : Rect S128 := Rect.unit (s := S128) ![0] S128.size inb_S128_S128_0
abbrev rW2 : Rect S128x10 := Rect.unit (s := S128x10) ![0, 0] S128x10.size inb_S128x10_S128x10_0_0
abbrev rB2 : Rect S10 := Rect.unit (s := S10) ![0] S10.size inb_S10_S10_0
abbrev rScores : Rect S512x10 := Rect.unit (s := S512x10) ![0, 0] S512x10.size inb_S512x10_S512x10_0_0

/-! ## What the body leaves in the output window's buffer -/

/-- The output's staging buffer after the body, from the five inputs' buffers: its one store as a piece. -/
def scoresOf (x0 : Vec F S512x512 .f32) (x1 : Vec F S512x128 .f32) (x2 : Vec F S128 .f32) (x3 : Vec F S128x10 .f32) (x4 : Vec F S10 .f32) : Vec F S512x10 .f32 :=
  View.canon [⟨rScores, k4_pay1 (View.ld x0 rFeat) (View.ld x1 rW1) (View.ld x2 rB1) (View.ld x3 rW2) (View.ld x4 rB2)⟩]

/-- The store covers the buffer. -/
theorem cover_scores (p0 : Vec F S512x10 .f32) (y : S512x10.Idx) :
    ∃ pc ∈ ([⟨rScores, p0⟩] : List (View.Piece (Elt F) S512x10 .f32)), y ∈ pc.1.set :=
  View.cover_of_tiled [⟨rScores, p0⟩] S512x10.size (by rfl) y

/-- Read through whole buffers, the one store leaves the payload of the inputs' contents. -/
theorem scoresOf_eq (x0 : Vec F S512x512 .f32) (x1 : Vec F S512x128 .f32) (x2 : Vec F S128 .f32) (x3 : Vec F S128x10 .f32) (x4 : Vec F S10 .f32) :
    scoresOf x0 x1 x2 x3 x4 = k4_pay1 x0 x1 x2 x3 x4 := by
  have hz2 : (![0, 0] : Fin 2 → ℕ) = fun _ => 0 := by funext a; fin_cases a <;> rfl
  have hz1 : (![0] : Fin 1 → ℕ) = fun _ => 0 := by funext a; fin_cases a; rfl
  unfold scoresOf
  rw [View.canon_unit_zero (S := S512x10) hz2]
  rw [View.ld_unit_zero (S := S512x512) hz2, View.ld_unit_zero (S := S512x128) hz2, View.ld_unit_zero (S := S128) hz1,
    View.ld_unit_zero (S := S128x10) hz2, View.ld_unit_zero (S := S10) hz1]

/-! ## The body's triple -/

set_option maxHeartbeats 1000000 in
/-- The body on whole staging memrefs, the inputs' at contents `xW` and the output's at anything, runs to the
    continuation holding the inputs' as they were and the output's at `scoresOf` of the inputs'. -/
theorem sound_kernelC4 (c : Dev nD) (E : Set ℕ) (i : grid4.Coords)
    (arg1 : Memref sig .tc .vmem S512x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S128x10 .f32) (harg4 : arg4.IsWhole)
    (arg5 : Memref sig .tc .vmem S10 .f32) (harg5 : arg5.IsWhole) (arg6 : Memref sig .tc .vmem S512x10 .f32) (harg6 : arg6.IsWhole)
    (x0 : Vec F S512x512 .f32) (x1 : Vec F S512x128 .f32) (x2 : Vec F S128 .f32) (x3 : Vec F S128x10 .f32) (x4 : Vec F S10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (scoresOf x0 x1 x2 x3 x4)) -∗ K ⟨⟩))
      ⊢ wp frame (wpE (defs₀ (F := F)) Variants.none c none) E (cc4__classifier_kernel i arg1 harg1 arg2 harg2 arg3 harg3 arg4 harg4 arg5 harg5 arg6 harg6) K := by
  simp only [cc4__classifier_kernel_eq_skeleton]; unfold cc4__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_scores _)

/-! ## The pipeline's proof data -/

/-- What the body leaves in window 5's staging buffer: the scores. -/
def scoresC4 (V : (c : Dev nD) → (b : Ref sig .tc) → Buf (Elt F) ((c : Thread nD τ).loc b)) (c : Dev nD) (t : Fin cfg4.N) : Vec F S512x10 .f32 :=
  scoresOf (iblkC4 V c 0 t) (iblkC4 V c 1 t) (iblkC4 V c 2 t) (iblkC4 V c 3 t) (iblkC4 V c 4 t)

/-- The scores are the body's payload of the five input blocks. -/
theorem scoresC4_eq (V : (c : Dev nD) → (b : Ref sig .tc) → Buf (Elt F) ((c : Thread nD τ).loc b)) (c : Dev nD) (t : Fin cfg4.N) :
    scoresC4 V c t = k4_pay1 (iblkC4 V c 0 t) (iblkC4 V c 1 t) (iblkC4 V c 2 t) (iblkC4 V c 3 t) (iblkC4 V c 4 t) :=
  scoresOf_eq (iblkC4 V c 0 t) (iblkC4 V c 1 t) (iblkC4 V c 2 t) (iblkC4 V c 3 t) (iblkC4 V c 4 t)

/-- The proof data of the classifier's pipeline on core `c`. -/
def datC4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblkC4 V c 0 t
    | ⟨1, _⟩ => iblkC4 V c 1 t
    | ⟨2, _⟩ => iblkC4 V c 2 t
    | ⟨3, _⟩ => iblkC4 V c 3 t
    | ⟨4, _⟩ => iblkC4 V c 4 t
    | ⟨5, _⟩ => scoresC4 V c t
  Φ _ := Pipeline.ΦA spec4 c
  q _ := fullShare
  owed _ := 0

/-- The proof data's arrays are the region-entry contents. -/
theorem A_eqC4 (V : (c : Dev nD) → (b : Ref sig .tc) → Buf (Elt F) ((c : Thread nD τ).loc b)) (c : Dev nD) (w : Fin cfg4.W) : (datC4 V c).A w = V c (Pipeline.arrRef spec4 w) := by
  dsimp only [datC4]

theorem after0_C4 (V : (c : Dev nD) → (b : Ref sig .tc) → Buf (Elt F) ((c : Thread nD τ).loc b)) (c : Dev nD) (t : Fin cfg4.N) : (datC4 V c).after 0 t = iblkC4 V c 0 t := by dsimp only [datC4]
theorem after1_C4 (V : (c : Dev nD) → (b : Ref sig .tc) → Buf (Elt F) ((c : Thread nD τ).loc b)) (c : Dev nD) (t : Fin cfg4.N) : (datC4 V c).after 1 t = iblkC4 V c 1 t := by dsimp only [datC4]
theorem after2_C4 (V : (c : Dev nD) → (b : Ref sig .tc) → Buf (Elt F) ((c : Thread nD τ).loc b)) (c : Dev nD) (t : Fin cfg4.N) : (datC4 V c).after 2 t = iblkC4 V c 2 t := by dsimp only [datC4]
theorem after3_C4 (V : (c : Dev nD) → (b : Ref sig .tc) → Buf (Elt F) ((c : Thread nD τ).loc b)) (c : Dev nD) (t : Fin cfg4.N) : (datC4 V c).after 3 t = iblkC4 V c 3 t := by dsimp only [datC4]
theorem after4_C4 (V : (c : Dev nD) → (b : Ref sig .tc) → Buf (Elt F) ((c : Thread nD τ).loc b)) (c : Dev nD) (t : Fin cfg4.N) : (datC4 V c).after 4 t = iblkC4 V c 4 t := by dsimp only [datC4]
theorem after5_C4 (V : (c : Dev nD) → (b : Ref sig .tc) → Buf (Elt F) ((c : Thread nD τ).loc b)) (c : Dev nD) (t : Fin cfg4.N) : (datC4 V c).after 5 t = scoresC4 V c t := by dsimp only [datC4]

/-- Each input's current staging buffer holds its block at the point. -/
theorem beforeC4_0 (V : (c : Dev nD) → (b : Ref sig .tc) → Buf (Elt F) ((c : Thread nD τ).loc b)) (c : Dev nD) (t : Fin cfg4.N) (d) : (datC4 V c).before 0 t d = iblkC4 V c 0 t :=
  beforeC4_0_of V (datC4 V c) (A_eqC4 V c 0) (after0_C4 V c) t d
theorem beforeC4_1 (V : (c : Dev nD) → (b : Ref sig .tc) → Buf (Elt F) ((c : Thread nD τ).loc b)) (c : Dev nD) (t : Fin cfg4.N) (d) : (datC4 V c).before 1 t d = iblkC4 V c 1 t :=
  beforeC4_1_of V (datC4 V c) (A_eqC4 V c 1) (after1_C4 V c) t d
theorem beforeC4_2 (V : (c : Dev nD) → (b : Ref sig .tc) → Buf (Elt F) ((c : Thread nD τ).loc b)) (c : Dev nD) (t : Fin cfg4.N) (d) : (datC4 V c).before 2 t d = iblkC4 V c 2 t :=
  beforeC4_2_of V (datC4 V c) (A_eqC4 V c 2) (after2_C4 V c) t d
theorem beforeC4_3 (V : (c : Dev nD) → (b : Ref sig .tc) → Buf (Elt F) ((c : Thread nD τ).loc b)) (c : Dev nD) (t : Fin cfg4.N) (d) : (datC4 V c).before 3 t d = iblkC4 V c 3 t :=
  beforeC4_3_of V (datC4 V c) (A_eqC4 V c 3) (after3_C4 V c) t d
theorem beforeC4_4 (V : (c : Dev nD) → (b : Ref sig .tc) → Buf (Elt F) ((c : Thread nD τ).loc b)) (c : Dev nD) (t : Fin cfg4.N) (d) : (datC4 V c).before 4 t d = iblkC4 V c 4 t :=
  beforeC4_4_of V (datC4 V c) (A_eqC4 V c 4) (after4_C4 V c) t d

/-! ## The body obligation -/

/-- What the body is called with at point `t`, the windows one by one, -/
def bodyPreC4 (V : (c : Dev nD) → (b : Ref sig .tc) → Buf (Elt F) ((c : Thread nD τ).loc b)) (c : Dev nD) (t : Fin cfg4.N) : sProp 𝕄 :=
  iprop((datC4 V c).Φ t.castSucc ∗ (datC4 V c).owesAt () t.castSucc
    ∗ (∃ d, owns (c : Thread nD τ) (st4_0 t) fullShare ((datC4 V c).before 0 t d))
    ∗ (∃ d, owns (c : Thread nD τ) (st4_1 t) fullShare ((datC4 V c).before 1 t d))
    ∗ (∃ d, owns (c : Thread nD τ) (st4_2 t) fullShare ((datC4 V c).before 2 t d))
    ∗ (∃ d, owns (c : Thread nD τ) (st4_3 t) fullShare ((datC4 V c).before 3 t d))
    ∗ (∃ d, owns (c : Thread nD τ) (st4_4 t) fullShare ((datC4 V c).before 4 t d))
    ∗ (∃ d, owns (c : Thread nD τ) (st4_5 t) fullShare ((datC4 V c).before 5 t d)))

/-- and what it returns. -/
def bodyPostC4 (V : (c : Dev nD) → (b : Ref sig .tc) → Buf (Elt F) ((c : Thread nD τ).loc b)) (c : Dev nD) (t : Fin cfg4.N) : sProp 𝕄 :=
  iprop((datC4 V c).Φ t.succ ∗ (datC4 V c).owesAt () t.succ
    ∗ owns (c : Thread nD τ) (st4_0 t) fullShare ((datC4 V c).after 0 t)
    ∗ owns (c : Thread nD τ) (st4_1 t) fullShare ((datC4 V c).after 1 t)
    ∗ owns (c : Thread nD τ) (st4_2 t) fullShare ((datC4 V c).after 2 t)
    ∗ owns (c : Thread nD τ) (st4_3 t) fullShare ((datC4 V c).after 3 t)
    ∗ owns (c : Thread nD τ) (st4_4 t) fullShare ((datC4 V c).after 4 t)
    ∗ owns (c : Thread nD τ) (st4_5 t) fullShare ((datC4 V c).after 5 t))

/-- The body at the point: the inputs' memrefs hold their blocks, so the body's triple applies; the invariant and
    the core's debts pass through unread. -/
theorem sound_bodyC4 (V : (c : Dev nD) → (b : Ref sig .tc) → Buf (Elt F) ((c : Thread nD τ).loc b)) (c : Dev nD) (t : Fin cfg4.N) :
    bodyPreC4 V c t ⊢ wp frame (wpE (defs₀ (F := F)) Variants.none c none) Set.univ (bodyAt4 t) (fun _ => bodyPostC4 V c t) := by
  unfold bodyPreC4 bodyPostC4 bodyAt4
  simp only [beforeC4_0, beforeC4_1, beforeC4_2, beforeC4_3, beforeC4_4]
  rw [show (datC4 V c).Φ t.succ = (datC4 V c).Φ t.castSucc from rfl,
    show (datC4 V c).owesAt () t.succ = (datC4 V c).owesAt () t.castSucc from rfl,
    after0_C4, after1_C4, after2_C4, after3_C4, after4_C4, after5_C4]
  iintro ⟨HΦ, Ho, ⟨%d0, H0⟩, ⟨%d1, H1⟩, ⟨%d2, H2⟩, ⟨%d3, H3⟩, ⟨%d4, H4⟩, ⟨%d5, H5⟩⟩
  iapply (sound_kernelC4 c Set.univ _ _ _ _ _ _ _ _ _ _ _ _ _ (iblkC4 V c 0 t) (iblkC4 V c 1 t) (iblkC4 V c 2 t) (iblkC4 V c 3 t) (iblkC4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets the pipeline's obligation at every point. -/
theorem body_obligationC4 (V : (c : Dev nD) → (b : Ref sig .tc) → Buf (Elt F) ((c : Thread nD τ).loc b)) (c : Dev nD) : BodyObligation (datC4 (F := F) V c) (defs₀ (F := F)) Variants.none () Set.univ := fun t => by
  rw [bigSep_W4, bigSep_W4]
  exact sound_bodyC4 V c t

end Cert.Kernel.Hand

end
-- ==== Proof.K.Chain.lean ====
/-
  The run of @main as a chain of buffer contents: what each of the five kernel regions finds in the TensorCore's
  unscoped buffers and what it leaves there, the proof data of every pipeline at its region's entry contents, and each
  region as a segment entered from the contents before it and left at the contents after it.
-/
import proofs.«426741_j36421322670671_1_alg».proof.Proof.Gen.Kernel.Launch
import proofs.«426741_j36421322670671_1_alg».proof.Proof.Gen.Kernel.Skeleton
import proofs.«426741_j36421322670671_1_alg».proof.Proof.Gen.Kernel.Points
import proofs.«426741_j36421322670671_1_alg».proof.Proof.Gen.Kernel.Regions
import proofs.«426741_j36421322670671_1_alg».proof.Proof.K.L0Dat
import proofs.«426741_j36421322670671_1_alg».proof.Proof.K.L1Dat
import proofs.«426741_j36421322670671_1_alg».proof.Proof.K.L2Dat
import proofs.«426741_j36421322670671_1_alg».proof.Proof.K.L3Dat
import proofs.«426741_j36421322670671_1_alg».proof.Proof.K.C4Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents from region to region

Each layer region changes two arrays (the tile-by-tile new node features and the pool), the classifier one (the
scores); a host stretch between two regions changes what its operations write. The contents are defined region by
region, each region's proof data read at the contents the region is entered from. -/

/-- What region 0 (layer 0) finds: the launch contents after the first host stretch. -/
abbrev entry1 : (c : Dev nD) → (b : Ref sig .tc) → Buf (Elt F) ((c : Thread nD τ).loc b) := fun c b => Gen.V1 m c b

/-- What region 0 leaves: its two output arrays at what the pipeline's write-backs leave, every other buffer as found. -/
def exitL0 (c : Dev nD) : Valuation τ sig (Elt F) :=
  Function.update (Function.update (Gen.V1 m c) main_v39_0 ((datL0 (entry1 m) c).arrAt 15 cfg0.N)) main_v39_1 ((datL0 (entry1 m) c).arrAt 16 cfg0.N)
/-- What region 1 (layer 1) finds: region 0's exit contents after the host stretch between them. -/
def entL1 (c : Dev nD) : Valuation τ sig (Elt F) := StableHlo.after hostOps1 (exitL0 m c)
/-- What region 1 leaves: its two output arrays at what the pipeline's write-backs leave, every other buffer as found. -/
def exitL1 (c : Dev nD) : Valuation τ sig (Elt F) :=
  Function.update (Function.update (entL1 m c) main_v74_0 ((datL1 (fun c b => entL1 m c b) c).arrAt 15 cfg1.N)) main_v74_1 ((datL1 (fun c b => entL1 m c b) c).arrAt 16 cfg1.N)
/-- What region 2 (layer 2) finds: region 1's exit contents after the host stretch between them. -/
def entL2 (c : Dev nD) : Valuation τ sig (Elt F) := StableHlo.after hostOps2 (exitL1 m c)
/-- What region 2 leaves: its two output arrays at what the pipeline's write-backs leave, every other buffer as found. -/
def exitL2 (c : Dev nD) : Valuation τ sig (Elt F) :=
  Function.update (Function.update (entL2 m c) main_v109_0 ((datL2 (fun c b => entL2 m c b) c).arrAt 15 cfg2.N)) main_v109_1 ((datL2 (fun c b => entL2 m c b) c).arrAt 16 cfg2.N)
/-- What region 3 (layer 3) finds: region 2's exit contents after the host stretch between them. -/
def entL3 (c : Dev nD) : Valuation τ sig (Elt F) := StableHlo.after hostOps3 (exitL2 m c)
/-- What region 3 leaves: its two output arrays at what the pipeline's write-backs leave, every other buffer as found. -/
def exitL3 (c : Dev nD) : Valuation τ sig (Elt F) :=
  Function.update (Function.update (entL3 m c) main_v144_0 ((datL3 (fun c b => entL3 m c b) c).arrAt 15 cfg3.N)) main_v144_1 ((datL3 (fun c b => entL3 m c b) c).arrAt 16 cfg3.N)
/-- What region 4 (the classifier) finds: region 3's exit contents after the last host stretch. -/
def entC4 (c : Dev nD) : Valuation τ sig (Elt F) := StableHlo.after hostOps4 (exitL3 m c)
/-- What region 4 leaves: the scores' array at what the pipeline's write-back leaves, every other buffer as found. -/
def exitC4 (c : Dev nD) : Valuation τ sig (Elt F) :=
  Function.update (entC4 m c) main_v146 ((datC4 (fun c b => entC4 m c b) c).arrAt 5 cfg4.N)

/-- What each region leaves in the buffers: after item 1 region 0's exit contents, after item 3 region 1's, after
    item 5 region 2's, after item 7 region 3's, after item 9 the classifier's. -/
def outsAll : Gen.Outs (F := F) := fun J r c =>
  match J with
  | 2 => exitL0 m c r
  | 4 => exitL1 m c r
  | 6 => exitL2 m c r
  | 8 => exitL3 m c r
  | _ => exitC4 m c r

/-! ### The contents between the items, over what the regions leave, are the chain above -/

theorem exitL0_at0 (c : Dev nD) : exitL0 m c main_v39_0 = (datL0 (entry1 m) c).arrAt 15 cfg0.N := by
  unfold exitL0
  rw [Function.update_of_ne (StableHlo.devRef_ne_of_ne (by decide)), Function.update_self]
theorem exitL0_at1 (c : Dev nD) : exitL0 m c main_v39_1 = (datL0 (entry1 m) c).arrAt 16 cfg0.N := by
  unfold exitL0
  rw [Function.update_self]
theorem V2_outsAll (c : Dev nD) : Gen.V2 m (outsAll m) c = exitL0 m c := by
  show Function.update (Function.update (Gen.V1 m c) main_v39_0 (exitL0 m c main_v39_0)) main_v39_1 (exitL0 m c main_v39_1) = exitL0 m c
  rw [exitL0_at0, exitL0_at1]; rfl

theorem V3_outsAll (c : Dev nD) : Gen.V3 m (outsAll m) c = entL1 m c := by
  show StableHlo.after hostOps1 (Gen.V2 m (outsAll m) c) = entL1 m c
  rw [V2_outsAll]; rfl
/-- What region 1 finds, over what the regions leave. -/
abbrev entry3 : (c : Dev nD) → (b : Ref sig .tc) → Buf (Elt F) ((c : Thread nD τ).loc b) := fun c b => Gen.V3 m (outsAll m) c b
theorem entry3_eq : (fun (c : Dev nD) (b : Ref sig .tc) => entL1 m c b) = entry3 m := by
  funext c b; show entL1 m c b = Gen.V3 m (outsAll m) c b; rw [V3_outsAll]
theorem exitL1_at0 (c : Dev nD) : exitL1 m c main_v74_0 = (datL1 (fun c b => entL1 m c b) c).arrAt 15 cfg1.N := by
  unfold exitL1
  rw [Function.update_of_ne (StableHlo.devRef_ne_of_ne (by decide)), Function.update_self]
theorem exitL1_at1 (c : Dev nD) : exitL1 m c main_v74_1 = (datL1 (fun c b => entL1 m c b) c).arrAt 16 cfg1.N := by
  unfold exitL1
  rw [Function.update_self]
theorem V4_outsAll (c : Dev nD) : Gen.V4 m (outsAll m) c = exitL1 m c := by
  show Function.update (Function.update (Gen.V3 m (outsAll m) c) main_v74_0 (exitL1 m c main_v74_0)) main_v74_1 (exitL1 m c main_v74_1) = exitL1 m c
  rw [V3_outsAll, exitL1_at0, exitL1_at1]; rfl

theorem V5_outsAll (c : Dev nD) : Gen.V5 m (outsAll m) c = entL2 m c := by
  show StableHlo.after hostOps2 (Gen.V4 m (outsAll m) c) = entL2 m c
  rw [V4_outsAll]; rfl
/-- What region 2 finds, over what the regions leave. -/
abbrev entry5 : (c : Dev nD) → (b : Ref sig .tc) → Buf (Elt F) ((c : Thread nD τ).loc b) := fun c b => Gen.V5 m (outsAll m) c b
theorem entry5_eq : (fun (c : Dev nD) (b : Ref sig .tc) => entL2 m c b) = entry5 m := by
  funext c b; show entL2 m c b = Gen.V5 m (outsAll m) c b; rw [V5_outsAll]
theorem exitL2_at0 (c : Dev nD) : exitL2 m c main_v109_0 = (datL2 (fun c b => entL2 m c b) c).arrAt 15 cfg2.N := by
  unfold exitL2
  rw [Function.update_of_ne (StableHlo.devRef_ne_of_ne (by decide)), Function.update_self]
theorem exitL2_at1 (c : Dev nD) : exitL2 m c main_v109_1 = (datL2 (fun c b => entL2 m c b) c).arrAt 16 cfg2.N := by
  unfold exitL2
  rw [Function.update_self]
theorem V6_outsAll (c : Dev nD) : Gen.V6 m (outsAll m) c = exitL2 m c := by
  show Function.update (Function.update (Gen.V5 m (outsAll m) c) main_v109_0 (exitL2 m c main_v109_0)) main_v109_1 (exitL2 m c main_v109_1) = exitL2 m c
  rw [V5_outsAll, exitL2_at0, exitL2_at1]; rfl

theorem V7_outsAll (c : Dev nD) : Gen.V7 m (outsAll m) c = entL3 m c := by
  show StableHlo.after hostOps3 (Gen.V6 m (outsAll m) c) = entL3 m c
  rw [V6_outsAll]; rfl
/-- What region 3 finds, over what the regions leave. -/
abbrev entry7 : (c : Dev nD) → (b : Ref sig .tc) → Buf (Elt F) ((c : Thread nD τ).loc b) := fun c b => Gen.V7 m (outsAll m) c b
theorem entry7_eq : (fun (c : Dev nD) (b : Ref sig .tc) => entL3 m c b) = entry7 m := by
  funext c b; show entL3 m c b = Gen.V7 m (outsAll m) c b; rw [V7_outsAll]
theorem exitL3_at0 (c : Dev nD) : exitL3 m c main_v144_0 = (datL3 (fun c b => entL3 m c b) c).arrAt 15 cfg3.N := by
  unfold exitL3
  rw [Function.update_of_ne (StableHlo.devRef_ne_of_ne (by decide)), Function.update_self]
theorem exitL3_at1 (c : Dev nD) : exitL3 m c main_v144_1 = (datL3 (fun c b => entL3 m c b) c).arrAt 16 cfg3.N := by
  unfold exitL3
  rw [Function.update_self]
theorem V8_outsAll (c : Dev nD) : Gen.V8 m (outsAll m) c = exitL3 m c := by
  show Function.update (Function.update (Gen.V7 m (outsAll m) c) main_v144_0 (exitL3 m c main_v144_0)) main_v144_1 (exitL3 m c main_v144_1) = exitL3 m c
  rw [V7_outsAll, exitL3_at0, exitL3_at1]; rfl

theorem V9_outsAll (c : Dev nD) : Gen.V9 m (outsAll m) c = entC4 m c := by
  show StableHlo.after hostOps4 (Gen.V8 m (outsAll m) c) = entC4 m c
  rw [V8_outsAll]; rfl
/-- What region 4 finds, over what the regions leave. -/
abbrev entry9 : (c : Dev nD) → (b : Ref sig .tc) → Buf (Elt F) ((c : Thread nD τ).loc b) := fun c b => Gen.V9 m (outsAll m) c b
theorem entry9_eq : (fun (c : Dev nD) (b : Ref sig .tc) => entC4 m c b) = entry9 m := by
  funext c b; show entC4 m c b = Gen.V9 m (outsAll m) c b; rw [V9_outsAll]
theorem exitC4_at (c : Dev nD) : exitC4 m c main_v146 = (datC4 (fun c b => entC4 m c b) c).arrAt 5 cfg4.N := by
  unfold exitC4
  rw [Function.update_self]

/-! ### What the regions leave, array by array -/

theorem outsAll_2_0 (c : Dev nD) : outsAll m 2 main_v39_0 c = (datL0 (entry1 m) c).arrAt 15 cfg0.N := exitL0_at0 m c
theorem outsAll_2_1 (c : Dev nD) : outsAll m 2 main_v39_1 c = (datL0 (entry1 m) c).arrAt 16 cfg0.N := exitL0_at1 m c
theorem outsAll_4_0 (c : Dev nD) : outsAll m 4 main_v74_0 c = (datL1 (entry3 m) c).arrAt 15 cfg1.N := by
  rw [← entry3_eq]; exact exitL1_at0 m c
theorem outsAll_4_1 (c : Dev nD) : outsAll m 4 main_v74_1 c = (datL1 (entry3 m) c).arrAt 16 cfg1.N := by
  rw [← entry3_eq]; exact exitL1_at1 m c
theorem outsAll_6_0 (c : Dev nD) : outsAll m 6 main_v109_0 c = (datL2 (entry5 m) c).arrAt 15 cfg2.N := by
  rw [← entry5_eq]; exact exitL2_at0 m c
theorem outsAll_6_1 (c : Dev nD) : outsAll m 6 main_v109_1 c = (datL2 (entry5 m) c).arrAt 16 cfg2.N := by
  rw [← entry5_eq]; exact exitL2_at1 m c
theorem outsAll_8_0 (c : Dev nD) : outsAll m 8 main_v144_0 c = (datL3 (entry7 m) c).arrAt 15 cfg3.N := by
  rw [← entry7_eq]; exact exitL3_at0 m c
theorem outsAll_8_1 (c : Dev nD) : outsAll m 8 main_v144_1 c = (datL3 (entry7 m) c).arrAt 16 cfg3.N := by
  rw [← entry7_eq]; exact exitL3_at1 m c
theorem outsAll_10 (c : Dev nD) : outsAll m 10 main_v146 c = (datC4 (entry9 m) c).arrAt 5 cfg4.N := by
  rw [← entry9_eq]; exact exitC4_at m c

/-! ## The contents after each region, read at the TensorCore's references -/
/-- What region 0 leaves, over what the regions leave. -/
abbrev exit2 : (c : Dev nD) → (b : Ref sig .tc) → Buf (Elt F) ((c : Thread nD τ).loc b) := fun c b => Gen.V2 m (outsAll m) c b
/-- What region 1 leaves, over what the regions leave. -/
abbrev exit4 : (c : Dev nD) → (b : Ref sig .tc) → Buf (Elt F) ((c : Thread nD τ).loc b) := fun c b => Gen.V4 m (outsAll m) c b
/-- What region 2 leaves, over what the regions leave. -/
abbrev exit6 : (c : Dev nD) → (b : Ref sig .tc) → Buf (Elt F) ((c : Thread nD τ).loc b) := fun c b => Gen.V6 m (outsAll m) c b
/-- What region 3 leaves, over what the regions leave. -/
abbrev exit8 : (c : Dev nD) → (b : Ref sig .tc) → Buf (Elt F) ((c : Thread nD τ).loc b) := fun c b => Gen.V8 m (outsAll m) c b
/-- What region 4 leaves, over what the regions leave. -/
abbrev exit10 : (c : Dev nD) → (b : Ref sig .tc) → Buf (Elt F) ((c : Thread nD τ).loc b) := fun c b => Gen.V10 m (outsAll m) c b

/-! ## Each region's arrays at its exit

At a region's exit every input window's array holds what it held at entry (an input array is never written back, and
the region changes no other buffer), and each output window's array holds what the pipeline's write-backs leave. -/

theorem inputs_apart0 : ∀ w : Fin 17, (cfg0.win w).isOut = false → Pipeline.arrRef spec0 w ∉ ([main_v39_0, main_v39_1] : List (Ref sig .tc)) := by decide
theorem outputs0 : ∀ w : Fin 17, (cfg0.win w).isOut = true → w = 15 ∨ w = 16 := by decide
theorem V2_at0 (outs : Gen.Outs (F := F)) (c : Dev nD) : Gen.V2 m outs c main_v39_0 = outs 2 main_v39_0 c := by
  unfold Gen.V2
  rw [Function.update_of_ne (StableHlo.devRef_ne_of_ne (by decide)), Function.update_self]
theorem V2_at1 (outs : Gen.Outs (F := F)) (c : Dev nD) : Gen.V2 m outs c main_v39_1 = outs 2 main_v39_1 c := by
  unfold Gen.V2
  rw [Function.update_self]
/-- At region 0's exit each of its arrays holds what the pipeline leaves. -/
theorem arrays_at_exit0 (c : Dev nD) (w : Fin cfg0.W) : (datL0 (entry1 m) c).arrAt w cfg0.N = exit2 m c (Pipeline.arrRef spec0 w) := by
  cases hw : (cfg0.win w).isOut
  · exact ((datL0 (entry1 m) c).arrAt_in w hw _).trans ((A_eqL0 (entry1 m) c w).trans (Gen.V2_of m (outsAll m) c _ (inputs_apart0 w hw)).symm)
  · rcases outputs0 w hw with rfl | rfl
    · exact (outsAll_2_0 m c).symm.trans (V2_at0 m (outsAll m) c).symm
    · exact (outsAll_2_1 m c).symm.trans (V2_at1 m (outsAll m) c).symm
/-- At region 0's exit every buffer that is none of its arrays holds what it held at entry. -/
theorem others_kept0 (c : Dev nD) : ∀ b, b ∉ Finset.univ.image (Pipeline.arrRef spec0) → exit2 m c b = entry1 m c b :=
  fun b hb => Gen.V2_of m (outsAll m) c b fun hmem => hb (by
    rcases List.mem_cons.mp hmem with rfl | hmem
    · exact Finset.mem_image.mpr ⟨15, Finset.mem_univ _, rfl⟩
    rcases List.mem_cons.mp hmem with rfl | hmem
    · exact Finset.mem_image.mpr ⟨16, Finset.mem_univ _, rfl⟩
    exact absurd hmem List.not_mem_nil)

theorem inputs_apart1 : ∀ w : Fin 17, (cfg1.win w).isOut = false → Pipeline.arrRef spec1 w ∉ ([main_v74_0, main_v74_1] : List (Ref sig .tc)) := by decide
theorem outputs1 : ∀ w : Fin 17, (cfg1.win w).isOut = true → w = 15 ∨ w = 16 := by decide
theorem V4_at0 (outs : Gen.Outs (F := F)) (c : Dev nD) : Gen.V4 m outs c main_v74_0 = outs 4 main_v74_0 c := by
  unfold Gen.V4
  rw [Function.update_of_ne (StableHlo.devRef_ne_of_ne (by decide)), Function.update_self]
theorem V4_at1 (outs : Gen.Outs (F := F)) (c : Dev nD) : Gen.V4 m outs c main_v74_1 = outs 4 main_v74_1 c := by
  unfold Gen.V4
  rw [Function.update_self]
/-- At region 1's exit each of its arrays holds what the pipeline leaves. -/
theorem arrays_at_exit1 (c : Dev nD) (w : Fin cfg1.W) : (datL1 (entry3 m) c).arrAt w cfg1.N = exit4 m c (Pipeline.arrRef spec1 w) := by
  cases hw : (cfg1.win w).isOut
  · exact ((datL1 (entry3 m) c).arrAt_in w hw _).trans ((A_eqL1 (entry3 m) c w).trans (Gen.V4_of m (outsAll m) c _ (inputs_apart1 w hw)).symm)
  · rcases outputs1 w hw with rfl | rfl
    · exact (outsAll_4_0 m c).symm.trans (V4_at0 m (outsAll m) c).symm
    · exact (outsAll_4_1 m c).symm.trans (V4_at1 m (outsAll m) c).symm
/-- At region 1's exit every buffer that is none of its arrays holds what it held at entry. -/
theorem others_kept1 (c : Dev nD) : ∀ b, b ∉ Finset.univ.image (Pipeline.arrRef spec1) → exit4 m c b = entry3 m c b :=
  fun b hb => Gen.V4_of m (outsAll m) c b fun hmem => hb (by
    rcases List.mem_cons.mp hmem with rfl | hmem
    · exact Finset.mem_image.mpr ⟨15, Finset.mem_univ _, rfl⟩
    rcases List.mem_cons.mp hmem with rfl | hmem
    · exact Finset.mem_image.mpr ⟨16, Finset.mem_univ _, rfl⟩
    exact absurd hmem List.not_mem_nil)

theorem inputs_apart2 : ∀ w : Fin 17, (cfg2.win w).isOut = false → Pipeline.arrRef spec2 w ∉ ([main_v109_0, main_v109_1] : List (Ref sig .tc)) := by decide
theorem outputs2 : ∀ w : Fin 17, (cfg2.win w).isOut = true → w = 15 ∨ w = 16 := by decide
theorem V6_at0 (outs : Gen.Outs (F := F)) (c : Dev nD) : Gen.V6 m outs c main_v109_0 = outs 6 main_v109_0 c := by
  unfold Gen.V6
  rw [Function.update_of_ne (StableHlo.devRef_ne_of_ne (by decide)), Function.update_self]
theorem V6_at1 (outs : Gen.Outs (F := F)) (c : Dev nD) : Gen.V6 m outs c main_v109_1 = outs 6 main_v109_1 c := by
  unfold Gen.V6
  rw [Function.update_self]
/-- At region 2's exit each of its arrays holds what the pipeline leaves. -/
theorem arrays_at_exit2 (c : Dev nD) (w : Fin cfg2.W) : (datL2 (entry5 m) c).arrAt w cfg2.N = exit6 m c (Pipeline.arrRef spec2 w) := by
  cases hw : (cfg2.win w).isOut
  · exact ((datL2 (entry5 m) c).arrAt_in w hw _).trans ((A_eqL2 (entry5 m) c w).trans (Gen.V6_of m (outsAll m) c _ (inputs_apart2 w hw)).symm)
  · rcases outputs2 w hw with rfl | rfl
    · exact (outsAll_6_0 m c).symm.trans (V6_at0 m (outsAll m) c).symm
    · exact (outsAll_6_1 m c).symm.trans (V6_at1 m (outsAll m) c).symm
/-- At region 2's exit every buffer that is none of its arrays holds what it held at entry. -/
theorem others_kept2 (c : Dev nD) : ∀ b, b ∉ Finset.univ.image (Pipeline.arrRef spec2) → exit6 m c b = entry5 m c b :=
  fun b hb => Gen.V6_of m (outsAll m) c b fun hmem => hb (by
    rcases List.mem_cons.mp hmem with rfl | hmem
    · exact Finset.mem_image.mpr ⟨15, Finset.mem_univ _, rfl⟩
    rcases List.mem_cons.mp hmem with rfl | hmem
    · exact Finset.mem_image.mpr ⟨16, Finset.mem_univ _, rfl⟩
    exact absurd hmem List.not_mem_nil)

theorem inputs_apart3 : ∀ w : Fin 17, (cfg3.win w).isOut = false → Pipeline.arrRef spec3 w ∉ ([main_v144_0, main_v144_1] : List (Ref sig .tc)) := by decide
theorem outputs3 : ∀ w : Fin 17, (cfg3.win w).isOut = true → w = 15 ∨ w = 16 := by decide
theorem V8_at0 (outs : Gen.Outs (F := F)) (c : Dev nD) : Gen.V8 m outs c main_v144_0 = outs 8 main_v144_0 c := by
  unfold Gen.V8
  rw [Function.update_of_ne (StableHlo.devRef_ne_of_ne (by decide)), Function.update_self]
theorem V8_at1 (outs : Gen.Outs (F := F)) (c : Dev nD) : Gen.V8 m outs c main_v144_1 = outs 8 main_v144_1 c := by
  unfold Gen.V8
  rw [Function.update_self]
/-- At region 3's exit each of its arrays holds what the pipeline leaves. -/
theorem arrays_at_exit3 (c : Dev nD) (w : Fin cfg3.W) : (datL3 (entry7 m) c).arrAt w cfg3.N = exit8 m c (Pipeline.arrRef spec3 w) := by
  cases hw : (cfg3.win w).isOut
  · exact ((datL3 (entry7 m) c).arrAt_in w hw _).trans ((A_eqL3 (entry7 m) c w).trans (Gen.V8_of m (outsAll m) c _ (inputs_apart3 w hw)).symm)
  · rcases outputs3 w hw with rfl | rfl
    · exact (outsAll_8_0 m c).symm.trans (V8_at0 m (outsAll m) c).symm
    · exact (outsAll_8_1 m c).symm.trans (V8_at1 m (outsAll m) c).symm
/-- At region 3's exit every buffer that is none of its arrays holds what it held at entry. -/
theorem others_kept3 (c : Dev nD) : ∀ b, b ∉ Finset.univ.image (Pipeline.arrRef spec3) → exit8 m c b = entry7 m c b :=
  fun b hb => Gen.V8_of m (outsAll m) c b fun hmem => hb (by
    rcases List.mem_cons.mp hmem with rfl | hmem
    · exact Finset.mem_image.mpr ⟨15, Finset.mem_univ _, rfl⟩
    rcases List.mem_cons.mp hmem with rfl | hmem
    · exact Finset.mem_image.mpr ⟨16, Finset.mem_univ _, rfl⟩
    exact absurd hmem List.not_mem_nil)

theorem inputs_apart4 : ∀ w : Fin 6, (cfg4.win w).isOut = false → Pipeline.arrRef spec4 w ∉ ([main_v146] : List (Ref sig .tc)) := by decide
theorem outputs4 : ∀ w : Fin 6, (cfg4.win w).isOut = true → w = 5 := by decide
theorem V10_at (outs : Gen.Outs (F := F)) (c : Dev nD) : Gen.V10 m outs c main_v146 = outs 10 main_v146 c := by
  unfold Gen.V10
  rw [Function.update_self]
/-- At region 4's exit each of its arrays holds what the pipeline leaves. -/
theorem arrays_at_exit4 (c : Dev nD) (w : Fin cfg4.W) : (datC4 (entry9 m) c).arrAt w cfg4.N = exit10 m c (Pipeline.arrRef spec4 w) := by
  cases hw : (cfg4.win w).isOut
  · exact ((datC4 (entry9 m) c).arrAt_in w hw _).trans ((A_eqC4 (entry9 m) c w).trans (Gen.V10_of m (outsAll m) c _ (inputs_apart4 w hw)).symm)
  · obtain rfl := outputs4 w hw
    exact (outsAll_10 m c).symm.trans (V10_at m (outsAll m) c).symm
/-- At region 4's exit every buffer that is none of its arrays holds what it held at entry. -/
theorem others_kept4 (c : Dev nD) : ∀ b, b ∉ Finset.univ.image (Pipeline.arrRef spec4) → exit10 m c b = entry9 m c b :=
  fun b hb => Gen.V10_of m (outsAll m) c b fun hmem => hb (by
    rcases List.mem_cons.mp hmem with rfl | hmem
    · exact Finset.mem_image.mpr ⟨5, Finset.mem_univ _, rfl⟩
    exact absurd hmem List.not_mem_nil)

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => datL0 (entry1 m) c
  | ⟨1, _⟩ => fun c => datL1 (entry3 m) c
  | ⟨2, _⟩ => fun c => datL2 (entry5 m) c
  | ⟨3, _⟩ => fun c => datL3 (entry7 m) c
  | ⟨4, _⟩ => fun c => datC4 (entry9 m) c

/-- No core owes another anything: no level is assigned. -/
abbrev chainL : GSem nD τ sig → Finset Unit := fun _ => ∅
abbrev chainLv : GSem nD τ sig → Unit → ℕ := fun _ _ => 0
/-- What rides beside the buffers through every item: the core's generator register at some state (a region's
    invariant takes it in and gives it back) and its dues, at nothing. -/
abbrev besideBufs (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 (layer 0): entered from every unscoped buffer at the contents after item 0, left at the contents
    after item 1. Its arrays are split out of the unscoped buffers and put back at the exit contents; the generator
    register goes into the pipeline's invariant and comes out; nothing is owed; the kernel has no semaphore of its own. -/
def reg0 : Pipeline.RegionSeg (pcfgs (F := F)) adm (pdats m) () defs₀ Variants.none chainL chainLv 0 where
  win := launch0.win.to₀
  block_pos := launch0.block_pos
  stage_whole := launch0.stage_whole
  K := PEmpty
  osem k := k.elim
  ho := Pipeline.OwnSemFacts.none _
  hbody c := (body_obligationL0 (entry1 m) c).loose
  hwaits := Pipeline.hwaits_of_owed_zero _ _ _ _ chainL chainLv 0 fun _ _ => rfl
  pre c := iprop(StableHlo.held (c : Thread nD τ) (Pipeline.ucRefs τ sig) (Gen.V1 m c) ∗ besideBufs c)
  post c := iprop(StableHlo.held (c : Thread nD τ) (Pipeline.ucRefs τ sig) (Gen.V2 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec0 c (entry1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry1 m c) (exit2 m c) ((pdats m 0 c).arrAt · cfg0.N) (arrays_at_exit0 m c) (others_kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (layer 1): entered from every unscoped buffer at the contents after item 2, left at the contents
    after item 3. Its arrays are split out of the unscoped buffers and put back at the exit contents; the generator
    register goes into the pipeline's invariant and comes out; nothing is owed; the kernel has no semaphore of its own. -/
def reg1 : Pipeline.RegionSeg (pcfgs (F := F)) adm (pdats m) () defs₀ Variants.none chainL chainLv 1 where
  win := launch1.win.to₀
  block_pos := launch1.block_pos
  stage_whole := launch1.stage_whole
  K := PEmpty
  osem k := k.elim
  ho := Pipeline.OwnSemFacts.none _
  hbody c := (body_obligationL1 (entry3 m) c).loose
  hwaits := Pipeline.hwaits_of_owed_zero _ _ _ _ chainL chainLv 1 fun _ _ => rfl
  pre c := iprop(StableHlo.held (c : Thread nD τ) (Pipeline.ucRefs τ sig) (Gen.V3 m (outsAll m) c) ∗ besideBufs c)
  post c := iprop(StableHlo.held (c : Thread nD τ) (Pipeline.ucRefs τ sig) (Gen.V4 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec1 c (entry3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry3 m c) (exit4 m c) ((pdats m 1 c).arrAt · cfg1.N) (arrays_at_exit1 m c) (others_kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (layer 2): entered from every unscoped buffer at the contents after item 4, left at the contents
    after item 5. Its arrays are split out of the unscoped buffers and put back at the exit contents; the generator
    register goes into the pipeline's invariant and comes out; nothing is owed; the kernel has no semaphore of its own. -/
def reg2 : Pipeline.RegionSeg (pcfgs (F := F)) adm (pdats m) () defs₀ Variants.none chainL chainLv 2 where
  win := launch2.win.to₀
  block_pos := launch2.block_pos
  stage_whole := launch2.stage_whole
  K := PEmpty
  osem k := k.elim
  ho := Pipeline.OwnSemFacts.none _
  hbody c := (body_obligationL2 (entry5 m) c).loose
  hwaits := Pipeline.hwaits_of_owed_zero _ _ _ _ chainL chainLv 2 fun _ _ => rfl
  pre c := iprop(StableHlo.held (c : Thread nD τ) (Pipeline.ucRefs τ sig) (Gen.V5 m (outsAll m) c) ∗ besideBufs c)
  post c := iprop(StableHlo.held (c : Thread nD τ) (Pipeline.ucRefs τ sig) (Gen.V6 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec2 c (entry5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (entry5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry5 m c) (exit6 m c) ((pdats m 2 c).arrAt · cfg2.N) (arrays_at_exit2 m c) (others_kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (layer 3): entered from every unscoped buffer at the contents after item 6, left at the contents
    after item 7. Its arrays are split out of the unscoped buffers and put back at the exit contents; the generator
    register goes into the pipeline's invariant and comes out; nothing is owed; the kernel has no semaphore of its own. -/
def reg3 : Pipeline.RegionSeg (pcfgs (F := F)) adm (pdats m) () defs₀ Variants.none chainL chainLv 3 where
  win := launch3.win.to₀
  block_pos := launch3.block_pos
  stage_whole := launch3.stage_whole
  K := PEmpty
  osem k := k.elim
  ho := Pipeline.OwnSemFacts.none _
  hbody c := (body_obligationL3 (entry7 m) c).loose
  hwaits := Pipeline.hwaits_of_owed_zero _ _ _ _ chainL chainLv 3 fun _ _ => rfl
  pre c := iprop(StableHlo.held (c : Thread nD τ) (Pipeline.ucRefs τ sig) (Gen.V7 m (outsAll m) c) ∗ besideBufs c)
  post c := iprop(StableHlo.held (c : Thread nD τ) (Pipeline.ucRefs τ sig) (Gen.V8 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec3 c (entry7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (entry7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (entry7 m c) (exit8 m c) ((pdats m 3 c).arrAt · cfg3.N) (arrays_at_exit3 m c) (others_kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (the classifier): entered from every unscoped buffer at the contents after item 8, left at the contents
    after item 9. Its arrays are split out of the unscoped buffers and put back at the exit contents; the generator
    register goes into the pipeline's invariant and comes out; nothing is owed; the kernel has no semaphore of its own. -/
def reg4 : Pipeline.RegionSeg (pcfgs (F := F)) adm (pdats m) () defs₀ Variants.none chainL chainLv 4 where
  win := launch4.win.to₀
  block_pos := launch4.block_pos
  stage_whole := launch4.stage_whole
  K := PEmpty
  osem k := k.elim
  ho := Pipeline.OwnSemFacts.none _
  hbody c := (body_obligationC4 (entry9 m) c).loose
  hwaits := Pipeline.hwaits_of_owed_zero _ _ _ _ chainL chainLv 4 fun _ _ => rfl
  pre c := iprop(StableHlo.held (c : Thread nD τ) (Pipeline.ucRefs τ sig) (Gen.V9 m (outsAll m) c) ∗ besideBufs c)
  post c := iprop(StableHlo.held (c : Thread nD τ) (Pipeline.ucRefs τ sig) (Gen.V10 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec4 c (entry9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (entry9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (entry9 m c) (exit10 m c) ((pdats m 4 c).arrAt · cfg4.N) (arrays_at_exit4 m c) (others_kept4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Launch.lean ====
/-
  The launch of @main over the chain of its five regions: from any memory with zero counters every weakly fair
  execution terminates and every argument array ends holding its launch contents.
-/
import proofs.«426741_j36421322670671_1_alg».proof.Proof.Gen.Kernel.Launch
import proofs.«426741_j36421322670671_1_alg».proof.Proof.Gen.Kernel.Skeleton
import proofs.«426741_j36421322670671_1_alg».proof.Proof.Gen.Kernel.Points
import proofs.«426741_j36421322670671_1_alg».proof.Proof.Gen.Kernel.Regions
import proofs.«426741_j36421322670671_1_alg».proof.Proof.K.L0Dat
import proofs.«426741_j36421322670671_1_alg».proof.Proof.K.L1Dat
import proofs.«426741_j36421322670671_1_alg».proof.Proof.K.L2Dat
import proofs.«426741_j36421322670671_1_alg».proof.Proof.K.L3Dat
import proofs.«426741_j36421322670671_1_alg».proof.Proof.K.C4Dat
import proofs.«426741_j36421322670671_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The launch's element is the pipeline library's at every pipeline's staging cells, with no ghost resource beside it. -/
theorem launch_element : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes what rides beside the buffers: the generator register at its launch state,
    nothing owed. -/
theorem launch_first (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts chainL chainLv)
      ⊢ (|={Set.univ}=> bigSep Finset.univ fun c : Dev nD => besideBufs (F := F) c : sProp 𝕄) := by
  refine Pipeline.initEach chainL chainLv fun c => ?_
  iintro ⟨⟨-, HO, -, Hp, -⟩, -⟩
  imodintro
  isplitl [Hp]; · iexists _; iexact Hp
  iexists ∅; iexact HO

/-- What rides beside the buffers at the end owes nothing. -/
theorem launch_last (c : Dev nD) : besideBufs (F := F) c ⊢ (iprop(∃ W, owes (c : Thread nD τ) (0 : CellTallies nD τ sig Unit) W) : sProp 𝕄) := by
  iintro ⟨-, H⟩; iexact H

set_option backward.isDefEq.respectTransparency.types false in
/-- THE FRAME of the whole program, at any float family: from any memory with zero counters every weakly fair execution
    of @main on the TensorCores terminates and every final memory holds each argument array as launched — the
    conditional frame over the five regions' segments and the contents they leave. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m (Ix := Unit) (U := UR sig nD τ) (Lvl := ℕ) (EP := emb₁) (ι := ()) (𝒱₀ := Variants.none) (L := chainL) (lv := chainLv)
    (hL := fun _ _ => rfl) (ρ := ρ) (outs := outsAll m) (pdats := pdats m) (O₀ := 0) (G := fun _ => iprop(emp))
    (u₀ := initOf (Pipeline.cells cfgs cellOf_inj) (Pipeline.launchToks cfgs cellOf_inj)) (hu₀ := launch_element)
    (E := fun _ c => besideBufs c) (hE0 := launch_first ρ) (hE5 := launch_last)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)

end Cert.Kernel.Hand

end
-- ==== Proof.KI.L0Runs.lean ====
/-
  Layer region 0, what the runs of its body share: each window's block as the region finds its array, that an
  input window's staging buffer holds its block at every point (fetched there or kept from the point before), the
  body's branch on the grid coordinate in closed form, and the staging memrefs the body is called with.
  `V` is the TensorCore's buffer contents when the region is entered.
-/
import proofs.«426741_j36421322670671_1_alg».proof.Proof.Gen.KernelIdeal.Launch
import proofs.«426741_j36421322670671_1_alg».proof.Proof.Gen.KernelIdeal.Skeleton
import proofs.«426741_j36421322670671_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it. -/
def iblkL0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point -/

/-- Input window 0: for any proof data whose array is the region-entry contents and whose body leaves the block in
    place, the current staging buffer holds the block at every point, fetched there or not. -/
theorem beforeL0_0_of (V : (c : Dev nD) → (b : Ref sig .tc) → Buf (Elt F) ((c : Thread nD τ).loc b)) {c : Dev nD} (dat : Dat τ (Elt F) Unit ℕ (UR sig nD τ) ℕ cfg0 c) (hA : dat.A 0 = V c (Pipeline.arrRef spec0 0))
    (hafter : ∀ t, dat.after 0 t = iblkL0 V c 0 t) (t : Fin cfg0.N) (d) : dat.before 0 t d = iblkL0 V c 0 t :=
  (dat.before_in_eq_fetched 0 rfl (fun _ => rfl) (fun _ _ _ => rfl) (fun t => by rw [hafter]; unfold Dat.blockOf iblkL0; rw [hA]; try rfl) t d).trans
    (by unfold Dat.fetched Dat.blockOf iblkL0; rw [hA]; try rfl)

/-- Input window 1: for any proof data whose array is the region-entry contents and whose body leaves the block in
    place, the current staging buffer holds the block at every point, fetched there or not. -/
theorem beforeL0_1_of (V : (c : Dev nD) → (b : Ref sig .tc) → Buf (Elt F) ((c : Thread nD τ).loc b)) {c : Dev nD} (dat : Dat τ (Elt F) Unit ℕ (UR sig nD τ) ℕ cfg0 c) (hA : dat.A 1 = V c (Pipeline.arrRef spec0 1))
    (hafter : ∀ t, dat.after 1 t = iblkL0 V c 1 t) (t : Fin cfg0.N) (d) : dat.before 1 t d = iblkL0 V c 1 t :=
  (dat.before_in_eq_fetched 1 rfl (fun _ => rfl) (fun _ _ _ => rfl) (fun t => by rw [hafter]; unfold Dat.blockOf iblkL0; rw [hA]; try rfl) t d).trans
    (by unfold Dat.fetched Dat.blockOf iblkL0; rw [hA]; try rfl)

/-- Input window 2: for any proof data whose array is the region-entry contents and whose body leaves the block in
    place, the current staging buffer holds the block at every point, fetched there or not. -/
theorem beforeL0_2_of (V : (c : Dev nD) → (b : Ref sig .tc) → Buf (Elt F) ((c : Thread nD τ).loc b)) {c : Dev nD} (dat : Dat τ (Elt F) Unit ℕ (UR sig nD τ) ℕ cfg0 c) (hA : dat.A 2 = V c (Pipeline.arrRef spec0 2))
    (hafter : ∀ t, dat.after 2 t = iblkL0 V c 2 t) (t : Fin cfg0.N) (d) : dat.before 2 t d = iblkL0 V c 2 t :=
  (dat.before_in_eq_fetched 2 rfl (fun _ => rfl) (fun _ _ _ => rfl) (fun t => by rw [hafter]; unfold Dat.blockOf iblkL0; rw [hA]; try rfl) t d).trans
    (by unfold Dat.fetched Dat.blockOf iblkL0; rw [hA]; try rfl)

/-- Input window 3: for any proof data whose array is the region-entry contents and whose body leaves the block in
    place, the current staging buffer holds the block at every point, fetched there or not. -/
theorem beforeL0_3_of (V : (c : Dev nD) → (b : Ref sig .tc) → Buf (Elt F) ((c : Thread nD τ).loc b)) {c : Dev nD} (dat : Dat τ (Elt F) Unit ℕ (UR sig nD τ) ℕ cfg0 c) (hA : dat.A 3 = V c (Pipeline.arrRef spec0 3))
    (hafter : ∀ t, dat.after 3 t = iblkL0 V c 3 t) (t : Fin cfg0.N) (d) : dat.before 3 t d = iblkL0 V c 3 t :=
  (dat.before_in_eq_fetched 3 rfl (fun _ => rfl) (fun _ _ _ => rfl) (fun t => by rw [hafter]; unfold Dat.blockOf iblkL0; rw [hA]; try rfl) t d).trans
    (by unfold Dat.fetched Dat.blockOf iblkL0; rw [hA]; try rfl)

/-- Input window 4: for any proof data whose array is the region-entry contents and whose body leaves the block in
    place, the current staging buffer holds the block at every point, fetched there or not. -/
theorem beforeL0_4_of (V : (c : Dev nD) → (b : Ref sig .tc) → Buf (Elt F) ((c : Thread nD τ).loc b)) {c : Dev nD} (dat : Dat τ (Elt F) Unit ℕ (UR sig nD τ) ℕ cfg0 c) (hA : dat.A 4 = V c (Pipeline.arrRef spec0 4))
    (hafter : ∀ t, dat.after 4 t = iblkL0 V c 4 t) (t : Fin cfg0.N) (d) : dat.before 4 t d = iblkL0 V c 4 t :=
  (dat.before_in_eq_fetched 4 rfl (fun _ => rfl) (fun _ _ _ => rfl) (fun t => by rw [hafter]; unfold Dat.blockOf iblkL0; rw [hA]; try rfl) t d).trans
    (by unfold Dat.fetched Dat.blockOf iblkL0; rw [hA]; try rfl)

/-- Input window 5: for any proof data whose array is the region-entry contents and whose body leaves the block in
    place, the current staging buffer holds the block at every point, fetched there or not. -/
theorem beforeL0_5_of (V : (c : Dev nD) → (b : Ref sig .tc) → Buf (Elt F) ((c : Thread nD τ).loc b)) {c : Dev nD} (dat : Dat τ (Elt F) Unit ℕ (UR sig nD τ) ℕ cfg0 c) (hA : dat.A 5 = V c (Pipeline.arrRef spec0 5))
    (hafter : ∀ t, dat.after 5 t = iblkL0 V c 5 t) (t : Fin cfg0.N) (d) : dat.before 5 t d = iblkL0 V c 5 t :=
  (dat.before_in_eq_fetched 5 rfl (fun _ => rfl) (fun _ _ _ => rfl) (fun t => by rw [hafter]; unfold Dat.blockOf iblkL0; rw [hA]; try rfl) t d).trans
    (by unfold Dat.fetched Dat.blockOf iblkL0; rw [hA]; try rfl)

/-- Input window 6: for any proof data whose array is the region-entry contents and whose body leaves the block in
    place, the current staging buffer holds the block at every point, fetched there or not. -/
theorem beforeL0_6_of (V : (c : Dev nD) → (b : Ref sig .tc) → Buf (Elt F) ((c : Thread nD τ).loc b)) {c : Dev nD} (dat : Dat τ (Elt F) Unit ℕ (UR sig nD τ) ℕ cfg0 c) (hA : dat.A 6 = V c (Pipeline.arrRef spec0 6))
    (hafter : ∀ t, dat.after 6 t = iblkL0 V c 6 t) (t : Fin cfg0.N) (d) : dat.before 6 t d = iblkL0 V c 6 t :=
  (dat.before_in_eq_fetched 6 rfl (fun _ => rfl) (fun _ _ _ => rfl) (fun t => by rw [hafter]; unfold Dat.blockOf iblkL0; rw [hA]; try rfl) t d).trans
    (by unfold Dat.fetched Dat.blockOf iblkL0; rw [hA]; try rfl)

/-- Input window 7: for any proof data whose array is the region-entry contents and whose body leaves the block in
    place, the current staging buffer holds the block at every point, fetched there or not. -/
theorem beforeL0_7_of (V : (c : Dev nD) → (b : Ref sig .tc) → Buf (Elt F) ((c : Thread nD τ).loc b)) {c : Dev nD} (dat : Dat τ (Elt F) Unit ℕ (UR sig nD τ) ℕ cfg0 c) (hA : dat.A 7 = V c (Pipeline.arrRef spec0 7))
    (hafter : ∀ t, dat.after 7 t = iblkL0 V c 7 t) (t : Fin cfg0.N) (d) : dat.before 7 t d = iblkL0 V c 7 t :=
  (dat.before_in_eq_fetched 7 rfl (fun _ => rfl) (fun _ _ _ => rfl) (fun t => by rw [hafter]; unfold Dat.blockOf iblkL0; rw [hA]; try rfl) t d).trans
    (by unfold Dat.fetched Dat.blockOf iblkL0; rw [hA]; try rfl)

/-- Input window 8: for any proof data whose array is the region-entry contents and whose body leaves the block in
    place, the current staging buffer holds the block at every point, fetched there or not. -/
theorem beforeL0_8_of (V : (c : Dev nD) → (b : Ref sig .tc) → Buf (Elt F) ((c : Thread nD τ).loc b)) {c : Dev nD} (dat : Dat τ (Elt F) Unit ℕ (UR sig nD τ) ℕ cfg0 c) (hA : dat.A 8 = V c (Pipeline.arrRef spec0 8))
    (hafter : ∀ t, dat.after 8 t = iblkL0 V c 8 t) (t : Fin cfg0.N) (d) : dat.before 8 t d = iblkL0 V c 8 t :=
  (dat.before_in_eq_fetched 8 rfl (fun _ => rfl) (fun _ _ _ => rfl) (fun t => by rw [hafter]; unfold Dat.blockOf iblkL0; rw [hA]; try rfl) t d).trans
    (by unfold Dat.fetched Dat.blockOf iblkL0; rw [hA]; try rfl)

/-- Input window 9: for any proof data whose array is the region-entry contents and whose body leaves the block in
    place, the current staging buffer holds the block at every point, fetched there or not. -/
theorem beforeL0_9_of (V : (c : Dev nD) → (b : Ref sig .tc) → Buf (Elt F) ((c : Thread nD τ).loc b)) {c : Dev nD} (dat : Dat τ (Elt F) Unit ℕ (UR sig nD τ) ℕ cfg0 c) (hA : dat.A 9 = V c (Pipeline.arrRef spec0 9))
    (hafter : ∀ t, dat.after 9 t = iblkL0 V c 9 t) (t : Fin cfg0.N) (d) : dat.before 9 t d = iblkL0 V c 9 t :=
  (dat.before_in_eq_fetched 9 rfl (fun _ => rfl) (fun _ _ _ => rfl) (fun t => by rw [hafter]; unfold Dat.blockOf iblkL0; rw [hA]; try rfl) t d).trans
    (by unfold Dat.fetched Dat.blockOf iblkL0; rw [hA]; try rfl)

/-- Input window 10: for any proof data whose array is the region-entry contents and whose body leaves the block in
    place, the current staging buffer holds the block at every point, fetched there or not. -/
theorem beforeL0_10_of (V : (c : Dev nD) → (b : Ref sig .tc) → Buf (Elt F) ((c : Thread nD τ).loc b)) {c : Dev nD} (dat : Dat τ (Elt F) Unit ℕ (UR sig nD τ) ℕ cfg0 c) (hA : dat.A 10 = V c (Pipeline.arrRef spec0 10))
    (hafter : ∀ t, dat.after 10 t = iblkL0 V c 10 t) (t : Fin cfg0.N) (d) : dat.before 10 t d = iblkL0 V c 10 t :=
  (dat.before_in_eq_fetched 10 rfl (fun _ => rfl) (fun _ _ _ => rfl) (fun t => by rw [hafter]; unfold Dat.blockOf iblkL0; rw [hA]; try rfl) t d).trans
    (by unfold Dat.fetched Dat.blockOf iblkL0; rw [hA]; try rfl)

/-- Input window 11: for any proof data whose array is the region-entry contents and whose body leaves the block in
    place, the current staging buffer holds the block at every point, fetched there or not. -/
theorem beforeL0_11_of (V : (c : Dev nD) → (b : Ref sig .tc) → Buf (Elt F) ((c : Thread nD τ).loc b)) {c : Dev nD} (dat : Dat τ (Elt F) Unit ℕ (UR sig nD τ) ℕ cfg0 c) (hA : dat.A 11 = V c (Pipeline.arrRef spec0 11))
    (hafter : ∀ t, dat.after 11 t = iblkL0 V c 11 t) (t : Fin cfg0.N) (d) : dat.before 11 t d = iblkL0 V c 11 t :=
  (dat.before_in_eq_fetched 11 rfl (fun _ => rfl) (fun _ _ _ => rfl) (fun t => by rw [hafter]; unfold Dat.blockOf iblkL0; rw [hA]; try rfl) t d).trans
    (by unfold Dat.fetched Dat.blockOf iblkL0; rw [hA]; try rfl)

/-- Input window 12: for any proof data whose array is the region-entry contents and whose body leaves the block in
    place, the current staging buffer holds the block at every point, fetched there or not. -/
theorem beforeL0_12_of (V : (c : Dev nD) → (b : Ref sig .tc) → Buf (Elt F) ((c : Thread nD τ).loc b)) {c : Dev nD} (dat : Dat τ (Elt F) Unit ℕ (UR sig nD τ) ℕ cfg0 c) (hA : dat.A 12 = V c (Pipeline.arrRef spec0 12))
    (hafter : ∀ t, dat.after 12 t = iblkL0 V c 12 t) (t : Fin cfg0.N) (d) : dat.before 12 t d = iblkL0 V c 12 t :=
  (dat.before_in_eq_fetched 12 rfl (fun _ => rfl) (fun _ _ _ => rfl) (fun t => by rw [hafter]; unfold Dat.blockOf iblkL0; rw [hA]; try rfl) t d).trans
    (by unfold Dat.fetched Dat.blockOf iblkL0; rw [hA]; try rfl)

/-- Input window 13: for any proof data whose array is the region-entry contents and whose body leaves the block in
    place, the current staging buffer holds the block at every point, fetched there or not. -/
theorem beforeL0_13_of (V : (c : Dev nD) → (b : Ref sig .tc) → Buf (Elt F) ((c : Thread nD τ).loc b)) {c : Dev nD} (dat : Dat τ (Elt F) Unit ℕ (UR sig nD τ) ℕ cfg0 c) (hA : dat.A 13 = V c (Pipeline.arrRef spec0 13))
    (hafter : ∀ t, dat.after 13 t = iblkL0 V c 13 t) (t : Fin cfg0.N) (d) : dat.before 13 t d = iblkL0 V c 13 t :=
  (dat.before_in_eq_fetched 13 rfl (fun _ => rfl) (fun _ _ _ => rfl) (fun t => by rw [hafter]; unfold Dat.blockOf iblkL0; rw [hA]; try rfl) t d).trans
    (by unfold Dat.fetched Dat.blockOf iblkL0; rw [hA]; try rfl)

/-- Input window 14: for any proof data whose array is the region-entry contents and whose body leaves the block in
    place, the current staging buffer holds the block at every point, fetched there or not. -/
theorem beforeL0_14_of (V : (c : Dev nD) → (b : Ref sig .tc) → Buf (Elt F) ((c : Thread nD τ).loc b)) {c : Dev nD} (dat : Dat τ (Elt F) Unit ℕ (UR sig nD τ) ℕ cfg0 c) (hA : dat.A 14 = V c (Pipeline.arrRef spec0 14))
    (hafter : ∀ t, dat.after 14 t = iblkL0 V c 14 t) (t : Fin cfg0.N) (d) : dat.before 14 t d = iblkL0 V c 14 t :=
  (dat.before_in_eq_fetched 14 rfl (fun _ => rfl) (fun _ _ _ => rfl) (fun t => by rw [hafter]; unfold Dat.blockOf iblkL0; rw [hA]; try rfl) t d).trans
    (by unfold Dat.fetched Dat.blockOf iblkL0; rw [hA]; try rfl)

/-! ## The body's branch -/

/-- The condition of the body's branch (`k0_h1`: the grid coordinate is zero), from the grid coordinates. -/
abbrev condL0_0 (i : grid0.Coords) : Prop := (Scalar.cmpi .ne (Scalar.extui (Scalar.cmpi .eq (BitVec.ofNat 32 (i 0).val) 0#32)) 0#32) = 1#1
/-- It holds at the first point only. -/
theorem hcondL0_0 : ∀ t : Fin cfg0.N, condL0_0 (grid0.coords t) ↔ t.val % 50 = 0 :=
  (by decide +kernel : ∀ t : Fin grid0.N, condL0_0 (grid0.coords t) ↔ t.val % 50 = 0)

/-! ## The staging memrefs -/

/-- One staging buffer of each output window, through which its contents are stated. -/
abbrev VOL0_15 : View sig .tc .vmem S1000x128 .f32 := (Memref.whole cc0_stg15_0 : Memref sig .tc .vmem S1000x128 .f32).view
abbrev VOL0_16 : View sig .tc .vmem S512x128 .f32 := (Memref.whole cc0_stg16_0 : Memref sig .tc .vmem S512x128 .f32).view

/-- Each window's current staging memref at point `t`, as the pipeline passes it to the body, and its wholeness. -/
abbrev msL0_0 (t : Fin cfg0.N) : Memref sig .tc .vmem S1000x128 .f32 := win0_0.stage (cfg0.slots t 0)
abbrev hsL0_0 (t : Fin cfg0.N) : (msL0_0 t).IsWhole := hstage0_0 ((cfg0.slots t 0).cast nbuf0_0)
abbrev msL0_1 (t : Fin cfg0.N) : Memref sig .tc .vmem S1000x128 .f32 := win0_1.stage (cfg0.slots t 1)
abbrev hsL0_1 (t : Fin cfg0.N) : (msL0_1 t).IsWhole := hstage0_1 ((cfg0.slots t 1).cast nbuf0_1)
abbrev msL0_2 (t : Fin cfg0.N) : Memref sig .tc .vmem S1000x1 .i32 := win0_2.stage (cfg0.slots t 2)
abbrev hsL0_2 (t : Fin cfg0.N) : (msL0_2 t).IsWhole := hstage0_2 ((cfg0.slots t 2).cast nbuf0_2)
abbrev msL0_3 (t : Fin cfg0.N) : Memref sig .tc .vmem S128x128 .f32 := win0_3.stage (cfg0.slots t 3)
abbrev hsL0_3 (t : Fin cfg0.N) : (msL0_3 t).IsWhole := hstage0_3 ((cfg0.slots t 3).cast nbuf0_3)
abbrev msL0_4 (t : Fin cfg0.N) : Memref sig .tc .vmem S128 .f32 := win0_4.stage (cfg0.slots t 4)
abbrev hsL0_4 (t : Fin cfg0.N) : (msL0_4 t).IsWhole := hstage0_4 ((cfg0.slots t 4).cast nbuf0_4)
abbrev msL0_5 (t : Fin cfg0.N) : Memref sig .tc .vmem S128 .f32 := win0_5.stage (cfg0.slots t 5)
abbrev hsL0_5 (t : Fin cfg0.N) : (msL0_5 t).IsWhole := hstage0_5 ((cfg0.slots t 5).cast nbuf0_5)
abbrev msL0_6 (t : Fin cfg0.N) : Memref sig .tc .vmem S128 .f32 := win0_6.stage (cfg0.slots t 6)
abbrev hsL0_6 (t : Fin cfg0.N) : (msL0_6 t).IsWhole := hstage0_6 ((cfg0.slots t 6).cast nbuf0_6)
abbrev msL0_7 (t : Fin cfg0.N) : Memref sig .tc .vmem S128 .f32 := win0_7.stage (cfg0.slots t 7)
abbrev hsL0_7 (t : Fin cfg0.N) : (msL0_7 t).IsWhole := hstage0_7 ((cfg0.slots t 7).cast nbuf0_7)
abbrev msL0_8 (t : Fin cfg0.N) : Memref sig .tc .vmem S128 .f32 := win0_8.stage (cfg0.slots t 8)
abbrev hsL0_8 (t : Fin cfg0.N) : (msL0_8 t).IsWhole := hstage0_8 ((cfg0.slots t 8).cast nbuf0_8)
abbrev msL0_9 (t : Fin cfg0.N) : Memref sig .tc .vmem S128x128 .f32 := win0_9.stage (cfg0.slots t 9)
abbrev hsL0_9 (t : Fin cfg0.N) : (msL0_9 t).IsWhole := hstage0_9 ((cfg0.slots t 9).cast nbuf0_9)
abbrev msL0_10 (t : Fin cfg0.N) : Memref sig .tc .vmem S128 .f32 := win0_10.stage (cfg0.slots t 10)
abbrev hsL0_10 (t : Fin cfg0.N) : (msL0_10 t).IsWhole := hstage0_10 ((cfg0.slots t 10).cast nbuf0_10)
abbrev msL0_11 (t : Fin cfg0.N) : Memref sig .tc .vmem S128 .f32 := win0_11.stage (cfg0.slots t 11)
abbrev hsL0_11 (t : Fin cfg0.N) : (msL0_11 t).IsWhole := hstage0_11 ((cfg0.slots t 11).cast nbuf0_11)
abbrev msL0_12 (t : Fin cfg0.N) : Memref sig .tc .vmem S128 .f32 := win0_12.stage (cfg0.slots t 12)
abbrev hsL0_12 (t : Fin cfg0.N) : (msL0_12 t).IsWhole := hstage0_12 ((cfg0.slots t 12).cast nbuf0_12)
abbrev msL0_13 (t : Fin cfg0.N) : Memref sig .tc .vmem S128 .f32 := win0_13.stage (cfg0.slots t 13)
abbrev hsL0_13 (t : Fin cfg0.N) : (msL0_13 t).IsWhole := hstage0_13 ((cfg0.slots t 13).cast nbuf0_13)
abbrev msL0_14 (t : Fin cfg0.N) : Memref sig .tc .vmem S128 .f32 := win0_14.stage (cfg0.slots t 14)
abbrev hsL0_14 (t : Fin cfg0.N) : (msL0_14 t).IsWhole := hstage0_14 ((cfg0.slots t 14).cast nbuf0_14)
abbrev msL0_15 (t : Fin cfg0.N) : Memref sig .tc .vmem S1000x128 .f32 := win0_15.stage (cfg0.slots t 15)
abbrev hsL0_15 (t : Fin cfg0.N) : (msL0_15 t).IsWhole := hstage0_15 ((cfg0.slots t 15).cast nbuf0_15)
abbrev msL0_16 (t : Fin cfg0.N) : Memref sig .tc .vmem S512x128 .f32 := win0_16.stage (cfg0.slots t 16)
abbrev hsL0_16 (t : Fin cfg0.N) : (msL0_16 t).IsWhole := hstage0_16 ((cfg0.slots t 16).cast nbuf0_16)

end Cert.KernelIdeal.Hand

end
-- ==== Proof.KI.L0RunA.lean ====
/-
  Layer region 0, the run of its body at the first grid point (the branch on the grid coordinate taken: the pool's
  buffer is zeroed before the tile is added): on whole staging memrefs, the inputs' at their contents and the outputs'
  at anything, the body runs to the continuation holding the inputs' as they were and each output's buffer with the
  stores the body made, listed last first.
-/
import proofs.«426741_j36421322670671_1_alg».proof.Proof.KI.L0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at the first point, as pieces (last first),
    with the body's triple: the pieces are found by running the body. -/
noncomputable def kernelRunL0_A (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.KernelIdeal.Hand

end
-- ==== Proof.KI.L0RunB.lean ====
/-
  Layer region 0, the run of its body at a later grid point (the branch on the grid coordinate not taken: the tile is
  added to what the pool's buffer holds): on whole staging memrefs, the inputs' at their contents, the pool's at its
  running contents and the new features' at anything, the body runs to the continuation holding the inputs' as they
  were and each output's buffer with the stores the body made, listed last first.
-/
import proofs.«426741_j36421322670671_1_alg».proof.Proof.KI.L0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at a later point, as pieces (last first),
    with the body's triple: the pieces are found by running the body. -/
noncomputable def kernelRunL0_B (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.KernelIdeal.Hand

end
-- ==== Proof.KI.L0Dat.lean ====
/-
  Layer region 0: what its pipeline's proof data say. Every input window's staging buffer holds its block of the
  array the region found; window 15's (the new node features) holds the block the body stores at the point;
  window 16's (the pool) holds the running sum the body carries from point to point.
  `V` is the TensorCore's buffer contents when the region is entered.
-/
import proofs.«426741_j36421322670671_1_alg».proof.Proof.KI.L0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer, by the case of its branch -/

/-- The body's stores into window 15's buffer (the new node features) at the first point tile its block, so they cover it. -/
theorem coverL0_A_15 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S1000x128.Idx) :
    ∃ pc ∈ (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1000x128.size (by sl_kernel_rfl) y

/-- What the body leaves in window 15's staging buffer at the first point: its stores read back. -/
def outL0_A_15 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S1000x128 .f32 :=
  VOL0_15.read (Elt F) (VOL0_15.writes (Elt F) VOL0_15.junk (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- The body's stores into window 16's buffer (the pool) at the first point tile its block, so they cover it. -/
theorem coverL0_A_16 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S512x128.Idx) :
    ∃ pc ∈ (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x128.size (by sl_kernel_rfl) y

/-- What the body leaves in window 16's staging buffer at the first point: its stores read back. -/
def outL0_A_16 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S512x128 .f32 :=
  VOL0_16.read (Elt F) (VOL0_16.writes (Elt F) VOL0_16.junk (kernelRunL0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- The body's stores into window 15's buffer (the new node features) at a later point tile its block, so they cover it. -/
theorem coverL0_B_15 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S1000x128.Idx) :
    ∃ pc ∈ (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1, y ∈ pc.1.set :=
  View.cover_of_tiledL (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1 S1000x128.size (by sl_kernel_rfl) y

/-- What the body leaves in window 15's staging buffer at a later point: its stores read back. -/
def outL0_B_15 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S1000x128 .f32 :=
  VOL0_15.read (Elt F) (VOL0_15.writes (Elt F) VOL0_15.junk (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1)

/-- The body's stores into window 16's buffer (the pool) at a later point tile its block, so they cover it. -/
theorem coverL0_B_16 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S512x128.Idx) :
    ∃ pc ∈ (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1, y ∈ pc.1.set :=
  View.cover_of_tiledL (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1 S512x128.size (by sl_kernel_rfl) y

/-- What the body leaves in window 16's staging buffer at a later point: its stores read back. -/
def outL0_B_16 (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S512x128 .f32 :=
  VOL0_16.read (Elt F) (VOL0_16.writes (Elt F) VOL0_16.junk (kernelRunL0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1)

/-! ## What the outputs hold after each point -/

/-- What the body leaves in window 16's staging buffer after point `n`: the pool summed over tiles `0 … n`. At the
    first point the buffer is zeroed and the tile added; at a later point the tile is added to what the point before
    left (the buffer is not written back between). -/
def poolAtL0 (V : (c : Dev nD) → (b : Ref sig .tc) → Buf (Elt F) ((c : Thread nD τ).loc b)) (c : Dev nD) : (n : ℕ) → n < cfg0.N → Vec F S512x128 .f32
  | 0, hn => outL0_A_16 c (grid0.coords ⟨0, hn⟩) (msL0_0 ⟨0, hn⟩) (hsL0_0 ⟨0, hn⟩) (msL0_1 ⟨0, hn⟩) (hsL0_1 ⟨0, hn⟩) (msL0_2 ⟨0, hn⟩) (hsL0_2 ⟨0, hn⟩) (msL0_3 ⟨0, hn⟩) (hsL0_3 ⟨0, hn⟩) (msL0_4 ⟨0, hn⟩) (hsL0_4 ⟨0, hn⟩) (msL0_5 ⟨0, hn⟩) (hsL0_5 ⟨0, hn⟩) (msL0_6 ⟨0, hn⟩) (hsL0_6 ⟨0, hn⟩) (msL0_7 ⟨0, hn⟩) (hsL0_7 ⟨0, hn⟩) (msL0_8 ⟨0, hn⟩) (hsL0_8 ⟨0, hn⟩) (msL0_9 ⟨0, hn⟩) (hsL0_9 ⟨0, hn⟩) (msL0_10 ⟨0, hn⟩) (hsL0_10 ⟨0, hn⟩) (msL0_11 ⟨0, hn⟩) (hsL0_11 ⟨0, hn⟩) (msL0_12 ⟨0, hn⟩) (hsL0_12 ⟨0, hn⟩) (msL0_13 ⟨0, hn⟩) (hsL0_13 ⟨0, hn⟩) (msL0_14 ⟨0, hn⟩) (hsL0_14 ⟨0, hn⟩) (msL0_15 ⟨0, hn⟩) (hsL0_15 ⟨0, hn⟩) (msL0_16 ⟨0, hn⟩) (hsL0_16 ⟨0, hn⟩) ((hcondL0_0 ⟨0, hn⟩).mpr (Nat.zero_mod _)) (iblkL0 V c 0 ⟨0, hn⟩) (iblkL0 V c 1 ⟨0, hn⟩) (iblkL0 V c 2 ⟨0, hn⟩) (iblkL0 V c 3 ⟨0, hn⟩) (iblkL0 V c 4 ⟨0, hn⟩) (iblkL0 V c 5 ⟨0, hn⟩) (iblkL0 V c 6 ⟨0, hn⟩) (iblkL0 V c 7 ⟨0, hn⟩) (iblkL0 V c 8 ⟨0, hn⟩) (iblkL0 V c 9 ⟨0, hn⟩) (iblkL0 V c 10 ⟨0, hn⟩) (iblkL0 V c 11 ⟨0, hn⟩) (iblkL0 V c 12 ⟨0, hn⟩) (iblkL0 V c 13 ⟨0, hn⟩) (iblkL0 V c 14 ⟨0, hn⟩)
  | n + 1, hn =>
    if h0 : (n + 1) % 50 = 0 then
      outL0_A_16 c (grid0.coords ⟨n + 1, hn⟩) (msL0_0 ⟨n + 1, hn⟩) (hsL0_0 ⟨n + 1, hn⟩) (msL0_1 ⟨n + 1, hn⟩) (hsL0_1 ⟨n + 1, hn⟩) (msL0_2 ⟨n + 1, hn⟩) (hsL0_2 ⟨n + 1, hn⟩) (msL0_3 ⟨n + 1, hn⟩) (hsL0_3 ⟨n + 1, hn⟩) (msL0_4 ⟨n + 1, hn⟩) (hsL0_4 ⟨n + 1, hn⟩) (msL0_5 ⟨n + 1, hn⟩) (hsL0_5 ⟨n + 1, hn⟩) (msL0_6 ⟨n + 1, hn⟩) (hsL0_6 ⟨n + 1, hn⟩) (msL0_7 ⟨n + 1, hn⟩) (hsL0_7 ⟨n + 1, hn⟩) (msL0_8 ⟨n + 1, hn⟩) (hsL0_8 ⟨n + 1, hn⟩) (msL0_9 ⟨n + 1, hn⟩) (hsL0_9 ⟨n + 1, hn⟩) (msL0_10 ⟨n + 1, hn⟩) (hsL0_10 ⟨n + 1, hn⟩) (msL0_11 ⟨n + 1, hn⟩) (hsL0_11 ⟨n + 1, hn⟩) (msL0_12 ⟨n + 1, hn⟩) (hsL0_12 ⟨n + 1, hn⟩) (msL0_13 ⟨n + 1, hn⟩) (hsL0_13 ⟨n + 1, hn⟩) (msL0_14 ⟨n + 1, hn⟩) (hsL0_14 ⟨n + 1, hn⟩) (msL0_15 ⟨n + 1, hn⟩) (hsL0_15 ⟨n + 1, hn⟩) (msL0_16 ⟨n + 1, hn⟩) (hsL0_16 ⟨n + 1, hn⟩) ((hcondL0_0 ⟨n + 1, hn⟩).mpr h0) (iblkL0 V c 0 ⟨n + 1, hn⟩) (iblkL0 V c 1 ⟨n + 1, hn⟩) (iblkL0 V c 2 ⟨n + 1, hn⟩) (iblkL0 V c 3 ⟨n + 1, hn⟩) (iblkL0 V c 4 ⟨n + 1, hn⟩) (iblkL0 V c 5 ⟨n + 1, hn⟩) (iblkL0 V c 6 ⟨n + 1, hn⟩) (iblkL0 V c 7 ⟨n + 1, hn⟩) (iblkL0 V c 8 ⟨n + 1, hn⟩) (iblkL0 V c 9 ⟨n + 1, hn⟩) (iblkL0 V c 10 ⟨n + 1, hn⟩) (iblkL0 V c 11 ⟨n + 1, hn⟩) (iblkL0 V c 12 ⟨n + 1, hn⟩) (iblkL0 V c 13 ⟨n + 1, hn⟩) (iblkL0 V c 14 ⟨n + 1, hn⟩)
    else
      outL0_B_16 c (grid0.coords ⟨n + 1, hn⟩) (msL0_0 ⟨n + 1, hn⟩) (hsL0_0 ⟨n + 1, hn⟩) (msL0_1 ⟨n + 1, hn⟩) (hsL0_1 ⟨n + 1, hn⟩) (msL0_2 ⟨n + 1, hn⟩) (hsL0_2 ⟨n + 1, hn⟩) (msL0_3 ⟨n + 1, hn⟩) (hsL0_3 ⟨n + 1, hn⟩) (msL0_4 ⟨n + 1, hn⟩) (hsL0_4 ⟨n + 1, hn⟩) (msL0_5 ⟨n + 1, hn⟩) (hsL0_5 ⟨n + 1, hn⟩) (msL0_6 ⟨n + 1, hn⟩) (hsL0_6 ⟨n + 1, hn⟩) (msL0_7 ⟨n + 1, hn⟩) (hsL0_7 ⟨n + 1, hn⟩) (msL0_8 ⟨n + 1, hn⟩) (hsL0_8 ⟨n + 1, hn⟩) (msL0_9 ⟨n + 1, hn⟩) (hsL0_9 ⟨n + 1, hn⟩) (msL0_10 ⟨n + 1, hn⟩) (hsL0_10 ⟨n + 1, hn⟩) (msL0_11 ⟨n + 1, hn⟩) (hsL0_11 ⟨n + 1, hn⟩) (msL0_12 ⟨n + 1, hn⟩) (hsL0_12 ⟨n + 1, hn⟩) (msL0_13 ⟨n + 1, hn⟩) (hsL0_13 ⟨n + 1, hn⟩) (msL0_14 ⟨n + 1, hn⟩) (hsL0_14 ⟨n + 1, hn⟩) (msL0_15 ⟨n + 1, hn⟩) (hsL0_15 ⟨n + 1, hn⟩) (msL0_16 ⟨n + 1, hn⟩) (hsL0_16 ⟨n + 1, hn⟩) (fun h => h0 ((hcondL0_0 ⟨n + 1, hn⟩).mp h)) (iblkL0 V c 0 ⟨n + 1, hn⟩) (iblkL0 V c 1 ⟨n + 1, hn⟩) (iblkL0 V c 2 ⟨n + 1, hn⟩) (iblkL0 V c 3 ⟨n + 1, hn⟩) (iblkL0 V c 4 ⟨n + 1, hn⟩) (iblkL0 V c 5 ⟨n + 1, hn⟩) (iblkL0 V c 6 ⟨n + 1, hn⟩) (iblkL0 V c 7 ⟨n + 1, hn⟩) (iblkL0 V c 8 ⟨n + 1, hn⟩) (iblkL0 V c 9 ⟨n + 1, hn⟩) (iblkL0 V c 10 ⟨n + 1, hn⟩) (iblkL0 V c 11 ⟨n + 1, hn⟩) (iblkL0 V c 12 ⟨n + 1, hn⟩) (iblkL0 V c 13 ⟨n + 1, hn⟩) (iblkL0 V c 14 ⟨n + 1, hn⟩) (poolAtL0 V c n (Nat.lt_of_succ_lt hn))

/-- The pool's buffer at the first point. -/
theorem poolAtL0_A (V : (c : Dev nD) → (b : Ref sig .tc) → Buf (Elt F) ((c : Thread nD τ).loc b)) (c : Dev nD) (t : Fin cfg0.N) (h0 : t.val % 50 = 0) :
    poolAtL0 V c t.val t.isLt = outL0_A_16 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) ((hcondL0_0 t).mpr h0) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) := by
  obtain ⟨n, hn⟩ := t
  cases n with
  | zero => exact rfl
  | succ n => exact (dif_pos h0).trans rfl

/-- The pool's buffer at a later point, over what the point before left. -/
theorem poolAtL0_B (V : (c : Dev nD) → (b : Ref sig .tc) → Buf (Elt F) ((c : Thread nD τ).loc b)) (c : Dev nD) (t : Fin cfg0.N) (h0 : ¬t.val % 50 = 0) :
    poolAtL0 V c t.val t.isLt = outL0_B_16 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) (fun h => h0 ((hcondL0_0 t).mp h)) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) (poolAtL0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the body leaves in window 15's staging buffer at point `t`: the tile's new node features. -/
def hOutL0 (V : (c : Dev nD) → (b : Ref sig .tc) → Buf (Elt F) ((c : Thread nD τ).loc b)) (c : Dev nD) (t : Fin cfg0.N) : Vec F S1000x128 .f32 :=
  if h0 : t.val % 50 = 0 then
    outL0_A_15 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) ((hcondL0_0 t).mpr h0) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t)
  else
    outL0_B_15 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) (fun h => h0 ((hcondL0_0 t).mp h)) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) (poolAtL0 V c (t.val - 1) (Nat.lt_of_le_of_lt (Nat.sub_le _ _) t.isLt))

theorem hOutL0_A (V : (c : Dev nD) → (b : Ref sig .tc) → Buf (Elt F) ((c : Thread nD τ).loc b)) (c : Dev nD) (t : Fin cfg0.N) (h0 : t.val % 50 = 0) :
    hOutL0 V c t = outL0_A_15 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) ((hcondL0_0 t).mpr h0) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) := dif_pos h0

theorem hOutL0_B (V : (c : Dev nD) → (b : Ref sig .tc) → Buf (Elt F) ((c : Thread nD τ).loc b)) (c : Dev nD) (t : Fin cfg0.N) (h0 : ¬t.val % 50 = 0) :
    hOutL0 V c t = outL0_B_15 c (grid0.coords t) (msL0_0 t) (hsL0_0 t) (msL0_1 t) (hsL0_1 t) (msL0_2 t) (hsL0_2 t) (msL0_3 t) (hsL0_3 t) (msL0_4 t) (hsL0_4 t) (msL0_5 t) (hsL0_5 t) (msL0_6 t) (hsL0_6 t) (msL0_7 t) (hsL0_7 t) (msL0_8 t) (hsL0_8 t) (msL0_9 t) (hsL0_9 t) (msL0_10 t) (hsL0_10 t) (msL0_11 t) (hsL0_11 t) (msL0_12 t) (hsL0_12 t) (msL0_13 t) (hsL0_13 t) (msL0_14 t) (hsL0_14 t) (msL0_15 t) (hsL0_15 t) (msL0_16 t) (hsL0_16 t) (fun h => h0 ((hcondL0_0 t).mp h)) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) (poolAtL0 V c (t.val - 1) (Nat.lt_of_le_of_lt (Nat.sub_le _ _) t.isLt)) := dif_neg h0

/-! ## The pipeline's proof data -/

/-- The proof data of this region's pipeline on core `c`. -/
def datL0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblkL0 V c 0 t
    | ⟨1, _⟩ => iblkL0 V c 1 t
    | ⟨2, _⟩ => iblkL0 V c 2 t
    | ⟨3, _⟩ => iblkL0 V c 3 t
    | ⟨4, _⟩ => iblkL0 V c 4 t
    | ⟨5, _⟩ => iblkL0 V c 5 t
    | ⟨6, _⟩ => iblkL0 V c 6 t
    | ⟨7, _⟩ => iblkL0 V c 7 t
    | ⟨8, _⟩ => iblkL0 V c 8 t
    | ⟨9, _⟩ => iblkL0 V c 9 t
    | ⟨10, _⟩ => iblkL0 V c 10 t
    | ⟨11, _⟩ => iblkL0 V c 11 t
    | ⟨12, _⟩ => iblkL0 V c 12 t
    | ⟨13, _⟩ => iblkL0 V c 13 t
    | ⟨14, _⟩ => iblkL0 V c 14 t
    | ⟨15, _⟩ => hOutL0 V c t
    | ⟨16, _⟩ => poolAtL0 V c t.val t.isLt
    | ⟨_ + 17, h⟩ => absurd h (Nat.not_lt.2 (Nat.le_add_left _ _))
  Φ _ := Pipeline.ΦA spec0 c
  q _ := fullShare
  owed _ := 0

/-- The proof data's arrays are the region-entry contents. -/
theorem A_eqL0 (V : (c : Dev nD) → (b : Ref sig .tc) → Buf (Elt F) ((c : Thread nD τ).loc b)) (c : Dev nD) (w : Fin cfg0.W) : (datL0 V c).A w = V c (Pipeline.arrRef spec0 w) := by
  dsimp only [datL0]

/-- What the body leaves, window by window. -/
theorem after0_L0 (V : (c : Dev nD) → (b : Ref sig .tc) → Buf (Elt F) ((c : Thread nD τ).loc b)) (c : Dev nD) (t : Fin cfg0.N) : (datL0 V c).after 0 t = iblkL0 V c 0 t := by dsimp only [datL0]
theorem after1_L0 (V : (c : Dev nD) → (b : Ref sig .tc) → Buf (Elt F) ((c : Thread nD τ).loc b)) (c : Dev nD) (t : Fin cfg0.N) : (datL0 V c).after 1 t = iblkL0 V c 1 t := by dsimp only [datL0]
theorem after2_L0 (V : (c : Dev nD) → (b : Ref sig .tc) → Buf (Elt F) ((c : Thread nD τ).loc b)) (c : Dev nD) (t : Fin cfg0.N) : (datL0 V c).after 2 t = iblkL0 V c 2 t := by dsimp only [datL0]
theorem after3_L0 (V : (c : Dev nD) → (b : Ref sig .tc) → Buf (Elt F) ((c : Thread nD τ).loc b)) (c : Dev nD) (t : Fin cfg0.N) : (datL0 V c).after 3 t = iblkL0 V c 3 t := by dsimp only [datL0]
theorem after4_L0 (V : (c : Dev nD) → (b : Ref sig .tc) → Buf (Elt F) ((c : Thread nD τ).loc b)) (c : Dev nD) (t : Fin cfg0.N) : (datL0 V c).after 4 t = iblkL0 V c 4 t := by dsimp only [datL0]
theorem after5_L0 (V : (c : Dev nD) → (b : Ref sig .tc) → Buf (Elt F) ((c : Thread nD τ).loc b)) (c : Dev nD) (t : Fin cfg0.N) : (datL0 V c).after 5 t = iblkL0 V c 5 t := by dsimp only [datL0]
theorem after6_L0 (V : (c : Dev nD) → (b : Ref sig .tc) → Buf (Elt F) ((c : Thread nD τ).loc b)) (c : Dev nD) (t : Fin cfg0.N) : (datL0 V c).after 6 t = iblkL0 V c 6 t := by dsimp only [datL0]
theorem after7_L0 (V : (c : Dev nD) → (b : Ref sig .tc) → Buf (Elt F) ((c : Thread nD τ).loc b)) (c : Dev nD) (t : Fin cfg0.N) : (datL0 V c).after 7 t = iblkL0 V c 7 t := by dsimp only [datL0]
theorem after8_L0 (V : (c : Dev nD) → (b : Ref sig .tc) → Buf (Elt F) ((c : Thread nD τ).loc b)) (c : Dev nD) (t : Fin cfg0.N) : (datL0 V c).after 8 t = iblkL0 V c 8 t := by dsimp only [datL0]
theorem after9_L0 (V : (c : Dev nD) → (b : Ref sig .tc) → Buf (Elt F) ((c : Thread nD τ).loc b)) (c : Dev nD) (t : Fin cfg0.N) : (datL0 V c).after 9 t = iblkL0 V c 9 t := by dsimp only [datL0]
theorem after10_L0 (V : (c : Dev nD) → (b : Ref sig .tc) → Buf (Elt F) ((c : Thread nD τ).loc b)) (c : Dev nD) (t : Fin cfg0.N) : (datL0 V c).after 10 t = iblkL0 V c 10 t := by dsimp only [datL0]
theorem after11_L0 (V : (c : Dev nD) → (b : Ref sig .tc) → Buf (Elt F) ((c : Thread nD τ).loc b)) (c : Dev nD) (t : Fin cfg0.N) : (datL0 V c).after 11 t = iblkL0 V c 11 t := by dsimp only [datL0]
theorem after12_L0 (V : (c : Dev nD) → (b : Ref sig .tc) → Buf (Elt F) ((c : Thread nD τ).loc b)) (c : Dev nD) (t : Fin cfg0.N) : (datL0 V c).after 12 t = iblkL0 V c 12 t := by dsimp only [datL0]
theorem after13_L0 (V : (c : Dev nD) → (b : Ref sig .tc) → Buf (Elt F) ((c : Thread nD τ).loc b)) (c : Dev nD) (t : Fin cfg0.N) : (datL0 V c).after 13 t = iblkL0 V c 13 t := by dsimp only [datL0]
theorem after14_L0 (V : (c : Dev nD) → (b : Ref sig .tc) → Buf (Elt F) ((c : Thread nD τ).loc b)) (c : Dev nD) (t : Fin cfg0.N) : (datL0 V c).after 14 t = iblkL0 V c 14 t := by dsimp only [datL0]
theorem after15_L0 (V : (c : Dev nD) → (b : Ref sig .tc) → Buf (Elt F) ((c : Thread nD τ).loc b)) (c : Dev nD) (t : Fin cfg0.N) : (datL0 V c).after 15 t = hOutL0 V c t := by dsimp only [datL0]
theorem after16_L0 (V : (c : Dev nD) → (b : Ref sig .tc) → Buf (Elt F) ((c : Thread nD τ).loc b)) (c : Dev nD) (t : Fin cfg0.N) : (datL0 V c).after 16 t = poolAtL0 V c t.val t.isLt := by dsimp only [datL0]

/-- Each input's current staging buffer holds its block at every point, fetched there or not. -/
theorem beforeL0_0 (V : (c : Dev nD) → (b : Ref sig .tc) → Buf (Elt F) ((c : Thread nD τ).loc b)) (c : Dev nD) (t : Fin cfg0.N) (d) : (datL0 V c).before 0 t d = iblkL0 V c 0 t :=
  beforeL0_0_of V (datL0 V c) (A_eqL0 V c 0) (after0_L0 V c) t d
theorem beforeL0_1 (V : (c : Dev nD) → (b : Ref sig .tc) → Buf (Elt F) ((c : Thread nD τ).loc b)) (c : Dev nD) (t : Fin cfg0.N) (d) : (datL0 V c).before 1 t d = iblkL0 V c 1 t :=
  beforeL0_1_of V (datL0 V c) (A_eqL0 V c 1) (after1_L0 V c) t d
theorem beforeL0_2 (V : (c : Dev nD) → (b : Ref sig .tc) → Buf (Elt F) ((c : Thread nD τ).loc b)) (c : Dev nD) (t : Fin cfg0.N) (d) : (datL0 V c).before 2 t d = iblkL0 V c 2 t :=
  beforeL0_2_of V (datL0 V c) (A_eqL0 V c 2) (after2_L0 V c) t d
theorem beforeL0_3 (V : (c : Dev nD) → (b : Ref sig .tc) → Buf (Elt F) ((c : Thread nD τ).loc b)) (c : Dev nD) (t : Fin cfg0.N) (d) : (datL0 V c).before 3 t d = iblkL0 V c 3 t :=
  beforeL0_3_of V (datL0 V c) (A_eqL0 V c 3) (after3_L0 V c) t d
theorem beforeL0_4 (V : (c : Dev nD) → (b : Ref sig .tc) → Buf (Elt F) ((c : Thread nD τ).loc b)) (c : Dev nD) (t : Fin cfg0.N) (d) : (datL0 V c).before 4 t d = iblkL0 V c 4 t :=
  beforeL0_4_of V (datL0 V c) (A_eqL0 V c 4) (after4_L0 V c) t d
theorem beforeL0_5 (V : (c : Dev nD) → (b : Ref sig .tc) → Buf (Elt F) ((c : Thread nD τ).loc b)) (c : Dev nD) (t : Fin cfg0.N) (d) : (datL0 V c).before 5 t d = iblkL0 V c 5 t :=
  beforeL0_5_of V (datL0 V c) (A_eqL0 V c 5) (after5_L0 V c) t d
theorem beforeL0_6 (V : (c : Dev nD) → (b : Ref sig .tc) → Buf (Elt F) ((c : Thread nD τ).loc b)) (c : Dev nD) (t : Fin cfg0.N) (d) : (datL0 V c).before 6 t d = iblkL0 V c 6 t :=
  beforeL0_6_of V (datL0 V c) (A_eqL0 V c 6) (after6_L0 V c) t d
theorem beforeL0_7 (V : (c : Dev nD) → (b : Ref sig .tc) → Buf (Elt F) ((c : Thread nD τ).loc b)) (c : Dev nD) (t : Fin cfg0.N) (d) : (datL0 V c).before 7 t d = iblkL0 V c 7 t :=
  beforeL0_7_of V (datL0 V c) (A_eqL0 V c 7) (after7_L0 V c) t d
theorem beforeL0_8 (V : (c : Dev nD) → (b : Ref sig .tc) → Buf (Elt F) ((c : Thread nD τ).loc b)) (c : Dev nD) (t : Fin cfg0.N) (d) : (datL0 V c).before 8 t d = iblkL0 V c 8 t :=
  beforeL0_8_of V (datL0 V c) (A_eqL0 V c 8) (after8_L0 V c) t d
theorem beforeL0_9 (V : (c : Dev nD) → (b : Ref sig .tc) → Buf (Elt F) ((c : Thread nD τ).loc b)) (c : Dev nD) (t : Fin cfg0.N) (d) : (datL0 V c).before 9 t d = iblkL0 V c 9 t :=
  beforeL0_9_of V (datL0 V c) (A_eqL0 V c 9) (after9_L0 V c) t d
theorem beforeL0_10 (V : (c : Dev nD) → (b : Ref sig .tc) → Buf (Elt F) ((c : Thread nD τ).loc b)) (c : Dev nD) (t : Fin cfg0.N) (d) : (datL0 V c).before 10 t d = iblkL0 V c 10 t :=
  beforeL0_10_of V (datL0 V c) (A_eqL0 V c 10) (after10_L0 V c) t d
theorem beforeL0_11 (V : (c : Dev nD) → (b : Ref sig .tc) → Buf (Elt F) ((c : Thread nD τ).loc b)) (c : Dev nD) (t : Fin cfg0.N) (d) : (datL0 V c).before 11 t d = iblkL0 V c 11 t :=
  beforeL0_11_of V (datL0 V c) (A_eqL0 V c 11) (after11_L0 V c) t d
theorem beforeL0_12 (V : (c : Dev nD) → (b : Ref sig .tc) → Buf (Elt F) ((c : Thread nD τ).loc b)) (c : Dev nD) (t : Fin cfg0.N) (d) : (datL0 V c).before 12 t d = iblkL0 V c 12 t :=
  beforeL0_12_of V (datL0 V c) (A_eqL0 V c 12) (after12_L0 V c) t d
theorem beforeL0_13 (V : (c : Dev nD) → (b : Ref sig .tc) → Buf (Elt F) ((c : Thread nD τ).loc b)) (c : Dev nD) (t : Fin cfg0.N) (d) : (datL0 V c).before 13 t d = iblkL0 V c 13 t :=
  beforeL0_13_of V (datL0 V c) (A_eqL0 V c 13) (after13_L0 V c) t d
theorem beforeL0_14 (V : (c : Dev nD) → (b : Ref sig .tc) → Buf (Elt F) ((c : Thread nD τ).loc b)) (c : Dev nD) (t : Fin cfg0.N) (d) : (datL0 V c).before 14 t d = iblkL0 V c 14 t :=
  beforeL0_14_of V (datL0 V c) (A_eqL0 V c 14) (after14_L0 V c) t d

/-- At a later point the pool's current staging buffer holds what the body left at the point before: the window's block
    index is constant and the buffer is written back at the last point only. -/
theorem beforeL0_16_B (V : (c : Dev nD) → (b : Ref sig .tc) → Buf (Elt F) ((c : Thread nD τ).loc b)) (c : Dev nD) (t : Fin cfg0.N) (h0 : ¬t.val % 50 = 0) (d) :
    (datL0 V c).before 16 t d = poolAtL0 V c (t.val - 1) (Nat.lt_of_le_of_lt (Nat.sub_le _ _) t.isLt) := by
  have hN : t.val < 50 := lt_of_lt_of_eq t.isLt (show cfg0.N = 50 from N_0)
  rw [Dat.before_out_kept _ 16 rfl t (by omega) (Bool.eq_false_iff.mpr fun h => by have := (flush0_16 _).mp h; dsimp only at this; omega)
    (fun _ => rfl) (fun _ _ => rfl)]
  dsimp only [datL0]

/-! ## The body obligation, at a generic point -/

/-- What the body is called with at point `t`, the windows one by one, -/
def bodyPreL0 (V : (c : Dev nD) → (b : Ref sig .tc) → Buf (Elt F) ((c : Thread nD τ).loc b)) (c : Dev nD) (t : Fin cfg0.N) : sProp 𝕄 :=
  iprop((datL0 V c).Φ t.castSucc ∗ (datL0 V c).owesAt () t.castSucc
    ∗ (∃ d, owns (c : Thread nD τ) (msL0_0 t) fullShare ((datL0 V c).before 0 t d))
    ∗ (∃ d, owns (c : Thread nD τ) (msL0_1 t) fullShare ((datL0 V c).before 1 t d))
    ∗ (∃ d, owns (c : Thread nD τ) (msL0_2 t) fullShare ((datL0 V c).before 2 t d))
    ∗ (∃ d, owns (c : Thread nD τ) (msL0_3 t) fullShare ((datL0 V c).before 3 t d))
    ∗ (∃ d, owns (c : Thread nD τ) (msL0_4 t) fullShare ((datL0 V c).before 4 t d))
    ∗ (∃ d, owns (c : Thread nD τ) (msL0_5 t) fullShare ((datL0 V c).before 5 t d))
    ∗ (∃ d, owns (c : Thread nD τ) (msL0_6 t) fullShare ((datL0 V c).before 6 t d))
    ∗ (∃ d, owns (c : Thread nD τ) (msL0_7 t) fullShare ((datL0 V c).before 7 t d))
    ∗ (∃ d, owns (c : Thread nD τ) (msL0_8 t) fullShare ((datL0 V c).before 8 t d))
    ∗ (∃ d, owns (c : Thread nD τ) (msL0_9 t) fullShare ((datL0 V c).before 9 t d))
    ∗ (∃ d, owns (c : Thread nD τ) (msL0_10 t) fullShare ((datL0 V c).before 10 t d))
    ∗ (∃ d, owns (c : Thread nD τ) (msL0_11 t) fullShare ((datL0 V c).before 11 t d))
    ∗ (∃ d, owns (c : Thread nD τ) (msL0_12 t) fullShare ((datL0 V c).before 12 t d))
    ∗ (∃ d, owns (c : Thread nD τ) (msL0_13 t) fullShare ((datL0 V c).before 13 t d))
    ∗ (∃ d, owns (c : Thread nD τ) (msL0_14 t) fullShare ((datL0 V c).before 14 t d))
    ∗ (∃ d, owns (c : Thread nD τ) (msL0_15 t) fullShare ((datL0 V c).before 15 t d))
    ∗ (∃ d, owns (c : Thread nD τ) (msL0_16 t) fullShare ((datL0 V c).before 16 t d)))

/-- and what it returns. -/
def bodyPostL0 (V : (c : Dev nD) → (b : Ref sig .tc) → Buf (Elt F) ((c : Thread nD τ).loc b)) (c : Dev nD) (t : Fin cfg0.N) : sProp 𝕄 :=
  iprop((datL0 V c).Φ t.succ ∗ (datL0 V c).owesAt () t.succ
    ∗ owns (c : Thread nD τ) (msL0_0 t) fullShare ((datL0 V c).after 0 t)
    ∗ owns (c : Thread nD τ) (msL0_1 t) fullShare ((datL0 V c).after 1 t)
    ∗ owns (c : Thread nD τ) (msL0_2 t) fullShare ((datL0 V c).after 2 t)
    ∗ owns (c : Thread nD τ) (msL0_3 t) fullShare ((datL0 V c).after 3 t)
    ∗ owns (c : Thread nD τ) (msL0_4 t) fullShare ((datL0 V c).after 4 t)
    ∗ owns (c : Thread nD τ) (msL0_5 t) fullShare ((datL0 V c).after 5 t)
    ∗ owns (c : Thread nD τ) (msL0_6 t) fullShare ((datL0 V c).after 6 t)
    ∗ owns (c : Thread nD τ) (msL0_7 t) fullShare ((datL0 V c).after 7 t)
    ∗ owns (c : Thread nD τ) (msL0_8 t) fullShare ((datL0 V c).after 8 t)
    ∗ owns (c : Thread nD τ) (msL0_9 t) fullShare ((datL0 V c).after 9 t)
    ∗ owns (c : Thread nD τ) (msL0_10 t) fullShare ((datL0 V c).after 10 t)
    ∗ owns (c : Thread nD τ) (msL0_11 t) fullShare ((datL0 V c).after 11 t)
    ∗ owns (c : Thread nD τ) (msL0_12 t) fullShare ((datL0 V c).after 12 t)
    ∗ owns (c : Thread nD τ) (msL0_13 t) fullShare ((datL0 V c).after 13 t)
    ∗ owns (c : Thread nD τ) (msL0_14 t) fullShare ((datL0 V c).after 14 t)
    ∗ owns (c : Thread nD τ) (msL0_15 t) fullShare ((datL0 V c).after 15 t)
    ∗ owns (c : Thread nD τ) (msL0_16 t) fullShare ((datL0 V c).after 16 t))

set_option maxHeartbeats 4000000 in
/-- The body at any point: the inputs' memrefs hold their blocks; the point is the first or a later one, and at a later
    one the pool's buffer holds what the point before left; so the body's run applies; the invariant passes through
    unread; the core owes nothing throughout. -/
theorem sound_bodyL0 (V : (c : Dev nD) → (b : Ref sig .tc) → Buf (Elt F) ((c : Thread nD τ).loc b)) (c : Dev nD) (t : Fin cfg0.N) :
    bodyPreL0 V c t ⊢ wp frame (wpE (defs₀ (F := F)) Variants.none c none) Set.univ (bodyAt0 t) (fun _ => bodyPostL0 V c t) := by
  unfold bodyPreL0 bodyPostL0 bodyAt0
  simp only [beforeL0_0, beforeL0_1, beforeL0_2, beforeL0_3, beforeL0_4, beforeL0_5, beforeL0_6, beforeL0_7, beforeL0_8, beforeL0_9, beforeL0_10, beforeL0_11, beforeL0_12, beforeL0_13, beforeL0_14]
  rw [show (datL0 V c).Φ t.succ = (datL0 V c).Φ t.castSucc from rfl,
    show (datL0 V c).owesAt () t.succ = (datL0 V c).owesAt () t.castSucc from rfl,
    after0_L0, after1_L0, after2_L0, after3_L0, after4_L0, after5_L0, after6_L0, after7_L0, after8_L0, after9_L0, after10_L0, after11_L0, after12_L0, after13_L0, after14_L0, after15_L0, after16_L0]
  have hN : t.val < 50 := lt_of_lt_of_eq t.isLt (show cfg0.N = 50 from N_0)
  by_cases h0 : t.val % 50 = 0
  · rw [hOutL0_A V c t h0, poolAtL0_A V c t h0]
    unfold outL0_A_15 outL0_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL0_A c (grid0.coords t) _ _ _ _ _ _ _ _ _ _ _ _ _ _ _ _ _ _ _ _ _ _ _ _ _ _ _ _ _ _ _ _ _ _ ((hcondL0_0 t).mpr h0) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL0_A_15 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL0_A_16 c _ _ _ _ _ _ _ _ _ _ _ _ _ _ _ _ _ _ _ _ _ _ _ _ _ _ _ _ _ _ _ _ _ _ _ _ _ _ _ _ _ _ _ _ _ _ _ _ _ _ _)
  · rw [hOutL0_B V c t h0, poolAtL0_B V c t h0]
    simp only [beforeL0_16_B V c t h0]
    unfold outL0_B_15 outL0_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL0_B c (grid0.coords t) _ _ _ _ _ _ _ _ _ _ _ _ _ _ _ _ _ _ _ _ _ _ _ _ _ _ _ _ _ _ _ _ _ _ (fun h => h0 ((hcondL0_0 t).mp h)) (iblkL0 V c 0 t) (iblkL0 V c 1 t) (iblkL0 V c 2 t) (iblkL0 V c 3 t) (iblkL0 V c 4 t) (iblkL0 V c 5 t) (iblkL0 V c 6 t) (iblkL0 V c 7 t) (iblkL0 V c 8 t) (iblkL0 V c 9 t) (iblkL0 V c 10 t) (iblkL0 V c 11 t) (iblkL0 V c 12 t) (iblkL0 V c 13 t) (iblkL0 V c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL0_B_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL0_B_16 c _ _ _ _ _ _ _ _ _ _ _ _ _ _ _ _ _ _ _ _ _ _ _ _ _ _ _ _ _ _ _ _ _ _ _ _ _ _ _ _ _ _ _ _ _ _ _ _ _ _ _ _)

/-- The body meets the pipeline's obligation at every point. -/
theorem body_obligationL0 (V : (c : Dev nD) → (b : Ref sig .tc) → Buf (Elt F) ((c : Thread nD τ).loc b)) (c : Dev nD) : BodyObligation (datL0 (F := F) V c) (defs₀ (F := F)) Variants.none () Set.univ := fun t => by
  rw [bigSep_W0, bigSep_W0]
  exact sound_bodyL0 V c t

end Cert.KernelIdeal.Hand

end
-- ==== Proof.KI.L1Runs.lean ====
/-
  Layer region 1, what the runs of its body share: each window's block as the region finds its array, that an
  input window's staging buffer holds its block at every point (fetched there or kept from the point before), the
  body's branch on the grid coordinate in closed form, and the staging memrefs the body is called with.
  `V` is the TensorCore's buffer contents when the region is entered.
-/
import proofs.«426741_j36421322670671_1_alg».proof.Proof.Gen.KernelIdeal.Launch
import proofs.«426741_j36421322670671_1_alg».proof.Proof.Gen.KernelIdeal.Skeleton
import proofs.«426741_j36421322670671_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it. -/
def iblkL1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's staging buffer holds its block at every point -/

/-- Input window 0: for any proof data whose array is the region-entry contents and whose body leaves the block in
    place, the current staging buffer holds the block at every point, fetched there or not. -/
theorem beforeL1_0_of (V : (c : Dev nD) → (b : Ref sig .tc) → Buf (Elt F) ((c : Thread nD τ).loc b)) {c : Dev nD} (dat : Dat τ (Elt F) Unit ℕ (UR sig nD τ) ℕ cfg1 c) (hA : dat.A 0 = V c (Pipeline.arrRef spec1 0))
    (hafter : ∀ t, dat.after 0 t = iblkL1 V c 0 t) (t : Fin cfg1.N) (d) : dat.before 0 t d = iblkL1 V c 0 t :=
  (dat.before_in_eq_fetched 0 rfl (fun _ => rfl) (fun _ _ _ => rfl) (fun t => by rw [hafter]; unfold Dat.blockOf iblkL1; rw [hA]; try rfl) t d).trans
    (by unfold Dat.fetched Dat.blockOf iblkL1; rw [hA]; try rfl)

/-- Input window 1: for any proof data whose array is the region-entry contents and whose body leaves the block in
    place, the current staging buffer holds the block at every point, fetched there or not. -/
theorem beforeL1_1_of (V : (c : Dev nD) → (b : Ref sig .tc) → Buf (Elt F) ((c : Thread nD τ).loc b)) {c : Dev nD} (dat : Dat τ (Elt F) Unit ℕ (UR sig nD τ) ℕ cfg1 c) (hA : dat.A 1 = V c (Pipeline.arrRef spec1 1))
    (hafter : ∀ t, dat.after 1 t = iblkL1 V c 1 t) (t : Fin cfg1.N) (d) : dat.before 1 t d = iblkL1 V c 1 t :=
  (dat.before_in_eq_fetched 1 rfl (fun _ => rfl) (fun _ _ _ => rfl) (fun t => by rw [hafter]; unfold Dat.blockOf iblkL1; rw [hA]; try rfl) t d).trans
    (by unfold Dat.fetched Dat.blockOf iblkL1; rw [hA]; try rfl)

/-- Input window 2: for any proof data whose array is the region-entry contents and whose body leaves the block in
    place, the current staging buffer holds the block at every point, fetched there or not. -/
theorem beforeL1_2_of (V : (c : Dev nD) → (b : Ref sig .tc) → Buf (Elt F) ((c : Thread nD τ).loc b)) {c : Dev nD} (dat : Dat τ (Elt F) Unit ℕ (UR sig nD τ) ℕ cfg1 c) (hA : dat.A 2 = V c (Pipeline.arrRef spec1 2))
    (hafter : ∀ t, dat.after 2 t = iblkL1 V c 2 t) (t : Fin cfg1.N) (d) : dat.before 2 t d = iblkL1 V c 2 t :=
  (dat.before_in_eq_fetched 2 rfl (fun _ => rfl) (fun _ _ _ => rfl) (fun t => by rw [hafter]; unfold Dat.blockOf iblkL1; rw [hA]; try rfl) t d).trans
    (by unfold Dat.fetched Dat.blockOf iblkL1; rw [hA]; try rfl)

/-- Input window 3: for any proof data whose array is the region-entry contents and whose body leaves the block in
    place, the current staging buffer holds the block at every point, fetched there or not. -/
theorem beforeL1_3_of (V : (c : Dev nD) → (b : Ref sig .tc) → Buf (Elt F) ((c : Thread nD τ).loc b)) {c : Dev nD} (dat : Dat τ (Elt F) Unit ℕ (UR sig nD τ) ℕ cfg1 c) (hA : dat.A 3 = V c (Pipeline.arrRef spec1 3))
    (hafter : ∀ t, dat.after 3 t = iblkL1 V c 3 t) (t : Fin cfg1.N) (d) : dat.before 3 t d = iblkL1 V c 3 t :=
  (dat.before_in_eq_fetched 3 rfl (fun _ => rfl) (fun _ _ _ => rfl) (fun t => by rw [hafter]; unfold Dat.blockOf iblkL1; rw [hA]; try rfl) t d).trans
    (by unfold Dat.fetched Dat.blockOf iblkL1; rw [hA]; try rfl)

/-- Input window 4: for any proof data whose array is the region-entry contents and whose body leaves the block in
    place, the current staging buffer holds the block at every point, fetched there or not. -/
theorem beforeL1_4_of (V : (c : Dev nD) → (b : Ref sig .tc) → Buf (Elt F) ((c : Thread nD τ).loc b)) {c : Dev nD} (dat : Dat τ (Elt F) Unit ℕ (UR sig nD τ) ℕ cfg1 c) (hA : dat.A 4 = V c (Pipeline.arrRef spec1 4))
    (hafter : ∀ t, dat.after 4 t = iblkL1 V c 4 t) (t : Fin cfg1.N) (d) : dat.before 4 t d = iblkL1 V c 4 t :=
  (dat.before_in_eq_fetched 4 rfl (fun _ => rfl) (fun _ _ _ => rfl) (fun t => by rw [hafter]; unfold Dat.blockOf iblkL1; rw [hA]; try rfl) t d).trans
    (by unfold Dat.fetched Dat.blockOf iblkL1; rw [hA]; try rfl)

/-- Input window 5: for any proof data whose array is the region-entry contents and whose body leaves the block in
    place, the current staging buffer holds the block at every point, fetched there or not. -/
theorem beforeL1_5_of (V : (c : Dev nD) → (b : Ref sig .tc) → Buf (Elt F) ((c : Thread nD τ).loc b)) {c : Dev nD} (dat : Dat τ (Elt F) Unit ℕ (UR sig nD τ) ℕ cfg1 c) (hA : dat.A 5 = V c (Pipeline.arrRef spec1 5))
    (hafter : ∀ t, dat.after 5 t = iblkL1 V c 5 t) (t : Fin cfg1.N) (d) : dat.before 5 t d = iblkL1 V c 5 t :=
  (dat.before_in_eq_fetched 5 rfl (fun _ => rfl) (fun _ _ _ => rfl) (fun t => by rw [hafter]; unfold Dat.blockOf iblkL1; rw [hA]; try rfl) t d).trans
    (by unfold Dat.fetched Dat.blockOf iblkL1; rw [hA]; try rfl)

/-- Input window 6: for any proof data whose array is the region-entry contents and whose body leaves the block in
    place, the current staging buffer holds the block at every point, fetched there or not. -/
theorem beforeL1_6_of (V : (c : Dev nD) → (b : Ref sig .tc) → Buf (Elt F) ((c : Thread nD τ).loc b)) {c : Dev nD} (dat : Dat τ (Elt F) Unit ℕ (UR sig nD τ) ℕ cfg1 c) (hA : dat.A 6 = V c (Pipeline.arrRef spec1 6))
    (hafter : ∀ t, dat.after 6 t = iblkL1 V c 6 t) (t : Fin cfg1.N) (d) : dat.before 6 t d = iblkL1 V c 6 t :=
  (dat.before_in_eq_fetched 6 rfl (fun _ => rfl) (fun _ _ _ => rfl) (fun t => by rw [hafter]; unfold Dat.blockOf iblkL1; rw [hA]; try rfl) t d).trans
    (by unfold Dat.fetched Dat.blockOf iblkL1; rw [hA]; try rfl)

/-- Input window 7: for any proof data whose array is the region-entry contents and whose body leaves the block in
    place, the current staging buffer holds the block at every point, fetched there or not. -/
theorem beforeL1_7_of (V : (c : Dev nD) → (b : Ref sig .tc) → Buf (Elt F) ((c : Thread nD τ).loc b)) {c : Dev nD} (dat : Dat τ (Elt F) Unit ℕ (UR sig nD τ) ℕ cfg1 c) (hA : dat.A 7 = V c (Pipeline.arrRef spec1 7))
    (hafter : ∀ t, dat.after 7 t = iblkL1 V c 7 t) (t : Fin cfg1.N) (d) : dat.before 7 t d = iblkL1 V c 7 t :=
  (dat.before_in_eq_fetched 7 rfl (fun _ => rfl) (fun _ _ _ => rfl) (fun t => by rw [hafter]; unfold Dat.blockOf iblkL1; rw [hA]; try rfl) t d).trans
    (by unfold Dat.fetched Dat.blockOf iblkL1; rw [hA]; try rfl)

/-- Input window 8: for any proof data whose array is the region-entry contents and whose body leaves the block in
    place, the current staging buffer holds the block at every point, fetched there or not. -/
theorem beforeL1_8_of (V : (c : Dev nD) → (b : Ref sig .tc) → Buf (Elt F) ((c : Thread nD τ).loc b)) {c : Dev nD} (dat : Dat τ (Elt F) Unit ℕ (UR sig nD τ) ℕ cfg1 c) (hA : dat.A 8 = V c (Pipeline.arrRef spec1 8))
    (hafter : ∀ t, dat.after 8 t = iblkL1 V c 8 t) (t : Fin cfg1.N) (d) : dat.before 8 t d = iblkL1 V c 8 t :=
  (dat.before_in_eq_fetched 8 rfl (fun _ => rfl) (fun _ _ _ => rfl) (fun t => by rw [hafter]; unfold Dat.blockOf iblkL1; rw [hA]; try rfl) t d).trans
    (by unfold Dat.fetched Dat.blockOf iblkL1; rw [hA]; try rfl)

/-- Input window 9: for any proof data whose array is the region-entry contents and whose body leaves the block in
    place, the current staging buffer holds the block at every point, fetched there or not. -/
theorem beforeL1_9_of (V : (c : Dev nD) → (b : Ref sig .tc) → Buf (Elt F) ((c : Thread nD τ).loc b)) {c : Dev nD} (dat : Dat τ (Elt F) Unit ℕ (UR sig nD τ) ℕ cfg1 c) (hA : dat.A 9 = V c (Pipeline.arrRef spec1 9))
    (hafter : ∀ t, dat.after 9 t = iblkL1 V c 9 t) (t : Fin cfg1.N) (d) : dat.before 9 t d = iblkL1 V c 9 t :=
  (dat.before_in_eq_fetched 9 rfl (fun _ => rfl) (fun _ _ _ => rfl) (fun t => by rw [hafter]; unfold Dat.blockOf iblkL1; rw [hA]; try rfl) t d).trans
    (by unfold Dat.fetched Dat.blockOf iblkL1; rw [hA]; try rfl)

/-- Input window 10: for any proof data whose array is the region-entry contents and whose body leaves the block in
    place, the current staging buffer holds the block at every point, fetched there or not. -/
theorem beforeL1_10_of (V : (c : Dev nD) → (b : Ref sig .tc) → Buf (Elt F) ((c : Thread nD τ).loc b)) {c : Dev nD} (dat : Dat τ (Elt F) Unit ℕ (UR sig nD τ) ℕ cfg1 c) (hA : dat.A 10 = V c (Pipeline.arrRef spec1 10))
    (hafter : ∀ t, dat.after 10 t = iblkL1 V c 10 t) (t : Fin cfg1.N) (d) : dat.before 10 t d = iblkL1 V c 10 t :=
  (dat.before_in_eq_fetched 10 rfl (fun _ => rfl) (fun _ _ _ => rfl) (fun t => by rw [hafter]; unfold Dat.blockOf iblkL1; rw [hA]; try rfl) t d).trans
    (by unfold Dat.fetched Dat.blockOf iblkL1; rw [hA]; try rfl)

/-- Input window 11: for any proof data whose array is the region-entry contents and whose body leaves the block in
    place, the current staging buffer holds the block at every point, fetched there or not. -/
theorem beforeL1_11_of (V : (c : Dev nD) → (b : Ref sig .tc) → Buf (Elt F) ((c : Thread nD τ).loc b)) {c : Dev nD} (dat : Dat τ (Elt F) Unit ℕ (UR sig nD τ) ℕ cfg1 c) (hA : dat.A 11 = V c (Pipeline.arrRef spec1 11))
    (hafter : ∀ t, dat.after 11 t = iblkL1 V c 11 t) (t : Fin cfg1.N) (d) : dat.before 11 t d = iblkL1 V c 11 t :=
  (dat.before_in_eq_fetched 11 rfl (fun _ => rfl) (fun _ _ _ => rfl) (fun t => by rw [hafter]; unfold Dat.blockOf iblkL1; rw [hA]; try rfl) t d).trans
    (by unfold Dat.fetched Dat.blockOf iblkL1; rw [hA]; try rfl)

/-- Input window 12: for any proof data whose array is the region-entry contents and whose body leaves the block in
    place, the current staging buffer holds the block at every point, fetched there or not. -/
theorem beforeL1_12_of (V : (c : Dev nD) → (b : Ref sig .tc) → Buf (Elt F) ((c : Thread nD τ).loc b)) {c : Dev nD} (dat : Dat τ (Elt F) Unit ℕ (UR sig nD τ) ℕ cfg1 c) (hA : dat.A 12 = V c (Pipeline.arrRef spec1 12))
    (hafter : ∀ t, dat.after 12 t = iblkL1 V c 12 t) (t : Fin cfg1.N) (d) : dat.before 12 t d = iblkL1 V c 12 t :=
  (dat.before_in_eq_fetched 12 rfl (fun _ => rfl) (fun _ _ _ => rfl) (fun t => by rw [hafter]; unfold Dat.blockOf iblkL1; rw [hA]; try rfl) t d).trans
    (by unfold Dat.fetched Dat.blockOf iblkL1; rw [hA]; try rfl)

/-- Input window 13: for any proof data whose array is the region-entry contents and whose body leaves the block in
    place, the current staging buffer holds the block at every point, fetched there or not. -/
theorem beforeL1_13_of (V : (c : Dev nD) → (b : Ref sig .tc) → Buf (Elt F) ((c : Thread nD τ).loc b)) {c : Dev nD} (dat : Dat τ (Elt F) Unit ℕ (UR sig nD τ) ℕ cfg1 c) (hA : dat.A 13 = V c (Pipeline.arrRef spec1 13))
    (hafter : ∀ t, dat.after 13 t = iblkL1 V c 13 t) (t : Fin cfg1.N) (d) : dat.before 13 t d = iblkL1 V c 13 t :=
  (dat.before_in_eq_fetched 13 rfl (fun _ => rfl) (fun _ _ _ => rfl) (fun t => by rw [hafter]; unfold Dat.blockOf iblkL1; rw [hA]; try rfl) t d).trans
    (by unfold Dat.fetched Dat.blockOf iblkL1; rw [hA]; try rfl)

/-- Input window 14: for any proof data whose array is the region-entry contents and whose body leaves the block in
    place, the current staging buffer holds the block at every point, fetched there or not. -/
theorem beforeL1_14_of (V : (c : Dev nD) → (b : Ref sig .tc) → Buf (Elt F) ((c : Thread nD τ).loc b)) {c : Dev nD} (dat : Dat τ (Elt F) Unit ℕ (UR sig nD τ) ℕ cfg1 c) (hA : dat.A 14 = V c (Pipeline.arrRef spec1 14))
    (hafter : ∀ t, dat.after 14 t = iblkL1 V c 14 t) (t : Fin cfg1.N) (d) : dat.before 14 t d = iblkL1 V c 14 t :=
  (dat.before_in_eq_fetched 14 rfl (fun _ => rfl) (fun _ _ _ => rfl) (fun t => by rw [hafter]; unfold Dat.blockOf iblkL1; rw [hA]; try rfl) t d).trans
    (by unfold Dat.fetched Dat.blockOf iblkL1; rw [hA]; try rfl)

/-! ## The body's branch -/

/-- The condition of the body's branch (`k1_h1`: the grid coordinate is zero), from the grid coordinates. -/
abbrev condL1_0 (i : grid1.Coords) : Prop := (Scalar.cmpi .ne (Scalar.extui (Scalar.cmpi .eq (BitVec.ofNat 32 (i 0).val) 0#32)) 0#32) = 1#1
/-- It holds at the first point only. -/
theorem hcondL1_0 : ∀ t : Fin cfg1.N, condL1_0 (grid1.coords t) ↔ t.val % 50 = 0 :=
  (by decide +kernel : ∀ t : Fin grid1.N, condL1_0 (grid1.coords t) ↔ t.val % 50 = 0)

/-! ## The staging memrefs -/

/-- One staging buffer of each output window, through which its contents are stated. -/
abbrev VOL1_15 : View sig .tc .vmem S1000x128 .f32 := (Memref.whole cc1_stg15_0 : Memref sig .tc .vmem S1000x128 .f32).view
abbrev VOL1_16 : View sig .tc .vmem S512x128 .f32 := (Memref.whole cc1_stg16_0 : Memref sig .tc .vmem S512x128 .f32).view

/-- Each window's current staging memref at point `t`, as the pipeline passes it to the body, and its wholeness. -/
abbrev msL1_0 (t : Fin cfg1.N) : Memref sig .tc .vmem S1000x128 .f32 := win1_0.stage (cfg1.slots t 0)
abbrev hsL1_0 (t : Fin cfg1.N) : (msL1_0 t).IsWhole := hstage1_0 ((cfg1.slots t 0).cast nbuf1_0)
abbrev msL1_1 (t : Fin cfg1.N) : Memref sig .tc .vmem S1000x128 .f32 := win1_1.stage (cfg1.slots t 1)
abbrev hsL1_1 (t : Fin cfg1.N) : (msL1_1 t).IsWhole := hstage1_1 ((cfg1.slots t 1).cast nbuf1_1)
abbrev msL1_2 (t : Fin cfg1.N) : Memref sig .tc .vmem S1000x1 .i32 := win1_2.stage (cfg1.slots t 2)
abbrev hsL1_2 (t : Fin cfg1.N) : (msL1_2 t).IsWhole := hstage1_2 ((cfg1.slots t 2).cast nbuf1_2)
abbrev msL1_3 (t : Fin cfg1.N) : Memref sig .tc .vmem S128x128 .f32 := win1_3.stage (cfg1.slots t 3)
abbrev hsL1_3 (t : Fin cfg1.N) : (msL1_3 t).IsWhole := hstage1_3 ((cfg1.slots t 3).cast nbuf1_3)
abbrev msL1_4 (t : Fin cfg1.N) : Memref sig .tc .vmem S128 .f32 := win1_4.stage (cfg1.slots t 4)
abbrev hsL1_4 (t : Fin cfg1.N) : (msL1_4 t).IsWhole := hstage1_4 ((cfg1.slots t 4).cast nbuf1_4)
abbrev msL1_5 (t : Fin cfg1.N) : Memref sig .tc .vmem S128 .f32 := win1_5.stage (cfg1.slots t 5)
abbrev hsL1_5 (t : Fin cfg1.N) : (msL1_5 t).IsWhole := hstage1_5 ((cfg1.slots t 5).cast nbuf1_5)
abbrev msL1_6 (t : Fin cfg1.N) : Memref sig .tc .vmem S128 .f32 := win1_6.stage (cfg1.slots t 6)
abbrev hsL1_6 (t : Fin cfg1.N) : (msL1_6 t).IsWhole := hstage1_6 ((cfg1.slots t 6).cast nbuf1_6)
abbrev msL1_7 (t : Fin cfg1.N) : Memref sig .tc .vmem S128 .f32 := win1_7.stage (cfg1.slots t 7)
abbrev hsL1_7 (t : Fin cfg1.N) : (msL1_7 t).IsWhole := hstage1_7 ((cfg1.slots t 7).cast nbuf1_7)
abbrev msL1_8 (t : Fin cfg1.N) : Memref sig .tc .vmem S128 .f32 := win1_8.stage (cfg1.slots t 8)
abbrev hsL1_8 (t : Fin cfg1.N) : (msL1_8 t).IsWhole := hstage1_8 ((cfg1.slots t 8).cast nbuf1_8)
abbrev msL1_9 (t : Fin cfg1.N) : Memref sig .tc .vmem S128x128 .f32 := win1_9.stage (cfg1.slots t 9)
abbrev hsL1_9 (t : Fin cfg1.N) : (msL1_9 t).IsWhole := hstage1_9 ((cfg1.slots t 9).cast nbuf1_9)
abbrev msL1_10 (t : Fin cfg1.N) : Memref sig .tc .vmem S128 .f32 := win1_10.stage (cfg1.slots t 10)
abbrev hsL1_10 (t : Fin cfg1.N) : (msL1_10 t).IsWhole := hstage1_10 ((cfg1.slots t 10).cast nbuf1_10)
abbrev msL1_11 (t : Fin cfg1.N) : Memref sig .tc .vmem S128 .f32 := win1_11.stage (cfg1.slots t 11)
abbrev hsL1_11 (t : Fin cfg1.N) : (msL1_11 t).IsWhole := hstage1_11 ((cfg1.slots t 11).cast nbuf1_11)
abbrev msL1_12 (t : Fin cfg1.N) : Memref sig .tc .vmem S128 .f32 := win1_12.stage (cfg1.slots t 12)
abbrev hsL1_12 (t : Fin cfg1.N) : (msL1_12 t).IsWhole := hstage1_12 ((cfg1.slots t 12).cast nbuf1_12)
abbrev msL1_13 (t : Fin cfg1.N) : Memref sig .tc .vmem S128 .f32 := win1_13.stage (cfg1.slots t 13)
abbrev hsL1_13 (t : Fin cfg1.N) : (msL1_13 t).IsWhole := hstage1_13 ((cfg1.slots t 13).cast nbuf1_13)
abbrev msL1_14 (t : Fin cfg1.N) : Memref sig .tc .vmem S128 .f32 := win1_14.stage (cfg1.slots t 14)
abbrev hsL1_14 (t : Fin cfg1.N) : (msL1_14 t).IsWhole := hstage1_14 ((cfg1.slots t 14).cast nbuf1_14)
abbrev msL1_15 (t : Fin cfg1.N) : Memref sig .tc .vmem S1000x128 .f32 := win1_15.stage (cfg1.slots t 15)
abbrev hsL1_15 (t : Fin cfg1.N) : (msL1_15 t).IsWhole := hstage1_15 ((cfg1.slots t 15).cast nbuf1_15)
abbrev msL1_16 (t : Fin cfg1.N) : Memref sig .tc .vmem S512x128 .f32 := win1_16.stage (cfg1.slots t 16)
abbrev hsL1_16 (t : Fin cfg1.N) : (msL1_16 t).IsWhole := hstage1_16 ((cfg1.slots t 16).cast nbuf1_16)

end Cert.KernelIdeal.Hand

end
-- ==== Proof.KI.L1RunA.lean ====
/-
  Layer region 1, the run of its body at the first grid point (the branch on the grid coordinate taken: the pool's
  buffer is zeroed before the tile is added): on whole staging memrefs, the inputs' at their contents and the outputs'
  at anything, the body runs to the continuation holding the inputs' as they were and each output's buffer with the
  stores the body made, listed last first.
-/
import proofs.«426741_j36421322670671_1_alg».proof.Proof.KI.L1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at the first point, as pieces (last first),
    with the body's triple: the pieces are found by running the body. -/
noncomputable def kernelRunL1_A (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.KernelIdeal.Hand

end
-- ==== Proof.KI.L1RunB.lean ====
/-
  Layer region 1, the run of its body at a later grid point (the branch on the grid coordinate not taken: the tile is
  added to what the pool's buffer holds): on whole staging memrefs, the inputs' at their contents, the pool's at its
  running contents and the new features' at anything, the body runs to the continuation holding the inputs' as they
  were and each output's buffer with the stores the body made, listed last first.
-/
import proofs.«426741_j36421322670671_1_alg».proof.Proof.KI.L1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at a later point, as pieces (last first),
    with the body's triple: the pieces are found by running the body. -/
noncomputable def kernelRunL1_B (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.KernelIdeal.Hand

end
-- ==== Proof.KI.L1Dat.lean ====
/-
  Layer region 1: what its pipeline's proof data say. Every input window's staging buffer holds its block of the
  array the region found; window 15's (the new node features) holds the block the body stores at the point;
  window 16's (the pool) holds the running sum the body carries from point to point.
  `V` is the TensorCore's buffer contents when the region is entered.
-/
import proofs.«426741_j36421322670671_1_alg».proof.Proof.KI.L1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer, by the case of its branch -/

/-- The body's stores into window 15's buffer (the new node features) at the first point tile its block, so they cover it. -/
theorem coverL1_A_15 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S1000x128.Idx) :
    ∃ pc ∈ (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1000x128.size (by sl_kernel_rfl) y

/-- What the body leaves in window 15's staging buffer at the first point: its stores read back. -/
def outL1_A_15 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S1000x128 .f32 :=
  VOL1_15.read (Elt F) (VOL1_15.writes (Elt F) VOL1_15.junk (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- The body's stores into window 16's buffer (the pool) at the first point tile its block, so they cover it. -/
theorem coverL1_A_16 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S512x128.Idx) :
    ∃ pc ∈ (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x128.size (by sl_kernel_rfl) y

/-- What the body leaves in window 16's staging buffer at the first point: its stores read back. -/
def outL1_A_16 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S512x128 .f32 :=
  VOL1_16.read (Elt F) (VOL1_16.writes (Elt F) VOL1_16.junk (kernelRunL1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- The body's stores into window 15's buffer (the new node features) at a later point tile its block, so they cover it. -/
theorem coverL1_B_15 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S1000x128.Idx) :
    ∃ pc ∈ (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1, y ∈ pc.1.set :=
  View.cover_of_tiledL (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1 S1000x128.size (by sl_kernel_rfl) y

/-- What the body leaves in window 15's staging buffer at a later point: its stores read back. -/
def outL1_B_15 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S1000x128 .f32 :=
  VOL1_15.read (Elt F) (VOL1_15.writes (Elt F) VOL1_15.junk (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1)

/-- The body's stores into window 16's buffer (the pool) at a later point tile its block, so they cover it. -/
theorem coverL1_B_16 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S512x128.Idx) :
    ∃ pc ∈ (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1, y ∈ pc.1.set :=
  View.cover_of_tiledL (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1 S512x128.size (by sl_kernel_rfl) y

/-- What the body leaves in window 16's staging buffer at a later point: its stores read back. -/
def outL1_B_16 (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S512x128 .f32 :=
  VOL1_16.read (Elt F) (VOL1_16.writes (Elt F) VOL1_16.junk (kernelRunL1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1)

/-! ## What the outputs hold after each point -/

/-- What the body leaves in window 16's staging buffer after point `n`: the pool summed over tiles `0 … n`. At the
    first point the buffer is zeroed and the tile added; at a later point the tile is added to what the point before
    left (the buffer is not written back between). -/
def poolAtL1 (V : (c : Dev nD) → (b : Ref sig .tc) → Buf (Elt F) ((c : Thread nD τ).loc b)) (c : Dev nD) : (n : ℕ) → n < cfg1.N → Vec F S512x128 .f32
  | 0, hn => outL1_A_16 c (grid1.coords ⟨0, hn⟩) (msL1_0 ⟨0, hn⟩) (hsL1_0 ⟨0, hn⟩) (msL1_1 ⟨0, hn⟩) (hsL1_1 ⟨0, hn⟩) (msL1_2 ⟨0, hn⟩) (hsL1_2 ⟨0, hn⟩) (msL1_3 ⟨0, hn⟩) (hsL1_3 ⟨0, hn⟩) (msL1_4 ⟨0, hn⟩) (hsL1_4 ⟨0, hn⟩) (msL1_5 ⟨0, hn⟩) (hsL1_5 ⟨0, hn⟩) (msL1_6 ⟨0, hn⟩) (hsL1_6 ⟨0, hn⟩) (msL1_7 ⟨0, hn⟩) (hsL1_7 ⟨0, hn⟩) (msL1_8 ⟨0, hn⟩) (hsL1_8 ⟨0, hn⟩) (msL1_9 ⟨0, hn⟩) (hsL1_9 ⟨0, hn⟩) (msL1_10 ⟨0, hn⟩) (hsL1_10 ⟨0, hn⟩) (msL1_11 ⟨0, hn⟩) (hsL1_11 ⟨0, hn⟩) (msL1_12 ⟨0, hn⟩) (hsL1_12 ⟨0, hn⟩) (msL1_13 ⟨0, hn⟩) (hsL1_13 ⟨0, hn⟩) (msL1_14 ⟨0, hn⟩) (hsL1_14 ⟨0, hn⟩) (msL1_15 ⟨0, hn⟩) (hsL1_15 ⟨0, hn⟩) (msL1_16 ⟨0, hn⟩) (hsL1_16 ⟨0, hn⟩) ((hcondL1_0 ⟨0, hn⟩).mpr (Nat.zero_mod _)) (iblkL1 V c 0 ⟨0, hn⟩) (iblkL1 V c 1 ⟨0, hn⟩) (iblkL1 V c 2 ⟨0, hn⟩) (iblkL1 V c 3 ⟨0, hn⟩) (iblkL1 V c 4 ⟨0, hn⟩) (iblkL1 V c 5 ⟨0, hn⟩) (iblkL1 V c 6 ⟨0, hn⟩) (iblkL1 V c 7 ⟨0, hn⟩) (iblkL1 V c 8 ⟨0, hn⟩) (iblkL1 V c 9 ⟨0, hn⟩) (iblkL1 V c 10 ⟨0, hn⟩) (iblkL1 V c 11 ⟨0, hn⟩) (iblkL1 V c 12 ⟨0, hn⟩) (iblkL1 V c 13 ⟨0, hn⟩) (iblkL1 V c 14 ⟨0, hn⟩)
  | n + 1, hn =>
    if h0 : (n + 1) % 50 = 0 then
      outL1_A_16 c (grid1.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) (msL1_5 ⟨n + 1, hn⟩) (hsL1_5 ⟨n + 1, hn⟩) (msL1_6 ⟨n + 1, hn⟩) (hsL1_6 ⟨n + 1, hn⟩) (msL1_7 ⟨n + 1, hn⟩) (hsL1_7 ⟨n + 1, hn⟩) (msL1_8 ⟨n + 1, hn⟩) (hsL1_8 ⟨n + 1, hn⟩) (msL1_9 ⟨n + 1, hn⟩) (hsL1_9 ⟨n + 1, hn⟩) (msL1_10 ⟨n + 1, hn⟩) (hsL1_10 ⟨n + 1, hn⟩) (msL1_11 ⟨n + 1, hn⟩) (hsL1_11 ⟨n + 1, hn⟩) (msL1_12 ⟨n + 1, hn⟩) (hsL1_12 ⟨n + 1, hn⟩) (msL1_13 ⟨n + 1, hn⟩) (hsL1_13 ⟨n + 1, hn⟩) (msL1_14 ⟨n + 1, hn⟩) (hsL1_14 ⟨n + 1, hn⟩) (msL1_15 ⟨n + 1, hn⟩) (hsL1_15 ⟨n + 1, hn⟩) (msL1_16 ⟨n + 1, hn⟩) (hsL1_16 ⟨n + 1, hn⟩) ((hcondL1_0 ⟨n + 1, hn⟩).mpr h0) (iblkL1 V c 0 ⟨n + 1, hn⟩) (iblkL1 V c 1 ⟨n + 1, hn⟩) (iblkL1 V c 2 ⟨n + 1, hn⟩) (iblkL1 V c 3 ⟨n + 1, hn⟩) (iblkL1 V c 4 ⟨n + 1, hn⟩) (iblkL1 V c 5 ⟨n + 1, hn⟩) (iblkL1 V c 6 ⟨n + 1, hn⟩) (iblkL1 V c 7 ⟨n + 1, hn⟩) (iblkL1 V c 8 ⟨n + 1, hn⟩) (iblkL1 V c 9 ⟨n + 1, hn⟩) (iblkL1 V c 10 ⟨n + 1, hn⟩) (iblkL1 V c 11 ⟨n + 1, hn⟩) (iblkL1 V c 12 ⟨n + 1, hn⟩) (iblkL1 V c 13 ⟨n + 1, hn⟩) (iblkL1 V c 14 ⟨n + 1, hn⟩)
    else
      outL1_B_16 c (grid1.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) (msL1_5 ⟨n + 1, hn⟩) (hsL1_5 ⟨n + 1, hn⟩) (msL1_6 ⟨n + 1, hn⟩) (hsL1_6 ⟨n + 1, hn⟩) (msL1_7 ⟨n + 1, hn⟩) (hsL1_7 ⟨n + 1, hn⟩) (msL1_8 ⟨n + 1, hn⟩) (hsL1_8 ⟨n + 1, hn⟩) (msL1_9 ⟨n + 1, hn⟩) (hsL1_9 ⟨n + 1, hn⟩) (msL1_10 ⟨n + 1, hn⟩) (hsL1_10 ⟨n + 1, hn⟩) (msL1_11 ⟨n + 1, hn⟩) (hsL1_11 ⟨n + 1, hn⟩) (msL1_12 ⟨n + 1, hn⟩) (hsL1_12 ⟨n + 1, hn⟩) (msL1_13 ⟨n + 1, hn⟩) (hsL1_13 ⟨n + 1, hn⟩) (msL1_14 ⟨n + 1, hn⟩) (hsL1_14 ⟨n + 1, hn⟩) (msL1_15 ⟨n + 1, hn⟩) (hsL1_15 ⟨n + 1, hn⟩) (msL1_16 ⟨n + 1, hn⟩) (hsL1_16 ⟨n + 1, hn⟩) (fun h => h0 ((hcondL1_0 ⟨n + 1, hn⟩).mp h)) (iblkL1 V c 0 ⟨n + 1, hn⟩) (iblkL1 V c 1 ⟨n + 1, hn⟩) (iblkL1 V c 2 ⟨n + 1, hn⟩) (iblkL1 V c 3 ⟨n + 1, hn⟩) (iblkL1 V c 4 ⟨n + 1, hn⟩) (iblkL1 V c 5 ⟨n + 1, hn⟩) (iblkL1 V c 6 ⟨n + 1, hn⟩) (iblkL1 V c 7 ⟨n + 1, hn⟩) (iblkL1 V c 8 ⟨n + 1, hn⟩) (iblkL1 V c 9 ⟨n + 1, hn⟩) (iblkL1 V c 10 ⟨n + 1, hn⟩) (iblkL1 V c 11 ⟨n + 1, hn⟩) (iblkL1 V c 12 ⟨n + 1, hn⟩) (iblkL1 V c 13 ⟨n + 1, hn⟩) (iblkL1 V c 14 ⟨n + 1, hn⟩) (poolAtL1 V c n (Nat.lt_of_succ_lt hn))

/-- The pool's buffer at the first point. -/
theorem poolAtL1_A (V : (c : Dev nD) → (b : Ref sig .tc) → Buf (Elt F) ((c : Thread nD τ).loc b)) (c : Dev nD) (t : Fin cfg1.N) (h0 : t.val % 50 = 0) :
    poolAtL1 V c t.val t.isLt = outL1_A_16 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) ((hcondL1_0 t).mpr h0) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) := by
  obtain ⟨n, hn⟩ := t
  cases n with
  | zero => exact rfl
  | succ n => exact (dif_pos h0).trans rfl

/-- The pool's buffer at a later point, over what the point before left. -/
theorem poolAtL1_B (V : (c : Dev nD) → (b : Ref sig .tc) → Buf (Elt F) ((c : Thread nD τ).loc b)) (c : Dev nD) (t : Fin cfg1.N) (h0 : ¬t.val % 50 = 0) :
    poolAtL1 V c t.val t.isLt = outL1_B_16 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) (fun h => h0 ((hcondL1_0 t).mp h)) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) (poolAtL1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the body leaves in window 15's staging buffer at point `t`: the tile's new node features. -/
def hOutL1 (V : (c : Dev nD) → (b : Ref sig .tc) → Buf (Elt F) ((c : Thread nD τ).loc b)) (c : Dev nD) (t : Fin cfg1.N) : Vec F S1000x128 .f32 :=
  if h0 : t.val % 50 = 0 then
    outL1_A_15 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) ((hcondL1_0 t).mpr h0) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t)
  else
    outL1_B_15 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) (fun h => h0 ((hcondL1_0 t).mp h)) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) (poolAtL1 V c (t.val - 1) (Nat.lt_of_le_of_lt (Nat.sub_le _ _) t.isLt))

theorem hOutL1_A (V : (c : Dev nD) → (b : Ref sig .tc) → Buf (Elt F) ((c : Thread nD τ).loc b)) (c : Dev nD) (t : Fin cfg1.N) (h0 : t.val % 50 = 0) :
    hOutL1 V c t = outL1_A_15 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) ((hcondL1_0 t).mpr h0) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) := dif_pos h0

theorem hOutL1_B (V : (c : Dev nD) → (b : Ref sig .tc) → Buf (Elt F) ((c : Thread nD τ).loc b)) (c : Dev nD) (t : Fin cfg1.N) (h0 : ¬t.val % 50 = 0) :
    hOutL1 V c t = outL1_B_15 c (grid1.coords t) (msL1_0 t) (hsL1_0 t) (msL1_1 t) (hsL1_1 t) (msL1_2 t) (hsL1_2 t) (msL1_3 t) (hsL1_3 t) (msL1_4 t) (hsL1_4 t) (msL1_5 t) (hsL1_5 t) (msL1_6 t) (hsL1_6 t) (msL1_7 t) (hsL1_7 t) (msL1_8 t) (hsL1_8 t) (msL1_9 t) (hsL1_9 t) (msL1_10 t) (hsL1_10 t) (msL1_11 t) (hsL1_11 t) (msL1_12 t) (hsL1_12 t) (msL1_13 t) (hsL1_13 t) (msL1_14 t) (hsL1_14 t) (msL1_15 t) (hsL1_15 t) (msL1_16 t) (hsL1_16 t) (fun h => h0 ((hcondL1_0 t).mp h)) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) (poolAtL1 V c (t.val - 1) (Nat.lt_of_le_of_lt (Nat.sub_le _ _) t.isLt)) := dif_neg h0

/-! ## The pipeline's proof data -/

/-- The proof data of this region's pipeline on core `c`. -/
def datL1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblkL1 V c 0 t
    | ⟨1, _⟩ => iblkL1 V c 1 t
    | ⟨2, _⟩ => iblkL1 V c 2 t
    | ⟨3, _⟩ => iblkL1 V c 3 t
    | ⟨4, _⟩ => iblkL1 V c 4 t
    | ⟨5, _⟩ => iblkL1 V c 5 t
    | ⟨6, _⟩ => iblkL1 V c 6 t
    | ⟨7, _⟩ => iblkL1 V c 7 t
    | ⟨8, _⟩ => iblkL1 V c 8 t
    | ⟨9, _⟩ => iblkL1 V c 9 t
    | ⟨10, _⟩ => iblkL1 V c 10 t
    | ⟨11, _⟩ => iblkL1 V c 11 t
    | ⟨12, _⟩ => iblkL1 V c 12 t
    | ⟨13, _⟩ => iblkL1 V c 13 t
    | ⟨14, _⟩ => iblkL1 V c 14 t
    | ⟨15, _⟩ => hOutL1 V c t
    | ⟨16, _⟩ => poolAtL1 V c t.val t.isLt
    | ⟨_ + 17, h⟩ => absurd h (Nat.not_lt.2 (Nat.le_add_left _ _))
  Φ _ := Pipeline.ΦA spec1 c
  q _ := fullShare
  owed _ := 0

/-- The proof data's arrays are the region-entry contents. -/
theorem A_eqL1 (V : (c : Dev nD) → (b : Ref sig .tc) → Buf (Elt F) ((c : Thread nD τ).loc b)) (c : Dev nD) (w : Fin cfg1.W) : (datL1 V c).A w = V c (Pipeline.arrRef spec1 w) := by
  dsimp only [datL1]

/-- What the body leaves, window by window. -/
theorem after0_L1 (V : (c : Dev nD) → (b : Ref sig .tc) → Buf (Elt F) ((c : Thread nD τ).loc b)) (c : Dev nD) (t : Fin cfg1.N) : (datL1 V c).after 0 t = iblkL1 V c 0 t := by dsimp only [datL1]
theorem after1_L1 (V : (c : Dev nD) → (b : Ref sig .tc) → Buf (Elt F) ((c : Thread nD τ).loc b)) (c : Dev nD) (t : Fin cfg1.N) : (datL1 V c).after 1 t = iblkL1 V c 1 t := by dsimp only [datL1]
theorem after2_L1 (V : (c : Dev nD) → (b : Ref sig .tc) → Buf (Elt F) ((c : Thread nD τ).loc b)) (c : Dev nD) (t : Fin cfg1.N) : (datL1 V c).after 2 t = iblkL1 V c 2 t := by dsimp only [datL1]
theorem after3_L1 (V : (c : Dev nD) → (b : Ref sig .tc) → Buf (Elt F) ((c : Thread nD τ).loc b)) (c : Dev nD) (t : Fin cfg1.N) : (datL1 V c).after 3 t = iblkL1 V c 3 t := by dsimp only [datL1]
theorem after4_L1 (V : (c : Dev nD) → (b : Ref sig .tc) → Buf (Elt F) ((c : Thread nD τ).loc b)) (c : Dev nD) (t : Fin cfg1.N) : (datL1 V c).after 4 t = iblkL1 V c 4 t := by dsimp only [datL1]
theorem after5_L1 (V : (c : Dev nD) → (b : Ref sig .tc) → Buf (Elt F) ((c : Thread nD τ).loc b)) (c : Dev nD) (t : Fin cfg1.N) : (datL1 V c).after 5 t = iblkL1 V c 5 t := by dsimp only [datL1]
theorem after6_L1 (V : (c : Dev nD) → (b : Ref sig .tc) → Buf (Elt F) ((c : Thread nD τ).loc b)) (c : Dev nD) (t : Fin cfg1.N) : (datL1 V c).after 6 t = iblkL1 V c 6 t := by dsimp only [datL1]
theorem after7_L1 (V : (c : Dev nD) → (b : Ref sig .tc) → Buf (Elt F) ((c : Thread nD τ).loc b)) (c : Dev nD) (t : Fin cfg1.N) : (datL1 V c).after 7 t = iblkL1 V c 7 t := by dsimp only [datL1]
theorem after8_L1 (V : (c : Dev nD) → (b : Ref sig .tc) → Buf (Elt F) ((c : Thread nD τ).loc b)) (c : Dev nD) (t : Fin cfg1.N) : (datL1 V c).after 8 t = iblkL1 V c 8 t := by dsimp only [datL1]
theorem after9_L1 (V : (c : Dev nD) → (b : Ref sig .tc) → Buf (Elt F) ((c : Thread nD τ).loc b)) (c : Dev nD) (t : Fin cfg1.N) : (datL1 V c).after 9 t = iblkL1 V c 9 t := by dsimp only [datL1]
theorem after10_L1 (V : (c : Dev nD) → (b : Ref sig .tc) → Buf (Elt F) ((c : Thread nD τ).loc b)) (c : Dev nD) (t : Fin cfg1.N) : (datL1 V c).after 10 t = iblkL1 V c 10 t := by dsimp only [datL1]
theorem after11_L1 (V : (c : Dev nD) → (b : Ref sig .tc) → Buf (Elt F) ((c : Thread nD τ).loc b)) (c : Dev nD) (t : Fin cfg1.N) : (datL1 V c).after 11 t = iblkL1 V c 11 t := by dsimp only [datL1]
theorem after12_L1 (V : (c : Dev nD) → (b : Ref sig .tc) → Buf (Elt F) ((c : Thread nD τ).loc b)) (c : Dev nD) (t : Fin cfg1.N) : (datL1 V c).after 12 t = iblkL1 V c 12 t := by dsimp only [datL1]
theorem after13_L1 (V : (c : Dev nD) → (b : Ref sig .tc) → Buf (Elt F) ((c : Thread nD τ).loc b)) (c : Dev nD) (t : Fin cfg1.N) : (datL1 V c).after 13 t = iblkL1 V c 13 t := by dsimp only [datL1]
theorem after14_L1 (V : (c : Dev nD) → (b : Ref sig .tc) → Buf (Elt F) ((c : Thread nD τ).loc b)) (c : Dev nD) (t : Fin cfg1.N) : (datL1 V c).after 14 t = iblkL1 V c 14 t := by dsimp only [datL1]
theorem after15_L1 (V : (c : Dev nD) → (b : Ref sig .tc) → Buf (Elt F) ((c : Thread nD τ).loc b)) (c : Dev nD) (t : Fin cfg1.N) : (datL1 V c).after 15 t = hOutL1 V c t := by dsimp only [datL1]
theorem after16_L1 (V : (c : Dev nD) → (b : Ref sig .tc) → Buf (Elt F) ((c : Thread nD τ).loc b)) (c : Dev nD) (t : Fin cfg1.N) : (datL1 V c).after 16 t = poolAtL1 V c t.val t.isLt := by dsimp only [datL1]

/-- Each input's current staging buffer holds its block at every point, fetched there or not. -/
theorem beforeL1_0 (V : (c : Dev nD) → (b : Ref sig .tc) → Buf (Elt F) ((c : Thread nD τ).loc b)) (c : Dev nD) (t : Fin cfg1.N) (d) : (datL1 V c).before 0 t d = iblkL1 V c 0 t :=
  beforeL1_0_of V (datL1 V c) (A_eqL1 V c 0) (after0_L1 V c) t d
theorem beforeL1_1 (V : (c : Dev nD) → (b : Ref sig .tc) → Buf (Elt F) ((c : Thread nD τ).loc b)) (c : Dev nD) (t : Fin cfg1.N) (d) : (datL1 V c).before 1 t d = iblkL1 V c 1 t :=
  beforeL1_1_of V (datL1 V c) (A_eqL1 V c 1) (after1_L1 V c) t d
theorem beforeL1_2 (V : (c : Dev nD) → (b : Ref sig .tc) → Buf (Elt F) ((c : Thread nD τ).loc b)) (c : Dev nD) (t : Fin cfg1.N) (d) : (datL1 V c).before 2 t d = iblkL1 V c 2 t :=
  beforeL1_2_of V (datL1 V c) (A_eqL1 V c 2) (after2_L1 V c) t d
theorem beforeL1_3 (V : (c : Dev nD) → (b : Ref sig .tc) → Buf (Elt F) ((c : Thread nD τ).loc b)) (c : Dev nD) (t : Fin cfg1.N) (d) : (datL1 V c).before 3 t d = iblkL1 V c 3 t :=
  beforeL1_3_of V (datL1 V c) (A_eqL1 V c 3) (after3_L1 V c) t d
theorem beforeL1_4 (V : (c : Dev nD) → (b : Ref sig .tc) → Buf (Elt F) ((c : Thread nD τ).loc b)) (c : Dev nD) (t : Fin cfg1.N) (d) : (datL1 V c).before 4 t d = iblkL1 V c 4 t :=
  beforeL1_4_of V (datL1 V c) (A_eqL1 V c 4) (after4_L1 V c) t d
theorem beforeL1_5 (V : (c : Dev nD) → (b : Ref sig .tc) → Buf (Elt F) ((c : Thread nD τ).loc b)) (c : Dev nD) (t : Fin cfg1.N) (d) : (datL1 V c).before 5 t d = iblkL1 V c 5 t :=
  beforeL1_5_of V (datL1 V c) (A_eqL1 V c 5) (after5_L1 V c) t d
theorem beforeL1_6 (V : (c : Dev nD) → (b : Ref sig .tc) → Buf (Elt F) ((c : Thread nD τ).loc b)) (c : Dev nD) (t : Fin cfg1.N) (d) : (datL1 V c).before 6 t d = iblkL1 V c 6 t :=
  beforeL1_6_of V (datL1 V c) (A_eqL1 V c 6) (after6_L1 V c) t d
theorem beforeL1_7 (V : (c : Dev nD) → (b : Ref sig .tc) → Buf (Elt F) ((c : Thread nD τ).loc b)) (c : Dev nD) (t : Fin cfg1.N) (d) : (datL1 V c).before 7 t d = iblkL1 V c 7 t :=
  beforeL1_7_of V (datL1 V c) (A_eqL1 V c 7) (after7_L1 V c) t d
theorem beforeL1_8 (V : (c : Dev nD) → (b : Ref sig .tc) → Buf (Elt F) ((c : Thread nD τ).loc b)) (c : Dev nD) (t : Fin cfg1.N) (d) : (datL1 V c).before 8 t d = iblkL1 V c 8 t :=
  beforeL1_8_of V (datL1 V c) (A_eqL1 V c 8) (after8_L1 V c) t d
theorem beforeL1_9 (V : (c : Dev nD) → (b : Ref sig .tc) → Buf (Elt F) ((c : Thread nD τ).loc b)) (c : Dev nD) (t : Fin cfg1.N) (d) : (datL1 V c).before 9 t d = iblkL1 V c 9 t :=
  beforeL1_9_of V (datL1 V c) (A_eqL1 V c 9) (after9_L1 V c) t d
theorem beforeL1_10 (V : (c : Dev nD) → (b : Ref sig .tc) → Buf (Elt F) ((c : Thread nD τ).loc b)) (c : Dev nD) (t : Fin cfg1.N) (d) : (datL1 V c).before 10 t d = iblkL1 V c 10 t :=
  beforeL1_10_of V (datL1 V c) (A_eqL1 V c 10) (after10_L1 V c) t d
theorem beforeL1_11 (V : (c : Dev nD) → (b : Ref sig .tc) → Buf (Elt F) ((c : Thread nD τ).loc b)) (c : Dev nD) (t : Fin cfg1.N) (d) : (datL1 V c).before 11 t d = iblkL1 V c 11 t :=
  beforeL1_11_of V (datL1 V c) (A_eqL1 V c 11) (after11_L1 V c) t d
theorem beforeL1_12 (V : (c : Dev nD) → (b : Ref sig .tc) → Buf (Elt F) ((c : Thread nD τ).loc b)) (c : Dev nD) (t : Fin cfg1.N) (d) : (datL1 V c).before 12 t d = iblkL1 V c 12 t :=
  beforeL1_12_of V (datL1 V c) (A_eqL1 V c 12) (after12_L1 V c) t d
theorem beforeL1_13 (V : (c : Dev nD) → (b : Ref sig .tc) → Buf (Elt F) ((c : Thread nD τ).loc b)) (c : Dev nD) (t : Fin cfg1.N) (d) : (datL1 V c).before 13 t d = iblkL1 V c 13 t :=
  beforeL1_13_of V (datL1 V c) (A_eqL1 V c 13) (after13_L1 V c) t d
theorem beforeL1_14 (V : (c : Dev nD) → (b : Ref sig .tc) → Buf (Elt F) ((c : Thread nD τ).loc b)) (c : Dev nD) (t : Fin cfg1.N) (d) : (datL1 V c).before 14 t d = iblkL1 V c 14 t :=
  beforeL1_14_of V (datL1 V c) (A_eqL1 V c 14) (after14_L1 V c) t d

/-- At a later point the pool's current staging buffer holds what the body left at the point before: the window's block
    index is constant and the buffer is written back at the last point only. -/
theorem beforeL1_16_B (V : (c : Dev nD) → (b : Ref sig .tc) → Buf (Elt F) ((c : Thread nD τ).loc b)) (c : Dev nD) (t : Fin cfg1.N) (h0 : ¬t.val % 50 = 0) (d) :
    (datL1 V c).before 16 t d = poolAtL1 V c (t.val - 1) (Nat.lt_of_le_of_lt (Nat.sub_le _ _) t.isLt) := by
  have hN : t.val < 50 := lt_of_lt_of_eq t.isLt (show cfg1.N = 50 from N_1)
  rw [Dat.before_out_kept _ 16 rfl t (by omega) (Bool.eq_false_iff.mpr fun h => by have := (flush1_16 _).mp h; dsimp only at this; omega)
    (fun _ => rfl) (fun _ _ => rfl)]
  dsimp only [datL1]

/-! ## The body obligation, at a generic point -/

/-- What the body is called with at point `t`, the windows one by one, -/
def bodyPreL1 (V : (c : Dev nD) → (b : Ref sig .tc) → Buf (Elt F) ((c : Thread nD τ).loc b)) (c : Dev nD) (t : Fin cfg1.N) : sProp 𝕄 :=
  iprop((datL1 V c).Φ t.castSucc ∗ (datL1 V c).owesAt () t.castSucc
    ∗ (∃ d, owns (c : Thread nD τ) (msL1_0 t) fullShare ((datL1 V c).before 0 t d))
    ∗ (∃ d, owns (c : Thread nD τ) (msL1_1 t) fullShare ((datL1 V c).before 1 t d))
    ∗ (∃ d, owns (c : Thread nD τ) (msL1_2 t) fullShare ((datL1 V c).before 2 t d))
    ∗ (∃ d, owns (c : Thread nD τ) (msL1_3 t) fullShare ((datL1 V c).before 3 t d))
    ∗ (∃ d, owns (c : Thread nD τ) (msL1_4 t) fullShare ((datL1 V c).before 4 t d))
    ∗ (∃ d, owns (c : Thread nD τ) (msL1_5 t) fullShare ((datL1 V c).before 5 t d))
    ∗ (∃ d, owns (c : Thread nD τ) (msL1_6 t) fullShare ((datL1 V c).before 6 t d))
    ∗ (∃ d, owns (c : Thread nD τ) (msL1_7 t) fullShare ((datL1 V c).before 7 t d))
    ∗ (∃ d, owns (c : Thread nD τ) (msL1_8 t) fullShare ((datL1 V c).before 8 t d))
    ∗ (∃ d, owns (c : Thread nD τ) (msL1_9 t) fullShare ((datL1 V c).before 9 t d))
    ∗ (∃ d, owns (c : Thread nD τ) (msL1_10 t) fullShare ((datL1 V c).before 10 t d))
    ∗ (∃ d, owns (c : Thread nD τ) (msL1_11 t) fullShare ((datL1 V c).before 11 t d))
    ∗ (∃ d, owns (c : Thread nD τ) (msL1_12 t) fullShare ((datL1 V c).before 12 t d))
    ∗ (∃ d, owns (c : Thread nD τ) (msL1_13 t) fullShare ((datL1 V c).before 13 t d))
    ∗ (∃ d, owns (c : Thread nD τ) (msL1_14 t) fullShare ((datL1 V c).before 14 t d))
    ∗ (∃ d, owns (c : Thread nD τ) (msL1_15 t) fullShare ((datL1 V c).before 15 t d))
    ∗ (∃ d, owns (c : Thread nD τ) (msL1_16 t) fullShare ((datL1 V c).before 16 t d)))

/-- and what it returns. -/
def bodyPostL1 (V : (c : Dev nD) → (b : Ref sig .tc) → Buf (Elt F) ((c : Thread nD τ).loc b)) (c : Dev nD) (t : Fin cfg1.N) : sProp 𝕄 :=
  iprop((datL1 V c).Φ t.succ ∗ (datL1 V c).owesAt () t.succ
    ∗ owns (c : Thread nD τ) (msL1_0 t) fullShare ((datL1 V c).after 0 t)
    ∗ owns (c : Thread nD τ) (msL1_1 t) fullShare ((datL1 V c).after 1 t)
    ∗ owns (c : Thread nD τ) (msL1_2 t) fullShare ((datL1 V c).after 2 t)
    ∗ owns (c : Thread nD τ) (msL1_3 t) fullShare ((datL1 V c).after 3 t)
    ∗ owns (c : Thread nD τ) (msL1_4 t) fullShare ((datL1 V c).after 4 t)
    ∗ owns (c : Thread nD τ) (msL1_5 t) fullShare ((datL1 V c).after 5 t)
    ∗ owns (c : Thread nD τ) (msL1_6 t) fullShare ((datL1 V c).after 6 t)
    ∗ owns (c : Thread nD τ) (msL1_7 t) fullShare ((datL1 V c).after 7 t)
    ∗ owns (c : Thread nD τ) (msL1_8 t) fullShare ((datL1 V c).after 8 t)
    ∗ owns (c : Thread nD τ) (msL1_9 t) fullShare ((datL1 V c).after 9 t)
    ∗ owns (c : Thread nD τ) (msL1_10 t) fullShare ((datL1 V c).after 10 t)
    ∗ owns (c : Thread nD τ) (msL1_11 t) fullShare ((datL1 V c).after 11 t)
    ∗ owns (c : Thread nD τ) (msL1_12 t) fullShare ((datL1 V c).after 12 t)
    ∗ owns (c : Thread nD τ) (msL1_13 t) fullShare ((datL1 V c).after 13 t)
    ∗ owns (c : Thread nD τ) (msL1_14 t) fullShare ((datL1 V c).after 14 t)
    ∗ owns (c : Thread nD τ) (msL1_15 t) fullShare ((datL1 V c).after 15 t)
    ∗ owns (c : Thread nD τ) (msL1_16 t) fullShare ((datL1 V c).after 16 t))

set_option maxHeartbeats 4000000 in
/-- The body at any point: the inputs' memrefs hold their blocks; the point is the first or a later one, and at a later
    one the pool's buffer holds what the point before left; so the body's run applies; the invariant passes through
    unread; the core owes nothing throughout. -/
theorem sound_bodyL1 (V : (c : Dev nD) → (b : Ref sig .tc) → Buf (Elt F) ((c : Thread nD τ).loc b)) (c : Dev nD) (t : Fin cfg1.N) :
    bodyPreL1 V c t ⊢ wp frame (wpE (defs₀ (F := F)) Variants.none c none) Set.univ (bodyAt1 t) (fun _ => bodyPostL1 V c t) := by
  unfold bodyPreL1 bodyPostL1 bodyAt1
  simp only [beforeL1_0, beforeL1_1, beforeL1_2, beforeL1_3, beforeL1_4, beforeL1_5, beforeL1_6, beforeL1_7, beforeL1_8, beforeL1_9, beforeL1_10, beforeL1_11, beforeL1_12, beforeL1_13, beforeL1_14]
  rw [show (datL1 V c).Φ t.succ = (datL1 V c).Φ t.castSucc from rfl,
    show (datL1 V c).owesAt () t.succ = (datL1 V c).owesAt () t.castSucc from rfl,
    after0_L1, after1_L1, after2_L1, after3_L1, after4_L1, after5_L1, after6_L1, after7_L1, after8_L1, after9_L1, after10_L1, after11_L1, after12_L1, after13_L1, after14_L1, after15_L1, after16_L1]
  have hN : t.val < 50 := lt_of_lt_of_eq t.isLt (show cfg1.N = 50 from N_1)
  by_cases h0 : t.val % 50 = 0
  · rw [hOutL1_A V c t h0, poolAtL1_A V c t h0]
    unfold outL1_A_15 outL1_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL1_A c (grid1.coords t) _ _ _ _ _ _ _ _ _ _ _ _ _ _ _ _ _ _ _ _ _ _ _ _ _ _ _ _ _ _ _ _ _ _ ((hcondL1_0 t).mpr h0) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL1_A_15 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL1_A_16 c _ _ _ _ _ _ _ _ _ _ _ _ _ _ _ _ _ _ _ _ _ _ _ _ _ _ _ _ _ _ _ _ _ _ _ _ _ _ _ _ _ _ _ _ _ _ _ _ _ _ _)
  · rw [hOutL1_B V c t h0, poolAtL1_B V c t h0]
    simp only [beforeL1_16_B V c t h0]
    unfold outL1_B_15 outL1_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL1_B c (grid1.coords t) _ _ _ _ _ _ _ _ _ _ _ _ _ _ _ _ _ _ _ _ _ _ _ _ _ _ _ _ _ _ _ _ _ _ (fun h => h0 ((hcondL1_0 t).mp h)) (iblkL1 V c 0 t) (iblkL1 V c 1 t) (iblkL1 V c 2 t) (iblkL1 V c 3 t) (iblkL1 V c 4 t) (iblkL1 V c 5 t) (iblkL1 V c 6 t) (iblkL1 V c 7 t) (iblkL1 V c 8 t) (iblkL1 V c 9 t) (iblkL1 V c 10 t) (iblkL1 V c 11 t) (iblkL1 V c 12 t) (iblkL1 V c 13 t) (iblkL1 V c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL1_B_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL1_B_16 c _ _ _ _ _ _ _ _ _ _ _ _ _ _ _ _ _ _ _ _ _ _ _ _ _ _ _ _ _ _ _ _ _ _ _ _ _ _ _ _ _ _ _ _ _ _ _ _ _ _ _ _)

/-- The body meets the pipeline's obligation at every point. -/
theorem body_obligationL1 (V : (c : Dev nD) → (b : Ref sig .tc) → Buf (Elt F) ((c : Thread nD τ).loc b)) (c : Dev nD) : BodyObligation (datL1 (F := F) V c) (defs₀ (F := F)) Variants.none () Set.univ := fun t => by
  rw [bigSep_W1, bigSep_W1]
  exact sound_bodyL1 V c t

end Cert.KernelIdeal.Hand

end
-- ==== Proof.KI.L2Runs.lean ====
/-
  Layer region 2, what the runs of its body share: each window's block as the region finds its array, that an
  input window's staging buffer holds its block at every point (fetched there or kept from the point before), the
  body's branch on the grid coordinate in closed form, and the staging memrefs the body is called with.
  `V` is the TensorCore's buffer contents when the region is entered.
-/
import proofs.«426741_j36421322670671_1_alg».proof.Proof.Gen.KernelIdeal.Launch
import proofs.«426741_j36421322670671_1_alg».proof.Proof.Gen.KernelIdeal.Skeleton
import proofs.«426741_j36421322670671_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it. -/
def iblkL2 (V : (c : Dev nD) → (b : Ref sig .tc) → Buf (Elt F) ((c : Thread nD τ).loc b)) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input window's staging buffer holds its block at every point -/

/-- Input window 0: for any proof data whose array is the region-entry contents and whose body leaves the block in
    place, the current staging buffer holds the block at every point, fetched there or not. -/
theorem beforeL2_0_of (V : (c : Dev nD) → (b : Ref sig .tc) → Buf (Elt F) ((c : Thread nD τ).loc b)) {c : Dev nD} (dat : Dat τ (Elt F) Unit ℕ (UR sig nD τ) ℕ cfg2 c) (hA : dat.A 0 = V c (Pipeline.arrRef spec2 0))
    (hafter : ∀ t, dat.after 0 t = iblkL2 V c 0 t) (t : Fin cfg2.N) (d) : dat.before 0 t d = iblkL2 V c 0 t :=
  (dat.before_in_eq_fetched 0 rfl (fun _ => rfl) (fun _ _ _ => rfl) (fun t => by rw [hafter]; unfold Dat.blockOf iblkL2; rw [hA]; try rfl) t d).trans
    (by unfold Dat.fetched Dat.blockOf iblkL2; rw [hA]; try rfl)

/-- Input window 1: for any proof data whose array is the region-entry contents and whose body leaves the block in
    place, the current staging buffer holds the block at every point, fetched there or not. -/
theorem beforeL2_1_of (V : (c : Dev nD) → (b : Ref sig .tc) → Buf (Elt F) ((c : Thread nD τ).loc b)) {c : Dev nD} (dat : Dat τ (Elt F) Unit ℕ (UR sig nD τ) ℕ cfg2 c) (hA : dat.A 1 = V c (Pipeline.arrRef spec2 1))
    (hafter : ∀ t, dat.after 1 t = iblkL2 V c 1 t) (t : Fin cfg2.N) (d) : dat.before 1 t d = iblkL2 V c 1 t :=
  (dat.before_in_eq_fetched 1 rfl (fun _ => rfl) (fun _ _ _ => rfl) (fun t => by rw [hafter]; unfold Dat.blockOf iblkL2; rw [hA]; try rfl) t d).trans
    (by unfold Dat.fetched Dat.blockOf iblkL2; rw [hA]; try rfl)

/-- Input window 2: for any proof data whose array is the region-entry contents and whose body leaves the block in
    place, the current staging buffer holds the block at every point, fetched there or not. -/
theorem beforeL2_2_of (V : (c : Dev nD) → (b : Ref sig .tc) → Buf (Elt F) ((c : Thread nD τ).loc b)) {c : Dev nD} (dat : Dat τ (Elt F) Unit ℕ (UR sig nD τ) ℕ cfg2 c) (hA : dat.A 2 = V c (Pipeline.arrRef spec2 2))
    (hafter : ∀ t, dat.after 2 t = iblkL2 V c 2 t) (t : Fin cfg2.N) (d) : dat.before 2 t d = iblkL2 V c 2 t :=
  (dat.before_in_eq_fetched 2 rfl (fun _ => rfl) (fun _ _ _ => rfl) (fun t => by rw [hafter]; unfold Dat.blockOf iblkL2; rw [hA]; try rfl) t d).trans
    (by unfold Dat.fetched Dat.blockOf iblkL2; rw [hA]; try rfl)

/-- Input window 3: for any proof data whose array is the region-entry contents and whose body leaves the block in
    place, the current staging buffer holds the block at every point, fetched there or not. -/
theorem beforeL2_3_of (V : (c : Dev nD) → (b : Ref sig .tc) → Buf (Elt F) ((c : Thread nD τ).loc b)) {c : Dev nD} (dat : Dat τ (Elt F) Unit ℕ (UR sig nD τ) ℕ cfg2 c) (hA : dat.A 3 = V c (Pipeline.arrRef spec2 3))
    (hafter : ∀ t, dat.after 3 t = iblkL2 V c 3 t) (t : Fin cfg2.N) (d) : dat.before 3 t d = iblkL2 V c 3 t :=
  (dat.before_in_eq_fetched 3 rfl (fun _ => rfl) (fun _ _ _ => rfl) (fun t => by rw [hafter]; unfold Dat.blockOf iblkL2; rw [hA]; try rfl) t d).trans
    (by unfold Dat.fetched Dat.blockOf iblkL2; rw [hA]; try rfl)

/-- Input window 4: for any proof data whose array is the region-entry contents and whose body leaves the block in
    place, the current staging buffer holds the block at every point, fetched there or not. -/
theorem beforeL2_4_of (V : (c : Dev nD) → (b : Ref sig .tc) → Buf (Elt F) ((c : Thread nD τ).loc b)) {c : Dev nD} (dat : Dat τ (Elt F) Unit ℕ (UR sig nD τ) ℕ cfg2 c) (hA : dat.A 4 = V c (Pipeline.arrRef spec2 4))
    (hafter : ∀ t, dat.after 4 t = iblkL2 V c 4 t) (t : Fin cfg2.N) (d) : dat.before 4 t d = iblkL2 V c 4 t :=
  (dat.before_in_eq_fetched 4 rfl (fun _ => rfl) (fun _ _ _ => rfl) (fun t => by rw [hafter]; unfold Dat.blockOf iblkL2; rw [hA]; try rfl) t d).trans
    (by unfold Dat.fetched Dat.blockOf iblkL2; rw [hA]; try rfl)

/-- Input window 5: for any proof data whose array is the region-entry contents and whose body leaves the block in
    place, the current staging buffer holds the block at every point, fetched there or not. -/
theorem beforeL2_5_of (V : (c : Dev nD) → (b : Ref sig .tc) → Buf (Elt F) ((c : Thread nD τ).loc b)) {c : Dev nD} (dat : Dat τ (Elt F) Unit ℕ (UR sig nD τ) ℕ cfg2 c) (hA : dat.A 5 = V c (Pipeline.arrRef spec2 5))
    (hafter : ∀ t, dat.after 5 t = iblkL2 V c 5 t) (t : Fin cfg2.N) (d) : dat.before 5 t d = iblkL2 V c 5 t :=
  (dat.before_in_eq_fetched 5 rfl (fun _ => rfl) (fun _ _ _ => rfl) (fun t => by rw [hafter]; unfold Dat.blockOf iblkL2; rw [hA]; try rfl) t d).trans
    (by unfold Dat.fetched Dat.blockOf iblkL2; rw [hA]; try rfl)

/-- Input window 6: for any proof data whose array is the region-entry contents and whose body leaves the block in
    place, the current staging buffer holds the block at every point, fetched there or not. -/
theorem beforeL2_6_of (V : (c : Dev nD) → (b : Ref sig .tc) → Buf (Elt F) ((c : Thread nD τ).loc b)) {c : Dev nD} (dat : Dat τ (Elt F) Unit ℕ (UR sig nD τ) ℕ cfg2 c) (hA : dat.A 6 = V c (Pipeline.arrRef spec2 6))
    (hafter : ∀ t, dat.after 6 t = iblkL2 V c 6 t) (t : Fin cfg2.N) (d) : dat.before 6 t d = iblkL2 V c 6 t :=
  (dat.before_in_eq_fetched 6 rfl (fun _ => rfl) (fun _ _ _ => rfl) (fun t => by rw [hafter]; unfold Dat.blockOf iblkL2; rw [hA]; try rfl) t d).trans
    (by unfold Dat.fetched Dat.blockOf iblkL2; rw [hA]; try rfl)

/-- Input window 7: for any proof data whose array is the region-entry contents and whose body leaves the block in
    place, the current staging buffer holds the block at every point, fetched there or not. -/
theorem beforeL2_7_of (V : (c : Dev nD) → (b : Ref sig .tc) → Buf (Elt F) ((c : Thread nD τ).loc b)) {c : Dev nD} (dat : Dat τ (Elt F) Unit ℕ (UR sig nD τ) ℕ cfg2 c) (hA : dat.A 7 = V c (Pipeline.arrRef spec2 7))
    (hafter : ∀ t, dat.after 7 t = iblkL2 V c 7 t) (t : Fin cfg2.N) (d) : dat.before 7 t d = iblkL2 V c 7 t :=
  (dat.before_in_eq_fetched 7 rfl (fun _ => rfl) (fun _ _ _ => rfl) (fun t => by rw [hafter]; unfold Dat.blockOf iblkL2; rw [hA]; try rfl) t d).trans
    (by unfold Dat.fetched Dat.blockOf iblkL2; rw [hA]; try rfl)

/-- Input window 8: for any proof data whose array is the region-entry contents and whose body leaves the block in
    place, the current staging buffer holds the block at every point, fetched there or not. -/
theorem beforeL2_8_of (V : (c : Dev nD) → (b : Ref sig .tc) → Buf (Elt F) ((c : Thread nD τ).loc b)) {c : Dev nD} (dat : Dat τ (Elt F) Unit ℕ (UR sig nD τ) ℕ cfg2 c) (hA : dat.A 8 = V c (Pipeline.arrRef spec2 8))
    (hafter : ∀ t, dat.after 8 t = iblkL2 V c 8 t) (t : Fin cfg2.N) (d) : dat.before 8 t d = iblkL2 V c 8 t :=
  (dat.before_in_eq_fetched 8 rfl (fun _ => rfl) (fun _ _ _ => rfl) (fun t => by rw [hafter]; unfold Dat.blockOf iblkL2; rw [hA]; try rfl) t d).trans
    (by unfold Dat.fetched Dat.blockOf iblkL2; rw [hA]; try rfl)

/-- Input window 9: for any proof data whose array is the region-entry contents and whose body leaves the block in
    place, the current staging buffer holds the block at every point, fetched there or not. -/
theorem beforeL2_9_of (V : (c : Dev nD) → (b : Ref sig .tc) → Buf (Elt F) ((c : Thread nD τ).loc b)) {c : Dev nD} (dat : Dat τ (Elt F) Unit ℕ (UR sig nD τ) ℕ cfg2 c) (hA : dat.A 9 = V c (Pipeline.arrRef spec2 9))
    (hafter : ∀ t, dat.after 9 t = iblkL2 V c 9 t) (t : Fin cfg2.N) (d) : dat.before 9 t d = iblkL2 V c 9 t :=
  (dat.before_in_eq_fetched 9 rfl (fun _ => rfl) (fun _ _ _ => rfl) (fun t => by rw [hafter]; unfold Dat.blockOf iblkL2; rw [hA]; try rfl) t d).trans
    (by unfold Dat.fetched Dat.blockOf iblkL2; rw [hA]; try rfl)

/-- Input window 10: for any proof data whose array is the region-entry contents and whose body leaves the block in
    place, the current staging buffer holds the block at every point, fetched there or not. -/
theorem beforeL2_10_of (V : (c : Dev nD) → (b : Ref sig .tc) → Buf (Elt F) ((c : Thread nD τ).loc b)) {c : Dev nD} (dat : Dat τ (Elt F) Unit ℕ (UR sig nD τ) ℕ cfg2 c) (hA : dat.A 10 = V c (Pipeline.arrRef spec2 10))
    (hafter : ∀ t, dat.after 10 t = iblkL2 V c 10 t) (t : Fin cfg2.N) (d) : dat.before 10 t d = iblkL2 V c 10 t :=
  (dat.before_in_eq_fetched 10 rfl (fun _ => rfl) (fun _ _ _ => rfl) (fun t => by rw [hafter]; unfold Dat.blockOf iblkL2; rw [hA]; try rfl) t d).trans
    (by unfold Dat.fetched Dat.blockOf iblkL2; rw [hA]; try rfl)

/-- Input window 11: for any proof data whose array is the region-entry contents and whose body leaves the block in
    place, the current staging buffer holds the block at every point, fetched there or not. -/
theorem beforeL2_11_of (V : (c : Dev nD) → (b : Ref sig .tc) → Buf (Elt F) ((c : Thread nD τ).loc b)) {c : Dev nD} (dat : Dat τ (Elt F) Unit ℕ (UR sig nD τ) ℕ cfg2 c) (hA : dat.A 11 = V c (Pipeline.arrRef spec2 11))
    (hafter : ∀ t, dat.after 11 t = iblkL2 V c 11 t) (t : Fin cfg2.N) (d) : dat.before 11 t d = iblkL2 V c 11 t :=
  (dat.before_in_eq_fetched 11 rfl (fun _ => rfl) (fun _ _ _ => rfl) (fun t => by rw [hafter]; unfold Dat.blockOf iblkL2; rw [hA]; try rfl) t d).trans
    (by unfold Dat.fetched Dat.blockOf iblkL2; rw [hA]; try rfl)

/-- Input window 12: for any proof data whose array is the region-entry contents and whose body leaves the block in
    place, the current staging buffer holds the block at every point, fetched there or not. -/
theorem beforeL2_12_of (V : (c : Dev nD) → (b : Ref sig .tc) → Buf (Elt F) ((c : Thread nD τ).loc b)) {c : Dev nD} (dat : Dat τ (Elt F) Unit ℕ (UR sig nD τ) ℕ cfg2 c) (hA : dat.A 12 = V c (Pipeline.arrRef spec2 12))
    (hafter : ∀ t, dat.after 12 t = iblkL2 V c 12 t) (t : Fin cfg2.N) (d) : dat.before 12 t d = iblkL2 V c 12 t :=
  (dat.before_in_eq_fetched 12 rfl (fun _ => rfl) (fun _ _ _ => rfl) (fun t => by rw [hafter]; unfold Dat.blockOf iblkL2; rw [hA]; try rfl) t d).trans
    (by unfold Dat.fetched Dat.blockOf iblkL2; rw [hA]; try rfl)

/-- Input window 13: for any proof data whose array is the region-entry contents and whose body leaves the block in
    place, the current staging buffer holds the block at every point, fetched there or not. -/
theorem beforeL2_13_of (V : (c : Dev nD) → (b : Ref sig .tc) → Buf (Elt F) ((c : Thread nD τ).loc b)) {c : Dev nD} (dat : Dat τ (Elt F) Unit ℕ (UR sig nD τ) ℕ cfg2 c) (hA : dat.A 13 = V c (Pipeline.arrRef spec2 13))
    (hafter : ∀ t, dat.after 13 t = iblkL2 V c 13 t) (t : Fin cfg2.N) (d) : dat.before 13 t d = iblkL2 V c 13 t :=
  (dat.before_in_eq_fetched 13 rfl (fun _ => rfl) (fun _ _ _ => rfl) (fun t => by rw [hafter]; unfold Dat.blockOf iblkL2; rw [hA]; try rfl) t d).trans
    (by unfold Dat.fetched Dat.blockOf iblkL2; rw [hA]; try rfl)

/-- Input window 14: for any proof data whose array is the region-entry contents and whose body leaves the block in
    place, the current staging buffer holds the block at every point, fetched there or not. -/
theorem beforeL2_14_of (V : (c : Dev nD) → (b : Ref sig .tc) → Buf (Elt F) ((c : Thread nD τ).loc b)) {c : Dev nD} (dat : Dat τ (Elt F) Unit ℕ (UR sig nD τ) ℕ cfg2 c) (hA : dat.A 14 = V c (Pipeline.arrRef spec2 14))
    (hafter : ∀ t, dat.after 14 t = iblkL2 V c 14 t) (t : Fin cfg2.N) (d) : dat.before 14 t d = iblkL2 V c 14 t :=
  (dat.before_in_eq_fetched 14 rfl (fun _ => rfl) (fun _ _ _ => rfl) (fun t => by rw [hafter]; unfold Dat.blockOf iblkL2; rw [hA]; try rfl) t d).trans
    (by unfold Dat.fetched Dat.blockOf iblkL2; rw [hA]; try rfl)

/-! ## The body's branch -/

/-- The condition of the body's branch (`k2_h1`: the grid coordinate is zero), from the grid coordinates. -/
abbrev condL2_0 (i : grid2.Coords) : Prop := (Scalar.cmpi .ne (Scalar.extui (Scalar.cmpi .eq (BitVec.ofNat 32 (i 0).val) 0#32)) 0#32) = 1#1
/-- It holds at the first point only. -/
theorem hcondL2_0 : ∀ t : Fin cfg2.N, condL2_0 (grid2.coords t) ↔ t.val % 50 = 0 :=
  (by decide +kernel : ∀ t : Fin grid2.N, condL2_0 (grid2.coords t) ↔ t.val % 50 = 0)

/-! ## The staging memrefs -/

/-- One staging buffer of each output window, through which its contents are stated. -/
abbrev VOL2_15 : View sig .tc .vmem S1000x128 .f32 := (Memref.whole cc2_stg15_0 : Memref sig .tc .vmem S1000x128 .f32).view
abbrev VOL2_16 : View sig .tc .vmem S512x128 .f32 := (Memref.whole cc2_stg16_0 : Memref sig .tc .vmem S512x128 .f32).view

/-- Each window's current staging memref at point `t`, as the pipeline passes it to the body, and its wholeness. -/
abbrev msL2_0 (t : Fin cfg2.N) : Memref sig .tc .vmem S1000x128 .f32 := win2_0.stage (cfg2.slots t 0)
abbrev hsL2_0 (t : Fin cfg2.N) : (msL2_0 t).IsWhole := hstage2_0 ((cfg2.slots t 0).cast nbuf2_0)
abbrev msL2_1 (t : Fin cfg2.N) : Memref sig .tc .vmem S1000x128 .f32 := win2_1.stage (cfg2.slots t 1)
abbrev hsL2_1 (t : Fin cfg2.N) : (msL2_1 t).IsWhole := hstage2_1 ((cfg2.slots t 1).cast nbuf2_1)
abbrev msL2_2 (t : Fin cfg2.N) : Memref sig .tc .vmem S1000x1 .i32 := win2_2.stage (cfg2.slots t 2)
abbrev hsL2_2 (t : Fin cfg2.N) : (msL2_2 t).IsWhole := hstage2_2 ((cfg2.slots t 2).cast nbuf2_2)
abbrev msL2_3 (t : Fin cfg2.N) : Memref sig .tc .vmem S128x128 .f32 := win2_3.stage (cfg2.slots t 3)
abbrev hsL2_3 (t : Fin cfg2.N) : (msL2_3 t).IsWhole := hstage2_3 ((cfg2.slots t 3).cast nbuf2_3)
abbrev msL2_4 (t : Fin cfg2.N) : Memref sig .tc .vmem S128 .f32 := win2_4.stage (cfg2.slots t 4)
abbrev hsL2_4 (t : Fin cfg2.N) : (msL2_4 t).IsWhole := hstage2_4 ((cfg2.slots t 4).cast nbuf2_4)
abbrev msL2_5 (t : Fin cfg2.N) : Memref sig .tc .vmem S128 .f32 := win2_5.stage (cfg2.slots t 5)
abbrev hsL2_5 (t : Fin cfg2.N) : (msL2_5 t).IsWhole := hstage2_5 ((cfg2.slots t 5).cast nbuf2_5)
abbrev msL2_6 (t : Fin cfg2.N) : Memref sig .tc .vmem S128 .f32 := win2_6.stage (cfg2.slots t 6)
abbrev hsL2_6 (t : Fin cfg2.N) : (msL2_6 t).IsWhole := hstage2_6 ((cfg2.slots t 6).cast nbuf2_6)
abbrev msL2_7 (t : Fin cfg2.N) : Memref sig .tc .vmem S128 .f32 := win2_7.stage (cfg2.slots t 7)
abbrev hsL2_7 (t : Fin cfg2.N) : (msL2_7 t).IsWhole := hstage2_7 ((cfg2.slots t 7).cast nbuf2_7)
abbrev msL2_8 (t : Fin cfg2.N) : Memref sig .tc .vmem S128 .f32 := win2_8.stage (cfg2.slots t 8)
abbrev hsL2_8 (t : Fin cfg2.N) : (msL2_8 t).IsWhole := hstage2_8 ((cfg2.slots t 8).cast nbuf2_8)
abbrev msL2_9 (t : Fin cfg2.N) : Memref sig .tc .vmem S128x128 .f32 := win2_9.stage (cfg2.slots t 9)
abbrev hsL2_9 (t : Fin cfg2.N) : (msL2_9 t).IsWhole := hstage2_9 ((cfg2.slots t 9).cast nbuf2_9)
abbrev msL2_10 (t : Fin cfg2.N) : Memref sig .tc .vmem S128 .f32 := win2_10.stage (cfg2.slots t 10)
abbrev hsL2_10 (t : Fin cfg2.N) : (msL2_10 t).IsWhole := hstage2_10 ((cfg2.slots t 10).cast nbuf2_10)
abbrev msL2_11 (t : Fin cfg2.N) : Memref sig .tc .vmem S128 .f32 := win2_11.stage (cfg2.slots t 11)
abbrev hsL2_11 (t : Fin cfg2.N) : (msL2_11 t).IsWhole := hstage2_11 ((cfg2.slots t 11).cast nbuf2_11)
abbrev msL2_12 (t : Fin cfg2.N) : Memref sig .tc .vmem S128 .f32 := win2_12.stage (cfg2.slots t 12)
abbrev hsL2_12 (t : Fin cfg2.N) : (msL2_12 t).IsWhole := hstage2_12 ((cfg2.slots t 12).cast nbuf2_12)
abbrev msL2_13 (t : Fin cfg2.N) : Memref sig .tc .vmem S128 .f32 := win2_13.stage (cfg2.slots t 13)
abbrev hsL2_13 (t : Fin cfg2.N) : (msL2_13 t).IsWhole := hstage2_13 ((cfg2.slots t 13).cast nbuf2_13)
abbrev msL2_14 (t : Fin cfg2.N) : Memref sig .tc .vmem S128 .f32 := win2_14.stage (cfg2.slots t 14)
abbrev hsL2_14 (t : Fin cfg2.N) : (msL2_14 t).IsWhole := hstage2_14 ((cfg2.slots t 14).cast nbuf2_14)
abbrev msL2_15 (t : Fin cfg2.N) : Memref sig .tc .vmem S1000x128 .f32 := win2_15.stage (cfg2.slots t 15)
abbrev hsL2_15 (t : Fin cfg2.N) : (msL2_15 t).IsWhole := hstage2_15 ((cfg2.slots t 15).cast nbuf2_15)
abbrev msL2_16 (t : Fin cfg2.N) : Memref sig .tc .vmem S512x128 .f32 := win2_16.stage (cfg2.slots t 16)
abbrev hsL2_16 (t : Fin cfg2.N) : (msL2_16 t).IsWhole := hstage2_16 ((cfg2.slots t 16).cast nbuf2_16)

end Cert.KernelIdeal.Hand

end
-- ==== Proof.KI.L2RunA.lean ====
/-
  Layer region 2, the run of its body at the first grid point (the branch on the grid coordinate taken: the pool's
  buffer is zeroed before the tile is added): on whole staging memrefs, the inputs' at their contents and the outputs'
  at anything, the body runs to the continuation holding the inputs' as they were and each output's buffer with the
  stores the body made, listed last first.
-/
import proofs.«426741_j36421322670671_1_alg».proof.Proof.KI.L2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at the first point, as pieces (last first),
    with the body's triple: the pieces are found by running the body. -/
noncomputable def kernelRunL2_A (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc2__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.KernelIdeal.Hand

end
-- ==== Proof.KI.L2RunB.lean ====
/-
  Layer region 2, the run of its body at a later grid point (the branch on the grid coordinate not taken: the tile is
  added to what the pool's buffer holds): on whole staging memrefs, the inputs' at their contents, the pool's at its
  running contents and the new features' at anything, the body runs to the continuation holding the inputs' as they
  were and each output's buffer with the stores the body made, listed last first.
-/
import proofs.«426741_j36421322670671_1_alg».proof.Proof.KI.L2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at a later point, as pieces (last first),
    with the body's triple: the pieces are found by running the body. -/
noncomputable def kernelRunL2_B (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc2__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.KernelIdeal.Hand

end
-- ==== Proof.KI.L2Dat.lean ====
/-
  Layer region 2: what its pipeline's proof data say. Every input window's staging buffer holds its block of the
  array the region found; window 15's (the new node features) holds the block the body stores at the point;
  window 16's (the pool) holds the running sum the body carries from point to point.
  `V` is the TensorCore's buffer contents when the region is entered.
-/
import proofs.«426741_j36421322670671_1_alg».proof.Proof.KI.L2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer, by the case of its branch -/

/-- The body's stores into window 15's buffer (the new node features) at the first point tile its block, so they cover it. -/
theorem coverL2_A_15 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S1000x128.Idx) :
    ∃ pc ∈ (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1000x128.size (by sl_kernel_rfl) y

/-- What the body leaves in window 15's staging buffer at the first point: its stores read back. -/
def outL2_A_15 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S1000x128 .f32 :=
  VOL2_15.read (Elt F) (VOL2_15.writes (Elt F) VOL2_15.junk (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- The body's stores into window 16's buffer (the pool) at the first point tile its block, so they cover it. -/
theorem coverL2_A_16 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S512x128.Idx) :
    ∃ pc ∈ (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x128.size (by sl_kernel_rfl) y

/-- What the body leaves in window 16's staging buffer at the first point: its stores read back. -/
def outL2_A_16 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S512x128 .f32 :=
  VOL2_16.read (Elt F) (VOL2_16.writes (Elt F) VOL2_16.junk (kernelRunL2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- The body's stores into window 15's buffer (the new node features) at a later point tile its block, so they cover it. -/
theorem coverL2_B_15 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S1000x128.Idx) :
    ∃ pc ∈ (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1, y ∈ pc.1.set :=
  View.cover_of_tiledL (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1 S1000x128.size (by sl_kernel_rfl) y

/-- What the body leaves in window 15's staging buffer at a later point: its stores read back. -/
def outL2_B_15 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S1000x128 .f32 :=
  VOL2_15.read (Elt F) (VOL2_15.writes (Elt F) VOL2_15.junk (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1)

/-- The body's stores into window 16's buffer (the pool) at a later point tile its block, so they cover it. -/
theorem coverL2_B_16 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S512x128.Idx) :
    ∃ pc ∈ (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1, y ∈ pc.1.set :=
  View.cover_of_tiledL (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1 S512x128.size (by sl_kernel_rfl) y

/-- What the body leaves in window 16's staging buffer at a later point: its stores read back. -/
def outL2_B_16 (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S512x128 .f32 :=
  VOL2_16.read (Elt F) (VOL2_16.writes (Elt F) VOL2_16.junk (kernelRunL2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1)

/-! ## What the outputs hold after each point -/

/-- What the body leaves in window 16's staging buffer after point `n`: the pool summed over tiles `0 … n`. At the
    first point the buffer is zeroed and the tile added; at a later point the tile is added to what the point before
    left (the buffer is not written back between). -/
def poolAtL2 (V : (c : Dev nD) → (b : Ref sig .tc) → Buf (Elt F) ((c : Thread nD τ).loc b)) (c : Dev nD) : (n : ℕ) → n < cfg2.N → Vec F S512x128 .f32
  | 0, hn => outL2_A_16 c (grid2.coords ⟨0, hn⟩) (msL2_0 ⟨0, hn⟩) (hsL2_0 ⟨0, hn⟩) (msL2_1 ⟨0, hn⟩) (hsL2_1 ⟨0, hn⟩) (msL2_2 ⟨0, hn⟩) (hsL2_2 ⟨0, hn⟩) (msL2_3 ⟨0, hn⟩) (hsL2_3 ⟨0, hn⟩) (msL2_4 ⟨0, hn⟩) (hsL2_4 ⟨0, hn⟩) (msL2_5 ⟨0, hn⟩) (hsL2_5 ⟨0, hn⟩) (msL2_6 ⟨0, hn⟩) (hsL2_6 ⟨0, hn⟩) (msL2_7 ⟨0, hn⟩) (hsL2_7 ⟨0, hn⟩) (msL2_8 ⟨0, hn⟩) (hsL2_8 ⟨0, hn⟩) (msL2_9 ⟨0, hn⟩) (hsL2_9 ⟨0, hn⟩) (msL2_10 ⟨0, hn⟩) (hsL2_10 ⟨0, hn⟩) (msL2_11 ⟨0, hn⟩) (hsL2_11 ⟨0, hn⟩) (msL2_12 ⟨0, hn⟩) (hsL2_12 ⟨0, hn⟩) (msL2_13 ⟨0, hn⟩) (hsL2_13 ⟨0, hn⟩) (msL2_14 ⟨0, hn⟩) (hsL2_14 ⟨0, hn⟩) (msL2_15 ⟨0, hn⟩) (hsL2_15 ⟨0, hn⟩) (msL2_16 ⟨0, hn⟩) (hsL2_16 ⟨0, hn⟩) ((hcondL2_0 ⟨0, hn⟩).mpr (Nat.zero_mod _)) (iblkL2 V c 0 ⟨0, hn⟩) (iblkL2 V c 1 ⟨0, hn⟩) (iblkL2 V c 2 ⟨0, hn⟩) (iblkL2 V c 3 ⟨0, hn⟩) (iblkL2 V c 4 ⟨0, hn⟩) (iblkL2 V c 5 ⟨0, hn⟩) (iblkL2 V c 6 ⟨0, hn⟩) (iblkL2 V c 7 ⟨0, hn⟩) (iblkL2 V c 8 ⟨0, hn⟩) (iblkL2 V c 9 ⟨0, hn⟩) (iblkL2 V c 10 ⟨0, hn⟩) (iblkL2 V c 11 ⟨0, hn⟩) (iblkL2 V c 12 ⟨0, hn⟩) (iblkL2 V c 13 ⟨0, hn⟩) (iblkL2 V c 14 ⟨0, hn⟩)
  | n + 1, hn =>
    if h0 : (n + 1) % 50 = 0 then
      outL2_A_16 c (grid2.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) (msL2_5 ⟨n + 1, hn⟩) (hsL2_5 ⟨n + 1, hn⟩) (msL2_6 ⟨n + 1, hn⟩) (hsL2_6 ⟨n + 1, hn⟩) (msL2_7 ⟨n + 1, hn⟩) (hsL2_7 ⟨n + 1, hn⟩) (msL2_8 ⟨n + 1, hn⟩) (hsL2_8 ⟨n + 1, hn⟩) (msL2_9 ⟨n + 1, hn⟩) (hsL2_9 ⟨n + 1, hn⟩) (msL2_10 ⟨n + 1, hn⟩) (hsL2_10 ⟨n + 1, hn⟩) (msL2_11 ⟨n + 1, hn⟩) (hsL2_11 ⟨n + 1, hn⟩) (msL2_12 ⟨n + 1, hn⟩) (hsL2_12 ⟨n + 1, hn⟩) (msL2_13 ⟨n + 1, hn⟩) (hsL2_13 ⟨n + 1, hn⟩) (msL2_14 ⟨n + 1, hn⟩) (hsL2_14 ⟨n + 1, hn⟩) (msL2_15 ⟨n + 1, hn⟩) (hsL2_15 ⟨n + 1, hn⟩) (msL2_16 ⟨n + 1, hn⟩) (hsL2_16 ⟨n + 1, hn⟩) ((hcondL2_0 ⟨n + 1, hn⟩).mpr h0) (iblkL2 V c 0 ⟨n + 1, hn⟩) (iblkL2 V c 1 ⟨n + 1, hn⟩) (iblkL2 V c 2 ⟨n + 1, hn⟩) (iblkL2 V c 3 ⟨n + 1, hn⟩) (iblkL2 V c 4 ⟨n + 1, hn⟩) (iblkL2 V c 5 ⟨n + 1, hn⟩) (iblkL2 V c 6 ⟨n + 1, hn⟩) (iblkL2 V c 7 ⟨n + 1, hn⟩) (iblkL2 V c 8 ⟨n + 1, hn⟩) (iblkL2 V c 9 ⟨n + 1, hn⟩) (iblkL2 V c 10 ⟨n + 1, hn⟩) (iblkL2 V c 11 ⟨n + 1, hn⟩) (iblkL2 V c 12 ⟨n + 1, hn⟩) (iblkL2 V c 13 ⟨n + 1, hn⟩) (iblkL2 V c 14 ⟨n + 1, hn⟩)
    else
      outL2_B_16 c (grid2.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) (msL2_5 ⟨n + 1, hn⟩) (hsL2_5 ⟨n + 1, hn⟩) (msL2_6 ⟨n + 1, hn⟩) (hsL2_6 ⟨n + 1, hn⟩) (msL2_7 ⟨n + 1, hn⟩) (hsL2_7 ⟨n + 1, hn⟩) (msL2_8 ⟨n + 1, hn⟩) (hsL2_8 ⟨n + 1, hn⟩) (msL2_9 ⟨n + 1, hn⟩) (hsL2_9 ⟨n + 1, hn⟩) (msL2_10 ⟨n + 1, hn⟩) (hsL2_10 ⟨n + 1, hn⟩) (msL2_11 ⟨n + 1, hn⟩) (hsL2_11 ⟨n + 1, hn⟩) (msL2_12 ⟨n + 1, hn⟩) (hsL2_12 ⟨n + 1, hn⟩) (msL2_13 ⟨n + 1, hn⟩) (hsL2_13 ⟨n + 1, hn⟩) (msL2_14 ⟨n + 1, hn⟩) (hsL2_14 ⟨n + 1, hn⟩) (msL2_15 ⟨n + 1, hn⟩) (hsL2_15 ⟨n + 1, hn⟩) (msL2_16 ⟨n + 1, hn⟩) (hsL2_16 ⟨n + 1, hn⟩) (fun h => h0 ((hcondL2_0 ⟨n + 1, hn⟩).mp h)) (iblkL2 V c 0 ⟨n + 1, hn⟩) (iblkL2 V c 1 ⟨n + 1, hn⟩) (iblkL2 V c 2 ⟨n + 1, hn⟩) (iblkL2 V c 3 ⟨n + 1, hn⟩) (iblkL2 V c 4 ⟨n + 1, hn⟩) (iblkL2 V c 5 ⟨n + 1, hn⟩) (iblkL2 V c 6 ⟨n + 1, hn⟩) (iblkL2 V c 7 ⟨n + 1, hn⟩) (iblkL2 V c 8 ⟨n + 1, hn⟩) (iblkL2 V c 9 ⟨n + 1, hn⟩) (iblkL2 V c 10 ⟨n + 1, hn⟩) (iblkL2 V c 11 ⟨n + 1, hn⟩) (iblkL2 V c 12 ⟨n + 1, hn⟩) (iblkL2 V c 13 ⟨n + 1, hn⟩) (iblkL2 V c 14 ⟨n + 1, hn⟩) (poolAtL2 V c n (Nat.lt_of_succ_lt hn))

/-- The pool's buffer at the first point. -/
theorem poolAtL2_A (V : (c : Dev nD) → (b : Ref sig .tc) → Buf (Elt F) ((c : Thread nD τ).loc b)) (c : Dev nD) (t : Fin cfg2.N) (h0 : t.val % 50 = 0) :
    poolAtL2 V c t.val t.isLt = outL2_A_16 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) ((hcondL2_0 t).mpr h0) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) := by
  obtain ⟨n, hn⟩ := t
  cases n with
  | zero => exact rfl
  | succ n => exact (dif_pos h0).trans rfl

/-- The pool's buffer at a later point, over what the point before left. -/
theorem poolAtL2_B (V : (c : Dev nD) → (b : Ref sig .tc) → Buf (Elt F) ((c : Thread nD τ).loc b)) (c : Dev nD) (t : Fin cfg2.N) (h0 : ¬t.val % 50 = 0) :
    poolAtL2 V c t.val t.isLt = outL2_B_16 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) (fun h => h0 ((hcondL2_0 t).mp h)) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) (poolAtL2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the body leaves in window 15's staging buffer at point `t`: the tile's new node features. -/
def hOutL2 (V : (c : Dev nD) → (b : Ref sig .tc) → Buf (Elt F) ((c : Thread nD τ).loc b)) (c : Dev nD) (t : Fin cfg2.N) : Vec F S1000x128 .f32 :=
  if h0 : t.val % 50 = 0 then
    outL2_A_15 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) ((hcondL2_0 t).mpr h0) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t)
  else
    outL2_B_15 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) (fun h => h0 ((hcondL2_0 t).mp h)) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) (poolAtL2 V c (t.val - 1) (Nat.lt_of_le_of_lt (Nat.sub_le _ _) t.isLt))

theorem hOutL2_A (V : (c : Dev nD) → (b : Ref sig .tc) → Buf (Elt F) ((c : Thread nD τ).loc b)) (c : Dev nD) (t : Fin cfg2.N) (h0 : t.val % 50 = 0) :
    hOutL2 V c t = outL2_A_15 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) ((hcondL2_0 t).mpr h0) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) := dif_pos h0

theorem hOutL2_B (V : (c : Dev nD) → (b : Ref sig .tc) → Buf (Elt F) ((c : Thread nD τ).loc b)) (c : Dev nD) (t : Fin cfg2.N) (h0 : ¬t.val % 50 = 0) :
    hOutL2 V c t = outL2_B_15 c (grid2.coords t) (msL2_0 t) (hsL2_0 t) (msL2_1 t) (hsL2_1 t) (msL2_2 t) (hsL2_2 t) (msL2_3 t) (hsL2_3 t) (msL2_4 t) (hsL2_4 t) (msL2_5 t) (hsL2_5 t) (msL2_6 t) (hsL2_6 t) (msL2_7 t) (hsL2_7 t) (msL2_8 t) (hsL2_8 t) (msL2_9 t) (hsL2_9 t) (msL2_10 t) (hsL2_10 t) (msL2_11 t) (hsL2_11 t) (msL2_12 t) (hsL2_12 t) (msL2_13 t) (hsL2_13 t) (msL2_14 t) (hsL2_14 t) (msL2_15 t) (hsL2_15 t) (msL2_16 t) (hsL2_16 t) (fun h => h0 ((hcondL2_0 t).mp h)) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) (poolAtL2 V c (t.val - 1) (Nat.lt_of_le_of_lt (Nat.sub_le _ _) t.isLt)) := dif_neg h0

/-! ## The pipeline's proof data -/

/-- The proof data of this region's pipeline on core `c`. -/
def datL2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblkL2 V c 0 t
    | ⟨1, _⟩ => iblkL2 V c 1 t
    | ⟨2, _⟩ => iblkL2 V c 2 t
    | ⟨3, _⟩ => iblkL2 V c 3 t
    | ⟨4, _⟩ => iblkL2 V c 4 t
    | ⟨5, _⟩ => iblkL2 V c 5 t
    | ⟨6, _⟩ => iblkL2 V c 6 t
    | ⟨7, _⟩ => iblkL2 V c 7 t
    | ⟨8, _⟩ => iblkL2 V c 8 t
    | ⟨9, _⟩ => iblkL2 V c 9 t
    | ⟨10, _⟩ => iblkL2 V c 10 t
    | ⟨11, _⟩ => iblkL2 V c 11 t
    | ⟨12, _⟩ => iblkL2 V c 12 t
    | ⟨13, _⟩ => iblkL2 V c 13 t
    | ⟨14, _⟩ => iblkL2 V c 14 t
    | ⟨15, _⟩ => hOutL2 V c t
    | ⟨16, _⟩ => poolAtL2 V c t.val t.isLt
    | ⟨_ + 17, h⟩ => absurd h (Nat.not_lt.2 (Nat.le_add_left _ _))
  Φ _ := Pipeline.ΦA spec2 c
  q _ := fullShare
  owed _ := 0

/-- The proof data's arrays are the region-entry contents. -/
theorem A_eqL2 (V : (c : Dev nD) → (b : Ref sig .tc) → Buf (Elt F) ((c : Thread nD τ).loc b)) (c : Dev nD) (w : Fin cfg2.W) : (datL2 V c).A w = V c (Pipeline.arrRef spec2 w) := by
  dsimp only [datL2]

/-- What the body leaves, window by window. -/
theorem after0_L2 (V : (c : Dev nD) → (b : Ref sig .tc) → Buf (Elt F) ((c : Thread nD τ).loc b)) (c : Dev nD) (t : Fin cfg2.N) : (datL2 V c).after 0 t = iblkL2 V c 0 t := by dsimp only [datL2]
theorem after1_L2 (V : (c : Dev nD) → (b : Ref sig .tc) → Buf (Elt F) ((c : Thread nD τ).loc b)) (c : Dev nD) (t : Fin cfg2.N) : (datL2 V c).after 1 t = iblkL2 V c 1 t := by dsimp only [datL2]
theorem after2_L2 (V : (c : Dev nD) → (b : Ref sig .tc) → Buf (Elt F) ((c : Thread nD τ).loc b)) (c : Dev nD) (t : Fin cfg2.N) : (datL2 V c).after 2 t = iblkL2 V c 2 t := by dsimp only [datL2]
theorem after3_L2 (V : (c : Dev nD) → (b : Ref sig .tc) → Buf (Elt F) ((c : Thread nD τ).loc b)) (c : Dev nD) (t : Fin cfg2.N) : (datL2 V c).after 3 t = iblkL2 V c 3 t := by dsimp only [datL2]
theorem after4_L2 (V : (c : Dev nD) → (b : Ref sig .tc) → Buf (Elt F) ((c : Thread nD τ).loc b)) (c : Dev nD) (t : Fin cfg2.N) : (datL2 V c).after 4 t = iblkL2 V c 4 t := by dsimp only [datL2]
theorem after5_L2 (V : (c : Dev nD) → (b : Ref sig .tc) → Buf (Elt F) ((c : Thread nD τ).loc b)) (c : Dev nD) (t : Fin cfg2.N) : (datL2 V c).after 5 t = iblkL2 V c 5 t := by dsimp only [datL2]
theorem after6_L2 (V : (c : Dev nD) → (b : Ref sig .tc) → Buf (Elt F) ((c : Thread nD τ).loc b)) (c : Dev nD) (t : Fin cfg2.N) : (datL2 V c).after 6 t = iblkL2 V c 6 t := by dsimp only [datL2]
theorem after7_L2 (V : (c : Dev nD) → (b : Ref sig .tc) → Buf (Elt F) ((c : Thread nD τ).loc b)) (c : Dev nD) (t : Fin cfg2.N) : (datL2 V c).after 7 t = iblkL2 V c 7 t := by dsimp only [datL2]
theorem after8_L2 (V : (c : Dev nD) → (b : Ref sig .tc) → Buf (Elt F) ((c : Thread nD τ).loc b)) (c : Dev nD) (t : Fin cfg2.N) : (datL2 V c).after 8 t = iblkL2 V c 8 t := by dsimp only [datL2]
theorem after9_L2 (V : (c : Dev nD) → (b : Ref sig .tc) → Buf (Elt F) ((c : Thread nD τ).loc b)) (c : Dev nD) (t : Fin cfg2.N) : (datL2 V c).after 9 t = iblkL2 V c 9 t := by dsimp only [datL2]
theorem after10_L2 (V : (c : Dev nD) → (b : Ref sig .tc) → Buf (Elt F) ((c : Thread nD τ).loc b)) (c : Dev nD) (t : Fin cfg2.N) : (datL2 V c).after 10 t = iblkL2 V c 10 t := by dsimp only [datL2]
theorem after11_L2 (V : (c : Dev nD) → (b : Ref sig .tc) → Buf (Elt F) ((c : Thread nD τ).loc b)) (c : Dev nD) (t : Fin cfg2.N) : (datL2 V c).after 11 t = iblkL2 V c 11 t := by dsimp only [datL2]
theorem after12_L2 (V : (c : Dev nD) → (b : Ref sig .tc) → Buf (Elt F) ((c : Thread nD τ).loc b)) (c : Dev nD) (t : Fin cfg2.N) : (datL2 V c).after 12 t = iblkL2 V c 12 t := by dsimp only [datL2]
theorem after13_L2 (V : (c : Dev nD) → (b : Ref sig .tc) → Buf (Elt F) ((c : Thread nD τ).loc b)) (c : Dev nD) (t : Fin cfg2.N) : (datL2 V c).after 13 t = iblkL2 V c 13 t := by dsimp only [datL2]
theorem after14_L2 (V : (c : Dev nD) → (b : Ref sig .tc) → Buf (Elt F) ((c : Thread nD τ).loc b)) (c : Dev nD) (t : Fin cfg2.N) : (datL2 V c).after 14 t = iblkL2 V c 14 t := by dsimp only [datL2]
theorem after15_L2 (V : (c : Dev nD) → (b : Ref sig .tc) → Buf (Elt F) ((c : Thread nD τ).loc b)) (c : Dev nD) (t : Fin cfg2.N) : (datL2 V c).after 15 t = hOutL2 V c t := by dsimp only [datL2]
theorem after16_L2 (V : (c : Dev nD) → (b : Ref sig .tc) → Buf (Elt F) ((c : Thread nD τ).loc b)) (c : Dev nD) (t : Fin cfg2.N) : (datL2 V c).after 16 t = poolAtL2 V c t.val t.isLt := by dsimp only [datL2]

/-- Each input's current staging buffer holds its block at every point, fetched there or not. -/
theorem beforeL2_0 (V : (c : Dev nD) → (b : Ref sig .tc) → Buf (Elt F) ((c : Thread nD τ).loc b)) (c : Dev nD) (t : Fin cfg2.N) (d) : (datL2 V c).before 0 t d = iblkL2 V c 0 t :=
  beforeL2_0_of V (datL2 V c) (A_eqL2 V c 0) (after0_L2 V c) t d
theorem beforeL2_1 (V : (c : Dev nD) → (b : Ref sig .tc) → Buf (Elt F) ((c : Thread nD τ).loc b)) (c : Dev nD) (t : Fin cfg2.N) (d) : (datL2 V c).before 1 t d = iblkL2 V c 1 t :=
  beforeL2_1_of V (datL2 V c) (A_eqL2 V c 1) (after1_L2 V c) t d
theorem beforeL2_2 (V : (c : Dev nD) → (b : Ref sig .tc) → Buf (Elt F) ((c : Thread nD τ).loc b)) (c : Dev nD) (t : Fin cfg2.N) (d) : (datL2 V c).before 2 t d = iblkL2 V c 2 t :=
  beforeL2_2_of V (datL2 V c) (A_eqL2 V c 2) (after2_L2 V c) t d
theorem beforeL2_3 (V : (c : Dev nD) → (b : Ref sig .tc) → Buf (Elt F) ((c : Thread nD τ).loc b)) (c : Dev nD) (t : Fin cfg2.N) (d) : (datL2 V c).before 3 t d = iblkL2 V c 3 t :=
  beforeL2_3_of V (datL2 V c) (A_eqL2 V c 3) (after3_L2 V c) t d
theorem beforeL2_4 (V : (c : Dev nD) → (b : Ref sig .tc) → Buf (Elt F) ((c : Thread nD τ).loc b)) (c : Dev nD) (t : Fin cfg2.N) (d) : (datL2 V c).before 4 t d = iblkL2 V c 4 t :=
  beforeL2_4_of V (datL2 V c) (A_eqL2 V c 4) (after4_L2 V c) t d
theorem beforeL2_5 (V : (c : Dev nD) → (b : Ref sig .tc) → Buf (Elt F) ((c : Thread nD τ).loc b)) (c : Dev nD) (t : Fin cfg2.N) (d) : (datL2 V c).before 5 t d = iblkL2 V c 5 t :=
  beforeL2_5_of V (datL2 V c) (A_eqL2 V c 5) (after5_L2 V c) t d
theorem beforeL2_6 (V : (c : Dev nD) → (b : Ref sig .tc) → Buf (Elt F) ((c : Thread nD τ).loc b)) (c : Dev nD) (t : Fin cfg2.N) (d) : (datL2 V c).before 6 t d = iblkL2 V c 6 t :=
  beforeL2_6_of V (datL2 V c) (A_eqL2 V c 6) (after6_L2 V c) t d
theorem beforeL2_7 (V : (c : Dev nD) → (b : Ref sig .tc) → Buf (Elt F) ((c : Thread nD τ).loc b)) (c : Dev nD) (t : Fin cfg2.N) (d) : (datL2 V c).before 7 t d = iblkL2 V c 7 t :=
  beforeL2_7_of V (datL2 V c) (A_eqL2 V c 7) (after7_L2 V c) t d
theorem beforeL2_8 (V : (c : Dev nD) → (b : Ref sig .tc) → Buf (Elt F) ((c : Thread nD τ).loc b)) (c : Dev nD) (t : Fin cfg2.N) (d) : (datL2 V c).before 8 t d = iblkL2 V c 8 t :=
  beforeL2_8_of V (datL2 V c) (A_eqL2 V c 8) (after8_L2 V c) t d
theorem beforeL2_9 (V : (c : Dev nD) → (b : Ref sig .tc) → Buf (Elt F) ((c : Thread nD τ).loc b)) (c : Dev nD) (t : Fin cfg2.N) (d) : (datL2 V c).before 9 t d = iblkL2 V c 9 t :=
  beforeL2_9_of V (datL2 V c) (A_eqL2 V c 9) (after9_L2 V c) t d
theorem beforeL2_10 (V : (c : Dev nD) → (b : Ref sig .tc) → Buf (Elt F) ((c : Thread nD τ).loc b)) (c : Dev nD) (t : Fin cfg2.N) (d) : (datL2 V c).before 10 t d = iblkL2 V c 10 t :=
  beforeL2_10_of V (datL2 V c) (A_eqL2 V c 10) (after10_L2 V c) t d
theorem beforeL2_11 (V : (c : Dev nD) → (b : Ref sig .tc) → Buf (Elt F) ((c : Thread nD τ).loc b)) (c : Dev nD) (t : Fin cfg2.N) (d) : (datL2 V c).before 11 t d = iblkL2 V c 11 t :=
  beforeL2_11_of V (datL2 V c) (A_eqL2 V c 11) (after11_L2 V c) t d
theorem beforeL2_12 (V : (c : Dev nD) → (b : Ref sig .tc) → Buf (Elt F) ((c : Thread nD τ).loc b)) (c : Dev nD) (t : Fin cfg2.N) (d) : (datL2 V c).before 12 t d = iblkL2 V c 12 t :=
  beforeL2_12_of V (datL2 V c) (A_eqL2 V c 12) (after12_L2 V c) t d
theorem beforeL2_13 (V : (c : Dev nD) → (b : Ref sig .tc) → Buf (Elt F) ((c : Thread nD τ).loc b)) (c : Dev nD) (t : Fin cfg2.N) (d) : (datL2 V c).before 13 t d = iblkL2 V c 13 t :=
  beforeL2_13_of V (datL2 V c) (A_eqL2 V c 13) (after13_L2 V c) t d
theorem beforeL2_14 (V : (c : Dev nD) → (b : Ref sig .tc) → Buf (Elt F) ((c : Thread nD τ).loc b)) (c : Dev nD) (t : Fin cfg2.N) (d) : (datL2 V c).before 14 t d = iblkL2 V c 14 t :=
  beforeL2_14_of V (datL2 V c) (A_eqL2 V c 14) (after14_L2 V c) t d

/-- At a later point the pool's current staging buffer holds what the body left at the point before: the window's block
    index is constant and the buffer is written back at the last point only. -/
theorem beforeL2_16_B (V : (c : Dev nD) → (b : Ref sig .tc) → Buf (Elt F) ((c : Thread nD τ).loc b)) (c : Dev nD) (t : Fin cfg2.N) (h0 : ¬t.val % 50 = 0) (d) :
    (datL2 V c).before 16 t d = poolAtL2 V c (t.val - 1) (Nat.lt_of_le_of_lt (Nat.sub_le _ _) t.isLt) := by
  have hN : t.val < 50 := lt_of_lt_of_eq t.isLt (show cfg2.N = 50 from N_2)
  rw [Dat.before_out_kept _ 16 rfl t (by omega) (Bool.eq_false_iff.mpr fun h => by have := (flush2_16 _).mp h; dsimp only at this; omega)
    (fun _ => rfl) (fun _ _ => rfl)]
  dsimp only [datL2]

/-! ## The body obligation, at a generic point -/

/-- What the body is called with at point `t`, the windows one by one, -/
def bodyPreL2 (V : (c : Dev nD) → (b : Ref sig .tc) → Buf (Elt F) ((c : Thread nD τ).loc b)) (c : Dev nD) (t : Fin cfg2.N) : sProp 𝕄 :=
  iprop((datL2 V c).Φ t.castSucc ∗ (datL2 V c).owesAt () t.castSucc
    ∗ (∃ d, owns (c : Thread nD τ) (msL2_0 t) fullShare ((datL2 V c).before 0 t d))
    ∗ (∃ d, owns (c : Thread nD τ) (msL2_1 t) fullShare ((datL2 V c).before 1 t d))
    ∗ (∃ d, owns (c : Thread nD τ) (msL2_2 t) fullShare ((datL2 V c).before 2 t d))
    ∗ (∃ d, owns (c : Thread nD τ) (msL2_3 t) fullShare ((datL2 V c).before 3 t d))
    ∗ (∃ d, owns (c : Thread nD τ) (msL2_4 t) fullShare ((datL2 V c).before 4 t d))
    ∗ (∃ d, owns (c : Thread nD τ) (msL2_5 t) fullShare ((datL2 V c).before 5 t d))
    ∗ (∃ d, owns (c : Thread nD τ) (msL2_6 t) fullShare ((datL2 V c).before 6 t d))
    ∗ (∃ d, owns (c : Thread nD τ) (msL2_7 t) fullShare ((datL2 V c).before 7 t d))
    ∗ (∃ d, owns (c : Thread nD τ) (msL2_8 t) fullShare ((datL2 V c).before 8 t d))
    ∗ (∃ d, owns (c : Thread nD τ) (msL2_9 t) fullShare ((datL2 V c).before 9 t d))
    ∗ (∃ d, owns (c : Thread nD τ) (msL2_10 t) fullShare ((datL2 V c).before 10 t d))
    ∗ (∃ d, owns (c : Thread nD τ) (msL2_11 t) fullShare ((datL2 V c).before 11 t d))
    ∗ (∃ d, owns (c : Thread nD τ) (msL2_12 t) fullShare ((datL2 V c).before 12 t d))
    ∗ (∃ d, owns (c : Thread nD τ) (msL2_13 t) fullShare ((datL2 V c).before 13 t d))
    ∗ (∃ d, owns (c : Thread nD τ) (msL2_14 t) fullShare ((datL2 V c).before 14 t d))
    ∗ (∃ d, owns (c : Thread nD τ) (msL2_15 t) fullShare ((datL2 V c).before 15 t d))
    ∗ (∃ d, owns (c : Thread nD τ) (msL2_16 t) fullShare ((datL2 V c).before 16 t d)))

/-- and what it returns. -/
def bodyPostL2 (V : (c : Dev nD) → (b : Ref sig .tc) → Buf (Elt F) ((c : Thread nD τ).loc b)) (c : Dev nD) (t : Fin cfg2.N) : sProp 𝕄 :=
  iprop((datL2 V c).Φ t.succ ∗ (datL2 V c).owesAt () t.succ
    ∗ owns (c : Thread nD τ) (msL2_0 t) fullShare ((datL2 V c).after 0 t)
    ∗ owns (c : Thread nD τ) (msL2_1 t) fullShare ((datL2 V c).after 1 t)
    ∗ owns (c : Thread nD τ) (msL2_2 t) fullShare ((datL2 V c).after 2 t)
    ∗ owns (c : Thread nD τ) (msL2_3 t) fullShare ((datL2 V c).after 3 t)
    ∗ owns (c : Thread nD τ) (msL2_4 t) fullShare ((datL2 V c).after 4 t)
    ∗ owns (c : Thread nD τ) (msL2_5 t) fullShare ((datL2 V c).after 5 t)
    ∗ owns (c : Thread nD τ) (msL2_6 t) fullShare ((datL2 V c).after 6 t)
    ∗ owns (c : Thread nD τ) (msL2_7 t) fullShare ((datL2 V c).after 7 t)
    ∗ owns (c : Thread nD τ) (msL2_8 t) fullShare ((datL2 V c).after 8 t)
    ∗ owns (c : Thread nD τ) (msL2_9 t) fullShare ((datL2 V c).after 9 t)
    ∗ owns (c : Thread nD τ) (msL2_10 t) fullShare ((datL2 V c).after 10 t)
    ∗ owns (c : Thread nD τ) (msL2_11 t) fullShare ((datL2 V c).after 11 t)
    ∗ owns (c : Thread nD τ) (msL2_12 t) fullShare ((datL2 V c).after 12 t)
    ∗ owns (c : Thread nD τ) (msL2_13 t) fullShare ((datL2 V c).after 13 t)
    ∗ owns (c : Thread nD τ) (msL2_14 t) fullShare ((datL2 V c).after 14 t)
    ∗ owns (c : Thread nD τ) (msL2_15 t) fullShare ((datL2 V c).after 15 t)
    ∗ owns (c : Thread nD τ) (msL2_16 t) fullShare ((datL2 V c).after 16 t))

set_option maxHeartbeats 4000000 in
/-- The body at any point: the inputs' memrefs hold their blocks; the point is the first or a later one, and at a later
    one the pool's buffer holds what the point before left; so the body's run applies; the invariant passes through
    unread; the core owes nothing throughout. -/
theorem sound_bodyL2 (V : (c : Dev nD) → (b : Ref sig .tc) → Buf (Elt F) ((c : Thread nD τ).loc b)) (c : Dev nD) (t : Fin cfg2.N) :
    bodyPreL2 V c t ⊢ wp frame (wpE (defs₀ (F := F)) Variants.none c none) Set.univ (bodyAt2 t) (fun _ => bodyPostL2 V c t) := by
  unfold bodyPreL2 bodyPostL2 bodyAt2
  simp only [beforeL2_0, beforeL2_1, beforeL2_2, beforeL2_3, beforeL2_4, beforeL2_5, beforeL2_6, beforeL2_7, beforeL2_8, beforeL2_9, beforeL2_10, beforeL2_11, beforeL2_12, beforeL2_13, beforeL2_14]
  rw [show (datL2 V c).Φ t.succ = (datL2 V c).Φ t.castSucc from rfl,
    show (datL2 V c).owesAt () t.succ = (datL2 V c).owesAt () t.castSucc from rfl,
    after0_L2, after1_L2, after2_L2, after3_L2, after4_L2, after5_L2, after6_L2, after7_L2, after8_L2, after9_L2, after10_L2, after11_L2, after12_L2, after13_L2, after14_L2, after15_L2, after16_L2]
  have hN : t.val < 50 := lt_of_lt_of_eq t.isLt (show cfg2.N = 50 from N_2)
  by_cases h0 : t.val % 50 = 0
  · rw [hOutL2_A V c t h0, poolAtL2_A V c t h0]
    unfold outL2_A_15 outL2_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL2_A c (grid2.coords t) _ _ _ _ _ _ _ _ _ _ _ _ _ _ _ _ _ _ _ _ _ _ _ _ _ _ _ _ _ _ _ _ _ _ ((hcondL2_0 t).mpr h0) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL2_A_15 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL2_A_16 c _ _ _ _ _ _ _ _ _ _ _ _ _ _ _ _ _ _ _ _ _ _ _ _ _ _ _ _ _ _ _ _ _ _ _ _ _ _ _ _ _ _ _ _ _ _ _ _ _ _ _)
  · rw [hOutL2_B V c t h0, poolAtL2_B V c t h0]
    simp only [beforeL2_16_B V c t h0]
    unfold outL2_B_15 outL2_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL2_B c (grid2.coords t) _ _ _ _ _ _ _ _ _ _ _ _ _ _ _ _ _ _ _ _ _ _ _ _ _ _ _ _ _ _ _ _ _ _ (fun h => h0 ((hcondL2_0 t).mp h)) (iblkL2 V c 0 t) (iblkL2 V c 1 t) (iblkL2 V c 2 t) (iblkL2 V c 3 t) (iblkL2 V c 4 t) (iblkL2 V c 5 t) (iblkL2 V c 6 t) (iblkL2 V c 7 t) (iblkL2 V c 8 t) (iblkL2 V c 9 t) (iblkL2 V c 10 t) (iblkL2 V c 11 t) (iblkL2 V c 12 t) (iblkL2 V c 13 t) (iblkL2 V c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL2_B_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL2_B_16 c _ _ _ _ _ _ _ _ _ _ _ _ _ _ _ _ _ _ _ _ _ _ _ _ _ _ _ _ _ _ _ _ _ _ _ _ _ _ _ _ _ _ _ _ _ _ _ _ _ _ _ _)

/-- The body meets the pipeline's obligation at every point. -/
theorem body_obligationL2 (V : (c : Dev nD) → (b : Ref sig .tc) → Buf (Elt F) ((c : Thread nD τ).loc b)) (c : Dev nD) : BodyObligation (datL2 (F := F) V c) (defs₀ (F := F)) Variants.none () Set.univ := fun t => by
  rw [bigSep_W2, bigSep_W2]
  exact sound_bodyL2 V c t

end Cert.KernelIdeal.Hand

end
-- ==== Proof.KI.L3Runs.lean ====
/-
  Layer region 3, what the runs of its body share: each window's block as the region finds its array, that an
  input window's staging buffer holds its block at every point (fetched there or kept from the point before), the
  body's branch on the grid coordinate in closed form, and the staging memrefs the body is called with.
  `V` is the TensorCore's buffer contents when the region is entered.
-/
import proofs.«426741_j36421322670671_1_alg».proof.Proof.Gen.KernelIdeal.Launch
import proofs.«426741_j36421322670671_1_alg».proof.Proof.Gen.KernelIdeal.Skeleton
import proofs.«426741_j36421322670671_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it. -/
def iblkL3 (V : (c : Dev nD) → (b : Ref sig .tc) → Buf (Elt F) ((c : Thread nD τ).loc b)) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input window's staging buffer holds its block at every point -/

/-- Input window 0: for any proof data whose array is the region-entry contents and whose body leaves the block in
    place, the current staging buffer holds the block at every point, fetched there or not. -/
theorem beforeL3_0_of (V : (c : Dev nD) → (b : Ref sig .tc) → Buf (Elt F) ((c : Thread nD τ).loc b)) {c : Dev nD} (dat : Dat τ (Elt F) Unit ℕ (UR sig nD τ) ℕ cfg3 c) (hA : dat.A 0 = V c (Pipeline.arrRef spec3 0))
    (hafter : ∀ t, dat.after 0 t = iblkL3 V c 0 t) (t : Fin cfg3.N) (d) : dat.before 0 t d = iblkL3 V c 0 t :=
  (dat.before_in_eq_fetched 0 rfl (fun _ => rfl) (fun _ _ _ => rfl) (fun t => by rw [hafter]; unfold Dat.blockOf iblkL3; rw [hA]; try rfl) t d).trans
    (by unfold Dat.fetched Dat.blockOf iblkL3; rw [hA]; try rfl)

/-- Input window 1: for any proof data whose array is the region-entry contents and whose body leaves the block in
    place, the current staging buffer holds the block at every point, fetched there or not. -/
theorem beforeL3_1_of (V : (c : Dev nD) → (b : Ref sig .tc) → Buf (Elt F) ((c : Thread nD τ).loc b)) {c : Dev nD} (dat : Dat τ (Elt F) Unit ℕ (UR sig nD τ) ℕ cfg3 c) (hA : dat.A 1 = V c (Pipeline.arrRef spec3 1))
    (hafter : ∀ t, dat.after 1 t = iblkL3 V c 1 t) (t : Fin cfg3.N) (d) : dat.before 1 t d = iblkL3 V c 1 t :=
  (dat.before_in_eq_fetched 1 rfl (fun _ => rfl) (fun _ _ _ => rfl) (fun t => by rw [hafter]; unfold Dat.blockOf iblkL3; rw [hA]; try rfl) t d).trans
    (by unfold Dat.fetched Dat.blockOf iblkL3; rw [hA]; try rfl)

/-- Input window 2: for any proof data whose array is the region-entry contents and whose body leaves the block in
    place, the current staging buffer holds the block at every point, fetched there or not. -/
theorem beforeL3_2_of (V : (c : Dev nD) → (b : Ref sig .tc) → Buf (Elt F) ((c : Thread nD τ).loc b)) {c : Dev nD} (dat : Dat τ (Elt F) Unit ℕ (UR sig nD τ) ℕ cfg3 c) (hA : dat.A 2 = V c (Pipeline.arrRef spec3 2))
    (hafter : ∀ t, dat.after 2 t = iblkL3 V c 2 t) (t : Fin cfg3.N) (d) : dat.before 2 t d = iblkL3 V c 2 t :=
  (dat.before_in_eq_fetched 2 rfl (fun _ => rfl) (fun _ _ _ => rfl) (fun t => by rw [hafter]; unfold Dat.blockOf iblkL3; rw [hA]; try rfl) t d).trans
    (by unfold Dat.fetched Dat.blockOf iblkL3; rw [hA]; try rfl)

/-- Input window 3: for any proof data whose array is the region-entry contents and whose body leaves the block in
    place, the current staging buffer holds the block at every point, fetched there or not. -/
theorem beforeL3_3_of (V : (c : Dev nD) → (b : Ref sig .tc) → Buf (Elt F) ((c : Thread nD τ).loc b)) {c : Dev nD} (dat : Dat τ (Elt F) Unit ℕ (UR sig nD τ) ℕ cfg3 c) (hA : dat.A 3 = V c (Pipeline.arrRef spec3 3))
    (hafter : ∀ t, dat.after 3 t = iblkL3 V c 3 t) (t : Fin cfg3.N) (d) : dat.before 3 t d = iblkL3 V c 3 t :=
  (dat.before_in_eq_fetched 3 rfl (fun _ => rfl) (fun _ _ _ => rfl) (fun t => by rw [hafter]; unfold Dat.blockOf iblkL3; rw [hA]; try rfl) t d).trans
    (by unfold Dat.fetched Dat.blockOf iblkL3; rw [hA]; try rfl)

/-- Input window 4: for any proof data whose array is the region-entry contents and whose body leaves the block in
    place, the current staging buffer holds the block at every point, fetched there or not. -/
theorem beforeL3_4_of (V : (c : Dev nD) → (b : Ref sig .tc) → Buf (Elt F) ((c : Thread nD τ).loc b)) {c : Dev nD} (dat : Dat τ (Elt F) Unit ℕ (UR sig nD τ) ℕ cfg3 c) (hA : dat.A 4 = V c (Pipeline.arrRef spec3 4))
    (hafter : ∀ t, dat.after 4 t = iblkL3 V c 4 t) (t : Fin cfg3.N) (d) : dat.before 4 t d = iblkL3 V c 4 t :=
  (dat.before_in_eq_fetched 4 rfl (fun _ => rfl) (fun _ _ _ => rfl) (fun t => by rw [hafter]; unfold Dat.blockOf iblkL3; rw [hA]; try rfl) t d).trans
    (by unfold Dat.fetched Dat.blockOf iblkL3; rw [hA]; try rfl)

/-- Input window 5: for any proof data whose array is the region-entry contents and whose body leaves the block in
    place, the current staging buffer holds the block at every point, fetched there or not. -/
theorem beforeL3_5_of (V : (c : Dev nD) → (b : Ref sig .tc) → Buf (Elt F) ((c : Thread nD τ).loc b)) {c : Dev nD} (dat : Dat τ (Elt F) Unit ℕ (UR sig nD τ) ℕ cfg3 c) (hA : dat.A 5 = V c (Pipeline.arrRef spec3 5))
    (hafter : ∀ t, dat.after 5 t = iblkL3 V c 5 t) (t : Fin cfg3.N) (d) : dat.before 5 t d = iblkL3 V c 5 t :=
  (dat.before_in_eq_fetched 5 rfl (fun _ => rfl) (fun _ _ _ => rfl) (fun t => by rw [hafter]; unfold Dat.blockOf iblkL3; rw [hA]; try rfl) t d).trans
    (by unfold Dat.fetched Dat.blockOf iblkL3; rw [hA]; try rfl)

/-- Input window 6: for any proof data whose array is the region-entry contents and whose body leaves the block in
    place, the current staging buffer holds the block at every point, fetched there or not. -/
theorem beforeL3_6_of (V : (c : Dev nD) → (b : Ref sig .tc) → Buf (Elt F) ((c : Thread nD τ).loc b)) {c : Dev nD} (dat : Dat τ (Elt F) Unit ℕ (UR sig nD τ) ℕ cfg3 c) (hA : dat.A 6 = V c (Pipeline.arrRef spec3 6))
    (hafter : ∀ t, dat.after 6 t = iblkL3 V c 6 t) (t : Fin cfg3.N) (d) : dat.before 6 t d = iblkL3 V c 6 t :=
  (dat.before_in_eq_fetched 6 rfl (fun _ => rfl) (fun _ _ _ => rfl) (fun t => by rw [hafter]; unfold Dat.blockOf iblkL3; rw [hA]; try rfl) t d).trans
    (by unfold Dat.fetched Dat.blockOf iblkL3; rw [hA]; try rfl)

/-- Input window 7: for any proof data whose array is the region-entry contents and whose body leaves the block in
    place, the current staging buffer holds the block at every point, fetched there or not. -/
theorem beforeL3_7_of (V : (c : Dev nD) → (b : Ref sig .tc) → Buf (Elt F) ((c : Thread nD τ).loc b)) {c : Dev nD} (dat : Dat τ (Elt F) Unit ℕ (UR sig nD τ) ℕ cfg3 c) (hA : dat.A 7 = V c (Pipeline.arrRef spec3 7))
    (hafter : ∀ t, dat.after 7 t = iblkL3 V c 7 t) (t : Fin cfg3.N) (d) : dat.before 7 t d = iblkL3 V c 7 t :=
  (dat.before_in_eq_fetched 7 rfl (fun _ => rfl) (fun _ _ _ => rfl) (fun t => by rw [hafter]; unfold Dat.blockOf iblkL3; rw [hA]; try rfl) t d).trans
    (by unfold Dat.fetched Dat.blockOf iblkL3; rw [hA]; try rfl)

/-- Input window 8: for any proof data whose array is the region-entry contents and whose body leaves the block in
    place, the current staging buffer holds the block at every point, fetched there or not. -/
theorem beforeL3_8_of (V : (c : Dev nD) → (b : Ref sig .tc) → Buf (Elt F) ((c : Thread nD τ).loc b)) {c : Dev nD} (dat : Dat τ (Elt F) Unit ℕ (UR sig nD τ) ℕ cfg3 c) (hA : dat.A 8 = V c (Pipeline.arrRef spec3 8))
    (hafter : ∀ t, dat.after 8 t = iblkL3 V c 8 t) (t : Fin cfg3.N) (d) : dat.before 8 t d = iblkL3 V c 8 t :=
  (dat.before_in_eq_fetched 8 rfl (fun _ => rfl) (fun _ _ _ => rfl) (fun t => by rw [hafter]; unfold Dat.blockOf iblkL3; rw [hA]; try rfl) t d).trans
    (by unfold Dat.fetched Dat.blockOf iblkL3; rw [hA]; try rfl)

/-- Input window 9: for any proof data whose array is the region-entry contents and whose body leaves the block in
    place, the current staging buffer holds the block at every point, fetched there or not. -/
theorem beforeL3_9_of (V : (c : Dev nD) → (b : Ref sig .tc) → Buf (Elt F) ((c : Thread nD τ).loc b)) {c : Dev nD} (dat : Dat τ (Elt F) Unit ℕ (UR sig nD τ) ℕ cfg3 c) (hA : dat.A 9 = V c (Pipeline.arrRef spec3 9))
    (hafter : ∀ t, dat.after 9 t = iblkL3 V c 9 t) (t : Fin cfg3.N) (d) : dat.before 9 t d = iblkL3 V c 9 t :=
  (dat.before_in_eq_fetched 9 rfl (fun _ => rfl) (fun _ _ _ => rfl) (fun t => by rw [hafter]; unfold Dat.blockOf iblkL3; rw [hA]; try rfl) t d).trans
    (by unfold Dat.fetched Dat.blockOf iblkL3; rw [hA]; try rfl)

/-- Input window 10: for any proof data whose array is the region-entry contents and whose body leaves the block in
    place, the current staging buffer holds the block at every point, fetched there or not. -/
theorem beforeL3_10_of (V : (c : Dev nD) → (b : Ref sig .tc) → Buf (Elt F) ((c : Thread nD τ).loc b)) {c : Dev nD} (dat : Dat τ (Elt F) Unit ℕ (UR sig nD τ) ℕ cfg3 c) (hA : dat.A 10 = V c (Pipeline.arrRef spec3 10))
    (hafter : ∀ t, dat.after 10 t = iblkL3 V c 10 t) (t : Fin cfg3.N) (d) : dat.before 10 t d = iblkL3 V c 10 t :=
  (dat.before_in_eq_fetched 10 rfl (fun _ => rfl) (fun _ _ _ => rfl) (fun t => by rw [hafter]; unfold Dat.blockOf iblkL3; rw [hA]; try rfl) t d).trans
    (by unfold Dat.fetched Dat.blockOf iblkL3; rw [hA]; try rfl)

/-- Input window 11: for any proof data whose array is the region-entry contents and whose body leaves the block in
    place, the current staging buffer holds the block at every point, fetched there or not. -/
theorem beforeL3_11_of (V : (c : Dev nD) → (b : Ref sig .tc) → Buf (Elt F) ((c : Thread nD τ).loc b)) {c : Dev nD} (dat : Dat τ (Elt F) Unit ℕ (UR sig nD τ) ℕ cfg3 c) (hA : dat.A 11 = V c (Pipeline.arrRef spec3 11))
    (hafter : ∀ t, dat.after 11 t = iblkL3 V c 11 t) (t : Fin cfg3.N) (d) : dat.before 11 t d = iblkL3 V c 11 t :=
  (dat.before_in_eq_fetched 11 rfl (fun _ => rfl) (fun _ _ _ => rfl) (fun t => by rw [hafter]; unfold Dat.blockOf iblkL3; rw [hA]; try rfl) t d).trans
    (by unfold Dat.fetched Dat.blockOf iblkL3; rw [hA]; try rfl)

/-- Input window 12: for any proof data whose array is the region-entry contents and whose body leaves the block in
    place, the current staging buffer holds the block at every point, fetched there or not. -/
theorem beforeL3_12_of (V : (c : Dev nD) → (b : Ref sig .tc) → Buf (Elt F) ((c : Thread nD τ).loc b)) {c : Dev nD} (dat : Dat τ (Elt F) Unit ℕ (UR sig nD τ) ℕ cfg3 c) (hA : dat.A 12 = V c (Pipeline.arrRef spec3 12))
    (hafter : ∀ t, dat.after 12 t = iblkL3 V c 12 t) (t : Fin cfg3.N) (d) : dat.before 12 t d = iblkL3 V c 12 t :=
  (dat.before_in_eq_fetched 12 rfl (fun _ => rfl) (fun _ _ _ => rfl) (fun t => by rw [hafter]; unfold Dat.blockOf iblkL3; rw [hA]; try rfl) t d).trans
    (by unfold Dat.fetched Dat.blockOf iblkL3; rw [hA]; try rfl)

/-- Input window 13: for any proof data whose array is the region-entry contents and whose body leaves the block in
    place, the current staging buffer holds the block at every point, fetched there or not. -/
theorem beforeL3_13_of (V : (c : Dev nD) → (b : Ref sig .tc) → Buf (Elt F) ((c : Thread nD τ).loc b)) {c : Dev nD} (dat : Dat τ (Elt F) Unit ℕ (UR sig nD τ) ℕ cfg3 c) (hA : dat.A 13 = V c (Pipeline.arrRef spec3 13))
    (hafter : ∀ t, dat.after 13 t = iblkL3 V c 13 t) (t : Fin cfg3.N) (d) : dat.before 13 t d = iblkL3 V c 13 t :=
  (dat.before_in_eq_fetched 13 rfl (fun _ => rfl) (fun _ _ _ => rfl) (fun t => by rw [hafter]; unfold Dat.blockOf iblkL3; rw [hA]; try rfl) t d).trans
    (by unfold Dat.fetched Dat.blockOf iblkL3; rw [hA]; try rfl)

/-- Input window 14: for any proof data whose array is the region-entry contents and whose body leaves the block in
    place, the current staging buffer holds the block at every point, fetched there or not. -/
theorem beforeL3_14_of (V : (c : Dev nD) → (b : Ref sig .tc) → Buf (Elt F) ((c : Thread nD τ).loc b)) {c : Dev nD} (dat : Dat τ (Elt F) Unit ℕ (UR sig nD τ) ℕ cfg3 c) (hA : dat.A 14 = V c (Pipeline.arrRef spec3 14))
    (hafter : ∀ t, dat.after 14 t = iblkL3 V c 14 t) (t : Fin cfg3.N) (d) : dat.before 14 t d = iblkL3 V c 14 t :=
  (dat.before_in_eq_fetched 14 rfl (fun _ => rfl) (fun _ _ _ => rfl) (fun t => by rw [hafter]; unfold Dat.blockOf iblkL3; rw [hA]; try rfl) t d).trans
    (by unfold Dat.fetched Dat.blockOf iblkL3; rw [hA]; try rfl)

/-! ## The body's branch -/

/-- The condition of the body's branch (`k3_h1`: the grid coordinate is zero), from the grid coordinates. -/
abbrev condL3_0 (i : grid3.Coords) : Prop := (Scalar.cmpi .ne (Scalar.extui (Scalar.cmpi .eq (BitVec.ofNat 32 (i 0).val) 0#32)) 0#32) = 1#1
/-- It holds at the first point only. -/
theorem hcondL3_0 : ∀ t : Fin cfg3.N, condL3_0 (grid3.coords t) ↔ t.val % 50 = 0 :=
  (by decide +kernel : ∀ t : Fin grid3.N, condL3_0 (grid3.coords t) ↔ t.val % 50 = 0)

/-! ## The staging memrefs -/

/-- One staging buffer of each output window, through which its contents are stated. -/
abbrev VOL3_15 : View sig .tc .vmem S1000x128 .f32 := (Memref.whole cc3_stg15_0 : Memref sig .tc .vmem S1000x128 .f32).view
abbrev VOL3_16 : View sig .tc .vmem S512x128 .f32 := (Memref.whole cc3_stg16_0 : Memref sig .tc .vmem S512x128 .f32).view

/-- Each window's current staging memref at point `t`, as the pipeline passes it to the body, and its wholeness. -/
abbrev msL3_0 (t : Fin cfg3.N) : Memref sig .tc .vmem S1000x128 .f32 := win3_0.stage (cfg3.slots t 0)
abbrev hsL3_0 (t : Fin cfg3.N) : (msL3_0 t).IsWhole := hstage3_0 ((cfg3.slots t 0).cast nbuf3_0)
abbrev msL3_1 (t : Fin cfg3.N) : Memref sig .tc .vmem S1000x128 .f32 := win3_1.stage (cfg3.slots t 1)
abbrev hsL3_1 (t : Fin cfg3.N) : (msL3_1 t).IsWhole := hstage3_1 ((cfg3.slots t 1).cast nbuf3_1)
abbrev msL3_2 (t : Fin cfg3.N) : Memref sig .tc .vmem S1000x1 .i32 := win3_2.stage (cfg3.slots t 2)
abbrev hsL3_2 (t : Fin cfg3.N) : (msL3_2 t).IsWhole := hstage3_2 ((cfg3.slots t 2).cast nbuf3_2)
abbrev msL3_3 (t : Fin cfg3.N) : Memref sig .tc .vmem S128x128 .f32 := win3_3.stage (cfg3.slots t 3)
abbrev hsL3_3 (t : Fin cfg3.N) : (msL3_3 t).IsWhole := hstage3_3 ((cfg3.slots t 3).cast nbuf3_3)
abbrev msL3_4 (t : Fin cfg3.N) : Memref sig .tc .vmem S128 .f32 := win3_4.stage (cfg3.slots t 4)
abbrev hsL3_4 (t : Fin cfg3.N) : (msL3_4 t).IsWhole := hstage3_4 ((cfg3.slots t 4).cast nbuf3_4)
abbrev msL3_5 (t : Fin cfg3.N) : Memref sig .tc .vmem S128 .f32 := win3_5.stage (cfg3.slots t 5)
abbrev hsL3_5 (t : Fin cfg3.N) : (msL3_5 t).IsWhole := hstage3_5 ((cfg3.slots t 5).cast nbuf3_5)
abbrev msL3_6 (t : Fin cfg3.N) : Memref sig .tc .vmem S128 .f32 := win3_6.stage (cfg3.slots t 6)
abbrev hsL3_6 (t : Fin cfg3.N) : (msL3_6 t).IsWhole := hstage3_6 ((cfg3.slots t 6).cast nbuf3_6)
abbrev msL3_7 (t : Fin cfg3.N) : Memref sig .tc .vmem S128 .f32 := win3_7.stage (cfg3.slots t 7)
abbrev hsL3_7 (t : Fin cfg3.N) : (msL3_7 t).IsWhole := hstage3_7 ((cfg3.slots t 7).cast nbuf3_7)
abbrev msL3_8 (t : Fin cfg3.N) : Memref sig .tc .vmem S128 .f32 := win3_8.stage (cfg3.slots t 8)
abbrev hsL3_8 (t : Fin cfg3.N) : (msL3_8 t).IsWhole := hstage3_8 ((cfg3.slots t 8).cast nbuf3_8)
abbrev msL3_9 (t : Fin cfg3.N) : Memref sig .tc .vmem S128x128 .f32 := win3_9.stage (cfg3.slots t 9)
abbrev hsL3_9 (t : Fin cfg3.N) : (msL3_9 t).IsWhole := hstage3_9 ((cfg3.slots t 9).cast nbuf3_9)
abbrev msL3_10 (t : Fin cfg3.N) : Memref sig .tc .vmem S128 .f32 := win3_10.stage (cfg3.slots t 10)
abbrev hsL3_10 (t : Fin cfg3.N) : (msL3_10 t).IsWhole := hstage3_10 ((cfg3.slots t 10).cast nbuf3_10)
abbrev msL3_11 (t : Fin cfg3.N) : Memref sig .tc .vmem S128 .f32 := win3_11.stage (cfg3.slots t 11)
abbrev hsL3_11 (t : Fin cfg3.N) : (msL3_11 t).IsWhole := hstage3_11 ((cfg3.slots t 11).cast nbuf3_11)
abbrev msL3_12 (t : Fin cfg3.N) : Memref sig .tc .vmem S128 .f32 := win3_12.stage (cfg3.slots t 12)
abbrev hsL3_12 (t : Fin cfg3.N) : (msL3_12 t).IsWhole := hstage3_12 ((cfg3.slots t 12).cast nbuf3_12)
abbrev msL3_13 (t : Fin cfg3.N) : Memref sig .tc .vmem S128 .f32 := win3_13.stage (cfg3.slots t 13)
abbrev hsL3_13 (t : Fin cfg3.N) : (msL3_13 t).IsWhole := hstage3_13 ((cfg3.slots t 13).cast nbuf3_13)
abbrev msL3_14 (t : Fin cfg3.N) : Memref sig .tc .vmem S128 .f32 := win3_14.stage (cfg3.slots t 14)
abbrev hsL3_14 (t : Fin cfg3.N) : (msL3_14 t).IsWhole := hstage3_14 ((cfg3.slots t 14).cast nbuf3_14)
abbrev msL3_15 (t : Fin cfg3.N) : Memref sig .tc .vmem S1000x128 .f32 := win3_15.stage (cfg3.slots t 15)
abbrev hsL3_15 (t : Fin cfg3.N) : (msL3_15 t).IsWhole := hstage3_15 ((cfg3.slots t 15).cast nbuf3_15)
abbrev msL3_16 (t : Fin cfg3.N) : Memref sig .tc .vmem S512x128 .f32 := win3_16.stage (cfg3.slots t 16)
abbrev hsL3_16 (t : Fin cfg3.N) : (msL3_16 t).IsWhole := hstage3_16 ((cfg3.slots t 16).cast nbuf3_16)

end Cert.KernelIdeal.Hand

end
-- ==== Proof.KI.L3RunA.lean ====
/-
  Layer region 3, the run of its body at the first grid point (the branch on the grid coordinate taken: the pool's
  buffer is zeroed before the tile is added): on whole staging memrefs, the inputs' at their contents and the outputs'
  at anything, the body runs to the continuation holding the inputs' as they were and each output's buffer with the
  stores the body made, listed last first.
-/
import proofs.«426741_j36421322670671_1_alg».proof.Proof.KI.L3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at the first point, as pieces (last first),
    with the body's triple: the pieces are found by running the body. -/
noncomputable def kernelRunL3_A (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc3__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc3__layer_kernel_eq_skeleton]; unfold cc3__layer_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.KernelIdeal.Hand

end
-- ==== Proof.KI.L3RunB.lean ====
/-
  Layer region 3, the run of its body at a later grid point (the branch on the grid coordinate not taken: the tile is
  added to what the pool's buffer holds): on whole staging memrefs, the inputs' at their contents, the pool's at its
  running contents and the new features' at anything, the body runs to the continuation holding the inputs' as they
  were and each output's buffer with the stores the body made, listed last first.
-/
import proofs.«426741_j36421322670671_1_alg».proof.Proof.KI.L3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in window 15's and window 16's staging memrefs at a later point, as pieces (last first),
    with the body's triple: the pieces are found by running the body. -/
noncomputable def kernelRunL3_B (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    Σ' (L15 : List (View.Piece (Elt F) S1000x128 .f32)), { L16 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc3__layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc3__layer_kernel_eq_skeleton]; unfold cc3__layer_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    iexists _; iexact H16

end Cert.KernelIdeal.Hand

end
-- ==== Proof.KI.L3Dat.lean ====
/-
  Layer region 3: what its pipeline's proof data say. Every input window's staging buffer holds its block of the
  array the region found; window 15's (the new node features) holds the block the body stores at the point;
  window 16's (the pool) holds the running sum the body carries from point to point.
  `V` is the TensorCore's buffer contents when the region is entered.
-/
import proofs.«426741_j36421322670671_1_alg».proof.Proof.KI.L3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output window's buffer, by the case of its branch -/

/-- The body's stores into window 15's buffer (the new node features) at the first point tile its block, so they cover it. -/
theorem coverL3_A_15 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S1000x128.Idx) :
    ∃ pc ∈ (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1000x128.size (by sl_kernel_rfl) y

/-- What the body leaves in window 15's staging buffer at the first point: its stores read back. -/
def outL3_A_15 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S1000x128 .f32 :=
  VOL3_15.read (Elt F) (VOL3_15.writes (Elt F) VOL3_15.junk (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- The body's stores into window 16's buffer (the pool) at the first point tile its block, so they cover it. -/
theorem coverL3_A_16 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (y : S512x128.Idx) :
    ∃ pc ∈ (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x128.size (by sl_kernel_rfl) y

/-- What the body leaves in window 16's staging buffer at the first point: its stores read back. -/
def outL3_A_16 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) : Vec F S512x128 .f32 :=
  VOL3_16.read (Elt F) (VOL3_16.writes (Elt F) VOL3_16.junk (kernelRunL3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- The body's stores into window 15's buffer (the new node features) at a later point tile its block, so they cover it. -/
theorem coverL3_B_15 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S1000x128.Idx) :
    ∃ pc ∈ (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1, y ∈ pc.1.set :=
  View.cover_of_tiledL (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1 S1000x128.size (by sl_kernel_rfl) y

/-- What the body leaves in window 15's staging buffer at a later point: its stores read back. -/
def outL3_B_15 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S1000x128 .f32 :=
  VOL3_15.read (Elt F) (VOL3_15.writes (Elt F) VOL3_15.junk (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).1)

/-- The body's stores into window 16's buffer (the pool) at a later point tile its block, so they cover it. -/
theorem coverL3_B_16 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) (y : S512x128.Idx) :
    ∃ pc ∈ (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1, y ∈ pc.1.set :=
  View.cover_of_tiledL (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1 S512x128.size (by sl_kernel_rfl) y

/-- What the body leaves in window 16's staging buffer at a later point: its stores read back. -/
def outL3_B_16 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) : Vec F S512x128 .f32 :=
  VOL3_16.read (Elt F) (VOL3_16.writes (Elt F) VOL3_16.junk (kernelRunL3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16).2.1)

/-! ## What the outputs hold after each point -/

/-- What the body leaves in window 16's staging buffer after point `n`: the pool summed over tiles `0 … n`. At the
    first point the buffer is zeroed and the tile added; at a later point the tile is added to what the point before
    left (the buffer is not written back between). -/
def poolAtL3 (V : (c : Dev nD) → (b : Ref sig .tc) → Buf (Elt F) ((c : Thread nD τ).loc b)) (c : Dev nD) : (n : ℕ) → n < cfg3.N → Vec F S512x128 .f32
  | 0, hn => outL3_A_16 c (grid3.coords ⟨0, hn⟩) (msL3_0 ⟨0, hn⟩) (hsL3_0 ⟨0, hn⟩) (msL3_1 ⟨0, hn⟩) (hsL3_1 ⟨0, hn⟩) (msL3_2 ⟨0, hn⟩) (hsL3_2 ⟨0, hn⟩) (msL3_3 ⟨0, hn⟩) (hsL3_3 ⟨0, hn⟩) (msL3_4 ⟨0, hn⟩) (hsL3_4 ⟨0, hn⟩) (msL3_5 ⟨0, hn⟩) (hsL3_5 ⟨0, hn⟩) (msL3_6 ⟨0, hn⟩) (hsL3_6 ⟨0, hn⟩) (msL3_7 ⟨0, hn⟩) (hsL3_7 ⟨0, hn⟩) (msL3_8 ⟨0, hn⟩) (hsL3_8 ⟨0, hn⟩) (msL3_9 ⟨0, hn⟩) (hsL3_9 ⟨0, hn⟩) (msL3_10 ⟨0, hn⟩) (hsL3_10 ⟨0, hn⟩) (msL3_11 ⟨0, hn⟩) (hsL3_11 ⟨0, hn⟩) (msL3_12 ⟨0, hn⟩) (hsL3_12 ⟨0, hn⟩) (msL3_13 ⟨0, hn⟩) (hsL3_13 ⟨0, hn⟩) (msL3_14 ⟨0, hn⟩) (hsL3_14 ⟨0, hn⟩) (msL3_15 ⟨0, hn⟩) (hsL3_15 ⟨0, hn⟩) (msL3_16 ⟨0, hn⟩) (hsL3_16 ⟨0, hn⟩) ((hcondL3_0 ⟨0, hn⟩).mpr (Nat.zero_mod _)) (iblkL3 V c 0 ⟨0, hn⟩) (iblkL3 V c 1 ⟨0, hn⟩) (iblkL3 V c 2 ⟨0, hn⟩) (iblkL3 V c 3 ⟨0, hn⟩) (iblkL3 V c 4 ⟨0, hn⟩) (iblkL3 V c 5 ⟨0, hn⟩) (iblkL3 V c 6 ⟨0, hn⟩) (iblkL3 V c 7 ⟨0, hn⟩) (iblkL3 V c 8 ⟨0, hn⟩) (iblkL3 V c 9 ⟨0, hn⟩) (iblkL3 V c 10 ⟨0, hn⟩) (iblkL3 V c 11 ⟨0, hn⟩) (iblkL3 V c 12 ⟨0, hn⟩) (iblkL3 V c 13 ⟨0, hn⟩) (iblkL3 V c 14 ⟨0, hn⟩)
  | n + 1, hn =>
    if h0 : (n + 1) % 50 = 0 then
      outL3_A_16 c (grid3.coords ⟨n + 1, hn⟩) (msL3_0 ⟨n + 1, hn⟩) (hsL3_0 ⟨n + 1, hn⟩) (msL3_1 ⟨n + 1, hn⟩) (hsL3_1 ⟨n + 1, hn⟩) (msL3_2 ⟨n + 1, hn⟩) (hsL3_2 ⟨n + 1, hn⟩) (msL3_3 ⟨n + 1, hn⟩) (hsL3_3 ⟨n + 1, hn⟩) (msL3_4 ⟨n + 1, hn⟩) (hsL3_4 ⟨n + 1, hn⟩) (msL3_5 ⟨n + 1, hn⟩) (hsL3_5 ⟨n + 1, hn⟩) (msL3_6 ⟨n + 1, hn⟩) (hsL3_6 ⟨n + 1, hn⟩) (msL3_7 ⟨n + 1, hn⟩) (hsL3_7 ⟨n + 1, hn⟩) (msL3_8 ⟨n + 1, hn⟩) (hsL3_8 ⟨n + 1, hn⟩) (msL3_9 ⟨n + 1, hn⟩) (hsL3_9 ⟨n + 1, hn⟩) (msL3_10 ⟨n + 1, hn⟩) (hsL3_10 ⟨n + 1, hn⟩) (msL3_11 ⟨n + 1, hn⟩) (hsL3_11 ⟨n + 1, hn⟩) (msL3_12 ⟨n + 1, hn⟩) (hsL3_12 ⟨n + 1, hn⟩) (msL3_13 ⟨n + 1, hn⟩) (hsL3_13 ⟨n + 1, hn⟩) (msL3_14 ⟨n + 1, hn⟩) (hsL3_14 ⟨n + 1, hn⟩) (msL3_15 ⟨n + 1, hn⟩) (hsL3_15 ⟨n + 1, hn⟩) (msL3_16 ⟨n + 1, hn⟩) (hsL3_16 ⟨n + 1, hn⟩) ((hcondL3_0 ⟨n + 1, hn⟩).mpr h0) (iblkL3 V c 0 ⟨n + 1, hn⟩) (iblkL3 V c 1 ⟨n + 1, hn⟩) (iblkL3 V c 2 ⟨n + 1, hn⟩) (iblkL3 V c 3 ⟨n + 1, hn⟩) (iblkL3 V c 4 ⟨n + 1, hn⟩) (iblkL3 V c 5 ⟨n + 1, hn⟩) (iblkL3 V c 6 ⟨n + 1, hn⟩) (iblkL3 V c 7 ⟨n + 1, hn⟩) (iblkL3 V c 8 ⟨n + 1, hn⟩) (iblkL3 V c 9 ⟨n + 1, hn⟩) (iblkL3 V c 10 ⟨n + 1, hn⟩) (iblkL3 V c 11 ⟨n + 1, hn⟩) (iblkL3 V c 12 ⟨n + 1, hn⟩) (iblkL3 V c 13 ⟨n + 1, hn⟩) (iblkL3 V c 14 ⟨n + 1, hn⟩)
    else
      outL3_B_16 c (grid3.coords ⟨n + 1, hn⟩) (msL3_0 ⟨n + 1, hn⟩) (hsL3_0 ⟨n + 1, hn⟩) (msL3_1 ⟨n + 1, hn⟩) (hsL3_1 ⟨n + 1, hn⟩) (msL3_2 ⟨n + 1, hn⟩) (hsL3_2 ⟨n + 1, hn⟩) (msL3_3 ⟨n + 1, hn⟩) (hsL3_3 ⟨n + 1, hn⟩) (msL3_4 ⟨n + 1, hn⟩) (hsL3_4 ⟨n + 1, hn⟩) (msL3_5 ⟨n + 1, hn⟩) (hsL3_5 ⟨n + 1, hn⟩) (msL3_6 ⟨n + 1, hn⟩) (hsL3_6 ⟨n + 1, hn⟩) (msL3_7 ⟨n + 1, hn⟩) (hsL3_7 ⟨n + 1, hn⟩) (msL3_8 ⟨n + 1, hn⟩) (hsL3_8 ⟨n + 1, hn⟩) (msL3_9 ⟨n + 1, hn⟩) (hsL3_9 ⟨n + 1, hn⟩) (msL3_10 ⟨n + 1, hn⟩) (hsL3_10 ⟨n + 1, hn⟩) (msL3_11 ⟨n + 1, hn⟩) (hsL3_11 ⟨n + 1, hn⟩) (msL3_12 ⟨n + 1, hn⟩) (hsL3_12 ⟨n + 1, hn⟩) (msL3_13 ⟨n + 1, hn⟩) (hsL3_13 ⟨n + 1, hn⟩) (msL3_14 ⟨n + 1, hn⟩) (hsL3_14 ⟨n + 1, hn⟩) (msL3_15 ⟨n + 1, hn⟩) (hsL3_15 ⟨n + 1, hn⟩) (msL3_16 ⟨n + 1, hn⟩) (hsL3_16 ⟨n + 1, hn⟩) (fun h => h0 ((hcondL3_0 ⟨n + 1, hn⟩).mp h)) (iblkL3 V c 0 ⟨n + 1, hn⟩) (iblkL3 V c 1 ⟨n + 1, hn⟩) (iblkL3 V c 2 ⟨n + 1, hn⟩) (iblkL3 V c 3 ⟨n + 1, hn⟩) (iblkL3 V c 4 ⟨n + 1, hn⟩) (iblkL3 V c 5 ⟨n + 1, hn⟩) (iblkL3 V c 6 ⟨n + 1, hn⟩) (iblkL3 V c 7 ⟨n + 1, hn⟩) (iblkL3 V c 8 ⟨n + 1, hn⟩) (iblkL3 V c 9 ⟨n + 1, hn⟩) (iblkL3 V c 10 ⟨n + 1, hn⟩) (iblkL3 V c 11 ⟨n + 1, hn⟩) (iblkL3 V c 12 ⟨n + 1, hn⟩) (iblkL3 V c 13 ⟨n + 1, hn⟩) (iblkL3 V c 14 ⟨n + 1, hn⟩) (poolAtL3 V c n (Nat.lt_of_succ_lt hn))

/-- The pool's buffer at the first point. -/
theorem poolAtL3_A (V : (c : Dev nD) → (b : Ref sig .tc) → Buf (Elt F) ((c : Thread nD τ).loc b)) (c : Dev nD) (t : Fin cfg3.N) (h0 : t.val % 50 = 0) :
    poolAtL3 V c t.val t.isLt = outL3_A_16 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) ((hcondL3_0 t).mpr h0) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) := by
  obtain ⟨n, hn⟩ := t
  cases n with
  | zero => exact rfl
  | succ n => exact (dif_pos h0).trans rfl

/-- The pool's buffer at a later point, over what the point before left. -/
theorem poolAtL3_B (V : (c : Dev nD) → (b : Ref sig .tc) → Buf (Elt F) ((c : Thread nD τ).loc b)) (c : Dev nD) (t : Fin cfg3.N) (h0 : ¬t.val % 50 = 0) :
    poolAtL3 V c t.val t.isLt = outL3_B_16 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) (fun h => h0 ((hcondL3_0 t).mp h)) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) (poolAtL3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the body leaves in window 15's staging buffer at point `t`: the tile's new node features. -/
def hOutL3 (V : (c : Dev nD) → (b : Ref sig .tc) → Buf (Elt F) ((c : Thread nD τ).loc b)) (c : Dev nD) (t : Fin cfg3.N) : Vec F S1000x128 .f32 :=
  if h0 : t.val % 50 = 0 then
    outL3_A_15 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) ((hcondL3_0 t).mpr h0) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t)
  else
    outL3_B_15 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) (fun h => h0 ((hcondL3_0 t).mp h)) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) (poolAtL3 V c (t.val - 1) (Nat.lt_of_le_of_lt (Nat.sub_le _ _) t.isLt))

theorem hOutL3_A (V : (c : Dev nD) → (b : Ref sig .tc) → Buf (Elt F) ((c : Thread nD τ).loc b)) (c : Dev nD) (t : Fin cfg3.N) (h0 : t.val % 50 = 0) :
    hOutL3 V c t = outL3_A_15 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) ((hcondL3_0 t).mpr h0) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) := dif_pos h0

theorem hOutL3_B (V : (c : Dev nD) → (b : Ref sig .tc) → Buf (Elt F) ((c : Thread nD τ).loc b)) (c : Dev nD) (t : Fin cfg3.N) (h0 : ¬t.val % 50 = 0) :
    hOutL3 V c t = outL3_B_15 c (grid3.coords t) (msL3_0 t) (hsL3_0 t) (msL3_1 t) (hsL3_1 t) (msL3_2 t) (hsL3_2 t) (msL3_3 t) (hsL3_3 t) (msL3_4 t) (hsL3_4 t) (msL3_5 t) (hsL3_5 t) (msL3_6 t) (hsL3_6 t) (msL3_7 t) (hsL3_7 t) (msL3_8 t) (hsL3_8 t) (msL3_9 t) (hsL3_9 t) (msL3_10 t) (hsL3_10 t) (msL3_11 t) (hsL3_11 t) (msL3_12 t) (hsL3_12 t) (msL3_13 t) (hsL3_13 t) (msL3_14 t) (hsL3_14 t) (msL3_15 t) (hsL3_15 t) (msL3_16 t) (hsL3_16 t) (fun h => h0 ((hcondL3_0 t).mp h)) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) (poolAtL3 V c (t.val - 1) (Nat.lt_of_le_of_lt (Nat.sub_le _ _) t.isLt)) := dif_neg h0

/-! ## The pipeline's proof data -/

/-- The proof data of this region's pipeline on core `c`. -/
def datL3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblkL3 V c 0 t
    | ⟨1, _⟩ => iblkL3 V c 1 t
    | ⟨2, _⟩ => iblkL3 V c 2 t
    | ⟨3, _⟩ => iblkL3 V c 3 t
    | ⟨4, _⟩ => iblkL3 V c 4 t
    | ⟨5, _⟩ => iblkL3 V c 5 t
    | ⟨6, _⟩ => iblkL3 V c 6 t
    | ⟨7, _⟩ => iblkL3 V c 7 t
    | ⟨8, _⟩ => iblkL3 V c 8 t
    | ⟨9, _⟩ => iblkL3 V c 9 t
    | ⟨10, _⟩ => iblkL3 V c 10 t
    | ⟨11, _⟩ => iblkL3 V c 11 t
    | ⟨12, _⟩ => iblkL3 V c 12 t
    | ⟨13, _⟩ => iblkL3 V c 13 t
    | ⟨14, _⟩ => iblkL3 V c 14 t
    | ⟨15, _⟩ => hOutL3 V c t
    | ⟨16, _⟩ => poolAtL3 V c t.val t.isLt
    | ⟨_ + 17, h⟩ => absurd h (Nat.not_lt.2 (Nat.le_add_left _ _))
  Φ _ := Pipeline.ΦA spec3 c
  q _ := fullShare
  owed _ := 0

/-- The proof data's arrays are the region-entry contents. -/
theorem A_eqL3 (V : (c : Dev nD) → (b : Ref sig .tc) → Buf (Elt F) ((c : Thread nD τ).loc b)) (c : Dev nD) (w : Fin cfg3.W) : (datL3 V c).A w = V c (Pipeline.arrRef spec3 w) := by
  dsimp only [datL3]

/-- What the body leaves, window by window. -/
theorem after0_L3 (V : (c : Dev nD) → (b : Ref sig .tc) → Buf (Elt F) ((c : Thread nD τ).loc b)) (c : Dev nD) (t : Fin cfg3.N) : (datL3 V c).after 0 t = iblkL3 V c 0 t := by dsimp only [datL3]
theorem after1_L3 (V : (c : Dev nD) → (b : Ref sig .tc) → Buf (Elt F) ((c : Thread nD τ).loc b)) (c : Dev nD) (t : Fin cfg3.N) : (datL3 V c).after 1 t = iblkL3 V c 1 t := by dsimp only [datL3]
theorem after2_L3 (V : (c : Dev nD) → (b : Ref sig .tc) → Buf (Elt F) ((c : Thread nD τ).loc b)) (c : Dev nD) (t : Fin cfg3.N) : (datL3 V c).after 2 t = iblkL3 V c 2 t := by dsimp only [datL3]
theorem after3_L3 (V : (c : Dev nD) → (b : Ref sig .tc) → Buf (Elt F) ((c : Thread nD τ).loc b)) (c : Dev nD) (t : Fin cfg3.N) : (datL3 V c).after 3 t = iblkL3 V c 3 t := by dsimp only [datL3]
theorem after4_L3 (V : (c : Dev nD) → (b : Ref sig .tc) → Buf (Elt F) ((c : Thread nD τ).loc b)) (c : Dev nD) (t : Fin cfg3.N) : (datL3 V c).after 4 t = iblkL3 V c 4 t := by dsimp only [datL3]
theorem after5_L3 (V : (c : Dev nD) → (b : Ref sig .tc) → Buf (Elt F) ((c : Thread nD τ).loc b)) (c : Dev nD) (t : Fin cfg3.N) : (datL3 V c).after 5 t = iblkL3 V c 5 t := by dsimp only [datL3]
theorem after6_L3 (V : (c : Dev nD) → (b : Ref sig .tc) → Buf (Elt F) ((c : Thread nD τ).loc b)) (c : Dev nD) (t : Fin cfg3.N) : (datL3 V c).after 6 t = iblkL3 V c 6 t := by dsimp only [datL3]
theorem after7_L3 (V : (c : Dev nD) → (b : Ref sig .tc) → Buf (Elt F) ((c : Thread nD τ).loc b)) (c : Dev nD) (t : Fin cfg3.N) : (datL3 V c).after 7 t = iblkL3 V c 7 t := by dsimp only [datL3]
theorem after8_L3 (V : (c : Dev nD) → (b : Ref sig .tc) → Buf (Elt F) ((c : Thread nD τ).loc b)) (c : Dev nD) (t : Fin cfg3.N) : (datL3 V c).after 8 t = iblkL3 V c 8 t := by dsimp only [datL3]
theorem after9_L3 (V : (c : Dev nD) → (b : Ref sig .tc) → Buf (Elt F) ((c : Thread nD τ).loc b)) (c : Dev nD) (t : Fin cfg3.N) : (datL3 V c).after 9 t = iblkL3 V c 9 t := by dsimp only [datL3]
theorem after10_L3 (V : (c : Dev nD) → (b : Ref sig .tc) → Buf (Elt F) ((c : Thread nD τ).loc b)) (c : Dev nD) (t : Fin cfg3.N) : (datL3 V c).after 10 t = iblkL3 V c 10 t := by dsimp only [datL3]
theorem after11_L3 (V : (c : Dev nD) → (b : Ref sig .tc) → Buf (Elt F) ((c : Thread nD τ).loc b)) (c : Dev nD) (t : Fin cfg3.N) : (datL3 V c).after 11 t = iblkL3 V c 11 t := by dsimp only [datL3]
theorem after12_L3 (V : (c : Dev nD) → (b : Ref sig .tc) → Buf (Elt F) ((c : Thread nD τ).loc b)) (c : Dev nD) (t : Fin cfg3.N) : (datL3 V c).after 12 t = iblkL3 V c 12 t := by dsimp only [datL3]
theorem after13_L3 (V : (c : Dev nD) → (b : Ref sig .tc) → Buf (Elt F) ((c : Thread nD τ).loc b)) (c : Dev nD) (t : Fin cfg3.N) : (datL3 V c).after 13 t = iblkL3 V c 13 t := by dsimp only [datL3]
theorem after14_L3 (V : (c : Dev nD) → (b : Ref sig .tc) → Buf (Elt F) ((c : Thread nD τ).loc b)) (c : Dev nD) (t : Fin cfg3.N) : (datL3 V c).after 14 t = iblkL3 V c 14 t := by dsimp only [datL3]
theorem after15_L3 (V : (c : Dev nD) → (b : Ref sig .tc) → Buf (Elt F) ((c : Thread nD τ).loc b)) (c : Dev nD) (t : Fin cfg3.N) : (datL3 V c).after 15 t = hOutL3 V c t := by dsimp only [datL3]
theorem after16_L3 (V : (c : Dev nD) → (b : Ref sig .tc) → Buf (Elt F) ((c : Thread nD τ).loc b)) (c : Dev nD) (t : Fin cfg3.N) : (datL3 V c).after 16 t = poolAtL3 V c t.val t.isLt := by dsimp only [datL3]

/-- Each input's current staging buffer holds its block at every point, fetched there or not. -/
theorem beforeL3_0 (V : (c : Dev nD) → (b : Ref sig .tc) → Buf (Elt F) ((c : Thread nD τ).loc b)) (c : Dev nD) (t : Fin cfg3.N) (d) : (datL3 V c).before 0 t d = iblkL3 V c 0 t :=
  beforeL3_0_of V (datL3 V c) (A_eqL3 V c 0) (after0_L3 V c) t d
theorem beforeL3_1 (V : (c : Dev nD) → (b : Ref sig .tc) → Buf (Elt F) ((c : Thread nD τ).loc b)) (c : Dev nD) (t : Fin cfg3.N) (d) : (datL3 V c).before 1 t d = iblkL3 V c 1 t :=
  beforeL3_1_of V (datL3 V c) (A_eqL3 V c 1) (after1_L3 V c) t d
theorem beforeL3_2 (V : (c : Dev nD) → (b : Ref sig .tc) → Buf (Elt F) ((c : Thread nD τ).loc b)) (c : Dev nD) (t : Fin cfg3.N) (d) : (datL3 V c).before 2 t d = iblkL3 V c 2 t :=
  beforeL3_2_of V (datL3 V c) (A_eqL3 V c 2) (after2_L3 V c) t d
theorem beforeL3_3 (V : (c : Dev nD) → (b : Ref sig .tc) → Buf (Elt F) ((c : Thread nD τ).loc b)) (c : Dev nD) (t : Fin cfg3.N) (d) : (datL3 V c).before 3 t d = iblkL3 V c 3 t :=
  beforeL3_3_of V (datL3 V c) (A_eqL3 V c 3) (after3_L3 V c) t d
theorem beforeL3_4 (V : (c : Dev nD) → (b : Ref sig .tc) → Buf (Elt F) ((c : Thread nD τ).loc b)) (c : Dev nD) (t : Fin cfg3.N) (d) : (datL3 V c).before 4 t d = iblkL3 V c 4 t :=
  beforeL3_4_of V (datL3 V c) (A_eqL3 V c 4) (after4_L3 V c) t d
theorem beforeL3_5 (V : (c : Dev nD) → (b : Ref sig .tc) → Buf (Elt F) ((c : Thread nD τ).loc b)) (c : Dev nD) (t : Fin cfg3.N) (d) : (datL3 V c).before 5 t d = iblkL3 V c 5 t :=
  beforeL3_5_of V (datL3 V c) (A_eqL3 V c 5) (after5_L3 V c) t d
theorem beforeL3_6 (V : (c : Dev nD) → (b : Ref sig .tc) → Buf (Elt F) ((c : Thread nD τ).loc b)) (c : Dev nD) (t : Fin cfg3.N) (d) : (datL3 V c).before 6 t d = iblkL3 V c 6 t :=
  beforeL3_6_of V (datL3 V c) (A_eqL3 V c 6) (after6_L3 V c) t d
theorem beforeL3_7 (V : (c : Dev nD) → (b : Ref sig .tc) → Buf (Elt F) ((c : Thread nD τ).loc b)) (c : Dev nD) (t : Fin cfg3.N) (d) : (datL3 V c).before 7 t d = iblkL3 V c 7 t :=
  beforeL3_7_of V (datL3 V c) (A_eqL3 V c 7) (after7_L3 V c) t d
theorem beforeL3_8 (V : (c : Dev nD) → (b : Ref sig .tc) → Buf (Elt F) ((c : Thread nD τ).loc b)) (c : Dev nD) (t : Fin cfg3.N) (d) : (datL3 V c).before 8 t d = iblkL3 V c 8 t :=
  beforeL3_8_of V (datL3 V c) (A_eqL3 V c 8) (after8_L3 V c) t d
theorem beforeL3_9 (V : (c : Dev nD) → (b : Ref sig .tc) → Buf (Elt F) ((c : Thread nD τ).loc b)) (c : Dev nD) (t : Fin cfg3.N) (d) : (datL3 V c).before 9 t d = iblkL3 V c 9 t :=
  beforeL3_9_of V (datL3 V c) (A_eqL3 V c 9) (after9_L3 V c) t d
theorem beforeL3_10 (V : (c : Dev nD) → (b : Ref sig .tc) → Buf (Elt F) ((c : Thread nD τ).loc b)) (c : Dev nD) (t : Fin cfg3.N) (d) : (datL3 V c).before 10 t d = iblkL3 V c 10 t :=
  beforeL3_10_of V (datL3 V c) (A_eqL3 V c 10) (after10_L3 V c) t d
theorem beforeL3_11 (V : (c : Dev nD) → (b : Ref sig .tc) → Buf (Elt F) ((c : Thread nD τ).loc b)) (c : Dev nD) (t : Fin cfg3.N) (d) : (datL3 V c).before 11 t d = iblkL3 V c 11 t :=
  beforeL3_11_of V (datL3 V c) (A_eqL3 V c 11) (after11_L3 V c) t d
theorem beforeL3_12 (V : (c : Dev nD) → (b : Ref sig .tc) → Buf (Elt F) ((c : Thread nD τ).loc b)) (c : Dev nD) (t : Fin cfg3.N) (d) : (datL3 V c).before 12 t d = iblkL3 V c 12 t :=
  beforeL3_12_of V (datL3 V c) (A_eqL3 V c 12) (after12_L3 V c) t d
theorem beforeL3_13 (V : (c : Dev nD) → (b : Ref sig .tc) → Buf (Elt F) ((c : Thread nD τ).loc b)) (c : Dev nD) (t : Fin cfg3.N) (d) : (datL3 V c).before 13 t d = iblkL3 V c 13 t :=
  beforeL3_13_of V (datL3 V c) (A_eqL3 V c 13) (after13_L3 V c) t d
theorem beforeL3_14 (V : (c : Dev nD) → (b : Ref sig .tc) → Buf (Elt F) ((c : Thread nD τ).loc b)) (c : Dev nD) (t : Fin cfg3.N) (d) : (datL3 V c).before 14 t d = iblkL3 V c 14 t :=
  beforeL3_14_of V (datL3 V c) (A_eqL3 V c 14) (after14_L3 V c) t d

/-- At a later point the pool's current staging buffer holds what the body left at the point before: the window's block
    index is constant and the buffer is written back at the last point only. -/
theorem beforeL3_16_B (V : (c : Dev nD) → (b : Ref sig .tc) → Buf (Elt F) ((c : Thread nD τ).loc b)) (c : Dev nD) (t : Fin cfg3.N) (h0 : ¬t.val % 50 = 0) (d) :
    (datL3 V c).before 16 t d = poolAtL3 V c (t.val - 1) (Nat.lt_of_le_of_lt (Nat.sub_le _ _) t.isLt) := by
  have hN : t.val < 50 := lt_of_lt_of_eq t.isLt (show cfg3.N = 50 from N_3)
  rw [Dat.before_out_kept _ 16 rfl t (by omega) (Bool.eq_false_iff.mpr fun h => by have := (flush3_16 _).mp h; dsimp only at this; omega)
    (fun _ => rfl) (fun _ _ => rfl)]
  dsimp only [datL3]

/-! ## The body obligation, at a generic point -/

/-- What the body is called with at point `t`, the windows one by one, -/
def bodyPreL3 (V : (c : Dev nD) → (b : Ref sig .tc) → Buf (Elt F) ((c : Thread nD τ).loc b)) (c : Dev nD) (t : Fin cfg3.N) : sProp 𝕄 :=
  iprop((datL3 V c).Φ t.castSucc ∗ (datL3 V c).owesAt () t.castSucc
    ∗ (∃ d, owns (c : Thread nD τ) (msL3_0 t) fullShare ((datL3 V c).before 0 t d))
    ∗ (∃ d, owns (c : Thread nD τ) (msL3_1 t) fullShare ((datL3 V c).before 1 t d))
    ∗ (∃ d, owns (c : Thread nD τ) (msL3_2 t) fullShare ((datL3 V c).before 2 t d))
    ∗ (∃ d, owns (c : Thread nD τ) (msL3_3 t) fullShare ((datL3 V c).before 3 t d))
    ∗ (∃ d, owns (c : Thread nD τ) (msL3_4 t) fullShare ((datL3 V c).before 4 t d))
    ∗ (∃ d, owns (c : Thread nD τ) (msL3_5 t) fullShare ((datL3 V c).before 5 t d))
    ∗ (∃ d, owns (c : Thread nD τ) (msL3_6 t) fullShare ((datL3 V c).before 6 t d))
    ∗ (∃ d, owns (c : Thread nD τ) (msL3_7 t) fullShare ((datL3 V c).before 7 t d))
    ∗ (∃ d, owns (c : Thread nD τ) (msL3_8 t) fullShare ((datL3 V c).before 8 t d))
    ∗ (∃ d, owns (c : Thread nD τ) (msL3_9 t) fullShare ((datL3 V c).before 9 t d))
    ∗ (∃ d, owns (c : Thread nD τ) (msL3_10 t) fullShare ((datL3 V c).before 10 t d))
    ∗ (∃ d, owns (c : Thread nD τ) (msL3_11 t) fullShare ((datL3 V c).before 11 t d))
    ∗ (∃ d, owns (c : Thread nD τ) (msL3_12 t) fullShare ((datL3 V c).before 12 t d))
    ∗ (∃ d, owns (c : Thread nD τ) (msL3_13 t) fullShare ((datL3 V c).before 13 t d))
    ∗ (∃ d, owns (c : Thread nD τ) (msL3_14 t) fullShare ((datL3 V c).before 14 t d))
    ∗ (∃ d, owns (c : Thread nD τ) (msL3_15 t) fullShare ((datL3 V c).before 15 t d))
    ∗ (∃ d, owns (c : Thread nD τ) (msL3_16 t) fullShare ((datL3 V c).before 16 t d)))

/-- and what it returns. -/
def bodyPostL3 (V : (c : Dev nD) → (b : Ref sig .tc) → Buf (Elt F) ((c : Thread nD τ).loc b)) (c : Dev nD) (t : Fin cfg3.N) : sProp 𝕄 :=
  iprop((datL3 V c).Φ t.succ ∗ (datL3 V c).owesAt () t.succ
    ∗ owns (c : Thread nD τ) (msL3_0 t) fullShare ((datL3 V c).after 0 t)
    ∗ owns (c : Thread nD τ) (msL3_1 t) fullShare ((datL3 V c).after 1 t)
    ∗ owns (c : Thread nD τ) (msL3_2 t) fullShare ((datL3 V c).after 2 t)
    ∗ owns (c : Thread nD τ) (msL3_3 t) fullShare ((datL3 V c).after 3 t)
    ∗ owns (c : Thread nD τ) (msL3_4 t) fullShare ((datL3 V c).after 4 t)
    ∗ owns (c : Thread nD τ) (msL3_5 t) fullShare ((datL3 V c).after 5 t)
    ∗ owns (c : Thread nD τ) (msL3_6 t) fullShare ((datL3 V c).after 6 t)
    ∗ owns (c : Thread nD τ) (msL3_7 t) fullShare ((datL3 V c).after 7 t)
    ∗ owns (c : Thread nD τ) (msL3_8 t) fullShare ((datL3 V c).after 8 t)
    ∗ owns (c : Thread nD τ) (msL3_9 t) fullShare ((datL3 V c).after 9 t)
    ∗ owns (c : Thread nD τ) (msL3_10 t) fullShare ((datL3 V c).after 10 t)
    ∗ owns (c : Thread nD τ) (msL3_11 t) fullShare ((datL3 V c).after 11 t)
    ∗ owns (c : Thread nD τ) (msL3_12 t) fullShare ((datL3 V c).after 12 t)
    ∗ owns (c : Thread nD τ) (msL3_13 t) fullShare ((datL3 V c).after 13 t)
    ∗ owns (c : Thread nD τ) (msL3_14 t) fullShare ((datL3 V c).after 14 t)
    ∗ owns (c : Thread nD τ) (msL3_15 t) fullShare ((datL3 V c).after 15 t)
    ∗ owns (c : Thread nD τ) (msL3_16 t) fullShare ((datL3 V c).after 16 t))

set_option maxHeartbeats 4000000 in
/-- The body at any point: the inputs' memrefs hold their blocks; the point is the first or a later one, and at a later
    one the pool's buffer holds what the point before left; so the body's run applies; the invariant passes through
    unread; the core owes nothing throughout. -/
theorem sound_bodyL3 (V : (c : Dev nD) → (b : Ref sig .tc) → Buf (Elt F) ((c : Thread nD τ).loc b)) (c : Dev nD) (t : Fin cfg3.N) :
    bodyPreL3 V c t ⊢ wp frame (wpE (defs₀ (F := F)) Variants.none c none) Set.univ (bodyAt3 t) (fun _ => bodyPostL3 V c t) := by
  unfold bodyPreL3 bodyPostL3 bodyAt3
  simp only [beforeL3_0, beforeL3_1, beforeL3_2, beforeL3_3, beforeL3_4, beforeL3_5, beforeL3_6, beforeL3_7, beforeL3_8, beforeL3_9, beforeL3_10, beforeL3_11, beforeL3_12, beforeL3_13, beforeL3_14]
  rw [show (datL3 V c).Φ t.succ = (datL3 V c).Φ t.castSucc from rfl,
    show (datL3 V c).owesAt () t.succ = (datL3 V c).owesAt () t.castSucc from rfl,
    after0_L3, after1_L3, after2_L3, after3_L3, after4_L3, after5_L3, after6_L3, after7_L3, after8_L3, after9_L3, after10_L3, after11_L3, after12_L3, after13_L3, after14_L3, after15_L3, after16_L3]
  have hN : t.val < 50 := lt_of_lt_of_eq t.isLt (show cfg3.N = 50 from N_3)
  by_cases h0 : t.val % 50 = 0
  · rw [hOutL3_A V c t h0, poolAtL3_A V c t h0]
    unfold outL3_A_15 outL3_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL3_A c (grid3.coords t) _ _ _ _ _ _ _ _ _ _ _ _ _ _ _ _ _ _ _ _ _ _ _ _ _ _ _ _ _ _ _ _ _ _ ((hcondL3_0 t).mpr h0) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL3_A_15 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL3_A_16 c _ _ _ _ _ _ _ _ _ _ _ _ _ _ _ _ _ _ _ _ _ _ _ _ _ _ _ _ _ _ _ _ _ _ _ _ _ _ _ _ _ _ _ _ _ _ _ _ _ _ _)
  · rw [hOutL3_B V c t h0, poolAtL3_B V c t h0]
    simp only [beforeL3_16_B V c t h0]
    unfold outL3_B_15 outL3_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRunL3_B c (grid3.coords t) _ _ _ _ _ _ _ _ _ _ _ _ _ _ _ _ _ _ _ _ _ _ _ _ _ _ _ _ _ _ _ _ _ _ (fun h => h0 ((hcondL3_0 t).mp h)) (iblkL3 V c 0 t) (iblkL3 V c 1 t) (iblkL3 V c 2 t) (iblkL3 V c 3 t) (iblkL3 V c 4 t) (iblkL3 V c 5 t) (iblkL3 V c 6 t) (iblkL3 V c 7 t) (iblkL3 V c 8 t) (iblkL3 V c 9 t) (iblkL3 V c 10 t) (iblkL3 V c 11 t) (iblkL3 V c 12 t) (iblkL3 V c 13 t) (iblkL3 V c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverL3_B_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (coverL3_B_16 c _ _ _ _ _ _ _ _ _ _ _ _ _ _ _ _ _ _ _ _ _ _ _ _ _ _ _ _ _ _ _ _ _ _ _ _ _ _ _ _ _ _ _ _ _ _ _ _ _ _ _ _)

/-- The body meets the pipeline's obligation at every point. -/
theorem body_obligationL3 (V : (c : Dev nD) → (b : Ref sig .tc) → Buf (Elt F) ((c : Thread nD τ).loc b)) (c : Dev nD) : BodyObligation (datL3 (F := F) V c) (defs₀ (F := F)) Variants.none () Set.univ := fun t => by
  rw [bigSep_W3, bigSep_W3]
  exact sound_bodyL3 V c t

end Cert.KernelIdeal.Hand

end
-- ==== Proof.KI.C4Dat.lean ====
/-
  The classifier region: one grid point, five input windows (the pooled features, two weight matrices, two biases)
  and one output window holding the scores the body stores.
  `V` is the TensorCore's buffer contents when the region is entered.
-/
import proofs.«426741_j36421322670671_1_alg».proof.Proof.Gen.KernelIdeal.Launch
import proofs.«426741_j36421322670671_1_alg».proof.Proof.Gen.KernelIdeal.Skeleton
import proofs.«426741_j36421322670671_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it. -/
def iblkC4 (V : (c : Dev nD) → (b : Ref sig .tc) → Buf (Elt F) ((c : Thread nD τ).loc b)) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at the point, for any proof data whose array is the
    entry contents and whose body leaves the block in place: the window is uncut and never idle. -/
theorem beforeC4_0_of (V : (c : Dev nD) → (b : Ref sig .tc) → Buf (Elt F) ((c : Thread nD τ).loc b)) {c : Dev nD} (dat : Dat τ (Elt F) Unit ℕ (UR sig nD τ) ℕ cfg4 c) (hA : dat.A 0 = V c (Pipeline.arrRef spec4 0))
    (hafter : ∀ t, dat.after 0 t = iblkC4 V c 0 t) (t : Fin cfg4.N) (d) : dat.before 0 t d = iblkC4 V c 0 t :=
  (dat.before_in_eq_fetched 0 rfl (fun _ => rfl) (fun _ _ _ => rfl) (fun t => by rw [hafter]; unfold Dat.blockOf iblkC4; rw [hA]; try rfl) t d).trans
    (by unfold Dat.fetched Dat.blockOf iblkC4; rw [hA]; try rfl)

/-- Input window 1's current staging buffer holds its block at the point, for any proof data whose array is the
    entry contents and whose body leaves the block in place: the window is uncut and never idle. -/
theorem beforeC4_1_of (V : (c : Dev nD) → (b : Ref sig .tc) → Buf (Elt F) ((c : Thread nD τ).loc b)) {c : Dev nD} (dat : Dat τ (Elt F) Unit ℕ (UR sig nD τ) ℕ cfg4 c) (hA : dat.A 1 = V c (Pipeline.arrRef spec4 1))
    (hafter : ∀ t, dat.after 1 t = iblkC4 V c 1 t) (t : Fin cfg4.N) (d) : dat.before 1 t d = iblkC4 V c 1 t :=
  (dat.before_in_eq_fetched 1 rfl (fun _ => rfl) (fun _ _ _ => rfl) (fun t => by rw [hafter]; unfold Dat.blockOf iblkC4; rw [hA]; try rfl) t d).trans
    (by unfold Dat.fetched Dat.blockOf iblkC4; rw [hA]; try rfl)

/-- Input window 2's current staging buffer holds its block at the point, for any proof data whose array is the
    entry contents and whose body leaves the block in place: the window is uncut and never idle. -/
theorem beforeC4_2_of (V : (c : Dev nD) → (b : Ref sig .tc) → Buf (Elt F) ((c : Thread nD τ).loc b)) {c : Dev nD} (dat : Dat τ (Elt F) Unit ℕ (UR sig nD τ) ℕ cfg4 c) (hA : dat.A 2 = V c (Pipeline.arrRef spec4 2))
    (hafter : ∀ t, dat.after 2 t = iblkC4 V c 2 t) (t : Fin cfg4.N) (d) : dat.before 2 t d = iblkC4 V c 2 t :=
  (dat.before_in_eq_fetched 2 rfl (fun _ => rfl) (fun _ _ _ => rfl) (fun t => by rw [hafter]; unfold Dat.blockOf iblkC4; rw [hA]; try rfl) t d).trans
    (by unfold Dat.fetched Dat.blockOf iblkC4; rw [hA]; try rfl)

/-- Input window 3's current staging buffer holds its block at the point, for any proof data whose array is the
    entry contents and whose body leaves the block in place: the window is uncut and never idle. -/
theorem beforeC4_3_of (V : (c : Dev nD) → (b : Ref sig .tc) → Buf (Elt F) ((c : Thread nD τ).loc b)) {c : Dev nD} (dat : Dat τ (Elt F) Unit ℕ (UR sig nD τ) ℕ cfg4 c) (hA : dat.A 3 = V c (Pipeline.arrRef spec4 3))
    (hafter : ∀ t, dat.after 3 t = iblkC4 V c 3 t) (t : Fin cfg4.N) (d) : dat.before 3 t d = iblkC4 V c 3 t :=
  (dat.before_in_eq_fetched 3 rfl (fun _ => rfl) (fun _ _ _ => rfl) (fun t => by rw [hafter]; unfold Dat.blockOf iblkC4; rw [hA]; try rfl) t d).trans
    (by unfold Dat.fetched Dat.blockOf iblkC4; rw [hA]; try rfl)

/-- Input window 4's current staging buffer holds its block at the point, for any proof data whose array is the
    entry contents and whose body leaves the block in place: the window is uncut and never idle. -/
theorem beforeC4_4_of (V : (c : Dev nD) → (b : Ref sig .tc) → Buf (Elt F) ((c : Thread nD τ).loc b)) {c : Dev nD} (dat : Dat τ (Elt F) Unit ℕ (UR sig nD τ) ℕ cfg4 c) (hA : dat.A 4 = V c (Pipeline.arrRef spec4 4))
    (hafter : ∀ t, dat.after 4 t = iblkC4 V c 4 t) (t : Fin cfg4.N) (d) : dat.before 4 t d = iblkC4 V c 4 t :=
  (dat.before_in_eq_fetched 4 rfl (fun _ => rfl) (fun _ _ _ => rfl) (fun t => by rw [hafter]; unfold Dat.blockOf iblkC4; rw [hA]; try rfl) t d).trans
    (by unfold Dat.fetched Dat.blockOf iblkC4; rw [hA]; try rfl)

/-! ## The body's accesses: every one through the whole of its buffer -/

abbrev rFeat : Rect S512x512 := Rect.unit (s := S512x512) ![0, 0] S512x512.size inb_S512x512_S512x512_0_0
abbrev rW1 : Rect S512x128 := Rect.unit (s := S512x128) ![0, 0] S512x128.size inb_S512x128_S512x128_0_0
abbrev rB1 : Rect S128 := Rect.unit (s := S128) ![0] S128.size inb_S128_S128_0
abbrev rW2 : Rect S128x10 := Rect.unit (s := S128x10) ![0, 0] S128x10.size inb_S128x10_S128x10_0_0
abbrev rB2 : Rect S10 := Rect.unit (s := S10) ![0] S10.size inb_S10_S10_0
abbrev rScores : Rect S512x10 := Rect.unit (s := S512x10) ![0, 0] S512x10.size inb_S512x10_S512x10_0_0

/-! ## What the body leaves in the output window's buffer -/

/-- The output's staging buffer after the body, from the five inputs' buffers: its one store as a piece. -/
def scoresOf (x0 : Vec F S512x512 .f32) (x1 : Vec F S512x128 .f32) (x2 : Vec F S128 .f32) (x3 : Vec F S128x10 .f32) (x4 : Vec F S10 .f32) : Vec F S512x10 .f32 :=
  View.canon [⟨rScores, k4_pay1 (View.ld x0 rFeat) (View.ld x1 rW1) (View.ld x2 rB1) (View.ld x3 rW2) (View.ld x4 rB2)⟩]

/-- The store covers the buffer. -/
theorem cover_scores (p0 : Vec F S512x10 .f32) (y : S512x10.Idx) :
    ∃ pc ∈ ([⟨rScores, p0⟩] : List (View.Piece (Elt F) S512x10 .f32)), y ∈ pc.1.set :=
  View.cover_of_tiled [⟨rScores, p0⟩] S512x10.size (by rfl) y

/-- Read through whole buffers, the one store leaves the payload of the inputs' contents. -/
theorem scoresOf_eq (x0 : Vec F S512x512 .f32) (x1 : Vec F S512x128 .f32) (x2 : Vec F S128 .f32) (x3 : Vec F S128x10 .f32) (x4 : Vec F S10 .f32) :
    scoresOf x0 x1 x2 x3 x4 = k4_pay1 x0 x1 x2 x3 x4 := by
  have hz2 : (![0, 0] : Fin 2 → ℕ) = fun _ => 0 := by funext a; fin_cases a <;> rfl
  have hz1 : (![0] : Fin 1 → ℕ) = fun _ => 0 := by funext a; fin_cases a; rfl
  unfold scoresOf
  rw [View.canon_unit_zero (S := S512x10) hz2]
  rw [View.ld_unit_zero (S := S512x512) hz2, View.ld_unit_zero (S := S512x128) hz2, View.ld_unit_zero (S := S128) hz1,
    View.ld_unit_zero (S := S128x10) hz2, View.ld_unit_zero (S := S10) hz1]

/-! ## The body's triple -/

set_option maxHeartbeats 1000000 in
/-- The body on whole staging memrefs, the inputs' at contents `xW` and the output's at anything, runs to the
    continuation holding the inputs' as they were and the output's at `scoresOf` of the inputs'. -/
theorem sound_kernelC4 (c : Dev nD) (E : Set ℕ) (i : grid4.Coords)
    (arg1 : Memref sig .tc .vmem S512x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S128x10 .f32) (harg4 : arg4.IsWhole)
    (arg5 : Memref sig .tc .vmem S10 .f32) (harg5 : arg5.IsWhole) (arg6 : Memref sig .tc .vmem S512x10 .f32) (harg6 : arg6.IsWhole)
    (x0 : Vec F S512x512 .f32) (x1 : Vec F S512x128 .f32) (x2 : Vec F S128 .f32) (x3 : Vec F S128x10 .f32) (x4 : Vec F S10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (scoresOf x0 x1 x2 x3 x4)) -∗ K ⟨⟩))
      ⊢ wp frame (wpE (defs₀ (F := F)) Variants.none c none) E (cc4__classifier_kernel i arg1 harg1 arg2 harg2 arg3 harg3 arg4 harg4 arg5 harg5 arg6 harg6) K := by
  simp only [cc4__classifier_kernel_eq_skeleton]; unfold cc4__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_scores _)

/-! ## The pipeline's proof data -/

/-- What the body leaves in window 5's staging buffer: the scores. -/
def scoresC4 (V : (c : Dev nD) → (b : Ref sig .tc) → Buf (Elt F) ((c : Thread nD τ).loc b)) (c : Dev nD) (t : Fin cfg4.N) : Vec F S512x10 .f32 :=
  scoresOf (iblkC4 V c 0 t) (iblkC4 V c 1 t) (iblkC4 V c 2 t) (iblkC4 V c 3 t) (iblkC4 V c 4 t)

/-- The scores are the body's payload of the five input blocks. -/
theorem scoresC4_eq (V : (c : Dev nD) → (b : Ref sig .tc) → Buf (Elt F) ((c : Thread nD τ).loc b)) (c : Dev nD) (t : Fin cfg4.N) :
    scoresC4 V c t = k4_pay1 (iblkC4 V c 0 t) (iblkC4 V c 1 t) (iblkC4 V c 2 t) (iblkC4 V c 3 t) (iblkC4 V c 4 t) :=
  scoresOf_eq (iblkC4 V c 0 t) (iblkC4 V c 1 t) (iblkC4 V c 2 t) (iblkC4 V c 3 t) (iblkC4 V c 4 t)

/-- The proof data of the classifier's pipeline on core `c`. -/
def datC4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblkC4 V c 0 t
    | ⟨1, _⟩ => iblkC4 V c 1 t
    | ⟨2, _⟩ => iblkC4 V c 2 t
    | ⟨3, _⟩ => iblkC4 V c 3 t
    | ⟨4, _⟩ => iblkC4 V c 4 t
    | ⟨5, _⟩ => scoresC4 V c t
  Φ _ := Pipeline.ΦA spec4 c
  q _ := fullShare
  owed _ := 0

/-- The proof data's arrays are the region-entry contents. -/
theorem A_eqC4 (V : (c : Dev nD) → (b : Ref sig .tc) → Buf (Elt F) ((c : Thread nD τ).loc b)) (c : Dev nD) (w : Fin cfg4.W) : (datC4 V c).A w = V c (Pipeline.arrRef spec4 w) := by
  dsimp only [datC4]

theorem after0_C4 (V : (c : Dev nD) → (b : Ref sig .tc) → Buf (Elt F) ((c : Thread nD τ).loc b)) (c : Dev nD) (t : Fin cfg4.N) : (datC4 V c).after 0 t = iblkC4 V c 0 t := by dsimp only [datC4]
theorem after1_C4 (V : (c : Dev nD) → (b : Ref sig .tc) → Buf (Elt F) ((c : Thread nD τ).loc b)) (c : Dev nD) (t : Fin cfg4.N) : (datC4 V c).after 1 t = iblkC4 V c 1 t := by dsimp only [datC4]
theorem after2_C4 (V : (c : Dev nD) → (b : Ref sig .tc) → Buf (Elt F) ((c : Thread nD τ).loc b)) (c : Dev nD) (t : Fin cfg4.N) : (datC4 V c).after 2 t = iblkC4 V c 2 t := by dsimp only [datC4]
theorem after3_C4 (V : (c : Dev nD) → (b : Ref sig .tc) → Buf (Elt F) ((c : Thread nD τ).loc b)) (c : Dev nD) (t : Fin cfg4.N) : (datC4 V c).after 3 t = iblkC4 V c 3 t := by dsimp only [datC4]
theorem after4_C4 (V : (c : Dev nD) → (b : Ref sig .tc) → Buf (Elt F) ((c : Thread nD τ).loc b)) (c : Dev nD) (t : Fin cfg4.N) : (datC4 V c).after 4 t = iblkC4 V c 4 t := by dsimp only [datC4]
theorem after5_C4 (V : (c : Dev nD) → (b : Ref sig .tc) → Buf (Elt F) ((c : Thread nD τ).loc b)) (c : Dev nD) (t : Fin cfg4.N) : (datC4 V c).after 5 t = scoresC4 V c t := by dsimp only [datC4]

/-- Each input's current staging buffer holds its block at the point. -/
theorem beforeC4_0 (V : (c : Dev nD) → (b : Ref sig .tc) → Buf (Elt F) ((c : Thread nD τ).loc b)) (c : Dev nD) (t : Fin cfg4.N) (d) : (datC4 V c).before 0 t d = iblkC4 V c 0 t :=
  beforeC4_0_of V (datC4 V c) (A_eqC4 V c 0) (after0_C4 V c) t d
theorem beforeC4_1 (V : (c : Dev nD) → (b : Ref sig .tc) → Buf (Elt F) ((c : Thread nD τ).loc b)) (c : Dev nD) (t : Fin cfg4.N) (d) : (datC4 V c).before 1 t d = iblkC4 V c 1 t :=
  beforeC4_1_of V (datC4 V c) (A_eqC4 V c 1) (after1_C4 V c) t d
theorem beforeC4_2 (V : (c : Dev nD) → (b : Ref sig .tc) → Buf (Elt F) ((c : Thread nD τ).loc b)) (c : Dev nD) (t : Fin cfg4.N) (d) : (datC4 V c).before 2 t d = iblkC4 V c 2 t :=
  beforeC4_2_of V (datC4 V c) (A_eqC4 V c 2) (after2_C4 V c) t d
theorem beforeC4_3 (V : (c : Dev nD) → (b : Ref sig .tc) → Buf (Elt F) ((c : Thread nD τ).loc b)) (c : Dev nD) (t : Fin cfg4.N) (d) : (datC4 V c).before 3 t d = iblkC4 V c 3 t :=
  beforeC4_3_of V (datC4 V c) (A_eqC4 V c 3) (after3_C4 V c) t d
theorem beforeC4_4 (V : (c : Dev nD) → (b : Ref sig .tc) → Buf (Elt F) ((c : Thread nD τ).loc b)) (c : Dev nD) (t : Fin cfg4.N) (d) : (datC4 V c).before 4 t d = iblkC4 V c 4 t :=
  beforeC4_4_of V (datC4 V c) (A_eqC4 V c 4) (after4_C4 V c) t d

/-! ## The body obligation -/

/-- What the body is called with at point `t`, the windows one by one, -/
def bodyPreC4 (V : (c : Dev nD) → (b : Ref sig .tc) → Buf (Elt F) ((c : Thread nD τ).loc b)) (c : Dev nD) (t : Fin cfg4.N) : sProp 𝕄 :=
  iprop((datC4 V c).Φ t.castSucc ∗ (datC4 V c).owesAt () t.castSucc
    ∗ (∃ d, owns (c : Thread nD τ) (st4_0 t) fullShare ((datC4 V c).before 0 t d))
    ∗ (∃ d, owns (c : Thread nD τ) (st4_1 t) fullShare ((datC4 V c).before 1 t d))
    ∗ (∃ d, owns (c : Thread nD τ) (st4_2 t) fullShare ((datC4 V c).before 2 t d))
    ∗ (∃ d, owns (c : Thread nD τ) (st4_3 t) fullShare ((datC4 V c).before 3 t d))
    ∗ (∃ d, owns (c : Thread nD τ) (st4_4 t) fullShare ((datC4 V c).before 4 t d))
    ∗ (∃ d, owns (c : Thread nD τ) (st4_5 t) fullShare ((datC4 V c).before 5 t d)))

/-- and what it returns. -/
def bodyPostC4 (V : (c : Dev nD) → (b : Ref sig .tc) → Buf (Elt F) ((c : Thread nD τ).loc b)) (c : Dev nD) (t : Fin cfg4.N) : sProp 𝕄 :=
  iprop((datC4 V c).Φ t.succ ∗ (datC4 V c).owesAt () t.succ
    ∗ owns (c : Thread nD τ) (st4_0 t) fullShare ((datC4 V c).after 0 t)
    ∗ owns (c : Thread nD τ) (st4_1 t) fullShare ((datC4 V c).after 1 t)
    ∗ owns (c : Thread nD τ) (st4_2 t) fullShare ((datC4 V c).after 2 t)
    ∗ owns (c : Thread nD τ) (st4_3 t) fullShare ((datC4 V c).after 3 t)
    ∗ owns (c : Thread nD τ) (st4_4 t) fullShare ((datC4 V c).after 4 t)
    ∗ owns (c : Thread nD τ) (st4_5 t) fullShare ((datC4 V c).after 5 t))

/-- The body at the point: the inputs' memrefs hold their blocks, so the body's triple applies; the invariant and
    the core's debts pass through unread. -/
theorem sound_bodyC4 (V : (c : Dev nD) → (b : Ref sig .tc) → Buf (Elt F) ((c : Thread nD τ).loc b)) (c : Dev nD) (t : Fin cfg4.N) :
    bodyPreC4 V c t ⊢ wp frame (wpE (defs₀ (F := F)) Variants.none c none) Set.univ (bodyAt4 t) (fun _ => bodyPostC4 V c t) := by
  unfold bodyPreC4 bodyPostC4 bodyAt4
  simp only [beforeC4_0, beforeC4_1, beforeC4_2, beforeC4_3, beforeC4_4]
  rw [show (datC4 V c).Φ t.succ = (datC4 V c).Φ t.castSucc from rfl,
    show (datC4 V c).owesAt () t.succ = (datC4 V c).owesAt () t.castSucc from rfl,
    after0_C4, after1_C4, after2_C4, after3_C4, after4_C4, after5_C4]
  iintro ⟨HΦ, Ho, ⟨%d0, H0⟩, ⟨%d1, H1⟩, ⟨%d2, H2⟩, ⟨%d3, H3⟩, ⟨%d4, H4⟩, ⟨%d5, H5⟩⟩
  iapply (sound_kernelC4 c Set.univ _ _ _ _ _ _ _ _ _ _ _ _ _ (iblkC4 V c 0 t) (iblkC4 V c 1 t) (iblkC4 V c 2 t) (iblkC4 V c 3 t) (iblkC4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets the pipeline's obligation at every point. -/
theorem body_obligationC4 (V : (c : Dev nD) → (b : Ref sig .tc) → Buf (Elt F) ((c : Thread nD τ).loc b)) (c : Dev nD) : BodyObligation (datC4 (F := F) V c) (defs₀ (F := F)) Variants.none () Set.univ := fun t => by
  rw [bigSep_W4, bigSep_W4]
  exact sound_bodyC4 V c t

end Cert.KernelIdeal.Hand

end
-- ==== Proof.KI.Chain.lean ====
/-
  The run of @main as a chain of buffer contents: what each of the five kernel regions finds in the TensorCore's
  unscoped buffers and what it leaves there, the proof data of every pipeline at its region's entry contents, and each
  region as a segment entered from the contents before it and left at the contents after it.
-/
import proofs.«426741_j36421322670671_1_alg».proof.Proof.Gen.KernelIdeal.Launch
import proofs.«426741_j36421322670671_1_alg».proof.Proof.Gen.KernelIdeal.Skeleton
import proofs.«426741_j36421322670671_1_alg».proof.Proof.Gen.KernelIdeal.Points
import proofs.«426741_j36421322670671_1_alg».proof.Proof.Gen.KernelIdeal.Regions
import proofs.«426741_j36421322670671_1_alg».proof.Proof.KI.L0Dat
import proofs.«426741_j36421322670671_1_alg».proof.Proof.KI.L1Dat
import proofs.«426741_j36421322670671_1_alg».proof.Proof.KI.L2Dat
import proofs.«426741_j36421322670671_1_alg».proof.Proof.KI.L3Dat
import proofs.«426741_j36421322670671_1_alg».proof.Proof.KI.C4Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents from region to region

Each layer region changes two arrays (the tile-by-tile new node features and the pool), the classifier one (the
scores); a host stretch between two regions changes what its operations write. The contents are defined region by
region, each region's proof data read at the contents the region is entered from. -/

/-- What region 0 (layer 0) finds: the launch contents after the first host stretch. -/
abbrev entry1 : (c : Dev nD) → (b : Ref sig .tc) → Buf (Elt F) ((c : Thread nD τ).loc b) := fun c b => Gen.V1 m c b

/-- What region 0 leaves: its two output arrays at what the pipeline's write-backs leave, every other buffer as found. -/
def exitL0 (c : Dev nD) : Valuation τ sig (Elt F) :=
  Function.update (Function.update (Gen.V1 m c) main_v39_0 ((datL0 (entry1 m) c).arrAt 15 cfg0.N)) main_v39_1 ((datL0 (entry1 m) c).arrAt 16 cfg0.N)
/-- What region 1 (layer 1) finds: region 0's exit contents after the host stretch between them. -/
def entL1 (c : Dev nD) : Valuation τ sig (Elt F) := StableHlo.after hostOps1 (exitL0 m c)
/-- What region 1 leaves: its two output arrays at what the pipeline's write-backs leave, every other buffer as found. -/
def exitL1 (c : Dev nD) : Valuation τ sig (Elt F) :=
  Function.update (Function.update (entL1 m c) main_v74_0 ((datL1 (fun c b => entL1 m c b) c).arrAt 15 cfg1.N)) main_v74_1 ((datL1 (fun c b => entL1 m c b) c).arrAt 16 cfg1.N)
/-- What region 2 (layer 2) finds: region 1's exit contents after the host stretch between them. -/
def entL2 (c : Dev nD) : Valuation τ sig (Elt F) := StableHlo.after hostOps2 (exitL1 m c)
/-- What region 2 leaves: its two output arrays at what the pipeline's write-backs leave, every other buffer as found. -/
def exitL2 (c : Dev nD) : Valuation τ sig (Elt F) :=
  Function.update (Function.update (entL2 m c) main_v109_0 ((datL2 (fun c b => entL2 m c b) c).arrAt 15 cfg2.N)) main_v109_1 ((datL2 (fun c b => entL2 m c b) c).arrAt 16 cfg2.N)
/-- What region 3 (layer 3) finds: region 2's exit contents after the host stretch between them. -/
def entL3 (c : Dev nD) : Valuation τ sig (Elt F) := StableHlo.after hostOps3 (exitL2 m c)
/-- What region 3 leaves: its two output arrays at what the pipeline's write-backs leave, every other buffer as found. -/
def exitL3 (c : Dev nD) : Valuation τ sig (Elt F) :=
  Function.update (Function.update (entL3 m c) main_v144_0 ((datL3 (fun c b => entL3 m c b) c).arrAt 15 cfg3.N)) main_v144_1 ((datL3 (fun c b => entL3 m c b) c).arrAt 16 cfg3.N)
/-- What region 4 (the classifier) finds: region 3's exit contents after the last host stretch. -/
def entC4 (c : Dev nD) : Valuation τ sig (Elt F) := StableHlo.after hostOps4 (exitL3 m c)
/-- What region 4 leaves: the scores' array at what the pipeline's write-back leaves, every other buffer as found. -/
def exitC4 (c : Dev nD) : Valuation τ sig (Elt F) :=
  Function.update (entC4 m c) main_v146 ((datC4 (fun c b => entC4 m c b) c).arrAt 5 cfg4.N)

/-- What each region leaves in the buffers: after item 1 region 0's exit contents, after item 3 region 1's, after
    item 5 region 2's, after item 7 region 3's, after item 9 the classifier's. -/
def outsAll : Gen.Outs (F := F) := fun J r c =>
  match J with
  | 2 => exitL0 m c r
  | 4 => exitL1 m c r
  | 6 => exitL2 m c r
  | 8 => exitL3 m c r
  | _ => exitC4 m c r

/-! ### The contents between the items, over what the regions leave, are the chain above -/

theorem exitL0_at0 (c : Dev nD) : exitL0 m c main_v39_0 = (datL0 (entry1 m) c).arrAt 15 cfg0.N := by
  unfold exitL0
  rw [Function.update_of_ne (StableHlo.devRef_ne_of_ne (by decide)), Function.update_self]
theorem exitL0_at1 (c : Dev nD) : exitL0 m c main_v39_1 = (datL0 (entry1 m) c).arrAt 16 cfg0.N := by
  unfold exitL0
  rw [Function.update_self]
theorem V2_outsAll (c : Dev nD) : Gen.V2 m (outsAll m) c = exitL0 m c := by
  show Function.update (Function.update (Gen.V1 m c) main_v39_0 (exitL0 m c main_v39_0)) main_v39_1 (exitL0 m c main_v39_1) = exitL0 m c
  rw [exitL0_at0, exitL0_at1]; rfl

theorem V3_outsAll (c : Dev nD) : Gen.V3 m (outsAll m) c = entL1 m c := by
  show StableHlo.after hostOps1 (Gen.V2 m (outsAll m) c) = entL1 m c
  rw [V2_outsAll]; rfl
/-- What region 1 finds, over what the regions leave. -/
abbrev entry3 : (c : Dev nD) → (b : Ref sig .tc) → Buf (Elt F) ((c : Thread nD τ).loc b) := fun c b => Gen.V3 m (outsAll m) c b
theorem entry3_eq : (fun (c : Dev nD) (b : Ref sig .tc) => entL1 m c b) = entry3 m := by
  funext c b; show entL1 m c b = Gen.V3 m (outsAll m) c b; rw [V3_outsAll]
theorem exitL1_at0 (c : Dev nD) : exitL1 m c main_v74_0 = (datL1 (fun c b => entL1 m c b) c).arrAt 15 cfg1.N := by
  unfold exitL1
  rw [Function.update_of_ne (StableHlo.devRef_ne_of_ne (by decide)), Function.update_self]
theorem exitL1_at1 (c : Dev nD) : exitL1 m c main_v74_1 = (datL1 (fun c b => entL1 m c b) c).arrAt 16 cfg1.N := by
  unfold exitL1
  rw [Function.update_self]
theorem V4_outsAll (c : Dev nD) : Gen.V4 m (outsAll m) c = exitL1 m c := by
  show Function.update (Function.update (Gen.V3 m (outsAll m) c) main_v74_0 (exitL1 m c main_v74_0)) main_v74_1 (exitL1 m c main_v74_1) = exitL1 m c
  rw [V3_outsAll, exitL1_at0, exitL1_at1]; rfl

theorem V5_outsAll (c : Dev nD) : Gen.V5 m (outsAll m) c = entL2 m c := by
  show StableHlo.after hostOps2 (Gen.V4 m (outsAll m) c) = entL2 m c
  rw [V4_outsAll]; rfl
/-- What region 2 finds, over what the regions leave. -/
abbrev entry5 : (c : Dev nD) → (b : Ref sig .tc) → Buf (Elt F) ((c : Thread nD τ).loc b) := fun c b => Gen.V5 m (outsAll m) c b
theorem entry5_eq : (fun (c : Dev nD) (b : Ref sig .tc) => entL2 m c b) = entry5 m := by
  funext c b; show entL2 m c b = Gen.V5 m (outsAll m) c b; rw [V5_outsAll]
theorem exitL2_at0 (c : Dev nD) : exitL2 m c main_v109_0 = (datL2 (fun c b => entL2 m c b) c).arrAt 15 cfg2.N := by
  unfold exitL2
  rw [Function.update_of_ne (StableHlo.devRef_ne_of_ne (by decide)), Function.update_self]
theorem exitL2_at1 (c : Dev nD) : exitL2 m c main_v109_1 = (datL2 (fun c b => entL2 m c b) c).arrAt 16 cfg2.N := by
  unfold exitL2
  rw [Function.update_self]
theorem V6_outsAll (c : Dev nD) : Gen.V6 m (outsAll m) c = exitL2 m c := by
  show Function.update (Function.update (Gen.V5 m (outsAll m) c) main_v109_0 (exitL2 m c main_v109_0)) main_v109_1 (exitL2 m c main_v109_1) = exitL2 m c
  rw [V5_outsAll, exitL2_at0, exitL2_at1]; rfl

theorem V7_outsAll (c : Dev nD) : Gen.V7 m (outsAll m) c = entL3 m c := by
  show StableHlo.after hostOps3 (Gen.V6 m (outsAll m) c) = entL3 m c
  rw [V6_outsAll]; rfl
/-- What region 3 finds, over what the regions leave. -/
abbrev entry7 : (c : Dev nD) → (b : Ref sig .tc) → Buf (Elt F) ((c : Thread nD τ).loc b) := fun c b => Gen.V7 m (outsAll m) c b
theorem entry7_eq : (fun (c : Dev nD) (b : Ref sig .tc) => entL3 m c b) = entry7 m := by
  funext c b; show entL3 m c b = Gen.V7 m (outsAll m) c b; rw [V7_outsAll]
theorem exitL3_at0 (c : Dev nD) : exitL3 m c main_v144_0 = (datL3 (fun c b => entL3 m c b) c).arrAt 15 cfg3.N := by
  unfold exitL3
  rw [Function.update_of_ne (StableHlo.devRef_ne_of_ne (by decide)), Function.update_self]
theorem exitL3_at1 (c : Dev nD) : exitL3 m c main_v144_1 = (datL3 (fun c b => entL3 m c b) c).arrAt 16 cfg3.N := by
  unfold exitL3
  rw [Function.update_self]
theorem V8_outsAll (c : Dev nD) : Gen.V8 m (outsAll m) c = exitL3 m c := by
  show Function.update (Function.update (Gen.V7 m (outsAll m) c) main_v144_0 (exitL3 m c main_v144_0)) main_v144_1 (exitL3 m c main_v144_1) = exitL3 m c
  rw [V7_outsAll, exitL3_at0, exitL3_at1]; rfl

theorem V9_outsAll (c : Dev nD) : Gen.V9 m (outsAll m) c = entC4 m c := by
  show StableHlo.after hostOps4 (Gen.V8 m (outsAll m) c) = entC4 m c
  rw [V8_outsAll]; rfl
/-- What region 4 finds, over what the regions leave. -/
abbrev entry9 : (c : Dev nD) → (b : Ref sig .tc) → Buf (Elt F) ((c : Thread nD τ).loc b) := fun c b => Gen.V9 m (outsAll m) c b
theorem entry9_eq : (fun (c : Dev nD) (b : Ref sig .tc) => entC4 m c b) = entry9 m := by
  funext c b; show entC4 m c b = Gen.V9 m (outsAll m) c b; rw [V9_outsAll]
theorem exitC4_at (c : Dev nD) : exitC4 m c main_v146 = (datC4 (fun c b => entC4 m c b) c).arrAt 5 cfg4.N := by
  unfold exitC4
  rw [Function.update_self]

/-! ### What the regions leave, array by array -/

theorem outsAll_2_0 (c : Dev nD) : outsAll m 2 main_v39_0 c = (datL0 (entry1 m) c).arrAt 15 cfg0.N := exitL0_at0 m c
theorem outsAll_2_1 (c : Dev nD) : outsAll m 2 main_v39_1 c = (datL0 (entry1 m) c).arrAt 16 cfg0.N := exitL0_at1 m c
theorem outsAll_4_0 (c : Dev nD) : outsAll m 4 main_v74_0 c = (datL1 (entry3 m) c).arrAt 15 cfg1.N := by
  rw [← entry3_eq]; exact exitL1_at0 m c
theorem outsAll_4_1 (c : Dev nD) : outsAll m 4 main_v74_1 c = (datL1 (entry3 m) c).arrAt 16 cfg1.N := by
  rw [← entry3_eq]; exact exitL1_at1 m c
theorem outsAll_6_0 (c : Dev nD) : outsAll m 6 main_v109_0 c = (datL2 (entry5 m) c).arrAt 15 cfg2.N := by
  rw [← entry5_eq]; exact exitL2_at0 m c
theorem outsAll_6_1 (c : Dev nD) : outsAll m 6 main_v109_1 c = (datL2 (entry5 m) c).arrAt 16 cfg2.N := by
  rw [← entry5_eq]; exact exitL2_at1 m c
theorem outsAll_8_0 (c : Dev nD) : outsAll m 8 main_v144_0 c = (datL3 (entry7 m) c).arrAt 15 cfg3.N := by
  rw [← entry7_eq]; exact exitL3_at0 m c
theorem outsAll_8_1 (c : Dev nD) : outsAll m 8 main_v144_1 c = (datL3 (entry7 m) c).arrAt 16 cfg3.N := by
  rw [← entry7_eq]; exact exitL3_at1 m c
theorem outsAll_10 (c : Dev nD) : outsAll m 10 main_v146 c = (datC4 (entry9 m) c).arrAt 5 cfg4.N := by
  rw [← entry9_eq]; exact exitC4_at m c

/-! ## The contents after each region, read at the TensorCore's references -/
/-- What region 0 leaves, over what the regions leave. -/
abbrev exit2 : (c : Dev nD) → (b : Ref sig .tc) → Buf (Elt F) ((c : Thread nD τ).loc b) := fun c b => Gen.V2 m (outsAll m) c b
/-- What region 1 leaves, over what the regions leave. -/
abbrev exit4 : (c : Dev nD) → (b : Ref sig .tc) → Buf (Elt F) ((c : Thread nD τ).loc b) := fun c b => Gen.V4 m (outsAll m) c b
/-- What region 2 leaves, over what the regions leave. -/
abbrev exit6 : (c : Dev nD) → (b : Ref sig .tc) → Buf (Elt F) ((c : Thread nD τ).loc b) := fun c b => Gen.V6 m (outsAll m) c b
/-- What region 3 leaves, over what the regions leave. -/
abbrev exit8 : (c : Dev nD) → (b : Ref sig .tc) → Buf (Elt F) ((c : Thread nD τ).loc b) := fun c b => Gen.V8 m (outsAll m) c b
/-- What region 4 leaves, over what the regions leave. -/
abbrev exit10 : (c : Dev nD) → (b : Ref sig .tc) → Buf (Elt F) ((c : Thread nD τ).loc b) := fun c b => Gen.V10 m (outsAll m) c b

/-! ## Each region's arrays at its exit

At a region's exit every input window's array holds what it held at entry (an input array is never written back, and
the region changes no other buffer), and each output window's array holds what the pipeline's write-backs leave. -/

theorem inputs_apart0 : ∀ w : Fin 17, (cfg0.win w).isOut = false → Pipeline.arrRef spec0 w ∉ ([main_v39_0, main_v39_1] : List (Ref sig .tc)) := by decide
theorem outputs0 : ∀ w : Fin 17, (cfg0.win w).isOut = true → w = 15 ∨ w = 16 := by decide
theorem V2_at0 (outs : Gen.Outs (F := F)) (c : Dev nD) : Gen.V2 m outs c main_v39_0 = outs 2 main_v39_0 c := by
  unfold Gen.V2
  rw [Function.update_of_ne (StableHlo.devRef_ne_of_ne (by decide)), Function.update_self]
theorem V2_at1 (outs : Gen.Outs (F := F)) (c : Dev nD) : Gen.V2 m outs c main_v39_1 = outs 2 main_v39_1 c := by
  unfold Gen.V2
  rw [Function.update_self]
/-- At region 0's exit each of its arrays holds what the pipeline leaves. -/
theorem arrays_at_exit0 (c : Dev nD) (w : Fin cfg0.W) : (datL0 (entry1 m) c).arrAt w cfg0.N = exit2 m c (Pipeline.arrRef spec0 w) := by
  cases hw : (cfg0.win w).isOut
  · exact ((datL0 (entry1 m) c).arrAt_in w hw _).trans ((A_eqL0 (entry1 m) c w).trans (Gen.V2_of m (outsAll m) c _ (inputs_apart0 w hw)).symm)
  · rcases outputs0 w hw with rfl | rfl
    · exact (outsAll_2_0 m c).symm.trans (V2_at0 m (outsAll m) c).symm
    · exact (outsAll_2_1 m c).symm.trans (V2_at1 m (outsAll m) c).symm
/-- At region 0's exit every buffer that is none of its arrays holds what it held at entry. -/
theorem others_kept0 (c : Dev nD) : ∀ b, b ∉ Finset.univ.image (Pipeline.arrRef spec0) → exit2 m c b = entry1 m c b :=
  fun b hb => Gen.V2_of m (outsAll m) c b fun hmem => hb (by
    rcases List.mem_cons.mp hmem with rfl | hmem
    · exact Finset.mem_image.mpr ⟨15, Finset.mem_univ _, rfl⟩
    rcases List.mem_cons.mp hmem with rfl | hmem
    · exact Finset.mem_image.mpr ⟨16, Finset.mem_univ _, rfl⟩
    exact absurd hmem List.not_mem_nil)

theorem inputs_apart1 : ∀ w : Fin 17, (cfg1.win w).isOut = false → Pipeline.arrRef spec1 w ∉ ([main_v74_0, main_v74_1] : List (Ref sig .tc)) := by decide
theorem outputs1 : ∀ w : Fin 17, (cfg1.win w).isOut = true → w = 15 ∨ w = 16 := by decide
theorem V4_at0 (outs : Gen.Outs (F := F)) (c : Dev nD) : Gen.V4 m outs c main_v74_0 = outs 4 main_v74_0 c := by
  unfold Gen.V4
  rw [Function.update_of_ne (StableHlo.devRef_ne_of_ne (by decide)), Function.update_self]
theorem V4_at1 (outs : Gen.Outs (F := F)) (c : Dev nD) : Gen.V4 m outs c main_v74_1 = outs 4 main_v74_1 c := by
  unfold Gen.V4
  rw [Function.update_self]
/-- At region 1's exit each of its arrays holds what the pipeline leaves. -/
theorem arrays_at_exit1 (c : Dev nD) (w : Fin cfg1.W) : (datL1 (entry3 m) c).arrAt w cfg1.N = exit4 m c (Pipeline.arrRef spec1 w) := by
  cases hw : (cfg1.win w).isOut
  · exact ((datL1 (entry3 m) c).arrAt_in w hw _).trans ((A_eqL1 (entry3 m) c w).trans (Gen.V4_of m (outsAll m) c _ (inputs_apart1 w hw)).symm)
  · rcases outputs1 w hw with rfl | rfl
    · exact (outsAll_4_0 m c).symm.trans (V4_at0 m (outsAll m) c).symm
    · exact (outsAll_4_1 m c).symm.trans (V4_at1 m (outsAll m) c).symm
/-- At region 1's exit every buffer that is none of its arrays holds what it held at entry. -/
theorem others_kept1 (c : Dev nD) : ∀ b, b ∉ Finset.univ.image (Pipeline.arrRef spec1) → exit4 m c b = entry3 m c b :=
  fun b hb => Gen.V4_of m (outsAll m) c b fun hmem => hb (by
    rcases List.mem_cons.mp hmem with rfl | hmem
    · exact Finset.mem_image.mpr ⟨15, Finset.mem_univ _, rfl⟩
    rcases List.mem_cons.mp hmem with rfl | hmem
    · exact Finset.mem_image.mpr ⟨16, Finset.mem_univ _, rfl⟩
    exact absurd hmem List.not_mem_nil)

theorem inputs_apart2 : ∀ w : Fin 17, (cfg2.win w).isOut = false → Pipeline.arrRef spec2 w ∉ ([main_v109_0, main_v109_1] : List (Ref sig .tc)) := by decide
theorem outputs2 : ∀ w : Fin 17, (cfg2.win w).isOut = true → w = 15 ∨ w = 16 := by decide
theorem V6_at0 (outs : Gen.Outs (F := F)) (c : Dev nD) : Gen.V6 m outs c main_v109_0 = outs 6 main_v109_0 c := by
  unfold Gen.V6
  rw [Function.update_of_ne (StableHlo.devRef_ne_of_ne (by decide)), Function.update_self]
theorem V6_at1 (outs : Gen.Outs (F := F)) (c : Dev nD) : Gen.V6 m outs c main_v109_1 = outs 6 main_v109_1 c := by
  unfold Gen.V6
  rw [Function.update_self]
/-- At region 2's exit each of its arrays holds what the pipeline leaves. -/
theorem arrays_at_exit2 (c : Dev nD) (w : Fin cfg2.W) : (datL2 (entry5 m) c).arrAt w cfg2.N = exit6 m c (Pipeline.arrRef spec2 w) := by
  cases hw : (cfg2.win w).isOut
  · exact ((datL2 (entry5 m) c).arrAt_in w hw _).trans ((A_eqL2 (entry5 m) c w).trans (Gen.V6_of m (outsAll m) c _ (inputs_apart2 w hw)).symm)
  · rcases outputs2 w hw with rfl | rfl
    · exact (outsAll_6_0 m c).symm.trans (V6_at0 m (outsAll m) c).symm
    · exact (outsAll_6_1 m c).symm.trans (V6_at1 m (outsAll m) c).symm
/-- At region 2's exit every buffer that is none of its arrays holds what it held at entry. -/
theorem others_kept2 (c : Dev nD) : ∀ b, b ∉ Finset.univ.image (Pipeline.arrRef spec2) → exit6 m c b = entry5 m c b :=
  fun b hb => Gen.V6_of m (outsAll m) c b fun hmem => hb (by
    rcases List.mem_cons.mp hmem with rfl | hmem
    · exact Finset.mem_image.mpr ⟨15, Finset.mem_univ _, rfl⟩
    rcases List.mem_cons.mp hmem with rfl | hmem
    · exact Finset.mem_image.mpr ⟨16, Finset.mem_univ _, rfl⟩
    exact absurd hmem List.not_mem_nil)

theorem inputs_apart3 : ∀ w : Fin 17, (cfg3.win w).isOut = false → Pipeline.arrRef spec3 w ∉ ([main_v144_0, main_v144_1] : List (Ref sig .tc)) := by decide
theorem outputs3 : ∀ w : Fin 17, (cfg3.win w).isOut = true → w = 15 ∨ w = 16 := by decide
theorem V8_at0 (outs : Gen.Outs (F := F)) (c : Dev nD) : Gen.V8 m outs c main_v144_0 = outs 8 main_v144_0 c := by
  unfold Gen.V8
  rw [Function.update_of_ne (StableHlo.devRef_ne_of_ne (by decide)), Function.update_self]
theorem V8_at1 (outs : Gen.Outs (F := F)) (c : Dev nD) : Gen.V8 m outs c main_v144_1 = outs 8 main_v144_1 c := by
  unfold Gen.V8
  rw [Function.update_self]
/-- At region 3's exit each of its arrays holds what the pipeline leaves. -/
theorem arrays_at_exit3 (c : Dev nD) (w : Fin cfg3.W) : (datL3 (entry7 m) c).arrAt w cfg3.N = exit8 m c (Pipeline.arrRef spec3 w) := by
  cases hw : (cfg3.win w).isOut
  · exact ((datL3 (entry7 m) c).arrAt_in w hw _).trans ((A_eqL3 (entry7 m) c w).trans (Gen.V8_of m (outsAll m) c _ (inputs_apart3 w hw)).symm)
  · rcases outputs3 w hw with rfl | rfl
    · exact (outsAll_8_0 m c).symm.trans (V8_at0 m (outsAll m) c).symm
    · exact (outsAll_8_1 m c).symm.trans (V8_at1 m (outsAll m) c).symm
/-- At region 3's exit every buffer that is none of its arrays holds what it held at entry. -/
theorem others_kept3 (c : Dev nD) : ∀ b, b ∉ Finset.univ.image (Pipeline.arrRef spec3) → exit8 m c b = entry7 m c b :=
  fun b hb => Gen.V8_of m (outsAll m) c b fun hmem => hb (by
    rcases List.mem_cons.mp hmem with rfl | hmem
    · exact Finset.mem_image.mpr ⟨15, Finset.mem_univ _, rfl⟩
    rcases List.mem_cons.mp hmem with rfl | hmem
    · exact Finset.mem_image.mpr ⟨16, Finset.mem_univ _, rfl⟩
    exact absurd hmem List.not_mem_nil)

theorem inputs_apart4 : ∀ w : Fin 6, (cfg4.win w).isOut = false → Pipeline.arrRef spec4 w ∉ ([main_v146] : List (Ref sig .tc)) := by decide
theorem outputs4 : ∀ w : Fin 6, (cfg4.win w).isOut = true → w = 5 := by decide
theorem V10_at (outs : Gen.Outs (F := F)) (c : Dev nD) : Gen.V10 m outs c main_v146 = outs 10 main_v146 c := by
  unfold Gen.V10
  rw [Function.update_self]
/-- At region 4's exit each of its arrays holds what the pipeline leaves. -/
theorem arrays_at_exit4 (c : Dev nD) (w : Fin cfg4.W) : (datC4 (entry9 m) c).arrAt w cfg4.N = exit10 m c (Pipeline.arrRef spec4 w) := by
  cases hw : (cfg4.win w).isOut
  · exact ((datC4 (entry9 m) c).arrAt_in w hw _).trans ((A_eqC4 (entry9 m) c w).trans (Gen.V10_of m (outsAll m) c _ (inputs_apart4 w hw)).symm)
  · obtain rfl := outputs4 w hw
    exact (outsAll_10 m c).symm.trans (V10_at m (outsAll m) c).symm
/-- At region 4's exit every buffer that is none of its arrays holds what it held at entry. -/
theorem others_kept4 (c : Dev nD) : ∀ b, b ∉ Finset.univ.image (Pipeline.arrRef spec4) → exit10 m c b = entry9 m c b :=
  fun b hb => Gen.V10_of m (outsAll m) c b fun hmem => hb (by
    rcases List.mem_cons.mp hmem with rfl | hmem
    · exact Finset.mem_image.mpr ⟨5, Finset.mem_univ _, rfl⟩
    exact absurd hmem List.not_mem_nil)

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => datL0 (entry1 m) c
  | ⟨1, _⟩ => fun c => datL1 (entry3 m) c
  | ⟨2, _⟩ => fun c => datL2 (entry5 m) c
  | ⟨3, _⟩ => fun c => datL3 (entry7 m) c
  | ⟨4, _⟩ => fun c => datC4 (entry9 m) c

/-- No core owes another anything: no level is assigned. -/
abbrev chainL : GSem nD τ sig → Finset Unit := fun _ => ∅
abbrev chainLv : GSem nD τ sig → Unit → ℕ := fun _ _ => 0
/-- What rides beside the buffers through every item: the core's generator register at some state (a region's
    invariant takes it in and gives it back) and its dues, at nothing. -/
abbrev besideBufs (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 (layer 0): entered from every unscoped buffer at the contents after item 0, left at the contents
    after item 1. Its arrays are split out of the unscoped buffers and put back at the exit contents; the generator
    register goes into the pipeline's invariant and comes out; nothing is owed; the kernel has no semaphore of its own. -/
def reg0 : Pipeline.RegionSeg (pcfgs (F := F)) adm (pdats m) () defs₀ Variants.none chainL chainLv 0 where
  win := launch0.win.to₀
  block_pos := launch0.block_pos
  stage_whole := launch0.stage_whole
  K := PEmpty
  osem k := k.elim
  ho := Pipeline.OwnSemFacts.none _
  hbody c := (body_obligationL0 (entry1 m) c).loose
  hwaits := Pipeline.hwaits_of_owed_zero _ _ _ _ chainL chainLv 0 fun _ _ => rfl
  pre c := iprop(StableHlo.held (c : Thread nD τ) (Pipeline.ucRefs τ sig) (Gen.V1 m c) ∗ besideBufs c)
  post c := iprop(StableHlo.held (c : Thread nD τ) (Pipeline.ucRefs τ sig) (Gen.V2 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec0 c (entry1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry1 m c) (exit2 m c) ((pdats m 0 c).arrAt · cfg0.N) (arrays_at_exit0 m c) (others_kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (layer 1): entered from every unscoped buffer at the contents after item 2, left at the contents
    after item 3. Its arrays are split out of the unscoped buffers and put back at the exit contents; the generator
    register goes into the pipeline's invariant and comes out; nothing is owed; the kernel has no semaphore of its own. -/
def reg1 : Pipeline.RegionSeg (pcfgs (F := F)) adm (pdats m) () defs₀ Variants.none chainL chainLv 1 where
  win := launch1.win.to₀
  block_pos := launch1.block_pos
  stage_whole := launch1.stage_whole
  K := PEmpty
  osem k := k.elim
  ho := Pipeline.OwnSemFacts.none _
  hbody c := (body_obligationL1 (entry3 m) c).loose
  hwaits := Pipeline.hwaits_of_owed_zero _ _ _ _ chainL chainLv 1 fun _ _ => rfl
  pre c := iprop(StableHlo.held (c : Thread nD τ) (Pipeline.ucRefs τ sig) (Gen.V3 m (outsAll m) c) ∗ besideBufs c)
  post c := iprop(StableHlo.held (c : Thread nD τ) (Pipeline.ucRefs τ sig) (Gen.V4 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec1 c (entry3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry3 m c) (exit4 m c) ((pdats m 1 c).arrAt · cfg1.N) (arrays_at_exit1 m c) (others_kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (layer 2): entered from every unscoped buffer at the contents after item 4, left at the contents
    after item 5. Its arrays are split out of the unscoped buffers and put back at the exit contents; the generator
    register goes into the pipeline's invariant and comes out; nothing is owed; the kernel has no semaphore of its own. -/
def reg2 : Pipeline.RegionSeg (pcfgs (F := F)) adm (pdats m) () defs₀ Variants.none chainL chainLv 2 where
  win := launch2.win.to₀
  block_pos := launch2.block_pos
  stage_whole := launch2.stage_whole
  K := PEmpty
  osem k := k.elim
  ho := Pipeline.OwnSemFacts.none _
  hbody c := (body_obligationL2 (entry5 m) c).loose
  hwaits := Pipeline.hwaits_of_owed_zero _ _ _ _ chainL chainLv 2 fun _ _ => rfl
  pre c := iprop(StableHlo.held (c : Thread nD τ) (Pipeline.ucRefs τ sig) (Gen.V5 m (outsAll m) c) ∗ besideBufs c)
  post c := iprop(StableHlo.held (c : Thread nD τ) (Pipeline.ucRefs τ sig) (Gen.V6 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec2 c (entry5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (entry5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry5 m c) (exit6 m c) ((pdats m 2 c).arrAt · cfg2.N) (arrays_at_exit2 m c) (others_kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (layer 3): entered from every unscoped buffer at the contents after item 6, left at the contents
    after item 7. Its arrays are split out of the unscoped buffers and put back at the exit contents; the generator
    register goes into the pipeline's invariant and comes out; nothing is owed; the kernel has no semaphore of its own. -/
def reg3 : Pipeline.RegionSeg (pcfgs (F := F)) adm (pdats m) () defs₀ Variants.none chainL chainLv 3 where
  win := launch3.win.to₀
  block_pos := launch3.block_pos
  stage_whole := launch3.stage_whole
  K := PEmpty
  osem k := k.elim
  ho := Pipeline.OwnSemFacts.none _
  hbody c := (body_obligationL3 (entry7 m) c).loose
  hwaits := Pipeline.hwaits_of_owed_zero _ _ _ _ chainL chainLv 3 fun _ _ => rfl
  pre c := iprop(StableHlo.held (c : Thread nD τ) (Pipeline.ucRefs τ sig) (Gen.V7 m (outsAll m) c) ∗ besideBufs c)
  post c := iprop(StableHlo.held (c : Thread nD τ) (Pipeline.ucRefs τ sig) (Gen.V8 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec3 c (entry7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (entry7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (entry7 m c) (exit8 m c) ((pdats m 3 c).arrAt · cfg3.N) (arrays_at_exit3 m c) (others_kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (the classifier): entered from every unscoped buffer at the contents after item 8, left at the contents
    after item 9. Its arrays are split out of the unscoped buffers and put back at the exit contents; the generator
    register goes into the pipeline's invariant and comes out; nothing is owed; the kernel has no semaphore of its own. -/
def reg4 : Pipeline.RegionSeg (pcfgs (F := F)) adm (pdats m) () defs₀ Variants.none chainL chainLv 4 where
  win := launch4.win.to₀
  block_pos := launch4.block_pos
  stage_whole := launch4.stage_whole
  K := PEmpty
  osem k := k.elim
  ho := Pipeline.OwnSemFacts.none _
  hbody c := (body_obligationC4 (entry9 m) c).loose
  hwaits := Pipeline.hwaits_of_owed_zero _ _ _ _ chainL chainLv 4 fun _ _ => rfl
  pre c := iprop(StableHlo.held (c : Thread nD τ) (Pipeline.ucRefs τ sig) (Gen.V9 m (outsAll m) c) ∗ besideBufs c)
  post c := iprop(StableHlo.held (c : Thread nD τ) (Pipeline.ucRefs τ sig) (Gen.V10 m (outsAll m) c) ∗ besideBufs c)
  X c := iprop(∃ r, prngReg c r)
  Y c := iprop(∃ r, prngReg c r)
  Z c := Pipeline.unscopedRest (Ix := Unit) (Name := ℕ) (U := UR sig nD τ) (Lvl := ℕ) spec4 c (entry9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (entry9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (entry9 m c) (exit10 m c) ((pdats m 4 c).arrAt · cfg4.N) (arrays_at_exit4 m c) (others_kept4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Launch.lean ====
/-
  The launch of @main over the chain of its five regions: from any memory with zero counters every weakly fair
  execution terminates and every argument array ends holding its launch contents.
-/
import proofs.«426741_j36421322670671_1_alg».proof.Proof.Gen.KernelIdeal.Launch
import proofs.«426741_j36421322670671_1_alg».proof.Proof.Gen.KernelIdeal.Skeleton
import proofs.«426741_j36421322670671_1_alg».proof.Proof.Gen.KernelIdeal.Points
import proofs.«426741_j36421322670671_1_alg».proof.Proof.Gen.KernelIdeal.Regions
import proofs.«426741_j36421322670671_1_alg».proof.Proof.KI.L0Dat
import proofs.«426741_j36421322670671_1_alg».proof.Proof.KI.L1Dat
import proofs.«426741_j36421322670671_1_alg».proof.Proof.KI.L2Dat
import proofs.«426741_j36421322670671_1_alg».proof.Proof.KI.L3Dat
import proofs.«426741_j36421322670671_1_alg».proof.Proof.KI.C4Dat
import proofs.«426741_j36421322670671_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The launch's element is the pipeline library's at every pipeline's staging cells, with no ghost resource beside it. -/
theorem launch_element : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes what rides beside the buffers: the generator register at its launch state,
    nothing owed. -/
theorem launch_first (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts chainL chainLv)
      ⊢ (|={Set.univ}=> bigSep Finset.univ fun c : Dev nD => besideBufs (F := F) c : sProp 𝕄) := by
  refine Pipeline.initEach chainL chainLv fun c => ?_
  iintro ⟨⟨-, HO, -, Hp, -⟩, -⟩
  imodintro
  isplitl [Hp]; · iexists _; iexact Hp
  iexists ∅; iexact HO

/-- What rides beside the buffers at the end owes nothing. -/
theorem launch_last (c : Dev nD) : besideBufs (F := F) c ⊢ (iprop(∃ W, owes (c : Thread nD τ) (0 : CellTallies nD τ sig Unit) W) : sProp 𝕄) := by
  iintro ⟨-, H⟩; iexact H

set_option backward.isDefEq.respectTransparency.types false in
/-- THE FRAME of the whole program, at any float family: from any memory with zero counters every weakly fair execution
    of @main on the TensorCores terminates and every final memory holds each argument array as launched — the
    conditional frame over the five regions' segments and the contents they leave. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m (Ix := Unit) (U := UR sig nD τ) (Lvl := ℕ) (EP := emb₁) (ι := ()) (𝒱₀ := Variants.none) (L := chainL) (lv := chainLv)
    (hL := fun _ _ => rfl) (ρ := ρ) (outs := outsAll m) (pdats := pdats m) (O₀ := 0) (G := fun _ => iprop(emp))
    (u₀ := initOf (Pipeline.cells cfgs cellOf_inj) (Pipeline.launchToks cfgs cellOf_inj)) (hu₀ := launch_element)
    (E := fun _ c => besideBufs c) (hE0 := launch_first ρ) (hE5 := launch_last)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)

end Cert.KernelIdeal.Hand

end
-- ==== Proof.KI.HostGlue.lean ====
/- What the host stretches of the graph network's @main write, as terms over the launch contents and over what
   the layer regions leave: the neighbour sum, the graph-id column, the per-layer parameter slices, and the
   concatenation of the four pools. Everything is generic in the float family. -/
import proofs.«426741_j36421322670671_1_alg».proof.Proof.Gen.KernelIdeal.Regions
import proofs.«426741_j36421322670671_1_alg».proof.Proof.Gen.KernelIdeal.Launch
import Idealize.ShloMosaic.Lib.StableHlo.Run

set_option maxRecDepth 3776

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-! ## The shared host functions -/

/-- Row 0 of the edge list: the source node of every edge. -/
def srcRow (ei : IVec S2x800000 32) : IVec S800000 32 :=
  shapeCast S800000 (extractStridedSlice S1x800000 ![0, 0] ei slices_S2x800000_S1x800000_0_0) shapeCasts_S1x800000_S800000

/-- Row 1 of the edge list: the destination node of every edge. -/
def dstRow (ei : IVec S2x800000 32) : IVec S800000 32 :=
  shapeCast S800000 (extractStridedSlice S1x800000 ![1, 0] ei slices_S2x800000_S1x800000_1_0) shapeCasts_S1x800000_S800000

/-- The source row with a negative entry wrapped around by the node count. -/
def srcNorm (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The neighbour sum over explicit source and destination rows: gather the features at the (wrapped) sources,
    scatter-add them into zeros at the destinations. -/
def aggRows (h : FVec F S50000x128 .f32) (src dst : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0 (srcNorm src)))

/-- The neighbour sum of a feature array over the edge list. -/
def aggT (h : FVec F S50000x128 .f32) (ei : IVec S2x800000 32) : FVec F S50000x128 .f32 :=
  aggRows h (srcRow ei) (dstRow ei)

/-- The graph ids as a column. -/
def idsCol (b : IVec S50000 32) : IVec S50000x1 32 :=
  shapeCast S50000x1 b shapeCasts_S50000_S50000x1

/-- Layer 0's matrix out of a stack of four. -/
def matSl0 (x : FVec F S4x128x128 .f32) : FVec F S128x128 .f32 :=
  shapeCast S128x128 (extractStridedSlice S1x128x128 ![0, 0, 0] x slices_S4x128x128_S1x128x128_0_0_0) shapeCasts_S1x128x128_S128x128

/-- Layer 0's vector out of a stack of four. -/
def vecSl0 (x : FVec F S4x128 .f32) : FVec F S128 .f32 :=
  shapeCast S128 (extractStridedSlice S1x128 ![0, 0] x slices_S4x128_S1x128_0_0) shapeCasts_S1x128_S128

/-- Layer 1's matrix out of a stack of four. -/
def matSl1 (x : FVec F S4x128x128 .f32) : FVec F S128x128 .f32 :=
  shapeCast S128x128 (extractStridedSlice S1x128x128 ![1, 0, 0] x slices_S4x128x128_S1x128x128_1_0_0) shapeCasts_S1x128x128_S128x128

/-- Layer 1's vector out of a stack of four. -/
def vecSl1 (x : FVec F S4x128 .f32) : FVec F S128 .f32 :=
  shapeCast S128 (extractStridedSlice S1x128 ![1, 0] x slices_S4x128_S1x128_1_0) shapeCasts_S1x128_S128

/-- Layer 2's matrix out of a stack of four. -/
def matSl2 (x : FVec F S4x128x128 .f32) : FVec F S128x128 .f32 :=
  shapeCast S128x128 (extractStridedSlice S1x128x128 ![2, 0, 0] x slices_S4x128x128_S1x128x128_2_0_0) shapeCasts_S1x128x128_S128x128

/-- Layer 2's vector out of a stack of four. -/
def vecSl2 (x : FVec F S4x128 .f32) : FVec F S128 .f32 :=
  shapeCast S128 (extractStridedSlice S1x128 ![2, 0] x slices_S4x128_S1x128_2_0) shapeCasts_S1x128_S128

/-- Layer 3's matrix out of a stack of four. -/
def matSl3 (x : FVec F S4x128x128 .f32) : FVec F S128x128 .f32 :=
  shapeCast S128x128 (extractStridedSlice S1x128x128 ![3, 0, 0] x slices_S4x128x128_S1x128x128_3_0_0) shapeCasts_S1x128x128_S128x128

/-- Layer 3's vector out of a stack of four. -/
def vecSl3 (x : FVec F S4x128 .f32) : FVec F S128 .f32 :=
  shapeCast S128 (extractStridedSlice S1x128 ![3, 0] x slices_S4x128_S1x128_3_0) shapeCasts_S1x128_S128

/-- The four pools side by side. -/
def feat4 (p0 p1 p2 p3 : FVec F S512x128 .f32) : FVec F S512x512 .f32 :=
  concatenate S512x512 1 [⟨S512x128, p0⟩, ⟨S512x128, p1⟩, ⟨S512x128, p2⟩, ⟨S512x128, p3⟩] concatenates_S512x128_S512x128_S512x128_S512x128_S512x512_d1

variable (m : (ℓ : Loc nD τ sig) → Buf (Elt F) ℓ) (outs : Gen.Outs (F := F))

/-! ## Before layer 0 -/

theorem V1_src (c : Dev nD) : (Gen.V1 m c main_v1 : IVec S800000 32) = srcRow (m ((c : Thread nD τ).loc main_arg1)) := by
  dsimp only [Gen.V1, Gen.V0, Gen.hostOps0]; after_results_simp; rfl

theorem V1_dst (c : Dev nD) : (Gen.V1 m c main_v3 : IVec S800000 32) = dstRow (m ((c : Thread nD τ).loc main_arg1)) := by
  dsimp only [Gen.V1, Gen.V0, Gen.hostOps0]; after_results_simp; rfl

theorem V1_agg (c : Dev nD) : (Gen.V1 m c main_v14 : FVec F S50000x128 .f32) = aggT (m ((c : Thread nD τ).loc main_arg0)) (m ((c : Thread nD τ).loc main_arg1)) := by
  dsimp only [Gen.V1, Gen.V0, Gen.hostOps0]; after_results_simp; rfl

theorem V1_x (c : Dev nD) : Gen.V1 m c main_arg0 = m ((c : Thread nD τ).loc main_arg0) :=
  (Gen.V1_of m c main_arg0 (by decide)).trans rfl

theorem V1_ids (c : Dev nD) : (Gen.V1 m c main_v4 : IVec S50000x1 32) = idsCol (m ((c : Thread nD τ).loc main_arg2)) := by
  dsimp only [Gen.V1, Gen.V0, Gen.hostOps0]; after_results_simp; rfl

theorem V1_W1 (c : Dev nD) : (Gen.V1 m c main_v16 : FVec F S128x128 .f32) = matSl0 (m ((c : Thread nD τ).loc main_arg3)) := by
  dsimp only [Gen.V1, Gen.V0, Gen.hostOps0]; after_results_simp; rfl

theorem V1_b1 (c : Dev nD) : (Gen.V1 m c main_v18 : FVec F S128 .f32) = vecSl0 (m ((c : Thread nD τ).loc main_arg4)) := by
  dsimp only [Gen.V1, Gen.V0, Gen.hostOps0]; after_results_simp; rfl

theorem V1_g1 (c : Dev nD) : (Gen.V1 m c main_v20 : FVec F S128 .f32) = vecSl0 (m ((c : Thread nD τ).loc main_arg5)) := by
  dsimp only [Gen.V1, Gen.V0, Gen.hostOps0]; after_results_simp; rfl

theorem V1_be1 (c : Dev nD) : (Gen.V1 m c main_v22 : FVec F S128 .f32) = vecSl0 (m ((c : Thread nD τ).loc main_arg6)) := by
  dsimp only [Gen.V1, Gen.V0, Gen.hostOps0]; after_results_simp; rfl

theorem V1_mu1 (c : Dev nD) : (Gen.V1 m c main_v24 : FVec F S128 .f32) = vecSl0 (m ((c : Thread nD τ).loc main_arg7)) := by
  dsimp only [Gen.V1, Gen.V0, Gen.hostOps0]; after_results_simp; rfl

theorem V1_va1 (c : Dev nD) : (Gen.V1 m c main_v26 : FVec F S128 .f32) = vecSl0 (m ((c : Thread nD τ).loc main_arg8)) := by
  dsimp only [Gen.V1, Gen.V0, Gen.hostOps0]; after_results_simp; rfl

theorem V1_W2 (c : Dev nD) : (Gen.V1 m c main_v28 : FVec F S128x128 .f32) = matSl0 (m ((c : Thread nD τ).loc main_arg9)) := by
  dsimp only [Gen.V1, Gen.V0, Gen.hostOps0]; after_results_simp; rfl

theorem V1_b2 (c : Dev nD) : (Gen.V1 m c main_v30 : FVec F S128 .f32) = vecSl0 (m ((c : Thread nD τ).loc main_arg10)) := by
  dsimp only [Gen.V1, Gen.V0, Gen.hostOps0]; after_results_simp; rfl

theorem V1_g2 (c : Dev nD) : (Gen.V1 m c main_v32 : FVec F S128 .f32) = vecSl0 (m ((c : Thread nD τ).loc main_arg11)) := by
  dsimp only [Gen.V1, Gen.V0, Gen.hostOps0]; after_results_simp; rfl

theorem V1_be2 (c : Dev nD) : (Gen.V1 m c main_v34 : FVec F S128 .f32) = vecSl0 (m ((c : Thread nD τ).loc main_arg12)) := by
  dsimp only [Gen.V1, Gen.V0, Gen.hostOps0]; after_results_simp; rfl

theorem V1_mu2 (c : Dev nD) : (Gen.V1 m c main_v36 : FVec F S128 .f32) = vecSl0 (m ((c : Thread nD τ).loc main_arg13)) := by
  dsimp only [Gen.V1, Gen.V0, Gen.hostOps0]; after_results_simp; rfl

theorem V1_va2 (c : Dev nD) : (Gen.V1 m c main_v38 : FVec F S128 .f32) = vecSl0 (m ((c : Thread nD τ).loc main_arg14)) := by
  dsimp only [Gen.V1, Gen.V0, Gen.hostOps0]; after_results_simp; rfl

/-! ## What a layer region leaves, read back -/

theorem V2_h (c : Dev nD) : Gen.V2 m outs c main_v39_0 = outs 2 main_v39_0 c := by
  dsimp only [Gen.V2]
  rw [Function.update_of_ne (StableHlo.devRef_ne_of_ne (by decide) : (Proc.devRef .tc main_v39_0 : DevRef τ sig) ≠ Proc.devRef .tc main_v39_1), Function.update_self]

theorem V2_pool (c : Dev nD) : Gen.V2 m outs c main_v39_1 = outs 2 main_v39_1 c := by
  dsimp only [Gen.V2]; rw [Function.update_self]

theorem V4_h (c : Dev nD) : Gen.V4 m outs c main_v74_0 = outs 4 main_v74_0 c := by
  dsimp only [Gen.V4]
  rw [Function.update_of_ne (StableHlo.devRef_ne_of_ne (by decide) : (Proc.devRef .tc main_v74_0 : DevRef τ sig) ≠ Proc.devRef .tc main_v74_1), Function.update_self]

theorem V4_pool (c : Dev nD) : Gen.V4 m outs c main_v74_1 = outs 4 main_v74_1 c := by
  dsimp only [Gen.V4]; rw [Function.update_self]

theorem V6_h (c : Dev nD) : Gen.V6 m outs c main_v109_0 = outs 6 main_v109_0 c := by
  dsimp only [Gen.V6]
  rw [Function.update_of_ne (StableHlo.devRef_ne_of_ne (by decide) : (Proc.devRef .tc main_v109_0 : DevRef τ sig) ≠ Proc.devRef .tc main_v109_1), Function.update_self]

theorem V6_pool (c : Dev nD) : Gen.V6 m outs c main_v109_1 = outs 6 main_v109_1 c := by
  dsimp only [Gen.V6]; rw [Function.update_self]

theorem V8_pool (c : Dev nD) : Gen.V8 m outs c main_v144_1 = outs 8 main_v144_1 c := by
  dsimp only [Gen.V8]; rw [Function.update_self]

/-! ## Before layer 1 -/

theorem V2_src (c : Dev nD) : (Gen.V2 m outs c main_v1 : IVec S800000 32) = srcRow (m ((c : Thread nD τ).loc main_arg1)) :=
  (Gen.V2_of m outs c main_v1 (by decide)).trans <| V1_src m c

theorem V2_dst (c : Dev nD) : (Gen.V2 m outs c main_v3 : IVec S800000 32) = dstRow (m ((c : Thread nD τ).loc main_arg1)) :=
  (Gen.V2_of m outs c main_v3 (by decide)).trans <| V1_dst m c

theorem V3_agg (c : Dev nD) : (Gen.V3 m outs c main_v49 : FVec F S50000x128 .f32) = aggT (outs 2 main_v39_0 c) (m ((c : Thread nD τ).loc main_arg1)) := by
  have e : (Gen.V3 m outs c main_v49 : FVec F S50000x128 .f32)
      = aggRows (Gen.V2 m outs c main_v39_0) (Gen.V2 m outs c main_v1) (Gen.V2 m outs c main_v3) := by
    dsimp only [Gen.V3, Gen.hostOps1]; after_results_simp; rfl
  exact e.trans (congr (congr (congrArg aggRows (V2_h m outs c)) (V2_src m outs c)) (V2_dst m outs c))

theorem V3_h (c : Dev nD) : Gen.V3 m outs c main_v39_0 = outs 2 main_v39_0 c :=
  (Gen.V3_of m outs c main_v39_0 (by decide)).trans (V2_h m outs c)

theorem V3_ids (c : Dev nD) : (Gen.V3 m outs c main_v4 : IVec S50000x1 32) = idsCol (m ((c : Thread nD τ).loc main_arg2)) :=
  (Gen.V3_of m outs c main_v4 (by decide)).trans <| (Gen.V2_of m outs c main_v4 (by decide)).trans <| V1_ids m c

theorem V3_W1 (c : Dev nD) : (Gen.V3 m outs c main_v51 : FVec F S128x128 .f32) = matSl1 (m ((c : Thread nD τ).loc main_arg3)) := by
  have e : (Gen.V3 m outs c main_v51 : FVec F S128x128 .f32) = matSl1 (Gen.V2 m outs c main_arg3) := by
    dsimp only [Gen.V3, Gen.hostOps1]; after_results_simp; rfl
  exact e.trans (congrArg matSl1 ((Gen.V2_of m outs c main_arg3 (by decide)).trans <| (Gen.V1_of m c main_arg3 (by decide)).trans <| rfl))

theorem V3_b1 (c : Dev nD) : (Gen.V3 m outs c main_v53 : FVec F S128 .f32) = vecSl1 (m ((c : Thread nD τ).loc main_arg4)) := by
  have e : (Gen.V3 m outs c main_v53 : FVec F S128 .f32) = vecSl1 (Gen.V2 m outs c main_arg4) := by
    dsimp only [Gen.V3, Gen.hostOps1]; after_results_simp; rfl
  exact e.trans (congrArg vecSl1 ((Gen.V2_of m outs c main_arg4 (by decide)).trans <| (Gen.V1_of m c main_arg4 (by decide)).trans <| rfl))

theorem V3_g1 (c : Dev nD) : (Gen.V3 m outs c main_v55 : FVec F S128 .f32) = vecSl1 (m ((c : Thread nD τ).loc main_arg5)) := by
  have e : (Gen.V3 m outs c main_v55 : FVec F S128 .f32) = vecSl1 (Gen.V2 m outs c main_arg5) := by
    dsimp only [Gen.V3, Gen.hostOps1]; after_results_simp; rfl
  exact e.trans (congrArg vecSl1 ((Gen.V2_of m outs c main_arg5 (by decide)).trans <| (Gen.V1_of m c main_arg5 (by decide)).trans <| rfl))

theorem V3_be1 (c : Dev nD) : (Gen.V3 m outs c main_v57 : FVec F S128 .f32) = vecSl1 (m ((c : Thread nD τ).loc main_arg6)) := by
  have e : (Gen.V3 m outs c main_v57 : FVec F S128 .f32) = vecSl1 (Gen.V2 m outs c main_arg6) := by
    dsimp only [Gen.V3, Gen.hostOps1]; after_results_simp; rfl
  exact e.trans (congrArg vecSl1 ((Gen.V2_of m outs c main_arg6 (by decide)).trans <| (Gen.V1_of m c main_arg6 (by decide)).trans <| rfl))

theorem V3_mu1 (c : Dev nD) : (Gen.V3 m outs c main_v59 : FVec F S128 .f32) = vecSl1 (m ((c : Thread nD τ).loc main_arg7)) := by
  have e : (Gen.V3 m outs c main_v59 : FVec F S128 .f32) = vecSl1 (Gen.V2 m outs c main_arg7) := by
    dsimp only [Gen.V3, Gen.hostOps1]; after_results_simp; rfl
  exact e.trans (congrArg vecSl1 ((Gen.V2_of m outs c main_arg7 (by decide)).trans <| (Gen.V1_of m c main_arg7 (by decide)).trans <| rfl))

theorem V3_va1 (c : Dev nD) : (Gen.V3 m outs c main_v61 : FVec F S128 .f32) = vecSl1 (m ((c : Thread nD τ).loc main_arg8)) := by
  have e : (Gen.V3 m outs c main_v61 : FVec F S128 .f32) = vecSl1 (Gen.V2 m outs c main_arg8) := by
    dsimp only [Gen.V3, Gen.hostOps1]; after_results_simp; rfl
  exact e.trans (congrArg vecSl1 ((Gen.V2_of m outs c main_arg8 (by decide)).trans <| (Gen.V1_of m c main_arg8 (by decide)).trans <| rfl))

theorem V3_W2 (c : Dev nD) : (Gen.V3 m outs c main_v63 : FVec F S128x128 .f32) = matSl1 (m ((c : Thread nD τ).loc main_arg9)) := by
  have e : (Gen.V3 m outs c main_v63 : FVec F S128x128 .f32) = matSl1 (Gen.V2 m outs c main_arg9) := by
    dsimp only [Gen.V3, Gen.hostOps1]; after_results_simp; rfl
  exact e.trans (congrArg matSl1 ((Gen.V2_of m outs c main_arg9 (by decide)).trans <| (Gen.V1_of m c main_arg9 (by decide)).trans <| rfl))

theorem V3_b2 (c : Dev nD) : (Gen.V3 m outs c main_v65 : FVec F S128 .f32) = vecSl1 (m ((c : Thread nD τ).loc main_arg10)) := by
  have e : (Gen.V3 m outs c main_v65 : FVec F S128 .f32) = vecSl1 (Gen.V2 m outs c main_arg10) := by
    dsimp only [Gen.V3, Gen.hostOps1]; after_results_simp; rfl
  exact e.trans (congrArg vecSl1 ((Gen.V2_of m outs c main_arg10 (by decide)).trans <| (Gen.V1_of m c main_arg10 (by decide)).trans <| rfl))

theorem V3_g2 (c : Dev nD) : (Gen.V3 m outs c main_v67 : FVec F S128 .f32) = vecSl1 (m ((c : Thread nD τ).loc main_arg11)) := by
  have e : (Gen.V3 m outs c main_v67 : FVec F S128 .f32) = vecSl1 (Gen.V2 m outs c main_arg11) := by
    dsimp only [Gen.V3, Gen.hostOps1]; after_results_simp; rfl
  exact e.trans (congrArg vecSl1 ((Gen.V2_of m outs c main_arg11 (by decide)).trans <| (Gen.V1_of m c main_arg11 (by decide)).trans <| rfl))

theorem V3_be2 (c : Dev nD) : (Gen.V3 m outs c main_v69 : FVec F S128 .f32) = vecSl1 (m ((c : Thread nD τ).loc main_arg12)) := by
  have e : (Gen.V3 m outs c main_v69 : FVec F S128 .f32) = vecSl1 (Gen.V2 m outs c main_arg12) := by
    dsimp only [Gen.V3, Gen.hostOps1]; after_results_simp; rfl
  exact e.trans (congrArg vecSl1 ((Gen.V2_of m outs c main_arg12 (by decide)).trans <| (Gen.V1_of m c main_arg12 (by decide)).trans <| rfl))

theorem V3_mu2 (c : Dev nD) : (Gen.V3 m outs c main_v71 : FVec F S128 .f32) = vecSl1 (m ((c : Thread nD τ).loc main_arg13)) := by
  have e : (Gen.V3 m outs c main_v71 : FVec F S128 .f32) = vecSl1 (Gen.V2 m outs c main_arg13) := by
    dsimp only [Gen.V3, Gen.hostOps1]; after_results_simp; rfl
  exact e.trans (congrArg vecSl1 ((Gen.V2_of m outs c main_arg13 (by decide)).trans <| (Gen.V1_of m c main_arg13 (by decide)).trans <| rfl))

theorem V3_va2 (c : Dev nD) : (Gen.V3 m outs c main_v73 : FVec F S128 .f32) = vecSl1 (m ((c : Thread nD τ).loc main_arg14)) := by
  have e : (Gen.V3 m outs c main_v73 : FVec F S128 .f32) = vecSl1 (Gen.V2 m outs c main_arg14) := by
    dsimp only [Gen.V3, Gen.hostOps1]; after_results_simp; rfl
  exact e.trans (congrArg vecSl1 ((Gen.V2_of m outs c main_arg14 (by decide)).trans <| (Gen.V1_of m c main_arg14 (by decide)).trans <| rfl))

/-! ## Before layer 2 -/

theorem V4_src (c : Dev nD) : (Gen.V4 m outs c main_v1 : IVec S800000 32) = srcRow (m ((c : Thread nD τ).loc main_arg1)) :=
  (Gen.V4_of m outs c main_v1 (by decide)).trans <| (Gen.V3_of m outs c main_v1 (by decide)).trans <| (Gen.V2_of m outs c main_v1 (by decide)).trans <| V1_src m c

theorem V4_dst (c : Dev nD) : (Gen.V4 m outs c main_v3 : IVec S800000 32) = dstRow (m ((c : Thread nD τ).loc main_arg1)) :=
  (Gen.V4_of m outs c main_v3 (by decide)).trans <| (Gen.V3_of m outs c main_v3 (by decide)).trans <| (Gen.V2_of m outs c main_v3 (by decide)).trans <| V1_dst m c

theorem V5_agg (c : Dev nD) : (Gen.V5 m outs c main_v84 : FVec F S50000x128 .f32) = aggT (outs 4 main_v74_0 c) (m ((c : Thread nD τ).loc main_arg1)) := by
  have e : (Gen.V5 m outs c main_v84 : FVec F S50000x128 .f32)
      = aggRows (Gen.V4 m outs c main_v74_0) (Gen.V4 m outs c main_v1) (Gen.V4 m outs c main_v3) := by
    dsimp only [Gen.V5, Gen.hostOps2]; after_results_simp; rfl
  exact e.trans (congr (congr (congrArg aggRows (V4_h m outs c)) (V4_src m outs c)) (V4_dst m outs c))

theorem V5_h (c : Dev nD) : Gen.V5 m outs c main_v74_0 = outs 4 main_v74_0 c :=
  (Gen.V5_of m outs c main_v74_0 (by decide)).trans (V4_h m outs c)

theorem V5_ids (c : Dev nD) : (Gen.V5 m outs c main_v4 : IVec S50000x1 32) = idsCol (m ((c : Thread nD τ).loc main_arg2)) :=
  (Gen.V5_of m outs c main_v4 (by decide)).trans <| (Gen.V4_of m outs c main_v4 (by decide)).trans <| (Gen.V3_of m outs c main_v4 (by decide)).trans <| (Gen.V2_of m outs c main_v4 (by decide)).trans <| V1_ids m c

theorem V5_W1 (c : Dev nD) : (Gen.V5 m outs c main_v86 : FVec F S128x128 .f32) = matSl2 (m ((c : Thread nD τ).loc main_arg3)) := by
  have e : (Gen.V5 m outs c main_v86 : FVec F S128x128 .f32) = matSl2 (Gen.V4 m outs c main_arg3) := by
    dsimp only [Gen.V5, Gen.hostOps2]; after_results_simp; rfl
  exact e.trans (congrArg matSl2 ((Gen.V4_of m outs c main_arg3 (by decide)).trans <| (Gen.V3_of m outs c main_arg3 (by decide)).trans <| (Gen.V2_of m outs c main_arg3 (by decide)).trans <| (Gen.V1_of m c main_arg3 (by decide)).trans <| rfl))

theorem V5_b1 (c : Dev nD) : (Gen.V5 m outs c main_v88 : FVec F S128 .f32) = vecSl2 (m ((c : Thread nD τ).loc main_arg4)) := by
  have e : (Gen.V5 m outs c main_v88 : FVec F S128 .f32) = vecSl2 (Gen.V4 m outs c main_arg4) := by
    dsimp only [Gen.V5, Gen.hostOps2]; after_results_simp; rfl
  exact e.trans (congrArg vecSl2 ((Gen.V4_of m outs c main_arg4 (by decide)).trans <| (Gen.V3_of m outs c main_arg4 (by decide)).trans <| (Gen.V2_of m outs c main_arg4 (by decide)).trans <| (Gen.V1_of m c main_arg4 (by decide)).trans <| rfl))

theorem V5_g1 (c : Dev nD) : (Gen.V5 m outs c main_v90 : FVec F S128 .f32) = vecSl2 (m ((c : Thread nD τ).loc main_arg5)) := by
  have e : (Gen.V5 m outs c main_v90 : FVec F S128 .f32) = vecSl2 (Gen.V4 m outs c main_arg5) := by
    dsimp only [Gen.V5, Gen.hostOps2]; after_results_simp; rfl
  exact e.trans (congrArg vecSl2 ((Gen.V4_of m outs c main_arg5 (by decide)).trans <| (Gen.V3_of m outs c main_arg5 (by decide)).trans <| (Gen.V2_of m outs c main_arg5 (by decide)).trans <| (Gen.V1_of m c main_arg5 (by decide)).trans <| rfl))

theorem V5_be1 (c : Dev nD) : (Gen.V5 m outs c main_v92 : FVec F S128 .f32) = vecSl2 (m ((c : Thread nD τ).loc main_arg6)) := by
  have e : (Gen.V5 m outs c main_v92 : FVec F S128 .f32) = vecSl2 (Gen.V4 m outs c main_arg6) := by
    dsimp only [Gen.V5, Gen.hostOps2]; after_results_simp; rfl
  exact e.trans (congrArg vecSl2 ((Gen.V4_of m outs c main_arg6 (by decide)).trans <| (Gen.V3_of m outs c main_arg6 (by decide)).trans <| (Gen.V2_of m outs c main_arg6 (by decide)).trans <| (Gen.V1_of m c main_arg6 (by decide)).trans <| rfl))

theorem V5_mu1 (c : Dev nD) : (Gen.V5 m outs c main_v94 : FVec F S128 .f32) = vecSl2 (m ((c : Thread nD τ).loc main_arg7)) := by
  have e : (Gen.V5 m outs c main_v94 : FVec F S128 .f32) = vecSl2 (Gen.V4 m outs c main_arg7) := by
    dsimp only [Gen.V5, Gen.hostOps2]; after_results_simp; rfl
  exact e.trans (congrArg vecSl2 ((Gen.V4_of m outs c main_arg7 (by decide)).trans <| (Gen.V3_of m outs c main_arg7 (by decide)).trans <| (Gen.V2_of m outs c main_arg7 (by decide)).trans <| (Gen.V1_of m c main_arg7 (by decide)).trans <| rfl))

theorem V5_va1 (c : Dev nD) : (Gen.V5 m outs c main_v96 : FVec F S128 .f32) = vecSl2 (m ((c : Thread nD τ).loc main_arg8)) := by
  have e : (Gen.V5 m outs c main_v96 : FVec F S128 .f32) = vecSl2 (Gen.V4 m outs c main_arg8) := by
    dsimp only [Gen.V5, Gen.hostOps2]; after_results_simp; rfl
  exact e.trans (congrArg vecSl2 ((Gen.V4_of m outs c main_arg8 (by decide)).trans <| (Gen.V3_of m outs c main_arg8 (by decide)).trans <| (Gen.V2_of m outs c main_arg8 (by decide)).trans <| (Gen.V1_of m c main_arg8 (by decide)).trans <| rfl))

theorem V5_W2 (c : Dev nD) : (Gen.V5 m outs c main_v98 : FVec F S128x128 .f32) = matSl2 (m ((c : Thread nD τ).loc main_arg9)) := by
  have e : (Gen.V5 m outs c main_v98 : FVec F S128x128 .f32) = matSl2 (Gen.V4 m outs c main_arg9) := by
    dsimp only [Gen.V5, Gen.hostOps2]; after_results_simp; rfl
  exact e.trans (congrArg matSl2 ((Gen.V4_of m outs c main_arg9 (by decide)).trans <| (Gen.V3_of m outs c main_arg9 (by decide)).trans <| (Gen.V2_of m outs c main_arg9 (by decide)).trans <| (Gen.V1_of m c main_arg9 (by decide)).trans <| rfl))

theorem V5_b2 (c : Dev nD) : (Gen.V5 m outs c main_v100 : FVec F S128 .f32) = vecSl2 (m ((c : Thread nD τ).loc main_arg10)) := by
  have e : (Gen.V5 m outs c main_v100 : FVec F S128 .f32) = vecSl2 (Gen.V4 m outs c main_arg10) := by
    dsimp only [Gen.V5, Gen.hostOps2]; after_results_simp; rfl
  exact e.trans (congrArg vecSl2 ((Gen.V4_of m outs c main_arg10 (by decide)).trans <| (Gen.V3_of m outs c main_arg10 (by decide)).trans <| (Gen.V2_of m outs c main_arg10 (by decide)).trans <| (Gen.V1_of m c main_arg10 (by decide)).trans <| rfl))

theorem V5_g2 (c : Dev nD) : (Gen.V5 m outs c main_v102 : FVec F S128 .f32) = vecSl2 (m ((c : Thread nD τ).loc main_arg11)) := by
  have e : (Gen.V5 m outs c main_v102 : FVec F S128 .f32) = vecSl2 (Gen.V4 m outs c main_arg11) := by
    dsimp only [Gen.V5, Gen.hostOps2]; after_results_simp; rfl
  exact e.trans (congrArg vecSl2 ((Gen.V4_of m outs c main_arg11 (by decide)).trans <| (Gen.V3_of m outs c main_arg11 (by decide)).trans <| (Gen.V2_of m outs c main_arg11 (by decide)).trans <| (Gen.V1_of m c main_arg11 (by decide)).trans <| rfl))

theorem V5_be2 (c : Dev nD) : (Gen.V5 m outs c main_v104 : FVec F S128 .f32) = vecSl2 (m ((c : Thread nD τ).loc main_arg12)) := by
  have e : (Gen.V5 m outs c main_v104 : FVec F S128 .f32) = vecSl2 (Gen.V4 m outs c main_arg12) := by
    dsimp only [Gen.V5, Gen.hostOps2]; after_results_simp; rfl
  exact e.trans (congrArg vecSl2 ((Gen.V4_of m outs c main_arg12 (by decide)).trans <| (Gen.V3_of m outs c main_arg12 (by decide)).trans <| (Gen.V2_of m outs c main_arg12 (by decide)).trans <| (Gen.V1_of m c main_arg12 (by decide)).trans <| rfl))

theorem V5_mu2 (c : Dev nD) : (Gen.V5 m outs c main_v106 : FVec F S128 .f32) = vecSl2 (m ((c : Thread nD τ).loc main_arg13)) := by
  have e : (Gen.V5 m outs c main_v106 : FVec F S128 .f32) = vecSl2 (Gen.V4 m outs c main_arg13) := by
    dsimp only [Gen.V5, Gen.hostOps2]; after_results_simp; rfl
  exact e.trans (congrArg vecSl2 ((Gen.V4_of m outs c main_arg13 (by decide)).trans <| (Gen.V3_of m outs c main_arg13 (by decide)).trans <| (Gen.V2_of m outs c main_arg13 (by decide)).trans <| (Gen.V1_of m c main_arg13 (by decide)).trans <| rfl))

theorem V5_va2 (c : Dev nD) : (Gen.V5 m outs c main_v108 : FVec F S128 .f32) = vecSl2 (m ((c : Thread nD τ).loc main_arg14)) := by
  have e : (Gen.V5 m outs c main_v108 : FVec F S128 .f32) = vecSl2 (Gen.V4 m outs c main_arg14) := by
    dsimp only [Gen.V5, Gen.hostOps2]; after_results_simp; rfl
  exact e.trans (congrArg vecSl2 ((Gen.V4_of m outs c main_arg14 (by decide)).trans <| (Gen.V3_of m outs c main_arg14 (by decide)).trans <| (Gen.V2_of m outs c main_arg14 (by decide)).trans <| (Gen.V1_of m c main_arg14 (by decide)).trans <| rfl))

/-! ## Before layer 3 -/

theorem V6_src (c : Dev nD) : (Gen.V6 m outs c main_v1 : IVec S800000 32) = srcRow (m ((c : Thread nD τ).loc main_arg1)) :=
  (Gen.V6_of m outs c main_v1 (by decide)).trans <| (Gen.V5_of m outs c main_v1 (by decide)).trans <| (Gen.V4_of m outs c main_v1 (by decide)).trans <| (Gen.V3_of m outs c main_v1 (by decide)).trans <| (Gen.V2_of m outs c main_v1 (by decide)).trans <| V1_src m c

theorem V6_dst (c : Dev nD) : (Gen.V6 m outs c main_v3 : IVec S800000 32) = dstRow (m ((c : Thread nD τ).loc main_arg1)) :=
  (Gen.V6_of m outs c main_v3 (by decide)).trans <| (Gen.V5_of m outs c main_v3 (by decide)).trans <| (Gen.V4_of m outs c main_v3 (by decide)).trans <| (Gen.V3_of m outs c main_v3 (by decide)).trans <| (Gen.V2_of m outs c main_v3 (by decide)).trans <| V1_dst m c

theorem V7_agg (c : Dev nD) : (Gen.V7 m outs c main_v119 : FVec F S50000x128 .f32) = aggT (outs 6 main_v109_0 c) (m ((c : Thread nD τ).loc main_arg1)) := by
  have e : (Gen.V7 m outs c main_v119 : FVec F S50000x128 .f32)
      = aggRows (Gen.V6 m outs c main_v109_0) (Gen.V6 m outs c main_v1) (Gen.V6 m outs c main_v3) := by
    dsimp only [Gen.V7, Gen.hostOps3]; after_results_simp; rfl
  exact e.trans (congr (congr (congrArg aggRows (V6_h m outs c)) (V6_src m outs c)) (V6_dst m outs c))

theorem V7_h (c : Dev nD) : Gen.V7 m outs c main_v109_0 = outs 6 main_v109_0 c :=
  (Gen.V7_of m outs c main_v109_0 (by decide)).trans (V6_h m outs c)

theorem V7_ids (c : Dev nD) : (Gen.V7 m outs c main_v4 : IVec S50000x1 32) = idsCol (m ((c : Thread nD τ).loc main_arg2)) :=
  (Gen.V7_of m outs c main_v4 (by decide)).trans <| (Gen.V6_of m outs c main_v4 (by decide)).trans <| (Gen.V5_of m outs c main_v4 (by decide)).trans <| (Gen.V4_of m outs c main_v4 (by decide)).trans <| (Gen.V3_of m outs c main_v4 (by decide)).trans <| (Gen.V2_of m outs c main_v4 (by decide)).trans <| V1_ids m c

theorem V7_W1 (c : Dev nD) : (Gen.V7 m outs c main_v121 : FVec F S128x128 .f32) = matSl3 (m ((c : Thread nD τ).loc main_arg3)) := by
  have e : (Gen.V7 m outs c main_v121 : FVec F S128x128 .f32) = matSl3 (Gen.V6 m outs c main_arg3) := by
    dsimp only [Gen.V7, Gen.hostOps3]; after_results_simp; rfl
  exact e.trans (congrArg matSl3 ((Gen.V6_of m outs c main_arg3 (by decide)).trans <| (Gen.V5_of m outs c main_arg3 (by decide)).trans <| (Gen.V4_of m outs c main_arg3 (by decide)).trans <| (Gen.V3_of m outs c main_arg3 (by decide)).trans <| (Gen.V2_of m outs c main_arg3 (by decide)).trans <| (Gen.V1_of m c main_arg3 (by decide)).trans <| rfl))

theorem V7_b1 (c : Dev nD) : (Gen.V7 m outs c main_v123 : FVec F S128 .f32) = vecSl3 (m ((c : Thread nD τ).loc main_arg4)) := by
  have e : (Gen.V7 m outs c main_v123 : FVec F S128 .f32) = vecSl3 (Gen.V6 m outs c main_arg4) := by
    dsimp only [Gen.V7, Gen.hostOps3]; after_results_simp; rfl
  exact e.trans (congrArg vecSl3 ((Gen.V6_of m outs c main_arg4 (by decide)).trans <| (Gen.V5_of m outs c main_arg4 (by decide)).trans <| (Gen.V4_of m outs c main_arg4 (by decide)).trans <| (Gen.V3_of m outs c main_arg4 (by decide)).trans <| (Gen.V2_of m outs c main_arg4 (by decide)).trans <| (Gen.V1_of m c main_arg4 (by decide)).trans <| rfl))

theorem V7_g1 (c : Dev nD) : (Gen.V7 m outs c main_v125 : FVec F S128 .f32) = vecSl3 (m ((c : Thread nD τ).loc main_arg5)) := by
  have e : (Gen.V7 m outs c main_v125 : FVec F S128 .f32) = vecSl3 (Gen.V6 m outs c main_arg5) := by
    dsimp only [Gen.V7, Gen.hostOps3]; after_results_simp; rfl
  exact e.trans (congrArg vecSl3 ((Gen.V6_of m outs c main_arg5 (by decide)).trans <| (Gen.V5_of m outs c main_arg5 (by decide)).trans <| (Gen.V4_of m outs c main_arg5 (by decide)).trans <| (Gen.V3_of m outs c main_arg5 (by decide)).trans <| (Gen.V2_of m outs c main_arg5 (by decide)).trans <| (Gen.V1_of m c main_arg5 (by decide)).trans <| rfl))

theorem V7_be1 (c : Dev nD) : (Gen.V7 m outs c main_v127 : FVec F S128 .f32) = vecSl3 (m ((c : Thread nD τ).loc main_arg6)) := by
  have e : (Gen.V7 m outs c main_v127 : FVec F S128 .f32) = vecSl3 (Gen.V6 m outs c main_arg6) := by
    dsimp only [Gen.V7, Gen.hostOps3]; after_results_simp; rfl
  exact e.trans (congrArg vecSl3 ((Gen.V6_of m outs c main_arg6 (by decide)).trans <| (Gen.V5_of m outs c main_arg6 (by decide)).trans <| (Gen.V4_of m outs c main_arg6 (by decide)).trans <| (Gen.V3_of m outs c main_arg6 (by decide)).trans <| (Gen.V2_of m outs c main_arg6 (by decide)).trans <| (Gen.V1_of m c main_arg6 (by decide)).trans <| rfl))

theorem V7_mu1 (c : Dev nD) : (Gen.V7 m outs c main_v129 : FVec F S128 .f32) = vecSl3 (m ((c : Thread nD τ).loc main_arg7)) := by
  have e : (Gen.V7 m outs c main_v129 : FVec F S128 .f32) = vecSl3 (Gen.V6 m outs c main_arg7) := by
    dsimp only [Gen.V7, Gen.hostOps3]; after_results_simp; rfl
  exact e.trans (congrArg vecSl3 ((Gen.V6_of m outs c main_arg7 (by decide)).trans <| (Gen.V5_of m outs c main_arg7 (by decide)).trans <| (Gen.V4_of m outs c main_arg7 (by decide)).trans <| (Gen.V3_of m outs c main_arg7 (by decide)).trans <| (Gen.V2_of m outs c main_arg7 (by decide)).trans <| (Gen.V1_of m c main_arg7 (by decide)).trans <| rfl))

theorem V7_va1 (c : Dev nD) : (Gen.V7 m outs c main_v131 : FVec F S128 .f32) = vecSl3 (m ((c : Thread nD τ).loc main_arg8)) := by
  have e : (Gen.V7 m outs c main_v131 : FVec F S128 .f32) = vecSl3 (Gen.V6 m outs c main_arg8) := by
    dsimp only [Gen.V7, Gen.hostOps3]; after_results_simp; rfl
  exact e.trans (congrArg vecSl3 ((Gen.V6_of m outs c main_arg8 (by decide)).trans <| (Gen.V5_of m outs c main_arg8 (by decide)).trans <| (Gen.V4_of m outs c main_arg8 (by decide)).trans <| (Gen.V3_of m outs c main_arg8 (by decide)).trans <| (Gen.V2_of m outs c main_arg8 (by decide)).trans <| (Gen.V1_of m c main_arg8 (by decide)).trans <| rfl))

theorem V7_W2 (c : Dev nD) : (Gen.V7 m outs c main_v133 : FVec F S128x128 .f32) = matSl3 (m ((c : Thread nD τ).loc main_arg9)) := by
  have e : (Gen.V7 m outs c main_v133 : FVec F S128x128 .f32) = matSl3 (Gen.V6 m outs c main_arg9) := by
    dsimp only [Gen.V7, Gen.hostOps3]; after_results_simp; rfl
  exact e.trans (congrArg matSl3 ((Gen.V6_of m outs c main_arg9 (by decide)).trans <| (Gen.V5_of m outs c main_arg9 (by decide)).trans <| (Gen.V4_of m outs c main_arg9 (by decide)).trans <| (Gen.V3_of m outs c main_arg9 (by decide)).trans <| (Gen.V2_of m outs c main_arg9 (by decide)).trans <| (Gen.V1_of m c main_arg9 (by decide)).trans <| rfl))

theorem V7_b2 (c : Dev nD) : (Gen.V7 m outs c main_v135 : FVec F S128 .f32) = vecSl3 (m ((c : Thread nD τ).loc main_arg10)) := by
  have e : (Gen.V7 m outs c main_v135 : FVec F S128 .f32) = vecSl3 (Gen.V6 m outs c main_arg10) := by
    dsimp only [Gen.V7, Gen.hostOps3]; after_results_simp; rfl
  exact e.trans (congrArg vecSl3 ((Gen.V6_of m outs c main_arg10 (by decide)).trans <| (Gen.V5_of m outs c main_arg10 (by decide)).trans <| (Gen.V4_of m outs c main_arg10 (by decide)).trans <| (Gen.V3_of m outs c main_arg10 (by decide)).trans <| (Gen.V2_of m outs c main_arg10 (by decide)).trans <| (Gen.V1_of m c main_arg10 (by decide)).trans <| rfl))

theorem V7_g2 (c : Dev nD) : (Gen.V7 m outs c main_v137 : FVec F S128 .f32) = vecSl3 (m ((c : Thread nD τ).loc main_arg11)) := by
  have e : (Gen.V7 m outs c main_v137 : FVec F S128 .f32) = vecSl3 (Gen.V6 m outs c main_arg11) := by
    dsimp only [Gen.V7, Gen.hostOps3]; after_results_simp; rfl
  exact e.trans (congrArg vecSl3 ((Gen.V6_of m outs c main_arg11 (by decide)).trans <| (Gen.V5_of m outs c main_arg11 (by decide)).trans <| (Gen.V4_of m outs c main_arg11 (by decide)).trans <| (Gen.V3_of m outs c main_arg11 (by decide)).trans <| (Gen.V2_of m outs c main_arg11 (by decide)).trans <| (Gen.V1_of m c main_arg11 (by decide)).trans <| rfl))

theorem V7_be2 (c : Dev nD) : (Gen.V7 m outs c main_v139 : FVec F S128 .f32) = vecSl3 (m ((c : Thread nD τ).loc main_arg12)) := by
  have e : (Gen.V7 m outs c main_v139 : FVec F S128 .f32) = vecSl3 (Gen.V6 m outs c main_arg12) := by
    dsimp only [Gen.V7, Gen.hostOps3]; after_results_simp; rfl
  exact e.trans (congrArg vecSl3 ((Gen.V6_of m outs c main_arg12 (by decide)).trans <| (Gen.V5_of m outs c main_arg12 (by decide)).trans <| (Gen.V4_of m outs c main_arg12 (by decide)).trans <| (Gen.V3_of m outs c main_arg12 (by decide)).trans <| (Gen.V2_of m outs c main_arg12 (by decide)).trans <| (Gen.V1_of m c main_arg12 (by decide)).trans <| rfl))

theorem V7_mu2 (c : Dev nD) : (Gen.V7 m outs c main_v141 : FVec F S128 .f32) = vecSl3 (m ((c : Thread nD τ).loc main_arg13)) := by
  have e : (Gen.V7 m outs c main_v141 : FVec F S128 .f32) = vecSl3 (Gen.V6 m outs c main_arg13) := by
    dsimp only [Gen.V7, Gen.hostOps3]; after_results_simp; rfl
  exact e.trans (congrArg vecSl3 ((Gen.V6_of m outs c main_arg13 (by decide)).trans <| (Gen.V5_of m outs c main_arg13 (by decide)).trans <| (Gen.V4_of m outs c main_arg13 (by decide)).trans <| (Gen.V3_of m outs c main_arg13 (by decide)).trans <| (Gen.V2_of m outs c main_arg13 (by decide)).trans <| (Gen.V1_of m c main_arg13 (by decide)).trans <| rfl))

theorem V7_va2 (c : Dev nD) : (Gen.V7 m outs c main_v143 : FVec F S128 .f32) = vecSl3 (m ((c : Thread nD τ).loc main_arg14)) := by
  have e : (Gen.V7 m outs c main_v143 : FVec F S128 .f32) = vecSl3 (Gen.V6 m outs c main_arg14) := by
    dsimp only [Gen.V7, Gen.hostOps3]; after_results_simp; rfl
  exact e.trans (congrArg vecSl3 ((Gen.V6_of m outs c main_arg14 (by decide)).trans <| (Gen.V5_of m outs c main_arg14 (by decide)).trans <| (Gen.V4_of m outs c main_arg14 (by decide)).trans <| (Gen.V3_of m outs c main_arg14 (by decide)).trans <| (Gen.V2_of m outs c main_arg14 (by decide)).trans <| (Gen.V1_of m c main_arg14 (by decide)).trans <| rfl))

/-! ## Before the classifier -/

theorem V9_feat (c : Dev nD) : (Gen.V9 m outs c main_v145 : FVec F S512x512 .f32)
    = feat4 (outs 2 main_v39_1 c) (outs 4 main_v74_1 c) (outs 6 main_v109_1 c) (outs 8 main_v144_1 c) := by
  have e : (Gen.V9 m outs c main_v145 : FVec F S512x512 .f32)
      = feat4 (Gen.V8 m outs c main_v39_1) (Gen.V8 m outs c main_v74_1) (Gen.V8 m outs c main_v109_1) (Gen.V8 m outs c main_v144_1) := by
    dsimp only [Gen.V9, Gen.hostOps4]; after_results_simp; rfl
  exact e.trans (congr (congr (congr (congrArg feat4
    ((Gen.V8_of m outs c main_v39_1 (by decide)).trans <| (Gen.V7_of m outs c main_v39_1 (by decide)).trans <| (Gen.V6_of m outs c main_v39_1 (by decide)).trans <| (Gen.V5_of m outs c main_v39_1 (by decide)).trans <| (Gen.V4_of m outs c main_v39_1 (by decide)).trans <| (Gen.V3_of m outs c main_v39_1 (by decide)).trans <| V2_pool m outs c))
    ((Gen.V8_of m outs c main_v74_1 (by decide)).trans <| (Gen.V7_of m outs c main_v74_1 (by decide)).trans <| (Gen.V6_of m outs c main_v74_1 (by decide)).trans <| (Gen.V5_of m outs c main_v74_1 (by decide)).trans <| V4_pool m outs c))
    ((Gen.V8_of m outs c main_v109_1 (by decide)).trans <| (Gen.V7_of m outs c main_v109_1 (by decide)).trans <| V6_pool m outs c))
    (V8_pool m outs c))

theorem V9_Wc1 (c : Dev nD) : Gen.V9 m outs c main_arg15 = m ((c : Thread nD τ).loc main_arg15) :=
  (Gen.V9_of m outs c main_arg15 (by decide)).trans <| (Gen.V8_of m outs c main_arg15 (by decide)).trans <| (Gen.V7_of m outs c main_arg15 (by decide)).trans <| (Gen.V6_of m outs c main_arg15 (by decide)).trans <| (Gen.V5_of m outs c main_arg15 (by decide)).trans <| (Gen.V4_of m outs c main_arg15 (by decide)).trans <| (Gen.V3_of m outs c main_arg15 (by decide)).trans <| (Gen.V2_of m outs c main_arg15 (by decide)).trans <| (Gen.V1_of m c main_arg15 (by decide)).trans <| rfl

theorem V9_bc1 (c : Dev nD) : Gen.V9 m outs c main_arg16 = m ((c : Thread nD τ).loc main_arg16) :=
  (Gen.V9_of m outs c main_arg16 (by decide)).trans <| (Gen.V8_of m outs c main_arg16 (by decide)).trans <| (Gen.V7_of m outs c main_arg16 (by decide)).trans <| (Gen.V6_of m outs c main_arg16 (by decide)).trans <| (Gen.V5_of m outs c main_arg16 (by decide)).trans <| (Gen.V4_of m outs c main_arg16 (by decide)).trans <| (Gen.V3_of m outs c main_arg16 (by decide)).trans <| (Gen.V2_of m outs c main_arg16 (by decide)).trans <| (Gen.V1_of m c main_arg16 (by decide)).trans <| rfl

theorem V9_Wc2 (c : Dev nD) : Gen.V9 m outs c main_arg17 = m ((c : Thread nD τ).loc main_arg17) :=
  (Gen.V9_of m outs c main_arg17 (by decide)).trans <| (Gen.V8_of m outs c main_arg17 (by decide)).trans <| (Gen.V7_of m outs c main_arg17 (by decide)).trans <| (Gen.V6_of m outs c main_arg17 (by decide)).trans <| (Gen.V5_of m outs c main_arg17 (by decide)).trans <| (Gen.V4_of m outs c main_arg17 (by decide)).trans <| (Gen.V3_of m outs c main_arg17 (by decide)).trans <| (Gen.V2_of m outs c main_arg17 (by decide)).trans <| (Gen.V1_of m c main_arg17 (by decide)).trans <| rfl

theorem V9_bc2 (c : Dev nD) : Gen.V9 m outs c main_arg18 = m ((c : Thread nD τ).loc main_arg18) :=
  (Gen.V9_of m outs c main_arg18 (by decide)).trans <| (Gen.V8_of m outs c main_arg18 (by decide)).trans <| (Gen.V7_of m outs c main_arg18 (by decide)).trans <| (Gen.V6_of m outs c main_arg18 (by decide)).trans <| (Gen.V5_of m outs c main_arg18 (by decide)).trans <| (Gen.V4_of m outs c main_arg18 (by decide)).trans <| (Gen.V3_of m outs c main_arg18 (by decide)).trans <| (Gen.V2_of m outs c main_arg18 (by decide)).trans <| (Gen.V1_of m c main_arg18 (by decide)).trans <| rfl

end Cert.KernelIdeal.Hand

end
-- ==== Proof.Spec.lean ====
/-
  What both programs compute, index by index, on the extended reals.

  A graph-isomorphism layer at node `n`, feature `d`:
    t   = agg n + h n                      (the neighbours' sum plus the node itself)
    u k = relu (bn₁ (∑ i, t i · W₁ i k + b₁ k))
    out = relu (bn₂ (∑ k, u k · W₂ k d + b₂ d))
  with the inference batch norm  bn x = (x − μ) · rsqrt (v + ε) · γ + β  at the feature's own parameters and
  `ε` the single-precision word both programs print for 1e-5.
  The pool of graph `g` sums the rows of the nodes whose graph id is `g`; a node whose id names no graph adds nothing.
  The head is two dense layers with a relu between them.
-/
import Idealize.ShloMosaic.PureOps.Ideal
import Idealize.ShloMosaic.Lib.ValueIdx

noncomputable section

namespace Cert.Spec

open Idealize.ShloMosaic Idealize.ShloMosaic.ValueIdx

/-- Node features, one row per node. -/
abbrev SNodes : Shape := ⟨2, ![50000, 128]⟩
/-- A square weight matrix of a layer. -/
abbrev SMat : Shape := ⟨2, ![128, 128]⟩
/-- A per-feature parameter vector. -/
abbrev SVec : Shape := ⟨1, ![128]⟩
/-- The graph id of every node. -/
abbrev SIds : Shape := ⟨1, ![50000]⟩
/-- One pooled row per graph. -/
abbrev SPool : Shape := ⟨2, ![512, 128]⟩
/-- The four pools side by side. -/
abbrev SFeat : Shape := ⟨2, ![512, 512]⟩
abbrev SW1 : Shape := ⟨2, ![512, 128]⟩
abbrev SW2 : Shape := ⟨2, ![128, 10]⟩
abbrev SB2 : Shape := ⟨1, ![10]⟩
abbrev SOut : Shape := ⟨2, ![512, 10]⟩

/-- The variance offset: the single-precision word of 1e-5, the same word in both programs. -/
def eps : EReal := Ideal.ofBits .f32 0x3727C5AC#32

/-- Inference batch norm followed by relu, at one feature, grouped as the reference groups it. -/
def bnRelu (x mu va g be : EReal) : EReal := max ((x - mu) * Ideal.rsqrt (va + eps) * g + be) 0

/-- The first dense layer of a graph-isomorphism layer at node `n`, hidden feature `k`. -/
def hiddenAt (agg h : SNodes.Idx → EReal) (W1 : SMat.Idx → EReal) (b1 g1 be1 mu1 va1 : SVec.Idx → EReal)
    (n : Fin 50000) (k : Fin 128) : EReal :=
  bnRelu ((∑ i : Fin 128, (agg (ix2 n i) + h (ix2 n i)) * W1 (ix2 i k)) + b1 (ix1 k))
    (mu1 (ix1 k)) (va1 (ix1 k)) (g1 (ix1 k)) (be1 (ix1 k))

/-- A whole graph-isomorphism layer at node `n`, feature `d`. -/
def layerAt (agg h : SNodes.Idx → EReal) (W1 : SMat.Idx → EReal) (b1 g1 be1 mu1 va1 : SVec.Idx → EReal)
    (W2 : SMat.Idx → EReal) (b2 go beo muo vao : SVec.Idx → EReal) (n : Fin 50000) (d : Fin 128) : EReal :=
  bnRelu ((∑ k : Fin 128, hiddenAt agg h W1 b1 g1 be1 mu1 va1 n k * W2 (ix2 k d)) + b2 (ix1 d))
    (muo (ix1 d)) (vao (ix1 d)) (go (ix1 d)) (beo (ix1 d))

/-- The layer as an array. -/
def layer (agg h : SNodes.Idx → EReal) (W1 : SMat.Idx → EReal) (b1 g1 be1 mu1 va1 : SVec.Idx → EReal)
    (W2 : SMat.Idx → EReal) (b2 go beo muo vao : SVec.Idx → EReal) : SNodes.Idx → EReal :=
  fun j => layerAt agg h W1 b1 g1 be1 mu1 va1 W2 b2 go beo muo vao (j 0) (j 1)

/-- The pool of graph `g` at feature `d`: the sum over the nodes whose (signed) graph id is `g`. -/
def poolAt (h : SNodes.Idx → EReal) (ids : SIds.Idx → BitVec 32) (g : Fin 512) (d : Fin 128) : EReal :=
  ∑ n : Fin 50000, if (ids (ix1 n)).toInt = (g.val : ℤ) then h (ix2 n d) else 0

/-- The pool as an array. -/
def pool (h : SNodes.Idx → EReal) (ids : SIds.Idx → BitVec 32) : SPool.Idx → EReal :=
  fun j => poolAt h ids (j 0) (j 1)

/-- The classifier head at graph `g`, class `c`. -/
def headAt (feat : SFeat.Idx → EReal) (Wc1 : SW1.Idx → EReal) (bc1 : SVec.Idx → EReal) (Wc2 : SW2.Idx → EReal)
    (bc2 : SB2.Idx → EReal) (g : Fin 512) (c : Fin 10) : EReal :=
  (∑ k : Fin 128, max ((∑ f : Fin 512, feat (ix2 g f) * Wc1 (ix2 f k)) + bc1 (ix1 k)) 0 * Wc2 (ix2 k c)) + bc2 (ix1 c)

/-- The head as an array. -/
def head (feat : SFeat.Idx → EReal) (Wc1 : SW1.Idx → EReal) (bc1 : SVec.Idx → EReal) (Wc2 : SW2.Idx → EReal)
    (bc2 : SB2.Idx → EReal) : SOut.Idx → EReal :=
  fun j => headAt feat Wc1 bc1 Wc2 bc2 (j 0) (j 1)

end Cert.Spec

end
-- ==== Proof.KI.Net.lean ====
/-
  The network both programs compute, as one closed form over @main's nineteen arguments, on the extended reals.

  Layer `k` is the specification's graph-isomorphism layer on the previous features, their neighbour sum over the edge
  list, and the `k`-th slices of the stacked parameters; the first layer starts from the input features. Each layer's
  features are pooled per graph at the graph ids, the four pools are put side by side and the specification's head is
  applied to them.
-/
import proofs.«426741_j36421322670671_1_alg».proof.Proof.KI.HostGlue
import proofs.«426741_j36421322670671_1_alg».proof.Proof.Spec

noncomputable section

namespace Cert.KernelIdeal.Hand

open Cert.KernelIdeal Cert.KernelIdeal.Gen Idealize.ShloMosaic

/-- The node features after the first layer, over @main's arguments. -/
def netH1 (x0 : FVec Ideal S50000x128 .f32) (x1 : IVec S2x800000 32) (x3 : FVec Ideal S4x128x128 .f32) (x4 x5 x6 x7 x8 : FVec Ideal S4x128 .f32) (x9 : FVec Ideal S4x128x128 .f32) (x10 x11 x12 x13 x14 : FVec Ideal S4x128 .f32) : FVec Ideal S50000x128 .f32 :=
  Cert.Spec.layer (aggT x0 x1) x0 (matSl0 x3) (vecSl0 x4) (vecSl0 x5) (vecSl0 x6) (vecSl0 x7) (vecSl0 x8) (matSl0 x9) (vecSl0 x10) (vecSl0 x11) (vecSl0 x12) (vecSl0 x13) (vecSl0 x14)

/-- The node features after the second layer. -/
def netH2 (x0 : FVec Ideal S50000x128 .f32) (x1 : IVec S2x800000 32) (x3 : FVec Ideal S4x128x128 .f32) (x4 x5 x6 x7 x8 : FVec Ideal S4x128 .f32) (x9 : FVec Ideal S4x128x128 .f32) (x10 x11 x12 x13 x14 : FVec Ideal S4x128 .f32) : FVec Ideal S50000x128 .f32 :=
  Cert.Spec.layer (aggT (netH1 x0 x1 x3 x4 x5 x6 x7 x8 x9 x10 x11 x12 x13 x14) x1) (netH1 x0 x1 x3 x4 x5 x6 x7 x8 x9 x10 x11 x12 x13 x14) (matSl1 x3) (vecSl1 x4) (vecSl1 x5) (vecSl1 x6) (vecSl1 x7) (vecSl1 x8) (matSl1 x9) (vecSl1 x10) (vecSl1 x11) (vecSl1 x12) (vecSl1 x13) (vecSl1 x14)

/-- The node features after the third layer. -/
def netH3 (x0 : FVec Ideal S50000x128 .f32) (x1 : IVec S2x800000 32) (x3 : FVec Ideal S4x128x128 .f32) (x4 x5 x6 x7 x8 : FVec Ideal S4x128 .f32) (x9 : FVec Ideal S4x128x128 .f32) (x10 x11 x12 x13 x14 : FVec Ideal S4x128 .f32) : FVec Ideal S50000x128 .f32 :=
  Cert.Spec.layer (aggT (netH2 x0 x1 x3 x4 x5 x6 x7 x8 x9 x10 x11 x12 x13 x14) x1) (netH2 x0 x1 x3 x4 x5 x6 x7 x8 x9 x10 x11 x12 x13 x14) (matSl2 x3) (vecSl2 x4) (vecSl2 x5) (vecSl2 x6) (vecSl2 x7) (vecSl2 x8) (matSl2 x9) (vecSl2 x10) (vecSl2 x11) (vecSl2 x12) (vecSl2 x13) (vecSl2 x14)

/-- The node features after the fourth layer. -/
def netH4 (x0 : FVec Ideal S50000x128 .f32) (x1 : IVec S2x800000 32) (x3 : FVec Ideal S4x128x128 .f32) (x4 x5 x6 x7 x8 : FVec Ideal S4x128 .f32) (x9 : FVec Ideal S4x128x128 .f32) (x10 x11 x12 x13 x14 : FVec Ideal S4x128 .f32) : FVec Ideal S50000x128 .f32 :=
  Cert.Spec.layer (aggT (netH3 x0 x1 x3 x4 x5 x6 x7 x8 x9 x10 x11 x12 x13 x14) x1) (netH3 x0 x1 x3 x4 x5 x6 x7 x8 x9 x10 x11 x12 x13 x14) (matSl3 x3) (vecSl3 x4) (vecSl3 x5) (vecSl3 x6) (vecSl3 x7) (vecSl3 x8) (matSl3 x9) (vecSl3 x10) (vecSl3 x11) (vecSl3 x12) (vecSl3 x13) (vecSl3 x14)

/-- The whole network: the head on the four layers' pools side by side. -/
def net (x0 : FVec Ideal S50000x128 .f32) (x1 : IVec S2x800000 32) (x2 : IVec S50000 32) (x3 : FVec Ideal S4x128x128 .f32) (x4 x5 x6 x7 x8 : FVec Ideal S4x128 .f32) (x9 : FVec Ideal S4x128x128 .f32) (x10 x11 x12 x13 x14 : FVec Ideal S4x128 .f32) (x15 : FVec Ideal S512x128 .f32) (x16 : FVec Ideal S128 .f32) (x17 : FVec Ideal S128x10 .f32) (x18 : FVec Ideal S10 .f32) : S512x10.Idx → EReal :=
  Cert.Spec.head (feat4 (F := Ideal) (Cert.Spec.pool (netH1 x0 x1 x3 x4 x5 x6 x7 x8 x9 x10 x11 x12 x13 x14) x2) (Cert.Spec.pool (netH2 x0 x1 x3 x4 x5 x6 x7 x8 x9 x10 x11 x12 x13 x14) x2)
    (Cert.Spec.pool (netH3 x0 x1 x3 x4 x5 x6 x7 x8 x9 x10 x11 x12 x13 x14) x2) (Cert.Spec.pool (netH4 x0 x1 x3 x4 x5 x6 x7 x8 x9 x10 x11 x12 x13 x14) x2)) x15 x16 x17 x18

end Cert.KernelIdeal.Hand

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KI.C4Value.lean ====
/-
  The classifier's output array after its region is the head of its five input arrays:
  two dense layers with a relu between them, read index by index on the extended reals.
-/
import proofs.«426741_j36421322670671_1_alg».proof.Proof.KI.C4Dat
import proofs.«426741_j36421322670671_1_alg».proof.Proof.Spec
import proofs.«426741_j36421322670671_1_alg».proof.Proof.LibMatmul
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's payload, index by index -/

/-- The first product's dimension numbers are the plain ones of a 512×512 by 512×128 product. -/
theorem dims_hidden : dot_S512x512_S512x128_S512x128_1_0_0_1_n_n = DotDims.plain 512 512 128 := rfl

/-- The second product's dimension numbers are the plain ones of a 512×128 by 128×10 product. -/
theorem dims_scores : dot_S512x128_S128x10_S512x10_1_0_0_1_n_n = DotDims.plain 512 128 10 := rfl

/-- The hidden layer at graph `g`, unit `k`: the features' row against the first weights' column, plus the bias, clipped at zero. -/
theorem hidden_apply (x0 : Vec Ideal S512x512 .f32) (x1 : Vec Ideal S512x128 .f32) (x2 : Vec Ideal S128 .f32) (g : Fin 512) (k : Fin 128) :
    (maximumf (addf (matmul dot_S512x512_S512x128_S512x128_1_0_0_1_n_n none
          (truncf .bf16 (shapeCast S512x512 x0 shapeCasts_S512x512_S512x512) bitsLt_bf16_f32) (truncf .bf16 x1 bitsLt_bf16_f32)
          (constant (F := Ideal) S512x128 .f32 0x00000000#32))
        (broadcastTo S512x128 (shapeCast S1x128 x2 shapeCasts_S128_S1x128) broadcasts_S1x128_S512x128))
      (broadcast S512x128 (Scalar.ofBits (F := Ideal) .f32 0x00000000#32)) : FVec Ideal S512x128 .f32) (ix2 g k)
      = max ((∑ f : Fin 512, x0 (ix2 g f) * x1 (ix2 f k)) + x2 (ix1 k)) 0 := by
  rw [maximumf_apply, addf_apply, broadcast_apply]
  rw [dims_hidden]
  refine congrArg₂ max (congrArg₂ (· + ·) ?_ ?_) ?_
  · refine (Cert.Matmul.matmul_plain_apply none _ _ g k).trans ?_
    refine Finset.sum_congr rfl fun f _ => ?_
    rw [truncf_apply, truncf_apply, shapeCast_self]
  · refine (broadcastTo_1b_ab_apply _ _ g k).trans ?_
    exact shapeCast_a_1a_apply x2 _ 0 k
  · exact Ideal.ofBits_zero_f32

/-- The body's payload at graph `g`, class `q`: the head of the five loaded arrays there. -/
theorem payload_apply (x0 : Vec Ideal S512x512 .f32) (x1 : Vec Ideal S512x128 .f32) (x2 : Vec Ideal S128 .f32)
    (x3 : Vec Ideal S128x10 .f32) (x4 : Vec Ideal S10 .f32) (g : Fin 512) (q : Fin 10) :
    (k4_pay1 (F := Ideal) x0 x1 x2 x3 x4 : FVec Ideal S512x10 .f32) (ix2 g q) = Cert.Spec.headAt x0 x1 x2 x3 x4 g q := by
  unfold k4_pay1 Cert.Spec.headAt
  refine (addf_apply _ _ _).trans ?_
  refine congrArg₂ (· + ·) ?_ ?_
  · rw [dims_scores]
    refine (Cert.Matmul.matmul_plain_apply none _ _ g q).trans ?_
    refine Finset.sum_congr rfl fun k _ => ?_
    refine congrArg₂ (· * ·) ?_ ?_
    · exact hidden_apply x0 x1 x2 g k
    · rfl
  · refine (broadcastTo_1b_ab_apply _ _ g q).trans ?_
    exact shapeCast_a_1a_apply x4 _ 0 q

/-- The body's payload is the head of the five loaded arrays. -/
theorem payload_eq_head (x0 : Vec Ideal S512x512 .f32) (x1 : Vec Ideal S512x128 .f32) (x2 : Vec Ideal S128 .f32)
    (x3 : Vec Ideal S128x10 .f32) (x4 : Vec Ideal S10 .f32) :
    (k4_pay1 (F := Ideal) x0 x1 x2 x3 x4 : S512x10.Idx → EReal) = Cert.Spec.head x0 x1 x2 x3 x4 := by
  funext j
  obtain ⟨g, q, rfl⟩ : ∃ (g : Fin 512) (q : Fin 10), j = ix2 g q := ⟨j 0, j 1, eq_ix2 j⟩
  exact payload_apply x0 x1 x2 x3 x4 g q

variable {F : FTy → Type} [FloatOps F]

/-! ## Each window's one block is its whole array -/

/-- Window 0's one block is its whole array. -/
theorem iblkC4_0_eq (V : (c : Dev nD) → (b : Ref sig .tc) → Buf (Elt F) ((c : Thread nD τ).loc b)) (c : Dev nD) (t : Fin cfg4.N) :
    iblkC4 V c 0 t = V c (Pipeline.arrRef spec4 0) := by
  have hz' : (fun a => win4_0.index t a * main_v145.ty.shape.size a) = fun _ => 0 := funext fun a => by fin_cases a <;> rfl
  exact Memref.read_access_unit_zero (Elt F) main_v145 hz' (fun a => by rw [congrFun hz' a]; simp) (V c main_v145)

/-- Window 1's one block is its whole array. -/
theorem iblkC4_1_eq (V : (c : Dev nD) → (b : Ref sig .tc) → Buf (Elt F) ((c : Thread nD τ).loc b)) (c : Dev nD) (t : Fin cfg4.N) :
    iblkC4 V c 1 t = V c (Pipeline.arrRef spec4 1) := by
  have hz' : (fun a => win4_1.index t a * main_arg15.ty.shape.size a) = fun _ => 0 := funext fun a => by fin_cases a <;> rfl
  exact Memref.read_access_unit_zero (Elt F) main_arg15 hz' (fun a => by rw [congrFun hz' a]; simp) (V c main_arg15)

/-- Window 2's one block is its whole array. -/
theorem iblkC4_2_eq (V : (c : Dev nD) → (b : Ref sig .tc) → Buf (Elt F) ((c : Thread nD τ).loc b)) (c : Dev nD) (t : Fin cfg4.N) :
    iblkC4 V c 2 t = V c (Pipeline.arrRef spec4 2) := by
  have hz' : (fun a => win4_2.index t a * main_arg16.ty.shape.size a) = fun _ => 0 := funext fun a => by fin_cases a <;> rfl
  exact Memref.read_access_unit_zero (Elt F) main_arg16 hz' (fun a => by rw [congrFun hz' a]; simp) (V c main_arg16)

/-- Window 3's one block is its whole array. -/
theorem iblkC4_3_eq (V : (c : Dev nD) → (b : Ref sig .tc) → Buf (Elt F) ((c : Thread nD τ).loc b)) (c : Dev nD) (t : Fin cfg4.N) :
    iblkC4 V c 3 t = V c (Pipeline.arrRef spec4 3) := by
  have hz' : (fun a => win4_3.index t a * main_arg17.ty.shape.size a) = fun _ => 0 := funext fun a => by fin_cases a <;> rfl
  exact Memref.read_access_unit_zero (Elt F) main_arg17 hz' (fun a => by rw [congrFun hz' a]; simp) (V c main_arg17)

/-- Window 4's one block is its whole array. -/
theorem iblkC4_4_eq (V : (c : Dev nD) → (b : Ref sig .tc) → Buf (Elt F) ((c : Thread nD τ).loc b)) (c : Dev nD) (t : Fin cfg4.N) :
    iblkC4 V c 4 t = V c (Pipeline.arrRef spec4 4) := by
  have hz' : (fun a => win4_4.index t a * main_arg18.ty.shape.size a) = fun _ => 0 := funext fun a => by fin_cases a <;> rfl
  exact Memref.read_access_unit_zero (Elt F) main_arg18 hz' (fun a => by rw [congrFun hz' a]; simp) (V c main_arg18)

/-! ## The scores are the head of the input arrays -/

/-- What the body leaves in the output's buffer is the head of the five arrays as the region finds them. -/
theorem scoresC4_eq_head (V : (c : Dev nD) → (b : Ref sig .tc) → Buf (Elt Ideal) ((c : Thread nD τ).loc b)) (c : Dev nD) (t : Fin cfg4.N) :
    (scoresC4 (F := Ideal) V c t : S512x10.Idx → EReal) = Cert.Spec.head (V c (Pipeline.arrRef spec4 0)) (V c (Pipeline.arrRef spec4 1))
      (V c (Pipeline.arrRef spec4 2)) (V c (Pipeline.arrRef spec4 3)) (V c (Pipeline.arrRef spec4 4)) := by
  rw [scoresC4_eq, iblkC4_0_eq, iblkC4_1_eq, iblkC4_2_eq, iblkC4_3_eq, iblkC4_4_eq]
  exact payload_eq_head _ _ _ _ _

/-- What the one point writes back is the one block of the head. -/
theorem flushedC4_eq (V : (c : Dev nD) → (b : Ref sig .tc) → Buf (Elt Ideal) ((c : Thread nD τ).loc b)) (c : Dev nD) (t : Fin cfg4.N) :
    (datC4 (F := Ideal) V c).flushed 5 t = ((cfg4.win 5).blk t).view.read (Elt Ideal) (Cert.Spec.head (V c (Pipeline.arrRef spec4 0))
      (V c (Pipeline.arrRef spec4 1)) (V c (Pipeline.arrRef spec4 2)) (V c (Pipeline.arrRef spec4 3)) (V c (Pipeline.arrRef spec4 4))) := by
  show (cfg4.win 5).cut (grid4.coords t) ((datC4 V c).after 5 t) = _
  rw [after5_C4, scoresC4_eq_head]
  have hz' : (fun a => win4_5.index t a * main_v146.ty.shape.size a) = fun _ => 0 := funext fun a => by fin_cases a <;> rfl
  exact (Memref.read_access_unit_zero (Elt Ideal) main_v146 hz' (fun a => by rw [congrFun hz' a]; simp) _).symm

/-- THE CLASSIFIER'S OUTPUT ARRAY after the region is the head of its five input arrays. -/
theorem scores_eq_head (V : (c : Dev nD) → (b : Ref sig .tc) → Buf (Elt Ideal) ((c : Thread nD τ).loc b)) (c : Dev nD) :
    ((datC4 (F := Ideal) V c).arrAt 5 cfg4.N : S512x10.Idx → EReal) = Cert.Spec.head (V c (Pipeline.arrRef spec4 0)) (V c (Pipeline.arrRef spec4 1))
      (V c (Pipeline.arrRef spec4 2)) (V c (Pipeline.arrRef spec4 3)) (V c (Pipeline.arrRef spec4 4)) :=
  (datC4 V c).arrAt_eq_of_cover 5 _ (fun t _ => flushedC4_eq V c t) fun i =>
    ⟨t4_0, flush4_5 t4_0, by
      show i ∈ ((View.whole main_v146).slice (win4_5.rect t4_0)).set
      rw [View.set_slice_whole, Rect.mem_set_unit]
      intro a
      have h0 : (i 0 : Nat) < 512 := (i 0).isLt
      have h1 : (i 1 : Nat) < 10 := (i 1).isLt
      match a with
      | ⟨0, _⟩ => show win4_5.index t4_0 0 * win4_5.size 0 ≤ (i 0 : Nat) ∧ (i 0 : Nat) < win4_5.index t4_0 0 * win4_5.size 0 + win4_5.xsize (grid4.coords t4_0) 0
                  rw [show win4_5.index t4_0 0 * win4_5.size 0 = 0 from by decide +kernel, show win4_5.xsize (grid4.coords t4_0) 0 = 512 from by decide +kernel]; omega
      | ⟨1, _⟩ => show win4_5.index t4_0 1 * win4_5.size 1 ≤ (i 1 : Nat) ∧ (i 1 : Nat) < win4_5.index t4_0 1 * win4_5.size 1 + win4_5.xsize (grid4.coords t4_0) 1
                  rw [show win4_5.index t4_0 1 * win4_5.size 1 = 0 from by decide +kernel, show win4_5.xsize (grid4.coords t4_0) 1 = 10 from by decide +kernel]; omega⟩

end Cert.KernelIdeal.Hand

end
-- ==== Proof.KI.L0Pieces.lean ====
/-
  Layer region 0, what the body's stores are in terms of the blocks it loads: the new node features of a tile are the
  second dense layer over the first; the pool after a point is the tile's one-hot contraction added to what the
  buffer held (zeros at the first point).
-/
import proofs.«426741_j36421322670671_1_alg».proof.Proof.KI.L0Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are zero, of two axes and of one. -/
theorem hz2_L0 : (![0, 0] : Fin 2 → Nat) = fun _ => 0 := funext fun a => by fin_cases a <;> rfl
theorem hz1_L0 : (![0] : Fin 1 → Nat) = fun _ => 0 := funext fun a => by fin_cases a <;> rfl

/-- The new node features the body stores at the first point, from the blocks it loads. -/
theorem outL0_A_15_eq (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    outL0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = k0_pay4 (k0_pay3 x0 x1 x3 x4 x7 x8 x5 x6) x9 x10 x13 x14 x11 x12 := by
  unfold outL0_A_15
  rw [View.read_writes_eq_canon _ _ _ (coverL0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRunL0_A
  dsimp only
  sl_unfold_words
  rw [View.canon_unit_zero hz2_L0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1000x128) hz2_L0, View.ld_unit_zero (S := S128x128) hz2_L0, View.ld_unit_zero (S := S1000x1) hz2_L0, View.ld_unit_zero (S := S512x128) hz2_L0, View.ld_unit_zero (S := S128) hz1_L0, View.readCov_unit_zero (S := S512x128) _ hz2_L0]

/-- The new node features the body stores at a later point, from the blocks it loads. -/
theorem outL0_B_15_eq (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    outL0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16 = k0_pay4 (k0_pay3 x0 x1 x3 x4 x7 x8 x5 x6) x9 x10 x13 x14 x11 x12 := by
  unfold outL0_B_15
  rw [View.read_writes_eq_canon _ _ _ (coverL0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16)]
  unfold kernelRunL0_B
  dsimp only
  sl_unfold_words
  rw [View.canon_unit_zero hz2_L0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1000x128) hz2_L0, View.ld_unit_zero (S := S128x128) hz2_L0, View.ld_unit_zero (S := S1000x1) hz2_L0, View.ld_unit_zero (S := S512x128) hz2_L0, View.ld_unit_zero (S := S128) hz1_L0, View.readCov_unit_zero (S := S512x128) _ hz2_L0]

/-- The pool the body leaves at the first point: the buffer is zeroed, read back, and the tile's pool added. -/
theorem outL0_A_16_eq (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    outL0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = k0_pay1 (k0_pay5 (k0_pay3 x0 x1 x3 x4 x7 x8 x5 x6) x9 x10 x13 x14 x11 x12 x2) (k0_pay2 (F := F)) := by
  unfold outL0_A_16
  rw [View.read_writes_eq_canon _ _ _ (coverL0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRunL0_A
  dsimp only
  sl_unfold_words
  rw [View.canon_cons_unit_zero (S := S512x128) hz2_L0, View.readCov_unit_zero (S := S512x128) _ hz2_L0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1000x128) hz2_L0, View.ld_unit_zero (S := S128x128) hz2_L0, View.ld_unit_zero (S := S1000x1) hz2_L0, View.ld_unit_zero (S := S512x128) hz2_L0, View.ld_unit_zero (S := S128) hz1_L0, View.readCov_unit_zero (S := S512x128) _ hz2_L0]

/-- The pool the body leaves at a later point: the tile's pool added to what the buffer held. -/
theorem outL0_B_16_eq (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL0_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    outL0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16 = k0_pay1 (k0_pay5 (k0_pay3 x0 x1 x3 x4 x7 x8 x5 x6) x9 x10 x13 x14 x11 x12 x2) xo16 := by
  unfold outL0_B_16
  rw [View.read_writes_eq_canon _ _ _ (coverL0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16)]
  unfold kernelRunL0_B
  dsimp only
  sl_unfold_words
  rw [View.canon_unit_zero hz2_L0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1000x128) hz2_L0, View.ld_unit_zero (S := S128x128) hz2_L0, View.ld_unit_zero (S := S1000x1) hz2_L0, View.ld_unit_zero (S := S512x128) hz2_L0, View.ld_unit_zero (S := S128) hz1_L0, View.readCov_unit_zero (S := S512x128) _ hz2_L0]

/-- The new node features the body stores at point `t`: the second dense layer of the tile, over the first. -/
theorem hOutL0_eq (V : (c : Dev nD) → (b : Ref sig .tc) → Buf (Elt F) ((c : Thread nD τ).loc b)) (c : Dev nD) (t : Fin cfg0.N) :
    hOutL0 V c t = k0_pay4 (k0_pay3 (iblkL0 V c 0 t) (iblkL0 V c 1 t) (iblkL0 V c 3 t) (iblkL0 V c 4 t) (iblkL0 V c 7 t) (iblkL0 V c 8 t) (iblkL0 V c 5 t) (iblkL0 V c 6 t)) (iblkL0 V c 9 t) (iblkL0 V c 10 t) (iblkL0 V c 13 t) (iblkL0 V c 14 t) (iblkL0 V c 11 t) (iblkL0 V c 12 t) := by
  by_cases h0 : t.val % 50 = 0
  · rw [hOutL0_A V c t h0, outL0_A_15_eq]
  · rw [hOutL0_B V c t h0, outL0_B_15_eq]

/-- The pool's buffer after the first point: the tile's pool added to zeros. -/
theorem poolAtL0_zero (V : (c : Dev nD) → (b : Ref sig .tc) → Buf (Elt F) ((c : Thread nD τ).loc b)) (c : Dev nD) (h0 : 0 < cfg0.N) :
    poolAtL0 V c 0 h0 = k0_pay1 (k0_pay5 (k0_pay3 (iblkL0 V c 0 ⟨0, h0⟩) (iblkL0 V c 1 ⟨0, h0⟩) (iblkL0 V c 3 ⟨0, h0⟩) (iblkL0 V c 4 ⟨0, h0⟩) (iblkL0 V c 7 ⟨0, h0⟩) (iblkL0 V c 8 ⟨0, h0⟩) (iblkL0 V c 5 ⟨0, h0⟩) (iblkL0 V c 6 ⟨0, h0⟩)) (iblkL0 V c 9 ⟨0, h0⟩) (iblkL0 V c 10 ⟨0, h0⟩) (iblkL0 V c 13 ⟨0, h0⟩) (iblkL0 V c 14 ⟨0, h0⟩) (iblkL0 V c 11 ⟨0, h0⟩) (iblkL0 V c 12 ⟨0, h0⟩) (iblkL0 V c 2 ⟨0, h0⟩)) (k0_pay2 (F := F)) := (poolAtL0_A V c ⟨0, h0⟩ rfl).trans (outL0_A_16_eq ..)

/-- The pool's buffer after a later point: the tile's pool added to what the point before left. -/
theorem poolAtL0_succ (V : (c : Dev nD) → (b : Ref sig .tc) → Buf (Elt F) ((c : Thread nD τ).loc b)) (c : Dev nD) (n : ℕ) (hn : n + 1 < cfg0.N) :
    poolAtL0 V c (n + 1) hn = k0_pay1 (k0_pay5 (k0_pay3 (iblkL0 V c 0 ⟨n + 1, hn⟩) (iblkL0 V c 1 ⟨n + 1, hn⟩) (iblkL0 V c 3 ⟨n + 1, hn⟩) (iblkL0 V c 4 ⟨n + 1, hn⟩) (iblkL0 V c 7 ⟨n + 1, hn⟩) (iblkL0 V c 8 ⟨n + 1, hn⟩) (iblkL0 V c 5 ⟨n + 1, hn⟩) (iblkL0 V c 6 ⟨n + 1, hn⟩)) (iblkL0 V c 9 ⟨n + 1, hn⟩) (iblkL0 V c 10 ⟨n + 1, hn⟩) (iblkL0 V c 13 ⟨n + 1, hn⟩) (iblkL0 V c 14 ⟨n + 1, hn⟩) (iblkL0 V c 11 ⟨n + 1, hn⟩) (iblkL0 V c 12 ⟨n + 1, hn⟩) (iblkL0 V c 2 ⟨n + 1, hn⟩)) (poolAtL0 V c n (Nat.lt_of_succ_lt hn)) := by
  have hN : cfg0.N = 50 := N_0
  have hB : ¬(⟨n + 1, hn⟩ : Fin cfg0.N).val % 50 = 0 := by dsimp only; omega
  exact (poolAtL0_B V c ⟨n + 1, hn⟩ hB).trans (outL0_B_16_eq ..)

end Cert.KernelIdeal.Hand

end
-- ==== Proof.KI.LayerPay.lean ====
/-
  The layer kernel's arithmetic read at an index, on the extended reals.

  A tile of 1000 nodes goes through two dense layers, each followed by the inference batch norm and a relu; the tile's
  pool contracts the one-hot matrix (graph id of the row = column) with the new features over the tile's rows. Each of
  these values is read here at explicit coordinates: a dense layer at (p, k) is the sum over the contracted feature plus
  the bias, normalised at the feature's own parameters; the pool at (g, d) is the sum over the tile's rows whose graph id
  is g. The kernel groups the normalisation as (x − μ) · (rsqrt (v + ε) · γ) + β; the specification groups the product
  to the left: the two agree by associativity of the product on the extended reals.
-/
import proofs.«426741_j36421322670671_1_alg».proof.Proof.Gen.KernelIdeal.Skeleton
import proofs.«426741_j36421322670671_1_alg».proof.Proof.Spec
import proofs.«426741_j36421322670671_1_alg».proof.Proof.LibMatmul
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Hand

open Cert.KernelIdeal Cert.KernelIdeal.Gen Idealize.ShloMosaic Idealize.ShloMosaic.ValueIdx

/-! ## Layout: a per-feature vector laid along the rows -/

/-- A per-feature vector given a leading unit axis and repeated over the 1000 rows reads, at (p, k), the vector at k. -/
theorem rows_apply (v : FVec Ideal S128 .f32) (h1 : S128.ShapeCasts S1x128) (h2 : S1x128.Broadcasts S1000x128)
    (p : Fin 1000) (k : Fin 128) :
    broadcastTo S1000x128 (shapeCast S1x128 v h1) h2 (ix2 p k) = v (ix1 k) := by
  rw [broadcastTo_1b_ab_apply, shapeCast_a_1a_apply]

/-! ## The dense product -/

/-- The dimension numbers of the dense layers are the plain ones of a 1000×128 by 128×128 product. -/
theorem dot_dense_eq_plain : dot_S1000x128_S128x128_S1000x128_1_0_0_1_n_n = DotDims.plain 1000 128 128 := rfl

/-- The dense product into the zero constant at (p, q): the sum over the contracted feature. -/
theorem dense_matmul_apply {φ₁ φ₂ : FTy} (l : FVec Ideal S1000x128 φ₁) (r : FVec Ideal S128x128 φ₂) (p : Fin 1000) (q : Fin 128) :
    matmul dot_S1000x128_S128x128_S1000x128_1_0_0_1_n_n none l r (constant (F := Ideal) S1000x128 .f32 0x00000000#32) (ix2 p q)
      = ∑ k : Fin 128, l (ix2 p k) * r (ix2 k q) := by
  rw [dot_dense_eq_plain]
  exact Cert.Matmul.matmul_plain_apply none l r p q

/-! ## The second dense layer -/

/-- The kernel's grouping of the normalisation against the specification's. -/
theorem bnRelu_grouped (x mu va g be : EReal) :
    max ((x - mu) * (Ideal.rsqrt (va + Ideal.ofBits .f32 0x3727C5AC#32) * g) + be) (Ideal.ofBits .f32 0x00000000#32)
      = Cert.Spec.bnRelu x mu va g be := by
  unfold Cert.Spec.bnRelu Cert.Spec.eps
  rw [Ideal.ofBits_zero_f32, mul_assoc]

/-- THE SECOND DENSE LAYER at node p, feature d: the hidden row times the weight's column plus the bias, normalised at the
    feature's own parameters, then the relu. -/
theorem pay4_apply (u : FVec Ideal S1000x128 .f32) (w2 : Vec Ideal S128x128 .f32) (b2 muo vao go beo : Vec Ideal S128 .f32)
    (p : Fin 1000) (d : Fin 128) :
    k0_pay4 u w2 b2 muo vao go beo (ix2 p d)
      = Cert.Spec.bnRelu ((∑ k : Fin 128, u (ix2 p k) * w2 (ix2 k d)) + b2 (ix1 d)) (muo (ix1 d)) (vao (ix1 d)) (go (ix1 d)) (beo (ix1 d)) := by
  unfold k0_pay4
  rw [maximumf_apply, addf_apply, mulf_apply, subf_apply, addf_apply, dense_matmul_apply, rows_apply, rows_apply, rows_apply, rows_apply,
    mulf_apply]
  simp only [shapeCast_self, truncf_apply]
  exact bnRelu_grouped _ _ _ _ _

/-! ## The first dense layer -/

/-- The first dense layer is the second one's function at the sum of the two node arrays. -/
theorem pay3_eq_pay4 (x0 x1 : Vec Ideal S1000x128 .f32) (w1 : Vec Ideal S128x128 .f32) (b1 mu1 va1 g1 be1 : Vec Ideal S128 .f32)
    (h0 : S1000x128.ShapeCasts S1000x128) :
    k0_pay3 x0 x1 w1 b1 mu1 va1 g1 be1 = k0_pay4 (addf (shapeCast S1000x128 x0 h0) x1) w1 b1 mu1 va1 g1 be1 := rfl

/-- THE FIRST DENSE LAYER at node p, hidden feature k: the row of the two node arrays' sum times the weight's column plus
    the bias, normalised at the feature's own parameters, then the relu. -/
theorem pay3_apply (x0 x1 : Vec Ideal S1000x128 .f32) (w1 : Vec Ideal S128x128 .f32) (b1 mu1 va1 g1 be1 : Vec Ideal S128 .f32)
    (p : Fin 1000) (k : Fin 128) :
    k0_pay3 x0 x1 w1 b1 mu1 va1 g1 be1 (ix2 p k)
      = Cert.Spec.bnRelu ((∑ i : Fin 128, (x0 (ix2 p i) + x1 (ix2 p i)) * w1 (ix2 i k)) + b1 (ix1 k)) (mu1 (ix1 k)) (va1 (ix1 k))
          (g1 (ix1 k)) (be1 (ix1 k)) := by
  rw [pay3_eq_pay4 x0 x1 w1 b1 mu1 va1 g1 be1 (by decide), pay4_apply]
  simp only [addf_apply, shapeCast_self]

/-! ## The accumulator -/

/-- The accumulator's new value: the old one plus the tile's pool. -/
theorem pay1_apply (part : FVec Ideal S512x128 .f32) (old : Vec Ideal S512x128 .f32) (j : S512x128.Idx) :
    k0_pay1 part old j = old j + part j := by
  unfold k0_pay1
  rw [addf_apply, shapeCast_self]

/-- The accumulator's first value is zero everywhere. -/
theorem pay2_apply (j : S512x128.Idx) : k0_pay2 (F := Ideal) j = 0 := by
  unfold k0_pay2
  exact Ideal.ofBits_zero_f32

/-! ## The pool of a tile -/

/-- At output (g, d) and row r the pool's left operand is read at (r, g). -/
theorem pool_lhsIdx (g : Fin 512) (d : Fin 128) (r : Fin 1000) :
    dot_S1000x512_S1000x128_S512x128_0_0_1_1_n_n.lhsIdx (ix2 g d)
      ((contrEquiv1 dot_S1000x512_S1000x128_S512x128_0_0_1_1_n_n 1000 rfl rfl).symm r) = ix2 r g := by
  have hk := contrEquiv1_symm_val dot_S1000x512_S1000x128_S512x128_0_0_1_1_n_n 1000 rfl rfl r
  funext a
  refine Fin.ext ?_
  match a with
  | ⟨0, _⟩ => exact (dot_S1000x512_S1000x128_S512x128_0_0_1_1_n_n.lhsIdx_val_of_single rfl (ix2 g d) _).trans hk
  | ⟨1, _⟩ => rfl

/-- At output (g, d) and row r the pool's right operand is read at (r, d). -/
theorem pool_rhsIdx (g : Fin 512) (d : Fin 128) (r : Fin 1000) :
    dot_S1000x512_S1000x128_S512x128_0_0_1_1_n_n.rhsIdx (ix2 g d)
      ((contrEquiv1 dot_S1000x512_S1000x128_S512x128_0_0_1_1_n_n 1000 rfl rfl).symm r) = ix2 r d := by
  have hk := contrEquiv1_symm_val dot_S1000x512_S1000x128_S512x128_0_0_1_1_n_n 1000 rfl rfl r
  funext a
  refine Fin.ext ?_
  match a with
  | ⟨0, _⟩ => exact (dot_S1000x512_S1000x128_S512x128_0_0_1_1_n_n.rhsIdx_val_of_single rfl (ix2 g d) _).trans hk
  | ⟨1, _⟩ => rfl

/-- The pool's product into the zero constant at (g, d): the sum over the tile's rows. -/
theorem pool_matmul_apply {φ₁ φ₂ : FTy} (l : FVec Ideal S1000x512 φ₁) (r : FVec Ideal S1000x128 φ₂) (g : Fin 512) (d : Fin 128) :
    matmul dot_S1000x512_S1000x128_S512x128_0_0_1_1_n_n none l r (constant (F := Ideal) S512x128 .f32 0x00000000#32) (ix2 g d)
      = ∑ i : Fin 1000, l (ix2 i g) * r (ix2 i d) := by
  refine (Ideal.matmul_constant_zero_apply dot_S1000x512_S1000x128_S512x128_0_0_1_1_n_n none l r (ix2 g d)).trans ?_
  rw [← Equiv.sum_comp (contrEquiv1 dot_S1000x512_S1000x128_S512x128_0_0_1_1_n_n 1000 rfl rfl).symm]
  refine Finset.sum_congr rfl fun i _ => ?_
  rw [pool_lhsIdx, pool_rhsIdx]

/-- A column of 1000 entries repeated along 512 columns reads, at (r, g), the column at r. -/
theorem cols_apply {α : Type} (v : S1000x1.Idx → α) (h : S1000x1.Broadcasts S1000x512) (r : Fin 1000) (g : Fin 512) :
    broadcastTo S1000x512 v h (ix2 r g) = v (ix2 r 0) := by
  refine broadcastTo_apply v h (ix2 r g) (ix2 r 0) fun ax => ?_
  match ax with
  | ⟨0, _⟩ => rfl
  | ⟨1, _⟩ => rfl

/-- A graph id below 512 written as a word reads back, signed, as itself. -/
theorem toInt_ofNat_graph (g : Fin 512) : (BitVec.ofNat 32 g.val).toInt = (g.val : ℤ) := by
  have hlt := g.isLt
  rw [BitVec.toInt_eq_toNat_of_lt (by rw [BitVec.toNat_ofNat]; omega), BitVec.toNat_ofNat]
  have : g.val % 2 ^ 32 = g.val := Nat.mod_eq_of_lt (by omega)
  rw [this]

/-- The one-hot entry: the comparison of a word with the graph's number, widened and converted, is 1 when the word read
    signed is that number and 0 otherwise. -/
theorem onehot_word (a : BitVec 32) (g : Fin 512) :
    ((((IntOp.cmpi .eq a (BitVec.ofNat 32 g.val)).setWidth 32).toInt : ℝ) : EReal) = if a.toInt = (g.val : ℤ) then 1 else 0 := by
  rw [toInt_setWidth_bit]
  have hg := toInt_ofNat_graph g
  by_cases h : a.toInt = (g.val : ℤ)
  · have ha : a = BitVec.ofNat 32 g.val := BitVec.eq_of_toInt_eq (h.trans hg.symm)
    rw [if_pos h, ← ha]
    simp [IntOp.cmpi]
  · have ha : ¬ a = BitVec.ofNat 32 g.val := fun e => h (e ▸ hg)
    rw [if_neg h]
    simp [IntOp.cmpi, ha]

/-- The one-hot matrix at (r, g): 1 when row r's graph id, read signed, is g, and 0 otherwise. -/
theorem onehot_apply (ids : Vec Ideal S1000x1 .i32) (h0 : S1000x1.ShapeCasts S1000x1) (hb : S1000x1.Broadcasts S1000x512)
    (hi : S1000x512.Iotas .tc 32 [1]) (r : Fin 1000) (g : Fin 512) :
    (FloatOps.sitofp (F := Ideal) .f32 (BitVec.setWidth 32 (cmpi .eq (broadcastTo S1000x512 (shapeCast S1000x1 ids h0) hb)
        (iota .tc S1000x512 32 [1] hi) (ix2 r g))) : EReal)
      = if (ids (ix2 r 0)).toInt = (g.val : ℤ) then 1 else 0 := by
  show ((((IntOp.cmpi .eq (broadcastTo S1000x512 (shapeCast S1000x1 ids h0) hb (ix2 r g))
    (iota .tc S1000x512 32 [1] hi (ix2 r g))).setWidth 32).toInt : ℝ) : EReal) = _
  rw [cols_apply, iota_single_apply, shapeCast_self]
  exact onehot_word _ g

/-- THE TILE'S POOL at graph g, feature d: the sum of the new features at d over the tile's rows whose graph id is g. -/
theorem pay5_apply (u : FVec Ideal S1000x128 .f32) (w2 : Vec Ideal S128x128 .f32) (b2 muo vao go beo : Vec Ideal S128 .f32)
    (ids : Vec Ideal S1000x1 .i32) (g : Fin 512) (d : Fin 128) :
    k0_pay5 u w2 b2 muo vao go beo ids (ix2 g d)
      = ∑ r : Fin 1000, (if (ids (ix2 r 0)).toInt = (g.val : ℤ) then k0_pay4 u w2 b2 muo vao go beo (ix2 r d) else 0) := by
  unfold k0_pay5
  rw [pool_matmul_apply]
  refine Finset.sum_congr rfl fun r _ => ?_
  rw [truncf_apply, truncf_apply, sitofp_apply, extui_apply, onehot_apply]
  split
  · exact one_mul _
  · exact zero_mul _

/-! ## The sibling layers: the same functions -/

theorem k1_pay1_eq : @k1_pay1 Ideal _ = @k0_pay1 Ideal _ := rfl
theorem k1_pay2_eq : @k1_pay2 Ideal _ = @k0_pay2 Ideal _ := rfl
theorem k1_pay4_eq : @k1_pay4 Ideal _ = @k0_pay4 Ideal _ := rfl
theorem k1_pay5_eq : @k1_pay5 Ideal _ = @k0_pay5 Ideal _ := rfl

/-- Layer 1's first dense layer casts both node arrays to their own shape before adding them; the casts are the identity. -/
theorem k1_pay3_eq (x0 x1 : Vec Ideal S1000x128 .f32) (w1 : Vec Ideal S128x128 .f32) (b1 mu1 va1 g1 be1 : Vec Ideal S128 .f32) :
    k1_pay3 x0 x1 w1 b1 mu1 va1 g1 be1 = k0_pay3 x0 x1 w1 b1 mu1 va1 g1 be1 := by
  have h : k1_pay3 x0 x1 w1 b1 mu1 va1 g1 be1
      = k0_pay4 (addf (shapeCast S1000x128 x0 (by decide)) (shapeCast S1000x128 x1 (by decide))) w1 b1 mu1 va1 g1 be1 := rfl
  rw [h, pay3_eq_pay4 x0 x1 w1 b1 mu1 va1 g1 be1 (by decide), shapeCast_self x1]

theorem k2_pay1_eq : @k2_pay1 Ideal _ = @k0_pay1 Ideal _ := rfl
theorem k2_pay2_eq : @k2_pay2 Ideal _ = @k0_pay2 Ideal _ := rfl
theorem k2_pay4_eq : @k2_pay4 Ideal _ = @k0_pay4 Ideal _ := rfl
theorem k2_pay5_eq : @k2_pay5 Ideal _ = @k0_pay5 Ideal _ := rfl

/-- Layer 2's first dense layer casts both node arrays to their own shape before adding them; the casts are the identity. -/
theorem k2_pay3_eq (x0 x1 : Vec Ideal S1000x128 .f32) (w1 : Vec Ideal S128x128 .f32) (b1 mu1 va1 g1 be1 : Vec Ideal S128 .f32) :
    k2_pay3 x0 x1 w1 b1 mu1 va1 g1 be1 = k0_pay3 x0 x1 w1 b1 mu1 va1 g1 be1 := by
  have h : k2_pay3 x0 x1 w1 b1 mu1 va1 g1 be1
      = k0_pay4 (addf (shapeCast S1000x128 x0 (by decide)) (shapeCast S1000x128 x1 (by decide))) w1 b1 mu1 va1 g1 be1 := rfl
  rw [h, pay3_eq_pay4 x0 x1 w1 b1 mu1 va1 g1 be1 (by decide), shapeCast_self x1]

theorem k3_pay1_eq : @k3_pay1 Ideal _ = @k0_pay1 Ideal _ := rfl
theorem k3_pay2_eq : @k3_pay2 Ideal _ = @k0_pay2 Ideal _ := rfl
theorem k3_pay4_eq : @k3_pay4 Ideal _ = @k0_pay4 Ideal _ := rfl
theorem k3_pay5_eq : @k3_pay5 Ideal _ = @k0_pay5 Ideal _ := rfl

/-- Layer 3's first dense layer casts both node arrays to their own shape before adding them; the casts are the identity. -/
theorem k3_pay3_eq (x0 x1 : Vec Ideal S1000x128 .f32) (w1 : Vec Ideal S128x128 .f32) (b1 mu1 va1 g1 be1 : Vec Ideal S128 .f32) :
    k3_pay3 x0 x1 w1 b1 mu1 va1 g1 be1 = k0_pay3 x0 x1 w1 b1 mu1 va1 g1 be1 := by
  have h : k3_pay3 x0 x1 w1 b1 mu1 va1 g1 be1
      = k0_pay4 (addf (shapeCast S1000x128 x0 (by decide)) (shapeCast S1000x128 x1 (by decide))) w1 b1 mu1 va1 g1 be1 := rfl
  rw [h, pay3_eq_pay4 x0 x1 w1 b1 mu1 va1 g1 be1 (by decide), shapeCast_self x1]

/-! ## The five readings, one copy per layer -/

theorem pay3_applyL0 (x0 x1 : Vec Ideal S1000x128 .f32) (w1 : Vec Ideal S128x128 .f32) (b1 mu1 va1 g1 be1 : Vec Ideal S128 .f32)
    (p : Fin 1000) (k : Fin 128) :
    k0_pay3 x0 x1 w1 b1 mu1 va1 g1 be1 (ix2 p k)
      = Cert.Spec.bnRelu ((∑ i : Fin 128, (x0 (ix2 p i) + x1 (ix2 p i)) * w1 (ix2 i k)) + b1 (ix1 k)) (mu1 (ix1 k)) (va1 (ix1 k))
          (g1 (ix1 k)) (be1 (ix1 k)) := by
  exact pay3_apply x0 x1 w1 b1 mu1 va1 g1 be1 p k

theorem pay4_applyL0 (u : FVec Ideal S1000x128 .f32) (w2 : Vec Ideal S128x128 .f32) (b2 muo vao go beo : Vec Ideal S128 .f32)
    (p : Fin 1000) (d : Fin 128) :
    k0_pay4 u w2 b2 muo vao go beo (ix2 p d)
      = Cert.Spec.bnRelu ((∑ k : Fin 128, u (ix2 p k) * w2 (ix2 k d)) + b2 (ix1 d)) (muo (ix1 d)) (vao (ix1 d)) (go (ix1 d)) (beo (ix1 d)) := by
  exact pay4_apply u w2 b2 muo vao go beo p d

theorem pay5_applyL0 (u : FVec Ideal S1000x128 .f32) (w2 : Vec Ideal S128x128 .f32) (b2 muo vao go beo : Vec Ideal S128 .f32)
    (ids : Vec Ideal S1000x1 .i32) (g : Fin 512) (d : Fin 128) :
    k0_pay5 u w2 b2 muo vao go beo ids (ix2 g d)
      = ∑ r : Fin 1000, (if (ids (ix2 r 0)).toInt = (g.val : ℤ) then k0_pay4 u w2 b2 muo vao go beo (ix2 r d) else 0) := by
  exact pay5_apply u w2 b2 muo vao go beo ids g d

theorem pay1_applyL0 (part : FVec Ideal S512x128 .f32) (old : Vec Ideal S512x128 .f32) (j : S512x128.Idx) :
    k0_pay1 part old j = old j + part j := by
  exact pay1_apply part old j

theorem pay2_applyL0 (j : S512x128.Idx) : k0_pay2 (F := Ideal) j = 0 := by
  exact pay2_apply j

theorem pay3_applyL1 (x0 x1 : Vec Ideal S1000x128 .f32) (w1 : Vec Ideal S128x128 .f32) (b1 mu1 va1 g1 be1 : Vec Ideal S128 .f32)
    (p : Fin 1000) (k : Fin 128) :
    k1_pay3 x0 x1 w1 b1 mu1 va1 g1 be1 (ix2 p k)
      = Cert.Spec.bnRelu ((∑ i : Fin 128, (x0 (ix2 p i) + x1 (ix2 p i)) * w1 (ix2 i k)) + b1 (ix1 k)) (mu1 (ix1 k)) (va1 (ix1 k))
          (g1 (ix1 k)) (be1 (ix1 k)) := by
  rw [k1_pay3_eq]
  exact pay3_apply x0 x1 w1 b1 mu1 va1 g1 be1 p k

theorem pay4_applyL1 (u : FVec Ideal S1000x128 .f32) (w2 : Vec Ideal S128x128 .f32) (b2 muo vao go beo : Vec Ideal S128 .f32)
    (p : Fin 1000) (d : Fin 128) :
    k1_pay4 u w2 b2 muo vao go beo (ix2 p d)
      = Cert.Spec.bnRelu ((∑ k : Fin 128, u (ix2 p k) * w2 (ix2 k d)) + b2 (ix1 d)) (muo (ix1 d)) (vao (ix1 d)) (go (ix1 d)) (beo (ix1 d)) := by
  rw [k1_pay4_eq]
  exact pay4_apply u w2 b2 muo vao go beo p d

theorem pay5_applyL1 (u : FVec Ideal S1000x128 .f32) (w2 : Vec Ideal S128x128 .f32) (b2 muo vao go beo : Vec Ideal S128 .f32)
    (ids : Vec Ideal S1000x1 .i32) (g : Fin 512) (d : Fin 128) :
    k1_pay5 u w2 b2 muo vao go beo ids (ix2 g d)
      = ∑ r : Fin 1000, (if (ids (ix2 r 0)).toInt = (g.val : ℤ) then k1_pay4 u w2 b2 muo vao go beo (ix2 r d) else 0) := by
  rw [k1_pay5_eq, k1_pay4_eq]
  exact pay5_apply u w2 b2 muo vao go beo ids g d

theorem pay1_applyL1 (part : FVec Ideal S512x128 .f32) (old : Vec Ideal S512x128 .f32) (j : S512x128.Idx) :
    k1_pay1 part old j = old j + part j := by
  rw [k1_pay1_eq]
  exact pay1_apply part old j

theorem pay2_applyL1 (j : S512x128.Idx) : k1_pay2 (F := Ideal) j = 0 := by
  rw [k1_pay2_eq]
  exact pay2_apply j

theorem pay3_applyL2 (x0 x1 : Vec Ideal S1000x128 .f32) (w1 : Vec Ideal S128x128 .f32) (b1 mu1 va1 g1 be1 : Vec Ideal S128 .f32)
    (p : Fin 1000) (k : Fin 128) :
    k2_pay3 x0 x1 w1 b1 mu1 va1 g1 be1 (ix2 p k)
      = Cert.Spec.bnRelu ((∑ i : Fin 128, (x0 (ix2 p i) + x1 (ix2 p i)) * w1 (ix2 i k)) + b1 (ix1 k)) (mu1 (ix1 k)) (va1 (ix1 k))
          (g1 (ix1 k)) (be1 (ix1 k)) := by
  rw [k2_pay3_eq]
  exact pay3_apply x0 x1 w1 b1 mu1 va1 g1 be1 p k

theorem pay4_applyL2 (u : FVec Ideal S1000x128 .f32) (w2 : Vec Ideal S128x128 .f32) (b2 muo vao go beo : Vec Ideal S128 .f32)
    (p : Fin 1000) (d : Fin 128) :
    k2_pay4 u w2 b2 muo vao go beo (ix2 p d)
      = Cert.Spec.bnRelu ((∑ k : Fin 128, u (ix2 p k) * w2 (ix2 k d)) + b2 (ix1 d)) (muo (ix1 d)) (vao (ix1 d)) (go (ix1 d)) (beo (ix1 d)) := by
  rw [k2_pay4_eq]
  exact pay4_apply u w2 b2 muo vao go beo p d

theorem pay5_applyL2 (u : FVec Ideal S1000x128 .f32) (w2 : Vec Ideal S128x128 .f32) (b2 muo vao go beo : Vec Ideal S128 .f32)
    (ids : Vec Ideal S1000x1 .i32) (g : Fin 512) (d : Fin 128) :
    k2_pay5 u w2 b2 muo vao go beo ids (ix2 g d)
      = ∑ r : Fin 1000, (if (ids (ix2 r 0)).toInt = (g.val : ℤ) then k2_pay4 u w2 b2 muo vao go beo (ix2 r d) else 0) := by
  rw [k2_pay5_eq, k2_pay4_eq]
  exact pay5_apply u w2 b2 muo vao go beo ids g d

theorem pay1_applyL2 (part : FVec Ideal S512x128 .f32) (old : Vec Ideal S512x128 .f32) (j : S512x128.Idx) :
    k2_pay1 part old j = old j + part j := by
  rw [k2_pay1_eq]
  exact pay1_apply part old j

theorem pay2_applyL2 (j : S512x128.Idx) : k2_pay2 (F := Ideal) j = 0 := by
  rw [k2_pay2_eq]
  exact pay2_apply j

theorem pay3_applyL3 (x0 x1 : Vec Ideal S1000x128 .f32) (w1 : Vec Ideal S128x128 .f32) (b1 mu1 va1 g1 be1 : Vec Ideal S128 .f32)
    (p : Fin 1000) (k : Fin 128) :
    k3_pay3 x0 x1 w1 b1 mu1 va1 g1 be1 (ix2 p k)
      = Cert.Spec.bnRelu ((∑ i : Fin 128, (x0 (ix2 p i) + x1 (ix2 p i)) * w1 (ix2 i k)) + b1 (ix1 k)) (mu1 (ix1 k)) (va1 (ix1 k))
          (g1 (ix1 k)) (be1 (ix1 k)) := by
  rw [k3_pay3_eq]
  exact pay3_apply x0 x1 w1 b1 mu1 va1 g1 be1 p k

theorem pay4_applyL3 (u : FVec Ideal S1000x128 .f32) (w2 : Vec Ideal S128x128 .f32) (b2 muo vao go beo : Vec Ideal S128 .f32)
    (p : Fin 1000) (d : Fin 128) :
    k3_pay4 u w2 b2 muo vao go beo (ix2 p d)
      = Cert.Spec.bnRelu ((∑ k : Fin 128, u (ix2 p k) * w2 (ix2 k d)) + b2 (ix1 d)) (muo (ix1 d)) (vao (ix1 d)) (go (ix1 d)) (beo (ix1 d)) := by
  rw [k3_pay4_eq]
  exact pay4_apply u w2 b2 muo vao go beo p d

theorem pay5_applyL3 (u : FVec Ideal S1000x128 .f32) (w2 : Vec Ideal S128x128 .f32) (b2 muo vao go beo : Vec Ideal S128 .f32)
    (ids : Vec Ideal S1000x1 .i32) (g : Fin 512) (d : Fin 128) :
    k3_pay5 u w2 b2 muo vao go beo ids (ix2 g d)
      = ∑ r : Fin 1000, (if (ids (ix2 r 0)).toInt = (g.val : ℤ) then k3_pay4 u w2 b2 muo vao go beo (ix2 r d) else 0) := by
  rw [k3_pay5_eq, k3_pay4_eq]
  exact pay5_apply u w2 b2 muo vao go beo ids g d

theorem pay1_applyL3 (part : FVec Ideal S512x128 .f32) (old : Vec Ideal S512x128 .f32) (j : S512x128.Idx) :
    k3_pay1 part old j = old j + part j := by
  rw [k3_pay1_eq]
  exact pay1_apply part old j

theorem pay2_applyL3 (j : S512x128.Idx) : k3_pay2 (F := Ideal) j = 0 := by
  rw [k3_pay2_eq]
  exact pay2_apply j

end Cert.KernelIdeal.Hand

end
-- ==== Proof.KI.L0HNew.lean ====
/-
  Layer region 0: the new node features the region leaves are the specification's layer.

  A tile's stored block is the second dense layer (with its batch norm and relu) of the first dense layer of
  the tile's rows of `agg + h`; the tile at point `t` holds rows `1000 t … 1000 t + 999` of the node arrays and
  every parameter window holds its whole array, so row `r` of the stored block is the specification's layer at
  node `1000 t + r`. The tiles cover the array, so after the last point the array is the layer.
-/
import proofs.«426741_j36421322670671_1_alg».proof.Proof.KI.L0Dat
import proofs.«426741_j36421322670671_1_alg».proof.Proof.KI.L0Pieces
import proofs.«426741_j36421322670671_1_alg».proof.Proof.KI.LayerPay
import proofs.«426741_j36421322670671_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The region's arrays and the windows' blocks, at their literal types -/

/-- The array of the neighbours' sums, as the region finds it. -/
abbrev aggArrL0 (V : (c : Dev nD) → (b : Ref sig .tc) → Buf (Elt F) ((c : Thread nD τ).loc b)) (c : Dev nD) : Vec F S50000x128 .f32 := V c (Pipeline.arrRef spec0 0)
/-- The block of the neighbours' sums at point `t`. -/
abbrev aggBlkL0 (V : (c : Dev nD) → (b : Ref sig .tc) → Buf (Elt F) ((c : Thread nD τ).loc b)) (c : Dev nD) (t : Fin cfg0.N) : Vec F S1000x128 .f32 := iblkL0 V c 0 t
/-- The array of the node features, as the region finds it. -/
abbrev hArrL0 (V : (c : Dev nD) → (b : Ref sig .tc) → Buf (Elt F) ((c : Thread nD τ).loc b)) (c : Dev nD) : Vec F S50000x128 .f32 := V c (Pipeline.arrRef spec0 1)
/-- The block of the node features at point `t`. -/
abbrev hBlkL0 (V : (c : Dev nD) → (b : Ref sig .tc) → Buf (Elt F) ((c : Thread nD τ).loc b)) (c : Dev nD) (t : Fin cfg0.N) : Vec F S1000x128 .f32 := iblkL0 V c 1 t
/-- The array of the first dense layer's weights, as the region finds it. -/
abbrev w1ArrL0 (V : (c : Dev nD) → (b : Ref sig .tc) → Buf (Elt F) ((c : Thread nD τ).loc b)) (c : Dev nD) : Vec F S128x128 .f32 := V c (Pipeline.arrRef spec0 3)
/-- The block of the first dense layer's weights at point `t`. -/
abbrev w1BlkL0 (V : (c : Dev nD) → (b : Ref sig .tc) → Buf (Elt F) ((c : Thread nD τ).loc b)) (c : Dev nD) (t : Fin cfg0.N) : Vec F S128x128 .f32 := iblkL0 V c 3 t
/-- The array of the first dense layer's bias, as the region finds it. -/
abbrev b1ArrL0 (V : (c : Dev nD) → (b : Ref sig .tc) → Buf (Elt F) ((c : Thread nD τ).loc b)) (c : Dev nD) : Vec F S128 .f32 := V c (Pipeline.arrRef spec0 4)
/-- The block of the first dense layer's bias at point `t`. -/
abbrev b1BlkL0 (V : (c : Dev nD) → (b : Ref sig .tc) → Buf (Elt F) ((c : Thread nD τ).loc b)) (c : Dev nD) (t : Fin cfg0.N) : Vec F S128 .f32 := iblkL0 V c 4 t
/-- The array of the first batch norm's scale, as the region finds it. -/
abbrev g1ArrL0 (V : (c : Dev nD) → (b : Ref sig .tc) → Buf (Elt F) ((c : Thread nD τ).loc b)) (c : Dev nD) : Vec F S128 .f32 := V c (Pipeline.arrRef spec0 5)
/-- The block of the first batch norm's scale at point `t`. -/
abbrev g1BlkL0 (V : (c : Dev nD) → (b : Ref sig .tc) → Buf (Elt F) ((c : Thread nD τ).loc b)) (c : Dev nD) (t : Fin cfg0.N) : Vec F S128 .f32 := iblkL0 V c 5 t
/-- The array of the first batch norm's shift, as the region finds it. -/
abbrev be1ArrL0 (V : (c : Dev nD) → (b : Ref sig .tc) → Buf (Elt F) ((c : Thread nD τ).loc b)) (c : Dev nD) : Vec F S128 .f32 := V c (Pipeline.arrRef spec0 6)
/-- The block of the first batch norm's shift at point `t`. -/
abbrev be1BlkL0 (V : (c : Dev nD) → (b : Ref sig .tc) → Buf (Elt F) ((c : Thread nD τ).loc b)) (c : Dev nD) (t : Fin cfg0.N) : Vec F S128 .f32 := iblkL0 V c 6 t
/-- The array of the first batch norm's mean, as the region finds it. -/
abbrev mu1ArrL0 (V : (c : Dev nD) → (b : Ref sig .tc) → Buf (Elt F) ((c : Thread nD τ).loc b)) (c : Dev nD) : Vec F S128 .f32 := V c (Pipeline.arrRef spec0 7)
/-- The block of the first batch norm's mean at point `t`. -/
abbrev mu1BlkL0 (V : (c : Dev nD) → (b : Ref sig .tc) → Buf (Elt F) ((c : Thread nD τ).loc b)) (c : Dev nD) (t : Fin cfg0.N) : Vec F S128 .f32 := iblkL0 V c 7 t
/-- The array of the first batch norm's variance, as the region finds it. -/
abbrev va1ArrL0 (V : (c : Dev nD) → (b : Ref sig .tc) → Buf (Elt F) ((c : Thread nD τ).loc b)) (c : Dev nD) : Vec F S128 .f32 := V c (Pipeline.arrRef spec0 8)
/-- The block of the first batch norm's variance at point `t`. -/
abbrev va1BlkL0 (V : (c : Dev nD) → (b : Ref sig .tc) → Buf (Elt F) ((c : Thread nD τ).loc b)) (c : Dev nD) (t : Fin cfg0.N) : Vec F S128 .f32 := iblkL0 V c 8 t
/-- The array of the second dense layer's weights, as the region finds it. -/
abbrev w2ArrL0 (V : (c : Dev nD) → (b : Ref sig .tc) → Buf (Elt F) ((c : Thread nD τ).loc b)) (c : Dev nD) : Vec F S128x128 .f32 := V c (Pipeline.arrRef spec0 9)
/-- The block of the second dense layer's weights at point `t`. -/
abbrev w2BlkL0 (V : (c : Dev nD) → (b : Ref sig .tc) → Buf (Elt F) ((c : Thread nD τ).loc b)) (c : Dev nD) (t : Fin cfg0.N) : Vec F S128x128 .f32 := iblkL0 V c 9 t
/-- The array of the second dense layer's bias, as the region finds it. -/
abbrev b2ArrL0 (V : (c : Dev nD) → (b : Ref sig .tc) → Buf (Elt F) ((c : Thread nD τ).loc b)) (c : Dev nD) : Vec F S128 .f32 := V c (Pipeline.arrRef spec0 10)
/-- The block of the second dense layer's bias at point `t`. -/
abbrev b2BlkL0 (V : (c : Dev nD) → (b : Ref sig .tc) → Buf (Elt F) ((c : Thread nD τ).loc b)) (c : Dev nD) (t : Fin cfg0.N) : Vec F S128 .f32 := iblkL0 V c 10 t
/-- The array of the second batch norm's scale, as the region finds it. -/
abbrev goArrL0 (V : (c : Dev nD) → (b : Ref sig .tc) → Buf (Elt F) ((c : Thread nD τ).loc b)) (c : Dev nD) : Vec F S128 .f32 := V c (Pipeline.arrRef spec0 11)
/-- The block of the second batch norm's scale at point `t`. -/
abbrev goBlkL0 (V : (c : Dev nD) → (b : Ref sig .tc) → Buf (Elt F) ((c : Thread nD τ).loc b)) (c : Dev nD) (t : Fin cfg0.N) : Vec F S128 .f32 := iblkL0 V c 11 t
/-- The array of the second batch norm's shift, as the region finds it. -/
abbrev beoArrL0 (V : (c : Dev nD) → (b : Ref sig .tc) → Buf (Elt F) ((c : Thread nD τ).loc b)) (c : Dev nD) : Vec F S128 .f32 := V c (Pipeline.arrRef spec0 12)
/-- The block of the second batch norm's shift at point `t`. -/
abbrev beoBlkL0 (V : (c : Dev nD) → (b : Ref sig .tc) → Buf (Elt F) ((c : Thread nD τ).loc b)) (c : Dev nD) (t : Fin cfg0.N) : Vec F S128 .f32 := iblkL0 V c 12 t
/-- The array of the second batch norm's mean, as the region finds it. -/
abbrev muoArrL0 (V : (c : Dev nD) → (b : Ref sig .tc) → Buf (Elt F) ((c : Thread nD τ).loc b)) (c : Dev nD) : Vec F S128 .f32 := V c (Pipeline.arrRef spec0 13)
/-- The block of the second batch norm's mean at point `t`. -/
abbrev muoBlkL0 (V : (c : Dev nD) → (b : Ref sig .tc) → Buf (Elt F) ((c : Thread nD τ).loc b)) (c : Dev nD) (t : Fin cfg0.N) : Vec F S128 .f32 := iblkL0 V c 13 t
/-- The array of the second batch norm's variance, as the region finds it. -/
abbrev vaoArrL0 (V : (c : Dev nD) → (b : Ref sig .tc) → Buf (Elt F) ((c : Thread nD τ).loc b)) (c : Dev nD) : Vec F S128 .f32 := V c (Pipeline.arrRef spec0 14)
/-- The block of the second batch norm's variance at point `t`. -/
abbrev vaoBlkL0 (V : (c : Dev nD) → (b : Ref sig .tc) → Buf (Elt F) ((c : Thread nD τ).loc b)) (c : Dev nD) (t : Fin cfg0.N) : Vec F S128 .f32 := iblkL0 V c 14 t

/-- The specification's layer of the arrays the region finds. -/
abbrev layerInL0 (V : (c : Dev nD) → (b : Ref sig .tc) → Buf (Elt Ideal) ((c : Thread nD τ).loc b)) (c : Dev nD) : Vec Ideal S50000x128 .f32 :=
  Cert.Spec.layer (aggArrL0 V c) (hArrL0 V c) (w1ArrL0 V c) (b1ArrL0 V c) (g1ArrL0 V c) (be1ArrL0 V c) (mu1ArrL0 V c) (va1ArrL0 V c) (w2ArrL0 V c) (b2ArrL0 V c) (goArrL0 V c) (beoArrL0 V c) (muoArrL0 V c) (vaoArrL0 V c)

/-! ## The index maps over the grid -/

/-- The printed index maps, decided over the 50 points: the node windows' block index is the point on the rows and
    zero on the features; a parameter window's block index is zero. -/
theorem idx_factsL0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_15.index t (0 : Fin 2) = t.val ∧ win0_15.index t (1 : Fin 2) = 0
    ∧ win0_3.index t (0 : Fin 2) = 0 ∧ win0_3.index t (1 : Fin 2) = 0
    ∧ win0_9.index t (0 : Fin 2) = 0 ∧ win0_9.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0 ∧ win0_10.index t (0 : Fin 1) = 0
    ∧ win0_11.index t (0 : Fin 1) = 0 ∧ win0_12.index t (0 : Fin 1) = 0 ∧ win0_13.index t (0 : Fin 1) = 0
    ∧ win0_14.index t (0 : Fin 1) = 0 :=
  (by decide +kernel : ∀ t : Fin grid0.N, _)

/-- A row of a tile is a node. -/
theorem node_ltL0 (t : Fin cfg0.N) (r : Fin 1000) : 1000 * t.val + r.val < 50000 := by
  have ht : t.val < 50 := lt_of_lt_of_eq t.isLt N_0
  have hr := r.isLt
  omega

/-! ## The windows' blocks, read off their arrays -/

/-- The tile of the neighbours' sums at point `t` is rows `1000 t …` of the array. -/
theorem aggBlkL0_at (V : (c : Dev nD) → (b : Ref sig .tc) → Buf (Elt F) ((c : Thread nD τ).loc b)) (c : Dev nD) (t : Fin cfg0.N) (r : Fin 1000) (i : Fin 128) :
    aggBlkL0 V c t (ix2 r i) = aggArrL0 V c (ix2 ⟨1000 * t.val + r.val, node_ltL0 t r⟩ i) := by
  obtain ⟨e0, e1, -⟩ := idx_factsL0 t
  show iblkL0 V c 0 t (ix2 r i) = V c (Pipeline.arrRef spec0 0) _
  unfold iblkL0
  rw [View.read_apply]
  show V c (Pipeline.arrRef spec0 0) _ = V c (Pipeline.arrRef spec0 0) _
  congr 1
  funext a
  apply Fin.ext
  match a with
  | ⟨0, _⟩ => show win0_0.index t (0 : Fin 2) * 1000 + 1 * r.val = 1000 * t.val + r.val; omega
  | ⟨1, _⟩ => show win0_0.index t (1 : Fin 2) * 128 + 1 * i.val = i.val; omega

/-- The tile of the node features at point `t` is rows `1000 t …` of the array. -/
theorem hBlkL0_at (V : (c : Dev nD) → (b : Ref sig .tc) → Buf (Elt F) ((c : Thread nD τ).loc b)) (c : Dev nD) (t : Fin cfg0.N) (r : Fin 1000) (i : Fin 128) :
    hBlkL0 V c t (ix2 r i) = hArrL0 V c (ix2 ⟨1000 * t.val + r.val, node_ltL0 t r⟩ i) := by
  obtain ⟨-, -, e0, e1, -⟩ := idx_factsL0 t
  show iblkL0 V c 1 t (ix2 r i) = V c (Pipeline.arrRef spec0 1) _
  unfold iblkL0
  rw [View.read_apply]
  show V c (Pipeline.arrRef spec0 1) _ = V c (Pipeline.arrRef spec0 1) _
  congr 1
  funext a
  apply Fin.ext
  match a with
  | ⟨0, _⟩ => show win0_1.index t (0 : Fin 2) * 1000 + 1 * r.val = 1000 * t.val + r.val; omega
  | ⟨1, _⟩ => show win0_1.index t (1 : Fin 2) * 128 + 1 * i.val = i.val; omega

/-- The block of the first dense layer's weights is the whole array, at every point. -/
theorem w1BlkL0_eq (V : (c : Dev nD) → (b : Ref sig .tc) → Buf (Elt F) ((c : Thread nD τ).loc b)) (c : Dev nD) (t : Fin cfg0.N) : w1BlkL0 V c t = w1ArrL0 V c := by
  have hi : win0_3.index t (0 : Fin 2) = 0 ∧ win0_3.index t (1 : Fin 2) = 0 := by
    have h := idx_factsL0 t; simp only [h, and_self]
  funext j
  show iblkL0 V c 3 t j = V c (Pipeline.arrRef spec0 3) j
  unfold iblkL0
  rw [View.read_apply]
  show V c (Pipeline.arrRef spec0 3) _ = V c (Pipeline.arrRef spec0 3) j
  congr 1
  funext a
  apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The block of the first dense layer's bias is the whole array, at every point. -/
theorem b1BlkL0_eq (V : (c : Dev nD) → (b : Ref sig .tc) → Buf (Elt F) ((c : Thread nD τ).loc b)) (c : Dev nD) (t : Fin cfg0.N) : b1BlkL0 V c t = b1ArrL0 V c := by
  have hi : win0_4.index t (0 : Fin 1) = 0 := by
    have h := idx_factsL0 t; simp only [h]
  funext j
  show iblkL0 V c 4 t j = V c (Pipeline.arrRef spec0 4) j
  unfold iblkL0
  rw [View.read_apply]
  show V c (Pipeline.arrRef spec0 4) _ = V c (Pipeline.arrRef spec0 4) j
  congr 1
  funext a
  apply Fin.ext
  match a with
  | ⟨0, _⟩ => show win0_4.index t (0 : Fin 1) * 128 + 1 * (j 0).val = (j 0).val; omega

/-- The block of the first batch norm's scale is the whole array, at every point. -/
theorem g1BlkL0_eq (V : (c : Dev nD) → (b : Ref sig .tc) → Buf (Elt F) ((c : Thread nD τ).loc b)) (c : Dev nD) (t : Fin cfg0.N) : g1BlkL0 V c t = g1ArrL0 V c := by
  have hi : win0_5.index t (0 : Fin 1) = 0 := by
    have h := idx_factsL0 t; simp only [h]
  funext j
  show iblkL0 V c 5 t j = V c (Pipeline.arrRef spec0 5) j
  unfold iblkL0
  rw [View.read_apply]
  show V c (Pipeline.arrRef spec0 5) _ = V c (Pipeline.arrRef spec0 5) j
  congr 1
  funext a
  apply Fin.ext
  match a with
  | ⟨0, _⟩ => show win0_5.index t (0 : Fin 1) * 128 + 1 * (j 0).val = (j 0).val; omega

/-- The block of the first batch norm's shift is the whole array, at every point. -/
theorem be1BlkL0_eq (V : (c : Dev nD) → (b : Ref sig .tc) → Buf (Elt F) ((c : Thread nD τ).loc b)) (c : Dev nD) (t : Fin cfg0.N) : be1BlkL0 V c t = be1ArrL0 V c := by
  have hi : win0_6.index t (0 : Fin 1) = 0 := by
    have h := idx_factsL0 t; simp only [h]
  funext j
  show iblkL0 V c 6 t j = V c (Pipeline.arrRef spec0 6) j
  unfold iblkL0
  rw [View.read_apply]
  show V c (Pipeline.arrRef spec0 6) _ = V c (Pipeline.arrRef spec0 6) j
  congr 1
  funext a
  apply Fin.ext
  match a with
  | ⟨0, _⟩ => show win0_6.index t (0 : Fin 1) * 128 + 1 * (j 0).val = (j 0).val; omega

/-- The block of the first batch norm's mean is the whole array, at every point. -/
theorem mu1BlkL0_eq (V : (c : Dev nD) → (b : Ref sig .tc) → Buf (Elt F) ((c : Thread nD τ).loc b)) (c : Dev nD) (t : Fin cfg0.N) : mu1BlkL0 V c t = mu1ArrL0 V c := by
  have hi : win0_7.index t (0 : Fin 1) = 0 := by
    have h := idx_factsL0 t; simp only [h]
  funext j
  show iblkL0 V c 7 t j = V c (Pipeline.arrRef spec0 7) j
  unfold iblkL0
  rw [View.read_apply]
  show V c (Pipeline.arrRef spec0 7) _ = V c (Pipeline.arrRef spec0 7) j
  congr 1
  funext a
  apply Fin.ext
  match a with
  | ⟨0, _⟩ => show win0_7.index t (0 : Fin 1) * 128 + 1 * (j 0).val = (j 0).val; omega

/-- The block of the first batch norm's variance is the whole array, at every point. -/
theorem va1BlkL0_eq (V : (c : Dev nD) → (b : Ref sig .tc) → Buf (Elt F) ((c : Thread nD τ).loc b)) (c : Dev nD) (t : Fin cfg0.N) : va1BlkL0 V c t = va1ArrL0 V c := by
  have hi : win0_8.index t (0 : Fin 1) = 0 := by
    have h := idx_factsL0 t; simp only [h]
  funext j
  show iblkL0 V c 8 t j = V c (Pipeline.arrRef spec0 8) j
  unfold iblkL0
  rw [View.read_apply]
  show V c (Pipeline.arrRef spec0 8) _ = V c (Pipeline.arrRef spec0 8) j
  congr 1
  funext a
  apply Fin.ext
  match a with
  | ⟨0, _⟩ => show win0_8.index t (0 : Fin 1) * 128 + 1 * (j 0).val = (j 0).val; omega

/-- The block of the second dense layer's weights is the whole array, at every point. -/
theorem w2BlkL0_eq (V : (c : Dev nD) → (b : Ref sig .tc) → Buf (Elt F) ((c : Thread nD τ).loc b)) (c : Dev nD) (t : Fin cfg0.N) : w2BlkL0 V c t = w2ArrL0 V c := by
  have hi : win0_9.index t (0 : Fin 2) = 0 ∧ win0_9.index t (1 : Fin 2) = 0 := by
    have h := idx_factsL0 t; simp only [h, and_self]
  funext j
  show iblkL0 V c 9 t j = V c (Pipeline.arrRef spec0 9) j
  unfold iblkL0
  rw [View.read_apply]
  show V c (Pipeline.arrRef spec0 9) _ = V c (Pipeline.arrRef spec0 9) j
  congr 1
  funext a
  apply Fin.ext
  match a with
  | ⟨0, _⟩ => show win0_9.index t (0 : Fin 2) * 128 + 1 * (j 0).val = (j 0).val; omega
  | ⟨1, _⟩ => show win0_9.index t (1 : Fin 2) * 128 + 1 * (j 1).val = (j 1).val; omega

/-- The block of the second dense layer's bias is the whole array, at every point. -/
theorem b2BlkL0_eq (V : (c : Dev nD) → (b : Ref sig .tc) → Buf (Elt F) ((c : Thread nD τ).loc b)) (c : Dev nD) (t : Fin cfg0.N) : b2BlkL0 V c t = b2ArrL0 V c := by
  have hi : win0_10.index t (0 : Fin 1) = 0 := by
    have h := idx_factsL0 t; simp only [h]
  funext j
  show iblkL0 V c 10 t j = V c (Pipeline.arrRef spec0 10) j
  unfold iblkL0
  rw [View.read_apply]
  show V c (Pipeline.arrRef spec0 10) _ = V c (Pipeline.arrRef spec0 10) j
  congr 1
  funext a
  apply Fin.ext
  match a with
  | ⟨0, _⟩ => show win0_10.index t (0 : Fin 1) * 128 + 1 * (j 0).val = (j 0).val; omega

/-- The block of the second batch norm's scale is the whole array, at every point. -/
theorem goBlkL0_eq (V : (c : Dev nD) → (b : Ref sig .tc) → Buf (Elt F) ((c : Thread nD τ).loc b)) (c : Dev nD) (t : Fin cfg0.N) : goBlkL0 V c t = goArrL0 V c := by
  have hi : win0_11.index t (0 : Fin 1) = 0 := by
    have h := idx_factsL0 t; simp only [h]
  funext j
  show iblkL0 V c 11 t j = V c (Pipeline.arrRef spec0 11) j
  unfold iblkL0
  rw [View.read_apply]
  show V c (Pipeline.arrRef spec0 11) _ = V c (Pipeline.arrRef spec0 11) j
  congr 1
  funext a
  apply Fin.ext
  match a with
  | ⟨0, _⟩ => show win0_11.index t (0 : Fin 1) * 128 + 1 * (j 0).val = (j 0).val; omega

/-- The block of the second batch norm's shift is the whole array, at every point. -/
theorem beoBlkL0_eq (V : (c : Dev nD) → (b : Ref sig .tc) → Buf (Elt F) ((c : Thread nD τ).loc b)) (c : Dev nD) (t : Fin cfg0.N) : beoBlkL0 V c t = beoArrL0 V c := by
  have hi : win0_12.index t (0 : Fin 1) = 0 := by
    have h := idx_factsL0 t; simp only [h]
  funext j
  show iblkL0 V c 12 t j = V c (Pipeline.arrRef spec0 12) j
  unfold iblkL0
  rw [View.read_apply]
  show V c (Pipeline.arrRef spec0 12) _ = V c (Pipeline.arrRef spec0 12) j
  congr 1
  funext a
  apply Fin.ext
  match a with
  | ⟨0, _⟩ => show win0_12.index t (0 : Fin 1) * 128 + 1 * (j 0).val = (j 0).val; omega

/-- The block of the second batch norm's mean is the whole array, at every point. -/
theorem muoBlkL0_eq (V : (c : Dev nD) → (b : Ref sig .tc) → Buf (Elt F) ((c : Thread nD τ).loc b)) (c : Dev nD) (t : Fin cfg0.N) : muoBlkL0 V c t = muoArrL0 V c := by
  have hi : win0_13.index t (0 : Fin 1) = 0 := by
    have h := idx_factsL0 t; simp only [h]
  funext j
  show iblkL0 V c 13 t j = V c (Pipeline.arrRef spec0 13) j
  unfold iblkL0
  rw [View.read_apply]
  show V c (Pipeline.arrRef spec0 13) _ = V c (Pipeline.arrRef spec0 13) j
  congr 1
  funext a
  apply Fin.ext
  match a with
  | ⟨0, _⟩ => show win0_13.index t (0 : Fin 1) * 128 + 1 * (j 0).val = (j 0).val; omega

/-- The block of the second batch norm's variance is the whole array, at every point. -/
theorem vaoBlkL0_eq (V : (c : Dev nD) → (b : Ref sig .tc) → Buf (Elt F) ((c : Thread nD τ).loc b)) (c : Dev nD) (t : Fin cfg0.N) : vaoBlkL0 V c t = vaoArrL0 V c := by
  have hi : win0_14.index t (0 : Fin 1) = 0 := by
    have h := idx_factsL0 t; simp only [h]
  funext j
  show iblkL0 V c 14 t j = V c (Pipeline.arrRef spec0 14) j
  unfold iblkL0
  rw [View.read_apply]
  show V c (Pipeline.arrRef spec0 14) _ = V c (Pipeline.arrRef spec0 14) j
  congr 1
  funext a
  apply Fin.ext
  match a with
  | ⟨0, _⟩ => show win0_14.index t (0 : Fin 1) * 128 + 1 * (j 0).val = (j 0).val; omega

/-! ## A row of a tile through the two dense layers -/

/-- The payloads at a row whose inputs are a node's rows, the parameter blocks being the parameter arrays: the
    specification's layer at that node. -/
theorem layer_of_rowL0 (x0 x1 : Vec Ideal S1000x128 .f32) (A0 A1 : Vec Ideal S50000x128 .f32)
    (w1 W1 : Vec Ideal S128x128 .f32) (b1 B1 g1 G1 be1 Be1 mu1 Mu1 va1 Va1 : Vec Ideal S128 .f32)
    (w2 W2 : Vec Ideal S128x128 .f32) (b2 B2 go Go beo Beo muo Muo vao Vao : Vec Ideal S128 .f32)
    (r : Fin 1000) (n : Fin 50000)
    (h0 : ∀ i : Fin 128, x0 (ix2 r i) = A0 (ix2 n i)) (h1 : ∀ i : Fin 128, x1 (ix2 r i) = A1 (ix2 n i))
    (e3 : w1 = W1) (e4 : b1 = B1) (e5 : g1 = G1) (e6 : be1 = Be1) (e7 : mu1 = Mu1) (e8 : va1 = Va1)
    (e9 : w2 = W2) (e10 : b2 = B2) (e11 : go = Go) (e12 : beo = Beo) (e13 : muo = Muo) (e14 : vao = Vao) (d : Fin 128) :
    k0_pay4 (k0_pay3 x0 x1 w1 b1 mu1 va1 g1 be1) w2 b2 muo vao go beo (ix2 r d)
      = Cert.Spec.layerAt A0 A1 W1 B1 G1 Be1 Mu1 Va1 W2 B2 Go Beo Muo Vao n d := by
  subst e3 e4 e5 e6 e7 e8 e9 e10 e11 e12 e13 e14
  rw [pay4_applyL0]
  unfold Cert.Spec.layerAt Cert.Spec.hiddenAt
  simp only [pay3_applyL0, h0, h1]

/-- The layer as an array, read at an index by its coordinates. -/
theorem layer_at_idxL0 (A0 A1 : Vec Ideal S50000x128 .f32)
    (W1 : Vec Ideal S128x128 .f32) (B1 G1 Be1 Mu1 Va1 : Vec Ideal S128 .f32)
    (W2 : Vec Ideal S128x128 .f32) (B2 Go Beo Muo Vao : Vec Ideal S128 .f32)
    (j : S50000x128.Idx) (n : Fin 50000) (d : Fin 128) (hn : (j 0).val = n.val) (hd : (j 1).val = d.val) :
    Cert.Spec.layer A0 A1 W1 B1 G1 Be1 Mu1 Va1 W2 B2 Go Beo Muo Vao j
      = Cert.Spec.layerAt A0 A1 W1 B1 G1 Be1 Mu1 Va1 W2 B2 Go Beo Muo Vao n d := by
  have en : j 0 = n := Fin.ext hn
  have ed : j 1 = d := Fin.ext hd
  unfold Cert.Spec.layer
  rw [en, ed]

/-- What point `t` stores, over the blocks at their literal types. -/
theorem hOutL0_blocks (V : (c : Dev nD) → (b : Ref sig .tc) → Buf (Elt Ideal) ((c : Thread nD τ).loc b)) (c : Dev nD) (t : Fin cfg0.N) :
    hOutL0 (F := Ideal) V c t = k0_pay4 (k0_pay3 (aggBlkL0 V c t) (hBlkL0 V c t) (w1BlkL0 V c t) (b1BlkL0 V c t) (mu1BlkL0 V c t) (va1BlkL0 V c t) (g1BlkL0 V c t) (be1BlkL0 V c t)) (w2BlkL0 V c t) (b2BlkL0 V c t) (muoBlkL0 V c t) (vaoBlkL0 V c t) (goBlkL0 V c t) (beoBlkL0 V c t) :=
  hOutL0_eq (F := Ideal) V c t

/-- Row `r` of the block point `t` stores is the specification's layer at node `1000 t + r`. -/
theorem hOutL0_row (V : (c : Dev nD) → (b : Ref sig .tc) → Buf (Elt Ideal) ((c : Thread nD τ).loc b)) (c : Dev nD) (t : Fin cfg0.N) (r : Fin 1000) (d : Fin 128) :
    hOutL0 (F := Ideal) V c t (ix2 r d) = Cert.Spec.layerAt (aggArrL0 V c) (hArrL0 V c) (w1ArrL0 V c) (b1ArrL0 V c) (g1ArrL0 V c) (be1ArrL0 V c) (mu1ArrL0 V c) (va1ArrL0 V c) (w2ArrL0 V c) (b2ArrL0 V c) (goArrL0 V c) (beoArrL0 V c) (muoArrL0 V c) (vaoArrL0 V c) ⟨1000 * t.val + r.val, node_ltL0 t r⟩ d := by
  refine (congrFun (hOutL0_blocks V c t) (ix2 r d)).trans ?_
  exact layer_of_rowL0 (aggBlkL0 V c t) (hBlkL0 V c t) (aggArrL0 V c) (hArrL0 V c)
    (w1BlkL0 V c t) (w1ArrL0 V c) (b1BlkL0 V c t) (b1ArrL0 V c) (g1BlkL0 V c t) (g1ArrL0 V c) (be1BlkL0 V c t) (be1ArrL0 V c) (mu1BlkL0 V c t) (mu1ArrL0 V c) (va1BlkL0 V c t) (va1ArrL0 V c)
    (w2BlkL0 V c t) (w2ArrL0 V c) (b2BlkL0 V c t) (b2ArrL0 V c) (goBlkL0 V c t) (goArrL0 V c) (beoBlkL0 V c t) (beoArrL0 V c) (muoBlkL0 V c t) (muoArrL0 V c) (vaoBlkL0 V c t) (vaoArrL0 V c)
    r ⟨1000 * t.val + r.val, node_ltL0 t r⟩ (aggBlkL0_at V c t r) (hBlkL0_at V c t r)
    (w1BlkL0_eq V c t) (b1BlkL0_eq V c t) (g1BlkL0_eq V c t) (be1BlkL0_eq V c t) (mu1BlkL0_eq V c t) (va1BlkL0_eq V c t)
    (w2BlkL0_eq V c t) (b2BlkL0_eq V c t) (goBlkL0_eq V c t) (beoBlkL0_eq V c t) (muoBlkL0_eq V c t) (vaoBlkL0_eq V c t) d

/-! ## From the tiles to the array -/

/-- What point `t` writes back to the array of new node features is its block of the specification's layer. -/
theorem flushed15_L0 (V : (c : Dev nD) → (b : Ref sig .tc) → Buf (Elt Ideal) ((c : Thread nD τ).loc b)) (c : Dev nD) (t : Fin cfg0.N) :
    (datL0 (F := Ideal) V c).flushed 15 t = ((cfg0.win 15).blk t).view.read (Elt Ideal) (layerInL0 V c) := by
  obtain ⟨-, -, -, -, e0, e1, -⟩ := idx_factsL0 t
  refine (congrArg ((cfg0.win 15).cut (grid0.coords t)) (after15_L0 (F := Ideal) V c t)).trans ?_
  funext j
  obtain ⟨r, d, rfl⟩ : ∃ (r : Fin 1000) (d : Fin 128), j = ix2 r d := ⟨j 0, j 1, eq_ix2 j⟩
  show hOutL0 (F := Ideal) V c t (ix2 r d) = layerInL0 V c (((cfg0.win 15).blk t).view.emb (ix2 r d))
  refine (hOutL0_row V c t r d).trans (layer_at_idxL0 (aggArrL0 V c) (hArrL0 V c) (w1ArrL0 V c) (b1ArrL0 V c) (g1ArrL0 V c) (be1ArrL0 V c) (mu1ArrL0 V c) (va1ArrL0 V c) (w2ArrL0 V c) (b2ArrL0 V c) (goArrL0 V c) (beoArrL0 V c) (muoArrL0 V c) (vaoArrL0 V c) (((cfg0.win 15).blk t).view.emb (ix2 r d)) ⟨1000 * t.val + r.val, node_ltL0 t r⟩ d ?_ ?_).symm
  · show win0_15.index t (0 : Fin 2) * 1000 + 1 * r.val = 1000 * t.val + r.val
    omega
  · show win0_15.index t (1 : Fin 2) * 128 + 1 * d.val = d.val
    omega

/-- An index of the array is in point `t`'s block iff each coordinate is in the block's range on its axis. -/
theorem mem_blk15_L0 (t : Fin cfg0.N) (i : S50000x128.Idx) :
    i ∈ ((cfg0.win 15).blk t).view.set ↔ ∀ a : Fin 2, win0_15.index t a * S1000x128.size a ≤ (i a).val ∧ (i a).val < win0_15.index t a * S1000x128.size a + S1000x128.size a := by
  show i ∈ ((View.whole (Pipeline.arrRef spec0 15)).slice (win0_15.rect t)).set ↔ _
  rw [View.set_slice_whole, Rect.mem_set_unit]
  exact Iff.rfl

/-- The tiles cover the array: node `n` is in the block of point `n / 1000`. -/
theorem cover15_L0 (i : S50000x128.Idx) : ∃ t : Fin cfg0.N, (cfg0.win 15).flush t = true ∧ i ∈ ((cfg0.win 15).blk t).view.set := by
  have hi0 : (i 0).val < 50000 := idx2_lt0 i
  have hi1 : (i 1).val < 128 := idx2_lt1 i
  have hN : (i 0).val / 1000 < cfg0.N := by rw [show cfg0.N = 50 from N_0]; omega
  refine ⟨⟨(i 0).val / 1000, hN⟩, flush0_15 _, ?_⟩
  obtain ⟨-, -, -, -, e0, e1, -⟩ := idx_factsL0 ⟨(i 0).val / 1000, hN⟩
  rw [mem_blk15_L0]
  intro a
  match a with
  | ⟨0, _⟩ =>
    show win0_15.index ⟨(i 0).val / 1000, hN⟩ (0 : Fin 2) * 1000 ≤ (i 0).val ∧ (i 0).val < win0_15.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win0_15.index ⟨(i 0).val / 1000, hN⟩ (1 : Fin 2) * 128 ≤ (i 1).val ∧ (i 1).val < win0_15.index ⟨(i 0).val / 1000, hN⟩ (1 : Fin 2) * 128 + 128
    rw [e1]; omega

/-- After the last point the array of new node features is the specification's layer of the arrays the region finds. -/
theorem hnew_arrL0 (V : (c : Dev nD) → (b : Ref sig .tc) → Buf (Elt Ideal) ((c : Thread nD τ).loc b)) (c : Dev nD) :
    (datL0 (F := Ideal) V c).arrAt 15 cfg0.N = layerInL0 V c :=
  (datL0 (F := Ideal) V c).arrAt_eq_of_cover 15 (layerInL0 V c) (fun t _ => flushed15_L0 V c t) cover15_L0

/-! ## The two facts as the region's users cite them -/

/-- Row `r` of the block point `t` stores is the specification's layer at node `1000 t + r`. -/
theorem hOutL0_at (V : (c : Dev nD) → (b : Ref sig .tc) → Buf (Elt Ideal) ((c : Thread nD τ).loc b)) (c : Dev nD) (t : Fin cfg0.N) (r : Fin 1000) (d : Fin 128) :
    hOutL0 (F := Ideal) V c t (ix2 r d) = Cert.Spec.layerAt (V c (Pipeline.arrRef spec0 0)) (V c (Pipeline.arrRef spec0 1)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) ⟨1000 * t.val + r.val, node_ltL0 t r⟩ d :=
  hOutL0_row V c t r d

/-- After the last point the array of new node features is the specification's layer of the region's inputs. -/
theorem hnew_L0 (V : (c : Dev nD) → (b : Ref sig .tc) → Buf (Elt Ideal) ((c : Thread nD τ).loc b)) (c : Dev nD) :
    ((datL0 (F := Ideal) V c).arrAt 15 cfg0.N : S50000x128.Idx → EReal) = Cert.Spec.layer (V c (Pipeline.arrRef spec0 0)) (V c (Pipeline.arrRef spec0 1)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) :=
  hnew_arrL0 V c

end Cert.KernelIdeal.Hand

end
-- ==== Proof.KI.L1Pieces.lean ====
/-
  Layer region 1, what the body's stores are in terms of the blocks it loads: the new node features of a tile are the
  second dense layer over the first; the pool after a point is the tile's one-hot contraction added to what the
  buffer held (zeros at the first point).
-/
import proofs.«426741_j36421322670671_1_alg».proof.Proof.KI.L1Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are zero, of two axes and of one. -/
theorem hz2_L1 : (![0, 0] : Fin 2 → Nat) = fun _ => 0 := funext fun a => by fin_cases a <;> rfl
theorem hz1_L1 : (![0] : Fin 1 → Nat) = fun _ => 0 := funext fun a => by fin_cases a <;> rfl

/-- The new node features the body stores at the first point, from the blocks it loads. -/
theorem outL1_A_15_eq (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    outL1_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = k1_pay4 (k1_pay3 x0 x1 x3 x4 x7 x8 x5 x6) x9 x10 x13 x14 x11 x12 := by
  unfold outL1_A_15
  rw [View.read_writes_eq_canon _ _ _ (coverL1_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRunL1_A
  dsimp only
  sl_unfold_words
  rw [View.canon_unit_zero hz2_L1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1000x128) hz2_L1, View.ld_unit_zero (S := S128x128) hz2_L1, View.ld_unit_zero (S := S1000x1) hz2_L1, View.ld_unit_zero (S := S512x128) hz2_L1, View.ld_unit_zero (S := S128) hz1_L1, View.readCov_unit_zero (S := S512x128) _ hz2_L1]

/-- The new node features the body stores at a later point, from the blocks it loads. -/
theorem outL1_B_15_eq (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    outL1_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16 = k1_pay4 (k1_pay3 x0 x1 x3 x4 x7 x8 x5 x6) x9 x10 x13 x14 x11 x12 := by
  unfold outL1_B_15
  rw [View.read_writes_eq_canon _ _ _ (coverL1_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16)]
  unfold kernelRunL1_B
  dsimp only
  sl_unfold_words
  rw [View.canon_unit_zero hz2_L1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1000x128) hz2_L1, View.ld_unit_zero (S := S128x128) hz2_L1, View.ld_unit_zero (S := S1000x1) hz2_L1, View.ld_unit_zero (S := S512x128) hz2_L1, View.ld_unit_zero (S := S128) hz1_L1, View.readCov_unit_zero (S := S512x128) _ hz2_L1]

/-- The pool the body leaves at the first point: the buffer is zeroed, read back, and the tile's pool added. -/
theorem outL1_A_16_eq (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    outL1_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = k1_pay1 (k1_pay5 (k1_pay3 x0 x1 x3 x4 x7 x8 x5 x6) x9 x10 x13 x14 x11 x12 x2) (k1_pay2 (F := F)) := by
  unfold outL1_A_16
  rw [View.read_writes_eq_canon _ _ _ (coverL1_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRunL1_A
  dsimp only
  sl_unfold_words
  rw [View.canon_cons_unit_zero (S := S512x128) hz2_L1, View.readCov_unit_zero (S := S512x128) _ hz2_L1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1000x128) hz2_L1, View.ld_unit_zero (S := S128x128) hz2_L1, View.ld_unit_zero (S := S1000x1) hz2_L1, View.ld_unit_zero (S := S512x128) hz2_L1, View.ld_unit_zero (S := S128) hz1_L1, View.readCov_unit_zero (S := S512x128) _ hz2_L1]

/-- The pool the body leaves at a later point: the tile's pool added to what the buffer held. -/
theorem outL1_B_16_eq (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL1_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    outL1_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16 = k1_pay1 (k1_pay5 (k1_pay3 x0 x1 x3 x4 x7 x8 x5 x6) x9 x10 x13 x14 x11 x12 x2) xo16 := by
  unfold outL1_B_16
  rw [View.read_writes_eq_canon _ _ _ (coverL1_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16)]
  unfold kernelRunL1_B
  dsimp only
  sl_unfold_words
  rw [View.canon_unit_zero hz2_L1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1000x128) hz2_L1, View.ld_unit_zero (S := S128x128) hz2_L1, View.ld_unit_zero (S := S1000x1) hz2_L1, View.ld_unit_zero (S := S512x128) hz2_L1, View.ld_unit_zero (S := S128) hz1_L1, View.readCov_unit_zero (S := S512x128) _ hz2_L1]

/-- The new node features the body stores at point `t`: the second dense layer of the tile, over the first. -/
theorem hOutL1_eq (V : (c : Dev nD) → (b : Ref sig .tc) → Buf (Elt F) ((c : Thread nD τ).loc b)) (c : Dev nD) (t : Fin cfg1.N) :
    hOutL1 V c t = k1_pay4 (k1_pay3 (iblkL1 V c 0 t) (iblkL1 V c 1 t) (iblkL1 V c 3 t) (iblkL1 V c 4 t) (iblkL1 V c 7 t) (iblkL1 V c 8 t) (iblkL1 V c 5 t) (iblkL1 V c 6 t)) (iblkL1 V c 9 t) (iblkL1 V c 10 t) (iblkL1 V c 13 t) (iblkL1 V c 14 t) (iblkL1 V c 11 t) (iblkL1 V c 12 t) := by
  by_cases h0 : t.val % 50 = 0
  · rw [hOutL1_A V c t h0, outL1_A_15_eq]
  · rw [hOutL1_B V c t h0, outL1_B_15_eq]

/-- The pool's buffer after the first point: the tile's pool added to zeros. -/
theorem poolAtL1_zero (V : (c : Dev nD) → (b : Ref sig .tc) → Buf (Elt F) ((c : Thread nD τ).loc b)) (c : Dev nD) (h0 : 0 < cfg1.N) :
    poolAtL1 V c 0 h0 = k1_pay1 (k1_pay5 (k1_pay3 (iblkL1 V c 0 ⟨0, h0⟩) (iblkL1 V c 1 ⟨0, h0⟩) (iblkL1 V c 3 ⟨0, h0⟩) (iblkL1 V c 4 ⟨0, h0⟩) (iblkL1 V c 7 ⟨0, h0⟩) (iblkL1 V c 8 ⟨0, h0⟩) (iblkL1 V c 5 ⟨0, h0⟩) (iblkL1 V c 6 ⟨0, h0⟩)) (iblkL1 V c 9 ⟨0, h0⟩) (iblkL1 V c 10 ⟨0, h0⟩) (iblkL1 V c 13 ⟨0, h0⟩) (iblkL1 V c 14 ⟨0, h0⟩) (iblkL1 V c 11 ⟨0, h0⟩) (iblkL1 V c 12 ⟨0, h0⟩) (iblkL1 V c 2 ⟨0, h0⟩)) (k1_pay2 (F := F)) := (poolAtL1_A V c ⟨0, h0⟩ rfl).trans (outL1_A_16_eq ..)

/-- The pool's buffer after a later point: the tile's pool added to what the point before left. -/
theorem poolAtL1_succ (V : (c : Dev nD) → (b : Ref sig .tc) → Buf (Elt F) ((c : Thread nD τ).loc b)) (c : Dev nD) (n : ℕ) (hn : n + 1 < cfg1.N) :
    poolAtL1 V c (n + 1) hn = k1_pay1 (k1_pay5 (k1_pay3 (iblkL1 V c 0 ⟨n + 1, hn⟩) (iblkL1 V c 1 ⟨n + 1, hn⟩) (iblkL1 V c 3 ⟨n + 1, hn⟩) (iblkL1 V c 4 ⟨n + 1, hn⟩) (iblkL1 V c 7 ⟨n + 1, hn⟩) (iblkL1 V c 8 ⟨n + 1, hn⟩) (iblkL1 V c 5 ⟨n + 1, hn⟩) (iblkL1 V c 6 ⟨n + 1, hn⟩)) (iblkL1 V c 9 ⟨n + 1, hn⟩) (iblkL1 V c 10 ⟨n + 1, hn⟩) (iblkL1 V c 13 ⟨n + 1, hn⟩) (iblkL1 V c 14 ⟨n + 1, hn⟩) (iblkL1 V c 11 ⟨n + 1, hn⟩) (iblkL1 V c 12 ⟨n + 1, hn⟩) (iblkL1 V c 2 ⟨n + 1, hn⟩)) (poolAtL1 V c n (Nat.lt_of_succ_lt hn)) := by
  have hN : cfg1.N = 50 := N_1
  have hB : ¬(⟨n + 1, hn⟩ : Fin cfg1.N).val % 50 = 0 := by dsimp only; omega
  exact (poolAtL1_B V c ⟨n + 1, hn⟩ hB).trans (outL1_B_16_eq ..)

end Cert.KernelIdeal.Hand

end
-- ==== Proof.KI.L1HNew.lean ====
/-
  Layer region 1: the new node features the region leaves are the specification's layer.

  A tile's stored block is the second dense layer (with its batch norm and relu) of the first dense layer of
  the tile's rows of `agg + h`; the tile at point `t` holds rows `1000 t … 1000 t + 999` of the node arrays and
  every parameter window holds its whole array, so row `r` of the stored block is the specification's layer at
  node `1000 t + r`. The tiles cover the array, so after the last point the array is the layer.
-/
import proofs.«426741_j36421322670671_1_alg».proof.Proof.KI.L1Dat
import proofs.«426741_j36421322670671_1_alg».proof.Proof.KI.L1Pieces
import proofs.«426741_j36421322670671_1_alg».proof.Proof.KI.LayerPay
import proofs.«426741_j36421322670671_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The region's arrays and the windows' blocks, at their literal types -/

/-- The array of the neighbours' sums, as the region finds it. -/
abbrev aggArrL1 (V : (c : Dev nD) → (b : Ref sig .tc) → Buf (Elt F) ((c : Thread nD τ).loc b)) (c : Dev nD) : Vec F S50000x128 .f32 := V c (Pipeline.arrRef spec1 0)
/-- The block of the neighbours' sums at point `t`. -/
abbrev aggBlkL1 (V : (c : Dev nD) → (b : Ref sig .tc) → Buf (Elt F) ((c : Thread nD τ).loc b)) (c : Dev nD) (t : Fin cfg1.N) : Vec F S1000x128 .f32 := iblkL1 V c 0 t
/-- The array of the node features, as the region finds it. -/
abbrev hArrL1 (V : (c : Dev nD) → (b : Ref sig .tc) → Buf (Elt F) ((c : Thread nD τ).loc b)) (c : Dev nD) : Vec F S50000x128 .f32 := V c (Pipeline.arrRef spec1 1)
/-- The block of the node features at point `t`. -/
abbrev hBlkL1 (V : (c : Dev nD) → (b : Ref sig .tc) → Buf (Elt F) ((c : Thread nD τ).loc b)) (c : Dev nD) (t : Fin cfg1.N) : Vec F S1000x128 .f32 := iblkL1 V c 1 t
/-- The array of the first dense layer's weights, as the region finds it. -/
abbrev w1ArrL1 (V : (c : Dev nD) → (b : Ref sig .tc) → Buf (Elt F) ((c : Thread nD τ).loc b)) (c : Dev nD) : Vec F S128x128 .f32 := V c (Pipeline.arrRef spec1 3)
/-- The block of the first dense layer's weights at point `t`. -/
abbrev w1BlkL1 (V : (c : Dev nD) → (b : Ref sig .tc) → Buf (Elt F) ((c : Thread nD τ).loc b)) (c : Dev nD) (t : Fin cfg1.N) : Vec F S128x128 .f32 := iblkL1 V c 3 t
/-- The array of the first dense layer's bias, as the region finds it. -/
abbrev b1ArrL1 (V : (c : Dev nD) → (b : Ref sig .tc) → Buf (Elt F) ((c : Thread nD τ).loc b)) (c : Dev nD) : Vec F S128 .f32 := V c (Pipeline.arrRef spec1 4)
/-- The block of the first dense layer's bias at point `t`. -/
abbrev b1BlkL1 (V : (c : Dev nD) → (b : Ref sig .tc) → Buf (Elt F) ((c : Thread nD τ).loc b)) (c : Dev nD) (t : Fin cfg1.N) : Vec F S128 .f32 := iblkL1 V c 4 t
/-- The array of the first batch norm's scale, as the region finds it. -/
abbrev g1ArrL1 (V : (c : Dev nD) → (b : Ref sig .tc) → Buf (Elt F) ((c : Thread nD τ).loc b)) (c : Dev nD) : Vec F S128 .f32 := V c (Pipeline.arrRef spec1 5)
/-- The block of the first batch norm's scale at point `t`. -/
abbrev g1BlkL1 (V : (c : Dev nD) → (b : Ref sig .tc) → Buf (Elt F) ((c : Thread nD τ).loc b)) (c : Dev nD) (t : Fin cfg1.N) : Vec F S128 .f32 := iblkL1 V c 5 t
/-- The array of the first batch norm's shift, as the region finds it. -/
abbrev be1ArrL1 (V : (c : Dev nD) → (b : Ref sig .tc) → Buf (Elt F) ((c : Thread nD τ).loc b)) (c : Dev nD) : Vec F S128 .f32 := V c (Pipeline.arrRef spec1 6)
/-- The block of the first batch norm's shift at point `t`. -/
abbrev be1BlkL1 (V : (c : Dev nD) → (b : Ref sig .tc) → Buf (Elt F) ((c : Thread nD τ).loc b)) (c : Dev nD) (t : Fin cfg1.N) : Vec F S128 .f32 := iblkL1 V c 6 t
/-- The array of the first batch norm's mean, as the region finds it. -/
abbrev mu1ArrL1 (V : (c : Dev nD) → (b : Ref sig .tc) → Buf (Elt F) ((c : Thread nD τ).loc b)) (c : Dev nD) : Vec F S128 .f32 := V c (Pipeline.arrRef spec1 7)
/-- The block of the first batch norm's mean at point `t`. -/
abbrev mu1BlkL1 (V : (c : Dev nD) → (b : Ref sig .tc) → Buf (Elt F) ((c : Thread nD τ).loc b)) (c : Dev nD) (t : Fin cfg1.N) : Vec F S128 .f32 := iblkL1 V c 7 t
/-- The array of the first batch norm's variance, as the region finds it. -/
abbrev va1ArrL1 (V : (c : Dev nD) → (b : Ref sig .tc) → Buf (Elt F) ((c : Thread nD τ).loc b)) (c : Dev nD) : Vec F S128 .f32 := V c (Pipeline.arrRef spec1 8)
/-- The block of the first batch norm's variance at point `t`. -/
abbrev va1BlkL1 (V : (c : Dev nD) → (b : Ref sig .tc) → Buf (Elt F) ((c : Thread nD τ).loc b)) (c : Dev nD) (t : Fin cfg1.N) : Vec F S128 .f32 := iblkL1 V c 8 t
/-- The array of the second dense layer's weights, as the region finds it. -/
abbrev w2ArrL1 (V : (c : Dev nD) → (b : Ref sig .tc) → Buf (Elt F) ((c : Thread nD τ).loc b)) (c : Dev nD) : Vec F S128x128 .f32 := V c (Pipeline.arrRef spec1 9)
/-- The block of the second dense layer's weights at point `t`. -/
abbrev w2BlkL1 (V : (c : Dev nD) → (b : Ref sig .tc) → Buf (Elt F) ((c : Thread nD τ).loc b)) (c : Dev nD) (t : Fin cfg1.N) : Vec F S128x128 .f32 := iblkL1 V c 9 t
/-- The array of the second dense layer's bias, as the region finds it. -/
abbrev b2ArrL1 (V : (c : Dev nD) → (b : Ref sig .tc) → Buf (Elt F) ((c : Thread nD τ).loc b)) (c : Dev nD) : Vec F S128 .f32 := V c (Pipeline.arrRef spec1 10)
/-- The block of the second dense layer's bias at point `t`. -/
abbrev b2BlkL1 (V : (c : Dev nD) → (b : Ref sig .tc) → Buf (Elt F) ((c : Thread nD τ).loc b)) (c : Dev nD) (t : Fin cfg1.N) : Vec F S128 .f32 := iblkL1 V c 10 t
/-- The array of the second batch norm's scale, as the region finds it. -/
abbrev goArrL1 (V : (c : Dev nD) → (b : Ref sig .tc) → Buf (Elt F) ((c : Thread nD τ).loc b)) (c : Dev nD) : Vec F S128 .f32 := V c (Pipeline.arrRef spec1 11)
/-- The block of the second batch norm's scale at point `t`. -/
abbrev goBlkL1 (V : (c : Dev nD) → (b : Ref sig .tc) → Buf (Elt F) ((c : Thread nD τ).loc b)) (c : Dev nD) (t : Fin cfg1.N) : Vec F S128 .f32 := iblkL1 V c 11 t
/-- The array of the second batch norm's shift, as the region finds it. -/
abbrev beoArrL1 (V : (c : Dev nD) → (b : Ref sig .tc) → Buf (Elt F) ((c : Thread nD τ).loc b)) (c : Dev nD) : Vec F S128 .f32 := V c (Pipeline.arrRef spec1 12)
/-- The block of the second batch norm's shift at point `t`. -/
abbrev beoBlkL1 (V : (c : Dev nD) → (b : Ref sig .tc) → Buf (Elt F) ((c : Thread nD τ).loc b)) (c : Dev nD) (t : Fin cfg1.N) : Vec F S128 .f32 := iblkL1 V c 12 t
/-- The array of the second batch norm's mean, as the region finds it. -/
abbrev muoArrL1 (V : (c : Dev nD) → (b : Ref sig .tc) → Buf (Elt F) ((c : Thread nD τ).loc b)) (c : Dev nD) : Vec F S128 .f32 := V c (Pipeline.arrRef spec1 13)
/-- The block of the second batch norm's mean at point `t`. -/
abbrev muoBlkL1 (V : (c : Dev nD) → (b : Ref sig .tc) → Buf (Elt F) ((c : Thread nD τ).loc b)) (c : Dev nD) (t : Fin cfg1.N) : Vec F S128 .f32 := iblkL1 V c 13 t
/-- The array of the second batch norm's variance, as the region finds it. -/
abbrev vaoArrL1 (V : (c : Dev nD) → (b : Ref sig .tc) → Buf (Elt F) ((c : Thread nD τ).loc b)) (c : Dev nD) : Vec F S128 .f32 := V c (Pipeline.arrRef spec1 14)
/-- The block of the second batch norm's variance at point `t`. -/
abbrev vaoBlkL1 (V : (c : Dev nD) → (b : Ref sig .tc) → Buf (Elt F) ((c : Thread nD τ).loc b)) (c : Dev nD) (t : Fin cfg1.N) : Vec F S128 .f32 := iblkL1 V c 14 t

/-- The specification's layer of the arrays the region finds. -/
abbrev layerInL1 (V : (c : Dev nD) → (b : Ref sig .tc) → Buf (Elt Ideal) ((c : Thread nD τ).loc b)) (c : Dev nD) : Vec Ideal S50000x128 .f32 :=
  Cert.Spec.layer (aggArrL1 V c) (hArrL1 V c) (w1ArrL1 V c) (b1ArrL1 V c) (g1ArrL1 V c) (be1ArrL1 V c) (mu1ArrL1 V c) (va1ArrL1 V c) (w2ArrL1 V c) (b2ArrL1 V c) (goArrL1 V c) (beoArrL1 V c) (muoArrL1 V c) (vaoArrL1 V c)

/-! ## The index maps over the grid -/

/-- The printed index maps, decided over the 50 points: the node windows' block index is the point on the rows and
    zero on the features; a parameter window's block index is zero. -/
theorem idx_factsL1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_15.index t (0 : Fin 2) = t.val ∧ win1_15.index t (1 : Fin 2) = 0
    ∧ win1_3.index t (0 : Fin 2) = 0 ∧ win1_3.index t (1 : Fin 2) = 0
    ∧ win1_9.index t (0 : Fin 2) = 0 ∧ win1_9.index t (1 : Fin 2) = 0
    ∧ win1_4.index t (0 : Fin 1) = 0 ∧ win1_5.index t (0 : Fin 1) = 0 ∧ win1_6.index t (0 : Fin 1) = 0
    ∧ win1_7.index t (0 : Fin 1) = 0 ∧ win1_8.index t (0 : Fin 1) = 0 ∧ win1_10.index t (0 : Fin 1) = 0
    ∧ win1_11.index t (0 : Fin 1) = 0 ∧ win1_12.index t (0 : Fin 1) = 0 ∧ win1_13.index t (0 : Fin 1) = 0
    ∧ win1_14.index t (0 : Fin 1) = 0 :=
  (by decide +kernel : ∀ t : Fin grid1.N, _)

/-- A row of a tile is a node. -/
theorem node_ltL1 (t : Fin cfg1.N) (r : Fin 1000) : 1000 * t.val + r.val < 50000 := by
  have ht : t.val < 50 := lt_of_lt_of_eq t.isLt N_1
  have hr := r.isLt
  omega

/-! ## The windows' blocks, read off their arrays -/

/-- The tile of the neighbours' sums at point `t` is rows `1000 t …` of the array. -/
theorem aggBlkL1_at (V : (c : Dev nD) → (b : Ref sig .tc) → Buf (Elt F) ((c : Thread nD τ).loc b)) (c : Dev nD) (t : Fin cfg1.N) (r : Fin 1000) (i : Fin 128) :
    aggBlkL1 V c t (ix2 r i) = aggArrL1 V c (ix2 ⟨1000 * t.val + r.val, node_ltL1 t r⟩ i) := by
  obtain ⟨e0, e1, -⟩ := idx_factsL1 t
  show iblkL1 V c 0 t (ix2 r i) = V c (Pipeline.arrRef spec1 0) _
  unfold iblkL1
  rw [View.read_apply]
  show V c (Pipeline.arrRef spec1 0) _ = V c (Pipeline.arrRef spec1 0) _
  congr 1
  funext a
  apply Fin.ext
  match a with
  | ⟨0, _⟩ => show win1_0.index t (0 : Fin 2) * 1000 + 1 * r.val = 1000 * t.val + r.val; omega
  | ⟨1, _⟩ => show win1_0.index t (1 : Fin 2) * 128 + 1 * i.val = i.val; omega

/-- The tile of the node features at point `t` is rows `1000 t …` of the array. -/
theorem hBlkL1_at (V : (c : Dev nD) → (b : Ref sig .tc) → Buf (Elt F) ((c : Thread nD τ).loc b)) (c : Dev nD) (t : Fin cfg1.N) (r : Fin 1000) (i : Fin 128) :
    hBlkL1 V c t (ix2 r i) = hArrL1 V c (ix2 ⟨1000 * t.val + r.val, node_ltL1 t r⟩ i) := by
  obtain ⟨-, -, e0, e1, -⟩ := idx_factsL1 t
  show iblkL1 V c 1 t (ix2 r i) = V c (Pipeline.arrRef spec1 1) _
  unfold iblkL1
  rw [View.read_apply]
  show V c (Pipeline.arrRef spec1 1) _ = V c (Pipeline.arrRef spec1 1) _
  congr 1
  funext a
  apply Fin.ext
  match a with
  | ⟨0, _⟩ => show win1_1.index t (0 : Fin 2) * 1000 + 1 * r.val = 1000 * t.val + r.val; omega
  | ⟨1, _⟩ => show win1_1.index t (1 : Fin 2) * 128 + 1 * i.val = i.val; omega

/-- The block of the first dense layer's weights is the whole array, at every point. -/
theorem w1BlkL1_eq (V : (c : Dev nD) → (b : Ref sig .tc) → Buf (Elt F) ((c : Thread nD τ).loc b)) (c : Dev nD) (t : Fin cfg1.N) : w1BlkL1 V c t = w1ArrL1 V c := by
  have hi : win1_3.index t (0 : Fin 2) = 0 ∧ win1_3.index t (1 : Fin 2) = 0 := by
    have h := idx_factsL1 t; simp only [h, and_self]
  funext j
  show iblkL1 V c 3 t j = V c (Pipeline.arrRef spec1 3) j
  unfold iblkL1
  rw [View.read_apply]
  show V c (Pipeline.arrRef spec1 3) _ = V c (Pipeline.arrRef spec1 3) j
  congr 1
  funext a
  apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- The block of the first dense layer's bias is the whole array, at every point. -/
theorem b1BlkL1_eq (V : (c : Dev nD) → (b : Ref sig .tc) → Buf (Elt F) ((c : Thread nD τ).loc b)) (c : Dev nD) (t : Fin cfg1.N) : b1BlkL1 V c t = b1ArrL1 V c := by
  have hi : win1_4.index t (0 : Fin 1) = 0 := by
    have h := idx_factsL1 t; simp only [h]
  funext j
  show iblkL1 V c 4 t j = V c (Pipeline.arrRef spec1 4) j
  unfold iblkL1
  rw [View.read_apply]
  show V c (Pipeline.arrRef spec1 4) _ = V c (Pipeline.arrRef spec1 4) j
  congr 1
  funext a
  apply Fin.ext
  match a with
  | ⟨0, _⟩ => show win1_4.index t (0 : Fin 1) * 128 + 1 * (j 0).val = (j 0).val; omega

/-- The block of the first batch norm's scale is the whole array, at every point. -/
theorem g1BlkL1_eq (V : (c : Dev nD) → (b : Ref sig .tc) → Buf (Elt F) ((c : Thread nD τ).loc b)) (c : Dev nD) (t : Fin cfg1.N) : g1BlkL1 V c t = g1ArrL1 V c := by
  have hi : win1_5.index t (0 : Fin 1) = 0 := by
    have h := idx_factsL1 t; simp only [h]
  funext j
  show iblkL1 V c 5 t j = V c (Pipeline.arrRef spec1 5) j
  unfold iblkL1
  rw [View.read_apply]
  show V c (Pipeline.arrRef spec1 5) _ = V c (Pipeline.arrRef spec1 5) j
  congr 1
  funext a
  apply Fin.ext
  match a with
  | ⟨0, _⟩ => show win1_5.index t (0 : Fin 1) * 128 + 1 * (j 0).val = (j 0).val; omega

/-- The block of the first batch norm's shift is the whole array, at every point. -/
theorem be1BlkL1_eq (V : (c : Dev nD) → (b : Ref sig .tc) → Buf (Elt F) ((c : Thread nD τ).loc b)) (c : Dev nD) (t : Fin cfg1.N) : be1BlkL1 V c t = be1ArrL1 V c := by
  have hi : win1_6.index t (0 : Fin 1) = 0 := by
    have h := idx_factsL1 t; simp only [h]
  funext j
  show iblkL1 V c 6 t j = V c (Pipeline.arrRef spec1 6) j
  unfold iblkL1
  rw [View.read_apply]
  show V c (Pipeline.arrRef spec1 6) _ = V c (Pipeline.arrRef spec1 6) j
  congr 1
  funext a
  apply Fin.ext
  match a with
  | ⟨0, _⟩ => show win1_6.index t (0 : Fin 1) * 128 + 1 * (j 0).val = (j 0).val; omega

/-- The block of the first batch norm's mean is the whole array, at every point. -/
theorem mu1BlkL1_eq (V : (c : Dev nD) → (b : Ref sig .tc) → Buf (Elt F) ((c : Thread nD τ).loc b)) (c : Dev nD) (t : Fin cfg1.N) : mu1BlkL1 V c t = mu1ArrL1 V c := by
  have hi : win1_7.index t (0 : Fin 1) = 0 := by
    have h := idx_factsL1 t; simp only [h]
  funext j
  show iblkL1 V c 7 t j = V c (Pipeline.arrRef spec1 7) j
  unfold iblkL1
  rw [View.read_apply]
  show V c (Pipeline.arrRef spec1 7) _ = V c (Pipeline.arrRef spec1 7) j
  congr 1
  funext a
  apply Fin.ext
  match a with
  | ⟨0, _⟩ => show win1_7.index t (0 : Fin 1) * 128 + 1 * (j 0).val = (j 0).val; omega

/-- The block of the first batch norm's variance is the whole array, at every point. -/
theorem va1BlkL1_eq (V : (c : Dev nD) → (b : Ref sig .tc) → Buf (Elt F) ((c : Thread nD τ).loc b)) (c : Dev nD) (t : Fin cfg1.N) : va1BlkL1 V c t = va1ArrL1 V c := by
  have hi : win1_8.index t (0 : Fin 1) = 0 := by
    have h := idx_factsL1 t; simp only [h]
  funext j
  show iblkL1 V c 8 t j = V c (Pipeline.arrRef spec1 8) j
  unfold iblkL1
  rw [View.read_apply]
  show V c (Pipeline.arrRef spec1 8) _ = V c (Pipeline.arrRef spec1 8) j
  congr 1
  funext a
  apply Fin.ext
  match a with
  | ⟨0, _⟩ => show win1_8.index t (0 : Fin 1) * 128 + 1 * (j 0).val = (j 0).val; omega

/-- The block of the second dense layer's weights is the whole array, at every point. -/
theorem w2BlkL1_eq (V : (c : Dev nD) → (b : Ref sig .tc) → Buf (Elt F) ((c : Thread nD τ).loc b)) (c : Dev nD) (t : Fin cfg1.N) : w2BlkL1 V c t = w2ArrL1 V c := by
  have hi : win1_9.index t (0 : Fin 2) = 0 ∧ win1_9.index t (1 : Fin 2) = 0 := by
    have h := idx_factsL1 t; simp only [h, and_self]
  funext j
  show iblkL1 V c 9 t j = V c (Pipeline.arrRef spec1 9) j
  unfold iblkL1
  rw [View.read_apply]
  show V c (Pipeline.arrRef spec1 9) _ = V c (Pipeline.arrRef spec1 9) j
  congr 1
  funext a
  apply Fin.ext
  match a with
  | ⟨0, _⟩ => show win1_9.index t (0 : Fin 2) * 128 + 1 * (j 0).val = (j 0).val; omega
  | ⟨1, _⟩ => show win1_9.index t (1 : Fin 2) * 128 + 1 * (j 1).val = (j 1).val; omega

/-- The block of the second dense layer's bias is the whole array, at every point. -/
theorem b2BlkL1_eq (V : (c : Dev nD) → (b : Ref sig .tc) → Buf (Elt F) ((c : Thread nD τ).loc b)) (c : Dev nD) (t : Fin cfg1.N) : b2BlkL1 V c t = b2ArrL1 V c := by
  have hi : win1_10.index t (0 : Fin 1) = 0 := by
    have h := idx_factsL1 t; simp only [h]
  funext j
  show iblkL1 V c 10 t j = V c (Pipeline.arrRef spec1 10) j
  unfold iblkL1
  rw [View.read_apply]
  show V c (Pipeline.arrRef spec1 10) _ = V c (Pipeline.arrRef spec1 10) j
  congr 1
  funext a
  apply Fin.ext
  match a with
  | ⟨0, _⟩ => show win1_10.index t (0 : Fin 1) * 128 + 1 * (j 0).val = (j 0).val; omega

/-- The block of the second batch norm's scale is the whole array, at every point. -/
theorem goBlkL1_eq (V : (c : Dev nD) → (b : Ref sig .tc) → Buf (Elt F) ((c : Thread nD τ).loc b)) (c : Dev nD) (t : Fin cfg1.N) : goBlkL1 V c t = goArrL1 V c := by
  have hi : win1_11.index t (0 : Fin 1) = 0 := by
    have h := idx_factsL1 t; simp only [h]
  funext j
  show iblkL1 V c 11 t j = V c (Pipeline.arrRef spec1 11) j
  unfold iblkL1
  rw [View.read_apply]
  show V c (Pipeline.arrRef spec1 11) _ = V c (Pipeline.arrRef spec1 11) j
  congr 1
  funext a
  apply Fin.ext
  match a with
  | ⟨0, _⟩ => show win1_11.index t (0 : Fin 1) * 128 + 1 * (j 0).val = (j 0).val; omega

/-- The block of the second batch norm's shift is the whole array, at every point. -/
theorem beoBlkL1_eq (V : (c : Dev nD) → (b : Ref sig .tc) → Buf (Elt F) ((c : Thread nD τ).loc b)) (c : Dev nD) (t : Fin cfg1.N) : beoBlkL1 V c t = beoArrL1 V c := by
  have hi : win1_12.index t (0 : Fin 1) = 0 := by
    have h := idx_factsL1 t; simp only [h]
  funext j
  show iblkL1 V c 12 t j = V c (Pipeline.arrRef spec1 12) j
  unfold iblkL1
  rw [View.read_apply]
  show V c (Pipeline.arrRef spec1 12) _ = V c (Pipeline.arrRef spec1 12) j
  congr 1
  funext a
  apply Fin.ext
  match a with
  | ⟨0, _⟩ => show win1_12.index t (0 : Fin 1) * 128 + 1 * (j 0).val = (j 0).val; omega

/-- The block of the second batch norm's mean is the whole array, at every point. -/
theorem muoBlkL1_eq (V : (c : Dev nD) → (b : Ref sig .tc) → Buf (Elt F) ((c : Thread nD τ).loc b)) (c : Dev nD) (t : Fin cfg1.N) : muoBlkL1 V c t = muoArrL1 V c := by
  have hi : win1_13.index t (0 : Fin 1) = 0 := by
    have h := idx_factsL1 t; simp only [h]
  funext j
  show iblkL1 V c 13 t j = V c (Pipeline.arrRef spec1 13) j
  unfold iblkL1
  rw [View.read_apply]
  show V c (Pipeline.arrRef spec1 13) _ = V c (Pipeline.arrRef spec1 13) j
  congr 1
  funext a
  apply Fin.ext
  match a with
  | ⟨0, _⟩ => show win1_13.index t (0 : Fin 1) * 128 + 1 * (j 0).val = (j 0).val; omega

/-- The block of the second batch norm's variance is the whole array, at every point. -/
theorem vaoBlkL1_eq (V : (c : Dev nD) → (b : Ref sig .tc) → Buf (Elt F) ((c : Thread nD τ).loc b)) (c : Dev nD) (t : Fin cfg1.N) : vaoBlkL1 V c t = vaoArrL1 V c := by
  have hi : win1_14.index t (0 : Fin 1) = 0 := by
    have h := idx_factsL1 t; simp only [h]
  funext j
  show iblkL1 V c 14 t j = V c (Pipeline.arrRef spec1 14) j
  unfold iblkL1
  rw [View.read_apply]
  show V c (Pipeline.arrRef spec1 14) _ = V c (Pipeline.arrRef spec1 14) j
  congr 1
  funext a
  apply Fin.ext
  match a with
  | ⟨0, _⟩ => show win1_14.index t (0 : Fin 1) * 128 + 1 * (j 0).val = (j 0).val; omega

/-! ## A row of a tile through the two dense layers -/

/-- The payloads at a row whose inputs are a node's rows, the parameter blocks being the parameter arrays: the
    specification's layer at that node. -/
theorem layer_of_rowL1 (x0 x1 : Vec Ideal S1000x128 .f32) (A0 A1 : Vec Ideal S50000x128 .f32)
    (w1 W1 : Vec Ideal S128x128 .f32) (b1 B1 g1 G1 be1 Be1 mu1 Mu1 va1 Va1 : Vec Ideal S128 .f32)
    (w2 W2 : Vec Ideal S128x128 .f32) (b2 B2 go Go beo Beo muo Muo vao Vao : Vec Ideal S128 .f32)
    (r : Fin 1000) (n : Fin 50000)
    (h0 : ∀ i : Fin 128, x0 (ix2 r i) = A0 (ix2 n i)) (h1 : ∀ i : Fin 128, x1 (ix2 r i) = A1 (ix2 n i))
    (e3 : w1 = W1) (e4 : b1 = B1) (e5 : g1 = G1) (e6 : be1 = Be1) (e7 : mu1 = Mu1) (e8 : va1 = Va1)
    (e9 : w2 = W2) (e10 : b2 = B2) (e11 : go = Go) (e12 : beo = Beo) (e13 : muo = Muo) (e14 : vao = Vao) (d : Fin 128) :
    k1_pay4 (k1_pay3 x0 x1 w1 b1 mu1 va1 g1 be1) w2 b2 muo vao go beo (ix2 r d)
      = Cert.Spec.layerAt A0 A1 W1 B1 G1 Be1 Mu1 Va1 W2 B2 Go Beo Muo Vao n d := by
  subst e3 e4 e5 e6 e7 e8 e9 e10 e11 e12 e13 e14
  rw [pay4_applyL1]
  unfold Cert.Spec.layerAt Cert.Spec.hiddenAt
  simp only [pay3_applyL1, h0, h1]

/-- The layer as an array, read at an index by its coordinates. -/
theorem layer_at_idxL1 (A0 A1 : Vec Ideal S50000x128 .f32)
    (W1 : Vec Ideal S128x128 .f32) (B1 G1 Be1 Mu1 Va1 : Vec Ideal S128 .f32)
    (W2 : Vec Ideal S128x128 .f32) (B2 Go Beo Muo Vao : Vec Ideal S128 .f32)
    (j : S50000x128.Idx) (n : Fin 50000) (d : Fin 128) (hn : (j 0).val = n.val) (hd : (j 1).val = d.val) :
    Cert.Spec.layer A0 A1 W1 B1 G1 Be1 Mu1 Va1 W2 B2 Go Beo Muo Vao j
      = Cert.Spec.layerAt A0 A1 W1 B1 G1 Be1 Mu1 Va1 W2 B2 Go Beo Muo Vao n d := by
  have en : j 0 = n := Fin.ext hn
  have ed : j 1 = d := Fin.ext hd
  unfold Cert.Spec.layer
  rw [en, ed]

/-- What point `t` stores, over the blocks at their literal types. -/
theorem hOutL1_blocks (V : (c : Dev nD) → (b : Ref sig .tc) → Buf (Elt Ideal) ((c : Thread nD τ).loc b)) (c : Dev nD) (t : Fin cfg1.N) :
    hOutL1 (F := Ideal) V c t = k1_pay4 (k1_pay3 (aggBlkL1 V c t) (hBlkL1 V c t) (w1BlkL1 V c t) (b1BlkL1 V c t) (mu1BlkL1 V c t) (va1BlkL1 V c t) (g1BlkL1 V c t) (be1BlkL1 V c t)) (w2BlkL1 V c t) (b2BlkL1 V c t) (muoBlkL1 V c t) (vaoBlkL1 V c t) (goBlkL1 V c t) (beoBlkL1 V c t) :=
  hOutL1_eq (F := Ideal) V c t

/-- Row `r` of the block point `t` stores is the specification's layer at node `1000 t + r`. -/
theorem hOutL1_row (V : (c : Dev nD) → (b : Ref sig .tc) → Buf (Elt Ideal) ((c : Thread nD τ).loc b)) (c : Dev nD) (t : Fin cfg1.N) (r : Fin 1000) (d : Fin 128) :
    hOutL1 (F := Ideal) V c t (ix2 r d) = Cert.Spec.layerAt (aggArrL1 V c) (hArrL1 V c) (w1ArrL1 V c) (b1ArrL1 V c) (g1ArrL1 V c) (be1ArrL1 V c) (mu1ArrL1 V c) (va1ArrL1 V c) (w2ArrL1 V c) (b2ArrL1 V c) (goArrL1 V c) (beoArrL1 V c) (muoArrL1 V c) (vaoArrL1 V c) ⟨1000 * t.val + r.val, node_ltL1 t r⟩ d := by
  refine (congrFun (hOutL1_blocks V c t) (ix2 r d)).trans ?_
  exact layer_of_rowL1 (aggBlkL1 V c t) (hBlkL1 V c t) (aggArrL1 V c) (hArrL1 V c)
    (w1BlkL1 V c t) (w1ArrL1 V c) (b1BlkL1 V c t) (b1ArrL1 V c) (g1BlkL1 V c t) (g1ArrL1 V c) (be1BlkL1 V c t) (be1ArrL1 V c) (mu1BlkL1 V c t) (mu1ArrL1 V c) (va1BlkL1 V c t) (va1ArrL1 V c)
    (w2BlkL1 V c t) (w2ArrL1 V c) (b2BlkL1 V c t) (b2ArrL1 V c) (goBlkL1 V c t) (goArrL1 V c) (beoBlkL1 V c t) (beoArrL1 V c) (muoBlkL1 V c t) (muoArrL1 V c) (vaoBlkL1 V c t) (vaoArrL1 V c)
    r ⟨1000 * t.val + r.val, node_ltL1 t r⟩ (aggBlkL1_at V c t r) (hBlkL1_at V c t r)
    (w1BlkL1_eq V c t) (b1BlkL1_eq V c t) (g1BlkL1_eq V c t) (be1BlkL1_eq V c t) (mu1BlkL1_eq V c t) (va1BlkL1_eq V c t)
    (w2BlkL1_eq V c t) (b2BlkL1_eq V c t) (goBlkL1_eq V c t) (beoBlkL1_eq V c t) (muoBlkL1_eq V c t) (vaoBlkL1_eq V c t) d

/-! ## From the tiles to the array -/

/-- What point `t` writes back to the array of new node features is its block of the specification's layer. -/
theorem flushed15_L1 (V : (c : Dev nD) → (b : Ref sig .tc) → Buf (Elt Ideal) ((c : Thread nD τ).loc b)) (c : Dev nD) (t : Fin cfg1.N) :
    (datL1 (F := Ideal) V c).flushed 15 t = ((cfg1.win 15).blk t).view.read (Elt Ideal) (layerInL1 V c) := by
  obtain ⟨-, -, -, -, e0, e1, -⟩ := idx_factsL1 t
  refine (congrArg ((cfg1.win 15).cut (grid1.coords t)) (after15_L1 (F := Ideal) V c t)).trans ?_
  funext j
  obtain ⟨r, d, rfl⟩ : ∃ (r : Fin 1000) (d : Fin 128), j = ix2 r d := ⟨j 0, j 1, eq_ix2 j⟩
  show hOutL1 (F := Ideal) V c t (ix2 r d) = layerInL1 V c (((cfg1.win 15).blk t).view.emb (ix2 r d))
  refine (hOutL1_row V c t r d).trans (layer_at_idxL1 (aggArrL1 V c) (hArrL1 V c) (w1ArrL1 V c) (b1ArrL1 V c) (g1ArrL1 V c) (be1ArrL1 V c) (mu1ArrL1 V c) (va1ArrL1 V c) (w2ArrL1 V c) (b2ArrL1 V c) (goArrL1 V c) (beoArrL1 V c) (muoArrL1 V c) (vaoArrL1 V c) (((cfg1.win 15).blk t).view.emb (ix2 r d)) ⟨1000 * t.val + r.val, node_ltL1 t r⟩ d ?_ ?_).symm
  · show win1_15.index t (0 : Fin 2) * 1000 + 1 * r.val = 1000 * t.val + r.val
    omega
  · show win1_15.index t (1 : Fin 2) * 128 + 1 * d.val = d.val
    omega

/-- An index of the array is in point `t`'s block iff each coordinate is in the block's range on its axis. -/
theorem mem_blk15_L1 (t : Fin cfg1.N) (i : S50000x128.Idx) :
    i ∈ ((cfg1.win 15).blk t).view.set ↔ ∀ a : Fin 2, win1_15.index t a * S1000x128.size a ≤ (i a).val ∧ (i a).val < win1_15.index t a * S1000x128.size a + S1000x128.size a := by
  show i ∈ ((View.whole (Pipeline.arrRef spec1 15)).slice (win1_15.rect t)).set ↔ _
  rw [View.set_slice_whole, Rect.mem_set_unit]
  exact Iff.rfl

/-- The tiles cover the array: node `n` is in the block of point `n / 1000`. -/
theorem cover15_L1 (i : S50000x128.Idx) : ∃ t : Fin cfg1.N, (cfg1.win 15).flush t = true ∧ i ∈ ((cfg1.win 15).blk t).view.set := by
  have hi0 : (i 0).val < 50000 := idx2_lt0 i
  have hi1 : (i 1).val < 128 := idx2_lt1 i
  have hN : (i 0).val / 1000 < cfg1.N := by rw [show cfg1.N = 50 from N_1]; omega
  refine ⟨⟨(i 0).val / 1000, hN⟩, flush1_15 _, ?_⟩
  obtain ⟨-, -, -, -, e0, e1, -⟩ := idx_factsL1 ⟨(i 0).val / 1000, hN⟩
  rw [mem_blk15_L1]
  intro a
  match a with
  | ⟨0, _⟩ =>
    show win1_15.index ⟨(i 0).val / 1000, hN⟩ (0 : Fin 2) * 1000 ≤ (i 0).val ∧ (i 0).val < win1_15.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win1_15.index ⟨(i 0).val / 1000, hN⟩ (1 : Fin 2) * 128 ≤ (i 1).val ∧ (i 1).val < win1_15.index ⟨(i 0).val / 1000, hN⟩ (1 : Fin 2) * 128 + 128
    rw [e1]; omega

/-- After the last point the array of new node features is the specification's layer of the arrays the region finds. -/
theorem hnew_arrL1 (V : (c : Dev nD) → (b : Ref sig .tc) → Buf (Elt Ideal) ((c : Thread nD τ).loc b)) (c : Dev nD) :
    (datL1 (F := Ideal) V c).arrAt 15 cfg1.N = layerInL1 V c :=
  (datL1 (F := Ideal) V c).arrAt_eq_of_cover 15 (layerInL1 V c) (fun t _ => flushed15_L1 V c t) cover15_L1

/-! ## The two facts as the region's users cite them -/

/-- Row `r` of the block point `t` stores is the specification's layer at node `1000 t + r`. -/
theorem hOutL1_at (V : (c : Dev nD) → (b : Ref sig .tc) → Buf (Elt Ideal) ((c : Thread nD τ).loc b)) (c : Dev nD) (t : Fin cfg1.N) (r : Fin 1000) (d : Fin 128) :
    hOutL1 (F := Ideal) V c t (ix2 r d) = Cert.Spec.layerAt (V c (Pipeline.arrRef spec1 0)) (V c (Pipeline.arrRef spec1 1)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13)) (V c (Pipeline.arrRef spec1 14)) ⟨1000 * t.val + r.val, node_ltL1 t r⟩ d :=
  hOutL1_row V c t r d

/-- After the last point the array of new node features is the specification's layer of the region's inputs. -/
theorem hnew_L1 (V : (c : Dev nD) → (b : Ref sig .tc) → Buf (Elt Ideal) ((c : Thread nD τ).loc b)) (c : Dev nD) :
    ((datL1 (F := Ideal) V c).arrAt 15 cfg1.N : S50000x128.Idx → EReal) = Cert.Spec.layer (V c (Pipeline.arrRef spec1 0)) (V c (Pipeline.arrRef spec1 1)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13)) (V c (Pipeline.arrRef spec1 14)) :=
  hnew_arrL1 V c

end Cert.KernelIdeal.Hand

end
-- ==== Proof.KI.L2Pieces.lean ====
/-
  Layer region 2, what the body's stores are in terms of the blocks it loads: the new node features of a tile are the
  second dense layer over the first; the pool after a point is the tile's one-hot contraction added to what the
  buffer held (zeros at the first point).
-/
import proofs.«426741_j36421322670671_1_alg».proof.Proof.KI.L2Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are zero, of two axes and of one. -/
theorem hz2_L2 : (![0, 0] : Fin 2 → Nat) = fun _ => 0 := funext fun a => by fin_cases a <;> rfl
theorem hz1_L2 : (![0] : Fin 1 → Nat) = fun _ => 0 := funext fun a => by fin_cases a <;> rfl

/-- The new node features the body stores at the first point, from the blocks it loads. -/
theorem outL2_A_15_eq (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    outL2_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = k2_pay4 (k2_pay3 x0 x1 x3 x4 x7 x8 x5 x6) x9 x10 x13 x14 x11 x12 := by
  unfold outL2_A_15
  rw [View.read_writes_eq_canon _ _ _ (coverL2_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRunL2_A
  dsimp only
  sl_unfold_words
  rw [View.canon_unit_zero hz2_L2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1000x128) hz2_L2, View.ld_unit_zero (S := S128x128) hz2_L2, View.ld_unit_zero (S := S1000x1) hz2_L2, View.ld_unit_zero (S := S512x128) hz2_L2, View.ld_unit_zero (S := S128) hz1_L2, View.readCov_unit_zero (S := S512x128) _ hz2_L2]

/-- The new node features the body stores at a later point, from the blocks it loads. -/
theorem outL2_B_15_eq (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    outL2_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16 = k2_pay4 (k2_pay3 x0 x1 x3 x4 x7 x8 x5 x6) x9 x10 x13 x14 x11 x12 := by
  unfold outL2_B_15
  rw [View.read_writes_eq_canon _ _ _ (coverL2_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16)]
  unfold kernelRunL2_B
  dsimp only
  sl_unfold_words
  rw [View.canon_unit_zero hz2_L2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1000x128) hz2_L2, View.ld_unit_zero (S := S128x128) hz2_L2, View.ld_unit_zero (S := S1000x1) hz2_L2, View.ld_unit_zero (S := S512x128) hz2_L2, View.ld_unit_zero (S := S128) hz1_L2, View.readCov_unit_zero (S := S512x128) _ hz2_L2]

/-- The pool the body leaves at the first point: the buffer is zeroed, read back, and the tile's pool added. -/
theorem outL2_A_16_eq (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    outL2_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = k2_pay1 (k2_pay5 (k2_pay3 x0 x1 x3 x4 x7 x8 x5 x6) x9 x10 x13 x14 x11 x12 x2) (k2_pay2 (F := F)) := by
  unfold outL2_A_16
  rw [View.read_writes_eq_canon _ _ _ (coverL2_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRunL2_A
  dsimp only
  sl_unfold_words
  rw [View.canon_cons_unit_zero (S := S512x128) hz2_L2, View.readCov_unit_zero (S := S512x128) _ hz2_L2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1000x128) hz2_L2, View.ld_unit_zero (S := S128x128) hz2_L2, View.ld_unit_zero (S := S1000x1) hz2_L2, View.ld_unit_zero (S := S512x128) hz2_L2, View.ld_unit_zero (S := S128) hz1_L2, View.readCov_unit_zero (S := S512x128) _ hz2_L2]

/-- The pool the body leaves at a later point: the tile's pool added to what the buffer held. -/
theorem outL2_B_16_eq (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL2_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    outL2_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16 = k2_pay1 (k2_pay5 (k2_pay3 x0 x1 x3 x4 x7 x8 x5 x6) x9 x10 x13 x14 x11 x12 x2) xo16 := by
  unfold outL2_B_16
  rw [View.read_writes_eq_canon _ _ _ (coverL2_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16)]
  unfold kernelRunL2_B
  dsimp only
  sl_unfold_words
  rw [View.canon_unit_zero hz2_L2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1000x128) hz2_L2, View.ld_unit_zero (S := S128x128) hz2_L2, View.ld_unit_zero (S := S1000x1) hz2_L2, View.ld_unit_zero (S := S512x128) hz2_L2, View.ld_unit_zero (S := S128) hz1_L2, View.readCov_unit_zero (S := S512x128) _ hz2_L2]

/-- The new node features the body stores at point `t`: the second dense layer of the tile, over the first. -/
theorem hOutL2_eq (V : (c : Dev nD) → (b : Ref sig .tc) → Buf (Elt F) ((c : Thread nD τ).loc b)) (c : Dev nD) (t : Fin cfg2.N) :
    hOutL2 V c t = k2_pay4 (k2_pay3 (iblkL2 V c 0 t) (iblkL2 V c 1 t) (iblkL2 V c 3 t) (iblkL2 V c 4 t) (iblkL2 V c 7 t) (iblkL2 V c 8 t) (iblkL2 V c 5 t) (iblkL2 V c 6 t)) (iblkL2 V c 9 t) (iblkL2 V c 10 t) (iblkL2 V c 13 t) (iblkL2 V c 14 t) (iblkL2 V c 11 t) (iblkL2 V c 12 t) := by
  by_cases h0 : t.val % 50 = 0
  · rw [hOutL2_A V c t h0, outL2_A_15_eq]
  · rw [hOutL2_B V c t h0, outL2_B_15_eq]

/-- The pool's buffer after the first point: the tile's pool added to zeros. -/
theorem poolAtL2_zero (V : (c : Dev nD) → (b : Ref sig .tc) → Buf (Elt F) ((c : Thread nD τ).loc b)) (c : Dev nD) (h0 : 0 < cfg2.N) :
    poolAtL2 V c 0 h0 = k2_pay1 (k2_pay5 (k2_pay3 (iblkL2 V c 0 ⟨0, h0⟩) (iblkL2 V c 1 ⟨0, h0⟩) (iblkL2 V c 3 ⟨0, h0⟩) (iblkL2 V c 4 ⟨0, h0⟩) (iblkL2 V c 7 ⟨0, h0⟩) (iblkL2 V c 8 ⟨0, h0⟩) (iblkL2 V c 5 ⟨0, h0⟩) (iblkL2 V c 6 ⟨0, h0⟩)) (iblkL2 V c 9 ⟨0, h0⟩) (iblkL2 V c 10 ⟨0, h0⟩) (iblkL2 V c 13 ⟨0, h0⟩) (iblkL2 V c 14 ⟨0, h0⟩) (iblkL2 V c 11 ⟨0, h0⟩) (iblkL2 V c 12 ⟨0, h0⟩) (iblkL2 V c 2 ⟨0, h0⟩)) (k2_pay2 (F := F)) := (poolAtL2_A V c ⟨0, h0⟩ rfl).trans (outL2_A_16_eq ..)

/-- The pool's buffer after a later point: the tile's pool added to what the point before left. -/
theorem poolAtL2_succ (V : (c : Dev nD) → (b : Ref sig .tc) → Buf (Elt F) ((c : Thread nD τ).loc b)) (c : Dev nD) (n : ℕ) (hn : n + 1 < cfg2.N) :
    poolAtL2 V c (n + 1) hn = k2_pay1 (k2_pay5 (k2_pay3 (iblkL2 V c 0 ⟨n + 1, hn⟩) (iblkL2 V c 1 ⟨n + 1, hn⟩) (iblkL2 V c 3 ⟨n + 1, hn⟩) (iblkL2 V c 4 ⟨n + 1, hn⟩) (iblkL2 V c 7 ⟨n + 1, hn⟩) (iblkL2 V c 8 ⟨n + 1, hn⟩) (iblkL2 V c 5 ⟨n + 1, hn⟩) (iblkL2 V c 6 ⟨n + 1, hn⟩)) (iblkL2 V c 9 ⟨n + 1, hn⟩) (iblkL2 V c 10 ⟨n + 1, hn⟩) (iblkL2 V c 13 ⟨n + 1, hn⟩) (iblkL2 V c 14 ⟨n + 1, hn⟩) (iblkL2 V c 11 ⟨n + 1, hn⟩) (iblkL2 V c 12 ⟨n + 1, hn⟩) (iblkL2 V c 2 ⟨n + 1, hn⟩)) (poolAtL2 V c n (Nat.lt_of_succ_lt hn)) := by
  have hN : cfg2.N = 50 := N_2
  have hB : ¬(⟨n + 1, hn⟩ : Fin cfg2.N).val % 50 = 0 := by dsimp only; omega
  exact (poolAtL2_B V c ⟨n + 1, hn⟩ hB).trans (outL2_B_16_eq ..)

end Cert.KernelIdeal.Hand

end
-- ==== Proof.KI.L2HNew.lean ====
/-
  Layer region 2: the new node features the region leaves are the specification's layer.

  A tile's stored block is the second dense layer (with its batch norm and relu) of the first dense layer of
  the tile's rows of `agg + h`; the tile at point `t` holds rows `1000 t … 1000 t + 999` of the node arrays and
  every parameter window holds its whole array, so row `r` of the stored block is the specification's layer at
  node `1000 t + r`. The tiles cover the array, so after the last point the array is the layer.
-/
import proofs.«426741_j36421322670671_1_alg».proof.Proof.KI.L2Dat
import proofs.«426741_j36421322670671_1_alg».proof.Proof.KI.L2Pieces
import proofs.«426741_j36421322670671_1_alg».proof.Proof.KI.LayerPay
import proofs.«426741_j36421322670671_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The region's arrays and the windows' blocks, at their literal types -/

/-- The array of the neighbours' sums, as the region finds it. -/
abbrev aggArrL2 (V : (c : Dev nD) → (b : Ref sig .tc) → Buf (Elt F) ((c : Thread nD τ).loc b)) (c : Dev nD) : Vec F S50000x128 .f32 := V c (Pipeline.arrRef spec2 0)
/-- The block of the neighbours' sums at point `t`. -/
abbrev aggBlkL2 (V : (c : Dev nD) → (b : Ref sig .tc) → Buf (Elt F) ((c : Thread nD τ).loc b)) (c : Dev nD) (t : Fin cfg2.N) : Vec F S1000x128 .f32 := iblkL2 V c 0 t
/-- The array of the node features, as the region finds it. -/
abbrev hArrL2 (V : (c : Dev nD) → (b : Ref sig .tc) → Buf (Elt F) ((c : Thread nD τ).loc b)) (c : Dev nD) : Vec F S50000x128 .f32 := V c (Pipeline.arrRef spec2 1)
/-- The block of the node features at point `t`. -/
abbrev hBlkL2 (V : (c : Dev nD) → (b : Ref sig .tc) → Buf (Elt F) ((c : Thread nD τ).loc b)) (c : Dev nD) (t : Fin cfg2.N) : Vec F S1000x128 .f32 := iblkL2 V c 1 t
/-- The array of the first dense layer's weights, as the region finds it. -/
abbrev w1ArrL2 (V : (c : Dev nD) → (b : Ref sig .tc) → Buf (Elt F) ((c : Thread nD τ).loc b)) (c : Dev nD) : Vec F S128x128 .f32 := V c (Pipeline.arrRef spec2 3)
/-- The block of the first dense layer's weights at point `t`. -/
abbrev w1BlkL2 (V : (c : Dev nD) → (b : Ref sig .tc) → Buf (Elt F) ((c : Thread nD τ).loc b)) (c : Dev nD) (t : Fin cfg2.N) : Vec F S128x128 .f32 := iblkL2 V c 3 t
/-- The array of the first dense layer's bias, as the region finds it. -/
abbrev b1ArrL2 (V : (c : Dev nD) → (b : Ref sig .tc) → Buf (Elt F) ((c : Thread nD τ).loc b)) (c : Dev nD) : Vec F S128 .f32 := V c (Pipeline.arrRef spec2 4)
/-- The block of the first dense layer's bias at point `t`. -/
abbrev b1BlkL2 (V : (c : Dev nD) → (b : Ref sig .tc) → Buf (Elt F) ((c : Thread nD τ).loc b)) (c : Dev nD) (t : Fin cfg2.N) : Vec F S128 .f32 := iblkL2 V c 4 t
/-- The array of the first batch norm's scale, as the region finds it. -/
abbrev g1ArrL2 (V : (c : Dev nD) → (b : Ref sig .tc) → Buf (Elt F) ((c : Thread nD τ).loc b)) (c : Dev nD) : Vec F S128 .f32 := V c (Pipeline.arrRef spec2 5)
/-- The block of the first batch norm's scale at point `t`. -/
abbrev g1BlkL2 (V : (c : Dev nD) → (b : Ref sig .tc) → Buf (Elt F) ((c : Thread nD τ).loc b)) (c : Dev nD) (t : Fin cfg2.N) : Vec F S128 .f32 := iblkL2 V c 5 t
/-- The array of the first batch norm's shift, as the region finds it. -/
abbrev be1ArrL2 (V : (c : Dev nD) → (b : Ref sig .tc) → Buf (Elt F) ((c : Thread nD τ).loc b)) (c : Dev nD) : Vec F S128 .f32 := V c (Pipeline.arrRef spec2 6)
/-- The block of the first batch norm's shift at point `t`. -/
abbrev be1BlkL2 (V : (c : Dev nD) → (b : Ref sig .tc) → Buf (Elt F) ((c : Thread nD τ).loc b)) (c : Dev nD) (t : Fin cfg2.N) : Vec F S128 .f32 := iblkL2 V c 6 t
/-- The array of the first batch norm's mean, as the region finds it. -/
abbrev mu1ArrL2 (V : (c : Dev nD) → (b : Ref sig .tc) → Buf (Elt F) ((c : Thread nD τ).loc b)) (c : Dev nD) : Vec F S128 .f32 := V c (Pipeline.arrRef spec2 7)
/-- The block of the first batch norm's mean at point `t`. -/
abbrev mu1BlkL2 (V : (c : Dev nD) → (b : Ref sig .tc) → Buf (Elt F) ((c : Thread nD τ).loc b)) (c : Dev nD) (t : Fin cfg2.N) : Vec F S128 .f32 := iblkL2 V c 7 t
/-- The array of the first batch norm's variance, as the region finds it. -/
abbrev va1ArrL2 (V : (c : Dev nD) → (b : Ref sig .tc) → Buf (Elt F) ((c : Thread nD τ).loc b)) (c : Dev nD) : Vec F S128 .f32 := V c (Pipeline.arrRef spec2 8)
/-- The block of the first batch norm's variance at point `t`. -/
abbrev va1BlkL2 (V : (c : Dev nD) → (b : Ref sig .tc) → Buf (Elt F) ((c : Thread nD τ).loc b)) (c : Dev nD) (t : Fin cfg2.N) : Vec F S128 .f32 := iblkL2 V c 8 t
/-- The array of the second dense layer's weights, as the region finds it. -/
abbrev w2ArrL2 (V : (c : Dev nD) → (b : Ref sig .tc) → Buf (Elt F) ((c : Thread nD τ).loc b)) (c : Dev nD) : Vec F S128x128 .f32 := V c (Pipeline.arrRef spec2 9)
/-- The block of the second dense layer's weights at point `t`. -/
abbrev w2BlkL2 (V : (c : Dev nD) → (b : Ref sig .tc) → Buf (Elt F) ((c : Thread nD τ).loc b)) (c : Dev nD) (t : Fin cfg2.N) : Vec F S128x128 .f32 := iblkL2 V c 9 t
/-- The array of the second dense layer's bias, as the region finds it. -/
abbrev b2ArrL2 (V : (c : Dev nD) → (b : Ref sig .tc) → Buf (Elt F) ((c : Thread nD τ).loc b)) (c : Dev nD) : Vec F S128 .f32 := V c (Pipeline.arrRef spec2 10)
/-- The block of the second dense layer's bias at point `t`. -/
abbrev b2BlkL2 (V : (c : Dev nD) → (b : Ref sig .tc) → Buf (Elt F) ((c : Thread nD τ).loc b)) (c : Dev nD) (t : Fin cfg2.N) : Vec F S128 .f32 := iblkL2 V c 10 t
/-- The array of the second batch norm's scale, as the region finds it. -/
abbrev goArrL2 (V : (c : Dev nD) → (b : Ref sig .tc) → Buf (Elt F) ((c : Thread nD τ).loc b)) (c : Dev nD) : Vec F S128 .f32 := V c (Pipeline.arrRef spec2 11)
/-- The block of the second batch norm's scale at point `t`. -/
abbrev goBlkL2 (V : (c : Dev nD) → (b : Ref sig .tc) → Buf (Elt F) ((c : Thread nD τ).loc b)) (c : Dev nD) (t : Fin cfg2.N) : Vec F S128 .f32 := iblkL2 V c 11 t
/-- The array of the second batch norm's shift, as the region finds it. -/
abbrev beoArrL2 (V : (c : Dev nD) → (b : Ref sig .tc) → Buf (Elt F) ((c : Thread nD τ).loc b)) (c : Dev nD) : Vec F S128 .f32 := V c (Pipeline.arrRef spec2 12)
/-- The block of the second batch norm's shift at point `t`. -/
abbrev beoBlkL2 (V : (c : Dev nD) → (b : Ref sig .tc) → Buf (Elt F) ((c : Thread nD τ).loc b)) (c : Dev nD) (t : Fin cfg2.N) : Vec F S128 .f32 := iblkL2 V c 12 t
/-- The array of the second batch norm's mean, as the region finds it. -/
abbrev muoArrL2 (V : (c : Dev nD) → (b : Ref sig .tc) → Buf (Elt F) ((c : Thread nD τ).loc b)) (c : Dev nD) : Vec F S128 .f32 := V c (Pipeline.arrRef spec2 13)
/-- The block of the second batch norm's mean at point `t`. -/
abbrev muoBlkL2 (V : (c : Dev nD) → (b : Ref sig .tc) → Buf (Elt F) ((c : Thread nD τ).loc b)) (c : Dev nD) (t : Fin cfg2.N) : Vec F S128 .f32 := iblkL2 V c 13 t
/-- The array of the second batch norm's variance, as the region finds it. -/
abbrev vaoArrL2 (V : (c : Dev nD) → (b : Ref sig .tc) → Buf (Elt F) ((c : Thread nD τ).loc b)) (c : Dev nD) : Vec F S128 .f32 := V c (Pipeline.arrRef spec2 14)
/-- The block of the second batch norm's variance at point `t`. -/
abbrev vaoBlkL2 (V : (c : Dev nD) → (b : Ref sig .tc) → Buf (Elt F) ((c : Thread nD τ).loc b)) (c : Dev nD) (t : Fin cfg2.N) : Vec F S128 .f32 := iblkL2 V c 14 t

/-- The specification's layer of the arrays the region finds. -/
abbrev layerInL2 (V : (c : Dev nD) → (b : Ref sig .tc) → Buf (Elt Ideal) ((c : Thread nD τ).loc b)) (c : Dev nD) : Vec Ideal S50000x128 .f32 :=
  Cert.Spec.layer (aggArrL2 V c) (hArrL2 V c) (w1ArrL2 V c) (b1ArrL2 V c) (g1ArrL2 V c) (be1ArrL2 V c) (mu1ArrL2 V c) (va1ArrL2 V c) (w2ArrL2 V c) (b2ArrL2 V c) (goArrL2 V c) (beoArrL2 V c) (muoArrL2 V c) (vaoArrL2 V c)

/-! ## The index maps over the grid -/

/-- The printed index maps, decided over the 50 points: the node windows' block index is the point on the rows and
    zero on the features; a parameter window's block index is zero. -/
theorem idx_factsL2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_15.index t (0 : Fin 2) = t.val ∧ win2_15.index t (1 : Fin 2) = 0
    ∧ win2_3.index t (0 : Fin 2) = 0 ∧ win2_3.index t (1 : Fin 2) = 0
    ∧ win2_9.index t (0 : Fin 2) = 0 ∧ win2_9.index t (1 : Fin 2) = 0
    ∧ win2_4.index t (0 : Fin 1) = 0 ∧ win2_5.index t (0 : Fin 1) = 0 ∧ win2_6.index t (0 : Fin 1) = 0
    ∧ win2_7.index t (0 : Fin 1) = 0 ∧ win2_8.index t (0 : Fin 1) = 0 ∧ win2_10.index t (0 : Fin 1) = 0
    ∧ win2_11.index t (0 : Fin 1) = 0 ∧ win2_12.index t (0 : Fin 1) = 0 ∧ win2_13.index t (0 : Fin 1) = 0
    ∧ win2_14.index t (0 : Fin 1) = 0 :=
  (by decide +kernel : ∀ t : Fin grid2.N, _)

/-- A row of a tile is a node. -/
theorem node_ltL2 (t : Fin cfg2.N) (r : Fin 1000) : 1000 * t.val + r.val < 50000 := by
  have ht : t.val < 50 := lt_of_lt_of_eq t.isLt N_2
  have hr := r.isLt
  omega

/-! ## The windows' blocks, read off their arrays -/

/-- The tile of the neighbours' sums at point `t` is rows `1000 t …` of the array. -/
theorem aggBlkL2_at (V : (c : Dev nD) → (b : Ref sig .tc) → Buf (Elt F) ((c : Thread nD τ).loc b)) (c : Dev nD) (t : Fin cfg2.N) (r : Fin 1000) (i : Fin 128) :
    aggBlkL2 V c t (ix2 r i) = aggArrL2 V c (ix2 ⟨1000 * t.val + r.val, node_ltL2 t r⟩ i) := by
  obtain ⟨e0, e1, -⟩ := idx_factsL2 t
  show iblkL2 V c 0 t (ix2 r i) = V c (Pipeline.arrRef spec2 0) _
  unfold iblkL2
  rw [View.read_apply]
  show V c (Pipeline.arrRef spec2 0) _ = V c (Pipeline.arrRef spec2 0) _
  congr 1
  funext a
  apply Fin.ext
  match a with
  | ⟨0, _⟩ => show win2_0.index t (0 : Fin 2) * 1000 + 1 * r.val = 1000 * t.val + r.val; omega
  | ⟨1, _⟩ => show win2_0.index t (1 : Fin 2) * 128 + 1 * i.val = i.val; omega

/-- The tile of the node features at point `t` is rows `1000 t …` of the array. -/
theorem hBlkL2_at (V : (c : Dev nD) → (b : Ref sig .tc) → Buf (Elt F) ((c : Thread nD τ).loc b)) (c : Dev nD) (t : Fin cfg2.N) (r : Fin 1000) (i : Fin 128) :
    hBlkL2 V c t (ix2 r i) = hArrL2 V c (ix2 ⟨1000 * t.val + r.val, node_ltL2 t r⟩ i) := by
  obtain ⟨-, -, e0, e1, -⟩ := idx_factsL2 t
  show iblkL2 V c 1 t (ix2 r i) = V c (Pipeline.arrRef spec2 1) _
  unfold iblkL2
  rw [View.read_apply]
  show V c (Pipeline.arrRef spec2 1) _ = V c (Pipeline.arrRef spec2 1) _
  congr 1
  funext a
  apply Fin.ext
  match a with
  | ⟨0, _⟩ => show win2_1.index t (0 : Fin 2) * 1000 + 1 * r.val = 1000 * t.val + r.val; omega
  | ⟨1, _⟩ => show win2_1.index t (1 : Fin 2) * 128 + 1 * i.val = i.val; omega

/-- The block of the first dense layer's weights is the whole array, at every point. -/
theorem w1BlkL2_eq (V : (c : Dev nD) → (b : Ref sig .tc) → Buf (Elt F) ((c : Thread nD τ).loc b)) (c : Dev nD) (t : Fin cfg2.N) : w1BlkL2 V c t = w1ArrL2 V c := by
  have hi : win2_3.index t (0 : Fin 2) = 0 ∧ win2_3.index t (1 : Fin 2) = 0 := by
    have h := idx_factsL2 t; simp only [h, and_self]
  funext j
  show iblkL2 V c 3 t j = V c (Pipeline.arrRef spec2 3) j
  unfold iblkL2
  rw [View.read_apply]
  show V c (Pipeline.arrRef spec2 3) _ = V c (Pipeline.arrRef spec2 3) j
  congr 1
  funext a
  apply Fin.ext
  match a with
  | ⟨0, _⟩ => show win2_3.index t (0 : Fin 2) * 128 + 1 * (j 0).val = (j 0).val; omega
  | ⟨1, _⟩ => show win2_3.index t (1 : Fin 2) * 128 + 1 * (j 1).val = (j 1).val; omega

/-- The block of the first dense layer's bias is the whole array, at every point. -/
theorem b1BlkL2_eq (V : (c : Dev nD) → (b : Ref sig .tc) → Buf (Elt F) ((c : Thread nD τ).loc b)) (c : Dev nD) (t : Fin cfg2.N) : b1BlkL2 V c t = b1ArrL2 V c := by
  have hi : win2_4.index t (0 : Fin 1) = 0 := by
    have h := idx_factsL2 t; simp only [h]
  funext j
  show iblkL2 V c 4 t j = V c (Pipeline.arrRef spec2 4) j
  unfold iblkL2
  rw [View.read_apply]
  show V c (Pipeline.arrRef spec2 4) _ = V c (Pipeline.arrRef spec2 4) j
  congr 1
  funext a
  apply Fin.ext
  match a with
  | ⟨0, _⟩ => show win2_4.index t (0 : Fin 1) * 128 + 1 * (j 0).val = (j 0).val; omega

/-- The block of the first batch norm's scale is the whole array, at every point. -/
theorem g1BlkL2_eq (V : (c : Dev nD) → (b : Ref sig .tc) → Buf (Elt F) ((c : Thread nD τ).loc b)) (c : Dev nD) (t : Fin cfg2.N) : g1BlkL2 V c t = g1ArrL2 V c := by
  have hi : win2_5.index t (0 : Fin 1) = 0 := by
    have h := idx_factsL2 t; simp only [h]
  funext j
  show iblkL2 V c 5 t j = V c (Pipeline.arrRef spec2 5) j
  unfold iblkL2
  rw [View.read_apply]
  show V c (Pipeline.arrRef spec2 5) _ = V c (Pipeline.arrRef spec2 5) j
  congr 1
  funext a
  apply Fin.ext
  match a with
  | ⟨0, _⟩ => show win2_5.index t (0 : Fin 1) * 128 + 1 * (j 0).val = (j 0).val; omega

/-- The block of the first batch norm's shift is the whole array, at every point. -/
theorem be1BlkL2_eq (V : (c : Dev nD) → (b : Ref sig .tc) → Buf (Elt F) ((c : Thread nD τ).loc b)) (c : Dev nD) (t : Fin cfg2.N) : be1BlkL2 V c t = be1ArrL2 V c := by
  have hi : win2_6.index t (0 : Fin 1) = 0 := by
    have h := idx_factsL2 t; simp only [h]
  funext j
  show iblkL2 V c 6 t j = V c (Pipeline.arrRef spec2 6) j
  unfold iblkL2
  rw [View.read_apply]
  show V c (Pipeline.arrRef spec2 6) _ = V c (Pipeline.arrRef spec2 6) j
  congr 1
  funext a
  apply Fin.ext
  match a with
  | ⟨0, _⟩ => show win2_6.index t (0 : Fin 1) * 128 + 1 * (j 0).val = (j 0).val; omega

/-- The block of the first batch norm's mean is the whole array, at every point. -/
theorem mu1BlkL2_eq (V : (c : Dev nD) → (b : Ref sig .tc) → Buf (Elt F) ((c : Thread nD τ).loc b)) (c : Dev nD) (t : Fin cfg2.N) : mu1BlkL2 V c t = mu1ArrL2 V c := by
  have hi : win2_7.index t (0 : Fin 1) = 0 := by
    have h := idx_factsL2 t; simp only [h]
  funext j
  show iblkL2 V c 7 t j = V c (Pipeline.arrRef spec2 7) j
  unfold iblkL2
  rw [View.read_apply]
  show V c (Pipeline.arrRef spec2 7) _ = V c (Pipeline.arrRef spec2 7) j
  congr 1
  funext a
  apply Fin.ext
  match a with
  | ⟨0, _⟩ => show win2_7.index t (0 : Fin 1) * 128 + 1 * (j 0).val = (j 0).val; omega

/-- The block of the first batch norm's variance is the whole array, at every point. -/
theorem va1BlkL2_eq (V : (c : Dev nD) → (b : Ref sig .tc) → Buf (Elt F) ((c : Thread nD τ).loc b)) (c : Dev nD) (t : Fin cfg2.N) : va1BlkL2 V c t = va1ArrL2 V c := by
  have hi : win2_8.index t (0 : Fin 1) = 0 := by
    have h := idx_factsL2 t; simp only [h]
  funext j
  show iblkL2 V c 8 t j = V c (Pipeline.arrRef spec2 8) j
  unfold iblkL2
  rw [View.read_apply]
  show V c (Pipeline.arrRef spec2 8) _ = V c (Pipeline.arrRef spec2 8) j
  congr 1
  funext a
  apply Fin.ext
  match a with
  | ⟨0, _⟩ => show win2_8.index t (0 : Fin 1) * 128 + 1 * (j 0).val = (j 0).val; omega

/-- The block of the second dense layer's weights is the whole array, at every point. -/
theorem w2BlkL2_eq (V : (c : Dev nD) → (b : Ref sig .tc) → Buf (Elt F) ((c : Thread nD τ).loc b)) (c : Dev nD) (t : Fin cfg2.N) : w2BlkL2 V c t = w2ArrL2 V c := by
  have hi : win2_9.index t (0 : Fin 2) = 0 ∧ win2_9.index t (1 : Fin 2) = 0 := by
    have h := idx_factsL2 t; simp only [h, and_self]
  funext j
  show iblkL2 V c 9 t j = V c (Pipeline.arrRef spec2 9) j
  unfold iblkL2
  rw [View.read_apply]
  show V c (Pipeline.arrRef spec2 9) _ = V c (Pipeline.arrRef spec2 9) j
  congr 1
  funext a
  apply Fin.ext
  match a with
  | ⟨0, _⟩ => show win2_9.index t (0 : Fin 2) * 128 + 1 * (j 0).val = (j 0).val; omega
  | ⟨1, _⟩ => show win2_9.index t (1 : Fin 2) * 128 + 1 * (j 1).val = (j 1).val; omega

/-- The block of the second dense layer's bias is the whole array, at every point. -/
theorem b2BlkL2_eq (V : (c : Dev nD) → (b : Ref sig .tc) → Buf (Elt F) ((c : Thread nD τ).loc b)) (c : Dev nD) (t : Fin cfg2.N) : b2BlkL2 V c t = b2ArrL2 V c := by
  have hi : win2_10.index t (0 : Fin 1) = 0 := by
    have h := idx_factsL2 t; simp only [h]
  funext j
  show iblkL2 V c 10 t j = V c (Pipeline.arrRef spec2 10) j
  unfold iblkL2
  rw [View.read_apply]
  show V c (Pipeline.arrRef spec2 10) _ = V c (Pipeline.arrRef spec2 10) j
  congr 1
  funext a
  apply Fin.ext
  match a with
  | ⟨0, _⟩ => show win2_10.index t (0 : Fin 1) * 128 + 1 * (j 0).val = (j 0).val; omega

/-- The block of the second batch norm's scale is the whole array, at every point. -/
theorem goBlkL2_eq (V : (c : Dev nD) → (b : Ref sig .tc) → Buf (Elt F) ((c : Thread nD τ).loc b)) (c : Dev nD) (t : Fin cfg2.N) : goBlkL2 V c t = goArrL2 V c := by
  have hi : win2_11.index t (0 : Fin 1) = 0 := by
    have h := idx_factsL2 t; simp only [h]
  funext j
  show iblkL2 V c 11 t j = V c (Pipeline.arrRef spec2 11) j
  unfold iblkL2
  rw [View.read_apply]
  show V c (Pipeline.arrRef spec2 11) _ = V c (Pipeline.arrRef spec2 11) j
  congr 1
  funext a
  apply Fin.ext
  match a with
  | ⟨0, _⟩ => show win2_11.index t (0 : Fin 1) * 128 + 1 * (j 0).val = (j 0).val; omega

/-- The block of the second batch norm's shift is the whole array, at every point. -/
theorem beoBlkL2_eq (V : (c : Dev nD) → (b : Ref sig .tc) → Buf (Elt F) ((c : Thread nD τ).loc b)) (c : Dev nD) (t : Fin cfg2.N) : beoBlkL2 V c t = beoArrL2 V c := by
  have hi : win2_12.index t (0 : Fin 1) = 0 := by
    have h := idx_factsL2 t; simp only [h]
  funext j
  show iblkL2 V c 12 t j = V c (Pipeline.arrRef spec2 12) j
  unfold iblkL2
  rw [View.read_apply]
  show V c (Pipeline.arrRef spec2 12) _ = V c (Pipeline.arrRef spec2 12) j
  congr 1
  funext a
  apply Fin.ext
  match a with
  | ⟨0, _⟩ => show win2_12.index t (0 : Fin 1) * 128 + 1 * (j 0).val = (j 0).val; omega

/-- The block of the second batch norm's mean is the whole array, at every point. -/
theorem muoBlkL2_eq (V : (c : Dev nD) → (b : Ref sig .tc) → Buf (Elt F) ((c : Thread nD τ).loc b)) (c : Dev nD) (t : Fin cfg2.N) : muoBlkL2 V c t = muoArrL2 V c := by
  have hi : win2_13.index t (0 : Fin 1) = 0 := by
    have h := idx_factsL2 t; simp only [h]
  funext j
  show iblkL2 V c 13 t j = V c (Pipeline.arrRef spec2 13) j
  unfold iblkL2
  rw [View.read_apply]
  show V c (Pipeline.arrRef spec2 13) _ = V c (Pipeline.arrRef spec2 13) j
  congr 1
  funext a
  apply Fin.ext
  match a with
  | ⟨0, _⟩ => show win2_13.index t (0 : Fin 1) * 128 + 1 * (j 0).val = (j 0).val; omega

/-- The block of the second batch norm's variance is the whole array, at every point. -/
theorem vaoBlkL2_eq (V : (c : Dev nD) → (b : Ref sig .tc) → Buf (Elt F) ((c : Thread nD τ).loc b)) (c : Dev nD) (t : Fin cfg2.N) : vaoBlkL2 V c t = vaoArrL2 V c := by
  have hi : win2_14.index t (0 : Fin 1) = 0 := by
    have h := idx_factsL2 t; simp only [h]
  funext j
  show iblkL2 V c 14 t j = V c (Pipeline.arrRef spec2 14) j
  unfold iblkL2
  rw [View.read_apply]
  show V c (Pipeline.arrRef spec2 14) _ = V c (Pipeline.arrRef spec2 14) j
  congr 1
  funext a
  apply Fin.ext
  match a with
  | ⟨0, _⟩ => show win2_14.index t (0 : Fin 1) * 128 + 1 * (j 0).val = (j 0).val; omega

/-! ## A row of a tile through the two dense layers -/

/-- The payloads at a row whose inputs are a node's rows, the parameter blocks being the parameter arrays: the
    specification's layer at that node. -/
theorem layer_of_rowL2 (x0 x1 : Vec Ideal S1000x128 .f32) (A0 A1 : Vec Ideal S50000x128 .f32)
    (w1 W1 : Vec Ideal S128x128 .f32) (b1 B1 g1 G1 be1 Be1 mu1 Mu1 va1 Va1 : Vec Ideal S128 .f32)
    (w2 W2 : Vec Ideal S128x128 .f32) (b2 B2 go Go beo Beo muo Muo vao Vao : Vec Ideal S128 .f32)
    (r : Fin 1000) (n : Fin 50000)
    (h0 : ∀ i : Fin 128, x0 (ix2 r i) = A0 (ix2 n i)) (h1 : ∀ i : Fin 128, x1 (ix2 r i) = A1 (ix2 n i))
    (e3 : w1 = W1) (e4 : b1 = B1) (e5 : g1 = G1) (e6 : be1 = Be1) (e7 : mu1 = Mu1) (e8 : va1 = Va1)
    (e9 : w2 = W2) (e10 : b2 = B2) (e11 : go = Go) (e12 : beo = Beo) (e13 : muo = Muo) (e14 : vao = Vao) (d : Fin 128) :
    k2_pay4 (k2_pay3 x0 x1 w1 b1 mu1 va1 g1 be1) w2 b2 muo vao go beo (ix2 r d)
      = Cert.Spec.layerAt A0 A1 W1 B1 G1 Be1 Mu1 Va1 W2 B2 Go Beo Muo Vao n d := by
  subst e3 e4 e5 e6 e7 e8 e9 e10 e11 e12 e13 e14
  rw [pay4_applyL2]
  unfold Cert.Spec.layerAt Cert.Spec.hiddenAt
  simp only [pay3_applyL2, h0, h1]

/-- The layer as an array, read at an index by its coordinates. -/
theorem layer_at_idxL2 (A0 A1 : Vec Ideal S50000x128 .f32)
    (W1 : Vec Ideal S128x128 .f32) (B1 G1 Be1 Mu1 Va1 : Vec Ideal S128 .f32)
    (W2 : Vec Ideal S128x128 .f32) (B2 Go Beo Muo Vao : Vec Ideal S128 .f32)
    (j : S50000x128.Idx) (n : Fin 50000) (d : Fin 128) (hn : (j 0).val = n.val) (hd : (j 1).val = d.val) :
    Cert.Spec.layer A0 A1 W1 B1 G1 Be1 Mu1 Va1 W2 B2 Go Beo Muo Vao j
      = Cert.Spec.layerAt A0 A1 W1 B1 G1 Be1 Mu1 Va1 W2 B2 Go Beo Muo Vao n d := by
  have en : j 0 = n := Fin.ext hn
  have ed : j 1 = d := Fin.ext hd
  unfold Cert.Spec.layer
  rw [en, ed]

/-- What point `t` stores, over the blocks at their literal types. -/
theorem hOutL2_blocks (V : (c : Dev nD) → (b : Ref sig .tc) → Buf (Elt Ideal) ((c : Thread nD τ).loc b)) (c : Dev nD) (t : Fin cfg2.N) :
    hOutL2 (F := Ideal) V c t = k2_pay4 (k2_pay3 (aggBlkL2 V c t) (hBlkL2 V c t) (w1BlkL2 V c t) (b1BlkL2 V c t) (mu1BlkL2 V c t) (va1BlkL2 V c t) (g1BlkL2 V c t) (be1BlkL2 V c t)) (w2BlkL2 V c t) (b2BlkL2 V c t) (muoBlkL2 V c t) (vaoBlkL2 V c t) (goBlkL2 V c t) (beoBlkL2 V c t) :=
  hOutL2_eq (F := Ideal) V c t

/-- Row `r` of the block point `t` stores is the specification's layer at node `1000 t + r`. -/
theorem hOutL2_row (V : (c : Dev nD) → (b : Ref sig .tc) → Buf (Elt Ideal) ((c : Thread nD τ).loc b)) (c : Dev nD) (t : Fin cfg2.N) (r : Fin 1000) (d : Fin 128) :
    hOutL2 (F := Ideal) V c t (ix2 r d) = Cert.Spec.layerAt (aggArrL2 V c) (hArrL2 V c) (w1ArrL2 V c) (b1ArrL2 V c) (g1ArrL2 V c) (be1ArrL2 V c) (mu1ArrL2 V c) (va1ArrL2 V c) (w2ArrL2 V c) (b2ArrL2 V c) (goArrL2 V c) (beoArrL2 V c) (muoArrL2 V c) (vaoArrL2 V c) ⟨1000 * t.val + r.val, node_ltL2 t r⟩ d := by
  refine (congrFun (hOutL2_blocks V c t) (ix2 r d)).trans ?_
  exact layer_of_rowL2 (aggBlkL2 V c t) (hBlkL2 V c t) (aggArrL2 V c) (hArrL2 V c)
    (w1BlkL2 V c t) (w1ArrL2 V c) (b1BlkL2 V c t) (b1ArrL2 V c) (g1BlkL2 V c t) (g1ArrL2 V c) (be1BlkL2 V c t) (be1ArrL2 V c) (mu1BlkL2 V c t) (mu1ArrL2 V c) (va1BlkL2 V c t) (va1ArrL2 V c)
    (w2BlkL2 V c t) (w2ArrL2 V c) (b2BlkL2 V c t) (b2ArrL2 V c) (goBlkL2 V c t) (goArrL2 V c) (beoBlkL2 V c t) (beoArrL2 V c) (muoBlkL2 V c t) (muoArrL2 V c) (vaoBlkL2 V c t) (vaoArrL2 V c)
    r ⟨1000 * t.val + r.val, node_ltL2 t r⟩ (aggBlkL2_at V c t r) (hBlkL2_at V c t r)
    (w1BlkL2_eq V c t) (b1BlkL2_eq V c t) (g1BlkL2_eq V c t) (be1BlkL2_eq V c t) (mu1BlkL2_eq V c t) (va1BlkL2_eq V c t)
    (w2BlkL2_eq V c t) (b2BlkL2_eq V c t) (goBlkL2_eq V c t) (beoBlkL2_eq V c t) (muoBlkL2_eq V c t) (vaoBlkL2_eq V c t) d

/-! ## From the tiles to the array -/

/-- What point `t` writes back to the array of new node features is its block of the specification's layer. -/
theorem flushed15_L2 (V : (c : Dev nD) → (b : Ref sig .tc) → Buf (Elt Ideal) ((c : Thread nD τ).loc b)) (c : Dev nD) (t : Fin cfg2.N) :
    (datL2 (F := Ideal) V c).flushed 15 t = ((cfg2.win 15).blk t).view.read (Elt Ideal) (layerInL2 V c) := by
  obtain ⟨-, -, -, -, e0, e1, -⟩ := idx_factsL2 t
  refine (congrArg ((cfg2.win 15).cut (grid2.coords t)) (after15_L2 (F := Ideal) V c t)).trans ?_
  funext j
  obtain ⟨r, d, rfl⟩ : ∃ (r : Fin 1000) (d : Fin 128), j = ix2 r d := ⟨j 0, j 1, eq_ix2 j⟩
  show hOutL2 (F := Ideal) V c t (ix2 r d) = layerInL2 V c (((cfg2.win 15).blk t).view.emb (ix2 r d))
  refine (hOutL2_row V c t r d).trans (layer_at_idxL2 (aggArrL2 V c) (hArrL2 V c) (w1ArrL2 V c) (b1ArrL2 V c) (g1ArrL2 V c) (be1ArrL2 V c) (mu1ArrL2 V c) (va1ArrL2 V c) (w2ArrL2 V c) (b2ArrL2 V c) (goArrL2 V c) (beoArrL2 V c) (muoArrL2 V c) (vaoArrL2 V c) (((cfg2.win 15).blk t).view.emb (ix2 r d)) ⟨1000 * t.val + r.val, node_ltL2 t r⟩ d ?_ ?_).symm
  · show win2_15.index t (0 : Fin 2) * 1000 + 1 * r.val = 1000 * t.val + r.val
    omega
  · show win2_15.index t (1 : Fin 2) * 128 + 1 * d.val = d.val
    omega

/-- An index of the array is in point `t`'s block iff each coordinate is in the block's range on its axis. -/
theorem mem_blk15_L2 (t : Fin cfg2.N) (i : S50000x128.Idx) :
    i ∈ ((cfg2.win 15).blk t).view.set ↔ ∀ a : Fin 2, win2_15.index t a * S1000x128.size a ≤ (i a).val ∧ (i a).val < win2_15.index t a * S1000x128.size a + S1000x128.size a := by
  show i ∈ ((View.whole (Pipeline.arrRef spec2 15)).slice (win2_15.rect t)).set ↔ _
  rw [View.set_slice_whole, Rect.mem_set_unit]
  exact Iff.rfl

/-- The tiles cover the array: node `n` is in the block of point `n / 1000`. -/
theorem cover15_L2 (i : S50000x128.Idx) : ∃ t : Fin cfg2.N, (cfg2.win 15).flush t = true ∧ i ∈ ((cfg2.win 15).blk t).view.set := by
  have hi0 : (i 0).val < 50000 := idx2_lt0 i
  have hi1 : (i 1).val < 128 := idx2_lt1 i
  have hN : (i 0).val / 1000 < cfg2.N := by rw [show cfg2.N = 50 from N_2]; omega
  refine ⟨⟨(i 0).val / 1000, hN⟩, flush2_15 _, ?_⟩
  obtain ⟨-, -, -, -, e0, e1, -⟩ := idx_factsL2 ⟨(i 0).val / 1000, hN⟩
  rw [mem_blk15_L2]
  intro a
  match a with
  | ⟨0, _⟩ =>
    show win2_15.index ⟨(i 0).val / 1000, hN⟩ (0 : Fin 2) * 1000 ≤ (i 0).val ∧ (i 0).val < win2_15.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win2_15.index ⟨(i 0).val / 1000, hN⟩ (1 : Fin 2) * 128 ≤ (i 1).val ∧ (i 1).val < win2_15.index ⟨(i 0).val / 1000, hN⟩ (1 : Fin 2) * 128 + 128
    rw [e1]; omega

/-- After the last point the array of new node features is the specification's layer of the arrays the region finds. -/
theorem hnew_arrL2 (V : (c : Dev nD) → (b : Ref sig .tc) → Buf (Elt Ideal) ((c : Thread nD τ).loc b)) (c : Dev nD) :
    (datL2 (F := Ideal) V c).arrAt 15 cfg2.N = layerInL2 V c :=
  (datL2 (F := Ideal) V c).arrAt_eq_of_cover 15 (layerInL2 V c) (fun t _ => flushed15_L2 V c t) cover15_L2

/-! ## The two facts as the region's users cite them -/

/-- Row `r` of the block point `t` stores is the specification's layer at node `1000 t + r`. -/
theorem hOutL2_at (V : (c : Dev nD) → (b : Ref sig .tc) → Buf (Elt Ideal) ((c : Thread nD τ).loc b)) (c : Dev nD) (t : Fin cfg2.N) (r : Fin 1000) (d : Fin 128) :
    hOutL2 (F := Ideal) V c t (ix2 r d) = Cert.Spec.layerAt (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) ⟨1000 * t.val + r.val, node_ltL2 t r⟩ d :=
  hOutL2_row V c t r d

/-- After the last point the array of new node features is the specification's layer of the region's inputs. -/
theorem hnew_L2 (V : (c : Dev nD) → (b : Ref sig .tc) → Buf (Elt Ideal) ((c : Thread nD τ).loc b)) (c : Dev nD) :
    ((datL2 (F := Ideal) V c).arrAt 15 cfg2.N : S50000x128.Idx → EReal) = Cert.Spec.layer (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) :=
  hnew_arrL2 V c

end Cert.KernelIdeal.Hand

end
-- ==== Proof.KI.L3Pieces.lean ====
/-
  Layer region 3, what the body's stores are in terms of the blocks it loads: the new node features of a tile are the
  second dense layer over the first; the pool after a point is the tile's one-hot contraction added to what the
  buffer held (zeros at the first point).
-/
import proofs.«426741_j36421322670671_1_alg».proof.Proof.KI.L3Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are zero, of two axes and of one. -/
theorem hz2_L3 : (![0, 0] : Fin 2 → Nat) = fun _ => 0 := funext fun a => by fin_cases a <;> rfl
theorem hz1_L3 : (![0] : Fin 1 → Nat) = fun _ => 0 := funext fun a => by fin_cases a <;> rfl

/-- The new node features the body stores at the first point, from the blocks it loads. -/
theorem outL3_A_15_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    outL3_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = k3_pay4 (k3_pay3 x0 x1 x3 x4 x7 x8 x5 x6) x9 x10 x13 x14 x11 x12 := by
  unfold outL3_A_15
  rw [View.read_writes_eq_canon _ _ _ (coverL3_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRunL3_A
  dsimp only
  sl_unfold_words
  rw [View.canon_unit_zero hz2_L3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1000x128) hz2_L3, View.ld_unit_zero (S := S128x128) hz2_L3, View.ld_unit_zero (S := S1000x1) hz2_L3, View.ld_unit_zero (S := S512x128) hz2_L3, View.ld_unit_zero (S := S128) hz1_L3, View.readCov_unit_zero (S := S512x128) _ hz2_L3]

/-- The new node features the body stores at a later point, from the blocks it loads. -/
theorem outL3_B_15_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    outL3_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16 = k3_pay4 (k3_pay3 x0 x1 x3 x4 x7 x8 x5 x6) x9 x10 x13 x14 x11 x12 := by
  unfold outL3_B_15
  rw [View.read_writes_eq_canon _ _ _ (coverL3_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16)]
  unfold kernelRunL3_B
  dsimp only
  sl_unfold_words
  rw [View.canon_unit_zero hz2_L3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1000x128) hz2_L3, View.ld_unit_zero (S := S128x128) hz2_L3, View.ld_unit_zero (S := S1000x1) hz2_L3, View.ld_unit_zero (S := S512x128) hz2_L3, View.ld_unit_zero (S := S128) hz1_L3, View.readCov_unit_zero (S := S512x128) _ hz2_L3]

/-- The pool the body leaves at the first point: the buffer is zeroed, read back, and the tile's pool added. -/
theorem outL3_A_16_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) :
    outL3_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = k3_pay1 (k3_pay5 (k3_pay3 x0 x1 x3 x4 x7 x8 x5 x6) x9 x10 x13 x14 x11 x12 x2) (k3_pay2 (F := F)) := by
  unfold outL3_A_16
  rw [View.read_writes_eq_canon _ _ _ (coverL3_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRunL3_A
  dsimp only
  sl_unfold_words
  rw [View.canon_cons_unit_zero (S := S512x128) hz2_L3, View.readCov_unit_zero (S := S512x128) _ hz2_L3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1000x128) hz2_L3, View.ld_unit_zero (S := S128x128) hz2_L3, View.ld_unit_zero (S := S1000x1) hz2_L3, View.ld_unit_zero (S := S512x128) hz2_L3, View.ld_unit_zero (S := S128) hz1_L3, View.readCov_unit_zero (S := S512x128) _ hz2_L3]

/-- The pool the body leaves at a later point: the tile's pool added to what the buffer held. -/
theorem outL3_B_16_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S1000x1 .i32) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S1000x128 .f32) (harg16 : arg16.IsWhole) (arg17 : Memref sig .tc .vmem S512x128 .f32) (harg17 : arg17.IsWhole) (hc0 : ¬condL3_0 i)
    (x0 : Vec F S1000x128 .f32) (x1 : Vec F S1000x128 .f32) (x2 : Vec F S1000x1 .i32) (x3 : Vec F S128x128 .f32) (x4 : Vec F S128 .f32) (x5 : Vec F S128 .f32) (x6 : Vec F S128 .f32) (x7 : Vec F S128 .f32) (x8 : Vec F S128 .f32) (x9 : Vec F S128x128 .f32) (x10 : Vec F S128 .f32) (x11 : Vec F S128 .f32) (x12 : Vec F S128 .f32) (x13 : Vec F S128 .f32) (x14 : Vec F S128 .f32) (xo16 : Vec F S512x128 .f32) :
    outL3_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16 = k3_pay1 (k3_pay5 (k3_pay3 x0 x1 x3 x4 x7 x8 x5 x6) x9 x10 x13 x14 x11 x12 x2) xo16 := by
  unfold outL3_B_16
  rw [View.read_writes_eq_canon _ _ _ (coverL3_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo16)]
  unfold kernelRunL3_B
  dsimp only
  sl_unfold_words
  rw [View.canon_unit_zero hz2_L3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1000x128) hz2_L3, View.ld_unit_zero (S := S128x128) hz2_L3, View.ld_unit_zero (S := S1000x1) hz2_L3, View.ld_unit_zero (S := S512x128) hz2_L3, View.ld_unit_zero (S := S128) hz1_L3, View.readCov_unit_zero (S := S512x128) _ hz2_L3]

/-- The new node features the body stores at point `t`: the second dense layer of the tile, over the first. -/
theorem hOutL3_eq (V : (c : Dev nD) → (b : Ref sig .tc) → Buf (Elt F) ((c : Thread nD τ).loc b)) (c : Dev nD) (t : Fin cfg3.N) :
    hOutL3 V c t = k3_pay4 (k3_pay3 (iblkL3 V c 0 t) (iblkL3 V c 1 t) (iblkL3 V c 3 t) (iblkL3 V c 4 t) (iblkL3 V c 7 t) (iblkL3 V c 8 t) (iblkL3 V c 5 t) (iblkL3 V c 6 t)) (iblkL3 V c 9 t) (iblkL3 V c 10 t) (iblkL3 V c 13 t) (iblkL3 V c 14 t) (iblkL3 V c 11 t) (iblkL3 V c 12 t) := by
  by_cases h0 : t.val % 50 = 0
  · rw [hOutL3_A V c t h0, outL3_A_15_eq]
  · rw [hOutL3_B V c t h0, outL3_B_15_eq]

/-- The pool's buffer after the first point: the tile's pool added to zeros. -/
theorem poolAtL3_zero (V : (c : Dev nD) → (b : Ref sig .tc) → Buf (Elt F) ((c : Thread nD τ).loc b)) (c : Dev nD) (h0 : 0 < cfg3.N) :
    poolAtL3 V c 0 h0 = k3_pay1 (k3_pay5 (k3_pay3 (iblkL3 V c 0 ⟨0, h0⟩) (iblkL3 V c 1 ⟨0, h0⟩) (iblkL3 V c 3 ⟨0, h0⟩) (iblkL3 V c 4 ⟨0, h0⟩) (iblkL3 V c 7 ⟨0, h0⟩) (iblkL3 V c 8 ⟨0, h0⟩) (iblkL3 V c 5 ⟨0, h0⟩) (iblkL3 V c 6 ⟨0, h0⟩)) (iblkL3 V c 9 ⟨0, h0⟩) (iblkL3 V c 10 ⟨0, h0⟩) (iblkL3 V c 13 ⟨0, h0⟩) (iblkL3 V c 14 ⟨0, h0⟩) (iblkL3 V c 11 ⟨0, h0⟩) (iblkL3 V c 12 ⟨0, h0⟩) (iblkL3 V c 2 ⟨0, h0⟩)) (k3_pay2 (F := F)) := (poolAtL3_A V c ⟨0, h0⟩ rfl).trans (outL3_A_16_eq ..)

/-- The pool's buffer after a later point: the tile's pool added to what the point before left. -/
theorem poolAtL3_succ (V : (c : Dev nD) → (b : Ref sig .tc) → Buf (Elt F) ((c : Thread nD τ).loc b)) (c : Dev nD) (n : ℕ) (hn : n + 1 < cfg3.N) :
    poolAtL3 V c (n + 1) hn = k3_pay1 (k3_pay5 (k3_pay3 (iblkL3 V c 0 ⟨n + 1, hn⟩) (iblkL3 V c 1 ⟨n + 1, hn⟩) (iblkL3 V c 3 ⟨n + 1, hn⟩) (iblkL3 V c 4 ⟨n + 1, hn⟩) (iblkL3 V c 7 ⟨n + 1, hn⟩) (iblkL3 V c 8 ⟨n + 1, hn⟩) (iblkL3 V c 5 ⟨n + 1, hn⟩) (iblkL3 V c 6 ⟨n + 1, hn⟩)) (iblkL3 V c 9 ⟨n + 1, hn⟩) (iblkL3 V c 10 ⟨n + 1, hn⟩) (iblkL3 V c 13 ⟨n + 1, hn⟩) (iblkL3 V c 14 ⟨n + 1, hn⟩) (iblkL3 V c 11 ⟨n + 1, hn⟩) (iblkL3 V c 12 ⟨n + 1, hn⟩) (iblkL3 V c 2 ⟨n + 1, hn⟩)) (poolAtL3 V c n (Nat.lt_of_succ_lt hn)) := by
  have hN : cfg3.N = 50 := N_3
  have hB : ¬(⟨n + 1, hn⟩ : Fin cfg3.N).val % 50 = 0 := by dsimp only; omega
  exact (poolAtL3_B V c ⟨n + 1, hn⟩ hB).trans (outL3_B_16_eq ..)

end Cert.KernelIdeal.Hand

end
-- ==== Proof.KI.L3HNew.lean ====
/-
  Layer region 3: the new node features the region leaves are the specification's layer.

  A tile's stored block is the second dense layer (with its batch norm and relu) of the first dense layer of
  the tile's rows of `agg + h`; the tile at point `t` holds rows `1000 t … 1000 t + 999` of the node arrays and
  every parameter window holds its whole array, so row `r` of the stored block is the specification's layer at
  node `1000 t + r`. The tiles cover the array, so after the last point the array is the layer.
-/
import proofs.«426741_j36421322670671_1_alg».proof.Proof.KI.L3Dat
import proofs.«426741_j36421322670671_1_alg».proof.Proof.KI.L3Pieces
import proofs.«426741_j36421322670671_1_alg».proof.Proof.KI.LayerPay
import proofs.«426741_j36421322670671_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The region's arrays and the windows' blocks, at their literal types -/

/-- The array of the neighbours' sums, as the region finds it. -/
abbrev aggArrL3 (V : (c : Dev nD) → (b : Ref sig .tc) → Buf (Elt F) ((c : Thread nD τ).loc b)) (c : Dev nD) : Vec F S50000x128 .f32 := V c (Pipeline.arrRef spec3 0)
/-- The block of the neighbours' sums at point `t`. -/
abbrev aggBlkL3 (V : (c : Dev nD) → (b : Ref sig .tc) → Buf (Elt F) ((c : Thread nD τ).loc b)) (c : Dev nD) (t : Fin cfg3.N) : Vec F S1000x128 .f32 := iblkL3 V c 0 t
/-- The array of the node features, as the region finds it. -/
abbrev hArrL3 (V : (c : Dev nD) → (b : Ref sig .tc) → Buf (Elt F) ((c : Thread nD τ).loc b)) (c : Dev nD) : Vec F S50000x128 .f32 := V c (Pipeline.arrRef spec3 1)
/-- The block of the node features at point `t`. -/
abbrev hBlkL3 (V : (c : Dev nD) → (b : Ref sig .tc) → Buf (Elt F) ((c : Thread nD τ).loc b)) (c : Dev nD) (t : Fin cfg3.N) : Vec F S1000x128 .f32 := iblkL3 V c 1 t
/-- The array of the first dense layer's weights, as the region finds it. -/
abbrev w1ArrL3 (V : (c : Dev nD) → (b : Ref sig .tc) → Buf (Elt F) ((c : Thread nD τ).loc b)) (c : Dev nD) : Vec F S128x128 .f32 := V c (Pipeline.arrRef spec3 3)
/-- The block of the first dense layer's weights at point `t`. -/
abbrev w1BlkL3 (V : (c : Dev nD) → (b : Ref sig .tc) → Buf (Elt F) ((c : Thread nD τ).loc b)) (c : Dev nD) (t : Fin cfg3.N) : Vec F S128x128 .f32 := iblkL3 V c 3 t
/-- The array of the first dense layer's bias, as the region finds it. -/
abbrev b1ArrL3 (V : (c : Dev nD) → (b : Ref sig .tc) → Buf (Elt F) ((c : Thread nD τ).loc b)) (c : Dev nD) : Vec F S128 .f32 := V c (Pipeline.arrRef spec3 4)
/-- The block of the first dense layer's bias at point `t`. -/
abbrev b1BlkL3 (V : (c : Dev nD) → (b : Ref sig .tc) → Buf (Elt F) ((c : Thread nD τ).loc b)) (c : Dev nD) (t : Fin cfg3.N) : Vec F S128 .f32 := iblkL3 V c 4 t
/-- The array of the first batch norm's scale, as the region finds it. -/
abbrev g1ArrL3 (V : (c : Dev nD) → (b : Ref sig .tc) → Buf (Elt F) ((c : Thread nD τ).loc b)) (c : Dev nD) : Vec F S128 .f32 := V c (Pipeline.arrRef spec3 5)
/-- The block of the first batch norm's scale at point `t`. -/
abbrev g1BlkL3 (V : (c : Dev nD) → (b : Ref sig .tc) → Buf (Elt F) ((c : Thread nD τ).loc b)) (c : Dev nD) (t : Fin cfg3.N) : Vec F S128 .f32 := iblkL3 V c 5 t
/-- The array of the first batch norm's shift, as the region finds it. -/
abbrev be1ArrL3 (V : (c : Dev nD) → (b : Ref sig .tc) → Buf (Elt F) ((c : Thread nD τ).loc b)) (c : Dev nD) : Vec F S128 .f32 := V c (Pipeline.arrRef spec3 6)
/-- The block of the first batch norm's shift at point `t`. -/
abbrev be1BlkL3 (V : (c : Dev nD) → (b : Ref sig .tc) → Buf (Elt F) ((c : Thread nD τ).loc b)) (c : Dev nD) (t : Fin cfg3.N) : Vec F S128 .f32 := iblkL3 V c 6 t
/-- The array of the first batch norm's mean, as the region finds it. -/
abbrev mu1ArrL3 (V : (c : Dev nD) → (b : Ref sig .tc) → Buf (Elt F) ((c : Thread nD τ).loc b)) (c : Dev nD) : Vec F S128 .f32 := V c (Pipeline.arrRef spec3 7)
/-- The block of the first batch norm's mean at point `t`. -/
abbrev mu1BlkL3 (V : (c : Dev nD) → (b : Ref sig .tc) → Buf (Elt F) ((c : Thread nD τ).loc b)) (c : Dev nD) (t : Fin cfg3.N) : Vec F S128 .f32 := iblkL3 V c 7 t
/-- The array of the first batch norm's variance, as the region finds it. -/
abbrev va1ArrL3 (V : (c : Dev nD) → (b : Ref sig .tc) → Buf (Elt F) ((c : Thread nD τ).loc b)) (c : Dev nD) : Vec F S128 .f32 := V c (Pipeline.arrRef spec3 8)
/-- The block of the first batch norm's variance at point `t`. -/
abbrev va1BlkL3 (V : (c : Dev nD) → (b : Ref sig .tc) → Buf (Elt F) ((c : Thread nD τ).loc b)) (c : Dev nD) (t : Fin cfg3.N) : Vec F S128 .f32 := iblkL3 V c 8 t
/-- The array of the second dense layer's weights, as the region finds it. -/
abbrev w2ArrL3 (V : (c : Dev nD) → (b : Ref sig .tc) → Buf (Elt F) ((c : Thread nD τ).loc b)) (c : Dev nD) : Vec F S128x128 .f32 := V c (Pipeline.arrRef spec3 9)
/-- The block of the second dense layer's weights at point `t`. -/
abbrev w2BlkL3 (V : (c : Dev nD) → (b : Ref sig .tc) → Buf (Elt F) ((c : Thread nD τ).loc b)) (c : Dev nD) (t : Fin cfg3.N) : Vec F S128x128 .f32 := iblkL3 V c 9 t
/-- The array of the second dense layer's bias, as the region finds it. -/
abbrev b2ArrL3 (V : (c : Dev nD) → (b : Ref sig .tc) → Buf (Elt F) ((c : Thread nD τ).loc b)) (c : Dev nD) : Vec F S128 .f32 := V c (Pipeline.arrRef spec3 10)
/-- The block of the second dense layer's bias at point `t`. -/
abbrev b2BlkL3 (V : (c : Dev nD) → (b : Ref sig .tc) → Buf (Elt F) ((c : Thread nD τ).loc b)) (c : Dev nD) (t : Fin cfg3.N) : Vec F S128 .f32 := iblkL3 V c 10 t
/-- The array of the second batch norm's scale, as the region finds it. -/
abbrev goArrL3 (V : (c : Dev nD) → (b : Ref sig .tc) → Buf (Elt F) ((c : Thread nD τ).loc b)) (c : Dev nD) : Vec F S128 .f32 := V c (Pipeline.arrRef spec3 11)
/-- The block of the second batch norm's scale at point `t`. -/
abbrev goBlkL3 (V : (c : Dev nD) → (b : Ref sig .tc) → Buf (Elt F) ((c : Thread nD τ).loc b)) (c : Dev nD) (t : Fin cfg3.N) : Vec F S128 .f32 := iblkL3 V c 11 t
/-- The array of the second batch norm's shift, as the region finds it. -/
abbrev beoArrL3 (V : (c : Dev nD) → (b : Ref sig .tc) → Buf (Elt F) ((c : Thread nD τ).loc b)) (c : Dev nD) : Vec F S128 .f32 := V c (Pipeline.arrRef spec3 12)
/-- The block of the second batch norm's shift at point `t`. -/
abbrev beoBlkL3 (V : (c : Dev nD) → (b : Ref sig .tc) → Buf (Elt F) ((c : Thread nD τ).loc b)) (c : Dev nD) (t : Fin cfg3.N) : Vec F S128 .f32 := iblkL3 V c 12 t
/-- The array of the second batch norm's mean, as the region finds it. -/
abbrev muoArrL3 (V : (c : Dev nD) → (b : Ref sig .tc) → Buf (Elt F) ((c : Thread nD τ).loc b)) (c : Dev nD) : Vec F S128 .f32 := V c (Pipeline.arrRef spec3 13)
/-- The block of the second batch norm's mean at point `t`. -/
abbrev muoBlkL3 (V : (c : Dev nD) → (b : Ref sig .tc) → Buf (Elt F) ((c : Thread nD τ).loc b)) (c : Dev nD) (t : Fin cfg3.N) : Vec F S128 .f32 := iblkL3 V c 13 t
/-- The array of the second batch norm's variance, as the region finds it. -/
abbrev vaoArrL3 (V : (c : Dev nD) → (b : Ref sig .tc) → Buf (Elt F) ((c : Thread nD τ).loc b)) (c : Dev nD) : Vec F S128 .f32 := V c (Pipeline.arrRef spec3 14)
/-- The block of the second batch norm's variance at point `t`. -/
abbrev vaoBlkL3 (V : (c : Dev nD) → (b : Ref sig .tc) → Buf (Elt F) ((c : Thread nD τ).loc b)) (c : Dev nD) (t : Fin cfg3.N) : Vec F S128 .f32 := iblkL3 V c 14 t

/-- The specification's layer of the arrays the region finds. -/
abbrev layerInL3 (V : (c : Dev nD) → (b : Ref sig .tc) → Buf (Elt Ideal) ((c : Thread nD τ).loc b)) (c : Dev nD) : Vec Ideal S50000x128 .f32 :=
  Cert.Spec.layer (aggArrL3 V c) (hArrL3 V c) (w1ArrL3 V c) (b1ArrL3 V c) (g1ArrL3 V c) (be1ArrL3 V c) (mu1ArrL3 V c) (va1ArrL3 V c) (w2ArrL3 V c) (b2ArrL3 V c) (goArrL3 V c) (beoArrL3 V c) (muoArrL3 V c) (vaoArrL3 V c)

/-! ## The index maps over the grid -/

/-- The printed index maps, decided over the 50 points: the node windows' block index is the point on the rows and
    zero on the features; a parameter window's block index is zero. -/
theorem idx_factsL3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_15.index t (0 : Fin 2) = t.val ∧ win3_15.index t (1 : Fin 2) = 0
    ∧ win3_3.index t (0 : Fin 2) = 0 ∧ win3_3.index t (1 : Fin 2) = 0
    ∧ win3_9.index t (0 : Fin 2) = 0 ∧ win3_9.index t (1 : Fin 2) = 0
    ∧ win3_4.index t (0 : Fin 1) = 0 ∧ win3_5.index t (0 : Fin 1) = 0 ∧ win3_6.index t (0 : Fin 1) = 0
    ∧ win3_7.index t (0 : Fin 1) = 0 ∧ win3_8.index t (0 : Fin 1) = 0 ∧ win3_10.index t (0 : Fin 1) = 0
    ∧ win3_11.index t (0 : Fin 1) = 0 ∧ win3_12.index t (0 : Fin 1) = 0 ∧ win3_13.index t (0 : Fin 1) = 0
    ∧ win3_14.index t (0 : Fin 1) = 0 :=
  (by decide +kernel : ∀ t : Fin grid3.N, _)

/-- A row of a tile is a node. -/
theorem node_ltL3 (t : Fin cfg3.N) (r : Fin 1000) : 1000 * t.val + r.val < 50000 := by
  have ht : t.val < 50 := lt_of_lt_of_eq t.isLt N_3
  have hr := r.isLt
  omega

/-! ## The windows' blocks, read off their arrays -/

/-- The tile of the neighbours' sums at point `t` is rows `1000 t …` of the array. -/
theorem aggBlkL3_at (V : (c : Dev nD) → (b : Ref sig .tc) → Buf (Elt F) ((c : Thread nD τ).loc b)) (c : Dev nD) (t : Fin cfg3.N) (r : Fin 1000) (i : Fin 128) :
    aggBlkL3 V c t (ix2 r i) = aggArrL3 V c (ix2 ⟨1000 * t.val + r.val, node_ltL3 t r⟩ i) := by
  obtain ⟨e0, e1, -⟩ := idx_factsL3 t
  show iblkL3 V c 0 t (ix2 r i) = V c (Pipeline.arrRef spec3 0) _
  unfold iblkL3
  rw [View.read_apply]
  show V c (Pipeline.arrRef spec3 0) _ = V c (Pipeline.arrRef spec3 0) _
  congr 1
  funext a
  apply Fin.ext
  match a with
  | ⟨0, _⟩ => show win3_0.index t (0 : Fin 2) * 1000 + 1 * r.val = 1000 * t.val + r.val; omega
  | ⟨1, _⟩ => show win3_0.index t (1 : Fin 2) * 128 + 1 * i.val = i.val; omega

/-- The tile of the node features at point `t` is rows `1000 t …` of the array. -/
theorem hBlkL3_at (V : (c : Dev nD) → (b : Ref sig .tc) → Buf (Elt F) ((c : Thread nD τ).loc b)) (c : Dev nD) (t : Fin cfg3.N) (r : Fin 1000) (i : Fin 128) :
    hBlkL3 V c t (ix2 r i) = hArrL3 V c (ix2 ⟨1000 * t.val + r.val, node_ltL3 t r⟩ i) := by
  obtain ⟨-, -, e0, e1, -⟩ := idx_factsL3 t
  show iblkL3 V c 1 t (ix2 r i) = V c (Pipeline.arrRef spec3 1) _
  unfold iblkL3
  rw [View.read_apply]
  show V c (Pipeline.arrRef spec3 1) _ = V c (Pipeline.arrRef spec3 1) _
  congr 1
  funext a
  apply Fin.ext
  match a with
  | ⟨0, _⟩ => show win3_1.index t (0 : Fin 2) * 1000 + 1 * r.val = 1000 * t.val + r.val; omega
  | ⟨1, _⟩ => show win3_1.index t (1 : Fin 2) * 128 + 1 * i.val = i.val; omega

/-- The block of the first dense layer's weights is the whole array, at every point. -/
theorem w1BlkL3_eq (V : (c : Dev nD) → (b : Ref sig .tc) → Buf (Elt F) ((c : Thread nD τ).loc b)) (c : Dev nD) (t : Fin cfg3.N) : w1BlkL3 V c t = w1ArrL3 V c := by
  have hi : win3_3.index t (0 : Fin 2) = 0 ∧ win3_3.index t (1 : Fin 2) = 0 := by
    have h := idx_factsL3 t; simp only [h, and_self]
  funext j
  show iblkL3 V c 3 t j = V c (Pipeline.arrRef spec3 3) j
  unfold iblkL3
  rw [View.read_apply]
  show V c (Pipeline.arrRef spec3 3) _ = V c (Pipeline.arrRef spec3 3) j
  congr 1
  funext a
  apply Fin.ext
  match a with
  | ⟨0, _⟩ => show win3_3.index t (0 : Fin 2) * 128 + 1 * (j 0).val = (j 0).val; omega
  | ⟨1, _⟩ => show win3_3.index t (1 : Fin 2) * 128 + 1 * (j 1).val = (j 1).val; omega

/-- The block of the first dense layer's bias is the whole array, at every point. -/
theorem b1BlkL3_eq (V : (c : Dev nD) → (b : Ref sig .tc) → Buf (Elt F) ((c : Thread nD τ).loc b)) (c : Dev nD) (t : Fin cfg3.N) : b1BlkL3 V c t = b1ArrL3 V c := by
  have hi : win3_4.index t (0 : Fin 1) = 0 := by
    have h := idx_factsL3 t; simp only [h]
  funext j
  show iblkL3 V c 4 t j = V c (Pipeline.arrRef spec3 4) j
  unfold iblkL3
  rw [View.read_apply]
  show V c (Pipeline.arrRef spec3 4) _ = V c (Pipeline.arrRef spec3 4) j
  congr 1
  funext a
  apply Fin.ext
  match a with
  | ⟨0, _⟩ => show win3_4.index t (0 : Fin 1) * 128 + 1 * (j 0).val = (j 0).val; omega

/-- The block of the first batch norm's scale is the whole array, at every point. -/
theorem g1BlkL3_eq (V : (c : Dev nD) → (b : Ref sig .tc) → Buf (Elt F) ((c : Thread nD τ).loc b)) (c : Dev nD) (t : Fin cfg3.N) : g1BlkL3 V c t = g1ArrL3 V c := by
  have hi : win3_5.index t (0 : Fin 1) = 0 := by
    have h := idx_factsL3 t; simp only [h]
  funext j
  show iblkL3 V c 5 t j = V c (Pipeline.arrRef spec3 5) j
  unfold iblkL3
  rw [View.read_apply]
  show V c (Pipeline.arrRef spec3 5) _ = V c (Pipeline.arrRef spec3 5) j
  congr 1
  funext a
  apply Fin.ext
  match a with
  | ⟨0, _⟩ => show win3_5.index t (0 : Fin 1) * 128 + 1 * (j 0).val = (j 0).val; omega

/-- The block of the first batch norm's shift is the whole array, at every point. -/
theorem be1BlkL3_eq (V : (c : Dev nD) → (b : Ref sig .tc) → Buf (Elt F) ((c : Thread nD τ).loc b)) (c : Dev nD) (t : Fin cfg3.N) : be1BlkL3 V c t = be1ArrL3 V c := by
  have hi : win3_6.index t (0 : Fin 1) = 0 := by
    have h := idx_factsL3 t; simp only [h]
  funext j
  show iblkL3 V c 6 t j = V c (Pipeline.arrRef spec3 6) j
  unfold iblkL3
  rw [View.read_apply]
  show V c (Pipeline.arrRef spec3 6) _ = V c (Pipeline.arrRef spec3 6) j
  congr 1
  funext a
  apply Fin.ext
  match a with
  | ⟨0, _⟩ => show win3_6.index t (0 : Fin 1) * 128 + 1 * (j 0).val = (j 0).val; omega

/-- The block of the first batch norm's mean is the whole array, at every point. -/
theorem mu1BlkL3_eq (V : (c : Dev nD) → (b : Ref sig .tc) → Buf (Elt F) ((c : Thread nD τ).loc b)) (c : Dev nD) (t : Fin cfg3.N) : mu1BlkL3 V c t = mu1ArrL3 V c := by
  have hi : win3_7.index t (0 : Fin 1) = 0 := by
    have h := idx_factsL3 t; simp only [h]
  funext j
  show iblkL3 V c 7 t j = V c (Pipeline.arrRef spec3 7) j
  unfold iblkL3
  rw [View.read_apply]
  show V c (Pipeline.arrRef spec3 7) _ = V c (Pipeline.arrRef spec3 7) j
  congr 1
  funext a
  apply Fin.ext
  match a with
  | ⟨0, _⟩ => show win3_7.index t (0 : Fin 1) * 128 + 1 * (j 0).val = (j 0).val; omega

/-- The block of the first batch norm's variance is the whole array, at every point. -/
theorem va1BlkL3_eq (V : (c : Dev nD) → (b : Ref sig .tc) → Buf (Elt F) ((c : Thread nD τ).loc b)) (c : Dev nD) (t : Fin cfg3.N) : va1BlkL3 V c t = va1ArrL3 V c := by
  have hi : win3_8.index t (0 : Fin 1) = 0 := by
    have h := idx_factsL3 t; simp only [h]
  funext j
  show iblkL3 V c 8 t j = V c (Pipeline.arrRef spec3 8) j
  unfold iblkL3
  rw [View.read_apply]
  show V c (Pipeline.arrRef spec3 8) _ = V c (Pipeline.arrRef spec3 8) j
  congr 1
  funext a
  apply Fin.ext
  match a with
  | ⟨0, _⟩ => show win3_8.index t (0 : Fin 1) * 128 + 1 * (j 0).val = (j 0).val; omega

/-- The block of the second dense layer's weights is the whole array, at every point. -/
theorem w2BlkL3_eq (V : (c : Dev nD) → (b : Ref sig .tc) → Buf (Elt F) ((c : Thread nD τ).loc b)) (c : Dev nD) (t : Fin cfg3.N) : w2BlkL3 V c t = w2ArrL3 V c := by
  have hi : win3_9.index t (0 : Fin 2) = 0 ∧ win3_9.index t (1 : Fin 2) = 0 := by
    have h := idx_factsL3 t; simp only [h, and_self]
  funext j
  show iblkL3 V c 9 t j = V c (Pipeline.arrRef spec3 9) j
  unfold iblkL3
  rw [View.read_apply]
  show V c (Pipeline.arrRef spec3 9) _ = V c (Pipeline.arrRef spec3 9) j
  congr 1
  funext a
  apply Fin.ext
  match a with
  | ⟨0, _⟩ => show win3_9.index t (0 : Fin 2) * 128 + 1 * (j 0).val = (j 0).val; omega
  | ⟨1, _⟩ => show win3_9.index t (1 : Fin 2) * 128 + 1 * (j 1).val = (j 1).val; omega

/-- The block of the second dense layer's bias is the whole array, at every point. -/
theorem b2BlkL3_eq (V : (c : Dev nD) → (b : Ref sig .tc) → Buf (Elt F) ((c : Thread nD τ).loc b)) (c : Dev nD) (t : Fin cfg3.N) : b2BlkL3 V c t = b2ArrL3 V c := by
  have hi : win3_10.index t (0 : Fin 1) = 0 := by
    have h := idx_factsL3 t; simp only [h]
  funext j
  show iblkL3 V c 10 t j = V c (Pipeline.arrRef spec3 10) j
  unfold iblkL3
  rw [View.read_apply]
  show V c (Pipeline.arrRef spec3 10) _ = V c (Pipeline.arrRef spec3 10) j
  congr 1
  funext a
  apply Fin.ext
  match a with
  | ⟨0, _⟩ => show win3_10.index t (0 : Fin 1) * 128 + 1 * (j 0).val = (j 0).val; omega

/-- The block of the second batch norm's scale is the whole array, at every point. -/
theorem goBlkL3_eq (V : (c : Dev nD) → (b : Ref sig .tc) → Buf (Elt F) ((c : Thread nD τ).loc b)) (c : Dev nD) (t : Fin cfg3.N) : goBlkL3 V c t = goArrL3 V c := by
  have hi : win3_11.index t (0 : Fin 1) = 0 := by
    have h := idx_factsL3 t; simp only [h]
  funext j
  show iblkL3 V c 11 t j = V c (Pipeline.arrRef spec3 11) j
  unfold iblkL3
  rw [View.read_apply]
  show V c (Pipeline.arrRef spec3 11) _ = V c (Pipeline.arrRef spec3 11) j
  congr 1
  funext a
  apply Fin.ext
  match a with
  | ⟨0, _⟩ => show win3_11.index t (0 : Fin 1) * 128 + 1 * (j 0).val = (j 0).val; omega

/-- The block of the second batch norm's shift is the whole array, at every point. -/
theorem beoBlkL3_eq (V : (c : Dev nD) → (b : Ref sig .tc) → Buf (Elt F) ((c : Thread nD τ).loc b)) (c : Dev nD) (t : Fin cfg3.N) : beoBlkL3 V c t = beoArrL3 V c := by
  have hi : win3_12.index t (0 : Fin 1) = 0 := by
    have h := idx_factsL3 t; simp only [h]
  funext j
  show iblkL3 V c 12 t j = V c (Pipeline.arrRef spec3 12) j
  unfold iblkL3
  rw [View.read_apply]
  show V c (Pipeline.arrRef spec3 12) _ = V c (Pipeline.arrRef spec3 12) j
  congr 1
  funext a
  apply Fin.ext
  match a with
  | ⟨0, _⟩ => show win3_12.index t (0 : Fin 1) * 128 + 1 * (j 0).val = (j 0).val; omega

/-- The block of the second batch norm's mean is the whole array, at every point. -/
theorem muoBlkL3_eq (V : (c : Dev nD) → (b : Ref sig .tc) → Buf (Elt F) ((c : Thread nD τ).loc b)) (c : Dev nD) (t : Fin cfg3.N) : muoBlkL3 V c t = muoArrL3 V c := by
  have hi : win3_13.index t (0 : Fin 1) = 0 := by
    have h := idx_factsL3 t; simp only [h]
  funext j
  show iblkL3 V c 13 t j = V c (Pipeline.arrRef spec3 13) j
  unfold iblkL3
  rw [View.read_apply]
  show V c (Pipeline.arrRef spec3 13) _ = V c (Pipeline.arrRef spec3 13) j
  congr 1
  funext a
  apply Fin.ext
  match a with
  | ⟨0, _⟩ => show win3_13.index t (0 : Fin 1) * 128 + 1 * (j 0).val = (j 0).val; omega

/-- The block of the second batch norm's variance is the whole array, at every point. -/
theorem vaoBlkL3_eq (V : (c : Dev nD) → (b : Ref sig .tc) → Buf (Elt F) ((c : Thread nD τ).loc b)) (c : Dev nD) (t : Fin cfg3.N) : vaoBlkL3 V c t = vaoArrL3 V c := by
  have hi : win3_14.index t (0 : Fin 1) = 0 := by
    have h := idx_factsL3 t; simp only [h]
  funext j
  show iblkL3 V c 14 t j = V c (Pipeline.arrRef spec3 14) j
  unfold iblkL3
  rw [View.read_apply]
  show V c (Pipeline.arrRef spec3 14) _ = V c (Pipeline.arrRef spec3 14) j
  congr 1
  funext a
  apply Fin.ext
  match a with
  | ⟨0, _⟩ => show win3_14.index t (0 : Fin 1) * 128 + 1 * (j 0).val = (j 0).val; omega

/-! ## A row of a tile through the two dense layers -/

/-- The payloads at a row whose inputs are a node's rows, the parameter blocks being the parameter arrays: the
    specification's layer at that node. -/
theorem layer_of_rowL3 (x0 x1 : Vec Ideal S1000x128 .f32) (A0 A1 : Vec Ideal S50000x128 .f32)
    (w1 W1 : Vec Ideal S128x128 .f32) (b1 B1 g1 G1 be1 Be1 mu1 Mu1 va1 Va1 : Vec Ideal S128 .f32)
    (w2 W2 : Vec Ideal S128x128 .f32) (b2 B2 go Go beo Beo muo Muo vao Vao : Vec Ideal S128 .f32)
    (r : Fin 1000) (n : Fin 50000)
    (h0 : ∀ i : Fin 128, x0 (ix2 r i) = A0 (ix2 n i)) (h1 : ∀ i : Fin 128, x1 (ix2 r i) = A1 (ix2 n i))
    (e3 : w1 = W1) (e4 : b1 = B1) (e5 : g1 = G1) (e6 : be1 = Be1) (e7 : mu1 = Mu1) (e8 : va1 = Va1)
    (e9 : w2 = W2) (e10 : b2 = B2) (e11 : go = Go) (e12 : beo = Beo) (e13 : muo = Muo) (e14 : vao = Vao) (d : Fin 128) :
    k3_pay4 (k3_pay3 x0 x1 w1 b1 mu1 va1 g1 be1) w2 b2 muo vao go beo (ix2 r d)
      = Cert.Spec.layerAt A0 A1 W1 B1 G1 Be1 Mu1 Va1 W2 B2 Go Beo Muo Vao n d := by
  subst e3 e4 e5 e6 e7 e8 e9 e10 e11 e12 e13 e14
  rw [pay4_applyL3]
  unfold Cert.Spec.layerAt Cert.Spec.hiddenAt
  simp only [pay3_applyL3, h0, h1]

/-- The layer as an array, read at an index by its coordinates. -/
theorem layer_at_idxL3 (A0 A1 : Vec Ideal S50000x128 .f32)
    (W1 : Vec Ideal S128x128 .f32) (B1 G1 Be1 Mu1 Va1 : Vec Ideal S128 .f32)
    (W2 : Vec Ideal S128x128 .f32) (B2 Go Beo Muo Vao : Vec Ideal S128 .f32)
    (j : S50000x128.Idx) (n : Fin 50000) (d : Fin 128) (hn : (j 0).val = n.val) (hd : (j 1).val = d.val) :
    Cert.Spec.layer A0 A1 W1 B1 G1 Be1 Mu1 Va1 W2 B2 Go Beo Muo Vao j
      = Cert.Spec.layerAt A0 A1 W1 B1 G1 Be1 Mu1 Va1 W2 B2 Go Beo Muo Vao n d := by
  have en : j 0 = n := Fin.ext hn
  have ed : j 1 = d := Fin.ext hd
  unfold Cert.Spec.layer
  rw [en, ed]

/-- What point `t` stores, over the blocks at their literal types. -/
theorem hOutL3_blocks (V : (c : Dev nD) → (b : Ref sig .tc) → Buf (Elt Ideal) ((c : Thread nD τ).loc b)) (c : Dev nD) (t : Fin cfg3.N) :
    hOutL3 (F := Ideal) V c t = k3_pay4 (k3_pay3 (aggBlkL3 V c t) (hBlkL3 V c t) (w1BlkL3 V c t) (b1BlkL3 V c t) (mu1BlkL3 V c t) (va1BlkL3 V c t) (g1BlkL3 V c t) (be1BlkL3 V c t)) (w2BlkL3 V c t) (b2BlkL3 V c t) (muoBlkL3 V c t) (vaoBlkL3 V c t) (goBlkL3 V c t) (beoBlkL3 V c t) :=
  hOutL3_eq (F := Ideal) V c t

/-- Row `r` of the block point `t` stores is the specification's layer at node `1000 t + r`. -/
theorem hOutL3_row (V : (c : Dev nD) → (b : Ref sig .tc) → Buf (Elt Ideal) ((c : Thread nD τ).loc b)) (c : Dev nD) (t : Fin cfg3.N) (r : Fin 1000) (d : Fin 128) :
    hOutL3 (F := Ideal) V c t (ix2 r d) = Cert.Spec.layerAt (aggArrL3 V c) (hArrL3 V c) (w1ArrL3 V c) (b1ArrL3 V c) (g1ArrL3 V c) (be1ArrL3 V c) (mu1ArrL3 V c) (va1ArrL3 V c) (w2ArrL3 V c) (b2ArrL3 V c) (goArrL3 V c) (beoArrL3 V c) (muoArrL3 V c) (vaoArrL3 V c) ⟨1000 * t.val + r.val, node_ltL3 t r⟩ d := by
  refine (congrFun (hOutL3_blocks V c t) (ix2 r d)).trans ?_
  exact layer_of_rowL3 (aggBlkL3 V c t) (hBlkL3 V c t) (aggArrL3 V c) (hArrL3 V c)
    (w1BlkL3 V c t) (w1ArrL3 V c) (b1BlkL3 V c t) (b1ArrL3 V c) (g1BlkL3 V c t) (g1ArrL3 V c) (be1BlkL3 V c t) (be1ArrL3 V c) (mu1BlkL3 V c t) (mu1ArrL3 V c) (va1BlkL3 V c t) (va1ArrL3 V c)
    (w2BlkL3 V c t) (w2ArrL3 V c) (b2BlkL3 V c t) (b2ArrL3 V c) (goBlkL3 V c t) (goArrL3 V c) (beoBlkL3 V c t) (beoArrL3 V c) (muoBlkL3 V c t) (muoArrL3 V c) (vaoBlkL3 V c t) (vaoArrL3 V c)
    r ⟨1000 * t.val + r.val, node_ltL3 t r⟩ (aggBlkL3_at V c t r) (hBlkL3_at V c t r)
    (w1BlkL3_eq V c t) (b1BlkL3_eq V c t) (g1BlkL3_eq V c t) (be1BlkL3_eq V c t) (mu1BlkL3_eq V c t) (va1BlkL3_eq V c t)
    (w2BlkL3_eq V c t) (b2BlkL3_eq V c t) (goBlkL3_eq V c t) (beoBlkL3_eq V c t) (muoBlkL3_eq V c t) (vaoBlkL3_eq V c t) d

/-! ## From the tiles to the array -/

/-- What point `t` writes back to the array of new node features is its block of the specification's layer. -/
theorem flushed15_L3 (V : (c : Dev nD) → (b : Ref sig .tc) → Buf (Elt Ideal) ((c : Thread nD τ).loc b)) (c : Dev nD) (t : Fin cfg3.N) :
    (datL3 (F := Ideal) V c).flushed 15 t = ((cfg3.win 15).blk t).view.read (Elt Ideal) (layerInL3 V c) := by
  obtain ⟨-, -, -, -, e0, e1, -⟩ := idx_factsL3 t
  refine (congrArg ((cfg3.win 15).cut (grid3.coords t)) (after15_L3 (F := Ideal) V c t)).trans ?_
  funext j
  obtain ⟨r, d, rfl⟩ : ∃ (r : Fin 1000) (d : Fin 128), j = ix2 r d := ⟨j 0, j 1, eq_ix2 j⟩
  show hOutL3 (F := Ideal) V c t (ix2 r d) = layerInL3 V c (((cfg3.win 15).blk t).view.emb (ix2 r d))
  refine (hOutL3_row V c t r d).trans (layer_at_idxL3 (aggArrL3 V c) (hArrL3 V c) (w1ArrL3 V c) (b1ArrL3 V c) (g1ArrL3 V c) (be1ArrL3 V c) (mu1ArrL3 V c) (va1ArrL3 V c) (w2ArrL3 V c) (b2ArrL3 V c) (goArrL3 V c) (beoArrL3 V c) (muoArrL3 V c) (vaoArrL3 V c) (((cfg3.win 15).blk t).view.emb (ix2 r d)) ⟨1000 * t.val + r.val, node_ltL3 t r⟩ d ?_ ?_).symm
  · show win3_15.index t (0 : Fin 2) * 1000 + 1 * r.val = 1000 * t.val + r.val
    omega
  · show win3_15.index t (1 : Fin 2) * 128 + 1 * d.val = d.val
    omega

/-- An index of the array is in point `t`'s block iff each coordinate is in the block's range on its axis. -/
theorem mem_blk15_L3 (t : Fin cfg3.N) (i : S50000x128.Idx) :
    i ∈ ((cfg3.win 15).blk t).view.set ↔ ∀ a : Fin 2, win3_15.index t a * S1000x128.size a ≤ (i a).val ∧ (i a).val < win3_15.index t a * S1000x128.size a + S1000x128.size a := by
  show i ∈ ((View.whole (Pipeline.arrRef spec3 15)).slice (win3_15.rect t)).set ↔ _
  rw [View.set_slice_whole, Rect.mem_set_unit]
  exact Iff.rfl

/-- The tiles cover the array: node `n` is in the block of point `n / 1000`. -/
theorem cover15_L3 (i : S50000x128.Idx) : ∃ t : Fin cfg3.N, (cfg3.win 15).flush t = true ∧ i ∈ ((cfg3.win 15).blk t).view.set := by
  have hi0 : (i 0).val < 50000 := idx2_lt0 i
  have hi1 : (i 1).val < 128 := idx2_lt1 i
  have hN : (i 0).val / 1000 < cfg3.N := by rw [show cfg3.N = 50 from N_3]; omega
  refine ⟨⟨(i 0).val / 1000, hN⟩, flush3_15 _, ?_⟩
  obtain ⟨-, -, -, -, e0, e1, -⟩ := idx_factsL3 ⟨(i 0).val / 1000, hN⟩
  rw [mem_blk15_L3]
  intro a
  match a with
  | ⟨0, _⟩ =>
    show win3_15.index ⟨(i 0).val / 1000, hN⟩ (0 : Fin 2) * 1000 ≤ (i 0).val ∧ (i 0).val < win3_15.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win3_15.index ⟨(i 0).val / 1000, hN⟩ (1 : Fin 2) * 128 ≤ (i 1).val ∧ (i 1).val < win3_15.index ⟨(i 0).val / 1000, hN⟩ (1 : Fin 2) * 128 + 128
    rw [e1]; omega

/-- After the last point the array of new node features is the specification's layer of the arrays the region finds. -/
theorem hnew_arrL3 (V : (c : Dev nD) → (b : Ref sig .tc) → Buf (Elt Ideal) ((c : Thread nD τ).loc b)) (c : Dev nD) :
    (datL3 (F := Ideal) V c).arrAt 15 cfg3.N = layerInL3 V c :=
  (datL3 (F := Ideal) V c).arrAt_eq_of_cover 15 (layerInL3 V c) (fun t _ => flushed15_L3 V c t) cover15_L3

/-! ## The two facts as the region's users cite them -/

/-- Row `r` of the block point `t` stores is the specification's layer at node `1000 t + r`. -/
theorem hOutL3_at (V : (c : Dev nD) → (b : Ref sig .tc) → Buf (Elt Ideal) ((c : Thread nD τ).loc b)) (c : Dev nD) (t : Fin cfg3.N) (r : Fin 1000) (d : Fin 128) :
    hOutL3 (F := Ideal) V c t (ix2 r d) = Cert.Spec.layerAt (V c (Pipeline.arrRef spec3 0)) (V c (Pipeline.arrRef spec3 1)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) (V c (Pipeline.arrRef spec3 14)) ⟨1000 * t.val + r.val, node_ltL3 t r⟩ d :=
  hOutL3_row V c t r d

/-- After the last point the array of new node features is the specification's layer of the region's inputs. -/
theorem hnew_L3 (V : (c : Dev nD) → (b : Ref sig .tc) → Buf (Elt Ideal) ((c : Thread nD τ).loc b)) (c : Dev nD) :
    ((datL3 (F := Ideal) V c).arrAt 15 cfg3.N : S50000x128.Idx → EReal) = Cert.Spec.layer (V c (Pipeline.arrRef spec3 0)) (V c (Pipeline.arrRef spec3 1)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) (V c (Pipeline.arrRef spec3 14)) :=
  hnew_arrL3 V c

end Cert.KernelIdeal.Hand

end
-- ==== Proof.KI.L0Pool.lean ====
/-
  Layer region 0: the pool its points leave in the resident accumulator is the specification's pool of the layer's new
  node features. Point t adds, to what the points before it left (nothing at point 0), the one-hot contraction of the
  tile's graph ids with the tile's new features; row r of tile t is node 1000 t + r; the fifty tiles of a thousand rows
  are the fifty thousand nodes; the accumulator's one block is the whole array, written back once, after the last point.
-/
import proofs.«426741_j36421322670671_1_alg».proof.Proof.KI.L0Dat
import proofs.«426741_j36421322670671_1_alg».proof.Proof.KI.L0Pieces
import proofs.«426741_j36421322670671_1_alg».proof.Proof.KI.L0HNew
import proofs.«426741_j36421322670671_1_alg».proof.Proof.KI.LayerPay
import proofs.«426741_j36421322670671_1_alg».proof.Proof.Spec
import Idealize.ShloMosaic.Lib.Pipeline.Value
import Idealize.ShloMosaic.Lib.ValueIdx
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The layer of the specification on the arrays the region finds. -/
abbrev layerL0 (V : (c : Dev nD) → (b : Ref sig .tc) → Buf (Elt Ideal) ((c : Thread nD τ).loc b)) (c : Dev nD) : Cert.Spec.SNodes.Idx → EReal :=
  layerInL0 V c

/-- The array of graph ids the region finds: one column over the nodes. -/
abbrev idsArrL0 (V : (c : Dev nD) → (b : Ref sig .tc) → Buf (Elt Ideal) ((c : Thread nD τ).loc b)) (c : Dev nD) : Vec Ideal S50000x1 .i32 := V c (Pipeline.arrRef spec0 2)

/-- The tile of graph ids point t reads. -/
abbrev idsBlkL0 (V : (c : Dev nD) → (b : Ref sig .tc) → Buf (Elt Ideal) ((c : Thread nD τ).loc b)) (c : Dev nD) (t : Fin cfg0.N) : Vec Ideal S1000x1 .i32 := iblkL0 V c 2 t

/-- The graph id of every node, read off the one-column array the region finds. -/
abbrev idsL0 (V : (c : Dev nD) → (b : Ref sig .tc) → Buf (Elt Ideal) ((c : Thread nD τ).loc b)) (c : Dev nD) : Cert.Spec.SIds.Idx → BitVec 32 :=
  fun i => idsArrL0 V c (ix2 (i 0) 0)

/-! ## Fifty tiles of a thousand rows are the fifty thousand nodes -/

/-- A sum over the tiles of the sums over a tile's rows is the sum over the nodes. -/
theorem sumTilesRows_L0 {M : Type*} [AddCommMonoid M] (f : ℕ → M) :
    ∑ s ∈ Finset.range 50, ∑ r : Fin 1000, f (1000 * s + r.val) = ∑ n : Fin 50000, f n.val := by
  rw [Finset.sum_range (fun s => ∑ r : Fin 1000, f (1000 * s + r.val))]
  rw [← Fintype.sum_prod_type' (fun (s : Fin 50) (r : Fin 1000) => f (1000 * s.val + r.val))]
  refine (Fintype.sum_congr _ _ fun p => ?_).trans (Equiv.sum_comp (finProdFinEquiv (m := 50) (n := 1000)) (fun n => f n.val))
  show f (1000 * p.1.val + p.2.val) = f (p.2.val + 1000 * p.1.val)
  rw [add_comm]

/-! ## Row r of tile t is node 1000 t + r -/

/-- The graph-id window's block index at point t is (t, 0). -/
theorem idsIndex_L0 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The tile's graph id at row r is the id of node 1000 t + r. -/
theorem idsBlk_L0 (V : (c : Dev nD) → (b : Ref sig .tc) → Buf (Elt Ideal) ((c : Thread nD τ).loc b)) (c : Dev nD) (t : Fin cfg0.N) (r : Fin 1000) (hk : 1000 * t.val + r.val < 50000) :
    idsBlkL0 V c t (ix2 r 0) = idsArrL0 V c (ix2 ⟨1000 * t.val + r.val, hk⟩ 0) := by
  have hi := idsIndex_L0 t
  unfold idsBlkL0 idsArrL0 iblkL0
  rw [View.read_apply]
  show V c (Pipeline.arrRef spec0 2) _ = V c (Pipeline.arrRef spec0 2) _
  congr 1
  funext a
  apply Fin.ext
  match a with
  | ⟨0, _⟩ => show win0_2.index t 0 * 1000 + 1 * r.val = 1000 * t.val + r.val; rw [hi.1]; omega
  | ⟨1, _⟩ => show win0_2.index t 1 * 1 + 1 * 0 = 0; rw [hi.2]

/-- What node k adds to the pool of graph g at feature d: its row of the layer if its id is g (nothing past the last node). -/
def nodeTermL0 (V : (c : Dev nD) → (b : Ref sig .tc) → Buf (Elt Ideal) ((c : Thread nD τ).loc b)) (c : Dev nD) (g : Fin 512) (d : Fin 128) (k : ℕ) : EReal :=
  if h : k < 50000 then (if (idsL0 V c (ix1 ⟨k, h⟩)).toInt = (g.val : ℤ) then layerL0 V c (ix2 ⟨k, h⟩ d) else 0) else 0

theorem nodeTerm_of_L0 (V : (c : Dev nD) → (b : Ref sig .tc) → Buf (Elt Ideal) ((c : Thread nD τ).loc b)) (c : Dev nD) (g : Fin 512) (d : Fin 128) (k : ℕ) (hk : k < 50000) (w : BitVec 32) (x : EReal)
    (hw : w = idsArrL0 V c (ix2 ⟨k, hk⟩ 0))
    (hx : x = Cert.Spec.layerAt (aggArrL0 V c) (hArrL0 V c) (w1ArrL0 V c) (b1ArrL0 V c) (g1ArrL0 V c) (be1ArrL0 V c) (mu1ArrL0 V c) (va1ArrL0 V c) (w2ArrL0 V c) (b2ArrL0 V c) (goArrL0 V c) (beoArrL0 V c) (muoArrL0 V c) (vaoArrL0 V c) ⟨k, hk⟩ d) :
    (if w.toInt = (g.val : ℤ) then x else 0) = nodeTermL0 V c g d k := by
  subst hw hx
  unfold nodeTermL0
  rw [dif_pos hk]
  rfl

/-- One tile's part of the pool: the sum over its rows of the nodes' terms. -/
theorem tilePool_L0 (V : (c : Dev nD) → (b : Ref sig .tc) → Buf (Elt Ideal) ((c : Thread nD τ).loc b)) (c : Dev nD) (t : Fin cfg0.N) (g : Fin 512) (d : Fin 128) :
    k0_pay5 (k0_pay3 (aggBlkL0 V c t) (hBlkL0 V c t) (w1BlkL0 V c t) (b1BlkL0 V c t) (mu1BlkL0 V c t) (va1BlkL0 V c t) (g1BlkL0 V c t) (be1BlkL0 V c t)) (w2BlkL0 V c t) (b2BlkL0 V c t) (muoBlkL0 V c t) (vaoBlkL0 V c t) (goBlkL0 V c t) (beoBlkL0 V c t) (idsBlkL0 V c t) (ix2 g d)
      = ∑ r : Fin 1000, nodeTermL0 V c g d (1000 * t.val + r.val) := by
  refine (pay5_applyL0 _ _ _ _ _ _ _ _ g d).trans ?_
  refine Finset.sum_congr rfl fun r _ => ?_
  exact nodeTerm_of_L0 V c g d _ (node_ltL0 t r) _ _ (idsBlk_L0 V c t r (node_ltL0 t r)) ((congrFun (hOutL0_blocks V c t) (ix2 r d)).symm.trans (hOutL0_row V c t r d))

/-! ## The accumulator after point n: the nodes of tiles 0 … n -/

theorem poolAt_apply_L0 (V : (c : Dev nD) → (b : Ref sig .tc) → Buf (Elt Ideal) ((c : Thread nD τ).loc b)) (c : Dev nD) : ∀ (n : ℕ) (hn : n < cfg0.N) (g : Fin 512) (d : Fin 128),
    poolAtL0 V c n hn (ix2 g d) = ∑ s ∈ Finset.range (n + 1), ∑ r : Fin 1000, nodeTermL0 V c g d (1000 * s + r.val)
  | 0, h0, g, d => by
    refine (congrFun (poolAtL0_zero V c h0) (ix2 g d)).trans ?_
    refine (pay1_applyL0 _ _ _).trans ?_
    rw [pay2_applyL0, zero_add, Finset.sum_range_one]
    exact tilePool_L0 V c ⟨0, h0⟩ g d
  | n + 1, hn, g, d => by
    refine (congrFun (poolAtL0_succ V c n hn) (ix2 g d)).trans ?_
    refine (pay1_applyL0 _ _ _).trans ?_
    rw [Finset.sum_range_succ _ (n + 1)]
    exact congrArg₂ (· + ·) (poolAt_apply_L0 V c n _ g d) (tilePool_L0 V c ⟨n + 1, hn⟩ g d)

/-! ## The one write-back, after the last point, writes the whole array -/

theorem lastL0 : 49 < cfg0.N := by rw [show cfg0.N = 50 from N_0]; omega

/-- The accumulator window's block index is (0, 0) at every point. -/
theorem poolIndex_L0 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

/-- The accumulator's one block is the whole array: of any contents of the block, what a write-back moves is what is
    read of them through the block. -/
theorem cutPool_L0 (X : Vec Ideal S512x128 .f32) :
    (cfg0.win 16).cut (grid0.coords ⟨49, lastL0⟩) X = ((cfg0.win 16).blk ⟨49, lastL0⟩).view.read (Elt Ideal) X := by
  have hz' : (fun a => win0_16.index ⟨49, lastL0⟩ a * (Pipeline.arrRef spec0 16).ty.shape.size a) = fun _ => 0 :=
    funext fun a => by
      match a with
      | ⟨0, _⟩ => show win0_16.index ⟨49, lastL0⟩ 0 * _ = 0; rw [(poolIndex_L0 _).1, Nat.zero_mul]
      | ⟨1, _⟩ => show win0_16.index ⟨49, lastL0⟩ 1 * _ = 0; rw [(poolIndex_L0 _).2, Nat.zero_mul]
  exact (Memref.read_access_unit_zero (Elt Ideal) (Pipeline.arrRef spec0 16) hz' (fun a => by rw [congrFun hz' a]; simp) X).symm

theorem flushedPool_L0 (V : (c : Dev nD) → (b : Ref sig .tc) → Buf (Elt Ideal) ((c : Thread nD τ).loc b)) (c : Dev nD) (t : Fin cfg0.N) (hf : (cfg0.win 16).flush t = true) :
    (datL0 V c).flushed 16 t = ((cfg0.win 16).blk t).view.read (Elt Ideal) (poolAtL0 V c 49 lastL0) := by
  have hN : cfg0.N = 50 := N_0
  have h49 : t.val = 49 := by have := (flush0_16 t).mp hf; have := t.isLt; omega
  obtain rfl : t = ⟨49, lastL0⟩ := Fin.ext h49
  show (cfg0.win 16).cut (grid0.coords ⟨49, lastL0⟩) ((datL0 V c).after 16 ⟨49, lastL0⟩) = _
  rw [after16_L0]
  exact cutPool_L0 _

/-- The pool array after the region is what the last point left in the accumulator. -/
theorem poolArr_L0 (V : (c : Dev nD) → (b : Ref sig .tc) → Buf (Elt Ideal) ((c : Thread nD τ).loc b)) (c : Dev nD) : (datL0 V c).arrAt 16 cfg0.N = poolAtL0 V c 49 lastL0 :=
  (datL0 V c).arrAt_eq_of_cover 16 (poolAtL0 V c 49 lastL0) (flushedPool_L0 V c) fun i =>
    ⟨⟨49, lastL0⟩, (flush0_16 _).mpr rfl, by
      show i ∈ ((View.whole (Pipeline.arrRef spec0 16)).slice (win0_16.rect ⟨49, lastL0⟩)).set
      rw [View.set_slice_whole, Rect.mem_set_unit]
      intro a
      have h0 : (i 0 : Nat) < 512 := (i 0).isLt
      have h1 : (i 1 : Nat) < 128 := (i 1).isLt
      match a with
      | ⟨0, _⟩ => show win0_16.index ⟨49, lastL0⟩ 0 * win0_16.size 0 ≤ (i 0 : Nat) ∧ (i 0 : Nat) < win0_16.index ⟨49, lastL0⟩ 0 * win0_16.size 0 + win0_16.xsize (grid0.coords ⟨49, lastL0⟩) 0
                  rw [(poolIndex_L0 _).1, show win0_16.xsize (grid0.coords ⟨49, lastL0⟩) 0 = 512 from rfl]; omega
      | ⟨1, _⟩ => show win0_16.index ⟨49, lastL0⟩ 1 * win0_16.size 1 ≤ (i 1 : Nat) ∧ (i 1 : Nat) < win0_16.index ⟨49, lastL0⟩ 1 * win0_16.size 1 + win0_16.xsize (grid0.coords ⟨49, lastL0⟩) 1
                  rw [(poolIndex_L0 _).2, show win0_16.xsize (grid0.coords ⟨49, lastL0⟩) 1 = 128 from rfl]; omega⟩

/-! ## The pool the region leaves is the specification's pool of the layer -/

/-- After the last point the accumulator holds, at graph g and feature d, the specification's pool of the layer. -/
theorem poolLast_L0 (V : (c : Dev nD) → (b : Ref sig .tc) → Buf (Elt Ideal) ((c : Thread nD τ).loc b)) (c : Dev nD) (g : Fin 512) (d : Fin 128) :
    poolAtL0 V c 49 lastL0 (ix2 g d) = Cert.Spec.poolAt (layerInL0 V c) (idsL0 V c) g d := by
  refine (poolAt_apply_L0 V c 49 lastL0 g d).trans ?_
  refine (sumTilesRows_L0 (nodeTermL0 V c g d)).trans ?_
  unfold Cert.Spec.poolAt
  refine Finset.sum_congr rfl fun n _ => ?_
  unfold nodeTermL0
  rw [dif_pos n.isLt]

theorem pool_L0 (V : (c : Dev nD) → (b : Ref sig .tc) → Buf (Elt Ideal) ((c : Thread nD τ).loc b)) (c : Dev nD) :
    ((datL0 (F := Ideal) V c).arrAt 16 cfg0.N : S512x128.Idx → EReal) = Cert.Spec.pool (layerInL0 V c) (idsL0 V c) := by
  refine (poolArr_L0 V c).trans (funext fun (j : S512x128.Idx) => ?_)
  refine (congrArg (poolAtL0 V c 49 lastL0) (eq_ix2 j)).trans ?_
  exact poolLast_L0 V c (j 0) (j 1)

end Cert.KernelIdeal.Hand

end
-- ==== Proof.KI.L1Pool.lean ====
/-
  Layer region 1: the pool its points leave in the resident accumulator is the specification's pool of the layer's new
  node features. Point t adds, to what the points before it left (nothing at point 0), the one-hot contraction of the
  tile's graph ids with the tile's new features; row r of tile t is node 1000 t + r; the fifty tiles of a thousand rows
  are the fifty thousand nodes; the accumulator's one block is the whole array, written back once, after the last point.
-/
import proofs.«426741_j36421322670671_1_alg».proof.Proof.KI.L1Dat
import proofs.«426741_j36421322670671_1_alg».proof.Proof.KI.L1Pieces
import proofs.«426741_j36421322670671_1_alg».proof.Proof.KI.L1HNew
import proofs.«426741_j36421322670671_1_alg».proof.Proof.KI.LayerPay
import proofs.«426741_j36421322670671_1_alg».proof.Proof.Spec
import Idealize.ShloMosaic.Lib.Pipeline.Value
import Idealize.ShloMosaic.Lib.ValueIdx
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The layer of the specification on the arrays the region finds. -/
abbrev layerL1 (V : (c : Dev nD) → (b : Ref sig .tc) → Buf (Elt Ideal) ((c : Thread nD τ).loc b)) (c : Dev nD) : Cert.Spec.SNodes.Idx → EReal :=
  layerInL1 V c

/-- The array of graph ids the region finds: one column over the nodes. -/
abbrev idsArrL1 (V : (c : Dev nD) → (b : Ref sig .tc) → Buf (Elt Ideal) ((c : Thread nD τ).loc b)) (c : Dev nD) : Vec Ideal S50000x1 .i32 := V c (Pipeline.arrRef spec1 2)

/-- The tile of graph ids point t reads. -/
abbrev idsBlkL1 (V : (c : Dev nD) → (b : Ref sig .tc) → Buf (Elt Ideal) ((c : Thread nD τ).loc b)) (c : Dev nD) (t : Fin cfg1.N) : Vec Ideal S1000x1 .i32 := iblkL1 V c 2 t

/-- The graph id of every node, read off the one-column array the region finds. -/
abbrev idsL1 (V : (c : Dev nD) → (b : Ref sig .tc) → Buf (Elt Ideal) ((c : Thread nD τ).loc b)) (c : Dev nD) : Cert.Spec.SIds.Idx → BitVec 32 :=
  fun i => idsArrL1 V c (ix2 (i 0) 0)

/-! ## Fifty tiles of a thousand rows are the fifty thousand nodes -/

/-- A sum over the tiles of the sums over a tile's rows is the sum over the nodes. -/
theorem sumTilesRows_L1 {M : Type*} [AddCommMonoid M] (f : ℕ → M) :
    ∑ s ∈ Finset.range 50, ∑ r : Fin 1000, f (1000 * s + r.val) = ∑ n : Fin 50000, f n.val := by
  rw [Finset.sum_range (fun s => ∑ r : Fin 1000, f (1000 * s + r.val))]
  rw [← Fintype.sum_prod_type' (fun (s : Fin 50) (r : Fin 1000) => f (1000 * s.val + r.val))]
  refine (Fintype.sum_congr _ _ fun p => ?_).trans (Equiv.sum_comp (finProdFinEquiv (m := 50) (n := 1000)) (fun n => f n.val))
  show f (1000 * p.1.val + p.2.val) = f (p.2.val + 1000 * p.1.val)
  rw [add_comm]

/-! ## Row r of tile t is node 1000 t + r -/

/-- The graph-id window's block index at point t is (t, 0). -/
theorem idsIndex_L1 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

/-- The tile's graph id at row r is the id of node 1000 t + r. -/
theorem idsBlk_L1 (V : (c : Dev nD) → (b : Ref sig .tc) → Buf (Elt Ideal) ((c : Thread nD τ).loc b)) (c : Dev nD) (t : Fin cfg1.N) (r : Fin 1000) (hk : 1000 * t.val + r.val < 50000) :
    idsBlkL1 V c t (ix2 r 0) = idsArrL1 V c (ix2 ⟨1000 * t.val + r.val, hk⟩ 0) := by
  have hi := idsIndex_L1 t
  unfold idsBlkL1 idsArrL1 iblkL1
  rw [View.read_apply]
  show V c (Pipeline.arrRef spec1 2) _ = V c (Pipeline.arrRef spec1 2) _
  congr 1
  funext a
  apply Fin.ext
  match a with
  | ⟨0, _⟩ => show win1_2.index t 0 * 1000 + 1 * r.val = 1000 * t.val + r.val; rw [hi.1]; omega
  | ⟨1, _⟩ => show win1_2.index t 1 * 1 + 1 * 0 = 0; rw [hi.2]

/-- What node k adds to the pool of graph g at feature d: its row of the layer if its id is g (nothing past the last node). -/
def nodeTermL1 (V : (c : Dev nD) → (b : Ref sig .tc) → Buf (Elt Ideal) ((c : Thread nD τ).loc b)) (c : Dev nD) (g : Fin 512) (d : Fin 128) (k : ℕ) : EReal :=
  if h : k < 50000 then (if (idsL1 V c (ix1 ⟨k, h⟩)).toInt = (g.val : ℤ) then layerL1 V c (ix2 ⟨k, h⟩ d) else 0) else 0

theorem nodeTerm_of_L1 (V : (c : Dev nD) → (b : Ref sig .tc) → Buf (Elt Ideal) ((c : Thread nD τ).loc b)) (c : Dev nD) (g : Fin 512) (d : Fin 128) (k : ℕ) (hk : k < 50000) (w : BitVec 32) (x : EReal)
    (hw : w = idsArrL1 V c (ix2 ⟨k, hk⟩ 0))
    (hx : x = Cert.Spec.layerAt (aggArrL1 V c) (hArrL1 V c) (w1ArrL1 V c) (b1ArrL1 V c) (g1ArrL1 V c) (be1ArrL1 V c) (mu1ArrL1 V c) (va1ArrL1 V c) (w2ArrL1 V c) (b2ArrL1 V c) (goArrL1 V c) (beoArrL1 V c) (muoArrL1 V c) (vaoArrL1 V c) ⟨k, hk⟩ d) :
    (if w.toInt = (g.val : ℤ) then x else 0) = nodeTermL1 V c g d k := by
  subst hw hx
  unfold nodeTermL1
  rw [dif_pos hk]
  rfl

/-- One tile's part of the pool: the sum over its rows of the nodes' terms. -/
theorem tilePool_L1 (V : (c : Dev nD) → (b : Ref sig .tc) → Buf (Elt Ideal) ((c : Thread nD τ).loc b)) (c : Dev nD) (t : Fin cfg1.N) (g : Fin 512) (d : Fin 128) :
    k1_pay5 (k1_pay3 (aggBlkL1 V c t) (hBlkL1 V c t) (w1BlkL1 V c t) (b1BlkL1 V c t) (mu1BlkL1 V c t) (va1BlkL1 V c t) (g1BlkL1 V c t) (be1BlkL1 V c t)) (w2BlkL1 V c t) (b2BlkL1 V c t) (muoBlkL1 V c t) (vaoBlkL1 V c t) (goBlkL1 V c t) (beoBlkL1 V c t) (idsBlkL1 V c t) (ix2 g d)
      = ∑ r : Fin 1000, nodeTermL1 V c g d (1000 * t.val + r.val) := by
  refine (pay5_applyL1 _ _ _ _ _ _ _ _ g d).trans ?_
  refine Finset.sum_congr rfl fun r _ => ?_
  exact nodeTerm_of_L1 V c g d _ (node_ltL1 t r) _ _ (idsBlk_L1 V c t r (node_ltL1 t r)) ((congrFun (hOutL1_blocks V c t) (ix2 r d)).symm.trans (hOutL1_row V c t r d))

/-! ## The accumulator after point n: the nodes of tiles 0 … n -/

theorem poolAt_apply_L1 (V : (c : Dev nD) → (b : Ref sig .tc) → Buf (Elt Ideal) ((c : Thread nD τ).loc b)) (c : Dev nD) : ∀ (n : ℕ) (hn : n < cfg1.N) (g : Fin 512) (d : Fin 128),
    poolAtL1 V c n hn (ix2 g d) = ∑ s ∈ Finset.range (n + 1), ∑ r : Fin 1000, nodeTermL1 V c g d (1000 * s + r.val)
  | 0, h0, g, d => by
    refine (congrFun (poolAtL1_zero V c h0) (ix2 g d)).trans ?_
    refine (pay1_applyL1 _ _ _).trans ?_
    rw [pay2_applyL1, zero_add, Finset.sum_range_one]
    exact tilePool_L1 V c ⟨0, h0⟩ g d
  | n + 1, hn, g, d => by
    refine (congrFun (poolAtL1_succ V c n hn) (ix2 g d)).trans ?_
    refine (pay1_applyL1 _ _ _).trans ?_
    rw [Finset.sum_range_succ _ (n + 1)]
    exact congrArg₂ (· + ·) (poolAt_apply_L1 V c n _ g d) (tilePool_L1 V c ⟨n + 1, hn⟩ g d)

/-! ## The one write-back, after the last point, writes the whole array -/

theorem lastL1 : 49 < cfg1.N := by rw [show cfg1.N = 50 from N_1]; omega

/-- The accumulator window's block index is (0, 0) at every point. -/
theorem poolIndex_L1 : ∀ t : Fin cfg1.N, win1_16.index t (0 : Fin 2) = 0 ∧ win1_16.index t (1 : Fin 2) = 0 :=
  (by decide +kernel : ∀ t : Fin grid1.N, win1_16.index t (0 : Fin 2) = 0 ∧ win1_16.index t (1 : Fin 2) = 0)

/-- The accumulator's one block is the whole array: of any contents of the block, what a write-back moves is what is
    read of them through the block. -/
theorem cutPool_L1 (X : Vec Ideal S512x128 .f32) :
    (cfg1.win 16).cut (grid1.coords ⟨49, lastL1⟩) X = ((cfg1.win 16).blk ⟨49, lastL1⟩).view.read (Elt Ideal) X := by
  have hz' : (fun a => win1_16.index ⟨49, lastL1⟩ a * (Pipeline.arrRef spec1 16).ty.shape.size a) = fun _ => 0 :=
    funext fun a => by
      match a with
      | ⟨0, _⟩ => show win1_16.index ⟨49, lastL1⟩ 0 * _ = 0; rw [(poolIndex_L1 _).1, Nat.zero_mul]
      | ⟨1, _⟩ => show win1_16.index ⟨49, lastL1⟩ 1 * _ = 0; rw [(poolIndex_L1 _).2, Nat.zero_mul]
  exact (Memref.read_access_unit_zero (Elt Ideal) (Pipeline.arrRef spec1 16) hz' (fun a => by rw [congrFun hz' a]; simp) X).symm

theorem flushedPool_L1 (V : (c : Dev nD) → (b : Ref sig .tc) → Buf (Elt Ideal) ((c : Thread nD τ).loc b)) (c : Dev nD) (t : Fin cfg1.N) (hf : (cfg1.win 16).flush t = true) :
    (datL1 V c).flushed 16 t = ((cfg1.win 16).blk t).view.read (Elt Ideal) (poolAtL1 V c 49 lastL1) := by
  have hN : cfg1.N = 50 := N_1
  have h49 : t.val = 49 := by have := (flush1_16 t).mp hf; have := t.isLt; omega
  obtain rfl : t = ⟨49, lastL1⟩ := Fin.ext h49
  show (cfg1.win 16).cut (grid1.coords ⟨49, lastL1⟩) ((datL1 V c).after 16 ⟨49, lastL1⟩) = _
  rw [after16_L1]
  exact cutPool_L1 _

/-- The pool array after the region is what the last point left in the accumulator. -/
theorem poolArr_L1 (V : (c : Dev nD) → (b : Ref sig .tc) → Buf (Elt Ideal) ((c : Thread nD τ).loc b)) (c : Dev nD) : (datL1 V c).arrAt 16 cfg1.N = poolAtL1 V c 49 lastL1 :=
  (datL1 V c).arrAt_eq_of_cover 16 (poolAtL1 V c 49 lastL1) (flushedPool_L1 V c) fun i =>
    ⟨⟨49, lastL1⟩, (flush1_16 _).mpr rfl, by
      show i ∈ ((View.whole (Pipeline.arrRef spec1 16)).slice (win1_16.rect ⟨49, lastL1⟩)).set
      rw [View.set_slice_whole, Rect.mem_set_unit]
      intro a
      have h0 : (i 0 : Nat) < 512 := (i 0).isLt
      have h1 : (i 1 : Nat) < 128 := (i 1).isLt
      match a with
      | ⟨0, _⟩ => show win1_16.index ⟨49, lastL1⟩ 0 * win1_16.size 0 ≤ (i 0 : Nat) ∧ (i 0 : Nat) < win1_16.index ⟨49, lastL1⟩ 0 * win1_16.size 0 + win1_16.xsize (grid1.coords ⟨49, lastL1⟩) 0
                  rw [(poolIndex_L1 _).1, show win1_16.xsize (grid1.coords ⟨49, lastL1⟩) 0 = 512 from rfl]; omega
      | ⟨1, _⟩ => show win1_16.index ⟨49, lastL1⟩ 1 * win1_16.size 1 ≤ (i 1 : Nat) ∧ (i 1 : Nat) < win1_16.index ⟨49, lastL1⟩ 1 * win1_16.size 1 + win1_16.xsize (grid1.coords ⟨49, lastL1⟩) 1
                  rw [(poolIndex_L1 _).2, show win1_16.xsize (grid1.coords ⟨49, lastL1⟩) 1 = 128 from rfl]; omega⟩

/-! ## The pool the region leaves is the specification's pool of the layer -/

/-- After the last point the accumulator holds, at graph g and feature d, the specification's pool of the layer. -/
theorem poolLast_L1 (V : (c : Dev nD) → (b : Ref sig .tc) → Buf (Elt Ideal) ((c : Thread nD τ).loc b)) (c : Dev nD) (g : Fin 512) (d : Fin 128) :
    poolAtL1 V c 49 lastL1 (ix2 g d) = Cert.Spec.poolAt (layerInL1 V c) (idsL1 V c) g d := by
  refine (poolAt_apply_L1 V c 49 lastL1 g d).trans ?_
  refine (sumTilesRows_L1 (nodeTermL1 V c g d)).trans ?_
  unfold Cert.Spec.poolAt
  refine Finset.sum_congr rfl fun n _ => ?_
  unfold nodeTermL1
  rw [dif_pos n.isLt]

theorem pool_L1 (V : (c : Dev nD) → (b : Ref sig .tc) → Buf (Elt Ideal) ((c : Thread nD τ).loc b)) (c : Dev nD) :
    ((datL1 (F := Ideal) V c).arrAt 16 cfg1.N : S512x128.Idx → EReal) = Cert.Spec.pool (layerInL1 V c) (idsL1 V c) := by
  refine (poolArr_L1 V c).trans (funext fun (j : S512x128.Idx) => ?_)
  refine (congrArg (poolAtL1 V c 49 lastL1) (eq_ix2 j)).trans ?_
  exact poolLast_L1 V c (j 0) (j 1)

end Cert.KernelIdeal.Hand

end
-- ==== Proof.KI.L2Pool.lean ====
/-
  Layer region 2: the pool its points leave in the resident accumulator is the specification's pool of the layer's new
  node features. Point t adds, to what the points before it left (nothing at point 0), the one-hot contraction of the
  tile's graph ids with the tile's new features; row r of tile t is node 1000 t + r; the fifty tiles of a thousand rows
  are the fifty thousand nodes; the accumulator's one block is the whole array, written back once, after the last point.
-/
import proofs.«426741_j36421322670671_1_alg».proof.Proof.KI.L2Dat
import proofs.«426741_j36421322670671_1_alg».proof.Proof.KI.L2Pieces
import proofs.«426741_j36421322670671_1_alg».proof.Proof.KI.L2HNew
import proofs.«426741_j36421322670671_1_alg».proof.Proof.KI.LayerPay
import proofs.«426741_j36421322670671_1_alg».proof.Proof.Spec
import Idealize.ShloMosaic.Lib.Pipeline.Value
import Idealize.ShloMosaic.Lib.ValueIdx
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The layer of the specification on the arrays the region finds. -/
abbrev layerL2 (V : (c : Dev nD) → (b : Ref sig .tc) → Buf (Elt Ideal) ((c : Thread nD τ).loc b)) (c : Dev nD) : Cert.Spec.SNodes.Idx → EReal :=
  layerInL2 V c

/-- The array of graph ids the region finds: one column over the nodes. -/
abbrev idsArrL2 (V : (c : Dev nD) → (b : Ref sig .tc) → Buf (Elt Ideal) ((c : Thread nD τ).loc b)) (c : Dev nD) : Vec Ideal S50000x1 .i32 := V c (Pipeline.arrRef spec2 2)

/-- The tile of graph ids point t reads. -/
abbrev idsBlkL2 (V : (c : Dev nD) → (b : Ref sig .tc) → Buf (Elt Ideal) ((c : Thread nD τ).loc b)) (c : Dev nD) (t : Fin cfg2.N) : Vec Ideal S1000x1 .i32 := iblkL2 V c 2 t

/-- The graph id of every node, read off the one-column array the region finds. -/
abbrev idsL2 (V : (c : Dev nD) → (b : Ref sig .tc) → Buf (Elt Ideal) ((c : Thread nD τ).loc b)) (c : Dev nD) : Cert.Spec.SIds.Idx → BitVec 32 :=
  fun i => idsArrL2 V c (ix2 (i 0) 0)

/-! ## Fifty tiles of a thousand rows are the fifty thousand nodes -/

/-- A sum over the tiles of the sums over a tile's rows is the sum over the nodes. -/
theorem sumTilesRows_L2 {M : Type*} [AddCommMonoid M] (f : ℕ → M) :
    ∑ s ∈ Finset.range 50, ∑ r : Fin 1000, f (1000 * s + r.val) = ∑ n : Fin 50000, f n.val := by
  rw [Finset.sum_range (fun s => ∑ r : Fin 1000, f (1000 * s + r.val))]
  rw [← Fintype.sum_prod_type' (fun (s : Fin 50) (r : Fin 1000) => f (1000 * s.val + r.val))]
  refine (Fintype.sum_congr _ _ fun p => ?_).trans (Equiv.sum_comp (finProdFinEquiv (m := 50) (n := 1000)) (fun n => f n.val))
  show f (1000 * p.1.val + p.2.val) = f (p.2.val + 1000 * p.1.val)
  rw [add_comm]

/-! ## Row r of tile t is node 1000 t + r -/

/-- The graph-id window's block index at point t is (t, 0). -/
theorem idsIndex_L2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)

/-- The tile's graph id at row r is the id of node 1000 t + r. -/
theorem idsBlk_L2 (V : (c : Dev nD) → (b : Ref sig .tc) → Buf (Elt Ideal) ((c : Thread nD τ).loc b)) (c : Dev nD) (t : Fin cfg2.N) (r : Fin 1000) (hk : 1000 * t.val + r.val < 50000) :
    idsBlkL2 V c t (ix2 r 0) = idsArrL2 V c (ix2 ⟨1000 * t.val + r.val, hk⟩ 0) := by
  have hi := idsIndex_L2 t
  unfold idsBlkL2 idsArrL2 iblkL2
  rw [View.read_apply]
  show V c (Pipeline.arrRef spec2 2) _ = V c (Pipeline.arrRef spec2 2) _
  congr 1
  funext a
  apply Fin.ext
  match a with
  | ⟨0, _⟩ => show win2_2.index t 0 * 1000 + 1 * r.val = 1000 * t.val + r.val; rw [hi.1]; omega
  | ⟨1, _⟩ => show win2_2.index t 1 * 1 + 1 * 0 = 0; rw [hi.2]

/-- What node k adds to the pool of graph g at feature d: its row of the layer if its id is g (nothing past the last node). -/
def nodeTermL2 (V : (c : Dev nD) → (b : Ref sig .tc) → Buf (Elt Ideal) ((c : Thread nD τ).loc b)) (c : Dev nD) (g : Fin 512) (d : Fin 128) (k : ℕ) : EReal :=
  if h : k < 50000 then (if (idsL2 V c (ix1 ⟨k, h⟩)).toInt = (g.val : ℤ) then layerL2 V c (ix2 ⟨k, h⟩ d) else 0) else 0

theorem nodeTerm_of_L2 (V : (c : Dev nD) → (b : Ref sig .tc) → Buf (Elt Ideal) ((c : Thread nD τ).loc b)) (c : Dev nD) (g : Fin 512) (d : Fin 128) (k : ℕ) (hk : k < 50000) (w : BitVec 32) (x : EReal)
    (hw : w = idsArrL2 V c (ix2 ⟨k, hk⟩ 0))
    (hx : x = Cert.Spec.layerAt (aggArrL2 V c) (hArrL2 V c) (w1ArrL2 V c) (b1ArrL2 V c) (g1ArrL2 V c) (be1ArrL2 V c) (mu1ArrL2 V c) (va1ArrL2 V c) (w2ArrL2 V c) (b2ArrL2 V c) (goArrL2 V c) (beoArrL2 V c) (muoArrL2 V c) (vaoArrL2 V c) ⟨k, hk⟩ d) :
    (if w.toInt = (g.val : ℤ) then x else 0) = nodeTermL2 V c g d k := by
  subst hw hx
  unfold nodeTermL2
  rw [dif_pos hk]
  rfl

/-- One tile's part of the pool: the sum over its rows of the nodes' terms. -/
theorem tilePool_L2 (V : (c : Dev nD) → (b : Ref sig .tc) → Buf (Elt Ideal) ((c : Thread nD τ).loc b)) (c : Dev nD) (t : Fin cfg2.N) (g : Fin 512) (d : Fin 128) :
    k2_pay5 (k2_pay3 (aggBlkL2 V c t) (hBlkL2 V c t) (w1BlkL2 V c t) (b1BlkL2 V c t) (mu1BlkL2 V c t) (va1BlkL2 V c t) (g1BlkL2 V c t) (be1BlkL2 V c t)) (w2BlkL2 V c t) (b2BlkL2 V c t) (muoBlkL2 V c t) (vaoBlkL2 V c t) (goBlkL2 V c t) (beoBlkL2 V c t) (idsBlkL2 V c t) (ix2 g d)
      = ∑ r : Fin 1000, nodeTermL2 V c g d (1000 * t.val + r.val) := by
  refine (pay5_applyL2 _ _ _ _ _ _ _ _ g d).trans ?_
  refine Finset.sum_congr rfl fun r _ => ?_
  exact nodeTerm_of_L2 V c g d _ (node_ltL2 t r) _ _ (idsBlk_L2 V c t r (node_ltL2 t r)) ((congrFun (hOutL2_blocks V c t) (ix2 r d)).symm.trans (hOutL2_row V c t r d))

/-! ## The accumulator after point n: the nodes of tiles 0 … n -/

theorem poolAt_apply_L2 (V : (c : Dev nD) → (b : Ref sig .tc) → Buf (Elt Ideal) ((c : Thread nD τ).loc b)) (c : Dev nD) : ∀ (n : ℕ) (hn : n < cfg2.N) (g : Fin 512) (d : Fin 128),
    poolAtL2 V c n hn (ix2 g d) = ∑ s ∈ Finset.range (n + 1), ∑ r : Fin 1000, nodeTermL2 V c g d (1000 * s + r.val)
  | 0, h0, g, d => by
    refine (congrFun (poolAtL2_zero V c h0) (ix2 g d)).trans ?_
    refine (pay1_applyL2 _ _ _).trans ?_
    rw [pay2_applyL2, zero_add, Finset.sum_range_one]
    exact tilePool_L2 V c ⟨0, h0⟩ g d
  | n + 1, hn, g, d => by
    refine (congrFun (poolAtL2_succ V c n hn) (ix2 g d)).trans ?_
    refine (pay1_applyL2 _ _ _).trans ?_
    rw [Finset.sum_range_succ _ (n + 1)]
    exact congrArg₂ (· + ·) (poolAt_apply_L2 V c n _ g d) (tilePool_L2 V c ⟨n + 1, hn⟩ g d)

/-! ## The one write-back, after the last point, writes the whole array -/

theorem lastL2 : 49 < cfg2.N := by rw [show cfg2.N = 50 from N_2]; omega

/-- The accumulator window's block index is (0, 0) at every point. -/
theorem poolIndex_L2 : ∀ t : Fin cfg2.N, win2_16.index t (0 : Fin 2) = 0 ∧ win2_16.index t (1 : Fin 2) = 0 :=
  (by decide +kernel : ∀ t : Fin grid2.N, win2_16.index t (0 : Fin 2) = 0 ∧ win2_16.index t (1 : Fin 2) = 0)

/-- The accumulator's one block is the whole array: of any contents of the block, what a write-back moves is what is
    read of them through the block. -/
theorem cutPool_L2 (X : Vec Ideal S512x128 .f32) :
    (cfg2.win 16).cut (grid2.coords ⟨49, lastL2⟩) X = ((cfg2.win 16).blk ⟨49, lastL2⟩).view.read (Elt Ideal) X := by
  have hz' : (fun a => win2_16.index ⟨49, lastL2⟩ a * (Pipeline.arrRef spec2 16).ty.shape.size a) = fun _ => 0 :=
    funext fun a => by
      match a with
      | ⟨0, _⟩ => show win2_16.index ⟨49, lastL2⟩ 0 * _ = 0; rw [(poolIndex_L2 _).1, Nat.zero_mul]
      | ⟨1, _⟩ => show win2_16.index ⟨49, lastL2⟩ 1 * _ = 0; rw [(poolIndex_L2 _).2, Nat.zero_mul]
  exact (Memref.read_access_unit_zero (Elt Ideal) (Pipeline.arrRef spec2 16) hz' (fun a => by rw [congrFun hz' a]; simp) X).symm

theorem flushedPool_L2 (V : (c : Dev nD) → (b : Ref sig .tc) → Buf (Elt Ideal) ((c : Thread nD τ).loc b)) (c : Dev nD) (t : Fin cfg2.N) (hf : (cfg2.win 16).flush t = true) :
    (datL2 V c).flushed 16 t = ((cfg2.win 16).blk t).view.read (Elt Ideal) (poolAtL2 V c 49 lastL2) := by
  have hN : cfg2.N = 50 := N_2
  have h49 : t.val = 49 := by have := (flush2_16 t).mp hf; have := t.isLt; omega
  obtain rfl : t = ⟨49, lastL2⟩ := Fin.ext h49
  show (cfg2.win 16).cut (grid2.coords ⟨49, lastL2⟩) ((datL2 V c).after 16 ⟨49, lastL2⟩) = _
  rw [after16_L2]
  exact cutPool_L2 _

/-- The pool array after the region is what the last point left in the accumulator. -/
theorem poolArr_L2 (V : (c : Dev nD) → (b : Ref sig .tc) → Buf (Elt Ideal) ((c : Thread nD τ).loc b)) (c : Dev nD) : (datL2 V c).arrAt 16 cfg2.N = poolAtL2 V c 49 lastL2 :=
  (datL2 V c).arrAt_eq_of_cover 16 (poolAtL2 V c 49 lastL2) (flushedPool_L2 V c) fun i =>
    ⟨⟨49, lastL2⟩, (flush2_16 _).mpr rfl, by
      show i ∈ ((View.whole (Pipeline.arrRef spec2 16)).slice (win2_16.rect ⟨49, lastL2⟩)).set
      rw [View.set_slice_whole, Rect.mem_set_unit]
      intro a
      have h0 : (i 0 : Nat) < 512 := (i 0).isLt
      have h1 : (i 1 : Nat) < 128 := (i 1).isLt
      match a with
      | ⟨0, _⟩ => show win2_16.index ⟨49, lastL2⟩ 0 * win2_16.size 0 ≤ (i 0 : Nat) ∧ (i 0 : Nat) < win2_16.index ⟨49, lastL2⟩ 0 * win2_16.size 0 + win2_16.xsize (grid2.coords ⟨49, lastL2⟩) 0
                  rw [(poolIndex_L2 _).1, show win2_16.xsize (grid2.coords ⟨49, lastL2⟩) 0 = 512 from rfl]; omega
      | ⟨1, _⟩ => show win2_16.index ⟨49, lastL2⟩ 1 * win2_16.size 1 ≤ (i 1 : Nat) ∧ (i 1 : Nat) < win2_16.index ⟨49, lastL2⟩ 1 * win2_16.size 1 + win2_16.xsize (grid2.coords ⟨49, lastL2⟩) 1
                  rw [(poolIndex_L2 _).2, show win2_16.xsize (grid2.coords ⟨49, lastL2⟩) 1 = 128 from rfl]; omega⟩

/-! ## The pool the region leaves is the specification's pool of the layer -/

/-- After the last point the accumulator holds, at graph g and feature d, the specification's pool of the layer. -/
theorem poolLast_L2 (V : (c : Dev nD) → (b : Ref sig .tc) → Buf (Elt Ideal) ((c : Thread nD τ).loc b)) (c : Dev nD) (g : Fin 512) (d : Fin 128) :
    poolAtL2 V c 49 lastL2 (ix2 g d) = Cert.Spec.poolAt (layerInL2 V c) (idsL2 V c) g d := by
  refine (poolAt_apply_L2 V c 49 lastL2 g d).trans ?_
  refine (sumTilesRows_L2 (nodeTermL2 V c g d)).trans ?_
  unfold Cert.Spec.poolAt
  refine Finset.sum_congr rfl fun n _ => ?_
  unfold nodeTermL2
  rw [dif_pos n.isLt]

theorem pool_L2 (V : (c : Dev nD) → (b : Ref sig .tc) → Buf (Elt Ideal) ((c : Thread nD τ).loc b)) (c : Dev nD) :
    ((datL2 (F := Ideal) V c).arrAt 16 cfg2.N : S512x128.Idx → EReal) = Cert.Spec.pool (layerInL2 V c) (idsL2 V c) := by
  refine (poolArr_L2 V c).trans (funext fun (j : S512x128.Idx) => ?_)
  refine (congrArg (poolAtL2 V c 49 lastL2) (eq_ix2 j)).trans ?_
  exact poolLast_L2 V c (j 0) (j 1)

end Cert.KernelIdeal.Hand

end
-- ==== Proof.KI.L3Pool.lean ====
/-
  Layer region 3: the pool its points leave in the resident accumulator is the specification's pool of the layer's new
  node features. Point t adds, to what the points before it left (nothing at point 0), the one-hot contraction of the
  tile's graph ids with the tile's new features; row r of tile t is node 1000 t + r; the fifty tiles of a thousand rows
  are the fifty thousand nodes; the accumulator's one block is the whole array, written back once, after the last point.
-/
import proofs.«426741_j36421322670671_1_alg».proof.Proof.KI.L3Dat
import proofs.«426741_j36421322670671_1_alg».proof.Proof.KI.L3Pieces
import proofs.«426741_j36421322670671_1_alg».proof.Proof.KI.L3HNew
import proofs.«426741_j36421322670671_1_alg».proof.Proof.KI.LayerPay
import proofs.«426741_j36421322670671_1_alg».proof.Proof.Spec
import Idealize.ShloMosaic.Lib.Pipeline.Value
import Idealize.ShloMosaic.Lib.ValueIdx
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The layer of the specification on the arrays the region finds. -/
abbrev layerL3 (V : (c : Dev nD) → (b : Ref sig .tc) → Buf (Elt Ideal) ((c : Thread nD τ).loc b)) (c : Dev nD) : Cert.Spec.SNodes.Idx → EReal :=
  layerInL3 V c

/-- The array of graph ids the region finds: one column over the nodes. -/
abbrev idsArrL3 (V : (c : Dev nD) → (b : Ref sig .tc) → Buf (Elt Ideal) ((c : Thread nD τ).loc b)) (c : Dev nD) : Vec Ideal S50000x1 .i32 := V c (Pipeline.arrRef spec3 2)

/-- The tile of graph ids point t reads. -/
abbrev idsBlkL3 (V : (c : Dev nD) → (b : Ref sig .tc) → Buf (Elt Ideal) ((c : Thread nD τ).loc b)) (c : Dev nD) (t : Fin cfg3.N) : Vec Ideal S1000x1 .i32 := iblkL3 V c 2 t

/-- The graph id of every node, read off the one-column array the region finds. -/
abbrev idsL3 (V : (c : Dev nD) → (b : Ref sig .tc) → Buf (Elt Ideal) ((c : Thread nD τ).loc b)) (c : Dev nD) : Cert.Spec.SIds.Idx → BitVec 32 :=
  fun i => idsArrL3 V c (ix2 (i 0) 0)

/-! ## Fifty tiles of a thousand rows are the fifty thousand nodes -/

/-- A sum over the tiles of the sums over a tile's rows is the sum over the nodes. -/
theorem sumTilesRows_L3 {M : Type*} [AddCommMonoid M] (f : ℕ → M) :
    ∑ s ∈ Finset.range 50, ∑ r : Fin 1000, f (1000 * s + r.val) = ∑ n : Fin 50000, f n.val := by
  rw [Finset.sum_range (fun s => ∑ r : Fin 1000, f (1000 * s + r.val))]
  rw [← Fintype.sum_prod_type' (fun (s : Fin 50) (r : Fin 1000) => f (1000 * s.val + r.val))]
  refine (Fintype.sum_congr _ _ fun p => ?_).trans (Equiv.sum_comp (finProdFinEquiv (m := 50) (n := 1000)) (fun n => f n.val))
  show f (1000 * p.1.val + p.2.val) = f (p.2.val + 1000 * p.1.val)
  rw [add_comm]

/-! ## Row r of tile t is node 1000 t + r -/

/-- The graph-id window's block index at point t is (t, 0). -/
theorem idsIndex_L3 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)

/-- The tile's graph id at row r is the id of node 1000 t + r. -/
theorem idsBlk_L3 (V : (c : Dev nD) → (b : Ref sig .tc) → Buf (Elt Ideal) ((c : Thread nD τ).loc b)) (c : Dev nD) (t : Fin cfg3.N) (r : Fin 1000) (hk : 1000 * t.val + r.val < 50000) :
    idsBlkL3 V c t (ix2 r 0) = idsArrL3 V c (ix2 ⟨1000 * t.val + r.val, hk⟩ 0) := by
  have hi := idsIndex_L3 t
  unfold idsBlkL3 idsArrL3 iblkL3
  rw [View.read_apply]
  show V c (Pipeline.arrRef spec3 2) _ = V c (Pipeline.arrRef spec3 2) _
  congr 1
  funext a
  apply Fin.ext
  match a with
  | ⟨0, _⟩ => show win3_2.index t 0 * 1000 + 1 * r.val = 1000 * t.val + r.val; rw [hi.1]; omega
  | ⟨1, _⟩ => show win3_2.index t 1 * 1 + 1 * 0 = 0; rw [hi.2]

/-- What node k adds to the pool of graph g at feature d: its row of the layer if its id is g (nothing past the last node). -/
def nodeTermL3 (V : (c : Dev nD) → (b : Ref sig .tc) → Buf (Elt Ideal) ((c : Thread nD τ).loc b)) (c : Dev nD) (g : Fin 512) (d : Fin 128) (k : ℕ) : EReal :=
  if h : k < 50000 then (if (idsL3 V c (ix1 ⟨k, h⟩)).toInt = (g.val : ℤ) then layerL3 V c (ix2 ⟨k, h⟩ d) else 0) else 0

theorem nodeTerm_of_L3 (V : (c : Dev nD) → (b : Ref sig .tc) → Buf (Elt Ideal) ((c : Thread nD τ).loc b)) (c : Dev nD) (g : Fin 512) (d : Fin 128) (k : ℕ) (hk : k < 50000) (w : BitVec 32) (x : EReal)
    (hw : w = idsArrL3 V c (ix2 ⟨k, hk⟩ 0))
    (hx : x = Cert.Spec.layerAt (aggArrL3 V c) (hArrL3 V c) (w1ArrL3 V c) (b1ArrL3 V c) (g1ArrL3 V c) (be1ArrL3 V c) (mu1ArrL3 V c) (va1ArrL3 V c) (w2ArrL3 V c) (b2ArrL3 V c) (goArrL3 V c) (beoArrL3 V c) (muoArrL3 V c) (vaoArrL3 V c) ⟨k, hk⟩ d) :
    (if w.toInt = (g.val : ℤ) then x else 0) = nodeTermL3 V c g d k := by
  subst hw hx
  unfold nodeTermL3
  rw [dif_pos hk]
  rfl

/-- One tile's part of the pool: the sum over its rows of the nodes' terms. -/
theorem tilePool_L3 (V : (c : Dev nD) → (b : Ref sig .tc) → Buf (Elt Ideal) ((c : Thread nD τ).loc b)) (c : Dev nD) (t : Fin cfg3.N) (g : Fin 512) (d : Fin 128) :
    k3_pay5 (k3_pay3 (aggBlkL3 V c t) (hBlkL3 V c t) (w1BlkL3 V c t) (b1BlkL3 V c t) (mu1BlkL3 V c t) (va1BlkL3 V c t) (g1BlkL3 V c t) (be1BlkL3 V c t)) (w2BlkL3 V c t) (b2BlkL3 V c t) (muoBlkL3 V c t) (vaoBlkL3 V c t) (goBlkL3 V c t) (beoBlkL3 V c t) (idsBlkL3 V c t) (ix2 g d)
      = ∑ r : Fin 1000, nodeTermL3 V c g d (1000 * t.val + r.val) := by
  refine (pay5_applyL3 _ _ _ _ _ _ _ _ g d).trans ?_
  refine Finset.sum_congr rfl fun r _ => ?_
  exact nodeTerm_of_L3 V c g d _ (node_ltL3 t r) _ _ (idsBlk_L3 V c t r (node_ltL3 t r)) ((congrFun (hOutL3_blocks V c t) (ix2 r d)).symm.trans (hOutL3_row V c t r d))

/-! ## The accumulator after point n: the nodes of tiles 0 … n -/

theorem poolAt_apply_L3 (V : (c : Dev nD) → (b : Ref sig .tc) → Buf (Elt Ideal) ((c : Thread nD τ).loc b)) (c : Dev nD) : ∀ (n : ℕ) (hn : n < cfg3.N) (g : Fin 512) (d : Fin 128),
    poolAtL3 V c n hn (ix2 g d) = ∑ s ∈ Finset.range (n + 1), ∑ r : Fin 1000, nodeTermL3 V c g d (1000 * s + r.val)
  | 0, h0, g, d => by
    refine (congrFun (poolAtL3_zero V c h0) (ix2 g d)).trans ?_
    refine (pay1_applyL3 _ _ _).trans ?_
    rw [pay2_applyL3, zero_add, Finset.sum_range_one]
    exact tilePool_L3 V c ⟨0, h0⟩ g d
  | n + 1, hn, g, d => by
    refine (congrFun (poolAtL3_succ V c n hn) (ix2 g d)).trans ?_
    refine (pay1_applyL3 _ _ _).trans ?_
    rw [Finset.sum_range_succ _ (n + 1)]
    exact congrArg₂ (· + ·) (poolAt_apply_L3 V c n _ g d) (tilePool_L3 V c ⟨n + 1, hn⟩ g d)

/-! ## The one write-back, after the last point, writes the whole array -/

theorem lastL3 : 49 < cfg3.N := by rw [show cfg3.N = 50 from N_3]; omega

/-- The accumulator window's block index is (0, 0) at every point. -/
theorem poolIndex_L3 : ∀ t : Fin cfg3.N, win3_16.index t (0 : Fin 2) = 0 ∧ win3_16.index t (1 : Fin 2) = 0 :=
  (by decide +kernel : ∀ t : Fin grid3.N, win3_16.index t (0 : Fin 2) = 0 ∧ win3_16.index t (1 : Fin 2) = 0)

/-- The accumulator's one block is the whole array: of any contents of the block, what a write-back moves is what is
    read of them through the block. -/
theorem cutPool_L3 (X : Vec Ideal S512x128 .f32) :
    (cfg3.win 16).cut (grid3.coords ⟨49, lastL3⟩) X = ((cfg3.win 16).blk ⟨49, lastL3⟩).view.read (Elt Ideal) X := by
  have hz' : (fun a => win3_16.index ⟨49, lastL3⟩ a * (Pipeline.arrRef spec3 16).ty.shape.size a) = fun _ => 0 :=
    funext fun a => by
      match a with
      | ⟨0, _⟩ => show win3_16.index ⟨49, lastL3⟩ 0 * _ = 0; rw [(poolIndex_L3 _).1, Nat.zero_mul]
      | ⟨1, _⟩ => show win3_16.index ⟨49, lastL3⟩ 1 * _ = 0; rw [(poolIndex_L3 _).2, Nat.zero_mul]
  exact (Memref.read_access_unit_zero (Elt Ideal) (Pipeline.arrRef spec3 16) hz' (fun a => by rw [congrFun hz' a]; simp) X).symm

theorem flushedPool_L3 (V : (c : Dev nD) → (b : Ref sig .tc) → Buf (Elt Ideal) ((c : Thread nD τ).loc b)) (c : Dev nD) (t : Fin cfg3.N) (hf : (cfg3.win 16).flush t = true) :
    (datL3 V c).flushed 16 t = ((cfg3.win 16).blk t).view.read (Elt Ideal) (poolAtL3 V c 49 lastL3) := by
  have hN : cfg3.N = 50 := N_3
  have h49 : t.val = 49 := by have := (flush3_16 t).mp hf; have := t.isLt; omega
  obtain rfl : t = ⟨49, lastL3⟩ := Fin.ext h49
  show (cfg3.win 16).cut (grid3.coords ⟨49, lastL3⟩) ((datL3 V c).after 16 ⟨49, lastL3⟩) = _
  rw [after16_L3]
  exact cutPool_L3 _

/-- The pool array after the region is what the last point left in the accumulator. -/
theorem poolArr_L3 (V : (c : Dev nD) → (b : Ref sig .tc) → Buf (Elt Ideal) ((c : Thread nD τ).loc b)) (c : Dev nD) : (datL3 V c).arrAt 16 cfg3.N = poolAtL3 V c 49 lastL3 :=
  (datL3 V c).arrAt_eq_of_cover 16 (poolAtL3 V c 49 lastL3) (flushedPool_L3 V c) fun i =>
    ⟨⟨49, lastL3⟩, (flush3_16 _).mpr rfl, by
      show i ∈ ((View.whole (Pipeline.arrRef spec3 16)).slice (win3_16.rect ⟨49, lastL3⟩)).set
      rw [View.set_slice_whole, Rect.mem_set_unit]
      intro a
      have h0 : (i 0 : Nat) < 512 := (i 0).isLt
      have h1 : (i 1 : Nat) < 128 := (i 1).isLt
      match a with
      | ⟨0, _⟩ => show win3_16.index ⟨49, lastL3⟩ 0 * win3_16.size 0 ≤ (i 0 : Nat) ∧ (i 0 : Nat) < win3_16.index ⟨49, lastL3⟩ 0 * win3_16.size 0 + win3_16.xsize (grid3.coords ⟨49, lastL3⟩) 0
                  rw [(poolIndex_L3 _).1, show win3_16.xsize (grid3.coords ⟨49, lastL3⟩) 0 = 512 from rfl]; omega
      | ⟨1, _⟩ => show win3_16.index ⟨49, lastL3⟩ 1 * win3_16.size 1 ≤ (i 1 : Nat) ∧ (i 1 : Nat) < win3_16.index ⟨49, lastL3⟩ 1 * win3_16.size 1 + win3_16.xsize (grid3.coords ⟨49, lastL3⟩) 1
                  rw [(poolIndex_L3 _).2, show win3_16.xsize (grid3.coords ⟨49, lastL3⟩) 1 = 128 from rfl]; omega⟩

/-! ## The pool the region leaves is the specification's pool of the layer -/

/-- After the last point the accumulator holds, at graph g and feature d, the specification's pool of the layer. -/
theorem poolLast_L3 (V : (c : Dev nD) → (b : Ref sig .tc) → Buf (Elt Ideal) ((c : Thread nD τ).loc b)) (c : Dev nD) (g : Fin 512) (d : Fin 128) :
    poolAtL3 V c 49 lastL3 (ix2 g d) = Cert.Spec.poolAt (layerInL3 V c) (idsL3 V c) g d := by
  refine (poolAt_apply_L3 V c 49 lastL3 g d).trans ?_
  refine (sumTilesRows_L3 (nodeTermL3 V c g d)).trans ?_
  unfold Cert.Spec.poolAt
  refine Finset.sum_congr rfl fun n _ => ?_
  unfold nodeTermL3
  rw [dif_pos n.isLt]

theorem pool_L3 (V : (c : Dev nD) → (b : Ref sig .tc) → Buf (Elt Ideal) ((c : Thread nD τ).loc b)) (c : Dev nD) :
    ((datL3 (F := Ideal) V c).arrAt 16 cfg3.N : S512x128.Idx → EReal) = Cert.Spec.pool (layerInL3 V c) (idsL3 V c) := by
  refine (poolArr_L3 V c).trans (funext fun (j : S512x128.Idx) => ?_)
  refine (congrArg (poolAtL3 V c 49 lastL3) (eq_ix2 j)).trans ?_
  exact poolLast_L3 V c (j 0) (j 1)

end Cert.KernelIdeal.Hand

end
-- ==== Proof.KI.Value.lean ====
/-
  The kernel program's result is the network of @main's arguments, on the extended reals.

  The program is a chain: a host stretch, the first layer's region, a host stretch, the second layer's region, …, the
  classifier's region. Each layer's region leaves the specification's layer of the arrays it finds, and the pool of
  that layer at the graph ids it finds; the classifier's region leaves the specification's head of the arrays it
  finds. The host stretches say what those arrays are: the neighbour sum of the previous features over the edge list,
  the previous features, the layer's parameter slices, the graph ids as a column, the four pools side by side. Read
  window by window, region by region, this is the closed form `net`.
-/
import proofs.«426741_j36421322670671_1_alg».proof.Proof.KI.Net
import proofs.«426741_j36421322670671_1_alg».proof.Proof.KI.HostGlue
import proofs.«426741_j36421322670671_1_alg».proof.Proof.KI.Chain
import proofs.«426741_j36421322670671_1_alg».proof.Proof.KI.C4Value
import proofs.«426741_j36421322670671_1_alg».proof.Proof.KI.L0HNew
import proofs.«426741_j36421322670671_1_alg».proof.Proof.KI.L1HNew
import proofs.«426741_j36421322670671_1_alg».proof.Proof.KI.L2HNew
import proofs.«426741_j36421322670671_1_alg».proof.Proof.KI.L3HNew
import proofs.«426741_j36421322670671_1_alg».proof.Proof.KI.L0Pool
import proofs.«426741_j36421322670671_1_alg».proof.Proof.KI.L1Pool
import proofs.«426741_j36421322670671_1_alg».proof.Proof.KI.L2Pool
import proofs.«426741_j36421322670671_1_alg».proof.Proof.KI.L3Pool
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx

/-! ## Congruences of the specification's layer, pool, head and of the concatenation -/

/-- The specification's layer at equal arguments. -/
theorem layer_congr {a a' h h' : Cert.Spec.SNodes.Idx → EReal} {W1 W1' : Cert.Spec.SMat.Idx → EReal}
    {b1 b1' g1 g1' be1 be1' mu1 mu1' va1 va1' : Cert.Spec.SVec.Idx → EReal} {W2 W2' : Cert.Spec.SMat.Idx → EReal}
    {b2 b2' go go' beo beo' muo muo' vao vao' : Cert.Spec.SVec.Idx → EReal}
    (e0 : a = a') (e1 : h = h') (e3 : W1 = W1') (e4 : b1 = b1') (e5 : g1 = g1') (e6 : be1 = be1') (e7 : mu1 = mu1')
    (e8 : va1 = va1') (e9 : W2 = W2') (e10 : b2 = b2') (e11 : go = go') (e12 : beo = beo') (e13 : muo = muo')
    (e14 : vao = vao') :
    Cert.Spec.layer a h W1 b1 g1 be1 mu1 va1 W2 b2 go beo muo vao
      = Cert.Spec.layer a' h' W1' b1' g1' be1' mu1' va1' W2' b2' go' beo' muo' vao' := by
  subst e0 e1 e3 e4 e5 e6 e7 e8 e9 e10 e11 e12 e13 e14
  rfl

/-- The specification's pool at equal arguments. -/
theorem pool_congr {h h' : Cert.Spec.SNodes.Idx → EReal} {ids ids' : Cert.Spec.SIds.Idx → BitVec 32}
    (e0 : h = h') (e1 : ids = ids') : Cert.Spec.pool h ids = Cert.Spec.pool h' ids' := by
  subst e0 e1
  rfl

/-- The specification's head at equal arguments. -/
theorem head_congr {f f' : Cert.Spec.SFeat.Idx → EReal} {W1 W1' : Cert.Spec.SW1.Idx → EReal}
    {b1 b1' : Cert.Spec.SVec.Idx → EReal} {W2 W2' : Cert.Spec.SW2.Idx → EReal} {b2 b2' : Cert.Spec.SB2.Idx → EReal}
    (e0 : f = f') (e1 : W1 = W1') (e2 : b1 = b1') (e3 : W2 = W2') (e4 : b2 = b2') :
    Cert.Spec.head f W1 b1 W2 b2 = Cert.Spec.head f' W1' b1' W2' b2' := by
  subst e0 e1 e2 e3 e4
  rfl

/-- Four pools side by side at equal pools. -/
theorem feat4_congr {p0 p0' p1 p1' p2 p2' p3 p3' : FVec Ideal S512x128 .f32}
    (e0 : p0 = p0') (e1 : p1 = p1') (e2 : p2 = p2') (e3 : p3 = p3') :
    feat4 (F := Ideal) p0 p1 p2 p3 = feat4 (F := Ideal) p0' p1' p2' p3' := by
  subst e0 e1 e2 e3
  rfl

/-! ## The graph ids' column read back -/

/-- The graph ids as a column, read at `(n, 0)`, are the graph ids at `n`. -/
theorem idsCol_column (b : IVec S50000 32) :
    (fun i : Cert.Spec.SIds.Idx => idsCol b (ix2 (n0 := 50000) (n1 := 1) (i 0) 0)) = b := by
  funext i
  unfold idsCol
  refine shapeCast_apply b shapeCasts_S50000_S50000x1 _ i ?_
  rw [Shape.rowMajor_val_two, Shape.rowMajor_val_one]
  show (i 0).val = (i 0).val * 1 + 0
  omega

/-! ## The first layer -/

/-- The neighbour sum the first layer's region finds. -/
theorem agg_in0 (m : (ℓ : Loc nD τ sig) → Buf (Elt Ideal) ℓ) (c : Dev nD) :
    aggArrL0 (entry1 m) c = aggT (F := Ideal) (m ((c : Thread nD τ).loc main_arg0)) (m ((c : Thread nD τ).loc main_arg1)) :=
  V1_agg m c

/-- The node features the first layer's region finds. -/
theorem h_in0 (m : (ℓ : Loc nD τ sig) → Buf (Elt Ideal) ℓ) (c : Dev nD) :
    hArrL0 (entry1 m) c = (m ((c : Thread nD τ).loc main_arg0)) :=
  V1_x m c

/-- The first weight matrix the first layer's region finds. -/
theorem w1_in0 (m : (ℓ : Loc nD τ sig) → Buf (Elt Ideal) ℓ) (c : Dev nD) :
    w1ArrL0 (entry1 m) c = matSl0 (F := Ideal) (m ((c : Thread nD τ).loc main_arg3)) :=
  V1_W1 m c

/-- The first bias the first layer's region finds. -/
theorem b1_in0 (m : (ℓ : Loc nD τ sig) → Buf (Elt Ideal) ℓ) (c : Dev nD) :
    b1ArrL0 (entry1 m) c = vecSl0 (F := Ideal) (m ((c : Thread nD τ).loc main_arg4)) :=
  V1_b1 m c

/-- The first batch norm's scale the first layer's region finds. -/
theorem g1_in0 (m : (ℓ : Loc nD τ sig) → Buf (Elt Ideal) ℓ) (c : Dev nD) :
    g1ArrL0 (entry1 m) c = vecSl0 (F := Ideal) (m ((c : Thread nD τ).loc main_arg5)) :=
  V1_g1 m c

/-- The first batch norm's shift the first layer's region finds. -/
theorem be1_in0 (m : (ℓ : Loc nD τ sig) → Buf (Elt Ideal) ℓ) (c : Dev nD) :
    be1ArrL0 (entry1 m) c = vecSl0 (F := Ideal) (m ((c : Thread nD τ).loc main_arg6)) :=
  V1_be1 m c

/-- The first batch norm's mean the first layer's region finds. -/
theorem mu1_in0 (m : (ℓ : Loc nD τ sig) → Buf (Elt Ideal) ℓ) (c : Dev nD) :
    mu1ArrL0 (entry1 m) c = vecSl0 (F := Ideal) (m ((c : Thread nD τ).loc main_arg7)) :=
  V1_mu1 m c

/-- The first batch norm's variance the first layer's region finds. -/
theorem va1_in0 (m : (ℓ : Loc nD τ sig) → Buf (Elt Ideal) ℓ) (c : Dev nD) :
    va1ArrL0 (entry1 m) c = vecSl0 (F := Ideal) (m ((c : Thread nD τ).loc main_arg8)) :=
  V1_va1 m c

/-- The second weight matrix the first layer's region finds. -/
theorem w2_in0 (m : (ℓ : Loc nD τ sig) → Buf (Elt Ideal) ℓ) (c : Dev nD) :
    w2ArrL0 (entry1 m) c = matSl0 (F := Ideal) (m ((c : Thread nD τ).loc main_arg9)) :=
  V1_W2 m c

/-- The second bias the first layer's region finds. -/
theorem b2_in0 (m : (ℓ : Loc nD τ sig) → Buf (Elt Ideal) ℓ) (c : Dev nD) :
    b2ArrL0 (entry1 m) c = vecSl0 (F := Ideal) (m ((c : Thread nD τ).loc main_arg10)) :=
  V1_b2 m c

/-- The second batch norm's scale the first layer's region finds. -/
theorem go_in0 (m : (ℓ : Loc nD τ sig) → Buf (Elt Ideal) ℓ) (c : Dev nD) :
    goArrL0 (entry1 m) c = vecSl0 (F := Ideal) (m ((c : Thread nD τ).loc main_arg11)) :=
  V1_g2 m c

/-- The second batch norm's shift the first layer's region finds. -/
theorem beo_in0 (m : (ℓ : Loc nD τ sig) → Buf (Elt Ideal) ℓ) (c : Dev nD) :
    beoArrL0 (entry1 m) c = vecSl0 (F := Ideal) (m ((c : Thread nD τ).loc main_arg12)) :=
  V1_be2 m c

/-- The second batch norm's mean the first layer's region finds. -/
theorem muo_in0 (m : (ℓ : Loc nD τ sig) → Buf (Elt Ideal) ℓ) (c : Dev nD) :
    muoArrL0 (entry1 m) c = vecSl0 (F := Ideal) (m ((c : Thread nD τ).loc main_arg13)) :=
  V1_mu2 m c

/-- The second batch norm's variance the first layer's region finds. -/
theorem vao_in0 (m : (ℓ : Loc nD τ sig) → Buf (Elt Ideal) ℓ) (c : Dev nD) :
    vaoArrL0 (entry1 m) c = vecSl0 (F := Ideal) (m ((c : Thread nD τ).loc main_arg14)) :=
  V1_va2 m c

set_option maxHeartbeats 800000 in
/-- The specification's layer on the arrays the first layer's region finds is the network's first layer. -/
theorem layerIn0 (m : (ℓ : Loc nD τ sig) → Buf (Elt Ideal) ℓ) (c : Dev nD) :
    layerInL0 (entry1 m) c = netH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  layer_congr (agg_in0 m c) (h_in0 m c) (w1_in0 m c) (b1_in0 m c) (g1_in0 m c) (be1_in0 m c) (mu1_in0 m c) (va1_in0 m c) (w2_in0 m c) (b2_in0 m c) (go_in0 m c) (beo_in0 m c) (muo_in0 m c) (vao_in0 m c)

/-- The graph ids the first layer's region finds, read off their column, are @main's. -/
theorem idsIn0 (m : (ℓ : Loc nD τ sig) → Buf (Elt Ideal) ℓ) (c : Dev nD) : idsL0 (entry1 m) c = (m ((c : Thread nD τ).loc main_arg2)) :=
  (congrArg (fun (col : S50000x1.Idx → BitVec 32) => fun i : Cert.Spec.SIds.Idx => col (ix2 (n0 := 50000) (n1 := 1) (i 0) 0))
    (V1_ids m c)).trans (idsCol_column _)

set_option maxHeartbeats 800000 in
/-- The node features the first layer's region leaves are the network's. -/
theorem feat0_eq_net (m : (ℓ : Loc nD τ sig) → Buf (Elt Ideal) ℓ) (c : Dev nD) :
    @Eq (FVec Ideal S50000x128 .f32) (outsAll m 2 main_v39_0 c) (netH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (outsAll_2_0 m c).trans ((hnew_arrL0 (entry1 m) c).trans (layerIn0 m c))

set_option maxHeartbeats 800000 in
/-- The pool the first layer's region leaves is the pool of the network's features. -/
theorem pool0_eq_net (m : (ℓ : Loc nD τ sig) → Buf (Elt Ideal) ℓ) (c : Dev nD) :
    @Eq (FVec Ideal S512x128 .f32) (outsAll m 2 main_v39_1 c) (Cert.Spec.pool (netH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2))) :=
  (outsAll_2_1 m c).trans ((pool_L0 (entry1 m) c).trans (pool_congr (layerIn0 m c) (idsIn0 m c)))

/-! ## The second layer -/

set_option maxHeartbeats 800000 in
/-- The neighbour sum the second layer's region finds. -/
theorem agg_in1 (m : (ℓ : Loc nD τ sig) → Buf (Elt Ideal) ℓ) (c : Dev nD) :
    aggArrL1 (entry3 m) c = aggT (F := Ideal) (netH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg1)) :=
  (V3_agg m (outsAll m) c).trans (congrArg (fun h => aggT (F := Ideal) h (m ((c : Thread nD τ).loc main_arg1))) (feat0_eq_net m c))

set_option maxHeartbeats 800000 in
/-- The node features the second layer's region finds. -/
theorem h_in1 (m : (ℓ : Loc nD τ sig) → Buf (Elt Ideal) ℓ) (c : Dev nD) :
    hArrL1 (entry3 m) c = (netH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (V3_h m (outsAll m) c).trans (feat0_eq_net m c)

/-- The first weight matrix the second layer's region finds. -/
theorem w1_in1 (m : (ℓ : Loc nD τ sig) → Buf (Elt Ideal) ℓ) (c : Dev nD) :
    w1ArrL1 (entry3 m) c = matSl1 (F := Ideal) (m ((c : Thread nD τ).loc main_arg3)) :=
  V3_W1 m (outsAll m) c

/-- The first bias the second layer's region finds. -/
theorem b1_in1 (m : (ℓ : Loc nD τ sig) → Buf (Elt Ideal) ℓ) (c : Dev nD) :
    b1ArrL1 (entry3 m) c = vecSl1 (F := Ideal) (m ((c : Thread nD τ).loc main_arg4)) :=
  V3_b1 m (outsAll m) c

/-- The first batch norm's scale the second layer's region finds. -/
theorem g1_in1 (m : (ℓ : Loc nD τ sig) → Buf (Elt Ideal) ℓ) (c : Dev nD) :
    g1ArrL1 (entry3 m) c = vecSl1 (F := Ideal) (m ((c : Thread nD τ).loc main_arg5)) :=
  V3_g1 m (outsAll m) c

/-- The first batch norm's shift the second layer's region finds. -/
theorem be1_in1 (m : (ℓ : Loc nD τ sig) → Buf (Elt Ideal) ℓ) (c : Dev nD) :
    be1ArrL1 (entry3 m) c = vecSl1 (F := Ideal) (m ((c : Thread nD τ).loc main_arg6)) :=
  V3_be1 m (outsAll m) c

/-- The first batch norm's mean the second layer's region finds. -/
theorem mu1_in1 (m : (ℓ : Loc nD τ sig) → Buf (Elt Ideal) ℓ) (c : Dev nD) :
    mu1ArrL1 (entry3 m) c = vecSl1 (F := Ideal) (m ((c : Thread nD τ).loc main_arg7)) :=
  V3_mu1 m (outsAll m) c

/-- The first batch norm's variance the second layer's region finds. -/
theorem va1_in1 (m : (ℓ : Loc nD τ sig) → Buf (Elt Ideal) ℓ) (c : Dev nD) :
    va1ArrL1 (entry3 m) c = vecSl1 (F := Ideal) (m ((c : Thread nD τ).loc main_arg8)) :=
  V3_va1 m (outsAll m) c

/-- The second weight matrix the second layer's region finds. -/
theorem w2_in1 (m : (ℓ : Loc nD τ sig) → Buf (Elt Ideal) ℓ) (c : Dev nD) :
    w2ArrL1 (entry3 m) c = matSl1 (F := Ideal) (m ((c : Thread nD τ).loc main_arg9)) :=
  V3_W2 m (outsAll m) c

/-- The second bias the second layer's region finds. -/
theorem b2_in1 (m : (ℓ : Loc nD τ sig) → Buf (Elt Ideal) ℓ) (c : Dev nD) :
    b2ArrL1 (entry3 m) c = vecSl1 (F := Ideal) (m ((c : Thread nD τ).loc main_arg10)) :=
  V3_b2 m (outsAll m) c

/-- The second batch norm's scale the second layer's region finds. -/
theorem go_in1 (m : (ℓ : Loc nD τ sig) → Buf (Elt Ideal) ℓ) (c : Dev nD) :
    goArrL1 (entry3 m) c = vecSl1 (F := Ideal) (m ((c : Thread nD τ).loc main_arg11)) :=
  V3_g2 m (outsAll m) c

/-- The second batch norm's shift the second layer's region finds. -/
theorem beo_in1 (m : (ℓ : Loc nD τ sig) → Buf (Elt Ideal) ℓ) (c : Dev nD) :
    beoArrL1 (entry3 m) c = vecSl1 (F := Ideal) (m ((c : Thread nD τ).loc main_arg12)) :=
  V3_be2 m (outsAll m) c

/-- The second batch norm's mean the second layer's region finds. -/
theorem muo_in1 (m : (ℓ : Loc nD τ sig) → Buf (Elt Ideal) ℓ) (c : Dev nD) :
    muoArrL1 (entry3 m) c = vecSl1 (F := Ideal) (m ((c : Thread nD τ).loc main_arg13)) :=
  V3_mu2 m (outsAll m) c

/-- The second batch norm's variance the second layer's region finds. -/
theorem vao_in1 (m : (ℓ : Loc nD τ sig) → Buf (Elt Ideal) ℓ) (c : Dev nD) :
    vaoArrL1 (entry3 m) c = vecSl1 (F := Ideal) (m ((c : Thread nD τ).loc main_arg14)) :=
  V3_va2 m (outsAll m) c

set_option maxHeartbeats 800000 in
/-- The specification's layer on the arrays the second layer's region finds is the network's second layer. -/
theorem layerIn1 (m : (ℓ : Loc nD τ sig) → Buf (Elt Ideal) ℓ) (c : Dev nD) :
    layerInL1 (entry3 m) c = netH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  layer_congr (agg_in1 m c) (h_in1 m c) (w1_in1 m c) (b1_in1 m c) (g1_in1 m c) (be1_in1 m c) (mu1_in1 m c) (va1_in1 m c) (w2_in1 m c) (b2_in1 m c) (go_in1 m c) (beo_in1 m c) (muo_in1 m c) (vao_in1 m c)

/-- The graph ids the second layer's region finds, read off their column, are @main's. -/
theorem idsIn1 (m : (ℓ : Loc nD τ sig) → Buf (Elt Ideal) ℓ) (c : Dev nD) : idsL1 (entry3 m) c = (m ((c : Thread nD τ).loc main_arg2)) :=
  (congrArg (fun (col : S50000x1.Idx → BitVec 32) => fun i : Cert.Spec.SIds.Idx => col (ix2 (n0 := 50000) (n1 := 1) (i 0) 0))
    (V3_ids m (outsAll m) c)).trans (idsCol_column _)

set_option maxHeartbeats 800000 in
/-- The node features the second layer's region leaves are the network's. -/
theorem feat1_eq_net (m : (ℓ : Loc nD τ sig) → Buf (Elt Ideal) ℓ) (c : Dev nD) :
    @Eq (FVec Ideal S50000x128 .f32) (outsAll m 4 main_v74_0 c) (netH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (outsAll_4_0 m c).trans ((hnew_arrL1 (entry3 m) c).trans (layerIn1 m c))

set_option maxHeartbeats 800000 in
/-- The pool the second layer's region leaves is the pool of the network's features. -/
theorem pool1_eq_net (m : (ℓ : Loc nD τ sig) → Buf (Elt Ideal) ℓ) (c : Dev nD) :
    @Eq (FVec Ideal S512x128 .f32) (outsAll m 4 main_v74_1 c) (Cert.Spec.pool (netH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2))) :=
  (outsAll_4_1 m c).trans ((pool_L1 (entry3 m) c).trans (pool_congr (layerIn1 m c) (idsIn1 m c)))

/-! ## The third layer -/

set_option maxHeartbeats 800000 in
/-- The neighbour sum the third layer's region finds. -/
theorem agg_in2 (m : (ℓ : Loc nD τ sig) → Buf (Elt Ideal) ℓ) (c : Dev nD) :
    aggArrL2 (entry5 m) c = aggT (F := Ideal) (netH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg1)) :=
  (V5_agg m (outsAll m) c).trans (congrArg (fun h => aggT (F := Ideal) h (m ((c : Thread nD τ).loc main_arg1))) (feat1_eq_net m c))

set_option maxHeartbeats 800000 in
/-- The node features the third layer's region finds. -/
theorem h_in2 (m : (ℓ : Loc nD τ sig) → Buf (Elt Ideal) ℓ) (c : Dev nD) :
    hArrL2 (entry5 m) c = (netH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (V5_h m (outsAll m) c).trans (feat1_eq_net m c)

/-- The first weight matrix the third layer's region finds. -/
theorem w1_in2 (m : (ℓ : Loc nD τ sig) → Buf (Elt Ideal) ℓ) (c : Dev nD) :
    w1ArrL2 (entry5 m) c = matSl2 (F := Ideal) (m ((c : Thread nD τ).loc main_arg3)) :=
  V5_W1 m (outsAll m) c

/-- The first bias the third layer's region finds. -/
theorem b1_in2 (m : (ℓ : Loc nD τ sig) → Buf (Elt Ideal) ℓ) (c : Dev nD) :
    b1ArrL2 (entry5 m) c = vecSl2 (F := Ideal) (m ((c : Thread nD τ).loc main_arg4)) :=
  V5_b1 m (outsAll m) c

/-- The first batch norm's scale the third layer's region finds. -/
theorem g1_in2 (m : (ℓ : Loc nD τ sig) → Buf (Elt Ideal) ℓ) (c : Dev nD) :
    g1ArrL2 (entry5 m) c = vecSl2 (F := Ideal) (m ((c : Thread nD τ).loc main_arg5)) :=
  V5_g1 m (outsAll m) c

/-- The first batch norm's shift the third layer's region finds. -/
theorem be1_in2 (m : (ℓ : Loc nD τ sig) → Buf (Elt Ideal) ℓ) (c : Dev nD) :
    be1ArrL2 (entry5 m) c = vecSl2 (F := Ideal) (m ((c : Thread nD τ).loc main_arg6)) :=
  V5_be1 m (outsAll m) c

/-- The first batch norm's mean the third layer's region finds. -/
theorem mu1_in2 (m : (ℓ : Loc nD τ sig) → Buf (Elt Ideal) ℓ) (c : Dev nD) :
    mu1ArrL2 (entry5 m) c = vecSl2 (F := Ideal) (m ((c : Thread nD τ).loc main_arg7)) :=
  V5_mu1 m (outsAll m) c

/-- The first batch norm's variance the third layer's region finds. -/
theorem va1_in2 (m : (ℓ : Loc nD τ sig) → Buf (Elt Ideal) ℓ) (c : Dev nD) :
    va1ArrL2 (entry5 m) c = vecSl2 (F := Ideal) (m ((c : Thread nD τ).loc main_arg8)) :=
  V5_va1 m (outsAll m) c

/-- The second weight matrix the third layer's region finds. -/
theorem w2_in2 (m : (ℓ : Loc nD τ sig) → Buf (Elt Ideal) ℓ) (c : Dev nD) :
    w2ArrL2 (entry5 m) c = matSl2 (F := Ideal) (m ((c : Thread nD τ).loc main_arg9)) :=
  V5_W2 m (outsAll m) c

/-- The second bias the third layer's region finds. -/
theorem b2_in2 (m : (ℓ : Loc nD τ sig) → Buf (Elt Ideal) ℓ) (c : Dev nD) :
    b2ArrL2 (entry5 m) c = vecSl2 (F := Ideal) (m ((c : Thread nD τ).loc main_arg10)) :=
  V5_b2 m (outsAll m) c

/-- The second batch norm's scale the third layer's region finds. -/
theorem go_in2 (m : (ℓ : Loc nD τ sig) → Buf (Elt Ideal) ℓ) (c : Dev nD) :
    goArrL2 (entry5 m) c = vecSl2 (F := Ideal) (m ((c : Thread nD τ).loc main_arg11)) :=
  V5_g2 m (outsAll m) c

/-- The second batch norm's shift the third layer's region finds. -/
theorem beo_in2 (m : (ℓ : Loc nD τ sig) → Buf (Elt Ideal) ℓ) (c : Dev nD) :
    beoArrL2 (entry5 m) c = vecSl2 (F := Ideal) (m ((c : Thread nD τ).loc main_arg12)) :=
  V5_be2 m (outsAll m) c

/-- The second batch norm's mean the third layer's region finds. -/
theorem muo_in2 (m : (ℓ : Loc nD τ sig) → Buf (Elt Ideal) ℓ) (c : Dev nD) :
    muoArrL2 (entry5 m) c = vecSl2 (F := Ideal) (m ((c : Thread nD τ).loc main_arg13)) :=
  V5_mu2 m (outsAll m) c

/-- The second batch norm's variance the third layer's region finds. -/
theorem vao_in2 (m : (ℓ : Loc nD τ sig) → Buf (Elt Ideal) ℓ) (c : Dev nD) :
    vaoArrL2 (entry5 m) c = vecSl2 (F := Ideal) (m ((c : Thread nD τ).loc main_arg14)) :=
  V5_va2 m (outsAll m) c

set_option maxHeartbeats 800000 in
/-- The specification's layer on the arrays the third layer's region finds is the network's third layer. -/
theorem layerIn2 (m : (ℓ : Loc nD τ sig) → Buf (Elt Ideal) ℓ) (c : Dev nD) :
    layerInL2 (entry5 m) c = netH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  layer_congr (agg_in2 m c) (h_in2 m c) (w1_in2 m c) (b1_in2 m c) (g1_in2 m c) (be1_in2 m c) (mu1_in2 m c) (va1_in2 m c) (w2_in2 m c) (b2_in2 m c) (go_in2 m c) (beo_in2 m c) (muo_in2 m c) (vao_in2 m c)

/-- The graph ids the third layer's region finds, read off their column, are @main's. -/
theorem idsIn2 (m : (ℓ : Loc nD τ sig) → Buf (Elt Ideal) ℓ) (c : Dev nD) : idsL2 (entry5 m) c = (m ((c : Thread nD τ).loc main_arg2)) :=
  (congrArg (fun (col : S50000x1.Idx → BitVec 32) => fun i : Cert.Spec.SIds.Idx => col (ix2 (n0 := 50000) (n1 := 1) (i 0) 0))
    (V5_ids m (outsAll m) c)).trans (idsCol_column _)

set_option maxHeartbeats 800000 in
/-- The node features the third layer's region leaves are the network's. -/
theorem feat2_eq_net (m : (ℓ : Loc nD τ sig) → Buf (Elt Ideal) ℓ) (c : Dev nD) :
    @Eq (FVec Ideal S50000x128 .f32) (outsAll m 6 main_v109_0 c) (netH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (outsAll_6_0 m c).trans ((hnew_arrL2 (entry5 m) c).trans (layerIn2 m c))

set_option maxHeartbeats 800000 in
/-- The pool the third layer's region leaves is the pool of the network's features. -/
theorem pool2_eq_net (m : (ℓ : Loc nD τ sig) → Buf (Elt Ideal) ℓ) (c : Dev nD) :
    @Eq (FVec Ideal S512x128 .f32) (outsAll m 6 main_v109_1 c) (Cert.Spec.pool (netH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2))) :=
  (outsAll_6_1 m c).trans ((pool_L2 (entry5 m) c).trans (pool_congr (layerIn2 m c) (idsIn2 m c)))

/-! ## The fourth layer -/

set_option maxHeartbeats 800000 in
/-- The neighbour sum the fourth layer's region finds. -/
theorem agg_in3 (m : (ℓ : Loc nD τ sig) → Buf (Elt Ideal) ℓ) (c : Dev nD) :
    aggArrL3 (entry7 m) c = aggT (F := Ideal) (netH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg1)) :=
  (V7_agg m (outsAll m) c).trans (congrArg (fun h => aggT (F := Ideal) h (m ((c : Thread nD τ).loc main_arg1))) (feat2_eq_net m c))

set_option maxHeartbeats 800000 in
/-- The node features the fourth layer's region finds. -/
theorem h_in3 (m : (ℓ : Loc nD τ sig) → Buf (Elt Ideal) ℓ) (c : Dev nD) :
    hArrL3 (entry7 m) c = (netH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (V7_h m (outsAll m) c).trans (feat2_eq_net m c)

/-- The first weight matrix the fourth layer's region finds. -/
theorem w1_in3 (m : (ℓ : Loc nD τ sig) → Buf (Elt Ideal) ℓ) (c : Dev nD) :
    w1ArrL3 (entry7 m) c = matSl3 (F := Ideal) (m ((c : Thread nD τ).loc main_arg3)) :=
  V7_W1 m (outsAll m) c

/-- The first bias the fourth layer's region finds. -/
theorem b1_in3 (m : (ℓ : Loc nD τ sig) → Buf (Elt Ideal) ℓ) (c : Dev nD) :
    b1ArrL3 (entry7 m) c = vecSl3 (F := Ideal) (m ((c : Thread nD τ).loc main_arg4)) :=
  V7_b1 m (outsAll m) c

/-- The first batch norm's scale the fourth layer's region finds. -/
theorem g1_in3 (m : (ℓ : Loc nD τ sig) → Buf (Elt Ideal) ℓ) (c : Dev nD) :
    g1ArrL3 (entry7 m) c = vecSl3 (F := Ideal) (m ((c : Thread nD τ).loc main_arg5)) :=
  V7_g1 m (outsAll m) c

/-- The first batch norm's shift the fourth layer's region finds. -/
theorem be1_in3 (m : (ℓ : Loc nD τ sig) → Buf (Elt Ideal) ℓ) (c : Dev nD) :
    be1ArrL3 (entry7 m) c = vecSl3 (F := Ideal) (m ((c : Thread nD τ).loc main_arg6)) :=
  V7_be1 m (outsAll m) c

/-- The first batch norm's mean the fourth layer's region finds. -/
theorem mu1_in3 (m : (ℓ : Loc nD τ sig) → Buf (Elt Ideal) ℓ) (c : Dev nD) :
    mu1ArrL3 (entry7 m) c = vecSl3 (F := Ideal) (m ((c : Thread nD τ).loc main_arg7)) :=
  V7_mu1 m (outsAll m) c

/-- The first batch norm's variance the fourth layer's region finds. -/
theorem va1_in3 (m : (ℓ : Loc nD τ sig) → Buf (Elt Ideal) ℓ) (c : Dev nD) :
    va1ArrL3 (entry7 m) c = vecSl3 (F := Ideal) (m ((c : Thread nD τ).loc main_arg8)) :=
  V7_va1 m (outsAll m) c

/-- The second weight matrix the fourth layer's region finds. -/
theorem w2_in3 (m : (ℓ : Loc nD τ sig) → Buf (Elt Ideal) ℓ) (c : Dev nD) :
    w2ArrL3 (entry7 m) c = matSl3 (F := Ideal) (m ((c : Thread nD τ).loc main_arg9)) :=
  V7_W2 m (outsAll m) c

/-- The second bias the fourth layer's region finds. -/
theorem b2_in3 (m : (ℓ : Loc nD τ sig) → Buf (Elt Ideal) ℓ) (c : Dev nD) :
    b2ArrL3 (entry7 m) c = vecSl3 (F := Ideal) (m ((c : Thread nD τ).loc main_arg10)) :=
  V7_b2 m (outsAll m) c

/-- The second batch norm's scale the fourth layer's region finds. -/
theorem go_in3 (m : (ℓ : Loc nD τ sig) → Buf (Elt Ideal) ℓ) (c : Dev nD) :
    goArrL3 (entry7 m) c = vecSl3 (F := Ideal) (m ((c : Thread nD τ).loc main_arg11)) :=
  V7_g2 m (outsAll m) c

/-- The second batch norm's shift the fourth layer's region finds. -/
theorem beo_in3 (m : (ℓ : Loc nD τ sig) → Buf (Elt Ideal) ℓ) (c : Dev nD) :
    beoArrL3 (entry7 m) c = vecSl3 (F := Ideal) (m ((c : Thread nD τ).loc main_arg12)) :=
  V7_be2 m (outsAll m) c

/-- The second batch norm's mean the fourth layer's region finds. -/
theorem muo_in3 (m : (ℓ : Loc nD τ sig) → Buf (Elt Ideal) ℓ) (c : Dev nD) :
    muoArrL3 (entry7 m) c = vecSl3 (F := Ideal) (m ((c : Thread nD τ).loc main_arg13)) :=
  V7_mu2 m (outsAll m) c

/-- The second batch norm's variance the fourth layer's region finds. -/
theorem vao_in3 (m : (ℓ : Loc nD τ sig) → Buf (Elt Ideal) ℓ) (c : Dev nD) :
    vaoArrL3 (entry7 m) c = vecSl3 (F := Ideal) (m ((c : Thread nD τ).loc main_arg14)) :=
  V7_va2 m (outsAll m) c

set_option maxHeartbeats 800000 in
/-- The specification's layer on the arrays the fourth layer's region finds is the network's fourth layer. -/
theorem layerIn3 (m : (ℓ : Loc nD τ sig) → Buf (Elt Ideal) ℓ) (c : Dev nD) :
    layerInL3 (entry7 m) c = netH4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  layer_congr (agg_in3 m c) (h_in3 m c) (w1_in3 m c) (b1_in3 m c) (g1_in3 m c) (be1_in3 m c) (mu1_in3 m c) (va1_in3 m c) (w2_in3 m c) (b2_in3 m c) (go_in3 m c) (beo_in3 m c) (muo_in3 m c) (vao_in3 m c)

/-- The graph ids the fourth layer's region finds, read off their column, are @main's. -/
theorem idsIn3 (m : (ℓ : Loc nD τ sig) → Buf (Elt Ideal) ℓ) (c : Dev nD) : idsL3 (entry7 m) c = (m ((c : Thread nD τ).loc main_arg2)) :=
  (congrArg (fun (col : S50000x1.Idx → BitVec 32) => fun i : Cert.Spec.SIds.Idx => col (ix2 (n0 := 50000) (n1 := 1) (i 0) 0))
    (V7_ids m (outsAll m) c)).trans (idsCol_column _)

set_option maxHeartbeats 800000 in
/-- The node features the fourth layer's region leaves are the network's. -/
theorem feat3_eq_net (m : (ℓ : Loc nD τ sig) → Buf (Elt Ideal) ℓ) (c : Dev nD) :
    @Eq (FVec Ideal S50000x128 .f32) (outsAll m 8 main_v144_0 c) (netH4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (outsAll_8_0 m c).trans ((hnew_arrL3 (entry7 m) c).trans (layerIn3 m c))

set_option maxHeartbeats 800000 in
/-- The pool the fourth layer's region leaves is the pool of the network's features. -/
theorem pool3_eq_net (m : (ℓ : Loc nD τ sig) → Buf (Elt Ideal) ℓ) (c : Dev nD) :
    @Eq (FVec Ideal S512x128 .f32) (outsAll m 8 main_v144_1 c) (Cert.Spec.pool (netH4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2))) :=
  (outsAll_8_1 m c).trans ((pool_L3 (entry7 m) c).trans (pool_congr (layerIn3 m c) (idsIn3 m c)))

/-! ## The classifier and the whole program -/

/-- The classifier's window 0: the four pools side by side. -/
abbrev featArrC4 (V : (c : Dev nD) → (b : Ref sig .tc) → Buf (Elt Ideal) ((c : Thread nD τ).loc b)) (c : Dev nD) : FVec Ideal S512x512 .f32 := V c (Pipeline.arrRef spec4 0)

/-- The classifier's window 1: first weight matrix. -/
abbrev wc1ArrC4 (V : (c : Dev nD) → (b : Ref sig .tc) → Buf (Elt Ideal) ((c : Thread nD τ).loc b)) (c : Dev nD) : FVec Ideal S512x128 .f32 := V c (Pipeline.arrRef spec4 1)

/-- The classifier's window 2: first bias. -/
abbrev bc1ArrC4 (V : (c : Dev nD) → (b : Ref sig .tc) → Buf (Elt Ideal) ((c : Thread nD τ).loc b)) (c : Dev nD) : FVec Ideal S128 .f32 := V c (Pipeline.arrRef spec4 2)

/-- The classifier's window 3: second weight matrix. -/
abbrev wc2ArrC4 (V : (c : Dev nD) → (b : Ref sig .tc) → Buf (Elt Ideal) ((c : Thread nD τ).loc b)) (c : Dev nD) : FVec Ideal S128x10 .f32 := V c (Pipeline.arrRef spec4 3)

/-- The classifier's window 4: second bias. -/
abbrev bc2ArrC4 (V : (c : Dev nD) → (b : Ref sig .tc) → Buf (Elt Ideal) ((c : Thread nD τ).loc b)) (c : Dev nD) : FVec Ideal S10 .f32 := V c (Pipeline.arrRef spec4 4)

set_option maxHeartbeats 800000 in
/-- The pools the classifier's region finds side by side are the network's four pools. -/
theorem feat_in4 (m : (ℓ : Loc nD τ sig) → Buf (Elt Ideal) ℓ) (c : Dev nD) :
    featArrC4 (entry9 m) c = feat4 (F := Ideal) (Cert.Spec.pool (netH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2))) (Cert.Spec.pool (netH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2)))
      (Cert.Spec.pool (netH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2))) (Cert.Spec.pool (netH4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2))) :=
  (V9_feat m (outsAll m) c).trans (feat4_congr (pool0_eq_net m c) (pool1_eq_net m c) (pool2_eq_net m c) (pool3_eq_net m c))

/-- The classifier's first weight matrix is @main's. -/
theorem wc1_in4 (m : (ℓ : Loc nD τ sig) → Buf (Elt Ideal) ℓ) (c : Dev nD) : wc1ArrC4 (entry9 m) c = (m ((c : Thread nD τ).loc main_arg15)) := V9_Wc1 m (outsAll m) c

/-- The classifier's first bias is @main's. -/
theorem bc1_in4 (m : (ℓ : Loc nD τ sig) → Buf (Elt Ideal) ℓ) (c : Dev nD) : bc1ArrC4 (entry9 m) c = (m ((c : Thread nD τ).loc main_arg16)) := V9_bc1 m (outsAll m) c

/-- The classifier's second weight matrix is @main's. -/
theorem wc2_in4 (m : (ℓ : Loc nD τ sig) → Buf (Elt Ideal) ℓ) (c : Dev nD) : wc2ArrC4 (entry9 m) c = (m ((c : Thread nD τ).loc main_arg17)) := V9_Wc2 m (outsAll m) c

/-- The classifier's second bias is @main's. -/
theorem bc2_in4 (m : (ℓ : Loc nD τ sig) → Buf (Elt Ideal) ℓ) (c : Dev nD) : bc2ArrC4 (entry9 m) c = (m ((c : Thread nD τ).loc main_arg18)) := V9_bc2 m (outsAll m) c

set_option maxHeartbeats 800000 in
/-- The specification's head on the arrays the classifier's region finds is the network. -/
theorem headIn4 (m : (ℓ : Loc nD τ sig) → Buf (Elt Ideal) ℓ) (c : Dev nD) :
    Cert.Spec.head (featArrC4 (entry9 m) c) (wc1ArrC4 (entry9 m) c) (bc1ArrC4 (entry9 m) c) (wc2ArrC4 (entry9 m) c) (bc2ArrC4 (entry9 m) c)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  head_congr (feat_in4 m c) (wc1_in4 m c) (bc1_in4 m c) (wc2_in4 m c) (bc2_in4 m c)

set_option maxHeartbeats 800000 in
/-- The kernel program's result is the network of @main's arguments. -/
theorem kernel_result (m : (ℓ : Loc nD τ sig) → Buf (Elt Ideal) ℓ) (c : Dev nD) :
    (outsAll (F := Ideal) m 10 main_v146 c : S512x10.Idx → EReal) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (outsAll_10 m c).trans ((scores_eq_head (entry9 m) c).trans (headIn4 m c))

end Cert.KernelIdeal.Hand

end
-- ==== Proof.Ref.Ops.lean ====
/- The operations of the reference program's @main, in program order, as 7 lists (62, 62, 64, 62, 62, 44, 12 operations): one per printed window of @main, the last window cut
   before the concatenate of the four pooled layers; a call of relu is the callee's three operations over the
   call's record; beside each list the table writesK of the references its operations write. Nothing else is in this module. -/
import proofs.«426741_j36421322670671_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 … 62 of @main. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v13 main_arg0 main_v14 (addf : (⟨S50000x128, .f32⟩ : BufTy).Contents (Elt F) → (⟨S50000x128, .f32⟩ : BufTy).Contents (Elt F) → (⟨S50000x128, .f32⟩ : BufTy).Contents (Elt F)),
    unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v18 ((extractStridedSlice S1x128 ![0, 0] · slices_S4x128_S1x128_0_0) : (⟨S4x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v17 main_v21 main_v22 (addf : (⟨S50000x128, .f32⟩ : BufTy).Contents (Elt F) → (⟨S50000x128, .f32⟩ : BufTy).Contents (Elt F) → (⟨S50000x128, .f32⟩ : BufTy).Contents (Elt F)),
    unary main_arg5 main_v23 ((extractStridedSlice S1x128 ![0, 0] · slices_S4x128_S1x128_0_0) : (⟨S4x128, .f32⟩ : BufTy).Contents (Elt F) → (⟨S1x128, .f32⟩ : BufTy).Contents (Elt F)),
    reshape main_v23 main_v24 rfl shapeCasts_S1x128_S128,
    unary main_arg6 main_v25 ((extractStridedSlice S1x128 ![0, 0] · slices_S4x128_S1x128_0_0) : (⟨S4x128, .f32⟩ : BufTy).Contents (Elt F) → (⟨S1x128, .f32⟩ : BufTy).Contents (Elt F)),
    reshape main_v25 main_v26 rfl shapeCasts_S1x128_S128,
    unary main_arg7 main_v27 ((extractStridedSlice S1x128 ![0, 0] · slices_S4x128_S1x128_0_0) : (⟨S4x128, .f32⟩ : BufTy).Contents (Elt F) → (⟨S1x128, .f32⟩ : BufTy).Contents (Elt F)),
    reshape main_v27 main_v28 rfl shapeCasts_S1x128_S128,
    unary main_arg8 main_v29 ((extractStridedSlice S1x128 ![0, 0] · slices_S4x128_S1x128_0_0) : (⟨S4x128, .f32⟩ : BufTy).Contents (Elt F) → (⟨S1x128, .f32⟩ : BufTy).Contents (Elt F)),
    reshape main_v29 main_v30 rfl shapeCasts_S1x128_S128,
    unary main_v28 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v22 main_v32 main_v33 (subf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3727C5AC#32),
    unary main_cst_1 main_v34 (broadcastInDim S128 ![] bcast_S_S128 : (⟨S_, .f32⟩ : BufTy).Contents (Elt F) → (⟨S128, .f32⟩ : BufTy).Contents (Elt F)),
    binary main_v30 main_v34 main_v35 (addf : (⟨S128, .f32⟩ : BufTy).Contents (Elt F) → (⟨S128, .f32⟩ : BufTy).Contents (Elt F) → (⟨S128, .f32⟩ : BufTy).Contents (Elt F)),
    unary main_v35 main_v36 (Host.rsqrt : (⟨S128, .f32⟩ : BufTy).Contents (Elt F) → (⟨S128, .f32⟩ : BufTy).Contents (Elt F)),
    unary main_v36 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v33 main_v38 main_v39 (mulf : (⟨S50000x128, .f32⟩ : BufTy).Contents (Elt F) → (⟨S50000x128, .f32⟩ : BufTy).Contents (Elt F) → (⟨S50000x128, .f32⟩ : BufTy).Contents (Elt F)),
    unary main_v24 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v39 main_v41 main_v42 (mulf : (⟨S50000x128, .f32⟩ : BufTy).Contents (Elt F) → (⟨S50000x128, .f32⟩ : BufTy).Contents (Elt F) → (⟨S50000x128, .f32⟩ : BufTy).Contents (Elt F)),
    unary main_v26 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v42 main_v44 main_v45 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v45) main_call0.v0 main_call0.v1 maximumf,
    unary main_arg9 main_v47 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v47 main_v48 rfl shapeCasts_S1x128x128_S128x128,
    binary main_v46 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v50 ((extractStridedSlice S1x128 ![0, 0] · slices_S4x128_S1x128_0_0) : (⟨S4x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v49 main_v53 main_v54 (addf : (⟨S50000x128, .f32⟩ : BufTy).Contents (Elt F) → (⟨S50000x128, .f32⟩ : BufTy).Contents (Elt F) → (⟨S50000x128, .f32⟩ : BufTy).Contents (Elt F)),
    unary main_arg11 main_v55 ((extractStridedSlice S1x128 ![0, 0] · slices_S4x128_S1x128_0_0) : (⟨S4x128, .f32⟩ : BufTy).Contents (Elt F) → (⟨S1x128, .f32⟩ : BufTy).Contents (Elt F)) ]

/-- The references ops0's operations write, in order. -/
abbrev writes0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_cst_1, main_v34, main_v35, main_v36, main_v37, main_v38, main_v39, main_v40, main_v41, main_v42, main_v43, main_v44, main_v45, main_call0_cst, main_call0_v0, main_v46, main_v47, main_v48, main_v49, main_v50, main_v51, main_v52, main_v53, main_v54, main_v55]

set_option maxHeartbeats 4000000 in
/-- Operations 63 … 124 of @main. -/
abbrev ops1 : List (HloOp τ sig (Elt F)) :=
  [ reshape main_v55 main_v56 rfl shapeCasts_S1x128_S128,
    unary main_arg12 main_v57 ((extractStridedSlice S1x128 ![0, 0] · slices_S4x128_S1x128_0_0) : (⟨S4x128, .f32⟩ : BufTy).Contents (Elt F) → (⟨S1x128, .f32⟩ : BufTy).Contents (Elt F)),
    reshape main_v57 main_v58 rfl shapeCasts_S1x128_S128,
    unary main_arg13 main_v59 ((extractStridedSlice S1x128 ![0, 0] · slices_S4x128_S1x128_0_0) : (⟨S4x128, .f32⟩ : BufTy).Contents (Elt F) → (⟨S1x128, .f32⟩ : BufTy).Contents (Elt F)),
    reshape main_v59 main_v60 rfl shapeCasts_S1x128_S128,
    unary main_arg14 main_v61 ((extractStridedSlice S1x128 ![0, 0] · slices_S4x128_S1x128_0_0) : (⟨S4x128, .f32⟩ : BufTy).Contents (Elt F) → (⟨S1x128, .f32⟩ : BufTy).Contents (Elt F)),
    reshape main_v61 main_v62 rfl shapeCasts_S1x128_S128,
    unary main_v60 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v54 main_v64 main_v65 (subf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3727C5AC#32),
    unary main_cst_2 main_v66 (broadcastInDim S128 ![] bcast_S_S128 : (⟨S_, .f32⟩ : BufTy).Contents (Elt F) → (⟨S128, .f32⟩ : BufTy).Contents (Elt F)),
    binary main_v62 main_v66 main_v67 (addf : (⟨S128, .f32⟩ : BufTy).Contents (Elt F) → (⟨S128, .f32⟩ : BufTy).Contents (Elt F) → (⟨S128, .f32⟩ : BufTy).Contents (Elt F)),
    unary main_v67 main_v68 (Host.rsqrt : (⟨S128, .f32⟩ : BufTy).Contents (Elt F) → (⟨S128, .f32⟩ : BufTy).Contents (Elt F)),
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v65 main_v70 main_v71 (mulf : (⟨S50000x128, .f32⟩ : BufTy).Contents (Elt F) → (⟨S50000x128, .f32⟩ : BufTy).Contents (Elt F) → (⟨S50000x128, .f32⟩ : BufTy).Contents (Elt F)),
    unary main_v56 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (mulf : (⟨S50000x128, .f32⟩ : BufTy).Contents (Elt F) → (⟨S50000x128, .f32⟩ : BufTy).Contents (Elt F) → (⟨S50000x128, .f32⟩ : BufTy).Contents (Elt F)),
    unary main_v58 main_v75 (broadcastInDim S1x128 ![1] bcast_S128_S1x128_1 : (⟨S128, .f32⟩ : BufTy).Contents (Elt F) → (⟨S1x128, .f32⟩ : BufTy).Contents (Elt F)),
    unary main_v75 main_v76 (broadcastInDim S50000x128 ![0, 1] bcast_S1x128_S50000x128_0_1 : (⟨S1x128, .f32⟩ : BufTy).Contents (Elt F) → (⟨S50000x128, .f32⟩ : BufTy).Contents (Elt F)),
    binary main_v74 main_v76 main_v77 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v77) main_call1.v0 main_call1.v1 maximumf,
    nullary main_cst_3 (constant S_ .f32 0x00000000#32),
    unary main_cst_3 main_v79 (broadcastInDim S512x128 ![] bcast_S_S512x128 : (⟨S_, .f32⟩ : BufTy).Contents (Elt F) → (⟨S512x128, .f32⟩ : BufTy).Contents (Elt F)),
    unary main_arg2 main_v80 (broadcastInDim S50000x1 ![0] bcast_S50000_S50000x1_0 : (⟨S50000, .i32⟩ : BufTy).Contents (Elt F) → (⟨S50000x1, .i32⟩ : BufTy).Contents (Elt F)),
    ternary main_v79 main_v80 main_v78 main_v81 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_c_4 (constantI S_ 32 0#32),
    unary main_c_4 main_v82 (broadcastInDim S800000 ![] bcast_S_S800000 : (⟨S_, .i32⟩ : BufTy).Contents (Elt F) → (⟨S800000, .i32⟩ : BufTy).Contents (Elt F)),
    binary main_v1 main_v82 main_v83 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v84 (broadcastInDim S800000 ![] bcast_S_S800000 : (⟨S_, .i32⟩ : BufTy).Contents (Elt F) → (⟨S800000, .i32⟩ : BufTy).Contents (Elt F)),
    binary main_v1 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v1 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v78 main_v87 main_v88 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v89 (broadcastInDim S50000x128 ![] bcast_S_S50000x128 : (⟨S_, .f32⟩ : BufTy).Contents (Elt F) → (⟨S50000x128, .f32⟩ : BufTy).Contents (Elt F)),
    unary main_v3 main_v90 (broadcastInDim S800000x1 ![0] bcast_S800000_S800000x1_0 : (⟨S800000, .i32⟩ : BufTy).Contents (Elt F) → (⟨S800000x1, .i32⟩ : BufTy).Contents (Elt F)),
    ternary main_v89 main_v90 main_v88 main_v91 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v91 main_v78 main_v92 (addf : (⟨S50000x128, .f32⟩ : BufTy).Contents (Elt F) → (⟨S50000x128, .f32⟩ : BufTy).Contents (Elt F) → (⟨S50000x128, .f32⟩ : BufTy).Contents (Elt F)),
    unary main_arg3 main_v93 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v93 main_v94 rfl shapeCasts_S1x128x128_S128x128,
    binary main_v92 main_v94 main_v95 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v96 ((extractStridedSlice S1x128 ![1, 0] · slices_S4x128_S1x128_1_0) : (⟨S4x128, .f32⟩ : BufTy).Contents (Elt F) → (⟨S1x128, .f32⟩ : BufTy).Contents (Elt F)),
    reshape main_v96 main_v97 rfl shapeCasts_S1x128_S128,
    unary main_v97 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v95 main_v99 main_v100 (addf : (⟨S50000x128, .f32⟩ : BufTy).Contents (Elt F) → (⟨S50000x128, .f32⟩ : BufTy).Contents (Elt F) → (⟨S50000x128, .f32⟩ : BufTy).Contents (Elt F)),
    unary main_arg5 main_v101 ((extractStridedSlice S1x128 ![1, 0] · slices_S4x128_S1x128_1_0) : (⟨S4x128, .f32⟩ : BufTy).Contents (Elt F) → (⟨S1x128, .f32⟩ : BufTy).Contents (Elt F)),
    reshape main_v101 main_v102 rfl shapeCasts_S1x128_S128,
    unary main_arg6 main_v103 ((extractStridedSlice S1x128 ![1, 0] · slices_S4x128_S1x128_1_0) : (⟨S4x128, .f32⟩ : BufTy).Contents (Elt F) → (⟨S1x128, .f32⟩ : BufTy).Contents (Elt F)),
    reshape main_v103 main_v104 rfl shapeCasts_S1x128_S128,
    unary main_arg7 main_v105 ((extractStridedSlice S1x128 ![1, 0] · slices_S4x128_S1x128_1_0) : (⟨S4x128, .f32⟩ : BufTy).Contents (Elt F) → (⟨S1x128, .f32⟩ : BufTy).Contents (Elt F)),
    reshape main_v105 main_v106 rfl shapeCasts_S1x128_S128,
    unary main_arg8 main_v107 ((extractStridedSlice S1x128 ![1, 0] · slices_S4x128_S1x128_1_0) : (⟨S4x128, .f32⟩ : BufTy).Contents (Elt F) → (⟨S1x128, .f32⟩ : BufTy).Contents (Elt F)),
    reshape main_v107 main_v108 rfl shapeCasts_S1x128_S128,
    unary main_v106 main_v109 (broadcastInDim S1x128 ![1] bcast_S128_S1x128_1 : (⟨S128, .f32⟩ : BufTy).Contents (Elt F) → (⟨S1x128, .f32⟩ : BufTy).Contents (Elt F)),
    unary main_v109 main_v110 (broadcastInDim S50000x128 ![0, 1] bcast_S1x128_S50000x128_0_1 : (⟨S1x128, .f32⟩ : BufTy).Contents (Elt F) → (⟨S50000x128, .f32⟩ : BufTy).Contents (Elt F)) ]

/-- The references ops1's operations write, in order. -/
abbrev writes1 : List (Ref sig .tc) :=
  [main_v56, main_v57, main_v58, main_v59, main_v60, main_v61, main_v62, main_v63, main_v64, main_v65, main_cst_2, main_v66, main_v67, main_v68, main_v69, main_v70, main_v71, main_v72, main_v73, main_v74, main_v75, main_v76, main_v77, main_call1_cst, main_call1_v0, main_v78, main_cst_3, main_v79, main_v80, main_v81, main_c_4, main_v82, main_v83, main_c_5, main_v84, main_v85, main_v86, main_v87, main_v88, main_cst_6, main_v89, main_v90, main_v91, main_v92, main_v93, main_v94, main_v95, main_v96, main_v97, main_v98, main_v99, main_v100, main_v101, main_v102, main_v103, main_v104, main_v105, main_v106, main_v107, main_v108, main_v109, main_v110]

set_option maxHeartbeats 4000000 in
/-- Operations 125 … 188 of @main. -/
abbrev ops2 : List (HloOp τ sig (Elt F)) :=
  [ binary main_v100 main_v110 main_v111 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v112 (broadcastInDim S128 ![] bcast_S_S128 : (⟨S_, .f32⟩ : BufTy).Contents (Elt F) → (⟨S128, .f32⟩ : BufTy).Contents (Elt F)),
    binary main_v108 main_v112 main_v113 (addf : (⟨S128, .f32⟩ : BufTy).Contents (Elt F) → (⟨S128, .f32⟩ : BufTy).Contents (Elt F) → (⟨S128, .f32⟩ : BufTy).Contents (Elt F)),
    unary main_v113 main_v114 (Host.rsqrt : (⟨S128, .f32⟩ : BufTy).Contents (Elt F) → (⟨S128, .f32⟩ : BufTy).Contents (Elt F)),
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v111 main_v116 main_v117 (mulf : (⟨S50000x128, .f32⟩ : BufTy).Contents (Elt F) → (⟨S50000x128, .f32⟩ : BufTy).Contents (Elt F) → (⟨S50000x128, .f32⟩ : BufTy).Contents (Elt F)),
    unary main_v102 main_v118 (broadcastInDim S1x128 ![1] bcast_S128_S1x128_1 : (⟨S128, .f32⟩ : BufTy).Contents (Elt F) → (⟨S1x128, .f32⟩ : BufTy).Contents (Elt F)),
    unary main_v118 main_v119 (broadcastInDim S50000x128 ![0, 1] bcast_S1x128_S50000x128_0_1 : (⟨S1x128, .f32⟩ : BufTy).Contents (Elt F) → (⟨S50000x128, .f32⟩ : BufTy).Contents (Elt F)),
    binary main_v117 main_v119 main_v120 (mulf : (⟨S50000x128, .f32⟩ : BufTy).Contents (Elt F) → (⟨S50000x128, .f32⟩ : BufTy).Contents (Elt F) → (⟨S50000x128, .f32⟩ : BufTy).Contents (Elt F)),
    unary main_v104 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v120 main_v122 main_v123 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v123) main_call2.v0 main_call2.v1 maximumf,
    unary main_arg9 main_v125 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v125 main_v126 rfl shapeCasts_S1x128x128_S128x128,
    binary main_v124 main_v126 main_v127 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v128 ((extractStridedSlice S1x128 ![1, 0] · slices_S4x128_S1x128_1_0) : (⟨S4x128, .f32⟩ : BufTy).Contents (Elt F) → (⟨S1x128, .f32⟩ : BufTy).Contents (Elt F)),
    reshape main_v128 main_v129 rfl shapeCasts_S1x128_S128,
    unary main_v129 main_v130 (broadcastInDim S1x128 ![1] bcast_S128_S1x128_1 : (⟨S128, .f32⟩ : BufTy).Contents (Elt F) → (⟨S1x128, .f32⟩ : BufTy).Contents (Elt F)),
    unary main_v130 main_v131 (broadcastInDim S50000x128 ![0, 1] bcast_S1x128_S50000x128_0_1 : (⟨S1x128, .f32⟩ : BufTy).Contents (Elt F) → (⟨S50000x128, .f32⟩ : BufTy).Contents (Elt F)),
    binary main_v127 main_v131 main_v132 (addf : (⟨S50000x128, .f32⟩ : BufTy).Contents (Elt F) → (⟨S50000x128, .f32⟩ : BufTy).Contents (Elt F) → (⟨S50000x128, .f32⟩ : BufTy).Contents (Elt F)),
    unary main_arg11 main_v133 ((extractStridedSlice S1x128 ![1, 0] · slices_S4x128_S1x128_1_0) : (⟨S4x128, .f32⟩ : BufTy).Contents (Elt F) → (⟨S1x128, .f32⟩ : BufTy).Contents (Elt F)),
    reshape main_v133 main_v134 rfl shapeCasts_S1x128_S128,
    unary main_arg12 main_v135 ((extractStridedSlice S1x128 ![1, 0] · slices_S4x128_S1x128_1_0) : (⟨S4x128, .f32⟩ : BufTy).Contents (Elt F) → (⟨S1x128, .f32⟩ : BufTy).Contents (Elt F)),
    reshape main_v135 main_v136 rfl shapeCasts_S1x128_S128,
    unary main_arg13 main_v137 ((extractStridedSlice S1x128 ![1, 0] · slices_S4x128_S1x128_1_0) : (⟨S4x128, .f32⟩ : BufTy).Contents (Elt F) → (⟨S1x128, .f32⟩ : BufTy).Contents (Elt F)),
    reshape main_v137 main_v138 rfl shapeCasts_S1x128_S128,
    unary main_arg14 main_v139 ((extractStridedSlice S1x128 ![1, 0] · slices_S4x128_S1x128_1_0) : (⟨S4x128, .f32⟩ : BufTy).Contents (Elt F) → (⟨S1x128, .f32⟩ : BufTy).Contents (Elt F)),
    reshape main_v139 main_v140 rfl shapeCasts_S1x128_S128,
    unary main_v138 main_v141 (broadcastInDim S1x128 ![1] bcast_S128_S1x128_1 : (⟨S128, .f32⟩ : BufTy).Contents (Elt F) → (⟨S1x128, .f32⟩ : BufTy).Contents (Elt F)),
    unary main_v141 main_v142 (broadcastInDim S50000x128 ![0, 1] bcast_S1x128_S50000x128_0_1 : (⟨S1x128, .f32⟩ : BufTy).Contents (Elt F) → (⟨S50000x128, .f32⟩ : BufTy).Contents (Elt F)),
    binary main_v132 main_v142 main_v143 (subf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v144 (broadcastInDim S128 ![] bcast_S_S128 : (⟨S_, .f32⟩ : BufTy).Contents (Elt F) → (⟨S128, .f32⟩ : BufTy).Contents (Elt F)),
    binary main_v140 main_v144 main_v145 (addf : (⟨S128, .f32⟩ : BufTy).Contents (Elt F) → (⟨S128, .f32⟩ : BufTy).Contents (Elt F) → (⟨S128, .f32⟩ : BufTy).Contents (Elt F)),
    unary main_v145 main_v146 (Host.rsqrt : (⟨S128, .f32⟩ : BufTy).Contents (Elt F) → (⟨S128, .f32⟩ : BufTy).Contents (Elt F)),
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S50000x128 ![0, 1] bcast_S1x128_S50000x128_0_1 : (⟨S1x128, .f32⟩ : BufTy).Contents (Elt F) → (⟨S50000x128, .f32⟩ : BufTy).Contents (Elt F)),
    binary main_v143 main_v148 main_v149 (mulf : (⟨S50000x128, .f32⟩ : BufTy).Contents (Elt F) → (⟨S50000x128, .f32⟩ : BufTy).Contents (Elt F) → (⟨S50000x128, .f32⟩ : BufTy).Contents (Elt F)),
    unary main_v134 main_v150 (broadcastInDim S1x128 ![1] bcast_S128_S1x128_1 : (⟨S128, .f32⟩ : BufTy).Contents (Elt F) → (⟨S1x128, .f32⟩ : BufTy).Contents (Elt F)),
    unary main_v150 main_v151 (broadcastInDim S50000x128 ![0, 1] bcast_S1x128_S50000x128_0_1 : (⟨S1x128, .f32⟩ : BufTy).Contents (Elt F) → (⟨S50000x128, .f32⟩ : BufTy).Contents (Elt F)),
    binary main_v149 main_v151 main_v152 (mulf : (⟨S50000x128, .f32⟩ : BufTy).Contents (Elt F) → (⟨S50000x128, .f32⟩ : BufTy).Contents (Elt F) → (⟨S50000x128, .f32⟩ : BufTy).Contents (Elt F)),
    unary main_v136 main_v153 (broadcastInDim S1x128 ![1] bcast_S128_S1x128_1 : (⟨S128, .f32⟩ : BufTy).Contents (Elt F) → (⟨S1x128, .f32⟩ : BufTy).Contents (Elt F)),
    unary main_v153 main_v154 (broadcastInDim S50000x128 ![0, 1] bcast_S1x128_S50000x128_0_1 : (⟨S1x128, .f32⟩ : BufTy).Contents (Elt F) → (⟨S50000x128, .f32⟩ : BufTy).Contents (Elt F)),
    binary main_v152 main_v154 main_v155 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v155) main_call3.v0 main_call3.v1 maximumf,
    nullary main_cst_9 (constant S_ .f32 0x00000000#32),
    unary main_cst_9 main_v157 (broadcastInDim S512x128 ![] bcast_S_S512x128 : (⟨S_, .f32⟩ : BufTy).Contents (Elt F) → (⟨S512x128, .f32⟩ : BufTy).Contents (Elt F)),
    unary main_arg2 main_v158 (broadcastInDim S50000x1 ![0] bcast_S50000_S50000x1_0 : (⟨S50000, .i32⟩ : BufTy).Contents (Elt F) → (⟨S50000x1, .i32⟩ : BufTy).Contents (Elt F)),
    ternary main_v157 main_v158 main_v156 main_v159 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_c_10 (constantI S_ 32 0#32),
    unary main_c_10 main_v160 (broadcastInDim S800000 ![] bcast_S_S800000 : (⟨S_, .i32⟩ : BufTy).Contents (Elt F) → (⟨S800000, .i32⟩ : BufTy).Contents (Elt F)),
    binary main_v1 main_v160 main_v161 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v162 (broadcastInDim S800000 ![] bcast_S_S800000 : (⟨S_, .i32⟩ : BufTy).Contents (Elt F) → (⟨S800000, .i32⟩ : BufTy).Contents (Elt F)),
    binary main_v1 main_v162 main_v163 (addi : (⟨S800000, .i32⟩ : BufTy).Contents (Elt F) → (⟨S800000, .i32⟩ : BufTy).Contents (Elt F) → (⟨S800000, .i32⟩ : BufTy).Contents (Elt F)),
    ternary main_v161 main_v163 main_v1 main_v164 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v164 main_v165 (broadcastInDim S800000x1 ![0] bcast_S800000_S800000x1_0 : (⟨S800000, .i32⟩ : BufTy).Contents (Elt F) → (⟨S800000x1, .i32⟩ : BufTy).Contents (Elt F)) ]

/-- The references ops2's operations write, in order. -/
abbrev writes2 : List (Ref sig .tc) :=
  [main_v111, main_cst_7, main_v112, main_v113, main_v114, main_v115, main_v116, main_v117, main_v118, main_v119, main_v120, main_v121, main_v122, main_v123, main_call2_cst, main_call2_v0, main_v124, main_v125, main_v126, main_v127, main_v128, main_v129, main_v130, main_v131, main_v132, main_v133, main_v134, main_v135, main_v136, main_v137, main_v138, main_v139, main_v140, main_v141, main_v142, main_v143, main_cst_8, main_v144, main_v145, main_v146, main_v147, main_v148, main_v149, main_v150, main_v151, main_v152, main_v153, main_v154, main_v155, main_call3_cst, main_call3_v0, main_v156, main_cst_9, main_v157, main_v158, main_v159, main_c_10, main_v160, main_v161, main_c_11, main_v162, main_v163, main_v164, main_v165]

set_option maxHeartbeats 4000000 in
/-- Operations 189 … 250 of @main. -/
abbrev ops3 : List (HloOp τ sig (Elt F)) :=
  [ binary main_v156 main_v165 main_v166 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v167 (broadcastInDim S50000x128 ![] bcast_S_S50000x128 : (⟨S_, .f32⟩ : BufTy).Contents (Elt F) → (⟨S50000x128, .f32⟩ : BufTy).Contents (Elt F)),
    unary main_v3 main_v168 (broadcastInDim S800000x1 ![0] bcast_S800000_S800000x1_0 : (⟨S800000, .i32⟩ : BufTy).Contents (Elt F) → (⟨S800000x1, .i32⟩ : BufTy).Contents (Elt F)),
    ternary main_v167 main_v168 main_v166 main_v169 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v169 main_v156 main_v170 (addf : (⟨S50000x128, .f32⟩ : BufTy).Contents (Elt F) → (⟨S50000x128, .f32⟩ : BufTy).Contents (Elt F) → (⟨S50000x128, .f32⟩ : BufTy).Contents (Elt F)),
    unary main_arg3 main_v171 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v171 main_v172 rfl shapeCasts_S1x128x128_S128x128,
    binary main_v170 main_v172 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v174 ((extractStridedSlice S1x128 ![2, 0] · slices_S4x128_S1x128_2_0) : (⟨S4x128, .f32⟩ : BufTy).Contents (Elt F) → (⟨S1x128, .f32⟩ : BufTy).Contents (Elt F)),
    reshape main_v174 main_v175 rfl shapeCasts_S1x128_S128,
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S50000x128 ![0, 1] bcast_S1x128_S50000x128_0_1 : (⟨S1x128, .f32⟩ : BufTy).Contents (Elt F) → (⟨S50000x128, .f32⟩ : BufTy).Contents (Elt F)),
    binary main_v173 main_v177 main_v178 (addf : (⟨S50000x128, .f32⟩ : BufTy).Contents (Elt F) → (⟨S50000x128, .f32⟩ : BufTy).Contents (Elt F) → (⟨S50000x128, .f32⟩ : BufTy).Contents (Elt F)),
    unary main_arg5 main_v179 ((extractStridedSlice S1x128 ![2, 0] · slices_S4x128_S1x128_2_0) : (⟨S4x128, .f32⟩ : BufTy).Contents (Elt F) → (⟨S1x128, .f32⟩ : BufTy).Contents (Elt F)),
    reshape main_v179 main_v180 rfl shapeCasts_S1x128_S128,
    unary main_arg6 main_v181 ((extractStridedSlice S1x128 ![2, 0] · slices_S4x128_S1x128_2_0) : (⟨S4x128, .f32⟩ : BufTy).Contents (Elt F) → (⟨S1x128, .f32⟩ : BufTy).Contents (Elt F)),
    reshape main_v181 main_v182 rfl shapeCasts_S1x128_S128,
    unary main_arg7 main_v183 ((extractStridedSlice S1x128 ![2, 0] · slices_S4x128_S1x128_2_0) : (⟨S4x128, .f32⟩ : BufTy).Contents (Elt F) → (⟨S1x128, .f32⟩ : BufTy).Contents (Elt F)),
    reshape main_v183 main_v184 rfl shapeCasts_S1x128_S128,
    unary main_arg8 main_v185 ((extractStridedSlice S1x128 ![2, 0] · slices_S4x128_S1x128_2_0) : (⟨S4x128, .f32⟩ : BufTy).Contents (Elt F) → (⟨S1x128, .f32⟩ : BufTy).Contents (Elt F)),
    reshape main_v185 main_v186 rfl shapeCasts_S1x128_S128,
    unary main_v184 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v178 main_v188 main_v189 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v190 (broadcastInDim S128 ![] bcast_S_S128 : (⟨S_, .f32⟩ : BufTy).Contents (Elt F) → (⟨S128, .f32⟩ : BufTy).Contents (Elt F)),
    binary main_v186 main_v190 main_v191 (addf : (⟨S128, .f32⟩ : BufTy).Contents (Elt F) → (⟨S128, .f32⟩ : BufTy).Contents (Elt F) → (⟨S128, .f32⟩ : BufTy).Contents (Elt F)),
    unary main_v191 main_v192 (Host.rsqrt : (⟨S128, .f32⟩ : BufTy).Contents (Elt F) → (⟨S128, .f32⟩ : BufTy).Contents (Elt F)),
    unary main_v192 main_v193 (broadcastInDim S1x128 ![1] bcast_S128_S1x128_1 : (⟨S128, .f32⟩ : BufTy).Contents (Elt F) → (⟨S1x128, .f32⟩ : BufTy).Contents (Elt F)),
    unary main_v193 main_v194 (broadcastInDim S50000x128 ![0, 1] bcast_S1x128_S50000x128_0_1 : (⟨S1x128, .f32⟩ : BufTy).Contents (Elt F) → (⟨S50000x128, .f32⟩ : BufTy).Contents (Elt F)),
    binary main_v189 main_v194 main_v195 (mulf : (⟨S50000x128, .f32⟩ : BufTy).Contents (Elt F) → (⟨S50000x128, .f32⟩ : BufTy).Contents (Elt F) → (⟨S50000x128, .f32⟩ : BufTy).Contents (Elt F)),
    unary main_v180 main_v196 (broadcastInDim S1x128 ![1] bcast_S128_S1x128_1 : (⟨S128, .f32⟩ : BufTy).Contents (Elt F) → (⟨S1x128, .f32⟩ : BufTy).Contents (Elt F)),
    unary main_v196 main_v197 (broadcastInDim S50000x128 ![0, 1] bcast_S1x128_S50000x128_0_1 : (⟨S1x128, .f32⟩ : BufTy).Contents (Elt F) → (⟨S50000x128, .f32⟩ : BufTy).Contents (Elt F)),
    binary main_v195 main_v197 main_v198 (mulf : (⟨S50000x128, .f32⟩ : BufTy).Contents (Elt F) → (⟨S50000x128, .f32⟩ : BufTy).Contents (Elt F) → (⟨S50000x128, .f32⟩ : BufTy).Contents (Elt F)),
    unary main_v182 main_v199 (broadcastInDim S1x128 ![1] bcast_S128_S1x128_1 : (⟨S128, .f32⟩ : BufTy).Contents (Elt F) → (⟨S1x128, .f32⟩ : BufTy).Contents (Elt F)),
    unary main_v199 main_v200 (broadcastInDim S50000x128 ![0, 1] bcast_S1x128_S50000x128_0_1 : (⟨S1x128, .f32⟩ : BufTy).Contents (Elt F) → (⟨S50000x128, .f32⟩ : BufTy).Contents (Elt F)),
    binary main_v198 main_v200 main_v201 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v201) main_call4.v0 main_call4.v1 maximumf,
    unary main_arg9 main_v203 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v203 main_v204 rfl shapeCasts_S1x128x128_S128x128,
    binary main_v202 main_v204 main_v205 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v206 ((extractStridedSlice S1x128 ![2, 0] · slices_S4x128_S1x128_2_0) : (⟨S4x128, .f32⟩ : BufTy).Contents (Elt F) → (⟨S1x128, .f32⟩ : BufTy).Contents (Elt F)),
    reshape main_v206 main_v207 rfl shapeCasts_S1x128_S128,
    unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S50000x128 ![0, 1] bcast_S1x128_S50000x128_0_1 : (⟨S1x128, .f32⟩ : BufTy).Contents (Elt F) → (⟨S50000x128, .f32⟩ : BufTy).Contents (Elt F)),
    binary main_v205 main_v209 main_v210 (addf : (⟨S50000x128, .f32⟩ : BufTy).Contents (Elt F) → (⟨S50000x128, .f32⟩ : BufTy).Contents (Elt F) → (⟨S50000x128, .f32⟩ : BufTy).Contents (Elt F)),
    unary main_arg11 main_v211 ((extractStridedSlice S1x128 ![2, 0] · slices_S4x128_S1x128_2_0) : (⟨S4x128, .f32⟩ : BufTy).Contents (Elt F) → (⟨S1x128, .f32⟩ : BufTy).Contents (Elt F)),
    reshape main_v211 main_v212 rfl shapeCasts_S1x128_S128,
    unary main_arg12 main_v213 ((extractStridedSlice S1x128 ![2, 0] · slices_S4x128_S1x128_2_0) : (⟨S4x128, .f32⟩ : BufTy).Contents (Elt F) → (⟨S1x128, .f32⟩ : BufTy).Contents (Elt F)),
    reshape main_v213 main_v214 rfl shapeCasts_S1x128_S128,
    unary main_arg13 main_v215 ((extractStridedSlice S1x128 ![2, 0] · slices_S4x128_S1x128_2_0) : (⟨S4x128, .f32⟩ : BufTy).Contents (Elt F) → (⟨S1x128, .f32⟩ : BufTy).Contents (Elt F)),
    reshape main_v215 main_v216 rfl shapeCasts_S1x128_S128,
    unary main_arg14 main_v217 ((extractStridedSlice S1x128 ![2, 0] · slices_S4x128_S1x128_2_0) : (⟨S4x128, .f32⟩ : BufTy).Contents (Elt F) → (⟨S1x128, .f32⟩ : BufTy).Contents (Elt F)),
    reshape main_v217 main_v218 rfl shapeCasts_S1x128_S128,
    unary main_v216 main_v219 (broadcastInDim S1x128 ![1] bcast_S128_S1x128_1 : (⟨S128, .f32⟩ : BufTy).Contents (Elt F) → (⟨S1x128, .f32⟩ : BufTy).Contents (Elt F)),
    unary main_v219 main_v220 (broadcastInDim S50000x128 ![0, 1] bcast_S1x128_S50000x128_0_1 : (⟨S1x128, .f32⟩ : BufTy).Contents (Elt F) → (⟨S50000x128, .f32⟩ : BufTy).Contents (Elt F)),
    binary main_v210 main_v220 main_v221 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v222 (broadcastInDim S128 ![] bcast_S_S128 : (⟨S_, .f32⟩ : BufTy).Contents (Elt F) → (⟨S128, .f32⟩ : BufTy).Contents (Elt F)) ]

/-- The references ops3's operations write, in order. -/
abbrev writes3 : List (Ref sig .tc) :=
  [main_v166, main_cst_12, main_v167, main_v168, main_v169, main_v170, main_v171, main_v172, main_v173, main_v174, main_v175, main_v176, main_v177, main_v178, main_v179, main_v180, main_v181, main_v182, main_v183, main_v184, main_v185, main_v186, main_v187, main_v188, main_v189, main_cst_13, main_v190, main_v191, main_v192, main_v193, main_v194, main_v195, main_v196, main_v197, main_v198, main_v199, main_v200, main_v201, main_call4_cst, main_call4_v0, main_v202, main_v203, main_v204, main_v205, main_v206, main_v207, main_v208, main_v209, main_v210, main_v211, main_v212, main_v213, main_v214, main_v215, main_v216, main_v217, main_v218, main_v219, main_v220, main_v221, main_cst_14, main_v222]

set_option maxHeartbeats 4000000 in
/-- Operations 251 … 312 of @main. -/
abbrev ops4 : List (HloOp τ sig (Elt F)) :=
  [ binary main_v218 main_v222 main_v223 (addf : (⟨S128, .f32⟩ : BufTy).Contents (Elt F) → (⟨S128, .f32⟩ : BufTy).Contents (Elt F) → (⟨S128, .f32⟩ : BufTy).Contents (Elt F)),
    unary main_v223 main_v224 (Host.rsqrt : (⟨S128, .f32⟩ : BufTy).Contents (Elt F) → (⟨S128, .f32⟩ : BufTy).Contents (Elt F)),
    unary main_v224 main_v225 (broadcastInDim S1x128 ![1] bcast_S128_S1x128_1 : (⟨S128, .f32⟩ : BufTy).Contents (Elt F) → (⟨S1x128, .f32⟩ : BufTy).Contents (Elt F)),
    unary main_v225 main_v226 (broadcastInDim S50000x128 ![0, 1] bcast_S1x128_S50000x128_0_1 : (⟨S1x128, .f32⟩ : BufTy).Contents (Elt F) → (⟨S50000x128, .f32⟩ : BufTy).Contents (Elt F)),
    binary main_v221 main_v226 main_v227 (mulf : (⟨S50000x128, .f32⟩ : BufTy).Contents (Elt F) → (⟨S50000x128, .f32⟩ : BufTy).Contents (Elt F) → (⟨S50000x128, .f32⟩ : BufTy).Contents (Elt F)),
    unary main_v212 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v227 main_v229 main_v230 (mulf : (⟨S50000x128, .f32⟩ : BufTy).Contents (Elt F) → (⟨S50000x128, .f32⟩ : BufTy).Contents (Elt F) → (⟨S50000x128, .f32⟩ : BufTy).Contents (Elt F)),
    unary main_v214 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v230 main_v232 main_v233 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v233) main_call5.v0 main_call5.v1 maximumf,
    nullary main_cst_15 (constant S_ .f32 0x00000000#32),
    unary main_cst_15 main_v235 (broadcastInDim S512x128 ![] bcast_S_S512x128 : (⟨S_, .f32⟩ : BufTy).Contents (Elt F) → (⟨S512x128, .f32⟩ : BufTy).Contents (Elt F)),
    unary main_arg2 main_v236 (broadcastInDim S50000x1 ![0] bcast_S50000_S50000x1_0 : (⟨S50000, .i32⟩ : BufTy).Contents (Elt F) → (⟨S50000x1, .i32⟩ : BufTy).Contents (Elt F)),
    ternary main_v235 main_v236 main_v234 main_v237 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_c_16 (constantI S_ 32 0#32),
    unary main_c_16 main_v238 (broadcastInDim S800000 ![] bcast_S_S800000 : (⟨S_, .i32⟩ : BufTy).Contents (Elt F) → (⟨S800000, .i32⟩ : BufTy).Contents (Elt F)),
    binary main_v1 main_v238 main_v239 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v240 (broadcastInDim S800000 ![] bcast_S_S800000 : (⟨S_, .i32⟩ : BufTy).Contents (Elt F) → (⟨S800000, .i32⟩ : BufTy).Contents (Elt F)),
    binary main_v1 main_v240 main_v241 (addi : (⟨S800000, .i32⟩ : BufTy).Contents (Elt F) → (⟨S800000, .i32⟩ : BufTy).Contents (Elt F) → (⟨S800000, .i32⟩ : BufTy).Contents (Elt F)),
    ternary main_v239 main_v241 main_v1 main_v242 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v242 main_v243 (broadcastInDim S800000x1 ![0] bcast_S800000_S800000x1_0 : (⟨S800000, .i32⟩ : BufTy).Contents (Elt F) → (⟨S800000x1, .i32⟩ : BufTy).Contents (Elt F)),
    binary main_v234 main_v243 main_v244 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_18 (constant S_ .f32 0x00000000#32),
    unary main_cst_18 main_v245 (broadcastInDim S50000x128 ![] bcast_S_S50000x128 : (⟨S_, .f32⟩ : BufTy).Contents (Elt F) → (⟨S50000x128, .f32⟩ : BufTy).Contents (Elt F)),
    unary main_v3 main_v246 (broadcastInDim S800000x1 ![0] bcast_S800000_S800000x1_0 : (⟨S800000, .i32⟩ : BufTy).Contents (Elt F) → (⟨S800000x1, .i32⟩ : BufTy).Contents (Elt F)),
    ternary main_v245 main_v246 main_v244 main_v247 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v247 main_v234 main_v248 (addf : (⟨S50000x128, .f32⟩ : BufTy).Contents (Elt F) → (⟨S50000x128, .f32⟩ : BufTy).Contents (Elt F) → (⟨S50000x128, .f32⟩ : BufTy).Contents (Elt F)),
    unary main_arg3 main_v249 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v249 main_v250 rfl shapeCasts_S1x128x128_S128x128,
    binary main_v248 main_v250 main_v251 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v252 ((extractStridedSlice S1x128 ![3, 0] · slices_S4x128_S1x128_3_0) : (⟨S4x128, .f32⟩ : BufTy).Contents (Elt F) → (⟨S1x128, .f32⟩ : BufTy).Contents (Elt F)),
    reshape main_v252 main_v253 rfl shapeCasts_S1x128_S128,
    unary main_v253 main_v254 (broadcastInDim S1x128 ![1] bcast_S128_S1x128_1 : (⟨S128, .f32⟩ : BufTy).Contents (Elt F) → (⟨S1x128, .f32⟩ : BufTy).Contents (Elt F)),
    unary main_v254 main_v255 (broadcastInDim S50000x128 ![0, 1] bcast_S1x128_S50000x128_0_1 : (⟨S1x128, .f32⟩ : BufTy).Contents (Elt F) → (⟨S50000x128, .f32⟩ : BufTy).Contents (Elt F)),
    binary main_v251 main_v255 main_v256 (addf : (⟨S50000x128, .f32⟩ : BufTy).Contents (Elt F) → (⟨S50000x128, .f32⟩ : BufTy).Contents (Elt F) → (⟨S50000x128, .f32⟩ : BufTy).Contents (Elt F)),
    unary main_arg5 main_v257 ((extractStridedSlice S1x128 ![3, 0] · slices_S4x128_S1x128_3_0) : (⟨S4x128, .f32⟩ : BufTy).Contents (Elt F) → (⟨S1x128, .f32⟩ : BufTy).Contents (Elt F)),
    reshape main_v257 main_v258 rfl shapeCasts_S1x128_S128,
    unary main_arg6 main_v259 ((extractStridedSlice S1x128 ![3, 0] · slices_S4x128_S1x128_3_0) : (⟨S4x128, .f32⟩ : BufTy).Contents (Elt F) → (⟨S1x128, .f32⟩ : BufTy).Contents (Elt F)),
    reshape main_v259 main_v260 rfl shapeCasts_S1x128_S128,
    unary main_arg7 main_v261 ((extractStridedSlice S1x128 ![3, 0] · slices_S4x128_S1x128_3_0) : (⟨S4x128, .f32⟩ : BufTy).Contents (Elt F) → (⟨S1x128, .f32⟩ : BufTy).Contents (Elt F)),
    reshape main_v261 main_v262 rfl shapeCasts_S1x128_S128,
    unary main_arg8 main_v263 ((extractStridedSlice S1x128 ![3, 0] · slices_S4x128_S1x128_3_0) : (⟨S4x128, .f32⟩ : BufTy).Contents (Elt F) → (⟨S1x128, .f32⟩ : BufTy).Contents (Elt F)),
    reshape main_v263 main_v264 rfl shapeCasts_S1x128_S128,
    unary main_v262 main_v265 (broadcastInDim S1x128 ![1] bcast_S128_S1x128_1 : (⟨S128, .f32⟩ : BufTy).Contents (Elt F) → (⟨S1x128, .f32⟩ : BufTy).Contents (Elt F)),
    unary main_v265 main_v266 (broadcastInDim S50000x128 ![0, 1] bcast_S1x128_S50000x128_0_1 : (⟨S1x128, .f32⟩ : BufTy).Contents (Elt F) → (⟨S50000x128, .f32⟩ : BufTy).Contents (Elt F)),
    binary main_v256 main_v266 main_v267 (subf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3727C5AC#32),
    unary main_cst_19 main_v268 (broadcastInDim S128 ![] bcast_S_S128 : (⟨S_, .f32⟩ : BufTy).Contents (Elt F) → (⟨S128, .f32⟩ : BufTy).Contents (Elt F)),
    binary main_v264 main_v268 main_v269 (addf : (⟨S128, .f32⟩ : BufTy).Contents (Elt F) → (⟨S128, .f32⟩ : BufTy).Contents (Elt F) → (⟨S128, .f32⟩ : BufTy).Contents (Elt F)),
    unary main_v269 main_v270 (Host.rsqrt : (⟨S128, .f32⟩ : BufTy).Contents (Elt F) → (⟨S128, .f32⟩ : BufTy).Contents (Elt F)),
    unary main_v270 main_v271 (broadcastInDim S1x128 ![1] bcast_S128_S1x128_1 : (⟨S128, .f32⟩ : BufTy).Contents (Elt F) → (⟨S1x128, .f32⟩ : BufTy).Contents (Elt F)),
    unary main_v271 main_v272 (broadcastInDim S50000x128 ![0, 1] bcast_S1x128_S50000x128_0_1 : (⟨S1x128, .f32⟩ : BufTy).Contents (Elt F) → (⟨S50000x128, .f32⟩ : BufTy).Contents (Elt F)),
    binary main_v267 main_v272 main_v273 (mulf : (⟨S50000x128, .f32⟩ : BufTy).Contents (Elt F) → (⟨S50000x128, .f32⟩ : BufTy).Contents (Elt F) → (⟨S50000x128, .f32⟩ : BufTy).Contents (Elt F)),
    unary main_v258 main_v274 (broadcastInDim S1x128 ![1] bcast_S128_S1x128_1 : (⟨S128, .f32⟩ : BufTy).Contents (Elt F) → (⟨S1x128, .f32⟩ : BufTy).Contents (Elt F)),
    unary main_v274 main_v275 (broadcastInDim S50000x128 ![0, 1] bcast_S1x128_S50000x128_0_1 : (⟨S1x128, .f32⟩ : BufTy).Contents (Elt F) → (⟨S50000x128, .f32⟩ : BufTy).Contents (Elt F)),
    binary main_v273 main_v275 main_v276 (mulf : (⟨S50000x128, .f32⟩ : BufTy).Contents (Elt F) → (⟨S50000x128, .f32⟩ : BufTy).Contents (Elt F) → (⟨S50000x128, .f32⟩ : BufTy).Contents (Elt F)),
    unary main_v260 main_v277 (broadcastInDim S1x128 ![1] bcast_S128_S1x128_1 : (⟨S128, .f32⟩ : BufTy).Contents (Elt F) → (⟨S1x128, .f32⟩ : BufTy).Contents (Elt F)) ]

/-- The references ops4's operations write, in order. -/
abbrev writes4 : List (Ref sig .tc) :=
  [main_v223, main_v224, main_v225, main_v226, main_v227, main_v228, main_v229, main_v230, main_v231, main_v232, main_v233, main_call5_cst, main_call5_v0, main_v234, main_cst_15, main_v235, main_v236, main_v237, main_c_16, main_v238, main_v239, main_c_17, main_v240, main_v241, main_v242, main_v243, main_v244, main_cst_18, main_v245, main_v246, main_v247, main_v248, main_v249, main_v250, main_v251, main_v252, main_v253, main_v254, main_v255, main_v256, main_v257, main_v258, main_v259, main_v260, main_v261, main_v262, main_v263, main_v264, main_v265, main_v266, main_v267, main_cst_19, main_v268, main_v269, main_v270, main_v271, main_v272, main_v273, main_v274, main_v275, main_v276, main_v277]

set_option maxHeartbeats 4000000 in
/-- Operations 313 … 356 of @main. -/
abbrev ops5 : List (HloOp τ sig (Elt F)) :=
  [ unary main_v277 main_v278 (broadcastInDim S50000x128 ![0, 1] bcast_S1x128_S50000x128_0_1 : (⟨S1x128, .f32⟩ : BufTy).Contents (Elt F) → (⟨S50000x128, .f32⟩ : BufTy).Contents (Elt F)),
    binary main_v276 main_v278 main_v279 (addf : (⟨S50000x128, .f32⟩ : BufTy).Contents (Elt F) → (⟨S50000x128, .f32⟩ : BufTy).Contents (Elt F) → (⟨S50000x128, .f32⟩ : BufTy).Contents (Elt F)),
    TRef.nullary main_call6.cst (constant S_ .f32 0x00000000#32),
    TRef.unary main_call6.cst main_call6.v0 (broadcastInDim S50000x128 ![] bcast_S_S50000x128),
    TRef.binary (.of main_v279) main_call6.v0 main_call6.v1 maximumf,
    unary main_arg9 main_v281 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v281 main_v282 rfl shapeCasts_S1x128x128_S128x128,
    binary main_v280 main_v282 main_v283 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v284 ((extractStridedSlice S1x128 ![3, 0] · slices_S4x128_S1x128_3_0) : (⟨S4x128, .f32⟩ : BufTy).Contents (Elt F) → (⟨S1x128, .f32⟩ : BufTy).Contents (Elt F)),
    reshape main_v284 main_v285 rfl shapeCasts_S1x128_S128,
    unary main_v285 main_v286 (broadcastInDim S1x128 ![1] bcast_S128_S1x128_1 : (⟨S128, .f32⟩ : BufTy).Contents (Elt F) → (⟨S1x128, .f32⟩ : BufTy).Contents (Elt F)),
    unary main_v286 main_v287 (broadcastInDim S50000x128 ![0, 1] bcast_S1x128_S50000x128_0_1 : (⟨S1x128, .f32⟩ : BufTy).Contents (Elt F) → (⟨S50000x128, .f32⟩ : BufTy).Contents (Elt F)),
    binary main_v283 main_v287 main_v288 (addf : (⟨S50000x128, .f32⟩ : BufTy).Contents (Elt F) → (⟨S50000x128, .f32⟩ : BufTy).Contents (Elt F) → (⟨S50000x128, .f32⟩ : BufTy).Contents (Elt F)),
    unary main_arg11 main_v289 ((extractStridedSlice S1x128 ![3, 0] · slices_S4x128_S1x128_3_0) : (⟨S4x128, .f32⟩ : BufTy).Contents (Elt F) → (⟨S1x128, .f32⟩ : BufTy).Contents (Elt F)),
    reshape main_v289 main_v290 rfl shapeCasts_S1x128_S128,
    unary main_arg12 main_v291 ((extractStridedSlice S1x128 ![3, 0] · slices_S4x128_S1x128_3_0) : (⟨S4x128, .f32⟩ : BufTy).Contents (Elt F) → (⟨S1x128, .f32⟩ : BufTy).Contents (Elt F)),
    reshape main_v291 main_v292 rfl shapeCasts_S1x128_S128,
    unary main_arg13 main_v293 ((extractStridedSlice S1x128 ![3, 0] · slices_S4x128_S1x128_3_0) : (⟨S4x128, .f32⟩ : BufTy).Contents (Elt F) → (⟨S1x128, .f32⟩ : BufTy).Contents (Elt F)),
    reshape main_v293 main_v294 rfl shapeCasts_S1x128_S128,
    unary main_arg14 main_v295 ((extractStridedSlice S1x128 ![3, 0] · slices_S4x128_S1x128_3_0) : (⟨S4x128, .f32⟩ : BufTy).Contents (Elt F) → (⟨S1x128, .f32⟩ : BufTy).Contents (Elt F)),
    reshape main_v295 main_v296 rfl shapeCasts_S1x128_S128,
    unary main_v294 main_v297 (broadcastInDim S1x128 ![1] bcast_S128_S1x128_1 : (⟨S128, .f32⟩ : BufTy).Contents (Elt F) → (⟨S1x128, .f32⟩ : BufTy).Contents (Elt F)),
    unary main_v297 main_v298 (broadcastInDim S50000x128 ![0, 1] bcast_S1x128_S50000x128_0_1 : (⟨S1x128, .f32⟩ : BufTy).Contents (Elt F) → (⟨S50000x128, .f32⟩ : BufTy).Contents (Elt F)),
    binary main_v288 main_v298 main_v299 (subf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x3727C5AC#32),
    unary main_cst_20 main_v300 (broadcastInDim S128 ![] bcast_S_S128 : (⟨S_, .f32⟩ : BufTy).Contents (Elt F) → (⟨S128, .f32⟩ : BufTy).Contents (Elt F)),
    binary main_v296 main_v300 main_v301 (addf : (⟨S128, .f32⟩ : BufTy).Contents (Elt F) → (⟨S128, .f32⟩ : BufTy).Contents (Elt F) → (⟨S128, .f32⟩ : BufTy).Contents (Elt F)),
    unary main_v301 main_v302 (Host.rsqrt : (⟨S128, .f32⟩ : BufTy).Contents (Elt F) → (⟨S128, .f32⟩ : BufTy).Contents (Elt F)),
    unary main_v302 main_v303 (broadcastInDim S1x128 ![1] bcast_S128_S1x128_1 : (⟨S128, .f32⟩ : BufTy).Contents (Elt F) → (⟨S1x128, .f32⟩ : BufTy).Contents (Elt F)),
    unary main_v303 main_v304 (broadcastInDim S50000x128 ![0, 1] bcast_S1x128_S50000x128_0_1 : (⟨S1x128, .f32⟩ : BufTy).Contents (Elt F) → (⟨S50000x128, .f32⟩ : BufTy).Contents (Elt F)),
    binary main_v299 main_v304 main_v305 (mulf : (⟨S50000x128, .f32⟩ : BufTy).Contents (Elt F) → (⟨S50000x128, .f32⟩ : BufTy).Contents (Elt F) → (⟨S50000x128, .f32⟩ : BufTy).Contents (Elt F)),
    unary main_v290 main_v306 (broadcastInDim S1x128 ![1] bcast_S128_S1x128_1 : (⟨S128, .f32⟩ : BufTy).Contents (Elt F) → (⟨S1x128, .f32⟩ : BufTy).Contents (Elt F)),
    unary main_v306 main_v307 (broadcastInDim S50000x128 ![0, 1] bcast_S1x128_S50000x128_0_1 : (⟨S1x128, .f32⟩ : BufTy).Contents (Elt F) → (⟨S50000x128, .f32⟩ : BufTy).Contents (Elt F)),
    binary main_v305 main_v307 main_v308 (mulf : (⟨S50000x128, .f32⟩ : BufTy).Contents (Elt F) → (⟨S50000x128, .f32⟩ : BufTy).Contents (Elt F) → (⟨S50000x128, .f32⟩ : BufTy).Contents (Elt F)),
    unary main_v292 main_v309 (broadcastInDim S1x128 ![1] bcast_S128_S1x128_1 : (⟨S128, .f32⟩ : BufTy).Contents (Elt F) → (⟨S1x128, .f32⟩ : BufTy).Contents (Elt F)),
    unary main_v309 main_v310 (broadcastInDim S50000x128 ![0, 1] bcast_S1x128_S50000x128_0_1 : (⟨S1x128, .f32⟩ : BufTy).Contents (Elt F) → (⟨S50000x128, .f32⟩ : BufTy).Contents (Elt F)),
    binary main_v308 main_v310 main_v311 (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v311) main_call7.v0 main_call7.v1 maximumf,
    nullary main_cst_21 (constant S_ .f32 0x00000000#32),
    unary main_cst_21 main_v313 (broadcastInDim S512x128 ![] bcast_S_S512x128 : (⟨S_, .f32⟩ : BufTy).Contents (Elt F) → (⟨S512x128, .f32⟩ : BufTy).Contents (Elt F)),
    unary main_arg2 main_v314 (broadcastInDim S50000x1 ![0] bcast_S50000_S50000x1_0 : (⟨S50000, .i32⟩ : BufTy).Contents (Elt F) → (⟨S50000x1, .i32⟩ : BufTy).Contents (Elt F)),
    ternary main_v313 main_v314 main_v312 main_v315 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)) ]

/-- The references ops5's operations write, in order. -/
abbrev writes5 : List (Ref sig .tc) :=
  [main_v278, main_v279, main_call6_cst, main_call6_v0, main_v280, main_v281, main_v282, main_v283, main_v284, main_v285, main_v286, main_v287, main_v288, main_v289, main_v290, main_v291, main_v292, main_v293, main_v294, main_v295, main_v296, main_v297, main_v298, main_v299, main_cst_20, main_v300, main_v301, main_v302, main_v303, main_v304, main_v305, main_v306, main_v307, main_v308, main_v309, main_v310, main_v311, main_call7_cst, main_call7_v0, main_v312, main_cst_21, main_v313, main_v314, main_v315]

set_option maxHeartbeats 4000000 in
/-- Operations 357 … 368 of @main. -/
abbrev ops6 : List (HloOp τ sig (Elt F)) :=
  [ nary ![main_v81, main_v159, main_v237, main_v315] main_v316 (fun u => concatenate S512x512 1 [⟨S512x128, u 0⟩, ⟨S512x128, u 1⟩, ⟨S512x128, u 2⟩, ⟨S512x128, u 3⟩] concatenates_S512x128_S512x128_S512x128_S512x128_S512x512_d1),
    binary main_v316 main_arg15 main_v317 ((fun l r => Host.dotGeneral dot_S512x512_S512x128_S512x128_1_0_0_1_n_n none l r) : (⟨S512x512, .f32⟩ : BufTy).Contents (Elt F) → (⟨S512x128, .f32⟩ : BufTy).Contents (Elt F) → (⟨S512x128, .f32⟩ : BufTy).Contents (Elt F)),
    unary main_arg16 main_v318 (broadcastInDim S1x128 ![1] bcast_S128_S1x128_1 : (⟨S128, .f32⟩ : BufTy).Contents (Elt F) → (⟨S1x128, .f32⟩ : BufTy).Contents (Elt F)),
    unary main_v318 main_v319 (broadcastInDim S512x128 ![0, 1] bcast_S1x128_S512x128_0_1 : (⟨S1x128, .f32⟩ : BufTy).Contents (Elt F) → (⟨S512x128, .f32⟩ : BufTy).Contents (Elt F)),
    binary main_v317 main_v319 main_v320 (addf : (⟨S512x128, .f32⟩ : BufTy).Contents (Elt F) → (⟨S512x128, .f32⟩ : BufTy).Contents (Elt F) → (⟨S512x128, .f32⟩ : BufTy).Contents (Elt F)),
    TRef.nullary main_call8.cst (constant S_ .f32 0x00000000#32),
    TRef.unary main_call8.cst main_call8.v0 (broadcastInDim S512x128 ![] bcast_S_S512x128),
    TRef.binary (.of main_v320) main_call8.v0 main_call8.v1 maximumf,
    binary main_v321 main_arg17 main_v322 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    unary main_arg18 main_v323 (broadcastInDim S1x10 ![1] bcast_S10_S1x10_1 : (⟨S10, .f32⟩ : BufTy).Contents (Elt F) → (⟨S1x10, .f32⟩ : BufTy).Contents (Elt F)),
    unary main_v323 main_v324 (broadcastInDim S512x10 ![0, 1] bcast_S1x10_S512x10_0_1 : (⟨S1x10, .f32⟩ : BufTy).Contents (Elt F) → (⟨S512x10, .f32⟩ : BufTy).Contents (Elt F)),
    binary main_v322 main_v324 main_v325 (addf : (⟨S512x10, .f32⟩ : BufTy).Contents (Elt F) → (⟨S512x10, .f32⟩ : BufTy).Contents (Elt F) → (⟨S512x10, .f32⟩ : BufTy).Contents (Elt F)) ]

/-- The references ops6's operations write, in order. -/
abbrev writes6 : List (Ref sig .tc) :=
  [main_v316, main_v317, main_v318, main_v319, main_v320, main_call8_cst, main_call8_v0, main_v321, main_v322, main_v323, main_v324, main_v325]

end Cert.ReferenceIdeal.Hand

end
-- ==== Proof.Ref.Kept.lean ====
/- The arguments of the reference program's @main are written by none of its operations. `ArgsKept V W`: the valuation `W`
   holds at each of the nineteen arguments what `V` holds there; a line of operations none of which writes an argument
   keeps that. Then the stages (RefRead.lean's `val_main_vN`) that one window of @main hands to a later one, written at a
   launch valuation's contents of the arguments, two tactics for the side conditions of a literal line of operations, and what
   the buffers hold where each window ends (`Inv1` … `Inv7`). -/
import proofs.«426741_j36421322670671_1_alg».proof.Proof.RefRead
import Idealize.ShloMosaic.Lib.StableHlo.Run

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The nineteen arguments of @main. -/
abbrev argRefs : List (Ref sig .tc) :=
  [main_arg0, main_arg1, main_arg2, main_arg3, main_arg4, main_arg5, main_arg6, main_arg7, main_arg8, main_arg9,
    main_arg10, main_arg11, main_arg12, main_arg13, main_arg14, main_arg15, main_arg16, main_arg17, main_arg18]

/-- The valuation `W` holds at every argument of @main what `V` holds there. -/
def ArgsKept (V W : Valuation τ sig (Elt F)) : Prop :=
  ∀ r ∈ argRefs, W (Proc.devRef .tc r) = V (Proc.devRef .tc r)

theorem ArgsKept.refl (V : Valuation τ sig (Elt F)) : ArgsKept V V := fun _ _ => rfl

/-- A line of operations whose written references (all among `wr`) include no argument keeps the arguments. -/
theorem ArgsKept.after {V W : Valuation τ sig (Elt F)} (h : ArgsKept V W) (ops : List (HloOp τ sig (Elt F)))
    (wr : List (Ref sig .tc))
    (hw : ops.Forall fun op => op.writes ⊆ (wr.map (Proc.devRef (τ := τ) .tc)).toFinset)
    (hd : ∀ r ∈ argRefs, r ∉ wr) : ArgsKept V (after ops W) :=
  fun r hr => (after_of_writes_sub ops W hw (hd r hr)).trans (h r hr)

section
variable {V W : Valuation τ sig (Elt F)} (h : ArgsKept V W)
include h
theorem ArgsKept.a0 : W (main_arg0 : DevRef τ sig) = V (main_arg0 : DevRef τ sig) := h main_arg0 (by decide)
theorem ArgsKept.a1 : W (main_arg1 : DevRef τ sig) = V (main_arg1 : DevRef τ sig) := h main_arg1 (by decide)
theorem ArgsKept.a2 : W (main_arg2 : DevRef τ sig) = V (main_arg2 : DevRef τ sig) := h main_arg2 (by decide)
theorem ArgsKept.a3 : W (main_arg3 : DevRef τ sig) = V (main_arg3 : DevRef τ sig) := h main_arg3 (by decide)
theorem ArgsKept.a4 : W (main_arg4 : DevRef τ sig) = V (main_arg4 : DevRef τ sig) := h main_arg4 (by decide)
theorem ArgsKept.a5 : W (main_arg5 : DevRef τ sig) = V (main_arg5 : DevRef τ sig) := h main_arg5 (by decide)
theorem ArgsKept.a6 : W (main_arg6 : DevRef τ sig) = V (main_arg6 : DevRef τ sig) := h main_arg6 (by decide)
theorem ArgsKept.a7 : W (main_arg7 : DevRef τ sig) = V (main_arg7 : DevRef τ sig) := h main_arg7 (by decide)
theorem ArgsKept.a8 : W (main_arg8 : DevRef τ sig) = V (main_arg8 : DevRef τ sig) := h main_arg8 (by decide)
theorem ArgsKept.a9 : W (main_arg9 : DevRef τ sig) = V (main_arg9 : DevRef τ sig) := h main_arg9 (by decide)
theorem ArgsKept.a10 : W (main_arg10 : DevRef τ sig) = V (main_arg10 : DevRef τ sig) := h main_arg10 (by decide)
theorem ArgsKept.a11 : W (main_arg11 : DevRef τ sig) = V (main_arg11 : DevRef τ sig) := h main_arg11 (by decide)
theorem ArgsKept.a12 : W (main_arg12 : DevRef τ sig) = V (main_arg12 : DevRef τ sig) := h main_arg12 (by decide)
theorem ArgsKept.a13 : W (main_arg13 : DevRef τ sig) = V (main_arg13 : DevRef τ sig) := h main_arg13 (by decide)
theorem ArgsKept.a14 : W (main_arg14 : DevRef τ sig) = V (main_arg14 : DevRef τ sig) := h main_arg14 (by decide)
theorem ArgsKept.a15 : W (main_arg15 : DevRef τ sig) = V (main_arg15 : DevRef τ sig) := h main_arg15 (by decide)
theorem ArgsKept.a16 : W (main_arg16 : DevRef τ sig) = V (main_arg16 : DevRef τ sig) := h main_arg16 (by decide)
theorem ArgsKept.a17 : W (main_arg17 : DevRef τ sig) = V (main_arg17 : DevRef τ sig) := h main_arg17 (by decide)
theorem ArgsKept.a18 : W (main_arg18 : DevRef τ sig) = V (main_arg18 : DevRef τ sig) := h main_arg18 (by decide)
end

/-- Closes `ops.Forall fun op => op.writes ⊆ (wr.map (Proc.devRef .tc)).toFinset` for a literal line `ops` and a literal
    table `wr` holding each operation's result reference: each operation writes its one result, a member of the table. -/
macro "writes_in_table" : tactic =>
  `(tactic| (simp only [List.Forall, nullary_writes, unary_writes, binary_writes, ternary_writes, reshape_writes, nary_writes,
                Finset.singleton_subset_iff, List.mem_toFinset]
             repeat' apply And.intro
             all_goals exact List.mem_map_of_mem (by decide)))

/-- Closes `ops.Forall fun op => op.bufs ⊆ tcRefs τ sig` for a literal line of the builders' operations. -/
macro "bufs_in_tc" : tactic =>
  `(tactic| (simp only [List.Forall, nullary_bufs_sub, unary_bufs_sub, binary_bufs_sub, ternary_bufs_sub, reshape_bufs_sub,
                nary_bufs_sub, and_self]))

/-! ## The stages the windows hand over, at a launch valuation

A stage of RefRead.lean takes the arguments of @main it depends on; here each stage that one window of @main leaves for a
later one is written at the contents `V` holds at those arguments. -/

section Stages
variable (V : Valuation τ sig (Elt F))

/-- The source and destination node of every edge (rows 0 and 1 of the edge table, as vectors). -/
abbrev stage_v1 := val_main_v1 (F := F) (V (main_arg1 : DevRef τ sig))
abbrev stage_v3 := val_main_v3 (F := F) (V (main_arg1 : DevRef τ sig))
/-- Layer 0: the second linear map plus its bias (v54), and row 0 of the second norm's scale table (v55). -/
abbrev stage_v54 := val_main_v54 (F := F) (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))
abbrev stage_v55 := val_main_v55 (F := F) (V (main_arg11 : DevRef τ sig))
/-- Layer 0's pooled features. -/
abbrev stage_v81 := val_main_v81 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
/-- Layer 1: the first linear map plus its bias (v100), and the first norm's scale (v102), shift (v104) and variance (v108) rows and its mean broadcast over the nodes (v110). -/
abbrev stage_v100 := val_main_v100 (F := F) (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
abbrev stage_v102 := val_main_v102 (F := F) (V (main_arg5 : DevRef τ sig))
abbrev stage_v104 := val_main_v104 (F := F) (V (main_arg6 : DevRef τ sig))
abbrev stage_v108 := val_main_v108 (F := F) (V (main_arg8 : DevRef τ sig))
abbrev stage_v110 := val_main_v110 (F := F) (V (main_arg7 : DevRef τ sig))
/-- Layer 1's node features, its pooled features, and the gather indices of layer 2. -/
abbrev stage_v156 := val_main_v156 (F := F) (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
abbrev stage_v159 := val_main_v159 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
abbrev stage_v165 := val_main_v165 (F := F) (V (main_arg1 : DevRef τ sig))
/-- Layer 2: the second norm's scale (v212), shift (v214) and variance (v218) rows, the second linear map plus its bias minus that norm's mean (v221). -/
abbrev stage_v212 := val_main_v212 (F := F) (V (main_arg11 : DevRef τ sig))
abbrev stage_v214 := val_main_v214 (F := F) (V (main_arg12 : DevRef τ sig))
abbrev stage_v218 := val_main_v218 (F := F) (V (main_arg14 : DevRef τ sig))
abbrev stage_v221 := val_main_v221 (F := F) (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
/-- Layer 2's pooled features. -/
abbrev stage_v237 := val_main_v237 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
/-- Layer 3: the first norm's centred, scaled value before its shift is added (v276), and the shift row (v277). -/
abbrev stage_v276 := val_main_v276 (F := F) (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
abbrev stage_v277 := val_main_v277 (F := F) (V (main_arg6 : DevRef τ sig))
/-- Layer 3's pooled features. -/
abbrev stage_v315 := val_main_v315 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig))
/-- The result: the classifier on the four pooled layers. -/
abbrev stage_v325 := val_main_v325 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig))

end Stages

/-! ## What the buffers hold where each window of @main ends

`V` is the launch valuation, `W` the contents once the windows so far have run: the arguments are kept, and every buffer
written so far that a later window still reads holds its stage. -/

/-- After window 0 (operations 1 … 62): the edge endpoints, and layer 0 up to its second linear map. -/
structure Inv1 (V W : Valuation τ sig (Elt F)) : Prop where
  args : ArgsKept V W
  v1 : W (main_v1 : DevRef τ sig) = stage_v1 V
  v3 : W (main_v3 : DevRef τ sig) = stage_v3 V
  v54 : W (main_v54 : DevRef τ sig) = stage_v54 V
  v55 : W (main_v55 : DevRef τ sig) = stage_v55 V

/-- After window 1 (operations 63 … 124): layer 0 pooled, layer 1 up to its first linear map and the first norm's rows. -/
structure Inv2 (V W : Valuation τ sig (Elt F)) : Prop where
  args : ArgsKept V W
  v1 : W (main_v1 : DevRef τ sig) = stage_v1 V
  v3 : W (main_v3 : DevRef τ sig) = stage_v3 V
  v81 : W (main_v81 : DevRef τ sig) = stage_v81 V
  v100 : W (main_v100 : DevRef τ sig) = stage_v100 V
  v102 : W (main_v102 : DevRef τ sig) = stage_v102 V
  v104 : W (main_v104 : DevRef τ sig) = stage_v104 V
  v108 : W (main_v108 : DevRef τ sig) = stage_v108 V
  v110 : W (main_v110 : DevRef τ sig) = stage_v110 V

/-- After window 2 (operations 125 … 188): layers 0 and 1 pooled, layer 1's node features, layer 2's gather indices. -/
structure Inv3 (V W : Valuation τ sig (Elt F)) : Prop where
  args : ArgsKept V W
  v1 : W (main_v1 : DevRef τ sig) = stage_v1 V
  v3 : W (main_v3 : DevRef τ sig) = stage_v3 V
  v81 : W (main_v81 : DevRef τ sig) = stage_v81 V
  v159 : W (main_v159 : DevRef τ sig) = stage_v159 V
  v156 : W (main_v156 : DevRef τ sig) = stage_v156 V
  v165 : W (main_v165 : DevRef τ sig) = stage_v165 V

/-- After window 3 (operations 189 … 250): layer 2 up to its second linear map minus the second norm's mean, and that
    norm's rows. -/
structure Inv4 (V W : Valuation τ sig (Elt F)) : Prop where
  args : ArgsKept V W
  v1 : W (main_v1 : DevRef τ sig) = stage_v1 V
  v3 : W (main_v3 : DevRef τ sig) = stage_v3 V
  v81 : W (main_v81 : DevRef τ sig) = stage_v81 V
  v159 : W (main_v159 : DevRef τ sig) = stage_v159 V
  v212 : W (main_v212 : DevRef τ sig) = stage_v212 V
  v214 : W (main_v214 : DevRef τ sig) = stage_v214 V
  v218 : W (main_v218 : DevRef τ sig) = stage_v218 V
  v221 : W (main_v221 : DevRef τ sig) = stage_v221 V
  v222 : W (main_v222 : DevRef τ sig) = val_main_v222 (F := F)

/-- After window 4 (operations 251 … 312): layers 0, 1, 2 pooled, layer 3 up to its first norm's shift. -/
structure Inv5 (V W : Valuation τ sig (Elt F)) : Prop where
  args : ArgsKept V W
  v81 : W (main_v81 : DevRef τ sig) = stage_v81 V
  v159 : W (main_v159 : DevRef τ sig) = stage_v159 V
  v237 : W (main_v237 : DevRef τ sig) = stage_v237 V
  v276 : W (main_v276 : DevRef τ sig) = stage_v276 V
  v277 : W (main_v277 : DevRef τ sig) = stage_v277 V

/-- Before the concatenate (operations 313 … 356 run): the four layers pooled. -/
structure Inv6 (V W : Valuation τ sig (Elt F)) : Prop where
  args : ArgsKept V W
  v81 : W (main_v81 : DevRef τ sig) = stage_v81 V
  v159 : W (main_v159 : DevRef τ sig) = stage_v159 V
  v237 : W (main_v237 : DevRef τ sig) = stage_v237 V
  v315 : W (main_v315 : DevRef τ sig) = stage_v315 V

/-- At the end: the result. -/
structure Inv7 (V W : Valuation τ sig (Elt F)) : Prop where
  args : ArgsKept V W
  v325 : W (main_v325 : DevRef τ sig) = stage_v325 V

end Cert.ReferenceIdeal.Hand

end
-- ==== Proof.Ref.Run0.lean ====
/- Window 0 of the reference program's @main (operations 1 … 62: the edge table's two rows, the neighbour sum of the
   input features, layer 0's first linear map, first norm and relu, its second linear map): the window is the line of
   its operations, the line's side conditions, and what it leaves in the buffers later windows read. -/
import proofs.«426741_j36421322670671_1_alg».proof.Proof.Ref.Ops
import proofs.«426741_j36421322670671_1_alg».proof.Proof.Ref.Kept
import Idealize.ShloMosaic.Lib.StableHlo.Run
import Idealize.ShloMosaic.Lib.Pipeline.Regions

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 0 of @main is the line of its sixty-two operations. -/
theorem part0_eq (c : Dev nD) : main_part0 (F := F) c = seq ops0 := by chain_rfl

theorem ops0_sub : (ops0 : List (HloOp τ sig (Elt F))).Forall fun op => op.bufs ⊆ tcRefs τ sig := by bufs_in_tc

theorem ops0_fresh : (ops0 : List (HloOp τ sig (Elt F))).Forall fun op => op.fresh = ∅ := by
  simp only [List.Forall]; repeat' constructor

set_option maxHeartbeats 2000000 in
theorem ops0_writes : (ops0 : List (HloOp τ sig (Elt F))).Forall fun op =>
    op.writes ⊆ (writes0.map (Proc.devRef (τ := τ) .tc)).toFinset := by writes_in_table

/-- No operation of window 0 writes an argument. -/
theorem args0 : ∀ r ∈ argRefs, r ∉ writes0 := by decide

/-- A reference window 0 does not write holds after it what it held before. -/
theorem frame0 (W : Valuation τ sig (Elt F)) {r : Ref sig .tc} (hr : r ∉ writes0) :
    after ops0 W (Proc.devRef .tc r) = W (Proc.devRef .tc r) := after_of_writes_sub ops0 W ops0_writes hr

set_option maxHeartbeats 4000000 in
/-- Window 0, run from any contents that keep the arguments, ends at `Inv1`: each buffer read off the fold of the
    operations' results is its stage's definition unfolded. -/
theorem step0 {V W : Valuation τ sig (Elt F)} (h : ArgsKept V W) : Inv1 V (after ops0 W) where
  args := h.after ops0 writes0 ops0_writes args0
  v1 := by after_results_simp; rw [h.a1]; rfl
  v3 := by after_results_simp; rw [h.a1]; rfl
  v54 := by
    after_results_simp
    simp only [TRef.ofBuf, TRef.toBuf, cast_eq]
    rw [h.a0, h.a1, h.a3, h.a4, h.a7, h.a8, h.a5, h.a6, h.a9, h.a10]
    rfl
  v55 := by after_results_simp; rw [h.a11]; rfl

end Cert.ReferenceIdeal.Hand

end
-- ==== Proof.Ref.Run1.lean ====
/- Window 1 of the reference program's @main (operations 63 … 124: layer 0's second norm and relu, its pooled sum, the
   neighbour sum of layer 0's features, layer 1's first linear map and the rows of its first norm): the window is the
   line of its operations, the line's side conditions, and what it leaves in the buffers later windows read. -/
import proofs.«426741_j36421322670671_1_alg».proof.Proof.Ref.Ops
import proofs.«426741_j36421322670671_1_alg».proof.Proof.Ref.Kept
import Idealize.ShloMosaic.Lib.StableHlo.Run
import Idealize.ShloMosaic.Lib.Pipeline.Regions

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 1 of @main is the line of its sixty-two operations. -/
theorem part1_eq (c : Dev nD) : main_part1 (F := F) c = seq ops1 := by chain_rfl

theorem ops1_sub : (ops1 : List (HloOp τ sig (Elt F))).Forall fun op => op.bufs ⊆ tcRefs τ sig := by bufs_in_tc

theorem ops1_fresh : (ops1 : List (HloOp τ sig (Elt F))).Forall fun op => op.fresh = ∅ := by
  simp only [List.Forall]; repeat' constructor

set_option maxHeartbeats 2000000 in
theorem ops1_writes : (ops1 : List (HloOp τ sig (Elt F))).Forall fun op =>
    op.writes ⊆ (writes1.map (Proc.devRef (τ := τ) .tc)).toFinset := by writes_in_table

/-- No operation of window 1 writes an argument. -/
theorem args1 : ∀ r ∈ argRefs, r ∉ writes1 := by decide

/-- A reference window 1 does not write holds after it what it held before. -/
theorem frame1 (W : Valuation τ sig (Elt F)) {r : Ref sig .tc} (hr : r ∉ writes1) :
    after ops1 W (Proc.devRef .tc r) = W (Proc.devRef .tc r) := after_of_writes_sub ops1 W ops1_writes hr

set_option maxHeartbeats 4000000 in
/-- Window 1, run from `Inv1`, ends at `Inv2`. -/
theorem step1 {V W : Valuation τ sig (Elt F)} (h : Inv1 V W) : Inv2 V (after ops1 W) where
  args := h.args.after ops1 writes1 ops1_writes args1
  v1 := (frame1 W (by decide)).trans h.v1
  v3 := (frame1 W (by decide)).trans h.v3
  v81 := by
    after_results_simp
    simp only [TRef.ofBuf, TRef.toBuf, cast_eq]
    rw [h.v54, h.v55, h.args.a2, h.args.a12, h.args.a13, h.args.a14]
    rfl
  v100 := by
    after_results_simp
    simp only [TRef.ofBuf, TRef.toBuf, cast_eq]
    rw [h.v1, h.v3, h.v54, h.v55, h.args.a3, h.args.a4, h.args.a12, h.args.a13, h.args.a14]
    rfl
  v102 := by after_results_simp; rw [h.args.a5]; rfl
  v104 := by after_results_simp; rw [h.args.a6]; rfl
  v108 := by after_results_simp; rw [h.args.a8]; rfl
  v110 := by after_results_simp; rw [h.args.a7]; rfl

end Cert.ReferenceIdeal.Hand

end
-- ==== Proof.Ref.Run2.lean ====
/- Window 2 of the reference program's @main (operations 125 … 188: layer 1's first norm and relu, its second linear map,
   second norm and relu, its pooled sum, the gather indices of layer 2): the window is the line of its operations, the
   line's side conditions, and what it leaves in the buffers later windows read. -/
import proofs.«426741_j36421322670671_1_alg».proof.Proof.Ref.Ops
import proofs.«426741_j36421322670671_1_alg».proof.Proof.Ref.Kept
import Idealize.ShloMosaic.Lib.StableHlo.Run
import Idealize.ShloMosaic.Lib.Pipeline.Regions

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 2 of @main is the line of its sixty-four operations. -/
theorem part2_eq (c : Dev nD) : main_part2 (F := F) c = seq ops2 := by chain_rfl

theorem ops2_sub : (ops2 : List (HloOp τ sig (Elt F))).Forall fun op => op.bufs ⊆ tcRefs τ sig := by bufs_in_tc

theorem ops2_fresh : (ops2 : List (HloOp τ sig (Elt F))).Forall fun op => op.fresh = ∅ := by
  simp only [List.Forall]; repeat' constructor

set_option maxHeartbeats 2000000 in
theorem ops2_writes : (ops2 : List (HloOp τ sig (Elt F))).Forall fun op =>
    op.writes ⊆ (writes2.map (Proc.devRef (τ := τ) .tc)).toFinset := by writes_in_table

/-- No operation of window 2 writes an argument. -/
theorem args2 : ∀ r ∈ argRefs, r ∉ writes2 := by decide

/-- A reference window 2 does not write holds after it what it held before. -/
theorem frame2 (W : Valuation τ sig (Elt F)) {r : Ref sig .tc} (hr : r ∉ writes2) :
    after ops2 W (Proc.devRef .tc r) = W (Proc.devRef .tc r) := after_of_writes_sub ops2 W ops2_writes hr

set_option maxHeartbeats 4000000 in
/-- Window 2, run from `Inv2`, ends at `Inv3`. -/
theorem step2 {V W : Valuation τ sig (Elt F)} (h : Inv2 V W) : Inv3 V (after ops2 W) where
  args := h.args.after ops2 writes2 ops2_writes args2
  v1 := (frame2 W (by decide)).trans h.v1
  v3 := (frame2 W (by decide)).trans h.v3
  v81 := (frame2 W (by decide)).trans h.v81
  v159 := by
    after_results_simp
    simp only [TRef.ofBuf, TRef.toBuf, cast_eq]
    rw [h.v100, h.v102, h.v104, h.v108, h.v110, h.args.a2, h.args.a9, h.args.a10, h.args.a11, h.args.a12, h.args.a13, h.args.a14]
    rfl
  v156 := by
    after_results_simp
    simp only [TRef.ofBuf, TRef.toBuf, cast_eq]
    rw [h.v100, h.v102, h.v104, h.v108, h.v110, h.args.a9, h.args.a10, h.args.a11, h.args.a12, h.args.a13, h.args.a14]
    rfl
  v165 := by after_results_simp; rw [h.v1]; rfl

end Cert.ReferenceIdeal.Hand

end
-- ==== Proof.Ref.Run3.lean ====
/- Window 3 of the reference program's @main (operations 189 … 250: the neighbour sum of layer 1's features, layer 2's
   first linear map, first norm and relu, its second linear map and the rows of its second norm): the window is the line
   of its operations, the line's side conditions, and what it leaves in the buffers later windows read. -/
import proofs.«426741_j36421322670671_1_alg».proof.Proof.Ref.Ops
import proofs.«426741_j36421322670671_1_alg».proof.Proof.Ref.Kept
import Idealize.ShloMosaic.Lib.StableHlo.Run
import Idealize.ShloMosaic.Lib.Pipeline.Regions

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 3 of @main is the line of its sixty-two operations. -/
theorem part3_eq (c : Dev nD) : main_part3 (F := F) c = seq ops3 := by chain_rfl

theorem ops3_sub : (ops3 : List (HloOp τ sig (Elt F))).Forall fun op => op.bufs ⊆ tcRefs τ sig := by bufs_in_tc

theorem ops3_fresh : (ops3 : List (HloOp τ sig (Elt F))).Forall fun op => op.fresh = ∅ := by
  simp only [List.Forall]; repeat' constructor

set_option maxHeartbeats 2000000 in
theorem ops3_writes : (ops3 : List (HloOp τ sig (Elt F))).Forall fun op =>
    op.writes ⊆ (writes3.map (Proc.devRef (τ := τ) .tc)).toFinset := by writes_in_table

/-- No operation of window 3 writes an argument. -/
theorem args3 : ∀ r ∈ argRefs, r ∉ writes3 := by decide

/-- A reference window 3 does not write holds after it what it held before. -/
theorem frame3 (W : Valuation τ sig (Elt F)) {r : Ref sig .tc} (hr : r ∉ writes3) :
    after ops3 W (Proc.devRef .tc r) = W (Proc.devRef .tc r) := after_of_writes_sub ops3 W ops3_writes hr

set_option maxHeartbeats 4000000 in
/-- Window 3, run from `Inv3`, ends at `Inv4`. -/
theorem step3 {V W : Valuation τ sig (Elt F)} (h : Inv3 V W) : Inv4 V (after ops3 W) where
  args := h.args.after ops3 writes3 ops3_writes args3
  v1 := (frame3 W (by decide)).trans h.v1
  v3 := (frame3 W (by decide)).trans h.v3
  v81 := (frame3 W (by decide)).trans h.v81
  v159 := (frame3 W (by decide)).trans h.v159
  v212 := by after_results_simp; rw [h.args.a11]; rfl
  v214 := by after_results_simp; rw [h.args.a12]; rfl
  v218 := by after_results_simp; rw [h.args.a14]; rfl
  v221 := by
    after_results_simp
    simp only [TRef.ofBuf, TRef.toBuf, cast_eq]
    rw [h.v3, h.v156, h.v165, h.args.a3, h.args.a4, h.args.a5, h.args.a6, h.args.a7, h.args.a8, h.args.a9, h.args.a10, h.args.a13]
    rfl
  v222 := by after_results_simp; rfl

end Cert.ReferenceIdeal.Hand

end
-- ==== Proof.Ref.Run4.lean ====
/- Window 4 of the reference program's @main (operations 251 … 312: layer 2's second norm and relu, its pooled sum, the
   neighbour sum of layer 2's features, layer 3's first linear map and first norm up to its shift): the window is the
   line of its operations, the line's side conditions, and what it leaves in the buffers later windows read. -/
import proofs.«426741_j36421322670671_1_alg».proof.Proof.Ref.Ops
import proofs.«426741_j36421322670671_1_alg».proof.Proof.Ref.Kept
import Idealize.ShloMosaic.Lib.StableHlo.Run
import Idealize.ShloMosaic.Lib.Pipeline.Regions

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 4 of @main is the line of its sixty-two operations. -/
theorem part4_eq (c : Dev nD) : main_part4 (F := F) c = seq ops4 := by chain_rfl

theorem ops4_sub : (ops4 : List (HloOp τ sig (Elt F))).Forall fun op => op.bufs ⊆ tcRefs τ sig := by bufs_in_tc

theorem ops4_fresh : (ops4 : List (HloOp τ sig (Elt F))).Forall fun op => op.fresh = ∅ := by
  simp only [List.Forall]; repeat' constructor

set_option maxHeartbeats 2000000 in
theorem ops4_writes : (ops4 : List (HloOp τ sig (Elt F))).Forall fun op =>
    op.writes ⊆ (writes4.map (Proc.devRef (τ := τ) .tc)).toFinset := by writes_in_table

/-- No operation of window 4 writes an argument. -/
theorem args4 : ∀ r ∈ argRefs, r ∉ writes4 := by decide

/-- A reference window 4 does not write holds after it what it held before. -/
theorem frame4 (W : Valuation τ sig (Elt F)) {r : Ref sig .tc} (hr : r ∉ writes4) :
    after ops4 W (Proc.devRef .tc r) = W (Proc.devRef .tc r) := after_of_writes_sub ops4 W ops4_writes hr

set_option maxHeartbeats 4000000 in
/-- Window 4, run from `Inv4`, ends at `Inv5`. -/
theorem step4 {V W : Valuation τ sig (Elt F)} (h : Inv4 V W) : Inv5 V (after ops4 W) where
  args := h.args.after ops4 writes4 ops4_writes args4
  v81 := (frame4 W (by decide)).trans h.v81
  v159 := (frame4 W (by decide)).trans h.v159
  v237 := by
    after_results_simp
    simp only [TRef.ofBuf, TRef.toBuf, cast_eq]
    rw [h.v212, h.v214, h.v218, h.v221, h.v222, h.args.a2]
    rfl
  v276 := by
    after_results_simp
    simp only [TRef.ofBuf, TRef.toBuf, cast_eq]
    rw [h.v1, h.v3, h.v212, h.v214, h.v218, h.v221, h.v222, h.args.a3, h.args.a4, h.args.a5, h.args.a7, h.args.a8]
    rfl
  v277 := by after_results_simp; rw [h.args.a6]; rfl

end Cert.ReferenceIdeal.Hand

end
-- ==== Proof.Ref.Run5.lean ====
/- The first forty-four operations of window 5 of the reference program's @main (operations 313 … 356: layer 3's first
   relu, its second linear map, second norm and relu, its pooled sum): the line's side conditions and what it leaves in
   the buffers the classifier reads. -/
import proofs.«426741_j36421322670671_1_alg».proof.Proof.Ref.Ops
import proofs.«426741_j36421322670671_1_alg».proof.Proof.Ref.Kept
import Idealize.ShloMosaic.Lib.StableHlo.Run
import Idealize.ShloMosaic.Lib.Pipeline.Regions

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem ops5_sub : (ops5 : List (HloOp τ sig (Elt F))).Forall fun op => op.bufs ⊆ tcRefs τ sig := by bufs_in_tc

theorem ops5_fresh : (ops5 : List (HloOp τ sig (Elt F))).Forall fun op => op.fresh = ∅ := by
  simp only [List.Forall]; repeat' constructor

set_option maxHeartbeats 2000000 in
theorem ops5_writes : (ops5 : List (HloOp τ sig (Elt F))).Forall fun op =>
    op.writes ⊆ (writes5.map (Proc.devRef (τ := τ) .tc)).toFinset := by writes_in_table

/-- No operation of this line writes an argument. -/
theorem args5 : ∀ r ∈ argRefs, r ∉ writes5 := by decide

/-- A reference this line does not write holds after it what it held before. -/
theorem frame5 (W : Valuation τ sig (Elt F)) {r : Ref sig .tc} (hr : r ∉ writes5) :
    after ops5 W (Proc.devRef .tc r) = W (Proc.devRef .tc r) := after_of_writes_sub ops5 W ops5_writes hr

set_option maxHeartbeats 4000000 in
/-- These operations, run from `Inv5`, end at `Inv6`. -/
theorem step5 {V W : Valuation τ sig (Elt F)} (h : Inv5 V W) : Inv6 V (after ops5 W) where
  args := h.args.after ops5 writes5 ops5_writes args5
  v81 := (frame5 W (by decide)).trans h.v81
  v159 := (frame5 W (by decide)).trans h.v159
  v237 := (frame5 W (by decide)).trans h.v237
  v315 := by
    after_results_simp
    simp only [TRef.ofBuf, TRef.toBuf, cast_eq]
    rw [h.v276, h.v277, h.args.a2, h.args.a9, h.args.a10, h.args.a11, h.args.a12, h.args.a13, h.args.a14]
    rfl

end Cert.ReferenceIdeal.Hand

end
-- ==== Proof.Ref.Run6.lean ====
/- The last twelve operations of the reference program's @main (operations 357 … 368: the four pooled layers joined, the
   classifier's hidden map, bias and relu, its output map and bias), and window 5 of @main as the two lines it is cut
   into: the line's side conditions and the result. -/
import proofs.«426741_j36421322670671_1_alg».proof.Proof.Ref.Ops
import proofs.«426741_j36421322670671_1_alg».proof.Proof.Ref.Kept
import Idealize.ShloMosaic.Lib.StableHlo.Run
import Idealize.ShloMosaic.Lib.Pipeline.Regions

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 5 of @main is its first forty-four operations, then its last twelve. -/
theorem part5_eq (c : Dev nD) : main_part5 (F := F) c = (seq ops5 >>= fun _ => seq ops6) := by chain_rfl

theorem ops6_sub : (ops6 : List (HloOp τ sig (Elt F))).Forall fun op => op.bufs ⊆ tcRefs τ sig := by bufs_in_tc

theorem ops6_fresh : (ops6 : List (HloOp τ sig (Elt F))).Forall fun op => op.fresh = ∅ := by
  simp only [List.Forall]; repeat' constructor

set_option maxHeartbeats 2000000 in
theorem ops6_writes : (ops6 : List (HloOp τ sig (Elt F))).Forall fun op =>
    op.writes ⊆ (writes6.map (Proc.devRef (τ := τ) .tc)).toFinset := by writes_in_table

/-- No operation of this line writes an argument. -/
theorem args6 : ∀ r ∈ argRefs, r ∉ writes6 := by decide

/-- A reference this line does not write holds after it what it held before. -/
theorem frame6 (W : Valuation τ sig (Elt F)) {r : Ref sig .tc} (hr : r ∉ writes6) :
    after ops6 W (Proc.devRef .tc r) = W (Proc.devRef .tc r) := after_of_writes_sub ops6 W ops6_writes hr

set_option maxHeartbeats 4000000 in
/-- These operations, run from `Inv6`, end at `Inv7`: the join's four operands are read at their own references. -/
theorem step6 {V W : Valuation τ sig (Elt F)} (h : Inv6 V W) : Inv7 V (after ops6 W) where
  args := h.args.after ops6 writes6 ops6_writes args6
  v325 := by
    -- the join reads operand `k` at the `k`-th entry of its table of references: the four pooled layers, in order
    have e0 : W (Proc.devRef .tc ((![main_v81, main_v159, main_v237, main_v315] : Fin 4 → Ref sig .tc) 0)) = stage_v81 V := h.v81
    have e1 : W (Proc.devRef .tc ((![main_v81, main_v159, main_v237, main_v315] : Fin 4 → Ref sig .tc) 1)) = stage_v159 V := h.v159
    have e2 : W (Proc.devRef .tc ((![main_v81, main_v159, main_v237, main_v315] : Fin 4 → Ref sig .tc) 2)) = stage_v237 V := h.v237
    have e3 : W (Proc.devRef .tc ((![main_v81, main_v159, main_v237, main_v315] : Fin 4 → Ref sig .tc) 3)) = stage_v315 V := h.v315
    after_results
    simp only [TRef.ofBuf, TRef.toBuf, cast_eq]
    rw [e0, e1, e2, e3, h.args.a15, h.args.a16, h.args.a17, h.args.a18]
    rfl

end Cert.ReferenceIdeal.Hand

end
-- ==== Proof.Ref.Run.lean ====
/- The run of the reference program's @main, over the stages of RefRead.lean. @main is its six windows in a row, each the
   line of its operations (the last cut in two before the join of the four pooled layers), so @main is the line of the
   seven lists joined; run from the launch contents, list after list, the buffers pass through `Inv1` … `Inv7`; the
   library's run of a line of operations then gives: every weakly fair execution terminates with the result buffer at
   `val_main_v325` of the arguments' launch contents, and the arguments unchanged. -/
import proofs.«426741_j36421322670671_1_alg».proof.Proof.Ref.Run0
import proofs.«426741_j36421322670671_1_alg».proof.Proof.Ref.Run1
import proofs.«426741_j36421322670671_1_alg».proof.Proof.Ref.Run2
import proofs.«426741_j36421322670671_1_alg».proof.Proof.Ref.Run3
import proofs.«426741_j36421322670671_1_alg».proof.Proof.Ref.Run4
import proofs.«426741_j36421322670671_1_alg».proof.Proof.Ref.Run5
import proofs.«426741_j36421322670671_1_alg».proof.Proof.Ref.Run6
import Idealize.ShloMosaic.Lib.StableHlo.Run
import Idealize.ShloMosaic.Lib.Pipeline.Frame
import Mathlib.Data.List.Basic

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- All 368 operations of @main, in order. -/
abbrev allOps : List (HloOp τ sig (Elt F)) := ops0 ++ (ops1 ++ (ops2 ++ (ops3 ++ (ops4 ++ (ops5 ++ ops6)))))

/-- @main is the line of its operations: its windows in a row, each the line of its own. -/
theorem main_eq (c : Dev nD) : main (F := F) c = seq allOps := by
  simp only [allOps, seq_append]
  rw [← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem allOps_sub : (allOps : List (HloOp τ sig (Elt F))).Forall fun op => op.bufs ⊆ tcRefs τ sig := by
  simp only [allOps, List.forall_append]
  exact ⟨ops0_sub, ops1_sub, ops2_sub, ops3_sub, ops4_sub, ops5_sub, ops6_sub⟩

theorem allOps_fresh : (allOps : List (HloOp τ sig (Elt F))).Forall fun op => op.fresh = ∅ := by
  simp only [allOps, List.forall_append]
  exact ⟨ops0_fresh, ops1_fresh, ops2_fresh, ops3_fresh, ops4_fresh, ops5_fresh, ops6_fresh⟩

/-- The seven lists run in a row from the launch contents end with the result at its stage and the arguments kept. -/
theorem after_allOps (V : Valuation τ sig (Elt F)) : Inv7 V (after allOps V) := by
  simp only [allOps, StableHlo.after_append]
  exact step6 (step5 (step4 (step3 (step2 (step1 (step0 (ArgsKept.refl V)))))))

/-- On every device, for any float values, from any memory with zero counters: every weakly fair execution of @main
    terminates with the result buffer at the last stage of the arguments' launch contents, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v325) = val_main_v325 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
      have k := after_allOps (F := F) (launchContents m c)
      ⟨(h c main_v325).trans k.v325,
        (h c main_arg0).trans k.args.a0, (h c main_arg1).trans k.args.a1, (h c main_arg2).trans k.args.a2,
        (h c main_arg3).trans k.args.a3, (h c main_arg4).trans k.args.a4, (h c main_arg5).trans k.args.a5,
        (h c main_arg6).trans k.args.a6, (h c main_arg7).trans k.args.a7, (h c main_arg8).trans k.args.a8,
        (h c main_arg9).trans k.args.a9, (h c main_arg10).trans k.args.a10, (h c main_arg11).trans k.args.a11,
        (h c main_arg12).trans k.args.a12, (h c main_arg13).trans k.args.a13, (h c main_arg14).trans k.args.a14,
        (h c main_arg15).trans k.args.a15, (h c main_arg16).trans k.args.a16, (h c main_arg17).trans k.args.a17,
        (h c main_arg18).trans k.args.a18⟩)
    (run_seq scopedRefs_eq scopedSems_eq defs main (fun _ => allOps) main_eq (fun _ => allOps_sub) m ρ
      (fun _ => List.forall_iff_forall_mem.1 allOps_fresh))

end Cert.ReferenceIdeal.Hand

end
-- ==== Proof.Ref.Layers.lean ====
/-
  The reference's four graph-isomorphism layers are the specification's layer.

  Each layer of the reference is, in program order: the neighbours' sum plus the node's own row, a dense layer,
  an inference batch norm and a relu, a second dense layer, a second batch norm and relu.  Read at a node `n` and a
  feature `d` this is `Cert.Spec.layerAt` of the layer's inputs: the neighbours' sum and the sliced parameters enter
  as the arrays the program computed for them and are not looked into.
-/
import proofs.«426741_j36421322670671_1_alg».proof.Proof.RefRead
import proofs.«426741_j36421322670671_1_alg».proof.Proof.Spec
import Idealize.ShloMosaic.Lib.ValueIdx
import Idealize.ShloMosaic.PureOps.Ideal
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx

variable (x0 : (⟨S50000x128, .f32⟩ : BufTy).Contents (Elt Ideal)) (x1 : (⟨S2x800000, .i32⟩ : BufTy).Contents (Elt Ideal))
  (x3 : (⟨S4x128x128, .f32⟩ : BufTy).Contents (Elt Ideal)) (x4 x5 x6 x7 x8 : (⟨S4x128, .f32⟩ : BufTy).Contents (Elt Ideal))
  (x9 : (⟨S4x128x128, .f32⟩ : BufTy).Contents (Elt Ideal)) (x10 x11 x12 x13 x14 : (⟨S4x128, .f32⟩ : BufTy).Contents (Elt Ideal))

/-! ## Layer 1 (operations %14 … %78; the node features are the program's first argument) -/

/-- The first dense layer, batch norm and relu of layer 1 at node `n`, hidden feature `k`. -/
theorem hidden1_at (n : Fin 50000) (k : Fin 128) :
    val_main_v46 (F := Ideal) x0 x1 x3 x4 x5 x6 x7 x8 (ix2 n k) =
      Cert.Spec.hiddenAt (val_main_v13 (F := Ideal) x0 x1) x0 (val_main_v16 (F := Ideal) x3) (val_main_v19 (F := Ideal) x4)
        (val_main_v24 (F := Ideal) x5) (val_main_v26 (F := Ideal) x6) (val_main_v28 (F := Ideal) x7) (val_main_v30 (F := Ideal) x8) n k := by
  have eL : ∀ i : Fin 128, lidx_main_v17 (ix2 n k) i = ix2 n i := fun i =>
    funext fun a => Fin.ext (by match a with | ⟨0, _⟩ => rfl | ⟨1, _⟩ => rfl)
  have eR : ∀ i : Fin 128, ridx_main_v17 (ix2 n k) i = ix2 i k := fun i =>
    funext fun a => Fin.ext (by match a with | ⟨0, _⟩ => rfl | ⟨1, _⟩ => rfl)
  have e21 : idx_main_v20 (idx_main_v21 (ix2 n k)) = ix1 k := funext fun a => Fin.ext (by match a with | ⟨0, _⟩ => rfl)
  have e32 : idx_main_v31 (idx_main_v32 (ix2 n k)) = ix1 k := funext fun a => Fin.ext (by match a with | ⟨0, _⟩ => rfl)
  have e38 : idx_main_v37 (idx_main_v38 (ix2 n k)) = ix1 k := funext fun a => Fin.ext (by match a with | ⟨0, _⟩ => rfl)
  have e41 : idx_main_v40 (idx_main_v41 (ix2 n k)) = ix1 k := funext fun a => Fin.ext (by match a with | ⟨0, _⟩ => rfl)
  have e44 : idx_main_v43 (idx_main_v44 (ix2 n k)) = ix1 k := funext fun a => Fin.ext (by match a with | ⟨0, _⟩ => rfl)
  have hsum : (∑ i : Fin 128, val_main_v14 (F := Ideal) x0 x1 (lidx_main_v17 (ix2 n k) i) * val_main_v16 (F := Ideal) x3 (ridx_main_v17 (ix2 n k) i)) =
      ∑ i : Fin 128, (val_main_v13 (F := Ideal) x0 x1 (ix2 n i) + x0 (ix2 n i)) * val_main_v16 (F := Ideal) x3 (ix2 i k) :=
    Finset.sum_congr rfl fun i _ => by rw [eL i, eR i, val_main_v14_apply]; rfl
  rw [val_main_v46_apply, val_main_v45_apply, val_main_v42_apply, val_main_v39_apply, val_main_v33_apply, val_main_v22_apply,
    val_main_v17_apply, hsum, val_main_v21_apply, val_main_v20_apply, e21, val_main_v32_apply, val_main_v31_apply, e32,
    val_main_v38_apply, val_main_v37_apply, e38, val_main_v36_apply, val_main_v35_apply, val_main_v34_apply, val_main_cst_1_apply,
    val_main_v41_apply, val_main_v40_apply, e41, val_main_v44_apply, val_main_v43_apply, e44, val_main_call0_v0_apply, val_main_call0_cst_apply]
  have hz : FloatOps.ofBits (F := Ideal) FTy.f32 0x00000000#32 = 0 := Ideal.ofBits_zero_f32
  rw [hz]
  rfl

/-- Layer 1 of the reference at node `n`, feature `d`. -/
theorem layer1_at (n : Fin 50000) (d : Fin 128) :
    val_main_v78 (F := Ideal) x0 x1 x3 x4 x5 x6 x7 x8 x9 x10 x11 x12 x13 x14 (ix2 n d) =
      Cert.Spec.layerAt (val_main_v13 (F := Ideal) x0 x1) x0 (val_main_v16 (F := Ideal) x3) (val_main_v19 (F := Ideal) x4)
        (val_main_v24 (F := Ideal) x5) (val_main_v26 (F := Ideal) x6) (val_main_v28 (F := Ideal) x7) (val_main_v30 (F := Ideal) x8)
        (val_main_v48 (F := Ideal) x9) (val_main_v51 (F := Ideal) x10) (val_main_v56 (F := Ideal) x11) (val_main_v58 (F := Ideal) x12)
        (val_main_v60 (F := Ideal) x13) (val_main_v62 (F := Ideal) x14) n d := by
  have eL : ∀ i : Fin 128, lidx_main_v49 (ix2 n d) i = ix2 n i := fun i =>
    funext fun a => Fin.ext (by match a with | ⟨0, _⟩ => rfl | ⟨1, _⟩ => rfl)
  have eR : ∀ i : Fin 128, ridx_main_v49 (ix2 n d) i = ix2 i d := fun i =>
    funext fun a => Fin.ext (by match a with | ⟨0, _⟩ => rfl | ⟨1, _⟩ => rfl)
  have e53 : idx_main_v52 (idx_main_v53 (ix2 n d)) = ix1 d := funext fun a => Fin.ext (by match a with | ⟨0, _⟩ => rfl)
  have e64 : idx_main_v63 (idx_main_v64 (ix2 n d)) = ix1 d := funext fun a => Fin.ext (by match a with | ⟨0, _⟩ => rfl)
  have e70 : idx_main_v69 (idx_main_v70 (ix2 n d)) = ix1 d := funext fun a => Fin.ext (by match a with | ⟨0, _⟩ => rfl)
  have e73 : idx_main_v72 (idx_main_v73 (ix2 n d)) = ix1 d := funext fun a => Fin.ext (by match a with | ⟨0, _⟩ => rfl)
  have e76 : idx_main_v75 (idx_main_v76 (ix2 n d)) = ix1 d := funext fun a => Fin.ext (by match a with | ⟨0, _⟩ => rfl)
  have hsum : (∑ i : Fin 128, val_main_v46 (F := Ideal) x0 x1 x3 x4 x5 x6 x7 x8 (lidx_main_v49 (ix2 n d) i) * val_main_v48 (F := Ideal) x9 (ridx_main_v49 (ix2 n d) i)) =
      ∑ i : Fin 128, Cert.Spec.hiddenAt (val_main_v13 (F := Ideal) x0 x1) x0 (val_main_v16 (F := Ideal) x3) (val_main_v19 (F := Ideal) x4)
        (val_main_v24 (F := Ideal) x5) (val_main_v26 (F := Ideal) x6) (val_main_v28 (F := Ideal) x7) (val_main_v30 (F := Ideal) x8) n i * val_main_v48 (F := Ideal) x9 (ix2 i d) :=
    Finset.sum_congr rfl fun i _ => by rw [eL i, eR i, hidden1_at]
  rw [val_main_v78_apply, val_main_v77_apply, val_main_v74_apply, val_main_v71_apply, val_main_v65_apply, val_main_v54_apply,
    val_main_v49_apply, hsum, val_main_v53_apply, val_main_v52_apply, e53, val_main_v64_apply, val_main_v63_apply, e64,
    val_main_v70_apply, val_main_v69_apply, e70, val_main_v68_apply, val_main_v67_apply, val_main_v66_apply, val_main_cst_2_apply,
    val_main_v73_apply, val_main_v72_apply, e73, val_main_v76_apply, val_main_v75_apply, e76, val_main_call1_v0_apply, val_main_call1_cst_apply]
  have hz : FloatOps.ofBits (F := Ideal) FTy.f32 0x00000000#32 = 0 := Ideal.ofBits_zero_f32
  rw [hz]
  rfl

/-- Layer 1 of the reference is the specification's layer of the neighbours' sum, the input features and the layer's slices of the stacked parameters. -/
theorem layer1_eq :
    (val_main_v78 (F := Ideal) x0 x1 x3 x4 x5 x6 x7 x8 x9 x10 x11 x12 x13 x14 : S50000x128.Idx → EReal) =
      Cert.Spec.layer (val_main_v13 (F := Ideal) x0 x1) x0 (val_main_v16 (F := Ideal) x3) (val_main_v19 (F := Ideal) x4)
        (val_main_v24 (F := Ideal) x5) (val_main_v26 (F := Ideal) x6) (val_main_v28 (F := Ideal) x7) (val_main_v30 (F := Ideal) x8)
        (val_main_v48 (F := Ideal) x9) (val_main_v51 (F := Ideal) x10) (val_main_v56 (F := Ideal) x11) (val_main_v58 (F := Ideal) x12)
        (val_main_v60 (F := Ideal) x13) (val_main_v62 (F := Ideal) x14) := by
  funext i
  obtain ⟨n, d, rfl⟩ : ∃ (n : Fin 50000) (d : Fin 128), i = ix2 n d := ⟨i 0, i 1, eq_ix2 i⟩
  exact layer1_at x0 x1 x3 x4 x5 x6 x7 x8 x9 x10 x11 x12 x13 x14 n d

/-! ## Layer 2 (operations %92 … %156; the node features are layer 1's output) -/

/-- The first dense layer, batch norm and relu of layer 2 at node `n`, hidden feature `k`. -/
theorem hidden2_at (n : Fin 50000) (k : Fin 128) :
    val_main_v124 (F := Ideal) x0 x1 x3 x4 x5 x6 x7 x8 x9 x10 x11 x12 x13 x14 (ix2 n k) =
      Cert.Spec.hiddenAt (val_main_v91 (F := Ideal) x0 x1 x3 x4 x5 x6 x7 x8 x9 x10 x11 x12 x13 x14) (val_main_v78 (F := Ideal) x0 x1 x3 x4 x5 x6 x7 x8 x9 x10 x11 x12 x13 x14) (val_main_v94 (F := Ideal) x3) (val_main_v97 (F := Ideal) x4)
        (val_main_v102 (F := Ideal) x5) (val_main_v104 (F := Ideal) x6) (val_main_v106 (F := Ideal) x7) (val_main_v108 (F := Ideal) x8) n k := by
  have eL : ∀ i : Fin 128, lidx_main_v95 (ix2 n k) i = ix2 n i := fun i =>
    funext fun a => Fin.ext (by match a with | ⟨0, _⟩ => rfl | ⟨1, _⟩ => rfl)
  have eR : ∀ i : Fin 128, ridx_main_v95 (ix2 n k) i = ix2 i k := fun i =>
    funext fun a => Fin.ext (by match a with | ⟨0, _⟩ => rfl | ⟨1, _⟩ => rfl)
  have e99 : idx_main_v98 (idx_main_v99 (ix2 n k)) = ix1 k := funext fun a => Fin.ext (by match a with | ⟨0, _⟩ => rfl)
  have e110 : idx_main_v109 (idx_main_v110 (ix2 n k)) = ix1 k := funext fun a => Fin.ext (by match a with | ⟨0, _⟩ => rfl)
  have e116 : idx_main_v115 (idx_main_v116 (ix2 n k)) = ix1 k := funext fun a => Fin.ext (by match a with | ⟨0, _⟩ => rfl)
  have e119 : idx_main_v118 (idx_main_v119 (ix2 n k)) = ix1 k := funext fun a => Fin.ext (by match a with | ⟨0, _⟩ => rfl)
  have e122 : idx_main_v121 (idx_main_v122 (ix2 n k)) = ix1 k := funext fun a => Fin.ext (by match a with | ⟨0, _⟩ => rfl)
  have hsum : (∑ i : Fin 128, val_main_v92 (F := Ideal) x0 x1 x3 x4 x5 x6 x7 x8 x9 x10 x11 x12 x13 x14 (lidx_main_v95 (ix2 n k) i) * val_main_v94 (F := Ideal) x3 (ridx_main_v95 (ix2 n k) i)) =
      ∑ i : Fin 128, (val_main_v91 (F := Ideal) x0 x1 x3 x4 x5 x6 x7 x8 x9 x10 x11 x12 x13 x14 (ix2 n i) + val_main_v78 (F := Ideal) x0 x1 x3 x4 x5 x6 x7 x8 x9 x10 x11 x12 x13 x14 (ix2 n i)) * val_main_v94 (F := Ideal) x3 (ix2 i k) :=
    Finset.sum_congr rfl fun i _ => by rw [eL i, eR i, val_main_v92_apply]; rfl
  rw [val_main_v124_apply, val_main_v123_apply, val_main_v120_apply, val_main_v117_apply, val_main_v111_apply, val_main_v100_apply,
    val_main_v95_apply, hsum, val_main_v99_apply, val_main_v98_apply, e99, val_main_v110_apply, val_main_v109_apply, e110,
    val_main_v116_apply, val_main_v115_apply, e116, val_main_v114_apply, val_main_v113_apply, val_main_v112_apply, val_main_cst_7_apply,
    val_main_v119_apply, val_main_v118_apply, e119, val_main_v122_apply, val_main_v121_apply, e122, val_main_call2_v0_apply, val_main_call2_cst_apply]
  have hz : FloatOps.ofBits (F := Ideal) FTy.f32 0x00000000#32 = 0 := Ideal.ofBits_zero_f32
  rw [hz]
  rfl

/-- Layer 2 of the reference at node `n`, feature `d`. -/
theorem layer2_at (n : Fin 50000) (d : Fin 128) :
    val_main_v156 (F := Ideal) x0 x1 x3 x4 x5 x6 x7 x8 x9 x10 x11 x12 x13 x14 (ix2 n d) =
      Cert.Spec.layerAt (val_main_v91 (F := Ideal) x0 x1 x3 x4 x5 x6 x7 x8 x9 x10 x11 x12 x13 x14) (val_main_v78 (F := Ideal) x0 x1 x3 x4 x5 x6 x7 x8 x9 x10 x11 x12 x13 x14) (val_main_v94 (F := Ideal) x3) (val_main_v97 (F := Ideal) x4)
        (val_main_v102 (F := Ideal) x5) (val_main_v104 (F := Ideal) x6) (val_main_v106 (F := Ideal) x7) (val_main_v108 (F := Ideal) x8)
        (val_main_v126 (F := Ideal) x9) (val_main_v129 (F := Ideal) x10) (val_main_v134 (F := Ideal) x11) (val_main_v136 (F := Ideal) x12)
        (val_main_v138 (F := Ideal) x13) (val_main_v140 (F := Ideal) x14) n d := by
  have eL : ∀ i : Fin 128, lidx_main_v127 (ix2 n d) i = ix2 n i := fun i =>
    funext fun a => Fin.ext (by match a with | ⟨0, _⟩ => rfl | ⟨1, _⟩ => rfl)
  have eR : ∀ i : Fin 128, ridx_main_v127 (ix2 n d) i = ix2 i d := fun i =>
    funext fun a => Fin.ext (by match a with | ⟨0, _⟩ => rfl | ⟨1, _⟩ => rfl)
  have e131 : idx_main_v130 (idx_main_v131 (ix2 n d)) = ix1 d := funext fun a => Fin.ext (by match a with | ⟨0, _⟩ => rfl)
  have e142 : idx_main_v141 (idx_main_v142 (ix2 n d)) = ix1 d := funext fun a => Fin.ext (by match a with | ⟨0, _⟩ => rfl)
  have e148 : idx_main_v147 (idx_main_v148 (ix2 n d)) = ix1 d := funext fun a => Fin.ext (by match a with | ⟨0, _⟩ => rfl)
  have e151 : idx_main_v150 (idx_main_v151 (ix2 n d)) = ix1 d := funext fun a => Fin.ext (by match a with | ⟨0, _⟩ => rfl)
  have e154 : idx_main_v153 (idx_main_v154 (ix2 n d)) = ix1 d := funext fun a => Fin.ext (by match a with | ⟨0, _⟩ => rfl)
  have hsum : (∑ i : Fin 128, val_main_v124 (F := Ideal) x0 x1 x3 x4 x5 x6 x7 x8 x9 x10 x11 x12 x13 x14 (lidx_main_v127 (ix2 n d) i) * val_main_v126 (F := Ideal) x9 (ridx_main_v127 (ix2 n d) i)) =
      ∑ i : Fin 128, Cert.Spec.hiddenAt (val_main_v91 (F := Ideal) x0 x1 x3 x4 x5 x6 x7 x8 x9 x10 x11 x12 x13 x14) (val_main_v78 (F := Ideal) x0 x1 x3 x4 x5 x6 x7 x8 x9 x10 x11 x12 x13 x14) (val_main_v94 (F := Ideal) x3) (val_main_v97 (F := Ideal) x4)
        (val_main_v102 (F := Ideal) x5) (val_main_v104 (F := Ideal) x6) (val_main_v106 (F := Ideal) x7) (val_main_v108 (F := Ideal) x8) n i * val_main_v126 (F := Ideal) x9 (ix2 i d) :=
    Finset.sum_congr rfl fun i _ => by rw [eL i, eR i, hidden2_at]
  rw [val_main_v156_apply, val_main_v155_apply, val_main_v152_apply, val_main_v149_apply, val_main_v143_apply, val_main_v132_apply,
    val_main_v127_apply, hsum, val_main_v131_apply, val_main_v130_apply, e131, val_main_v142_apply, val_main_v141_apply, e142,
    val_main_v148_apply, val_main_v147_apply, e148, val_main_v146_apply, val_main_v145_apply, val_main_v144_apply, val_main_cst_8_apply,
    val_main_v151_apply, val_main_v150_apply, e151, val_main_v154_apply, val_main_v153_apply, e154, val_main_call3_v0_apply, val_main_call3_cst_apply]
  have hz : FloatOps.ofBits (F := Ideal) FTy.f32 0x00000000#32 = 0 := Ideal.ofBits_zero_f32
  rw [hz]
  rfl

/-- Layer 2 of the reference is the specification's layer of the neighbours' sum, layer 1's output and the layer's slices of the stacked parameters. -/
theorem layer2_eq :
    (val_main_v156 (F := Ideal) x0 x1 x3 x4 x5 x6 x7 x8 x9 x10 x11 x12 x13 x14 : S50000x128.Idx → EReal) =
      Cert.Spec.layer (val_main_v91 (F := Ideal) x0 x1 x3 x4 x5 x6 x7 x8 x9 x10 x11 x12 x13 x14) (val_main_v78 (F := Ideal) x0 x1 x3 x4 x5 x6 x7 x8 x9 x10 x11 x12 x13 x14) (val_main_v94 (F := Ideal) x3) (val_main_v97 (F := Ideal) x4)
        (val_main_v102 (F := Ideal) x5) (val_main_v104 (F := Ideal) x6) (val_main_v106 (F := Ideal) x7) (val_main_v108 (F := Ideal) x8)
        (val_main_v126 (F := Ideal) x9) (val_main_v129 (F := Ideal) x10) (val_main_v134 (F := Ideal) x11) (val_main_v136 (F := Ideal) x12)
        (val_main_v138 (F := Ideal) x13) (val_main_v140 (F := Ideal) x14) := by
  funext i
  obtain ⟨n, d, rfl⟩ : ∃ (n : Fin 50000) (d : Fin 128), i = ix2 n d := ⟨i 0, i 1, eq_ix2 i⟩
  exact layer2_at x0 x1 x3 x4 x5 x6 x7 x8 x9 x10 x11 x12 x13 x14 n d

/-! ## Layer 3 (operations %170 … %234; the node features are layer 2's output) -/

/-- The first dense layer, batch norm and relu of layer 3 at node `n`, hidden feature `k`. -/
theorem hidden3_at (n : Fin 50000) (k : Fin 128) :
    val_main_v202 (F := Ideal) x0 x1 x3 x4 x5 x6 x7 x8 x9 x10 x11 x12 x13 x14 (ix2 n k) =
      Cert.Spec.hiddenAt (val_main_v169 (F := Ideal) x0 x1 x3 x4 x5 x6 x7 x8 x9 x10 x11 x12 x13 x14) (val_main_v156 (F := Ideal) x0 x1 x3 x4 x5 x6 x7 x8 x9 x10 x11 x12 x13 x14) (val_main_v172 (F := Ideal) x3) (val_main_v175 (F := Ideal) x4)
        (val_main_v180 (F := Ideal) x5) (val_main_v182 (F := Ideal) x6) (val_main_v184 (F := Ideal) x7) (val_main_v186 (F := Ideal) x8) n k := by
  have eL : ∀ i : Fin 128, lidx_main_v173 (ix2 n k) i = ix2 n i := fun i =>
    funext fun a => Fin.ext (by match a with | ⟨0, _⟩ => rfl | ⟨1, _⟩ => rfl)
  have eR : ∀ i : Fin 128, ridx_main_v173 (ix2 n k) i = ix2 i k := fun i =>
    funext fun a => Fin.ext (by match a with | ⟨0, _⟩ => rfl | ⟨1, _⟩ => rfl)
  have e177 : idx_main_v176 (idx_main_v177 (ix2 n k)) = ix1 k := funext fun a => Fin.ext (by match a with | ⟨0, _⟩ => rfl)
  have e188 : idx_main_v187 (idx_main_v188 (ix2 n k)) = ix1 k := funext fun a => Fin.ext (by match a with | ⟨0, _⟩ => rfl)
  have e194 : idx_main_v193 (idx_main_v194 (ix2 n k)) = ix1 k := funext fun a => Fin.ext (by match a with | ⟨0, _⟩ => rfl)
  have e197 : idx_main_v196 (idx_main_v197 (ix2 n k)) = ix1 k := funext fun a => Fin.ext (by match a with | ⟨0, _⟩ => rfl)
  have e200 : idx_main_v199 (idx_main_v200 (ix2 n k)) = ix1 k := funext fun a => Fin.ext (by match a with | ⟨0, _⟩ => rfl)
  have hsum : (∑ i : Fin 128, val_main_v170 (F := Ideal) x0 x1 x3 x4 x5 x6 x7 x8 x9 x10 x11 x12 x13 x14 (lidx_main_v173 (ix2 n k) i) * val_main_v172 (F := Ideal) x3 (ridx_main_v173 (ix2 n k) i)) =
      ∑ i : Fin 128, (val_main_v169 (F := Ideal) x0 x1 x3 x4 x5 x6 x7 x8 x9 x10 x11 x12 x13 x14 (ix2 n i) + val_main_v156 (F := Ideal) x0 x1 x3 x4 x5 x6 x7 x8 x9 x10 x11 x12 x13 x14 (ix2 n i)) * val_main_v172 (F := Ideal) x3 (ix2 i k) :=
    Finset.sum_congr rfl fun i _ => by rw [eL i, eR i, val_main_v170_apply]; rfl
  rw [val_main_v202_apply, val_main_v201_apply, val_main_v198_apply, val_main_v195_apply, val_main_v189_apply, val_main_v178_apply,
    val_main_v173_apply, hsum, val_main_v177_apply, val_main_v176_apply, e177, val_main_v188_apply, val_main_v187_apply, e188,
    val_main_v194_apply, val_main_v193_apply, e194, val_main_v192_apply, val_main_v191_apply, val_main_v190_apply, val_main_cst_13_apply,
    val_main_v197_apply, val_main_v196_apply, e197, val_main_v200_apply, val_main_v199_apply, e200, val_main_call4_v0_apply, val_main_call4_cst_apply]
  have hz : FloatOps.ofBits (F := Ideal) FTy.f32 0x00000000#32 = 0 := Ideal.ofBits_zero_f32
  rw [hz]
  rfl

/-- Layer 3 of the reference at node `n`, feature `d`. -/
theorem layer3_at (n : Fin 50000) (d : Fin 128) :
    val_main_v234 (F := Ideal) x0 x1 x3 x4 x5 x6 x7 x8 x9 x10 x11 x12 x13 x14 (ix2 n d) =
      Cert.Spec.layerAt (val_main_v169 (F := Ideal) x0 x1 x3 x4 x5 x6 x7 x8 x9 x10 x11 x12 x13 x14) (val_main_v156 (F := Ideal) x0 x1 x3 x4 x5 x6 x7 x8 x9 x10 x11 x12 x13 x14) (val_main_v172 (F := Ideal) x3) (val_main_v175 (F := Ideal) x4)
        (val_main_v180 (F := Ideal) x5) (val_main_v182 (F := Ideal) x6) (val_main_v184 (F := Ideal) x7) (val_main_v186 (F := Ideal) x8)
        (val_main_v204 (F := Ideal) x9) (val_main_v207 (F := Ideal) x10) (val_main_v212 (F := Ideal) x11) (val_main_v214 (F := Ideal) x12)
        (val_main_v216 (F := Ideal) x13) (val_main_v218 (F := Ideal) x14) n d := by
  have eL : ∀ i : Fin 128, lidx_main_v205 (ix2 n d) i = ix2 n i := fun i =>
    funext fun a => Fin.ext (by match a with | ⟨0, _⟩ => rfl | ⟨1, _⟩ => rfl)
  have eR : ∀ i : Fin 128, ridx_main_v205 (ix2 n d) i = ix2 i d := fun i =>
    funext fun a => Fin.ext (by match a with | ⟨0, _⟩ => rfl | ⟨1, _⟩ => rfl)
  have e209 : idx_main_v208 (idx_main_v209 (ix2 n d)) = ix1 d := funext fun a => Fin.ext (by match a with | ⟨0, _⟩ => rfl)
  have e220 : idx_main_v219 (idx_main_v220 (ix2 n d)) = ix1 d := funext fun a => Fin.ext (by match a with | ⟨0, _⟩ => rfl)
  have e226 : idx_main_v225 (idx_main_v226 (ix2 n d)) = ix1 d := funext fun a => Fin.ext (by match a with | ⟨0, _⟩ => rfl)
  have e229 : idx_main_v228 (idx_main_v229 (ix2 n d)) = ix1 d := funext fun a => Fin.ext (by match a with | ⟨0, _⟩ => rfl)
  have e232 : idx_main_v231 (idx_main_v232 (ix2 n d)) = ix1 d := funext fun a => Fin.ext (by match a with | ⟨0, _⟩ => rfl)
  have hsum : (∑ i : Fin 128, val_main_v202 (F := Ideal) x0 x1 x3 x4 x5 x6 x7 x8 x9 x10 x11 x12 x13 x14 (lidx_main_v205 (ix2 n d) i) * val_main_v204 (F := Ideal) x9 (ridx_main_v205 (ix2 n d) i)) =
      ∑ i : Fin 128, Cert.Spec.hiddenAt (val_main_v169 (F := Ideal) x0 x1 x3 x4 x5 x6 x7 x8 x9 x10 x11 x12 x13 x14) (val_main_v156 (F := Ideal) x0 x1 x3 x4 x5 x6 x7 x8 x9 x10 x11 x12 x13 x14) (val_main_v172 (F := Ideal) x3) (val_main_v175 (F := Ideal) x4)
        (val_main_v180 (F := Ideal) x5) (val_main_v182 (F := Ideal) x6) (val_main_v184 (F := Ideal) x7) (val_main_v186 (F := Ideal) x8) n i * val_main_v204 (F := Ideal) x9 (ix2 i d) :=
    Finset.sum_congr rfl fun i _ => by rw [eL i, eR i, hidden3_at]
  rw [val_main_v234_apply, val_main_v233_apply, val_main_v230_apply, val_main_v227_apply, val_main_v221_apply, val_main_v210_apply,
    val_main_v205_apply, hsum, val_main_v209_apply, val_main_v208_apply, e209, val_main_v220_apply, val_main_v219_apply, e220,
    val_main_v226_apply, val_main_v225_apply, e226, val_main_v224_apply, val_main_v223_apply, val_main_v222_apply, val_main_cst_14_apply,
    val_main_v229_apply, val_main_v228_apply, e229, val_main_v232_apply, val_main_v231_apply, e232, val_main_call5_v0_apply, val_main_call5_cst_apply]
  have hz : FloatOps.ofBits (F := Ideal) FTy.f32 0x00000000#32 = 0 := Ideal.ofBits_zero_f32
  rw [hz]
  rfl

/-- Layer 3 of the reference is the specification's layer of the neighbours' sum, layer 2's output and the layer's slices of the stacked parameters. -/
theorem layer3_eq :
    (val_main_v234 (F := Ideal) x0 x1 x3 x4 x5 x6 x7 x8 x9 x10 x11 x12 x13 x14 : S50000x128.Idx → EReal) =
      Cert.Spec.layer (val_main_v169 (F := Ideal) x0 x1 x3 x4 x5 x6 x7 x8 x9 x10 x11 x12 x13 x14) (val_main_v156 (F := Ideal) x0 x1 x3 x4 x5 x6 x7 x8 x9 x10 x11 x12 x13 x14) (val_main_v172 (F := Ideal) x3) (val_main_v175 (F := Ideal) x4)
        (val_main_v180 (F := Ideal) x5) (val_main_v182 (F := Ideal) x6) (val_main_v184 (F := Ideal) x7) (val_main_v186 (F := Ideal) x8)
        (val_main_v204 (F := Ideal) x9) (val_main_v207 (F := Ideal) x10) (val_main_v212 (F := Ideal) x11) (val_main_v214 (F := Ideal) x12)
        (val_main_v216 (F := Ideal) x13) (val_main_v218 (F := Ideal) x14) := by
  funext i
  obtain ⟨n, d, rfl⟩ : ∃ (n : Fin 50000) (d : Fin 128), i = ix2 n d := ⟨i 0, i 1, eq_ix2 i⟩
  exact layer3_at x0 x1 x3 x4 x5 x6 x7 x8 x9 x10 x11 x12 x13 x14 n d

/-! ## Layer 4 (operations %248 … %312; the node features are layer 3's output) -/

/-- The first dense layer, batch norm and relu of layer 4 at node `n`, hidden feature `k`. -/
theorem hidden4_at (n : Fin 50000) (k : Fin 128) :
    val_main_v280 (F := Ideal) x0 x1 x3 x4 x5 x6 x7 x8 x9 x10 x11 x12 x13 x14 (ix2 n k) =
      Cert.Spec.hiddenAt (val_main_v247 (F := Ideal) x0 x1 x3 x4 x5 x6 x7 x8 x9 x10 x11 x12 x13 x14) (val_main_v234 (F := Ideal) x0 x1 x3 x4 x5 x6 x7 x8 x9 x10 x11 x12 x13 x14) (val_main_v250 (F := Ideal) x3) (val_main_v253 (F := Ideal) x4)
        (val_main_v258 (F := Ideal) x5) (val_main_v260 (F := Ideal) x6) (val_main_v262 (F := Ideal) x7) (val_main_v264 (F := Ideal) x8) n k := by
  have eL : ∀ i : Fin 128, lidx_main_v251 (ix2 n k) i = ix2 n i := fun i =>
    funext fun a => Fin.ext (by match a with | ⟨0, _⟩ => rfl | ⟨1, _⟩ => rfl)
  have eR : ∀ i : Fin 128, ridx_main_v251 (ix2 n k) i = ix2 i k := fun i =>
    funext fun a => Fin.ext (by match a with | ⟨0, _⟩ => rfl | ⟨1, _⟩ => rfl)
  have e255 : idx_main_v254 (idx_main_v255 (ix2 n k)) = ix1 k := funext fun a => Fin.ext (by match a with | ⟨0, _⟩ => rfl)
  have e266 : idx_main_v265 (idx_main_v266 (ix2 n k)) = ix1 k := funext fun a => Fin.ext (by match a with | ⟨0, _⟩ => rfl)
  have e272 : idx_main_v271 (idx_main_v272 (ix2 n k)) = ix1 k := funext fun a => Fin.ext (by match a with | ⟨0, _⟩ => rfl)
  have e275 : idx_main_v274 (idx_main_v275 (ix2 n k)) = ix1 k := funext fun a => Fin.ext (by match a with | ⟨0, _⟩ => rfl)
  have e278 : idx_main_v277 (idx_main_v278 (ix2 n k)) = ix1 k := funext fun a => Fin.ext (by match a with | ⟨0, _⟩ => rfl)
  have hsum : (∑ i : Fin 128, val_main_v248 (F := Ideal) x0 x1 x3 x4 x5 x6 x7 x8 x9 x10 x11 x12 x13 x14 (lidx_main_v251 (ix2 n k) i) * val_main_v250 (F := Ideal) x3 (ridx_main_v251 (ix2 n k) i)) =
      ∑ i : Fin 128, (val_main_v247 (F := Ideal) x0 x1 x3 x4 x5 x6 x7 x8 x9 x10 x11 x12 x13 x14 (ix2 n i) + val_main_v234 (F := Ideal) x0 x1 x3 x4 x5 x6 x7 x8 x9 x10 x11 x12 x13 x14 (ix2 n i)) * val_main_v250 (F := Ideal) x3 (ix2 i k) :=
    Finset.sum_congr rfl fun i _ => by rw [eL i, eR i, val_main_v248_apply]; rfl
  rw [val_main_v280_apply, val_main_v279_apply, val_main_v276_apply, val_main_v273_apply, val_main_v267_apply, val_main_v256_apply,
    val_main_v251_apply, hsum, val_main_v255_apply, val_main_v254_apply, e255, val_main_v266_apply, val_main_v265_apply, e266,
    val_main_v272_apply, val_main_v271_apply, e272, val_main_v270_apply, val_main_v269_apply, val_main_v268_apply, val_main_cst_19_apply,
    val_main_v275_apply, val_main_v274_apply, e275, val_main_v278_apply, val_main_v277_apply, e278, val_main_call6_v0_apply, val_main_call6_cst_apply]
  have hz : FloatOps.ofBits (F := Ideal) FTy.f32 0x00000000#32 = 0 := Ideal.ofBits_zero_f32
  rw [hz]
  rfl

/-- Layer 4 of the reference at node `n`, feature `d`. -/
theorem layer4_at (n : Fin 50000) (d : Fin 128) :
    val_main_v312 (F := Ideal) x0 x1 x3 x4 x5 x6 x7 x8 x9 x10 x11 x12 x13 x14 (ix2 n d) =
      Cert.Spec.layerAt (val_main_v247 (F := Ideal) x0 x1 x3 x4 x5 x6 x7 x8 x9 x10 x11 x12 x13 x14) (val_main_v234 (F := Ideal) x0 x1 x3 x4 x5 x6 x7 x8 x9 x10 x11 x12 x13 x14) (val_main_v250 (F := Ideal) x3) (val_main_v253 (F := Ideal) x4)
        (val_main_v258 (F := Ideal) x5) (val_main_v260 (F := Ideal) x6) (val_main_v262 (F := Ideal) x7) (val_main_v264 (F := Ideal) x8)
        (val_main_v282 (F := Ideal) x9) (val_main_v285 (F := Ideal) x10) (val_main_v290 (F := Ideal) x11) (val_main_v292 (F := Ideal) x12)
        (val_main_v294 (F := Ideal) x13) (val_main_v296 (F := Ideal) x14) n d := by
  have eL : ∀ i : Fin 128, lidx_main_v283 (ix2 n d) i = ix2 n i := fun i =>
    funext fun a => Fin.ext (by match a with | ⟨0, _⟩ => rfl | ⟨1, _⟩ => rfl)
  have eR : ∀ i : Fin 128, ridx_main_v283 (ix2 n d) i = ix2 i d := fun i =>
    funext fun a => Fin.ext (by match a with | ⟨0, _⟩ => rfl | ⟨1, _⟩ => rfl)
  have e287 : idx_main_v286 (idx_main_v287 (ix2 n d)) = ix1 d := funext fun a => Fin.ext (by match a with | ⟨0, _⟩ => rfl)
  have e298 : idx_main_v297 (idx_main_v298 (ix2 n d)) = ix1 d := funext fun a => Fin.ext (by match a with | ⟨0, _⟩ => rfl)
  have e304 : idx_main_v303 (idx_main_v304 (ix2 n d)) = ix1 d := funext fun a => Fin.ext (by match a with | ⟨0, _⟩ => rfl)
  have e307 : idx_main_v306 (idx_main_v307 (ix2 n d)) = ix1 d := funext fun a => Fin.ext (by match a with | ⟨0, _⟩ => rfl)
  have e310 : idx_main_v309 (idx_main_v310 (ix2 n d)) = ix1 d := funext fun a => Fin.ext (by match a with | ⟨0, _⟩ => rfl)
  have hsum : (∑ i : Fin 128, val_main_v280 (F := Ideal) x0 x1 x3 x4 x5 x6 x7 x8 x9 x10 x11 x12 x13 x14 (lidx_main_v283 (ix2 n d) i) * val_main_v282 (F := Ideal) x9 (ridx_main_v283 (ix2 n d) i)) =
      ∑ i : Fin 128, Cert.Spec.hiddenAt (val_main_v247 (F := Ideal) x0 x1 x3 x4 x5 x6 x7 x8 x9 x10 x11 x12 x13 x14) (val_main_v234 (F := Ideal) x0 x1 x3 x4 x5 x6 x7 x8 x9 x10 x11 x12 x13 x14) (val_main_v250 (F := Ideal) x3) (val_main_v253 (F := Ideal) x4)
        (val_main_v258 (F := Ideal) x5) (val_main_v260 (F := Ideal) x6) (val_main_v262 (F := Ideal) x7) (val_main_v264 (F := Ideal) x8) n i * val_main_v282 (F := Ideal) x9 (ix2 i d) :=
    Finset.sum_congr rfl fun i _ => by rw [eL i, eR i, hidden4_at]
  rw [val_main_v312_apply, val_main_v311_apply, val_main_v308_apply, val_main_v305_apply, val_main_v299_apply, val_main_v288_apply,
    val_main_v283_apply, hsum, val_main_v287_apply, val_main_v286_apply, e287, val_main_v298_apply, val_main_v297_apply, e298,
    val_main_v304_apply, val_main_v303_apply, e304, val_main_v302_apply, val_main_v301_apply, val_main_v300_apply, val_main_cst_20_apply,
    val_main_v307_apply, val_main_v306_apply, e307, val_main_v310_apply, val_main_v309_apply, e310, val_main_call7_v0_apply, val_main_call7_cst_apply]
  have hz : FloatOps.ofBits (F := Ideal) FTy.f32 0x00000000#32 = 0 := Ideal.ofBits_zero_f32
  rw [hz]
  rfl

/-- Layer 4 of the reference is the specification's layer of the neighbours' sum, layer 3's output and the layer's slices of the stacked parameters. -/
theorem layer4_eq :
    (val_main_v312 (F := Ideal) x0 x1 x3 x4 x5 x6 x7 x8 x9 x10 x11 x12 x13 x14 : S50000x128.Idx → EReal) =
      Cert.Spec.layer (val_main_v247 (F := Ideal) x0 x1 x3 x4 x5 x6 x7 x8 x9 x10 x11 x12 x13 x14) (val_main_v234 (F := Ideal) x0 x1 x3 x4 x5 x6 x7 x8 x9 x10 x11 x12 x13 x14) (val_main_v250 (F := Ideal) x3) (val_main_v253 (F := Ideal) x4)
        (val_main_v258 (F := Ideal) x5) (val_main_v260 (F := Ideal) x6) (val_main_v262 (F := Ideal) x7) (val_main_v264 (F := Ideal) x8)
        (val_main_v282 (F := Ideal) x9) (val_main_v285 (F := Ideal) x10) (val_main_v290 (F := Ideal) x11) (val_main_v292 (F := Ideal) x12)
        (val_main_v294 (F := Ideal) x13) (val_main_v296 (F := Ideal) x14) := by
  funext i
  obtain ⟨n, d, rfl⟩ : ∃ (n : Fin 50000) (d : Fin 128), i = ix2 n d := ⟨i 0, i 1, eq_ix2 i⟩
  exact layer4_at x0 x1 x3 x4 x5 x6 x7 x8 x9 x10 x11 x12 x13 x14 n d

end Cert.ReferenceIdeal.Hand

end
-- ==== Proof.Ref.Pool.lean ====
/-
  The reference's pooling is the specification's pool, on the extended reals.

  The reference pools the node features by a row scatter-add into a zero array of one row per graph: update row `n`
  (all 128 features of node `n`) is added to the row named by node `n`'s graph id. Read at graph `g`, feature `d`,
  the scatter-add is the zero operand plus the sum of the update elements `(n, b)` that land at `(g, d)`. For these
  dimension numbers update `(n, b)` lands at `(id n, b)`, the id read signed and not clamped, when `0 ≤ id n < 512`,
  and nowhere otherwise. So the element is the sum over the nodes `n` with `id n = g` of feature `d` of node `n`:
  the specification's `poolAt`. The four layers' pools are instances.
-/
import proofs.«426741_j36421322670671_1_alg».proof.Proof.RefRead
import proofs.«426741_j36421322670671_1_alg».proof.Proof.Spec
import Idealize.ShloMosaic.Lib.ValueIdx

noncomputable section

open scoped BigOperators

namespace Cert.ReferenceIdeal.Hand

open Cert.ReferenceIdeal Cert.ReferenceIdeal.Gen Cert.ReferenceIdeal.ReadP Idealize.ShloMosaic Idealize.ShloMosaic.ValueIdx

/-- The pooling scatter's dimension numbers: the update's axis 1 is the window axis, the operand's axis 0 is inserted
    and is the one the start index names, and the index vector lies along axis 1 of the ids' column. -/
local notation "dP" => scatter_S512x128_S50000x1_S50000x128_1_0_0_1

/-! ## Where update `(n, b)` lands -/

/-- On the graph axis the window of update `(n, b)` starts at node `n`'s id, read signed. -/
theorem pool_start0 (ids : IVec S50000x1 32) (n : Fin 50000) (b : Fin 128) :
    ScatterDims.start dP (ix2 n b) ids (0 : Fin 2) = (ids (ix2 n 0)).toInt := by
  unfold ScatterDims.start
  rw [dif_pos (show (0 : Fin 2) ∈ (dP).scatterDimsToOperandDims from List.mem_singleton.mpr rfl)]
  congr 2
  funext a
  refine Fin.ext ?_
  match a with
  | ⟨0, _⟩ => rfl
  | ⟨1, _⟩ => rfl

/-- On the feature axis the window starts at 0: the start index does not name that axis. -/
theorem pool_start1 (ids : IVec S50000x1 32) (n : Fin 50000) (b : Fin 128) :
    ScatterDims.start dP (ix2 n b) ids (1 : Fin 2) = 0 := by
  unfold ScatterDims.start
  rw [dif_neg (show ¬ (1 : Fin 2) ∈ (dP).scatterDimsToOperandDims from by decide)]

/-- The graph axis is inserted: the window coordinate there is 0. -/
theorem pool_window0 (n : Fin 50000) (b : Fin 128) :
    ScatterDims.window dP (ix2 n b) (0 : Fin 2) = 0 := by
  unfold ScatterDims.window
  rw [dif_neg (by decide)]

/-- On the feature axis the window coordinate is the update's feature coordinate. -/
theorem pool_window1 (n : Fin 50000) (b : Fin 128) :
    ScatterDims.window dP (ix2 n b) (1 : Fin 2) = b.val := by
  unfold ScatterDims.window
  rw [dif_pos (by decide)]
  rfl

/-- Update `(n, b)` lands at `(g, d)` exactly when node `n`'s signed id is `g` and `b = d`; an id outside
    `[0, 512)` lands nowhere. -/
theorem pool_resultIdx (ids : IVec S50000x1 32) (n : Fin 50000) (b : Fin 128) (g : Fin 512) (d : Fin 128) :
    ScatterDims.resultIdx? dP (ix2 n b) ids = some (ix2 g d) ↔ ((ids (ix2 n 0)).toInt = (g.val : ℤ) ∧ b = d) := by
  have hg := g.isLt
  have hb := b.isLt
  unfold ScatterDims.resultIdx?
  by_cases h : ∀ a, 0 ≤ ScatterDims.start dP (ix2 n b) ids a + ScatterDims.window dP (ix2 n b) a ∧ ScatterDims.start dP (ix2 n b) ids a + ScatterDims.window dP (ix2 n b) a < S512x128.size a
  · rw [dif_pos h, Option.some.injEq]
    have h0 := h 0
    rw [pool_start0, pool_window0] at h0
    constructor
    · intro he
      have e0 : ((ScatterDims.start dP (ix2 n b) ids 0 + ScatterDims.window dP (ix2 n b) 0).toNat) = g.val := congrArg (fun f => (f 0).val) he
      have e1 : ((ScatterDims.start dP (ix2 n b) ids 1 + ScatterDims.window dP (ix2 n b) 1).toNat) = d.val := congrArg (fun f => (f 1).val) he
      rw [pool_start0, pool_window0] at e0
      rw [pool_start1, pool_window1] at e1
      exact ⟨by omega, Fin.ext (by omega)⟩
    · rintro ⟨e0, rfl⟩
      funext a
      refine Fin.ext ?_
      match a with
      | ⟨0, _⟩ =>
        show (ScatterDims.start dP (ix2 n b) ids 0 + ScatterDims.window dP (ix2 n b) 0).toNat = g.val
        rw [pool_start0, pool_window0]; omega
      | ⟨1, _⟩ =>
        show (ScatterDims.start dP (ix2 n b) ids 1 + ScatterDims.window dP (ix2 n b) 1).toNat = b.val
        rw [pool_start1, pool_window1]; omega
  · rw [dif_neg h]
    constructor
    · intro he; cases he
    · rintro ⟨e0, -⟩
      exfalso; apply h
      intro a
      match a with
      | ⟨0, _⟩ =>
        show 0 ≤ ScatterDims.start dP (ix2 n b) ids 0 + ScatterDims.window dP (ix2 n b) 0 ∧ ScatterDims.start dP (ix2 n b) ids 0 + ScatterDims.window dP (ix2 n b) 0 < ((512 : ℕ) : ℤ)
        rw [pool_start0, pool_window0]; omega
      | ⟨1, _⟩ =>
        show 0 ≤ ScatterDims.start dP (ix2 n b) ids 1 + ScatterDims.window dP (ix2 n b) 1 ∧ ScatterDims.start dP (ix2 n b) ids 1 + ScatterDims.window dP (ix2 n b) 1 < ((128 : ℕ) : ℤ)
        rw [pool_start1, pool_window1]; omega

/-! ## The scatter-add read as a sum over the nodes -/

/-- A row scatter-add of `h` into zeros at the ids' column is the specification's pool of `h` at those ids. -/
theorem scatterAdd_rows (ids : IVec S50000x1 32) (h : FVec Ideal S50000x128 .f32) :
    (Host.scatterAdd dP (broadcastInDim S512x128 ![] bcast_S_S512x128 (constant S_ .f32 0x00000000#32)) ids h : S512x128.Idx → EReal)
      = Cert.Spec.pool h (fun i => ids (ix2 (n0 := 50000) (n1 := 1) (i 0) 0)) := by
  funext i
  obtain ⟨g, d, rfl⟩ : ∃ g d, i = ix2 g d := ⟨i 0, i 1, eq_ix2 i⟩
  show Ideal.hostScatterAdd dP _ ids h (ix2 g d) = Cert.Spec.poolAt h _ g d
  unfold Ideal.hostScatterAdd Cert.Spec.poolAt
  have hz : (broadcastInDim S512x128 ![] bcast_S_S512x128 (constant (F := Ideal) S_ .f32 0x00000000#32)) (ix2 g d) = 0 := by
    rw [broadcastInDim_apply _ bcast_S_S512x128 _ (ix2 g d) (fun a => a.elim0) (fun a => a.elim0)]
    exact Ideal.ofBits_zero_f32
  rw [hz, zero_add, Finset.sum_filter, sum_idx2]
  refine Finset.sum_congr rfl fun n _ => ?_
  show _ = if (ids (ix2 n 0)).toInt = (g.val : ℤ) then h (ix2 n d) else 0
  have key : ∀ b : Fin 128, (if ScatterDims.resultIdx? dP (ix2 n b) ids = some (ix2 g d) then h (ix2 n b) else 0)
      = if b = d then (if (ids (ix2 n 0)).toInt = (g.val : ℤ) then h (ix2 n d) else 0) else 0 := by
    intro b
    by_cases hb : b = d
    · subst hb
      rw [if_pos rfl]
      by_cases hn : (ids (ix2 n 0)).toInt = (g.val : ℤ)
      · rw [if_pos hn, if_pos ((pool_resultIdx ids n b g b).mpr ⟨hn, rfl⟩)]
      · rw [if_neg hn, if_neg (fun he => hn ((pool_resultIdx ids n b g b).mp he).1)]
    · rw [if_neg hb, if_neg (fun he => hb ((pool_resultIdx ids n b g d).mp he).2)]
  rw [Finset.sum_congr rfl (fun b _ => key b), Finset.sum_ite_eq' Finset.univ d, if_pos (Finset.mem_univ d)]

/-- The same with the ids' column spelt as the reference builds it: the id vector broadcast to one column. -/
theorem scatterAdd_ids (x2 : (⟨S50000, .i32⟩ : BufTy).Contents (Elt Ideal)) (h : FVec Ideal S50000x128 .f32) :
    (Host.scatterAdd dP (broadcastInDim S512x128 ![] bcast_S_S512x128 (constant S_ .f32 0x00000000#32))
        (val_main_v80 (F := Ideal) x2) h : S512x128.Idx → EReal) = Cert.Spec.pool h x2 := by
  rw [scatterAdd_rows]
  congr 1
  funext i
  rw [val_main_v80_apply]
  congr 1
  funext a
  match a with
  | ⟨0, _⟩ => rfl

/-! ## The four layers' pools -/

/-- The first layer's pool. -/
theorem pool1_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) :
    (val_main_v81 (F := Ideal) x0 x1 x2 x3 x4 x5 x6 x7 x8 x9 x10 x11 x12 x13 x14 : S512x128.Idx → EReal)
      = Cert.Spec.pool (val_main_v78 (F := Ideal) x0 x1 x3 x4 x5 x6 x7 x8 x9 x10 x11 x12 x13 x14) x2 :=
  scatterAdd_ids x2 _

/-- The second layer's pool. -/
theorem pool2_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) :
    (val_main_v159 (F := Ideal) x0 x1 x2 x3 x4 x5 x6 x7 x8 x9 x10 x11 x12 x13 x14 : S512x128.Idx → EReal)
      = Cert.Spec.pool (val_main_v156 (F := Ideal) x0 x1 x3 x4 x5 x6 x7 x8 x9 x10 x11 x12 x13 x14) x2 :=
  scatterAdd_ids x2 _

/-- The third layer's pool. -/
theorem pool3_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) :
    (val_main_v237 (F := Ideal) x0 x1 x2 x3 x4 x5 x6 x7 x8 x9 x10 x11 x12 x13 x14 : S512x128.Idx → EReal)
      = Cert.Spec.pool (val_main_v234 (F := Ideal) x0 x1 x3 x4 x5 x6 x7 x8 x9 x10 x11 x12 x13 x14) x2 :=
  scatterAdd_ids x2 _

/-- The fourth layer's pool. -/
theorem pool4_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) :
    (val_main_v315 (F := Ideal) x0 x1 x2 x3 x4 x5 x6 x7 x8 x9 x10 x11 x12 x13 x14 : S512x128.Idx → EReal)
      = Cert.Spec.pool (val_main_v312 (F := Ideal) x0 x1 x3 x4 x5 x6 x7 x8 x9 x10 x11 x12 x13 x14) x2 :=
  scatterAdd_ids x2 _

end Cert.ReferenceIdeal.Hand

end
-- ==== Proof.Ref.Head.lean ====
/-
  The reference's classifier head is the specification's head, on the extended reals.

  The reference multiplies the four pools side by side by the first weight matrix, adds the first bias along the rows,
  takes the maximum with zero, multiplies by the second weight matrix and adds the second bias along the rows. Read at
  graph `g`, class `c`, each matrix product is the sum over its contracted coordinate, each broadcast bias is the
  bias at the column, and the zero the maximum is taken with is the real zero: the specification's `headAt`.
-/
import proofs.«426741_j36421322670671_1_alg».proof.Proof.RefRead
import proofs.«426741_j36421322670671_1_alg».proof.Proof.Spec
import Idealize.ShloMosaic.Lib.ValueIdx

noncomputable section

open scoped BigOperators

namespace Cert.ReferenceIdeal.Hand

open Cert.ReferenceIdeal Cert.ReferenceIdeal.Gen Cert.ReferenceIdeal.ReadP Idealize.ShloMosaic Idealize.ShloMosaic.ValueIdx

/-- The hidden layer of the head at graph `g`, hidden feature `k`: the pools' row times the first weight matrix's
    column, plus the bias, cut below at zero. -/
theorem head_hidden (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) (x15 : (⟨S512x128, .f32⟩ : BufTy).Contents (Elt Ideal)) (x16 : (⟨S128, .f32⟩ : BufTy).Contents (Elt Ideal)) (g : Fin 512) (k : Fin 128) :
    val_main_v321 (F := Ideal) x0 x1 x2 x3 x4 x5 x6 x7 x8 x9 x10 x11 x12 x13 x14 x15 x16 (ix2 g k)
      = max ((∑ f : Fin 512, val_main_v316 (F := Ideal) x0 x1 x2 x3 x4 x5 x6 x7 x8 x9 x10 x11 x12 x13 x14 (ix2 g f) * x15 (ix2 f k)) + x16 (ix1 k)) 0 := by
  rw [val_main_v321_apply, val_main_v320_apply, val_main_v317_apply, val_main_v319_apply, val_main_v318_apply,
    val_main_call8_v0_apply, val_main_call8_cst_apply, Ideal.maximumf_def, Ideal.addf_def, Ideal.ofBits_def,
    Ideal.ofBits_zero_f32]
  have hl : ∀ f : Fin 512, lidx_main_v317 (ix2 g k) f = ix2 g f := fun f =>
    funext fun a => Fin.ext (by match a with | ⟨0, _⟩ => rfl | ⟨1, _⟩ => rfl)
  have hr : ∀ f : Fin 512, ridx_main_v317 (ix2 g k) f = ix2 f k := fun f =>
    funext fun a => Fin.ext (by match a with | ⟨0, _⟩ => rfl | ⟨1, _⟩ => rfl)
  have hb : idx_main_v318 (idx_main_v319 (ix2 g k)) = ix1 k :=
    funext fun a => Fin.ext (by match a with | ⟨0, _⟩ => rfl)
  rw [hb, Finset.sum_congr rfl (fun f _ => by rw [hl f, hr f])]

/-- The reference's output is the specification's head of the four pools side by side. -/
theorem head_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) (x15 : (⟨S512x128, .f32⟩ : BufTy).Contents (Elt Ideal)) (x16 : (⟨S128, .f32⟩ : BufTy).Contents (Elt Ideal)) (x17 : (⟨S128x10, .f32⟩ : BufTy).Contents (Elt Ideal)) (x18 : (⟨S10, .f32⟩ : BufTy).Contents (Elt Ideal)) :
    (val_main_v325 (F := Ideal) x0 x1 x2 x3 x4 x5 x6 x7 x8 x9 x10 x11 x12 x13 x14 x15 x16 x17 x18 : S512x10.Idx → EReal)
      = Cert.Spec.head (val_main_v316 (F := Ideal) x0 x1 x2 x3 x4 x5 x6 x7 x8 x9 x10 x11 x12 x13 x14) x15 x16 x17 x18 := by
  funext i
  obtain ⟨g, c, rfl⟩ : ∃ g c, i = ix2 g c := ⟨i 0, i 1, eq_ix2 i⟩
  show _ = Cert.Spec.headAt _ x15 x16 x17 x18 g c
  unfold Cert.Spec.headAt
  rw [val_main_v325_apply, val_main_v322_apply, val_main_v324_apply, val_main_v323_apply, Ideal.addf_def]
  have hb : idx_main_v323 (idx_main_v324 (ix2 g c)) = ix1 c :=
    funext fun a => Fin.ext (by match a with | ⟨0, _⟩ => rfl)
  rw [hb]
  refine congrArg (· + x18 (ix1 c)) ?_
  refine Finset.sum_congr rfl fun k _ => ?_
  have hl : lidx_main_v322 (ix2 g c) k = ix2 g k :=
    funext fun a => Fin.ext (by match a with | ⟨0, _⟩ => rfl | ⟨1, _⟩ => rfl)
  have hr : ridx_main_v322 (ix2 g c) k = ix2 k c :=
    funext fun a => Fin.ext (by match a with | ⟨0, _⟩ => rfl | ⟨1, _⟩ => rfl)
  rw [hl, hr, head_hidden]

end Cert.ReferenceIdeal.Hand

end
-- ==== Proof.GlueRef.lean ====
/- The reference program's host stages are the kernel program's shared host functions applied to the same inputs:
   the neighbour sum before every layer, the per-layer parameter slices, the graph-id column, and the four pools
   side by side. Stated at an arbitrary float family, where both sides unfold to the same operations. -/
import proofs.«426741_j36421322670671_1_alg».proof.Proof.RefRead
import proofs.«426741_j36421322670671_1_alg».proof.Proof.KI.HostGlue

noncomputable section

namespace Cert.ReferenceIdeal.Hand

open Cert.ReferenceIdeal Cert.ReferenceIdeal.ReadP Idealize.ShloMosaic Idealize.ShloMosaic.TcCoe Idealize.ShloMosaic.StableHlo
open Cert.KernelIdeal.Hand (aggT aggRows srcRow dstRow srcNorm idsCol matSl0 matSl1 matSl2 matSl3 vecSl0 vecSl1 vecSl2 vecSl3 feat4)

variable {F : FTy → Type} [FloatOps F]
variable (x0 : (⟨S50000x128, .f32⟩ : BufTy).Contents (Elt F)) (x1 : (⟨S2x800000, .i32⟩ : BufTy).Contents (Elt F))
  (x2 : (⟨S50000, .i32⟩ : BufTy).Contents (Elt F)) (x3 : (⟨S4x128x128, .f32⟩ : BufTy).Contents (Elt F))
  (x4 x5 x6 x7 x8 : (⟨S4x128, .f32⟩ : BufTy).Contents (Elt F)) (x9 : (⟨S4x128x128, .f32⟩ : BufTy).Contents (Elt F))
  (x10 x11 x12 x13 x14 : (⟨S4x128, .f32⟩ : BufTy).Contents (Elt F))

/-! ## The neighbour sums -/

/-- The reference's neighbour sum before layer 0 is the shared one, over layer 0's input features. -/
theorem ref_agg0 : val_main_v13 (F := F) x0 x1 = aggT x0 x1 := rfl

/-- The reference's neighbour sum before layer 1 is the shared one, over layer 1's input features. -/
theorem ref_agg1 : val_main_v91 (F := F) x0 x1 x3 x4 x5 x6 x7 x8 x9 x10 x11 x12 x13 x14 = aggT (val_main_v78 (F := F) x0 x1 x3 x4 x5 x6 x7 x8 x9 x10 x11 x12 x13 x14) x1 := rfl

/-- The reference's neighbour sum before layer 2 is the shared one, over layer 2's input features. -/
theorem ref_agg2 : val_main_v169 (F := F) x0 x1 x3 x4 x5 x6 x7 x8 x9 x10 x11 x12 x13 x14 = aggT (val_main_v156 (F := F) x0 x1 x3 x4 x5 x6 x7 x8 x9 x10 x11 x12 x13 x14) x1 := rfl

/-- The reference's neighbour sum before layer 3 is the shared one, over layer 3's input features. -/
theorem ref_agg3 : val_main_v247 (F := F) x0 x1 x3 x4 x5 x6 x7 x8 x9 x10 x11 x12 x13 x14 = aggT (val_main_v234 (F := F) x0 x1 x3 x4 x5 x6 x7 x8 x9 x10 x11 x12 x13 x14) x1 := rfl

/-! ## The parameter slices -/

theorem ref_W1_0 : val_main_v16 (F := F) x3 = matSl0 x3 := rfl

theorem ref_b1_0 : val_main_v19 (F := F) x4 = vecSl0 x4 := rfl

theorem ref_g1_0 : val_main_v24 (F := F) x5 = vecSl0 x5 := rfl

theorem ref_be1_0 : val_main_v26 (F := F) x6 = vecSl0 x6 := rfl

theorem ref_mu1_0 : val_main_v28 (F := F) x7 = vecSl0 x7 := rfl

theorem ref_va1_0 : val_main_v30 (F := F) x8 = vecSl0 x8 := rfl

theorem ref_W2_0 : val_main_v48 (F := F) x9 = matSl0 x9 := rfl

theorem ref_b2_0 : val_main_v51 (F := F) x10 = vecSl0 x10 := rfl

theorem ref_g2_0 : val_main_v56 (F := F) x11 = vecSl0 x11 := rfl

theorem ref_be2_0 : val_main_v58 (F := F) x12 = vecSl0 x12 := rfl

theorem ref_mu2_0 : val_main_v60 (F := F) x13 = vecSl0 x13 := rfl

theorem ref_va2_0 : val_main_v62 (F := F) x14 = vecSl0 x14 := rfl

theorem ref_W1_1 : val_main_v94 (F := F) x3 = matSl1 x3 := rfl

theorem ref_b1_1 : val_main_v97 (F := F) x4 = vecSl1 x4 := rfl

theorem ref_g1_1 : val_main_v102 (F := F) x5 = vecSl1 x5 := rfl

theorem ref_be1_1 : val_main_v104 (F := F) x6 = vecSl1 x6 := rfl

theorem ref_mu1_1 : val_main_v106 (F := F) x7 = vecSl1 x7 := rfl

theorem ref_va1_1 : val_main_v108 (F := F) x8 = vecSl1 x8 := rfl

theorem ref_W2_1 : val_main_v126 (F := F) x9 = matSl1 x9 := rfl

theorem ref_b2_1 : val_main_v129 (F := F) x10 = vecSl1 x10 := rfl

theorem ref_g2_1 : val_main_v134 (F := F) x11 = vecSl1 x11 := rfl

theorem ref_be2_1 : val_main_v136 (F := F) x12 = vecSl1 x12 := rfl

theorem ref_mu2_1 : val_main_v138 (F := F) x13 = vecSl1 x13 := rfl

theorem ref_va2_1 : val_main_v140 (F := F) x14 = vecSl1 x14 := rfl

theorem ref_W1_2 : val_main_v172 (F := F) x3 = matSl2 x3 := rfl

theorem ref_b1_2 : val_main_v175 (F := F) x4 = vecSl2 x4 := rfl

theorem ref_g1_2 : val_main_v180 (F := F) x5 = vecSl2 x5 := rfl

theorem ref_be1_2 : val_main_v182 (F := F) x6 = vecSl2 x6 := rfl

theorem ref_mu1_2 : val_main_v184 (F := F) x7 = vecSl2 x7 := rfl

theorem ref_va1_2 : val_main_v186 (F := F) x8 = vecSl2 x8 := rfl

theorem ref_W2_2 : val_main_v204 (F := F) x9 = matSl2 x9 := rfl

theorem ref_b2_2 : val_main_v207 (F := F) x10 = vecSl2 x10 := rfl

theorem ref_g2_2 : val_main_v212 (F := F) x11 = vecSl2 x11 := rfl

theorem ref_be2_2 : val_main_v214 (F := F) x12 = vecSl2 x12 := rfl

theorem ref_mu2_2 : val_main_v216 (F := F) x13 = vecSl2 x13 := rfl

theorem ref_va2_2 : val_main_v218 (F := F) x14 = vecSl2 x14 := rfl

theorem ref_W1_3 : val_main_v250 (F := F) x3 = matSl3 x3 := rfl

theorem ref_b1_3 : val_main_v253 (F := F) x4 = vecSl3 x4 := rfl

theorem ref_g1_3 : val_main_v258 (F := F) x5 = vecSl3 x5 := rfl

theorem ref_be1_3 : val_main_v260 (F := F) x6 = vecSl3 x6 := rfl

theorem ref_mu1_3 : val_main_v262 (F := F) x7 = vecSl3 x7 := rfl

theorem ref_va1_3 : val_main_v264 (F := F) x8 = vecSl3 x8 := rfl

theorem ref_W2_3 : val_main_v282 (F := F) x9 = matSl3 x9 := rfl

theorem ref_b2_3 : val_main_v285 (F := F) x10 = vecSl3 x10 := rfl

theorem ref_g2_3 : val_main_v290 (F := F) x11 = vecSl3 x11 := rfl

theorem ref_be2_3 : val_main_v292 (F := F) x12 = vecSl3 x12 := rfl

theorem ref_mu2_3 : val_main_v294 (F := F) x13 = vecSl3 x13 := rfl

theorem ref_va2_3 : val_main_v296 (F := F) x14 = vecSl3 x14 := rfl

/-! ## The graph-id column -/

/-- The reference broadcasts the graph ids to a column where the kernel's program reshapes them: the same column. -/
theorem ref_ids : val_main_v80 (F := F) x2 = idsCol x2 := by
  funext i
  rw [val_main_v80_apply]
  unfold idsCol
  exact (shapeCast_apply x2 _ i (idx_main_v80 i)
    (by rewrite [Shape.rowMajor_val_one, Shape.rowMajor_val_two]; have h1 : (i 1).val < 1 := (i 1).isLt; show (i 0).val = (i 0).val * 1 + (i 1).val; omega)).symm

/-! ## The pools side by side -/

theorem ref_feat : val_main_v316 (F := F) x0 x1 x2 x3 x4 x5 x6 x7 x8 x9 x10 x11 x12 x13 x14
    = feat4 (val_main_v81 (F := F) x0 x1 x2 x3 x4 x5 x6 x7 x8 x9 x10 x11 x12 x13 x14) (val_main_v159 (F := F) x0 x1 x2 x3 x4 x5 x6 x7 x8 x9 x10 x11 x12 x13 x14) (val_main_v237 (F := F) x0 x1 x2 x3 x4 x5 x6 x7 x8 x9 x10 x11 x12 x13 x14) (val_main_v315 (F := F) x0 x1 x2 x3 x4 x5 x6 x7 x8 x9 x10 x11 x12 x13 x14) := rfl

end Cert.ReferenceIdeal.Hand

end
-- ==== Proof.RefValue.lean ====
/-
  The reference's result is the network of its arguments, on the extended reals.

  Stage by stage: the reference's features after each layer are the specification's layer on the previous features,
  their neighbour sum and the layer's parameter slices; its four pools are the specification's pools of those features
  at the graph ids; its result is the specification's head on the pools side by side. The neighbour sum, the slices
  and the concatenation are the same host functions the kernel program's closed form is written with.
-/
import proofs.«426741_j36421322670671_1_alg».proof.Proof.Ref.Layers
import proofs.«426741_j36421322670671_1_alg».proof.Proof.Ref.Pool
import proofs.«426741_j36421322670671_1_alg».proof.Proof.Ref.Head
import proofs.«426741_j36421322670671_1_alg».proof.Proof.GlueRef
import proofs.«426741_j36421322670671_1_alg».proof.Proof.KI.Net

noncomputable section

namespace Cert.Proof.RefValue

open Cert.ReferenceIdeal Cert.ReferenceIdeal.Gen Cert.ReferenceIdeal.ReadP Cert.ReferenceIdeal.Hand Idealize.ShloMosaic

/-- The reference's node features after the first layer are the network's. -/
theorem ref_h1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) :
    (val_main_v78 (F := Ideal) x0 x1 x3 x4 x5 x6 x7 x8 x9 x10 x11 x12 x13 x14 : S50000x128.Idx → EReal) = Cert.KernelIdeal.Hand.netH1 x0 x1 x3 x4 x5 x6 x7 x8 x9 x10 x11 x12 x13 x14 := by
  rw [layer1_eq, ref_agg0, ref_W1_0, ref_b1_0, ref_g1_0, ref_be1_0, ref_mu1_0, ref_va1_0, ref_W2_0, ref_b2_0, ref_g2_0, ref_be2_0, ref_mu2_0, ref_va2_0]
  rfl

/-- The reference's node features after the second layer are the network's. -/
theorem ref_h2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) :
    (val_main_v156 (F := Ideal) x0 x1 x3 x4 x5 x6 x7 x8 x9 x10 x11 x12 x13 x14 : S50000x128.Idx → EReal) = Cert.KernelIdeal.Hand.netH2 x0 x1 x3 x4 x5 x6 x7 x8 x9 x10 x11 x12 x13 x14 := by
  rw [layer2_eq, ref_agg1, ref_h1, ref_W1_1, ref_b1_1, ref_g1_1, ref_be1_1, ref_mu1_1, ref_va1_1, ref_W2_1, ref_b2_1, ref_g2_1, ref_be2_1, ref_mu2_1, ref_va2_1]
  rfl

/-- The reference's node features after the third layer are the network's. -/
theorem ref_h3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) :
    (val_main_v234 (F := Ideal) x0 x1 x3 x4 x5 x6 x7 x8 x9 x10 x11 x12 x13 x14 : S50000x128.Idx → EReal) = Cert.KernelIdeal.Hand.netH3 x0 x1 x3 x4 x5 x6 x7 x8 x9 x10 x11 x12 x13 x14 := by
  rw [layer3_eq, ref_agg2, ref_h2, ref_W1_2, ref_b1_2, ref_g1_2, ref_be1_2, ref_mu1_2, ref_va1_2, ref_W2_2, ref_b2_2, ref_g2_2, ref_be2_2, ref_mu2_2, ref_va2_2]
  rfl

/-- The reference's node features after the fourth layer are the network's. -/
theorem ref_h4 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) :
    (val_main_v312 (F := Ideal) x0 x1 x3 x4 x5 x6 x7 x8 x9 x10 x11 x12 x13 x14 : S50000x128.Idx → EReal) = Cert.KernelIdeal.Hand.netH4 x0 x1 x3 x4 x5 x6 x7 x8 x9 x10 x11 x12 x13 x14 := by
  rw [layer4_eq, ref_agg3, ref_h3, ref_W1_3, ref_b1_3, ref_g1_3, ref_be1_3, ref_mu1_3, ref_va1_3, ref_W2_3, ref_b2_3, ref_g2_3, ref_be2_3, ref_mu2_3, ref_va2_3]
  rfl

/-- The reference's result is the network of its arguments. -/
theorem ref_result (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 x5 x6 x7 x8 : (⟨S4x128, .f32⟩ : BufTy).Contents (Elt Ideal)) (x9 : (⟨S4x128x128, .f32⟩ : BufTy).Contents (Elt Ideal)) (x10 x11 x12 x13 x14 : (⟨S4x128, .f32⟩ : BufTy).Contents (Elt Ideal)) (x15 : (⟨S512x128, .f32⟩ : BufTy).Contents (Elt Ideal)) (x16 : (⟨S128, .f32⟩ : BufTy).Contents (Elt Ideal)) (x17 : (⟨S128x10, .f32⟩ : BufTy).Contents (Elt Ideal)) (x18 : (⟨S10, .f32⟩ : BufTy).Contents (Elt Ideal)) :
    (val_main_v325 (F := Ideal) x0 x1 x2 x3 x4 x5 x6 x7 x8 x9 x10 x11 x12 x13 x14 x15 x16 x17 x18 : S512x10.Idx → EReal) = Cert.KernelIdeal.Hand.net x0 x1 x2 x3 x4 x5 x6 x7 x8 x9 x10 x11 x12 x13 x14 x15 x16 x17 x18 := by
  rw [head_eq, ref_feat, pool1_eq, pool2_eq, pool3_eq, pool4_eq, ref_h1, ref_h2, ref_h3, ref_h4]
  rfl

end Cert.Proof.RefValue

end
-- ==== Proof.lean ====
/-
  The certificate's five claims.

  Both kernel programs (the word-level one and its idealization) run ten items: a stretch of host operations before each
  of four graph-layer regions and one classifier region. Each region's pipeline meets its body obligation from the
  kernel's own run, so the program terminates without a fault and leaves its nineteen arguments as launched; the same
  launch, read at the result array, names what the idealized kernel returns. The reference is host operations only: its
  run is read back stage by stage. At the extended reals both results are one closed form of the arguments: four layers,
  each the specification's layer of the neighbours' sum and the previous features, pooled per graph, the four pools side
  by side through the two dense layers of the head. The kernel reaches it tile by tile (a tile's rows depend on the same
  rows only; the pool accumulated over the tiles is the sum over all nodes, a node whose graph id names no graph adding
  nothing on either side), the reference operation by operation; the batch norm's two groupings of a product differ by
  associativity alone, so no finiteness of the inputs is used.
-/
import proofs.«426741_j36421322670671_1_alg».proof.Defs
import proofs.«426741_j36421322670671_1_alg».proof.Proof.Gen.Kernel
import proofs.«426741_j36421322670671_1_alg».proof.Proof.Gen.KernelIdeal
import proofs.«426741_j36421322670671_1_alg».proof.Proof.Gen.ReferenceIdeal
import proofs.«426741_j36421322670671_1_alg».proof.Proof.Gen.Pre_finite_inputs
import proofs.«426741_j36421322670671_1_alg».proof.Proof.K.Launch
import proofs.«426741_j36421322670671_1_alg».proof.Proof.KI.Launch
import proofs.«426741_j36421322670671_1_alg».proof.Proof.KI.LaunchValue
import proofs.«426741_j36421322670671_1_alg».proof.Proof.KI.Value
import proofs.«426741_j36421322670671_1_alg».proof.Proof.Ref.Run
import proofs.«426741_j36421322670671_1_alg».proof.Proof.RefValue

noncomputable section

namespace Cert.Proof

open Idealize.ShloMosaic Idealize.ShloMosaic.TcCoe Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ => Cert.Kernel.Hand.frame_all (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.ref_run (F := Ideal) m ρ)

/-- From memories that agree on the arguments both idealized programs end with the same scores: the closed form. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.outsAll (F := Ideal) m 10 Cert.KernelIdeal.main_v146 c,
    Cert.KernelIdeal.Hand.result_run (F := Ideal) m ρ, ?_⟩
  refine (θ_run Cert.ReferenceIdeal.defs _ _).mono (fun _ h c => ⟨(h c).1.trans ?_, (h c).2⟩)
    (Cert.ReferenceIdeal.Hand.ref_run (F := Ideal) m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]
  exact (Cert.Proof.RefValue.ref_result _ _ _ _ _ _ _ _ _ _ _ _ _ _ _ _ _ _ _).trans
    (Cert.KernelIdeal.Hand.kernel_result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
